-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x512x512 : Shape := ⟨4, ![1, 3, 512, 512]⟩
abbrev S_ : Shape := ⟨0, ![]⟩

class Facts : Prop where
  bcast_S_S1x3x512x512 : S_.BroadcastsInDim S1x3x512x512 (![] : Fin 0 → Fin S1x3x512x512.rank)
  reducesTo_S1x3x512x512_S_d0_1_2_3 : S1x3x512x512.ReducesTo [0, 1, 2, 3] S_
  h_S_ : 0 < S_.numel

variable [Facts]

def fn {F : FTy → Type} [FloatOps F] (main_arg0 : FVec F S1x3x512x512 .f32) (main_arg1 : FVec F S1x3x512x512 .f32) : IVec S_ 1 :=
  let main_v0 : FVec F S1x3x512x512 .f32 := Host.absf main_arg0
  let main_cst : FVec F S_ .f32 := constant S_ .f32 0x7F800000#32
  let main_v1 : FVec F S1x3x512x512 .f32 := broadcastInDim S1x3x512x512 ![] bcast_S_S1x3x512x512 main_cst
  let main_v2 : IVec S1x3x512x512 1 := cmpf .olt main_v0 main_v1
  let main_c : IVec S_ 1 := constantI S_ 1 1#1
  let main_v3 : IVec S_ 1 := (fun x v => Host.reduce IntOp.andi x v reducesTo_S1x3x512x512_S_d0_1_2_3 h_S_) main_v2 main_c
  let main_v4 : FVec F S1x3x512x512 .f32 := Host.absf main_arg1
  let main_cst_0 : FVec F S_ .f32 := constant S_ .f32 0x7F800000#32
  let main_v5 : FVec F S1x3x512x512 .f32 := broadcastInDim S1x3x512x512 ![] bcast_S_S1x3x512x512 main_cst_0
  let main_v6 : IVec S1x3x512x512 1 := cmpf .olt main_v4 main_v5
  let main_c_1 : IVec S_ 1 := constantI S_ 1 1#1
  let main_v7 : IVec S_ 1 := (fun x v => Host.reduce IntOp.andi x v reducesTo_S1x3x512x512_S_d0_1_2_3 h_S_) main_v6 main_c_1
  let main_v8 : IVec S_ 1 := andi main_v3 main_v7
  main_v8
-- ==== Kernel.lean ====
abbrev S1x3x512x512 : Shape := ⟨4, ![1, 3, 512, 512]⟩
abbrev S786432 : Shape := ⟨1, ![786432]⟩
abbrev S62001x768 : Shape := ⟨2, ![62001, 768]⟩
abbrev S49152 : Shape := ⟨1, ![49152]⟩
abbrev S32x768 : Shape := ⟨2, ![32, 768]⟩
abbrev S_ : Shape := ⟨0, ![]⟩
abbrev S16384 : Shape := ⟨1, ![16384]⟩
abbrev S16 : Shape := ⟨1, ![16]⟩
abbrev S1x16 : Shape := ⟨2, ![1, 16]⟩
abbrev S16x768 : Shape := ⟨2, ![16, 768]⟩
abbrev S1x768 : Shape := ⟨2, ![1, 768]⟩

abbrev nBuf : Table → Nat
  | .hbm => 6
  | .local .scVector .vmem => 4
  | _ => 0

abbrev bufTy : (tb : Table) → Fin (nBuf tb) → BufTy
  | .hbm, ⟨0, _⟩ => ⟨S1x3x512x512, .f32⟩
  | .hbm, ⟨1, _⟩ => ⟨S1x3x512x512, .f32⟩
  | .hbm, ⟨2, _⟩ => ⟨S786432, .f32⟩
  | .hbm, ⟨3, _⟩ => ⟨S786432, .f32⟩
  | .hbm, ⟨4, _⟩ => ⟨S62001x768, .f32⟩
  | .hbm, ⟨5, _⟩ => ⟨S62001x768, .f32⟩
  | .local .scVector .vmem, ⟨0, _⟩ => ⟨S49152, .f32⟩
  | .local .scVector .vmem, ⟨1, _⟩ => ⟨S32x768, .f32⟩
  | .local .scVector .vmem, ⟨2, _⟩ => ⟨S32x768, .f32⟩
  | .local .scVector .vmem, ⟨3, _⟩ => ⟨S32x768, .f32⟩
  | _, _ => ⟨S1x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let c512_i32 : BitVec 32 := 512#32
  let v10 : BitVec 32 := Scalar.muli v7 c512_i32
  let v11 : BitVec 32 := Scalar.addi c0_i32 v10
  ![v11.toNat]
@[reducible] def k0_t1_loop : Scf.Loop 32 :=
  let c0_i32_3 : BitVec 32 := 0#32
  let c20_i32 : BitVec 32 := 20#32
  let v16 : BitVec 32 := Scalar.addi c0_i32_3 c20_i32
  let c1_i32 : BitVec 32 := 1#32
  ⟨c0_i32_3, v16, c1_i32⟩
def k0_cond1 (i : grid0.Coords) (k0_t1 : Fin k0_t1_loop.trips) : BitVec 1 :=
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v51 : BitVec 1 := Scalar.cmpi .slt v50 v9
  let v52 : BitVec 32 := Scalar.extui v51
  let c0_i32_50 : BitVec 32 := 0#32
  let v53 : BitVec 1 := Scalar.cmpi .ne v52 c0_i32_50
  v53

def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  v63
def k0_cond2 (k0_t1 : Fin k0_t1_loop.trips) : BitVec 1 :=
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c3_i32_61 : BitVec 32 := 3#32
  let v75 : BitVec 1 := Scalar.cmpi .sge v50 c3_i32_61
  let v76 : BitVec 32 := Scalar.extui v75
  let c0_i32_62 : BitVec 32 := 0#32
  let v77 : BitVec 1 := Scalar.cmpi .ne v76 c0_i32_62
  v77

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  let v64 : BitVec 32 := v63
  let c96_i32 : BitVec 32 := 96#32
  let v81 : BitVec 32 := Scalar.subi v64 c96_i32
  let c0_i32_69 : BitVec 32 := 0#32
  ![v81.toNat, 0]
@[reducible] def k0_t2_loop : Scf.Loop 32 :=
  let c0_i32_63 : BitVec 32 := 0#32
  let c32_i32_64 : BitVec 32 := 32#32
  let v78 : BitVec 32 := Scalar.addi c0_i32_63 c32_i32_64
  let c1_i32_65 : BitVec 32 := 1#32
  ⟨c0_i32_63, v78, c1_i32_65⟩
def k0_off3 (i : grid0.Coords) (k0_t1 : Fin k0_t1_loop.trips) (k0_t2 : Fin k0_t2_loop.trips) (c0_i32_74 : BitVec 32) (c0_i32_75 : BitVec 32) : Fin 1 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  let v64 : BitVec 32 := v63
  let c5_i32_55 : BitVec 32 := 5#32
  let v65 : BitVec 32 := Scalar.shrui v64 c5_i32_55
  let c67379_i32_56 : BitVec 32 := 67379#32
  let v66 : BitVec 32 := Scalar.muli v65 c67379_i32_56
  let c19_i32_57 : BitVec 32 := 19#32
  let v67 : BitVec 32 := Scalar.shrsi v66 c19_i32_57
  let v70 : BitVec 32 := Scalar.muli c2_i32_58 v67
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v71 : BitVec 32 := Scalar.subi v70 v7
  let c512_i32_59 : BitVec 32 := 512#32
  let v72 : BitVec 32 := Scalar.muli v71 c512_i32_59
  let c2_i32_60 : BitVec 32 := 2#32
  let c249_i32 : BitVec 32 := 249#32
  let v68 : BitVec 32 := Scalar.muli v67 c249_i32
  let v69 : BitVec 32 := Scalar.subi v64 v68
  let v73 : BitVec 32 := Scalar.muli c2_i32_60 v69
  let v74 : BitVec 32 := Scalar.addi v72 v73
  let c2_i32_72 : BitVec 32 := 2#32
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v85 : BitVec 32 := Scalar.muli c2_i32_72 v82
  let v86 : BitVec 32 := Scalar.addi v74 v85
  let v83 : BitVec 32 := Scalar.addi v69 v82
  let c249_i32_71 : BitVec 32 := 249#32
  let v84 : BitVec 1 := Scalar.cmpi .sge v83 c249_i32_71
  let c526_i32 : BitVec 32 := 526#32
  let c0_i32_73 : BitVec 32 := 0#32
  let v87 : BitVec 32 := Scalar.select v84 c526_i32 c0_i32_73
  let v88 : BitVec 32 := Scalar.addi v86 v87
  let v89 : BitVec 32 := Scalar.addi v88 c0_i32_74
  let v90 : BitVec 32 := Scalar.addi v89 c0_i32_75
  let v91 : Index := Scalar.indexCast v90
  ![v91.toNat]
def k0_off4 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v144 : Index := Scalar.indexCast v82
  let c0 : Index := 0#32
  ![v144.toNat, 0]
def k0_off5 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v153 : Index := Scalar.indexCast v82
  let c16 : Index := 16#32
  ![v153.toNat, 16]
def k0_off6 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v162 : Index := Scalar.indexCast v82
  let c32 : Index := 32#32
  ![v162.toNat, 32]
def k0_off7 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v171 : Index := Scalar.indexCast v82
  let c48 : Index := 48#32
  ![v171.toNat, 48]
def k0_off8 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v180 : Index := Scalar.indexCast v82
  let c64 : Index := 64#32
  ![v180.toNat, 64]
def k0_off9 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v189 : Index := Scalar.indexCast v82
  let c80 : Index := 80#32
  ![v189.toNat, 80]
def k0_off10 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v198 : Index := Scalar.indexCast v82
  let c96 : Index := 96#32
  ![v198.toNat, 96]
def k0_off11 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v207 : Index := Scalar.indexCast v82
  let c112 : Index := 112#32
  ![v207.toNat, 112]
def k0_off12 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v216 : Index := Scalar.indexCast v82
  let c128 : Index := 128#32
  ![v216.toNat, 128]
def k0_off13 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v225 : Index := Scalar.indexCast v82
  let c144 : Index := 144#32
  ![v225.toNat, 144]
def k0_off14 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v234 : Index := Scalar.indexCast v82
  let c160 : Index := 160#32
  ![v234.toNat, 160]
def k0_off15 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v243 : Index := Scalar.indexCast v82
  let c176 : Index := 176#32
  ![v243.toNat, 176]
def k0_off16 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v252 : Index := Scalar.indexCast v82
  let c192 : Index := 192#32
  ![v252.toNat, 192]
def k0_off17 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v261 : Index := Scalar.indexCast v82
  let c208 : Index := 208#32
  ![v261.toNat, 208]
def k0_off18 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v270 : Index := Scalar.indexCast v82
  let c224 : Index := 224#32
  ![v270.toNat, 224]
def k0_off19 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v279 : Index := Scalar.indexCast v82
  let c240 : Index := 240#32
  ![v279.toNat, 240]
def k0_off20 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v288 : Index := Scalar.indexCast v82
  let c256 : Index := 256#32
  ![v288.toNat, 256]
def k0_off21 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v297 : Index := Scalar.indexCast v82
  let c272 : Index := 272#32
  ![v297.toNat, 272]
def k0_off22 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v306 : Index := Scalar.indexCast v82
  let c288 : Index := 288#32
  ![v306.toNat, 288]
def k0_off23 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v315 : Index := Scalar.indexCast v82
  let c304 : Index := 304#32
  ![v315.toNat, 304]
def k0_off24 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v324 : Index := Scalar.indexCast v82
  let c320 : Index := 320#32
  ![v324.toNat, 320]
def k0_off25 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v333 : Index := Scalar.indexCast v82
  let c336 : Index := 336#32
  ![v333.toNat, 336]
def k0_off26 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v342 : Index := Scalar.indexCast v82
  let c352 : Index := 352#32
  ![v342.toNat, 352]
def k0_off27 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v351 : Index := Scalar.indexCast v82
  let c368 : Index := 368#32
  ![v351.toNat, 368]
def k0_off28 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v360 : Index := Scalar.indexCast v82
  let c384 : Index := 384#32
  ![v360.toNat, 384]
def k0_off29 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v369 : Index := Scalar.indexCast v82
  let c400 : Index := 400#32
  ![v369.toNat, 400]
def k0_off30 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v378 : Index := Scalar.indexCast v82
  let c416 : Index := 416#32
  ![v378.toNat, 416]
def k0_off31 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v387 : Index := Scalar.indexCast v82
  let c432 : Index := 432#32
  ![v387.toNat, 432]
def k0_off32 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v396 : Index := Scalar.indexCast v82
  let c448 : Index := 448#32
  ![v396.toNat, 448]
def k0_off33 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v405 : Index := Scalar.indexCast v82
  let c464 : Index := 464#32
  ![v405.toNat, 464]
def k0_off34 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v414 : Index := Scalar.indexCast v82
  let c480 : Index := 480#32
  ![v414.toNat, 480]
def k0_off35 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v423 : Index := Scalar.indexCast v82
  let c496 : Index := 496#32
  ![v423.toNat, 496]
def k0_off36 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v432 : Index := Scalar.indexCast v82
  let c512 : Index := 512#32
  ![v432.toNat, 512]
def k0_off37 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v441 : Index := Scalar.indexCast v82
  let c528 : Index := 528#32
  ![v441.toNat, 528]
def k0_off38 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v450 : Index := Scalar.indexCast v82
  let c544 : Index := 544#32
  ![v450.toNat, 544]
def k0_off39 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v459 : Index := Scalar.indexCast v82
  let c560 : Index := 560#32
  ![v459.toNat, 560]
def k0_off40 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v468 : Index := Scalar.indexCast v82
  let c576 : Index := 576#32
  ![v468.toNat, 576]
def k0_off41 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v477 : Index := Scalar.indexCast v82
  let c592 : Index := 592#32
  ![v477.toNat, 592]
def k0_off42 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v481 : Index := Scalar.indexCast v82
  let c608 : Index := 608#32
  ![v481.toNat, 608]
def k0_off43 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v485 : Index := Scalar.indexCast v82
  let c624 : Index := 624#32
  ![v485.toNat, 624]
def k0_off44 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v489 : Index := Scalar.indexCast v82
  let c640 : Index := 640#32
  ![v489.toNat, 640]
def k0_off45 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v493 : Index := Scalar.indexCast v82
  let c656 : Index := 656#32
  ![v493.toNat, 656]
def k0_off46 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v497 : Index := Scalar.indexCast v82
  let c672 : Index := 672#32
  ![v497.toNat, 672]
def k0_off47 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v501 : Index := Scalar.indexCast v82
  let c688 : Index := 688#32
  ![v501.toNat, 688]
def k0_off48 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v505 : Index := Scalar.indexCast v82
  let c704 : Index := 704#32
  ![v505.toNat, 704]
def k0_off49 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v509 : Index := Scalar.indexCast v82
  let c720 : Index := 720#32
  ![v509.toNat, 720]
def k0_off50 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v513 : Index := Scalar.indexCast v82
  let c736 : Index := 736#32
  ![v513.toNat, 736]
def k0_off51 (k0_t2 : Fin k0_t2_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t2
  let c1_i32_69 : BitVec 32 := 1#32
  let v81 : BitVec 32 := Scalar.muli arg14 c1_i32_69
  let v82 : BitVec 32 := Scalar.addi c0_i32_70 v81
  let v517 : Index := Scalar.indexCast v82
  let c752 : Index := 752#32
  ![v517.toNat, 752]
def k0_off52 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  let v64 : BitVec 32 := v63
  let c0_i32_67 : BitVec 32 := 0#32
  ![v64.toNat, 0]
def k0_cond3 (i : grid0.Coords) (k0_t1 : Fin k0_t1_loop.trips) : BitVec 1 :=
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v55 : BitVec 1 := Scalar.cmpi .slt v54 v9
  let v56 : BitVec 32 := Scalar.extui v55
  let c0_i32_52 : BitVec 32 := 0#32
  let v57 : BitVec 1 := Scalar.cmpi .ne v56 c0_i32_52
  v57

def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  v63
def k0_cond4 (k0_t1 : Fin k0_t1_loop.trips) : BitVec 1 :=
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c3_i32_61 : BitVec 32 := 3#32
  let v75 : BitVec 1 := Scalar.cmpi .sge v54 c3_i32_61
  let v76 : BitVec 32 := Scalar.extui v75
  let c0_i32_62 : BitVec 32 := 0#32
  let v77 : BitVec 1 := Scalar.cmpi .ne v76 c0_i32_62
  v77

def k0_off53 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  let v64 : BitVec 32 := v63
  let c96_i32 : BitVec 32 := 96#32
  let v81 : BitVec 32 := Scalar.subi v64 c96_i32
  let c0_i32_69 : BitVec 32 := 0#32
  ![v81.toNat, 0]
@[reducible] def k0_t3_loop : Scf.Loop 32 :=
  let c0_i32_63 : BitVec 32 := 0#32
  let c32_i32_64 : BitVec 32 := 32#32
  let v78 : BitVec 32 := Scalar.addi c0_i32_63 c32_i32_64
  let c1_i32_65 : BitVec 32 := 1#32
  ⟨c0_i32_63, v78, c1_i32_65⟩
def k0_off54 (i : grid0.Coords) (k0_t1 : Fin k0_t1_loop.trips) (k0_t3 : Fin k0_t3_loop.trips) (c0_i32_74 : BitVec 32) (c0_i32_75 : BitVec 32) : Fin 1 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  let v64 : BitVec 32 := v63
  let c5_i32_55 : BitVec 32 := 5#32
  let v65 : BitVec 32 := Scalar.shrui v64 c5_i32_55
  let c67379_i32_56 : BitVec 32 := 67379#32
  let v66 : BitVec 32 := Scalar.muli v65 c67379_i32_56
  let c19_i32_57 : BitVec 32 := 19#32
  let v67 : BitVec 32 := Scalar.shrsi v66 c19_i32_57
  let v70 : BitVec 32 := Scalar.muli c2_i32_58 v67
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v71 : BitVec 32 := Scalar.subi v70 v7
  let c512_i32_59 : BitVec 32 := 512#32
  let v72 : BitVec 32 := Scalar.muli v71 c512_i32_59
  let c2_i32_60 : BitVec 32 := 2#32
  let c249_i32 : BitVec 32 := 249#32
  let v68 : BitVec 32 := Scalar.muli v67 c249_i32
  let v69 : BitVec 32 := Scalar.subi v64 v68
  let v73 : BitVec 32 := Scalar.muli c2_i32_60 v69
  let v74 : BitVec 32 := Scalar.addi v72 v73
  let c2_i32_72 : BitVec 32 := 2#32
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v85 : BitVec 32 := Scalar.muli c2_i32_72 v82
  let v86 : BitVec 32 := Scalar.addi v74 v85
  let v83 : BitVec 32 := Scalar.addi v69 v82
  let c249_i32_71 : BitVec 32 := 249#32
  let v84 : BitVec 1 := Scalar.cmpi .sge v83 c249_i32_71
  let c526_i32 : BitVec 32 := 526#32
  let c0_i32_73 : BitVec 32 := 0#32
  let v87 : BitVec 32 := Scalar.select v84 c526_i32 c0_i32_73
  let v88 : BitVec 32 := Scalar.addi v86 v87
  let v89 : BitVec 32 := Scalar.addi v88 c0_i32_74
  let v90 : BitVec 32 := Scalar.addi v89 c0_i32_75
  let v91 : Index := Scalar.indexCast v90
  ![v91.toNat]
def k0_off55 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v144 : Index := Scalar.indexCast v82
  let c0 : Index := 0#32
  ![v144.toNat, 0]
def k0_off56 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v153 : Index := Scalar.indexCast v82
  let c16 : Index := 16#32
  ![v153.toNat, 16]
def k0_off57 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v162 : Index := Scalar.indexCast v82
  let c32 : Index := 32#32
  ![v162.toNat, 32]
def k0_off58 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v171 : Index := Scalar.indexCast v82
  let c48 : Index := 48#32
  ![v171.toNat, 48]
def k0_off59 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v180 : Index := Scalar.indexCast v82
  let c64 : Index := 64#32
  ![v180.toNat, 64]
def k0_off60 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v189 : Index := Scalar.indexCast v82
  let c80 : Index := 80#32
  ![v189.toNat, 80]
def k0_off61 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v198 : Index := Scalar.indexCast v82
  let c96 : Index := 96#32
  ![v198.toNat, 96]
def k0_off62 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v207 : Index := Scalar.indexCast v82
  let c112 : Index := 112#32
  ![v207.toNat, 112]
def k0_off63 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v216 : Index := Scalar.indexCast v82
  let c128 : Index := 128#32
  ![v216.toNat, 128]
def k0_off64 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v225 : Index := Scalar.indexCast v82
  let c144 : Index := 144#32
  ![v225.toNat, 144]
def k0_off65 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v234 : Index := Scalar.indexCast v82
  let c160 : Index := 160#32
  ![v234.toNat, 160]
def k0_off66 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v243 : Index := Scalar.indexCast v82
  let c176 : Index := 176#32
  ![v243.toNat, 176]
def k0_off67 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v252 : Index := Scalar.indexCast v82
  let c192 : Index := 192#32
  ![v252.toNat, 192]
def k0_off68 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v261 : Index := Scalar.indexCast v82
  let c208 : Index := 208#32
  ![v261.toNat, 208]
def k0_off69 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v270 : Index := Scalar.indexCast v82
  let c224 : Index := 224#32
  ![v270.toNat, 224]
def k0_off70 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v279 : Index := Scalar.indexCast v82
  let c240 : Index := 240#32
  ![v279.toNat, 240]
def k0_off71 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v288 : Index := Scalar.indexCast v82
  let c256 : Index := 256#32
  ![v288.toNat, 256]
def k0_off72 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v297 : Index := Scalar.indexCast v82
  let c272 : Index := 272#32
  ![v297.toNat, 272]
def k0_off73 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v306 : Index := Scalar.indexCast v82
  let c288 : Index := 288#32
  ![v306.toNat, 288]
def k0_off74 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v315 : Index := Scalar.indexCast v82
  let c304 : Index := 304#32
  ![v315.toNat, 304]
def k0_off75 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v324 : Index := Scalar.indexCast v82
  let c320 : Index := 320#32
  ![v324.toNat, 320]
def k0_off76 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v333 : Index := Scalar.indexCast v82
  let c336 : Index := 336#32
  ![v333.toNat, 336]
def k0_off77 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v342 : Index := Scalar.indexCast v82
  let c352 : Index := 352#32
  ![v342.toNat, 352]
def k0_off78 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v351 : Index := Scalar.indexCast v82
  let c368 : Index := 368#32
  ![v351.toNat, 368]
def k0_off79 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v360 : Index := Scalar.indexCast v82
  let c384 : Index := 384#32
  ![v360.toNat, 384]
def k0_off80 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v369 : Index := Scalar.indexCast v82
  let c400 : Index := 400#32
  ![v369.toNat, 400]
def k0_off81 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v378 : Index := Scalar.indexCast v82
  let c416 : Index := 416#32
  ![v378.toNat, 416]
def k0_off82 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v387 : Index := Scalar.indexCast v82
  let c432 : Index := 432#32
  ![v387.toNat, 432]
def k0_off83 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v396 : Index := Scalar.indexCast v82
  let c448 : Index := 448#32
  ![v396.toNat, 448]
def k0_off84 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v405 : Index := Scalar.indexCast v82
  let c464 : Index := 464#32
  ![v405.toNat, 464]
def k0_off85 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v414 : Index := Scalar.indexCast v82
  let c480 : Index := 480#32
  ![v414.toNat, 480]
def k0_off86 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v423 : Index := Scalar.indexCast v82
  let c496 : Index := 496#32
  ![v423.toNat, 496]
def k0_off87 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v432 : Index := Scalar.indexCast v82
  let c512 : Index := 512#32
  ![v432.toNat, 512]
def k0_off88 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v441 : Index := Scalar.indexCast v82
  let c528 : Index := 528#32
  ![v441.toNat, 528]
def k0_off89 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v450 : Index := Scalar.indexCast v82
  let c544 : Index := 544#32
  ![v450.toNat, 544]
def k0_off90 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v459 : Index := Scalar.indexCast v82
  let c560 : Index := 560#32
  ![v459.toNat, 560]
def k0_off91 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v468 : Index := Scalar.indexCast v82
  let c576 : Index := 576#32
  ![v468.toNat, 576]
def k0_off92 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v477 : Index := Scalar.indexCast v82
  let c592 : Index := 592#32
  ![v477.toNat, 592]
def k0_off93 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v481 : Index := Scalar.indexCast v82
  let c608 : Index := 608#32
  ![v481.toNat, 608]
def k0_off94 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v485 : Index := Scalar.indexCast v82
  let c624 : Index := 624#32
  ![v485.toNat, 624]
def k0_off95 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v489 : Index := Scalar.indexCast v82
  let c640 : Index := 640#32
  ![v489.toNat, 640]
def k0_off96 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v493 : Index := Scalar.indexCast v82
  let c656 : Index := 656#32
  ![v493.toNat, 656]
def k0_off97 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v497 : Index := Scalar.indexCast v82
  let c672 : Index := 672#32
  ![v497.toNat, 672]
def k0_off98 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v501 : Index := Scalar.indexCast v82
  let c688 : Index := 688#32
  ![v501.toNat, 688]
def k0_off99 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v505 : Index := Scalar.indexCast v82
  let c704 : Index := 704#32
  ![v505.toNat, 704]
def k0_off100 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v509 : Index := Scalar.indexCast v82
  let c720 : Index := 720#32
  ![v509.toNat, 720]
def k0_off101 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v513 : Index := Scalar.indexCast v82
  let c736 : Index := 736#32
  ![v513.toNat, 736]
def k0_off102 (k0_t3 : Fin k0_t3_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t3
  let c1_i32_69 : BitVec 32 := 1#32
  let v81 : BitVec 32 := Scalar.muli arg14 c1_i32_69
  let v82 : BitVec 32 := Scalar.addi c0_i32_70 v81
  let v517 : Index := Scalar.indexCast v82
  let c752 : Index := 752#32
  ![v517.toNat, 752]
def k0_off103 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  let v64 : BitVec 32 := v63
  let c0_i32_67 : BitVec 32 := 0#32
  ![v64.toNat, 0]
def k0_cond5 (i : grid0.Coords) (k0_t1 : Fin k0_t1_loop.trips) : BitVec 1 :=
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v59 : BitVec 1 := Scalar.cmpi .slt v58 v9
  let v60 : BitVec 32 := Scalar.extui v59
  let c0_i32_54 : BitVec 32 := 0#32
  let v61 : BitVec 1 := Scalar.cmpi .ne v60 c0_i32_54
  v61

def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  v63
def k0_cond6 (k0_t1 : Fin k0_t1_loop.trips) : BitVec 1 :=
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c3_i32_61 : BitVec 32 := 3#32
  let v75 : BitVec 1 := Scalar.cmpi .sge v58 c3_i32_61
  let v76 : BitVec 32 := Scalar.extui v75
  let c0_i32_62 : BitVec 32 := 0#32
  let v77 : BitVec 1 := Scalar.cmpi .ne v76 c0_i32_62
  v77

def k0_off104 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  let v64 : BitVec 32 := v63
  let c96_i32 : BitVec 32 := 96#32
  let v81 : BitVec 32 := Scalar.subi v64 c96_i32
  let c0_i32_69 : BitVec 32 := 0#32
  ![v81.toNat, 0]
@[reducible] def k0_t4_loop : Scf.Loop 32 :=
  let c0_i32_63 : BitVec 32 := 0#32
  let c32_i32_64 : BitVec 32 := 32#32
  let v78 : BitVec 32 := Scalar.addi c0_i32_63 c32_i32_64
  let c1_i32_65 : BitVec 32 := 1#32
  ⟨c0_i32_63, v78, c1_i32_65⟩
def k0_off105 (i : grid0.Coords) (k0_t1 : Fin k0_t1_loop.trips) (k0_t4 : Fin k0_t4_loop.trips) (c0_i32_74 : BitVec 32) (c0_i32_75 : BitVec 32) : Fin 1 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  let v64 : BitVec 32 := v63
  let c5_i32_55 : BitVec 32 := 5#32
  let v65 : BitVec 32 := Scalar.shrui v64 c5_i32_55
  let c67379_i32_56 : BitVec 32 := 67379#32
  let v66 : BitVec 32 := Scalar.muli v65 c67379_i32_56
  let c19_i32_57 : BitVec 32 := 19#32
  let v67 : BitVec 32 := Scalar.shrsi v66 c19_i32_57
  let v70 : BitVec 32 := Scalar.muli c2_i32_58 v67
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v71 : BitVec 32 := Scalar.subi v70 v7
  let c512_i32_59 : BitVec 32 := 512#32
  let v72 : BitVec 32 := Scalar.muli v71 c512_i32_59
  let c2_i32_60 : BitVec 32 := 2#32
  let c249_i32 : BitVec 32 := 249#32
  let v68 : BitVec 32 := Scalar.muli v67 c249_i32
  let v69 : BitVec 32 := Scalar.subi v64 v68
  let v73 : BitVec 32 := Scalar.muli c2_i32_60 v69
  let v74 : BitVec 32 := Scalar.addi v72 v73
  let c2_i32_72 : BitVec 32 := 2#32
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v85 : BitVec 32 := Scalar.muli c2_i32_72 v82
  let v86 : BitVec 32 := Scalar.addi v74 v85
  let v83 : BitVec 32 := Scalar.addi v69 v82
  let c249_i32_71 : BitVec 32 := 249#32
  let v84 : BitVec 1 := Scalar.cmpi .sge v83 c249_i32_71
  let c526_i32 : BitVec 32 := 526#32
  let c0_i32_73 : BitVec 32 := 0#32
  let v87 : BitVec 32 := Scalar.select v84 c526_i32 c0_i32_73
  let v88 : BitVec 32 := Scalar.addi v86 v87
  let v89 : BitVec 32 := Scalar.addi v88 c0_i32_74
  let v90 : BitVec 32 := Scalar.addi v89 c0_i32_75
  let v91 : Index := Scalar.indexCast v90
  ![v91.toNat]
def k0_off106 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v144 : Index := Scalar.indexCast v82
  let c0 : Index := 0#32
  ![v144.toNat, 0]
def k0_off107 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v153 : Index := Scalar.indexCast v82
  let c16 : Index := 16#32
  ![v153.toNat, 16]
def k0_off108 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v162 : Index := Scalar.indexCast v82
  let c32 : Index := 32#32
  ![v162.toNat, 32]
def k0_off109 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v171 : Index := Scalar.indexCast v82
  let c48 : Index := 48#32
  ![v171.toNat, 48]
def k0_off110 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v180 : Index := Scalar.indexCast v82
  let c64 : Index := 64#32
  ![v180.toNat, 64]
def k0_off111 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v189 : Index := Scalar.indexCast v82
  let c80 : Index := 80#32
  ![v189.toNat, 80]
def k0_off112 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v198 : Index := Scalar.indexCast v82
  let c96 : Index := 96#32
  ![v198.toNat, 96]
def k0_off113 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v207 : Index := Scalar.indexCast v82
  let c112 : Index := 112#32
  ![v207.toNat, 112]
def k0_off114 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v216 : Index := Scalar.indexCast v82
  let c128 : Index := 128#32
  ![v216.toNat, 128]
def k0_off115 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v225 : Index := Scalar.indexCast v82
  let c144 : Index := 144#32
  ![v225.toNat, 144]
def k0_off116 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v234 : Index := Scalar.indexCast v82
  let c160 : Index := 160#32
  ![v234.toNat, 160]
def k0_off117 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v243 : Index := Scalar.indexCast v82
  let c176 : Index := 176#32
  ![v243.toNat, 176]
def k0_off118 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v252 : Index := Scalar.indexCast v82
  let c192 : Index := 192#32
  ![v252.toNat, 192]
def k0_off119 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v261 : Index := Scalar.indexCast v82
  let c208 : Index := 208#32
  ![v261.toNat, 208]
def k0_off120 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v270 : Index := Scalar.indexCast v82
  let c224 : Index := 224#32
  ![v270.toNat, 224]
def k0_off121 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v279 : Index := Scalar.indexCast v82
  let c240 : Index := 240#32
  ![v279.toNat, 240]
def k0_off122 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v288 : Index := Scalar.indexCast v82
  let c256 : Index := 256#32
  ![v288.toNat, 256]
def k0_off123 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v297 : Index := Scalar.indexCast v82
  let c272 : Index := 272#32
  ![v297.toNat, 272]
def k0_off124 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v306 : Index := Scalar.indexCast v82
  let c288 : Index := 288#32
  ![v306.toNat, 288]
def k0_off125 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v315 : Index := Scalar.indexCast v82
  let c304 : Index := 304#32
  ![v315.toNat, 304]
def k0_off126 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v324 : Index := Scalar.indexCast v82
  let c320 : Index := 320#32
  ![v324.toNat, 320]
def k0_off127 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v333 : Index := Scalar.indexCast v82
  let c336 : Index := 336#32
  ![v333.toNat, 336]
def k0_off128 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v342 : Index := Scalar.indexCast v82
  let c352 : Index := 352#32
  ![v342.toNat, 352]
def k0_off129 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v351 : Index := Scalar.indexCast v82
  let c368 : Index := 368#32
  ![v351.toNat, 368]
def k0_off130 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v360 : Index := Scalar.indexCast v82
  let c384 : Index := 384#32
  ![v360.toNat, 384]
def k0_off131 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v369 : Index := Scalar.indexCast v82
  let c400 : Index := 400#32
  ![v369.toNat, 400]
def k0_off132 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v378 : Index := Scalar.indexCast v82
  let c416 : Index := 416#32
  ![v378.toNat, 416]
def k0_off133 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v387 : Index := Scalar.indexCast v82
  let c432 : Index := 432#32
  ![v387.toNat, 432]
def k0_off134 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v396 : Index := Scalar.indexCast v82
  let c448 : Index := 448#32
  ![v396.toNat, 448]
def k0_off135 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v405 : Index := Scalar.indexCast v82
  let c464 : Index := 464#32
  ![v405.toNat, 464]
def k0_off136 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v414 : Index := Scalar.indexCast v82
  let c480 : Index := 480#32
  ![v414.toNat, 480]
def k0_off137 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v423 : Index := Scalar.indexCast v82
  let c496 : Index := 496#32
  ![v423.toNat, 496]
def k0_off138 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v432 : Index := Scalar.indexCast v82
  let c512 : Index := 512#32
  ![v432.toNat, 512]
def k0_off139 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v441 : Index := Scalar.indexCast v82
  let c528 : Index := 528#32
  ![v441.toNat, 528]
def k0_off140 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v450 : Index := Scalar.indexCast v82
  let c544 : Index := 544#32
  ![v450.toNat, 544]
def k0_off141 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v459 : Index := Scalar.indexCast v82
  let c560 : Index := 560#32
  ![v459.toNat, 560]
def k0_off142 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v468 : Index := Scalar.indexCast v82
  let c576 : Index := 576#32
  ![v468.toNat, 576]
def k0_off143 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v477 : Index := Scalar.indexCast v82
  let c592 : Index := 592#32
  ![v477.toNat, 592]
def k0_off144 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v481 : Index := Scalar.indexCast v82
  let c608 : Index := 608#32
  ![v481.toNat, 608]
def k0_off145 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v485 : Index := Scalar.indexCast v82
  let c624 : Index := 624#32
  ![v485.toNat, 624]
def k0_off146 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v489 : Index := Scalar.indexCast v82
  let c640 : Index := 640#32
  ![v489.toNat, 640]
def k0_off147 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v493 : Index := Scalar.indexCast v82
  let c656 : Index := 656#32
  ![v493.toNat, 656]
def k0_off148 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v497 : Index := Scalar.indexCast v82
  let c672 : Index := 672#32
  ![v497.toNat, 672]
def k0_off149 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v501 : Index := Scalar.indexCast v82
  let c688 : Index := 688#32
  ![v501.toNat, 688]
def k0_off150 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v505 : Index := Scalar.indexCast v82
  let c704 : Index := 704#32
  ![v505.toNat, 704]
def k0_off151 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v509 : Index := Scalar.indexCast v82
  let c720 : Index := 720#32
  ![v509.toNat, 720]
def k0_off152 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v513 : Index := Scalar.indexCast v82
  let c736 : Index := 736#32
  ![v513.toNat, 736]
def k0_off153 (k0_t4 : Fin k0_t4_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t4
  let c1_i32_69 : BitVec 32 := 1#32
  let v81 : BitVec 32 := Scalar.muli arg14 c1_i32_69
  let v82 : BitVec 32 := Scalar.addi c0_i32_70 v81
  let v517 : Index := Scalar.indexCast v82
  let c752 : Index := 752#32
  ![v517.toNat, 752]
def k0_off154 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_3 : BitVec 32 := 0#32
  let c1_i32 : BitVec 32 := 1#32
  let arg13 : BitVec 32 := Scf.iv c0_i32_3 c1_i32 k0_t1
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  let v64 : BitVec 32 := v63
  let c0_i32_67 : BitVec 32 := 0#32
  ![v64.toNat, 0]
def k0_cond7 (i : grid0.Coords) : BitVec 1 :=
  let c60_i32 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v17 : BitVec 1 := Scalar.cmpi .slt c60_i32 v9
  let v18 : BitVec 32 := Scalar.extui v17
  let c0_i32_6 : BitVec 32 := 0#32
  let v19 : BitVec 1 := Scalar.cmpi .ne v18 c0_i32_6
  v19

def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_5 : BitVec 32 := 60#32
  let c32_i32 : BitVec 32 := 32#32
  let v48 : BitVec 32 := Scalar.muli c60_i32_5 c32_i32
  let v49 : BitVec 32 := Scalar.addi v2 v48
  v49
def k0_cond8 : BitVec 1 :=
  let c60_i32_5 : BitVec 32 := 60#32
  let c3_i32 : BitVec 32 := 3#32
  let v61 : BitVec 1 := Scalar.cmpi .sge c60_i32_5 c3_i32
  let v62 : BitVec 32 := Scalar.extui v61
  let c0_i32_54 : BitVec 32 := 0#32
  let v63 : BitVec 1 := Scalar.cmpi .ne v62 c0_i32_54
  v63

def k0_off155 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_5 : BitVec 32 := 60#32
  let c32_i32 : BitVec 32 := 32#32
  let v48 : BitVec 32 := Scalar.muli c60_i32_5 c32_i32
  let v49 : BitVec 32 := Scalar.addi v2 v48
  let v50 : BitVec 32 := v49
  let c96_i32 : BitVec 32 := 96#32
  let v67 : BitVec 32 := Scalar.subi v50 c96_i32
  let c0_i32_61 : BitVec 32 := 0#32
  ![v67.toNat, 0]
@[reducible] def k0_t5_loop : Scf.Loop 32 :=
  let c0_i32_55 : BitVec 32 := 0#32
  let c32_i32_56 : BitVec 32 := 32#32
  let v64 : BitVec 32 := Scalar.addi c0_i32_55 c32_i32_56
  let c1_i32_57 : BitVec 32 := 1#32
  ⟨c0_i32_55, v64, c1_i32_57⟩
def k0_off156 (i : grid0.Coords) (k0_t5 : Fin k0_t5_loop.trips) (c0_i32_66 : BitVec 32) (c0_i32_67 : BitVec 32) : Fin 1 → Nat :=
  let c2_i32_51 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_5 : BitVec 32 := 60#32
  let c32_i32 : BitVec 32 := 32#32
  let v48 : BitVec 32 := Scalar.muli c60_i32_5 c32_i32
  let v49 : BitVec 32 := Scalar.addi v2 v48
  let v50 : BitVec 32 := v49
  let c5_i32_48 : BitVec 32 := 5#32
  let v51 : BitVec 32 := Scalar.shrui v50 c5_i32_48
  let c67379_i32_49 : BitVec 32 := 67379#32
  let v52 : BitVec 32 := Scalar.muli v51 c67379_i32_49
  let c19_i32_50 : BitVec 32 := 19#32
  let v53 : BitVec 32 := Scalar.shrsi v52 c19_i32_50
  let v56 : BitVec 32 := Scalar.muli c2_i32_51 v53
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v57 : BitVec 32 := Scalar.subi v56 v7
  let c512_i32_52 : BitVec 32 := 512#32
  let v58 : BitVec 32 := Scalar.muli v57 c512_i32_52
  let c2_i32_53 : BitVec 32 := 2#32
  let c249_i32 : BitVec 32 := 249#32
  let v54 : BitVec 32 := Scalar.muli v53 c249_i32
  let v55 : BitVec 32 := Scalar.subi v50 v54
  let v59 : BitVec 32 := Scalar.muli c2_i32_53 v55
  let v60 : BitVec 32 := Scalar.addi v58 v59
  let c2_i32_64 : BitVec 32 := 2#32
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v71 : BitVec 32 := Scalar.muli c2_i32_64 v68
  let v72 : BitVec 32 := Scalar.addi v60 v71
  let v69 : BitVec 32 := Scalar.addi v55 v68
  let c249_i32_63 : BitVec 32 := 249#32
  let v70 : BitVec 1 := Scalar.cmpi .sge v69 c249_i32_63
  let c526_i32 : BitVec 32 := 526#32
  let c0_i32_65 : BitVec 32 := 0#32
  let v73 : BitVec 32 := Scalar.select v70 c526_i32 c0_i32_65
  let v74 : BitVec 32 := Scalar.addi v72 v73
  let v75 : BitVec 32 := Scalar.addi v74 c0_i32_66
  let v76 : BitVec 32 := Scalar.addi v75 c0_i32_67
  let v77 : Index := Scalar.indexCast v76
  ![v77.toNat]
def k0_off157 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v130 : Index := Scalar.indexCast v68
  let c0 : Index := 0#32
  ![v130.toNat, 0]
def k0_off158 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v139 : Index := Scalar.indexCast v68
  let c16 : Index := 16#32
  ![v139.toNat, 16]
def k0_off159 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v148 : Index := Scalar.indexCast v68
  let c32 : Index := 32#32
  ![v148.toNat, 32]
def k0_off160 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v157 : Index := Scalar.indexCast v68
  let c48 : Index := 48#32
  ![v157.toNat, 48]
def k0_off161 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v166 : Index := Scalar.indexCast v68
  let c64 : Index := 64#32
  ![v166.toNat, 64]
def k0_off162 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v175 : Index := Scalar.indexCast v68
  let c80 : Index := 80#32
  ![v175.toNat, 80]
def k0_off163 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v184 : Index := Scalar.indexCast v68
  let c96 : Index := 96#32
  ![v184.toNat, 96]
def k0_off164 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v193 : Index := Scalar.indexCast v68
  let c112 : Index := 112#32
  ![v193.toNat, 112]
def k0_off165 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v202 : Index := Scalar.indexCast v68
  let c128 : Index := 128#32
  ![v202.toNat, 128]
def k0_off166 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v211 : Index := Scalar.indexCast v68
  let c144 : Index := 144#32
  ![v211.toNat, 144]
def k0_off167 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v220 : Index := Scalar.indexCast v68
  let c160 : Index := 160#32
  ![v220.toNat, 160]
def k0_off168 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v229 : Index := Scalar.indexCast v68
  let c176 : Index := 176#32
  ![v229.toNat, 176]
def k0_off169 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v238 : Index := Scalar.indexCast v68
  let c192 : Index := 192#32
  ![v238.toNat, 192]
def k0_off170 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v247 : Index := Scalar.indexCast v68
  let c208 : Index := 208#32
  ![v247.toNat, 208]
def k0_off171 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v256 : Index := Scalar.indexCast v68
  let c224 : Index := 224#32
  ![v256.toNat, 224]
def k0_off172 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v265 : Index := Scalar.indexCast v68
  let c240 : Index := 240#32
  ![v265.toNat, 240]
def k0_off173 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v274 : Index := Scalar.indexCast v68
  let c256 : Index := 256#32
  ![v274.toNat, 256]
def k0_off174 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v283 : Index := Scalar.indexCast v68
  let c272 : Index := 272#32
  ![v283.toNat, 272]
def k0_off175 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v292 : Index := Scalar.indexCast v68
  let c288 : Index := 288#32
  ![v292.toNat, 288]
def k0_off176 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v301 : Index := Scalar.indexCast v68
  let c304 : Index := 304#32
  ![v301.toNat, 304]
def k0_off177 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v310 : Index := Scalar.indexCast v68
  let c320 : Index := 320#32
  ![v310.toNat, 320]
def k0_off178 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v319 : Index := Scalar.indexCast v68
  let c336 : Index := 336#32
  ![v319.toNat, 336]
def k0_off179 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v328 : Index := Scalar.indexCast v68
  let c352 : Index := 352#32
  ![v328.toNat, 352]
def k0_off180 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v337 : Index := Scalar.indexCast v68
  let c368 : Index := 368#32
  ![v337.toNat, 368]
def k0_off181 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v346 : Index := Scalar.indexCast v68
  let c384 : Index := 384#32
  ![v346.toNat, 384]
def k0_off182 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v355 : Index := Scalar.indexCast v68
  let c400 : Index := 400#32
  ![v355.toNat, 400]
def k0_off183 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v364 : Index := Scalar.indexCast v68
  let c416 : Index := 416#32
  ![v364.toNat, 416]
def k0_off184 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v373 : Index := Scalar.indexCast v68
  let c432 : Index := 432#32
  ![v373.toNat, 432]
def k0_off185 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v382 : Index := Scalar.indexCast v68
  let c448 : Index := 448#32
  ![v382.toNat, 448]
def k0_off186 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v391 : Index := Scalar.indexCast v68
  let c464 : Index := 464#32
  ![v391.toNat, 464]
def k0_off187 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v400 : Index := Scalar.indexCast v68
  let c480 : Index := 480#32
  ![v400.toNat, 480]
def k0_off188 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v409 : Index := Scalar.indexCast v68
  let c496 : Index := 496#32
  ![v409.toNat, 496]
def k0_off189 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v418 : Index := Scalar.indexCast v68
  let c512 : Index := 512#32
  ![v418.toNat, 512]
def k0_off190 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v427 : Index := Scalar.indexCast v68
  let c528 : Index := 528#32
  ![v427.toNat, 528]
def k0_off191 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v436 : Index := Scalar.indexCast v68
  let c544 : Index := 544#32
  ![v436.toNat, 544]
def k0_off192 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v445 : Index := Scalar.indexCast v68
  let c560 : Index := 560#32
  ![v445.toNat, 560]
def k0_off193 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v454 : Index := Scalar.indexCast v68
  let c576 : Index := 576#32
  ![v454.toNat, 576]
def k0_off194 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v463 : Index := Scalar.indexCast v68
  let c592 : Index := 592#32
  ![v463.toNat, 592]
def k0_off195 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v467 : Index := Scalar.indexCast v68
  let c608 : Index := 608#32
  ![v467.toNat, 608]
def k0_off196 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v471 : Index := Scalar.indexCast v68
  let c624 : Index := 624#32
  ![v471.toNat, 624]
def k0_off197 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v475 : Index := Scalar.indexCast v68
  let c640 : Index := 640#32
  ![v475.toNat, 640]
def k0_off198 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v479 : Index := Scalar.indexCast v68
  let c656 : Index := 656#32
  ![v479.toNat, 656]
def k0_off199 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v483 : Index := Scalar.indexCast v68
  let c672 : Index := 672#32
  ![v483.toNat, 672]
def k0_off200 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v487 : Index := Scalar.indexCast v68
  let c688 : Index := 688#32
  ![v487.toNat, 688]
def k0_off201 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v491 : Index := Scalar.indexCast v68
  let c704 : Index := 704#32
  ![v491.toNat, 704]
def k0_off202 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v495 : Index := Scalar.indexCast v68
  let c720 : Index := 720#32
  ![v495.toNat, 720]
def k0_off203 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v499 : Index := Scalar.indexCast v68
  let c736 : Index := 736#32
  ![v499.toNat, 736]
def k0_off204 (k0_t5 : Fin k0_t5_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t5
  let c1_i32_61 : BitVec 32 := 1#32
  let v67 : BitVec 32 := Scalar.muli arg13 c1_i32_61
  let v68 : BitVec 32 := Scalar.addi c0_i32_62 v67
  let v503 : Index := Scalar.indexCast v68
  let c752 : Index := 752#32
  ![v503.toNat, 752]
def k0_off205 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_5 : BitVec 32 := 60#32
  let c32_i32 : BitVec 32 := 32#32
  let v48 : BitVec 32 := Scalar.muli c60_i32_5 c32_i32
  let v49 : BitVec 32 := Scalar.addi v2 v48
  let v50 : BitVec 32 := v49
  let c0_i32_59 : BitVec 32 := 0#32
  ![v50.toNat, 0]
def k0_cond9 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_19 : BitVec 32 := 31#32
  let v26 : BitVec 1 := Scalar.cmpi .eq v1 c31_i32_19
  let v27 : BitVec 32 := Scalar.extui v26
  let c0_i32_20 : BitVec 32 := 0#32
  let v28 : BitVec 1 := Scalar.cmpi .ne v27 c0_i32_20
  v28

@[reducible] def k0_t6_loop : Scf.Loop 32 :=
  let c0_i32_49 : BitVec 32 := 0#32
  let c17_i32 : BitVec 32 := 17#32
  let v51 : BitVec 32 := Scalar.addi c0_i32_49 c17_i32
  let c1_i32_50 : BitVec 32 := 1#32
  ⟨c0_i32_49, v51, c1_i32_50⟩
def k0_off206 (i : grid0.Coords) (k0_t6 : Fin k0_t6_loop.trips) (c0_i32_56 : BitVec 32) (c0_i32_57 : BitVec 32) : Fin 1 → Nat :=
  let c496_i32 : BitVec 32 := 496#32
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v48 : BitVec 32 := Scalar.subi c496_i32 v7
  let c512_i32_48 : BitVec 32 := 512#32
  let v49 : BitVec 32 := Scalar.muli v48 c512_i32_48
  let c464_i32 : BitVec 32 := 464#32
  let v50 : BitVec 32 := Scalar.addi v49 c464_i32
  let c2_i32_54 : BitVec 32 := 2#32
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v56 : BitVec 32 := Scalar.muli c2_i32_54 v53
  let v57 : BitVec 32 := Scalar.addi v50 v56
  let c232_i32 : BitVec 32 := 232#32
  let v54 : BitVec 32 := Scalar.addi c232_i32 v53
  let c249_i32 : BitVec 32 := 249#32
  let v55 : BitVec 1 := Scalar.cmpi .sge v54 c249_i32
  let c526_i32 : BitVec 32 := 526#32
  let c0_i32_55 : BitVec 32 := 0#32
  let v58 : BitVec 32 := Scalar.select v55 c526_i32 c0_i32_55
  let v59 : BitVec 32 := Scalar.addi v57 v58
  let v60 : BitVec 32 := Scalar.addi v59 c0_i32_56
  let v61 : BitVec 32 := Scalar.addi v60 c0_i32_57
  let v62 : Index := Scalar.indexCast v61
  ![v62.toNat]
def k0_off207 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v115 : Index := Scalar.indexCast v53
  let c0 : Index := 0#32
  ![v115.toNat, 0]
def k0_off208 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v124 : Index := Scalar.indexCast v53
  let c16 : Index := 16#32
  ![v124.toNat, 16]
def k0_off209 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v133 : Index := Scalar.indexCast v53
  let c32 : Index := 32#32
  ![v133.toNat, 32]
def k0_off210 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v142 : Index := Scalar.indexCast v53
  let c48 : Index := 48#32
  ![v142.toNat, 48]
def k0_off211 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v151 : Index := Scalar.indexCast v53
  let c64 : Index := 64#32
  ![v151.toNat, 64]
def k0_off212 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v160 : Index := Scalar.indexCast v53
  let c80 : Index := 80#32
  ![v160.toNat, 80]
def k0_off213 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v169 : Index := Scalar.indexCast v53
  let c96 : Index := 96#32
  ![v169.toNat, 96]
def k0_off214 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v178 : Index := Scalar.indexCast v53
  let c112 : Index := 112#32
  ![v178.toNat, 112]
def k0_off215 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v187 : Index := Scalar.indexCast v53
  let c128 : Index := 128#32
  ![v187.toNat, 128]
def k0_off216 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v196 : Index := Scalar.indexCast v53
  let c144 : Index := 144#32
  ![v196.toNat, 144]
def k0_off217 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v205 : Index := Scalar.indexCast v53
  let c160 : Index := 160#32
  ![v205.toNat, 160]
def k0_off218 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v214 : Index := Scalar.indexCast v53
  let c176 : Index := 176#32
  ![v214.toNat, 176]
def k0_off219 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v223 : Index := Scalar.indexCast v53
  let c192 : Index := 192#32
  ![v223.toNat, 192]
def k0_off220 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v232 : Index := Scalar.indexCast v53
  let c208 : Index := 208#32
  ![v232.toNat, 208]
def k0_off221 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v241 : Index := Scalar.indexCast v53
  let c224 : Index := 224#32
  ![v241.toNat, 224]
def k0_off222 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v250 : Index := Scalar.indexCast v53
  let c240 : Index := 240#32
  ![v250.toNat, 240]
def k0_off223 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v259 : Index := Scalar.indexCast v53
  let c256 : Index := 256#32
  ![v259.toNat, 256]
def k0_off224 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v268 : Index := Scalar.indexCast v53
  let c272 : Index := 272#32
  ![v268.toNat, 272]
def k0_off225 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v277 : Index := Scalar.indexCast v53
  let c288 : Index := 288#32
  ![v277.toNat, 288]
def k0_off226 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v286 : Index := Scalar.indexCast v53
  let c304 : Index := 304#32
  ![v286.toNat, 304]
def k0_off227 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v295 : Index := Scalar.indexCast v53
  let c320 : Index := 320#32
  ![v295.toNat, 320]
def k0_off228 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v304 : Index := Scalar.indexCast v53
  let c336 : Index := 336#32
  ![v304.toNat, 336]
def k0_off229 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v313 : Index := Scalar.indexCast v53
  let c352 : Index := 352#32
  ![v313.toNat, 352]
def k0_off230 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v322 : Index := Scalar.indexCast v53
  let c368 : Index := 368#32
  ![v322.toNat, 368]
def k0_off231 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v331 : Index := Scalar.indexCast v53
  let c384 : Index := 384#32
  ![v331.toNat, 384]
def k0_off232 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v340 : Index := Scalar.indexCast v53
  let c400 : Index := 400#32
  ![v340.toNat, 400]
def k0_off233 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v349 : Index := Scalar.indexCast v53
  let c416 : Index := 416#32
  ![v349.toNat, 416]
def k0_off234 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v358 : Index := Scalar.indexCast v53
  let c432 : Index := 432#32
  ![v358.toNat, 432]
def k0_off235 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v367 : Index := Scalar.indexCast v53
  let c448 : Index := 448#32
  ![v367.toNat, 448]
def k0_off236 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v376 : Index := Scalar.indexCast v53
  let c464 : Index := 464#32
  ![v376.toNat, 464]
def k0_off237 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v385 : Index := Scalar.indexCast v53
  let c480 : Index := 480#32
  ![v385.toNat, 480]
def k0_off238 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v394 : Index := Scalar.indexCast v53
  let c496 : Index := 496#32
  ![v394.toNat, 496]
def k0_off239 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v403 : Index := Scalar.indexCast v53
  let c512 : Index := 512#32
  ![v403.toNat, 512]
def k0_off240 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v412 : Index := Scalar.indexCast v53
  let c528 : Index := 528#32
  ![v412.toNat, 528]
def k0_off241 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v421 : Index := Scalar.indexCast v53
  let c544 : Index := 544#32
  ![v421.toNat, 544]
def k0_off242 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v430 : Index := Scalar.indexCast v53
  let c560 : Index := 560#32
  ![v430.toNat, 560]
def k0_off243 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v439 : Index := Scalar.indexCast v53
  let c576 : Index := 576#32
  ![v439.toNat, 576]
def k0_off244 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v448 : Index := Scalar.indexCast v53
  let c592 : Index := 592#32
  ![v448.toNat, 592]
def k0_off245 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v452 : Index := Scalar.indexCast v53
  let c608 : Index := 608#32
  ![v452.toNat, 608]
def k0_off246 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v456 : Index := Scalar.indexCast v53
  let c624 : Index := 624#32
  ![v456.toNat, 624]
def k0_off247 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v460 : Index := Scalar.indexCast v53
  let c640 : Index := 640#32
  ![v460.toNat, 640]
def k0_off248 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v464 : Index := Scalar.indexCast v53
  let c656 : Index := 656#32
  ![v464.toNat, 656]
def k0_off249 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v468 : Index := Scalar.indexCast v53
  let c672 : Index := 672#32
  ![v468.toNat, 672]
def k0_off250 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v472 : Index := Scalar.indexCast v53
  let c688 : Index := 688#32
  ![v472.toNat, 688]
def k0_off251 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v476 : Index := Scalar.indexCast v53
  let c704 : Index := 704#32
  ![v476.toNat, 704]
def k0_off252 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v480 : Index := Scalar.indexCast v53
  let c720 : Index := 720#32
  ![v480.toNat, 720]
def k0_off253 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v484 : Index := Scalar.indexCast v53
  let c736 : Index := 736#32
  ![v484.toNat, 736]
def k0_off254 (k0_t6 : Fin k0_t6_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t6
  let c1_i32_52 : BitVec 32 := 1#32
  let v52 : BitVec 32 := Scalar.muli arg13 c1_i32_52
  let v53 : BitVec 32 := Scalar.addi c0_i32_53 v52
  let v488 : Index := Scalar.indexCast v53
  let c752 : Index := 752#32
  ![v488.toNat, 752]
@[reducible] def k0_t7_loop : Scf.Loop 32 :=
  let c0_i32_27 : BitVec 32 := 0#32
  let c20_i32_28 : BitVec 32 := 20#32
  let v35 : BitVec 32 := Scalar.addi c0_i32_27 c20_i32_28
  let c1_i32_29 : BitVec 32 := 1#32
  ⟨c0_i32_27, v35, c1_i32_29⟩
def k0_cond10 (i : grid0.Coords) (k0_t7 : Fin k0_t7_loop.trips) : BitVec 1 :=
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v51 : BitVec 1 := Scalar.cmpi .slt v50 v9
  let v52 : BitVec 32 := Scalar.extui v51
  let c0_i32_50 : BitVec 32 := 0#32
  let v53 : BitVec 1 := Scalar.cmpi .ne v52 c0_i32_50
  v53

def k0_mult5 (i : grid0.Coords) (k0_t7 : Fin k0_t7_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  v63
def k0_cond11 (k0_t7 : Fin k0_t7_loop.trips) : BitVec 1 :=
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c3_i32_61 : BitVec 32 := 3#32
  let v75 : BitVec 1 := Scalar.cmpi .sge v50 c3_i32_61
  let v76 : BitVec 32 := Scalar.extui v75
  let c0_i32_62 : BitVec 32 := 0#32
  let v77 : BitVec 1 := Scalar.cmpi .ne v76 c0_i32_62
  v77

def k0_off255 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  let v64 : BitVec 32 := v63
  let c96_i32 : BitVec 32 := 96#32
  let v81 : BitVec 32 := Scalar.subi v64 c96_i32
  let c0_i32_69 : BitVec 32 := 0#32
  ![v81.toNat, 0]
@[reducible] def k0_t8_loop : Scf.Loop 32 :=
  let c0_i32_63 : BitVec 32 := 0#32
  let c32_i32_64 : BitVec 32 := 32#32
  let v78 : BitVec 32 := Scalar.addi c0_i32_63 c32_i32_64
  let c1_i32_65 : BitVec 32 := 1#32
  ⟨c0_i32_63, v78, c1_i32_65⟩
def k0_off256 (i : grid0.Coords) (k0_t7 : Fin k0_t7_loop.trips) (k0_t8 : Fin k0_t8_loop.trips) (c0_i32_74 : BitVec 32) (c0_i32_75 : BitVec 32) : Fin 1 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  let v64 : BitVec 32 := v63
  let c5_i32_55 : BitVec 32 := 5#32
  let v65 : BitVec 32 := Scalar.shrui v64 c5_i32_55
  let c67379_i32_56 : BitVec 32 := 67379#32
  let v66 : BitVec 32 := Scalar.muli v65 c67379_i32_56
  let c19_i32_57 : BitVec 32 := 19#32
  let v67 : BitVec 32 := Scalar.shrsi v66 c19_i32_57
  let v70 : BitVec 32 := Scalar.muli c2_i32_58 v67
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v71 : BitVec 32 := Scalar.subi v70 v7
  let c512_i32_59 : BitVec 32 := 512#32
  let v72 : BitVec 32 := Scalar.muli v71 c512_i32_59
  let c2_i32_60 : BitVec 32 := 2#32
  let c249_i32 : BitVec 32 := 249#32
  let v68 : BitVec 32 := Scalar.muli v67 c249_i32
  let v69 : BitVec 32 := Scalar.subi v64 v68
  let v73 : BitVec 32 := Scalar.muli c2_i32_60 v69
  let v74 : BitVec 32 := Scalar.addi v72 v73
  let c2_i32_72 : BitVec 32 := 2#32
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v85 : BitVec 32 := Scalar.muli c2_i32_72 v82
  let v86 : BitVec 32 := Scalar.addi v74 v85
  let v83 : BitVec 32 := Scalar.addi v69 v82
  let c249_i32_71 : BitVec 32 := 249#32
  let v84 : BitVec 1 := Scalar.cmpi .sge v83 c249_i32_71
  let c526_i32 : BitVec 32 := 526#32
  let c0_i32_73 : BitVec 32 := 0#32
  let v87 : BitVec 32 := Scalar.select v84 c526_i32 c0_i32_73
  let v88 : BitVec 32 := Scalar.addi v86 v87
  let v89 : BitVec 32 := Scalar.addi v88 c0_i32_74
  let v90 : BitVec 32 := Scalar.addi v89 c0_i32_75
  let v91 : Index := Scalar.indexCast v90
  ![v91.toNat]
def k0_off257 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v144 : Index := Scalar.indexCast v82
  let c0 : Index := 0#32
  ![v144.toNat, 0]
def k0_off258 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v153 : Index := Scalar.indexCast v82
  let c16 : Index := 16#32
  ![v153.toNat, 16]
def k0_off259 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v162 : Index := Scalar.indexCast v82
  let c32 : Index := 32#32
  ![v162.toNat, 32]
def k0_off260 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v171 : Index := Scalar.indexCast v82
  let c48 : Index := 48#32
  ![v171.toNat, 48]
def k0_off261 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v180 : Index := Scalar.indexCast v82
  let c64 : Index := 64#32
  ![v180.toNat, 64]
def k0_off262 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v189 : Index := Scalar.indexCast v82
  let c80 : Index := 80#32
  ![v189.toNat, 80]
def k0_off263 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v198 : Index := Scalar.indexCast v82
  let c96 : Index := 96#32
  ![v198.toNat, 96]
def k0_off264 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v207 : Index := Scalar.indexCast v82
  let c112 : Index := 112#32
  ![v207.toNat, 112]
def k0_off265 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v216 : Index := Scalar.indexCast v82
  let c128 : Index := 128#32
  ![v216.toNat, 128]
def k0_off266 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v225 : Index := Scalar.indexCast v82
  let c144 : Index := 144#32
  ![v225.toNat, 144]
def k0_off267 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v234 : Index := Scalar.indexCast v82
  let c160 : Index := 160#32
  ![v234.toNat, 160]
def k0_off268 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v243 : Index := Scalar.indexCast v82
  let c176 : Index := 176#32
  ![v243.toNat, 176]
def k0_off269 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v252 : Index := Scalar.indexCast v82
  let c192 : Index := 192#32
  ![v252.toNat, 192]
def k0_off270 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v261 : Index := Scalar.indexCast v82
  let c208 : Index := 208#32
  ![v261.toNat, 208]
def k0_off271 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v270 : Index := Scalar.indexCast v82
  let c224 : Index := 224#32
  ![v270.toNat, 224]
def k0_off272 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v279 : Index := Scalar.indexCast v82
  let c240 : Index := 240#32
  ![v279.toNat, 240]
def k0_off273 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v288 : Index := Scalar.indexCast v82
  let c256 : Index := 256#32
  ![v288.toNat, 256]
def k0_off274 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v297 : Index := Scalar.indexCast v82
  let c272 : Index := 272#32
  ![v297.toNat, 272]
def k0_off275 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v306 : Index := Scalar.indexCast v82
  let c288 : Index := 288#32
  ![v306.toNat, 288]
def k0_off276 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v315 : Index := Scalar.indexCast v82
  let c304 : Index := 304#32
  ![v315.toNat, 304]
def k0_off277 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v324 : Index := Scalar.indexCast v82
  let c320 : Index := 320#32
  ![v324.toNat, 320]
def k0_off278 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v333 : Index := Scalar.indexCast v82
  let c336 : Index := 336#32
  ![v333.toNat, 336]
def k0_off279 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v342 : Index := Scalar.indexCast v82
  let c352 : Index := 352#32
  ![v342.toNat, 352]
def k0_off280 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v351 : Index := Scalar.indexCast v82
  let c368 : Index := 368#32
  ![v351.toNat, 368]
def k0_off281 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v360 : Index := Scalar.indexCast v82
  let c384 : Index := 384#32
  ![v360.toNat, 384]
def k0_off282 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v369 : Index := Scalar.indexCast v82
  let c400 : Index := 400#32
  ![v369.toNat, 400]
def k0_off283 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v378 : Index := Scalar.indexCast v82
  let c416 : Index := 416#32
  ![v378.toNat, 416]
def k0_off284 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v387 : Index := Scalar.indexCast v82
  let c432 : Index := 432#32
  ![v387.toNat, 432]
def k0_off285 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v396 : Index := Scalar.indexCast v82
  let c448 : Index := 448#32
  ![v396.toNat, 448]
def k0_off286 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v405 : Index := Scalar.indexCast v82
  let c464 : Index := 464#32
  ![v405.toNat, 464]
def k0_off287 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v414 : Index := Scalar.indexCast v82
  let c480 : Index := 480#32
  ![v414.toNat, 480]
def k0_off288 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v423 : Index := Scalar.indexCast v82
  let c496 : Index := 496#32
  ![v423.toNat, 496]
def k0_off289 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v432 : Index := Scalar.indexCast v82
  let c512 : Index := 512#32
  ![v432.toNat, 512]
def k0_off290 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v441 : Index := Scalar.indexCast v82
  let c528 : Index := 528#32
  ![v441.toNat, 528]
def k0_off291 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v450 : Index := Scalar.indexCast v82
  let c544 : Index := 544#32
  ![v450.toNat, 544]
def k0_off292 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v459 : Index := Scalar.indexCast v82
  let c560 : Index := 560#32
  ![v459.toNat, 560]
def k0_off293 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v468 : Index := Scalar.indexCast v82
  let c576 : Index := 576#32
  ![v468.toNat, 576]
def k0_off294 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v477 : Index := Scalar.indexCast v82
  let c592 : Index := 592#32
  ![v477.toNat, 592]
def k0_off295 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v481 : Index := Scalar.indexCast v82
  let c608 : Index := 608#32
  ![v481.toNat, 608]
def k0_off296 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v485 : Index := Scalar.indexCast v82
  let c624 : Index := 624#32
  ![v485.toNat, 624]
def k0_off297 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v489 : Index := Scalar.indexCast v82
  let c640 : Index := 640#32
  ![v489.toNat, 640]
def k0_off298 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v493 : Index := Scalar.indexCast v82
  let c656 : Index := 656#32
  ![v493.toNat, 656]
def k0_off299 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v497 : Index := Scalar.indexCast v82
  let c672 : Index := 672#32
  ![v497.toNat, 672]
def k0_off300 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v501 : Index := Scalar.indexCast v82
  let c688 : Index := 688#32
  ![v501.toNat, 688]
def k0_off301 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v505 : Index := Scalar.indexCast v82
  let c704 : Index := 704#32
  ![v505.toNat, 704]
def k0_off302 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v509 : Index := Scalar.indexCast v82
  let c720 : Index := 720#32
  ![v509.toNat, 720]
def k0_off303 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v513 : Index := Scalar.indexCast v82
  let c736 : Index := 736#32
  ![v513.toNat, 736]
def k0_off304 (k0_t8 : Fin k0_t8_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t8
  let c1_i32_69 : BitVec 32 := 1#32
  let v81 : BitVec 32 := Scalar.muli arg14 c1_i32_69
  let v82 : BitVec 32 := Scalar.addi c0_i32_70 v81
  let v517 : Index := Scalar.indexCast v82
  let c752 : Index := 752#32
  ![v517.toNat, 752]
def k0_off305 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c0_i32_49 : BitVec 32 := 0#32
  let v50 : BitVec 32 := Scalar.addi v49 c0_i32_49
  let c32_i32 : BitVec 32 := 32#32
  let v62 : BitVec 32 := Scalar.muli v50 c32_i32
  let v63 : BitVec 32 := Scalar.addi v2 v62
  let v64 : BitVec 32 := v63
  let c0_i32_67 : BitVec 32 := 0#32
  ![v64.toNat, 0]
def k0_cond12 (i : grid0.Coords) (k0_t7 : Fin k0_t7_loop.trips) : BitVec 1 :=
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v55 : BitVec 1 := Scalar.cmpi .slt v54 v9
  let v56 : BitVec 32 := Scalar.extui v55
  let c0_i32_52 : BitVec 32 := 0#32
  let v57 : BitVec 1 := Scalar.cmpi .ne v56 c0_i32_52
  v57

def k0_mult6 (i : grid0.Coords) (k0_t7 : Fin k0_t7_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  v63
def k0_cond13 (k0_t7 : Fin k0_t7_loop.trips) : BitVec 1 :=
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c3_i32_61 : BitVec 32 := 3#32
  let v75 : BitVec 1 := Scalar.cmpi .sge v54 c3_i32_61
  let v76 : BitVec 32 := Scalar.extui v75
  let c0_i32_62 : BitVec 32 := 0#32
  let v77 : BitVec 1 := Scalar.cmpi .ne v76 c0_i32_62
  v77

def k0_off306 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  let v64 : BitVec 32 := v63
  let c96_i32 : BitVec 32 := 96#32
  let v81 : BitVec 32 := Scalar.subi v64 c96_i32
  let c0_i32_69 : BitVec 32 := 0#32
  ![v81.toNat, 0]
@[reducible] def k0_t9_loop : Scf.Loop 32 :=
  let c0_i32_63 : BitVec 32 := 0#32
  let c32_i32_64 : BitVec 32 := 32#32
  let v78 : BitVec 32 := Scalar.addi c0_i32_63 c32_i32_64
  let c1_i32_65 : BitVec 32 := 1#32
  ⟨c0_i32_63, v78, c1_i32_65⟩
def k0_off307 (i : grid0.Coords) (k0_t7 : Fin k0_t7_loop.trips) (k0_t9 : Fin k0_t9_loop.trips) (c0_i32_74 : BitVec 32) (c0_i32_75 : BitVec 32) : Fin 1 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  let v64 : BitVec 32 := v63
  let c5_i32_55 : BitVec 32 := 5#32
  let v65 : BitVec 32 := Scalar.shrui v64 c5_i32_55
  let c67379_i32_56 : BitVec 32 := 67379#32
  let v66 : BitVec 32 := Scalar.muli v65 c67379_i32_56
  let c19_i32_57 : BitVec 32 := 19#32
  let v67 : BitVec 32 := Scalar.shrsi v66 c19_i32_57
  let v70 : BitVec 32 := Scalar.muli c2_i32_58 v67
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v71 : BitVec 32 := Scalar.subi v70 v7
  let c512_i32_59 : BitVec 32 := 512#32
  let v72 : BitVec 32 := Scalar.muli v71 c512_i32_59
  let c2_i32_60 : BitVec 32 := 2#32
  let c249_i32 : BitVec 32 := 249#32
  let v68 : BitVec 32 := Scalar.muli v67 c249_i32
  let v69 : BitVec 32 := Scalar.subi v64 v68
  let v73 : BitVec 32 := Scalar.muli c2_i32_60 v69
  let v74 : BitVec 32 := Scalar.addi v72 v73
  let c2_i32_72 : BitVec 32 := 2#32
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v85 : BitVec 32 := Scalar.muli c2_i32_72 v82
  let v86 : BitVec 32 := Scalar.addi v74 v85
  let v83 : BitVec 32 := Scalar.addi v69 v82
  let c249_i32_71 : BitVec 32 := 249#32
  let v84 : BitVec 1 := Scalar.cmpi .sge v83 c249_i32_71
  let c526_i32 : BitVec 32 := 526#32
  let c0_i32_73 : BitVec 32 := 0#32
  let v87 : BitVec 32 := Scalar.select v84 c526_i32 c0_i32_73
  let v88 : BitVec 32 := Scalar.addi v86 v87
  let v89 : BitVec 32 := Scalar.addi v88 c0_i32_74
  let v90 : BitVec 32 := Scalar.addi v89 c0_i32_75
  let v91 : Index := Scalar.indexCast v90
  ![v91.toNat]
def k0_off308 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v144 : Index := Scalar.indexCast v82
  let c0 : Index := 0#32
  ![v144.toNat, 0]
def k0_off309 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v153 : Index := Scalar.indexCast v82
  let c16 : Index := 16#32
  ![v153.toNat, 16]
def k0_off310 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v162 : Index := Scalar.indexCast v82
  let c32 : Index := 32#32
  ![v162.toNat, 32]
def k0_off311 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v171 : Index := Scalar.indexCast v82
  let c48 : Index := 48#32
  ![v171.toNat, 48]
def k0_off312 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v180 : Index := Scalar.indexCast v82
  let c64 : Index := 64#32
  ![v180.toNat, 64]
def k0_off313 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v189 : Index := Scalar.indexCast v82
  let c80 : Index := 80#32
  ![v189.toNat, 80]
def k0_off314 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v198 : Index := Scalar.indexCast v82
  let c96 : Index := 96#32
  ![v198.toNat, 96]
def k0_off315 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v207 : Index := Scalar.indexCast v82
  let c112 : Index := 112#32
  ![v207.toNat, 112]
def k0_off316 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v216 : Index := Scalar.indexCast v82
  let c128 : Index := 128#32
  ![v216.toNat, 128]
def k0_off317 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v225 : Index := Scalar.indexCast v82
  let c144 : Index := 144#32
  ![v225.toNat, 144]
def k0_off318 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v234 : Index := Scalar.indexCast v82
  let c160 : Index := 160#32
  ![v234.toNat, 160]
def k0_off319 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v243 : Index := Scalar.indexCast v82
  let c176 : Index := 176#32
  ![v243.toNat, 176]
def k0_off320 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v252 : Index := Scalar.indexCast v82
  let c192 : Index := 192#32
  ![v252.toNat, 192]
def k0_off321 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v261 : Index := Scalar.indexCast v82
  let c208 : Index := 208#32
  ![v261.toNat, 208]
def k0_off322 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v270 : Index := Scalar.indexCast v82
  let c224 : Index := 224#32
  ![v270.toNat, 224]
def k0_off323 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v279 : Index := Scalar.indexCast v82
  let c240 : Index := 240#32
  ![v279.toNat, 240]
def k0_off324 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v288 : Index := Scalar.indexCast v82
  let c256 : Index := 256#32
  ![v288.toNat, 256]
def k0_off325 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v297 : Index := Scalar.indexCast v82
  let c272 : Index := 272#32
  ![v297.toNat, 272]
def k0_off326 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v306 : Index := Scalar.indexCast v82
  let c288 : Index := 288#32
  ![v306.toNat, 288]
def k0_off327 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v315 : Index := Scalar.indexCast v82
  let c304 : Index := 304#32
  ![v315.toNat, 304]
def k0_off328 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v324 : Index := Scalar.indexCast v82
  let c320 : Index := 320#32
  ![v324.toNat, 320]
def k0_off329 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v333 : Index := Scalar.indexCast v82
  let c336 : Index := 336#32
  ![v333.toNat, 336]
def k0_off330 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v342 : Index := Scalar.indexCast v82
  let c352 : Index := 352#32
  ![v342.toNat, 352]
def k0_off331 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v351 : Index := Scalar.indexCast v82
  let c368 : Index := 368#32
  ![v351.toNat, 368]
def k0_off332 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v360 : Index := Scalar.indexCast v82
  let c384 : Index := 384#32
  ![v360.toNat, 384]
def k0_off333 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v369 : Index := Scalar.indexCast v82
  let c400 : Index := 400#32
  ![v369.toNat, 400]
def k0_off334 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v378 : Index := Scalar.indexCast v82
  let c416 : Index := 416#32
  ![v378.toNat, 416]
def k0_off335 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v387 : Index := Scalar.indexCast v82
  let c432 : Index := 432#32
  ![v387.toNat, 432]
def k0_off336 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v396 : Index := Scalar.indexCast v82
  let c448 : Index := 448#32
  ![v396.toNat, 448]
def k0_off337 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v405 : Index := Scalar.indexCast v82
  let c464 : Index := 464#32
  ![v405.toNat, 464]
def k0_off338 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v414 : Index := Scalar.indexCast v82
  let c480 : Index := 480#32
  ![v414.toNat, 480]
def k0_off339 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v423 : Index := Scalar.indexCast v82
  let c496 : Index := 496#32
  ![v423.toNat, 496]
def k0_off340 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v432 : Index := Scalar.indexCast v82
  let c512 : Index := 512#32
  ![v432.toNat, 512]
def k0_off341 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v441 : Index := Scalar.indexCast v82
  let c528 : Index := 528#32
  ![v441.toNat, 528]
def k0_off342 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v450 : Index := Scalar.indexCast v82
  let c544 : Index := 544#32
  ![v450.toNat, 544]
def k0_off343 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v459 : Index := Scalar.indexCast v82
  let c560 : Index := 560#32
  ![v459.toNat, 560]
def k0_off344 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v468 : Index := Scalar.indexCast v82
  let c576 : Index := 576#32
  ![v468.toNat, 576]
def k0_off345 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v477 : Index := Scalar.indexCast v82
  let c592 : Index := 592#32
  ![v477.toNat, 592]
def k0_off346 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v481 : Index := Scalar.indexCast v82
  let c608 : Index := 608#32
  ![v481.toNat, 608]
def k0_off347 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v485 : Index := Scalar.indexCast v82
  let c624 : Index := 624#32
  ![v485.toNat, 624]
def k0_off348 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v489 : Index := Scalar.indexCast v82
  let c640 : Index := 640#32
  ![v489.toNat, 640]
def k0_off349 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v493 : Index := Scalar.indexCast v82
  let c656 : Index := 656#32
  ![v493.toNat, 656]
def k0_off350 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v497 : Index := Scalar.indexCast v82
  let c672 : Index := 672#32
  ![v497.toNat, 672]
def k0_off351 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v501 : Index := Scalar.indexCast v82
  let c688 : Index := 688#32
  ![v501.toNat, 688]
def k0_off352 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v505 : Index := Scalar.indexCast v82
  let c704 : Index := 704#32
  ![v505.toNat, 704]
def k0_off353 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v509 : Index := Scalar.indexCast v82
  let c720 : Index := 720#32
  ![v509.toNat, 720]
def k0_off354 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v513 : Index := Scalar.indexCast v82
  let c736 : Index := 736#32
  ![v513.toNat, 736]
def k0_off355 (k0_t9 : Fin k0_t9_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t9
  let c1_i32_69 : BitVec 32 := 1#32
  let v81 : BitVec 32 := Scalar.muli arg14 c1_i32_69
  let v82 : BitVec 32 := Scalar.addi c0_i32_70 v81
  let v517 : Index := Scalar.indexCast v82
  let c752 : Index := 752#32
  ![v517.toNat, 752]
def k0_off356 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c1_i32_51 : BitVec 32 := 1#32
  let v54 : BitVec 32 := Scalar.addi v49 c1_i32_51
  let c32_i32 : BitVec 32 := 32#32
  let v62 : BitVec 32 := Scalar.muli v54 c32_i32
  let v63 : BitVec 32 := Scalar.addi v2 v62
  let v64 : BitVec 32 := v63
  let c0_i32_67 : BitVec 32 := 0#32
  ![v64.toNat, 0]
def k0_cond14 (i : grid0.Coords) (k0_t7 : Fin k0_t7_loop.trips) : BitVec 1 :=
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v59 : BitVec 1 := Scalar.cmpi .slt v58 v9
  let v60 : BitVec 32 := Scalar.extui v59
  let c0_i32_54 : BitVec 32 := 0#32
  let v61 : BitVec 1 := Scalar.cmpi .ne v60 c0_i32_54
  v61

def k0_mult7 (i : grid0.Coords) (k0_t7 : Fin k0_t7_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  v63
def k0_cond15 (k0_t7 : Fin k0_t7_loop.trips) : BitVec 1 :=
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c3_i32_61 : BitVec 32 := 3#32
  let v75 : BitVec 1 := Scalar.cmpi .sge v58 c3_i32_61
  let v76 : BitVec 32 := Scalar.extui v75
  let c0_i32_62 : BitVec 32 := 0#32
  let v77 : BitVec 1 := Scalar.cmpi .ne v76 c0_i32_62
  v77

def k0_off357 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  let v64 : BitVec 32 := v63
  let c96_i32 : BitVec 32 := 96#32
  let v81 : BitVec 32 := Scalar.subi v64 c96_i32
  let c0_i32_69 : BitVec 32 := 0#32
  ![v81.toNat, 0]
@[reducible] def k0_t10_loop : Scf.Loop 32 :=
  let c0_i32_63 : BitVec 32 := 0#32
  let c32_i32_64 : BitVec 32 := 32#32
  let v78 : BitVec 32 := Scalar.addi c0_i32_63 c32_i32_64
  let c1_i32_65 : BitVec 32 := 1#32
  ⟨c0_i32_63, v78, c1_i32_65⟩
def k0_off358 (i : grid0.Coords) (k0_t7 : Fin k0_t7_loop.trips) (k0_t10 : Fin k0_t10_loop.trips) (c0_i32_74 : BitVec 32) (c0_i32_75 : BitVec 32) : Fin 1 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  let v64 : BitVec 32 := v63
  let c5_i32_55 : BitVec 32 := 5#32
  let v65 : BitVec 32 := Scalar.shrui v64 c5_i32_55
  let c67379_i32_56 : BitVec 32 := 67379#32
  let v66 : BitVec 32 := Scalar.muli v65 c67379_i32_56
  let c19_i32_57 : BitVec 32 := 19#32
  let v67 : BitVec 32 := Scalar.shrsi v66 c19_i32_57
  let v70 : BitVec 32 := Scalar.muli c2_i32_58 v67
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v71 : BitVec 32 := Scalar.subi v70 v7
  let c512_i32_59 : BitVec 32 := 512#32
  let v72 : BitVec 32 := Scalar.muli v71 c512_i32_59
  let c2_i32_60 : BitVec 32 := 2#32
  let c249_i32 : BitVec 32 := 249#32
  let v68 : BitVec 32 := Scalar.muli v67 c249_i32
  let v69 : BitVec 32 := Scalar.subi v64 v68
  let v73 : BitVec 32 := Scalar.muli c2_i32_60 v69
  let v74 : BitVec 32 := Scalar.addi v72 v73
  let c2_i32_72 : BitVec 32 := 2#32
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v85 : BitVec 32 := Scalar.muli c2_i32_72 v82
  let v86 : BitVec 32 := Scalar.addi v74 v85
  let v83 : BitVec 32 := Scalar.addi v69 v82
  let c249_i32_71 : BitVec 32 := 249#32
  let v84 : BitVec 1 := Scalar.cmpi .sge v83 c249_i32_71
  let c526_i32 : BitVec 32 := 526#32
  let c0_i32_73 : BitVec 32 := 0#32
  let v87 : BitVec 32 := Scalar.select v84 c526_i32 c0_i32_73
  let v88 : BitVec 32 := Scalar.addi v86 v87
  let v89 : BitVec 32 := Scalar.addi v88 c0_i32_74
  let v90 : BitVec 32 := Scalar.addi v89 c0_i32_75
  let v91 : Index := Scalar.indexCast v90
  ![v91.toNat]
def k0_off359 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v144 : Index := Scalar.indexCast v82
  let c0 : Index := 0#32
  ![v144.toNat, 0]
def k0_off360 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v153 : Index := Scalar.indexCast v82
  let c16 : Index := 16#32
  ![v153.toNat, 16]
def k0_off361 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v162 : Index := Scalar.indexCast v82
  let c32 : Index := 32#32
  ![v162.toNat, 32]
def k0_off362 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v171 : Index := Scalar.indexCast v82
  let c48 : Index := 48#32
  ![v171.toNat, 48]
def k0_off363 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v180 : Index := Scalar.indexCast v82
  let c64 : Index := 64#32
  ![v180.toNat, 64]
def k0_off364 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v189 : Index := Scalar.indexCast v82
  let c80 : Index := 80#32
  ![v189.toNat, 80]
def k0_off365 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v198 : Index := Scalar.indexCast v82
  let c96 : Index := 96#32
  ![v198.toNat, 96]
def k0_off366 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v207 : Index := Scalar.indexCast v82
  let c112 : Index := 112#32
  ![v207.toNat, 112]
def k0_off367 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v216 : Index := Scalar.indexCast v82
  let c128 : Index := 128#32
  ![v216.toNat, 128]
def k0_off368 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v225 : Index := Scalar.indexCast v82
  let c144 : Index := 144#32
  ![v225.toNat, 144]
def k0_off369 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v234 : Index := Scalar.indexCast v82
  let c160 : Index := 160#32
  ![v234.toNat, 160]
def k0_off370 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v243 : Index := Scalar.indexCast v82
  let c176 : Index := 176#32
  ![v243.toNat, 176]
def k0_off371 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v252 : Index := Scalar.indexCast v82
  let c192 : Index := 192#32
  ![v252.toNat, 192]
def k0_off372 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v261 : Index := Scalar.indexCast v82
  let c208 : Index := 208#32
  ![v261.toNat, 208]
def k0_off373 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v270 : Index := Scalar.indexCast v82
  let c224 : Index := 224#32
  ![v270.toNat, 224]
def k0_off374 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v279 : Index := Scalar.indexCast v82
  let c240 : Index := 240#32
  ![v279.toNat, 240]
def k0_off375 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v288 : Index := Scalar.indexCast v82
  let c256 : Index := 256#32
  ![v288.toNat, 256]
def k0_off376 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v297 : Index := Scalar.indexCast v82
  let c272 : Index := 272#32
  ![v297.toNat, 272]
def k0_off377 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v306 : Index := Scalar.indexCast v82
  let c288 : Index := 288#32
  ![v306.toNat, 288]
def k0_off378 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v315 : Index := Scalar.indexCast v82
  let c304 : Index := 304#32
  ![v315.toNat, 304]
def k0_off379 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v324 : Index := Scalar.indexCast v82
  let c320 : Index := 320#32
  ![v324.toNat, 320]
def k0_off380 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v333 : Index := Scalar.indexCast v82
  let c336 : Index := 336#32
  ![v333.toNat, 336]
def k0_off381 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v342 : Index := Scalar.indexCast v82
  let c352 : Index := 352#32
  ![v342.toNat, 352]
def k0_off382 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v351 : Index := Scalar.indexCast v82
  let c368 : Index := 368#32
  ![v351.toNat, 368]
def k0_off383 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v360 : Index := Scalar.indexCast v82
  let c384 : Index := 384#32
  ![v360.toNat, 384]
def k0_off384 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v369 : Index := Scalar.indexCast v82
  let c400 : Index := 400#32
  ![v369.toNat, 400]
def k0_off385 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v378 : Index := Scalar.indexCast v82
  let c416 : Index := 416#32
  ![v378.toNat, 416]
def k0_off386 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v387 : Index := Scalar.indexCast v82
  let c432 : Index := 432#32
  ![v387.toNat, 432]
def k0_off387 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v396 : Index := Scalar.indexCast v82
  let c448 : Index := 448#32
  ![v396.toNat, 448]
def k0_off388 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v405 : Index := Scalar.indexCast v82
  let c464 : Index := 464#32
  ![v405.toNat, 464]
def k0_off389 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v414 : Index := Scalar.indexCast v82
  let c480 : Index := 480#32
  ![v414.toNat, 480]
def k0_off390 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v423 : Index := Scalar.indexCast v82
  let c496 : Index := 496#32
  ![v423.toNat, 496]
def k0_off391 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v432 : Index := Scalar.indexCast v82
  let c512 : Index := 512#32
  ![v432.toNat, 512]
def k0_off392 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v441 : Index := Scalar.indexCast v82
  let c528 : Index := 528#32
  ![v441.toNat, 528]
def k0_off393 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v450 : Index := Scalar.indexCast v82
  let c544 : Index := 544#32
  ![v450.toNat, 544]
def k0_off394 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v459 : Index := Scalar.indexCast v82
  let c560 : Index := 560#32
  ![v459.toNat, 560]
def k0_off395 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v468 : Index := Scalar.indexCast v82
  let c576 : Index := 576#32
  ![v468.toNat, 576]
def k0_off396 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v477 : Index := Scalar.indexCast v82
  let c592 : Index := 592#32
  ![v477.toNat, 592]
def k0_off397 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v481 : Index := Scalar.indexCast v82
  let c608 : Index := 608#32
  ![v481.toNat, 608]
def k0_off398 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v485 : Index := Scalar.indexCast v82
  let c624 : Index := 624#32
  ![v485.toNat, 624]
def k0_off399 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v489 : Index := Scalar.indexCast v82
  let c640 : Index := 640#32
  ![v489.toNat, 640]
def k0_off400 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v493 : Index := Scalar.indexCast v82
  let c656 : Index := 656#32
  ![v493.toNat, 656]
def k0_off401 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v497 : Index := Scalar.indexCast v82
  let c672 : Index := 672#32
  ![v497.toNat, 672]
def k0_off402 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v501 : Index := Scalar.indexCast v82
  let c688 : Index := 688#32
  ![v501.toNat, 688]
def k0_off403 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v505 : Index := Scalar.indexCast v82
  let c704 : Index := 704#32
  ![v505.toNat, 704]
def k0_off404 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v509 : Index := Scalar.indexCast v82
  let c720 : Index := 720#32
  ![v509.toNat, 720]
def k0_off405 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v513 : Index := Scalar.indexCast v82
  let c736 : Index := 736#32
  ![v513.toNat, 736]
def k0_off406 (k0_t10 : Fin k0_t10_loop.trips) : Fin 2 → Nat :=
  let c0_i32_70 : BitVec 32 := 0#32
  let c0_i32_63 : BitVec 32 := 0#32
  let c1_i32_65 : BitVec 32 := 1#32
  let arg14 : BitVec 32 := Scf.iv c0_i32_63 c1_i32_65 k0_t10
  let c1_i32_69 : BitVec 32 := 1#32
  let v81 : BitVec 32 := Scalar.muli arg14 c1_i32_69
  let v82 : BitVec 32 := Scalar.addi c0_i32_70 v81
  let v517 : Index := Scalar.indexCast v82
  let c752 : Index := 752#32
  ![v517.toNat, 752]
def k0_off407 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c0_i32_48 : BitVec 32 := 0#32
  let c0_i32_27 : BitVec 32 := 0#32
  let c1_i32_29 : BitVec 32 := 1#32
  let arg13 : BitVec 32 := Scf.iv c0_i32_27 c1_i32_29 k0_t7
  let c3_i32 : BitVec 32 := 3#32
  let v48 : BitVec 32 := Scalar.muli arg13 c3_i32
  let v49 : BitVec 32 := Scalar.addi c0_i32_48 v48
  let c2_i32_53 : BitVec 32 := 2#32
  let v58 : BitVec 32 := Scalar.addi v49 c2_i32_53
  let c32_i32 : BitVec 32 := 32#32
  let v62 : BitVec 32 := Scalar.muli v58 c32_i32
  let v63 : BitVec 32 := Scalar.addi v2 v62
  let v64 : BitVec 32 := v63
  let c0_i32_67 : BitVec 32 := 0#32
  ![v64.toNat, 0]
def k0_cond16 (i : grid0.Coords) : BitVec 1 :=
  let c60_i32_31 : BitVec 32 := 60#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v8 : BitVec 1 := Scalar.cmpi .eq v1 c31_i32
  let c46_i32 : BitVec 32 := 46#32
  let c61_i32 : BitVec 32 := 61#32
  let v9 : BitVec 32 := Scalar.select v8 c46_i32 c61_i32
  let v36 : BitVec 1 := Scalar.cmpi .slt c60_i32_31 v9
  let v37 : BitVec 32 := Scalar.extui v36
  let c0_i32_33 : BitVec 32 := 0#32
  let v38 : BitVec 1 := Scalar.cmpi .ne v37 c0_i32_33
  v38

def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_32 : BitVec 32 := 60#32
  let c32_i32 : BitVec 32 := 32#32
  let v48 : BitVec 32 := Scalar.muli c60_i32_32 c32_i32
  let v49 : BitVec 32 := Scalar.addi v2 v48
  v49
def k0_cond17 : BitVec 1 :=
  let c60_i32_32 : BitVec 32 := 60#32
  let c3_i32 : BitVec 32 := 3#32
  let v61 : BitVec 1 := Scalar.cmpi .sge c60_i32_32 c3_i32
  let v62 : BitVec 32 := Scalar.extui v61
  let c0_i32_54 : BitVec 32 := 0#32
  let v63 : BitVec 1 := Scalar.cmpi .ne v62 c0_i32_54
  v63

def k0_off408 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_32 : BitVec 32 := 60#32
  let c32_i32 : BitVec 32 := 32#32
  let v48 : BitVec 32 := Scalar.muli c60_i32_32 c32_i32
  let v49 : BitVec 32 := Scalar.addi v2 v48
  let v50 : BitVec 32 := v49
  let c96_i32 : BitVec 32 := 96#32
  let v67 : BitVec 32 := Scalar.subi v50 c96_i32
  let c0_i32_61 : BitVec 32 := 0#32
  ![v67.toNat, 0]
@[reducible] def k0_t11_loop : Scf.Loop 32 :=
  let c0_i32_55 : BitVec 32 := 0#32
  let c32_i32_56 : BitVec 32 := 32#32
  let v64 : BitVec 32 := Scalar.addi c0_i32_55 c32_i32_56
  let c1_i32_57 : BitVec 32 := 1#32
  ⟨c0_i32_55, v64, c1_i32_57⟩
def k0_off409 (i : grid0.Coords) (k0_t11 : Fin k0_t11_loop.trips) (c0_i32_66 : BitVec 32) (c0_i32_67 : BitVec 32) : Fin 1 → Nat :=
  let c2_i32_51 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_32 : BitVec 32 := 60#32
  let c32_i32 : BitVec 32 := 32#32
  let v48 : BitVec 32 := Scalar.muli c60_i32_32 c32_i32
  let v49 : BitVec 32 := Scalar.addi v2 v48
  let v50 : BitVec 32 := v49
  let c5_i32_48 : BitVec 32 := 5#32
  let v51 : BitVec 32 := Scalar.shrui v50 c5_i32_48
  let c67379_i32_49 : BitVec 32 := 67379#32
  let v52 : BitVec 32 := Scalar.muli v51 c67379_i32_49
  let c19_i32_50 : BitVec 32 := 19#32
  let v53 : BitVec 32 := Scalar.shrsi v52 c19_i32_50
  let v56 : BitVec 32 := Scalar.muli c2_i32_51 v53
  let c2_i32_0 : BitVec 32 := 2#32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v57 : BitVec 32 := Scalar.subi v56 v7
  let c512_i32_52 : BitVec 32 := 512#32
  let v58 : BitVec 32 := Scalar.muli v57 c512_i32_52
  let c2_i32_53 : BitVec 32 := 2#32
  let c249_i32 : BitVec 32 := 249#32
  let v54 : BitVec 32 := Scalar.muli v53 c249_i32
  let v55 : BitVec 32 := Scalar.subi v50 v54
  let v59 : BitVec 32 := Scalar.muli c2_i32_53 v55
  let v60 : BitVec 32 := Scalar.addi v58 v59
  let c2_i32_64 : BitVec 32 := 2#32
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v71 : BitVec 32 := Scalar.muli c2_i32_64 v68
  let v72 : BitVec 32 := Scalar.addi v60 v71
  let v69 : BitVec 32 := Scalar.addi v55 v68
  let c249_i32_63 : BitVec 32 := 249#32
  let v70 : BitVec 1 := Scalar.cmpi .sge v69 c249_i32_63
  let c526_i32 : BitVec 32 := 526#32
  let c0_i32_65 : BitVec 32 := 0#32
  let v73 : BitVec 32 := Scalar.select v70 c526_i32 c0_i32_65
  let v74 : BitVec 32 := Scalar.addi v72 v73
  let v75 : BitVec 32 := Scalar.addi v74 c0_i32_66
  let v76 : BitVec 32 := Scalar.addi v75 c0_i32_67
  let v77 : Index := Scalar.indexCast v76
  ![v77.toNat]
def k0_off410 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v130 : Index := Scalar.indexCast v68
  let c0 : Index := 0#32
  ![v130.toNat, 0]
def k0_off411 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v139 : Index := Scalar.indexCast v68
  let c16 : Index := 16#32
  ![v139.toNat, 16]
def k0_off412 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v148 : Index := Scalar.indexCast v68
  let c32 : Index := 32#32
  ![v148.toNat, 32]
def k0_off413 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v157 : Index := Scalar.indexCast v68
  let c48 : Index := 48#32
  ![v157.toNat, 48]
def k0_off414 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v166 : Index := Scalar.indexCast v68
  let c64 : Index := 64#32
  ![v166.toNat, 64]
def k0_off415 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v175 : Index := Scalar.indexCast v68
  let c80 : Index := 80#32
  ![v175.toNat, 80]
def k0_off416 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v184 : Index := Scalar.indexCast v68
  let c96 : Index := 96#32
  ![v184.toNat, 96]
def k0_off417 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v193 : Index := Scalar.indexCast v68
  let c112 : Index := 112#32
  ![v193.toNat, 112]
def k0_off418 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v202 : Index := Scalar.indexCast v68
  let c128 : Index := 128#32
  ![v202.toNat, 128]
def k0_off419 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v211 : Index := Scalar.indexCast v68
  let c144 : Index := 144#32
  ![v211.toNat, 144]
def k0_off420 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v220 : Index := Scalar.indexCast v68
  let c160 : Index := 160#32
  ![v220.toNat, 160]
def k0_off421 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v229 : Index := Scalar.indexCast v68
  let c176 : Index := 176#32
  ![v229.toNat, 176]
def k0_off422 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v238 : Index := Scalar.indexCast v68
  let c192 : Index := 192#32
  ![v238.toNat, 192]
def k0_off423 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v247 : Index := Scalar.indexCast v68
  let c208 : Index := 208#32
  ![v247.toNat, 208]
def k0_off424 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v256 : Index := Scalar.indexCast v68
  let c224 : Index := 224#32
  ![v256.toNat, 224]
def k0_off425 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v265 : Index := Scalar.indexCast v68
  let c240 : Index := 240#32
  ![v265.toNat, 240]
def k0_off426 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v274 : Index := Scalar.indexCast v68
  let c256 : Index := 256#32
  ![v274.toNat, 256]
def k0_off427 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v283 : Index := Scalar.indexCast v68
  let c272 : Index := 272#32
  ![v283.toNat, 272]
def k0_off428 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v292 : Index := Scalar.indexCast v68
  let c288 : Index := 288#32
  ![v292.toNat, 288]
def k0_off429 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v301 : Index := Scalar.indexCast v68
  let c304 : Index := 304#32
  ![v301.toNat, 304]
def k0_off430 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v310 : Index := Scalar.indexCast v68
  let c320 : Index := 320#32
  ![v310.toNat, 320]
def k0_off431 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v319 : Index := Scalar.indexCast v68
  let c336 : Index := 336#32
  ![v319.toNat, 336]
def k0_off432 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v328 : Index := Scalar.indexCast v68
  let c352 : Index := 352#32
  ![v328.toNat, 352]
def k0_off433 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v337 : Index := Scalar.indexCast v68
  let c368 : Index := 368#32
  ![v337.toNat, 368]
def k0_off434 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v346 : Index := Scalar.indexCast v68
  let c384 : Index := 384#32
  ![v346.toNat, 384]
def k0_off435 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v355 : Index := Scalar.indexCast v68
  let c400 : Index := 400#32
  ![v355.toNat, 400]
def k0_off436 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v364 : Index := Scalar.indexCast v68
  let c416 : Index := 416#32
  ![v364.toNat, 416]
def k0_off437 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v373 : Index := Scalar.indexCast v68
  let c432 : Index := 432#32
  ![v373.toNat, 432]
def k0_off438 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v382 : Index := Scalar.indexCast v68
  let c448 : Index := 448#32
  ![v382.toNat, 448]
def k0_off439 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v391 : Index := Scalar.indexCast v68
  let c464 : Index := 464#32
  ![v391.toNat, 464]
def k0_off440 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v400 : Index := Scalar.indexCast v68
  let c480 : Index := 480#32
  ![v400.toNat, 480]
def k0_off441 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v409 : Index := Scalar.indexCast v68
  let c496 : Index := 496#32
  ![v409.toNat, 496]
def k0_off442 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v418 : Index := Scalar.indexCast v68
  let c512 : Index := 512#32
  ![v418.toNat, 512]
def k0_off443 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v427 : Index := Scalar.indexCast v68
  let c528 : Index := 528#32
  ![v427.toNat, 528]
def k0_off444 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v436 : Index := Scalar.indexCast v68
  let c544 : Index := 544#32
  ![v436.toNat, 544]
def k0_off445 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v445 : Index := Scalar.indexCast v68
  let c560 : Index := 560#32
  ![v445.toNat, 560]
def k0_off446 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v454 : Index := Scalar.indexCast v68
  let c576 : Index := 576#32
  ![v454.toNat, 576]
def k0_off447 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v463 : Index := Scalar.indexCast v68
  let c592 : Index := 592#32
  ![v463.toNat, 592]
def k0_off448 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v467 : Index := Scalar.indexCast v68
  let c608 : Index := 608#32
  ![v467.toNat, 608]
def k0_off449 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v471 : Index := Scalar.indexCast v68
  let c624 : Index := 624#32
  ![v471.toNat, 624]
def k0_off450 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v475 : Index := Scalar.indexCast v68
  let c640 : Index := 640#32
  ![v475.toNat, 640]
def k0_off451 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v479 : Index := Scalar.indexCast v68
  let c656 : Index := 656#32
  ![v479.toNat, 656]
def k0_off452 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v483 : Index := Scalar.indexCast v68
  let c672 : Index := 672#32
  ![v483.toNat, 672]
def k0_off453 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v487 : Index := Scalar.indexCast v68
  let c688 : Index := 688#32
  ![v487.toNat, 688]
def k0_off454 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v491 : Index := Scalar.indexCast v68
  let c704 : Index := 704#32
  ![v491.toNat, 704]
def k0_off455 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v495 : Index := Scalar.indexCast v68
  let c720 : Index := 720#32
  ![v495.toNat, 720]
def k0_off456 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v499 : Index := Scalar.indexCast v68
  let c736 : Index := 736#32
  ![v499.toNat, 736]
def k0_off457 (k0_t11 : Fin k0_t11_loop.trips) : Fin 2 → Nat :=
  let c0_i32_62 : BitVec 32 := 0#32
  let c0_i32_55 : BitVec 32 := 0#32
  let c1_i32_57 : BitVec 32 := 1#32
  let arg13 : BitVec 32 := Scf.iv c0_i32_55 c1_i32_57 k0_t11
  let c1_i32_61 : BitVec 32 := 1#32
  let v67 : BitVec 32 := Scalar.muli arg13 c1_i32_61
  let v68 : BitVec 32 := Scalar.addi c0_i32_62 v67
  let v503 : Index := Scalar.indexCast v68
  let c752 : Index := 752#32
  ![v503.toNat, 752]
def k0_off458 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c60_i32_32 : BitVec 32 := 60#32
  let c32_i32 : BitVec 32 := 32#32
  let v48 : BitVec 32 := Scalar.muli c60_i32_32 c32_i32
  let v49 : BitVec 32 := Scalar.addi v2 v48
  let v50 : BitVec 32 := v49
  let c0_i32_59 : BitVec 32 := 0#32
  ![v50.toNat, 0]
def k0_cond18 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_46 : BitVec 32 := 31#32
  let v45 : BitVec 1 := Scalar.cmpi .eq v1 c31_i32_46
  let v46 : BitVec 32 := Scalar.extui v45
  let c0_i32_47 : BitVec 32 := 0#32
  let v47 : BitVec 1 := Scalar.cmpi .ne v46 c0_i32_47
  v47

@[reducible] def k0_t12_loop : Scf.Loop 32 :=
  let c0_i32_49 : BitVec 32 := 0#32
  let c17_i32 : BitVec 32 := 17#32
  let v51 : BitVec 32 := Scalar.addi c0_i32_49 c17_i32
  let c1_i32_50 : BitVec 32 := 1#32
  ⟨c0_i32_49, v51, c1_i32_50⟩
def k0_off459 (i : grid0.Coords) (k0_t12 : Fin k0_t12_loop.trips) (c0_i32_56 : BitVec 32) (c0_i32_57 : BitVec 32) : Fin 1 → Nat :=
  let c496_i32 : BitVec 32 := 496#32
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1952_i32 : BitVec 32 := 1952#32
  let v2 : BitVec 32 := Scalar.muli v1 c1952_i32
  let c5_i32 : BitVec 32 := 5#32
  let v3 : BitVec 32 := Scalar.shrui v2 c5_i32
  let c67379_i32 : BitVec 32 := 67379#32
  let v4 : BitVec 32 := Scalar.muli v3 c67379_i32
  let c19_i32 : BitVec 32 := 19#32
  let v5 : BitVec 32 := Scalar.shrsi v4 c19_i32
  let v6 : BitVec 32 := Scalar.muli c2_i32_0 v5
  let c480_i32 : BitVec 32 := 480#32
  let v7 : BitVec 32 := Scalar.minsi v6 c480_i32
  let v48 : BitVec 32 := Scalar.subi c496_i32 v7
  let c512_i32_48 : BitVec 32 := 512#32
  let v49 : BitVec 32 := Scalar.muli v48 c512_i32_48
  let c464_i32 : BitVec 32 := 464#32
  let v50 : BitVec 32 := Scalar.addi v49 c464_i32
  let c2_i32_54 : BitVec 32 := 2#32
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v56 : BitVec 32 := Scalar.muli c2_i32_54 v53
  let v57 : BitVec 32 := Scalar.addi v50 v56
  let c232_i32 : BitVec 32 := 232#32
  let v54 : BitVec 32 := Scalar.addi c232_i32 v53
  let c249_i32 : BitVec 32 := 249#32
  let v55 : BitVec 1 := Scalar.cmpi .sge v54 c249_i32
  let c526_i32 : BitVec 32 := 526#32
  let c0_i32_55 : BitVec 32 := 0#32
  let v58 : BitVec 32 := Scalar.select v55 c526_i32 c0_i32_55
  let v59 : BitVec 32 := Scalar.addi v57 v58
  let v60 : BitVec 32 := Scalar.addi v59 c0_i32_56
  let v61 : BitVec 32 := Scalar.addi v60 c0_i32_57
  let v62 : Index := Scalar.indexCast v61
  ![v62.toNat]
def k0_off460 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v115 : Index := Scalar.indexCast v53
  let c0 : Index := 0#32
  ![v115.toNat, 0]
def k0_off461 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v124 : Index := Scalar.indexCast v53
  let c16 : Index := 16#32
  ![v124.toNat, 16]
def k0_off462 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v133 : Index := Scalar.indexCast v53
  let c32 : Index := 32#32
  ![v133.toNat, 32]
def k0_off463 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v142 : Index := Scalar.indexCast v53
  let c48 : Index := 48#32
  ![v142.toNat, 48]
def k0_off464 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v151 : Index := Scalar.indexCast v53
  let c64 : Index := 64#32
  ![v151.toNat, 64]
def k0_off465 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v160 : Index := Scalar.indexCast v53
  let c80 : Index := 80#32
  ![v160.toNat, 80]
def k0_off466 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v169 : Index := Scalar.indexCast v53
  let c96 : Index := 96#32
  ![v169.toNat, 96]
def k0_off467 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v178 : Index := Scalar.indexCast v53
  let c112 : Index := 112#32
  ![v178.toNat, 112]
def k0_off468 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v187 : Index := Scalar.indexCast v53
  let c128 : Index := 128#32
  ![v187.toNat, 128]
def k0_off469 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v196 : Index := Scalar.indexCast v53
  let c144 : Index := 144#32
  ![v196.toNat, 144]
def k0_off470 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v205 : Index := Scalar.indexCast v53
  let c160 : Index := 160#32
  ![v205.toNat, 160]
def k0_off471 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v214 : Index := Scalar.indexCast v53
  let c176 : Index := 176#32
  ![v214.toNat, 176]
def k0_off472 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v223 : Index := Scalar.indexCast v53
  let c192 : Index := 192#32
  ![v223.toNat, 192]
def k0_off473 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v232 : Index := Scalar.indexCast v53
  let c208 : Index := 208#32
  ![v232.toNat, 208]
def k0_off474 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v241 : Index := Scalar.indexCast v53
  let c224 : Index := 224#32
  ![v241.toNat, 224]
def k0_off475 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v250 : Index := Scalar.indexCast v53
  let c240 : Index := 240#32
  ![v250.toNat, 240]
def k0_off476 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v259 : Index := Scalar.indexCast v53
  let c256 : Index := 256#32
  ![v259.toNat, 256]
def k0_off477 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v268 : Index := Scalar.indexCast v53
  let c272 : Index := 272#32
  ![v268.toNat, 272]
def k0_off478 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v277 : Index := Scalar.indexCast v53
  let c288 : Index := 288#32
  ![v277.toNat, 288]
def k0_off479 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v286 : Index := Scalar.indexCast v53
  let c304 : Index := 304#32
  ![v286.toNat, 304]
def k0_off480 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v295 : Index := Scalar.indexCast v53
  let c320 : Index := 320#32
  ![v295.toNat, 320]
def k0_off481 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v304 : Index := Scalar.indexCast v53
  let c336 : Index := 336#32
  ![v304.toNat, 336]
def k0_off482 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v313 : Index := Scalar.indexCast v53
  let c352 : Index := 352#32
  ![v313.toNat, 352]
def k0_off483 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v322 : Index := Scalar.indexCast v53
  let c368 : Index := 368#32
  ![v322.toNat, 368]
def k0_off484 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v331 : Index := Scalar.indexCast v53
  let c384 : Index := 384#32
  ![v331.toNat, 384]
def k0_off485 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v340 : Index := Scalar.indexCast v53
  let c400 : Index := 400#32
  ![v340.toNat, 400]
def k0_off486 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v349 : Index := Scalar.indexCast v53
  let c416 : Index := 416#32
  ![v349.toNat, 416]
def k0_off487 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v358 : Index := Scalar.indexCast v53
  let c432 : Index := 432#32
  ![v358.toNat, 432]
def k0_off488 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v367 : Index := Scalar.indexCast v53
  let c448 : Index := 448#32
  ![v367.toNat, 448]
def k0_off489 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v376 : Index := Scalar.indexCast v53
  let c464 : Index := 464#32
  ![v376.toNat, 464]
def k0_off490 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v385 : Index := Scalar.indexCast v53
  let c480 : Index := 480#32
  ![v385.toNat, 480]
def k0_off491 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v394 : Index := Scalar.indexCast v53
  let c496 : Index := 496#32
  ![v394.toNat, 496]
def k0_off492 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v403 : Index := Scalar.indexCast v53
  let c512 : Index := 512#32
  ![v403.toNat, 512]
def k0_off493 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v412 : Index := Scalar.indexCast v53
  let c528 : Index := 528#32
  ![v412.toNat, 528]
def k0_off494 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v421 : Index := Scalar.indexCast v53
  let c544 : Index := 544#32
  ![v421.toNat, 544]
def k0_off495 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v430 : Index := Scalar.indexCast v53
  let c560 : Index := 560#32
  ![v430.toNat, 560]
def k0_off496 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v439 : Index := Scalar.indexCast v53
  let c576 : Index := 576#32
  ![v439.toNat, 576]
def k0_off497 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v448 : Index := Scalar.indexCast v53
  let c592 : Index := 592#32
  ![v448.toNat, 592]
def k0_off498 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v452 : Index := Scalar.indexCast v53
  let c608 : Index := 608#32
  ![v452.toNat, 608]
def k0_off499 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v456 : Index := Scalar.indexCast v53
  let c624 : Index := 624#32
  ![v456.toNat, 624]
def k0_off500 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v460 : Index := Scalar.indexCast v53
  let c640 : Index := 640#32
  ![v460.toNat, 640]
def k0_off501 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v464 : Index := Scalar.indexCast v53
  let c656 : Index := 656#32
  ![v464.toNat, 656]
def k0_off502 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v468 : Index := Scalar.indexCast v53
  let c672 : Index := 672#32
  ![v468.toNat, 672]
def k0_off503 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v472 : Index := Scalar.indexCast v53
  let c688 : Index := 688#32
  ![v472.toNat, 688]
def k0_off504 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v476 : Index := Scalar.indexCast v53
  let c704 : Index := 704#32
  ![v476.toNat, 704]
def k0_off505 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v480 : Index := Scalar.indexCast v53
  let c720 : Index := 720#32
  ![v480.toNat, 720]
def k0_off506 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v484 : Index := Scalar.indexCast v53
  let c736 : Index := 736#32
  ![v484.toNat, 736]
def k0_off507 (k0_t12 : Fin k0_t12_loop.trips) : Fin 2 → Nat :=
  let c0_i32_53 : BitVec 32 := 0#32
  let c0_i32_49 : BitVec 32 := 0#32
  let c1_i32_50 : BitVec 32 := 1#32
  let arg13 : BitVec 32 := Scf.iv c0_i32_49 c1_i32_50 k0_t12
  let c1_i32_52 : BitVec 32 := 1#32
  let v52 : BitVec 32 := Scalar.muli arg13 c1_i32_52
  let v53 : BitVec 32 := Scalar.addi c0_i32_53 v52
  let v488 : Index := Scalar.indexCast v53
  let c752 : Index := 752#32
  ![v488.toNat, 752]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x3x512x512_S786432 : S1x3x512x512.ShapeCasts S786432
  inb_S49152_S16384_0 : ∀ a, (![0] : Fin 1 → Nat) a + S16384.size a ≤ S49152.size a
  inb_S49152_S16384_16384 : ∀ a, (![16384] : Fin 1 → Nat) a + S16384.size a ≤ S49152.size a
  inb_S49152_S16384_32768 : ∀ a, (![32768] : Fin 1 → Nat) a + S16384.size a ≤ S49152.size a
  h_S16 : 0 < S16.numel
  shapeCasts_S16_S16 : S16.ShapeCasts S16
  h_S1x16 : 0 < S1x16.numel
  shapeCasts_S1x16_S16 : S1x16.ShapeCasts S16
  shapeCasts_S16_S1x16 : S16.ShapeCasts S1x16
  inb_S62001x768_S32x768_0_0 : ∀ a, (![0, 0] : Fin 2 → Nat) a + S32x768.size a ≤ S62001x768.size a
  inb_S32x768_S16x768_0_0 : ∀ a, (![0, 0] : Fin 2 → Nat) a + S16x768.size a ≤ S32x768.size a
  inb_S62001x768_S16x768_61984_0 : ∀ a, (![61984, 0] : Fin 2 → Nat) a + S16x768.size a ≤ S62001x768.size a
  inb_S32x768_S1x768_16_0 : ∀ a, (![16, 0] : Fin 2 → Nat) a + S1x768.size a ≤ S32x768.size a
  inb_S62001x768_S1x768_62000_0 : ∀ a, (![62000, 0] : Fin 2 → Nat) a + S1x768.size a ≤ S62001x768.size a
  hcc0_scratch4 : 0 + S_.numel ≤ 13
  hcc0_scratch5 : 1 + S_.numel ≤ 13
  hcc0_scratch6 : 2 + S_.numel ≤ 13
  hcc0_scoped0 : 3 + S_.numel ≤ 13
  hcc0_scoped1 : 4 + S_.numel ≤ 13
  hcc0_scoped2 : 5 + S_.numel ≤ 13
  hcc0_scoped3 : 6 + S_.numel ≤ 13
  hcc0_scoped4 : 7 + S_.numel ≤ 13
  hcc0_scoped5 : 8 + S_.numel ≤ 13
  hcc0_scoped6 : 9 + S_.numel ≤ 13
  hcc0_scoped7 : 10 + S_.numel ≤ 13
  hcc0_scoped8 : 11 + S_.numel ≤ 13
  hcc0_scoped9 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (262144 * r.val))) a + S16384.size a ≤ S786432.size a
  k0_t1_ok : k0_t1_loop.OK
  k0_mult1_dvd : ∀ (i : grid0.Coords) (k0_t1 : Fin k0_t1_loop.trips), ∀ (k0_h1 : k0_cond1 i k0_t1 = 1#1), 8 ∣ (k0_mult1 i k0_t1).toNat
  k0_off2_inb : ∀ (i : grid0.Coords) (k0_t1 : Fin k0_t1_loop.trips), ∀ (k0_h1 : k0_cond1 i k0_t1 = 1#1), ∀ (k0_h2 : k0_cond2 k0_t1 = 1#1), ∀ a, (k0_off2 i k0_t1) a + S32x768.size a ≤ S62001x768.size a
  k0_t2_ok : ∀ (i : grid0.Coords) (k0_t1 : Fin k0_t1_loop.trips), ∀ (k0_h1 : k0_cond1 i k0_t1 = 1#1), k0_t2_loop.OK
  k0_off3_inb : ∀ (i : grid0.Coords) (k0_t1 : Fin k0_t1_loop.trips) (k0_t2 : Fin k0_t2_loop.trips), ∀ (k0_h1 : k0_cond1 i k0_t1 = 1#1), ∀ (r₁ : Fin 3) (r₂ : Fin 16), ∀ a, (k0_off3 i k0_t1 k0_t2 (BitVec.ofNat 32 (16384 * r₁.val)) (BitVec.ofNat 32 (512 * r₂.val))) a + S16.size a ≤ S49152.size a
  k0_off4_inb : ∀ (i : grid0.Coords) (k0_t1 : Fin k0_t1_loop.trips) (k0_t2 : Fin k0_t2_loop.trips), ∀ (k0_h1 : k0_cond1 i k0_t1 = 1#1), ∀ a, (k0_off4 k0_t2) a + S1x16.size a ≤ S32x768.size a
  k0_off5_inb : ∀ (i : grid0.Coords) (k0_t1 : Fin k0_t1_loop.trips) (k0_t2 : Fin k0_t2_loop.trips), ∀ (k0_h1 : k0_cond1 i k0_t1 = 1#1), ∀ a, (k0_off5 k0_t2) a + S1x16.size a ≤ S32x768.size a
  k0_off6_inb : ∀ (i : grid0.Coords) (k0_t1 : Fin k0_t1_loop.trips) (k0_t2 : Fin k0_t2_loop.trips), ∀ (k0_h1 : k0_cond1 i k0_t1 = 1#1), ∀ a, (k0_off6 k0_t2) a + S1x16.size a ≤ S32x768.size a
  k0_off7_inb : ∀ (i : grid0.Coords) (k0_t1 : Fin k0_t1_loop.trips) (k0_t2 : Fin k0_t2_loop.trips), ∀ (k0_h1 : k0_cond1 i k0_t1 = 1#1), ∀ a, (k0_off7 k0_t2) a + S1x16.size a ≤ S32x768.size a
  k0_off8_inb : ∀ (i : grid0.Coords) (k0_t1 : Fin k0_t1_loop.trips) (k0_t2 : Fin k0_t2_loop.trips), ∀ (k0_h1 : k0_cond1 i k0_t1 = 1#1), ∀ a, (k0_off8 k0_t2) a + S1x16.size a ≤ S32x768.size a
  k0_off9_inb : ∀ (i : grid0.Coords) (k0_t1 : Fin k0_t1_loop.trips) (k0_t2 : Fin k0_t2_loop.trips), ∀ (k0_h1 : k0_cond1 i k0_t1 = 1#1), ∀ a, (k0_off9 k0_t2) a + S1x16.size a ≤ S32x768.size a
  k0_off10_inb : ∀ (i : grid0.Coords) (k0_t1 : Fin k0_t1_loop.trips) (k0_t2 : Fin k0_t2_loop.trips), ∀ (k0_h1 : k0_cond1 i k0_t1 = 1#1), ∀ a, (k0_off10 k0_t2) a + S1x16.size a ≤ S32x768.size a
  k0_off11_inb : ∀ (i : grid0.Coords) (k0_t1 : Fin k0_t1_loop.trips) (k0_t2 : Fin k0_t2_loop.trips), ∀ (k0_h1 : k0_cond1 i k0_t1 = 1#1), ∀ a, (k0_off11 k0_t2) a + S1x16.size a ≤ S32x768.size a
  k0_off12_inb : ∀ (i : grid0.Coords) (k0_t1 : Fin k0_t1_loop.trips) (k0_t2 : Fin k0_t2_loop.trips), ∀ (k0_h1 : k0_cond1 i k0_t1 = 1#1), ∀ a, (k0_off12 k0_t2) a + S1x16.size a ≤ S32x768.size a
  k0_off13_inb : ∀ (i : grid0.Coords) (k0_t1 : Fin k0_t1_loop.trips) (k0_t2 : Fin k0_t2_loop.trips), ∀ (k0_h1 : k0_cond1 i k0_t1 = 1#1), ∀ a, (k0_off13 k0_t2) a + S1x16.size a ≤ S32x768.size a
  k0_off14_inb : ∀ (i : grid0.Coords) (k0_t1 : Fin k0_t1_loop.trips) (k0_t2 : Fin k0_t2_loop.trips), ∀ (k0_h1 : k0_cond1 i k0_t1 = 1#1), ∀ a, (k0_off14 k0_t2) a + S1x16.size a ≤ S32x768.size a
  k0_off15_inb : ∀ (i : grid0.Coords) (k0_t1 : Fin k0_t1_loop.trips) (k0_t2 : Fin k0_t2_loop.trips), ∀ (k0_h1 : k0_cond1 i k0_t1 = 1#1), ∀ a, (k0_off15 k0_t2) a + S1x16.size a ≤ S32x768.size a
  k0_off16_inb : ∀ (i : grid0.Coords) (k0_t1 : Fin k0_t1_loop.trips) (k0_t2 : Fin k0_t2_loop.trips), ∀ (k0_h1 : k0_cond1 i k0_t1 = 1#1), ∀ a, (k0_off16 k0_t2) a + S1x16.size a ≤ S32x768.size a
  k0_off17_inb : ∀ (i : grid0.Coords) (k0_t1 : Fin k0_t1_loop.trips) (k0_t2 : Fin k0_t2_loop.trips), ∀ (k0_h1 : k0_cond1 i k0_t1 = 1#1), ∀ a, (k0_off17 k0_t2) a + S1x16.size a ≤ S32x768.size a
  k0_off18_inb : ∀ (i : grid0.Coords) (k0_t1 : Fin k0_t1_loop.trips) (k0_t2 : Fin k0_t2_loop.trips), ∀ (k0_h1 : k0_cond1 i k0_t1 = 1#1), ∀ a, (k0_off18 k0_t2) a + S1x16.size a ≤ S32x768.size a
  k0_off19_inb : ∀ (i : grid0.Coords) (k0_t1 : Fin k0_t1_loop.trips) (k0_t2 : Fin k0_t2_loop.trips), ∀ (k0_h1 : k0_cond1 i k0_t1 = 1#1), ∀ a, (k0_off19 k0_t2) a + S1x16.size a ≤ S32x768.size a
  k0_off20_inb : ∀ (i : grid0.Coords) (k0_t1 : Fin k0_t1_loop.trips) (k0_t2 : Fin k0_t2_loop.trips), ∀ (k0_h1 : k0_cond1 i k0_t1 = 1#1), ∀ a, (k0_off20 k0_t2) a + S1x16.size a ≤ S32x768.size a
  k0_off21_inb : ∀ (i : grid0.Coords) (k0_t1 : Fin k0_t1_loop.trips) (k0_t2 : Fin k0_t2_loop.trips), ∀ (k0_h1 : k0_cond1 i k0_t1 = 1#1), ∀ a, (k0_off21 k0_t2) a + S1x16.size a ≤ S32x768.size a
  k0_off22_inb : ∀ (i : grid0.Coords) (k0_t1 : Fin k0_t1_loop.trips) (k0_t2 : Fin k0_t2_loop.trips), ∀ (k0_h1 : k0_cond1 i k0_t1 = 1#1), ∀ a, (k0_off22 k0_t2) a + S1x16.size a ≤ S32x768.size a
  k0_off23_inb : ∀ (i : grid0.Coords) (k0_t1 : Fin k0_t1_loop.trips) (k0_t2 : Fin k0_t2_loop.trips), ∀ (k0_h1 : k0_cond1 i k0_t1 = 1#1), ∀ a, (k0_off23 k0_t2) a + S1x16.size a ≤ S32x768.size a
  k0_off24_inb : ∀ (i : grid0.Coords) (k0_t1 : Fin k0_t1_loop.trips) (k0_t2 : Fin k0_t2_loop.trips), ∀ (k0_h1 : k0_cond1 i k0_t1 = 1#1), ∀ a, (k0_off24 k0_t2) a + S1x16.size a ≤ S32x768.size a
  k0_off25_inb : ∀ (i : grid0.Coords) (k0_t1 : Fin k0_t1_loop.trips) (k0_t2 : Fin k0_t2_loop.trips), ∀ (k0_h1 : k0_cond1 i k0_t1 = 1#1), ∀ a, (k0_off25 k0_t2) a + S1x16.size a ≤ S32x768.size a
  k0_off26_inb : ∀ (i : grid0.Coords) (k0_t1 : Fin k0_t1_loop.trips) (k0_t2 : Fin k0_t2_loop.trips), ∀ (k0_h1 : k0_cond1 i k0_t1 = 1#1), ∀ a, (k0_off26 k0_t2) a + S1x16.size a ≤ S32x768.size a
  k0_off27_inb : ∀ (i : grid0.Coords) (k0_t1 : Fin k0_t1_loop.trips) (k0_t2 : Fin k0_t2_loop.trips), ∀ (k0_h1 : k0_cond1 i k0_t1 = 1#1), ∀ a, (k0_off27 k0_t2) a + S1x16.size a ≤ S32x768.size a
  k0_off28_inb : ∀ (i : grid0.Coords) (k0_t1 : Fin k0_t1_loop.trips) (k0_t2 : Fin k0_t2_loop.trips), ∀ (k0_h1 : k0_cond1 i k0_t1 = 1#1), ∀ a, (k0_off28 k0_t2) a + S1x16.size a ≤ S32x768.size a
  k0_off29_inb : ∀ (i : grid0.Coords) (k0_t1 : Fin k0_t1_loop.trips) (k0_t2 : Fin k0_t2_loop.trips), ∀ (k0_h1 : k0_cond1 i k0_t1 = 1#1), ∀ a, (k0_off29 k0_t2) a + S1x16.size a ≤ S32x768.size a
  k0_off30_inb : ∀ (i : grid0.Coords) (k0_t1 : Fin k0_t1_loop.trips) (k0_t2 : Fin k0_t2_loop.trips), ∀ (k0_h1 : k0_cond1 i k0_t1 = 1#1), ∀ a, (k0_off30 k0_t2) a + S1x16.size a ≤ S32x768.size a
  k0_off31_inb : ∀ (i : grid0.Coords) (k0_t1 : Fin k0_t1_loop.trips) (k0_t2 : Fin k0_t2_loop.trips), ∀ (k0_h1 : k0_cond1 i k0_t1 = 1#1), ∀ a, (k0_off31 k0_t2) a + S1x16.size a ≤ S32x768.size a
  k0_off32_inb : ∀ (i : grid0.Coords) (k0_t1 : Fin k0_t1_loop.trips) (k0_t2 : Fin k0_t2_loop.trips), ∀ (k0_h1 : k0_cond1 i k0_t1 = 1#1), ∀ a, (k0_off32 k0_t2) a + S1x16.size a ≤ S32x768.size a
  k0_off33_inb : ∀ (i : grid0.Coords) (k0_t1 : Fin k0_t1_loop.trips) (k0_t2 : Fin k0_t2_loop.trips), ∀ (k0_h1 : k0_cond1 i k0_t1 = 1#1), ∀ a, (k0_off33 k0_t2) a + S1x16.size a ≤ S32x768.size a
  k0_off34_inb : ∀ (i : grid0.Coords) (k0_t1 : Fin k0_t1_loop.trips) (k0_t2 : Fin k0_t2_loop.trips), ∀ (k0_h1 : k0_cond1 i k0_t1 = 1#1), ∀ a, (k0_off34 k0_t2) a + S1x16.size a ≤ S32x768.size a
  k0_off35_inb : ∀ (i : grid0.Coords) (k0_t1 : Fin k0_t1_loop.trips) (k0_t2 : Fin k0_t2_loop.trips), ∀ (k0_h1 : k0_cond1 i k0_t1 = 1#1), ∀ a, (k0_off35 k0_t2) a + S1x16.size a ≤ S32x768.size a
  k0_off36_inb : ∀ (i : grid0.Coords) (k0_t1 : Fin k0_t1_loop.trips) (k0_t2 : Fin k0_t2_loop.trips), ∀ (k0_h1 : k0_cond1 i k0_t1 = 1#1), ∀ a, (k0_off36 k0_t2) a + S1x16.size a ≤ S32x768.size a
  k0_off37_inb : ∀ (i : grid0.Coords) (k0_t1 : Fin k0_t1_loop.trips) (k0_t2 : Fin k0_t2_loop.trips), ∀ (k0_h1 : k0_cond1 i k0_t1 = 1#1), ∀ a, (k0_off37 k0_t2) a + S1x16.size a ≤ S32x768.size a
  k0_off38_inb : ∀ (i : grid0.Coords) (k0_t1 : Fin k0_t1_loop.trips) (k0_t2 : Fin k0_t2_loop.trips), ∀ (k0_h1 : k0_cond1 i k0_t1 = 1#1), ∀ a, (k0_off38 k0_t2) a + S1x16.size a ≤ S32x768.size a
  k0_off39_inb : ∀ (i : grid0.Coords) (k0_t1 : Fin k0_t1_loop.trips) (k0_t2 : Fin k0_t2_loop.trips), ∀ (k0_h1 : k0_cond1 i k0_t1 = 1#1), ∀ a, (k0_off39 k0_t2) a + S1x16.size a ≤ S32x768.size a
  k0_off40_inb : ∀ (i : grid0.Coords) (k0_t1 : Fin k0_t1_loop.trips) (k0_t2 : Fin k0_t2_loop.trips), ∀ (k0_h1 : k0_cond1 i k0_t1 = 1#1), ∀ a, (k0_off40 k0_t2) a + S1x16.size a ≤ S32x768.size a
  k0_off41_inb : ∀ (i : grid0.Coords) (k0_t1 : Fin k0_t1_loop.trips) (k0_t2 : Fin k0_t2_loop.trips), ∀ (k0_h1 : k0_cond1 i k0_t1 = 1#1), ∀ a, (k0_off41 k0_t2) a + S1x16.size a ≤ S32x768.size a
  k0_off42_inb : ∀ (i : grid0.Coords) (k0_t1 : Fin k0_t1_loop.trips) (k0_t2 : Fin k0_t2_loop.trips), ∀ (k0_h1 : k0_cond1 i k0_t1 = 1#1), ∀ a, (k0_off42 k0_t2) a + S1x16.size a ≤ S32x768.size a
  k0_off43_inb : ∀ (i : grid0.Coords) (k0_t1 : Fin k0_t1_loop.trips) (k0_t2 : Fin k0_t2_loop.trips), ∀ (k0_h1 : k0_cond1 i k0_t1 = 1#1), ∀ a, (k0_off43 k0_t2) a + S1x16.size a ≤ S32x768.size a
  k0_off44_inb : ∀ (i : grid0.Coords) (k0_t1 : Fin k0_t1_loop.trips) (k0_t2 : Fin k0_t2_loop.trips), ∀ (k0_h1 : k0_cond1 i k0_t1 = 1#1), ∀ a, (k0_off44 k0_t2) a + S1x16.size a ≤ S32x768.size a
  k0_off45_inb : ∀ (i : grid0.Coords) (k0_t1 : Fin k0_t1_loop.trips) (k0_t2 : Fin k0_t2_loop.trips), ∀ (k0_h1 : k0_cond1 i k0_t1 = 1#1), ∀ a, (k0_off45 k0_t2) a + S1x16.size a ≤ S32x768.size a
  k0_off46_inb : ∀ (i : grid0.Coords) (k0_t1 : Fin k0_t1_loop.trips) (k0_t2 : Fin k0_t2_loop.trips), ∀ (k0_h1 : k0_cond1 i k0_t1 = 1#1), ∀ a, (k0_off46 k0_t2) a + S1x16.size a ≤ S32x768.size a
  k0_off47_inb : ∀ (i : grid0.Coords) (k0_t1 : Fin k0_t1_loop.trips) (k0_t2 : Fin k0_t2_loop.trips), ∀ (k0_h1 : k0_cond1 i k0_t1 = 1#1), ∀ a, (k0_off47 k0_t2) a + S1x16.size a ≤ S32x768.size a
  k0_off48_inb : ∀ (i : grid0.Coords) (k0_t1 : Fin k0_t1_loop.trips) (k0_t2 : Fin k0_t2_loop.trips), ∀ (k0_h1 : k0_cond1 i k0_t1 = 1#1), ∀ a, (k0_off48 k0_t2) a + S1x16.size a ≤ S32x768.size a
  k0_off49_inb : ∀ (i : grid0.Coords) (k0_t1 : Fin k0_t1_loop.trips) (k0_t2 : Fin k0_t2_loop.trips), ∀ (k0_h1 : k0_cond1 i k0_t1 = 1#1), ∀ a, (k0_off49 k0_t2) a + S1x16.size a ≤ S32x768.size a
  k0_off50_inb : ∀ (i : grid0.Coords) (k0_t1 : Fin k0_t1_loop.trips) (k0_t2 : Fin k0_t2_loop.trips), ∀ (k0_h1 : k0_cond1 i k0_t1 = 1#1), ∀ a, (k0_off50 k0_t2) a + S1x16.size a ≤ S32x768.size a
  k0_off51_inb : ∀ (i : grid0.Coords) (k0_t1 : Fin k0_t1_loop.trips) (k0_t2 : Fin k0_t2_loop.trips), ∀ (k0_h1 : k0_cond1 i k0_t1 = 1#1), ∀ a, (k0_off51 k0_t2) a + S1x16.size a ≤ S32x768.size a
  k0_off52_inb : ∀ (i : grid0.Coords) (k0_t1 : Fin k0_t1_loop.trips), ∀ (k0_h1 : k0_cond1 i k0_t1 = 1#1), ∀ a, (k0_off52 i k0_t1) a + S32x768.size a ≤ S62001x768.size a
  k0_mult2_dvd : ∀ (i : grid0.Coords) (k0_t1 : Fin k0_t1_loop.trips), ∀ (k0_h3 : k0_cond3 i k0_t1 = 1#1), 8 ∣ (k0_mult2 i k0_t1).toNat
  k0_off53_inb : ∀ (i : grid0.Coords) (k0_t1 : Fin k0_t1_loop.trips), ∀ (k0_h3 : k0_cond3 i k0_t1 = 1#1), ∀ (k0_h4 : k0_cond4 k0_t1 = 1#1), ∀ a, (k0_off53 i k0_t1) a + S32x768.size a ≤ S62001x768.size a
  k0_t3_ok : ∀ (i : grid0.Coords) (k0_t1 : Fin k0_t1_loop.trips), ∀ (k0_h3 : k0_cond3 i k0_t1 = 1#1), k0_t3_loop.OK
  k0_off54_inb : ∀ (i : grid0.Coords) (k0_t1 : Fin k0_t1_loop.trips) (k0_t3 : Fin k0_t3_loop.trips), ∀ (k0_h3 : k0_cond3 i k0_t1 = 1#1), ∀ (r₁ : Fin 3) (r₂ : Fin 16), ∀ a, (k0_off54 i k0_t1 k0_t3 (BitVec.ofNat 32 (16384 * r₁.val)) (BitVec.ofNat 32 (512 * r₂.val))) a + S16.size a ≤ S49152.size a
  k0_off55_inb : ∀ (i : grid0.Coords) (k0_t1 : Fin k0_t1_loop.trips) (k0_t3 : Fin k0_t3_loop.trips), ∀ (k0_h3 : k0_cond3 i k0_t1 = 1#1), ∀ a, (k0_off55 k0_t3) a + S1x16.size a ≤ S32x768.size a
  k0_off56_inb : ∀ (i : grid0.Coords) (k0_t1 : Fin k0_t1_loop.trips) (k0_t3 : Fin k0_t3_loop.trips), ∀ (k0_h3 : k0_cond3 i k0_t1 = 1#1), ∀ a, (k0_off56 k0_t3) a + S1x16.size a ≤ S32x768.size a
  k0_off57_inb : ∀ (i : grid0.Coords) (k0_t1 : Fin k0_t1_loop.trips) (k0_t3 : Fin k0_t3_loop.trips), ∀ (k0_h3 : k0_cond3 i k0_t1 = 1#1), ∀ a, (k0_off57 k0_t3) a + S1x16.size a ≤ S32x768.size a
  k0_off58_inb : ∀ (i : grid0.Coords) (k0_t1 : Fin k0_t1_loop.trips) (k0_t3 : Fin k0_t3_loop.trips), ∀ (k0_h3 : k0_cond3 i k0_t1 = 1#1), ∀ a, (k0_off58 k0_t3) a + S1x16.size a ≤ S32x768.size a
  k0_off59_inb : ∀ (i : grid0.Coords) (k0_t1 : Fin k0_t1_loop.trips) (k0_t3 : Fin k0_t3_loop.trips), ∀ (k0_h3 : k0_cond3 i k0_t1 = 1#1), ∀ a, (k0_off59 k0_t3) a + S1x16.size a ≤ S32x768.size a
  k0_off60_inb : ∀ (i : grid0.Coords) (k0_t1 : Fin k0_t1_loop.trips) (k0_t3 : Fin k0_t3_loop.trips), ∀ (k0_h3 : k0_cond3 i k0_t1 = 1#1), ∀ a, (k0_off60 k0_t3) a + S1x16.size a ≤ S32x768.size a
  k0_off61_inb : ∀ (i : grid0.Coords) (k0_t1 : Fin k0_t1_loop.trips) (k0_t3 : Fin k0_t3_loop.trips), ∀ (k0_h3 : k0_cond3 i k0_t1 = 1#1), ∀ a, (k0_off61 k0_t3) a + S1x16.size a ≤ S32x768.size a
  k0_off62_inb : ∀ (i : grid0.Coords) (k0_t1 : Fin k0_t1_loop.trips) (k0_t3 : Fin k0_t3_loop.trips), ∀ (k0_h3 : k0_cond3 i k0_t1 = 1#1), ∀ a, (k0_off62 k0_t3) a + S1x16.size a ≤ S32x768.size a
  k0_off63_inb : ∀ (i : grid0.Coords) (k0_t1 : Fin k0_t1_loop.trips) (k0_t3 : Fin k0_t3_loop.trips), ∀ (k0_h3 : k0_cond3 i k0_t1 = 1#1), ∀ a, (k0_off63 k0_t3) a + S1x16.size a ≤ S32x768.size a
  k0_off64_inb : ∀ (i : grid0.Coords) (k0_t1 : Fin k0_t1_loop.trips) (k0_t3 : Fin k0_t3_loop.trips), ∀ (k0_h3 : k0_cond3 i k0_t1 = 1#1), ∀ a, (k0_off64 k0_t3) a + S1x16.size a ≤ S32x768.size a
  k0_off65_inb : ∀ (i : grid0.Coords) (k0_t1 : Fin k0_t1_loop.trips) (k0_t3 : Fin k0_t3_loop.trips), ∀ (k0_h3 : k0_cond3 i k0_t1 = 1#1), ∀ a, (k0_off65 k0_t3) a + S1x16.size a ≤ S32x768.size a
  k0_off66_inb : ∀ (i : grid0.Coords) (k0_t1 : Fin k0_t1_loop.trips) (k0_t3 : Fin k0_t3_loop.trips), ∀ (k0_h3 : k0_cond3 i k0_t1 = 1#1), ∀ a, (k0_off66 k0_t3) a + S1x16.size a ≤ S32x768.size a
  k0_off67_inb : ∀ (i : grid0.Coords) (k0_t1 : Fin k0_t1_loop.trips) (k0_t3 : Fin k0_t3_loop.trips), ∀ (k0_h3 : k0_cond3 i k0_t1 = 1#1), ∀ a, (k0_off67 k0_t3) a + S1x16.size a ≤ S32x768.size a
  k0_off68_inb : ∀ (i : grid0.Coords) (k0_t1 : Fin k0_t1_loop.trips) (k0_t3 : Fin k0_t3_loop.trips), ∀ (k0_h3 : k0_cond3 i k0_t1 = 1#1), ∀ a, (k0_off68 k0_t3) a + S1x16.size a ≤ S32x768.size a
  k0_off69_inb : ∀ (i : grid0.Coords) (k0_t1 : Fin k0_t1_loop.trips) (k0_t3 : Fin k0_t3_loop.trips), ∀ (k0_h3 : k0_cond3 i k0_t1 = 1#1), ∀ a, (k0_off69 k0_t3) a + S1x16.size a ≤ S32x768.size a
  k0_off70_inb : ∀ (i : grid0.Coords) (k0_t1 : Fin k0_t1_loop.trips) (k0_t3 : Fin k0_t3_loop.trips), ∀ (k0_h3 : k0_cond3 i k0_t1 = 1#1), ∀ a, (k0_off70 k0_t3) a + S1x16.size a ≤ S32x768.size a
  k0_off71_inb : ∀ (i : grid0.Coords) (k0_t1 : Fin k0_t1_loop.trips) (k0_t3 : Fin k0_t3_loop.trips), ∀ (k0_h3 : k0_cond3 i k0_t1 = 1#1), ∀ a, (k0_off71 k0_t3) a + S1x16.size a ≤ S32x768.size a
  k0_off72_inb : ∀ (i : grid0.Coords) (k0_t1 : Fin k0_t1_loop.trips) (k0_t3 : Fin k0_t3_loop.trips), ∀ (k0_h3 : k0_cond3 i k0_t1 = 1#1), ∀ a, (k0_off72 k0_t3) a + S1x16.size a ≤ S32x768.size a
  k0_off73_inb : ∀ (i : grid0.Coords) (k0_t1 : Fin k0_t1_loop.trips) (k0_t3 : Fin k0_t3_loop.trips), ∀ (k0_h3 : k0_cond3 i k0_t1 = 1#1), ∀ a, (k0_off73 k0_t3) a + S1x16.size a ≤ S32x768.size a
  k0_off74_inb : ∀ (i : grid0.Coords) (k0_t1 : Fin k0_t1_loop.trips) (k0_t3 : Fin k0_t3_loop.trips), ∀ (k0_h3 : k0_cond3 i k0_t1 = 1#1), ∀ a, (k0_off74 k0_t3) a + S1x16.size a ≤ S32x768.size a
  k0_off75_inb : ∀ (i : grid0.Coords) (k0_t1 : Fin k0_t1_loop.trips) (k0_t3 : Fin k0_t3_loop.trips), ∀ (k0_h3 : k0_cond3 i k0_t1 = 1#1), ∀ a, (k0_off75 k0_t3) a + S1x16.size a ≤ S32x768.size a
  k0_off76_inb : ∀ (i : grid0.Coords) (k0_t1 : Fin k0_t1_loop.trips) (k0_t3 : Fin k0_t3_loop.trips), ∀ (k0_h3 : k0_cond3 i k0_t1 = 1#1), ∀ a, (k0_off76 k0_t3) a + S1x16.size a ≤ S32x768.size a
  k0_off77_inb : ∀ (i : grid0.Coords) (k0_t1 : Fin k0_t1_loop.trips) (k0_t3 : Fin k0_t3_loop.trips), ∀ (k0_h3 : k0_cond3 i k0_t1 = 1#1), ∀ a, (k0_off77 k0_t3) a + S1x16.size a ≤ S32x768.size a
  k0_off78_inb : ∀ (i : grid0.Coords) (k0_t1 : Fin k0_t1_loop.trips) (k0_t3 : Fin k0_t3_loop.trips), ∀ (k0_h3 : k0_cond3 i k0_t1 = 1#1), ∀ a, (k0_off78 k0_t3) a + S1x16.size a ≤ S32x768.size a
  k0_off79_inb : ∀ (i : grid0.Coords) (k0_t1 : Fin k0_t1_loop.trips) (k0_t3 : Fin k0_t3_loop.trips), ∀ (k0_h3 : k0_cond3 i k0_t1 = 1#1), ∀ a, (k0_off79 k0_t3) a + S1x16.size a ≤ S32x768.size a
  k0_off80_inb : ∀ (i : grid0.Coords) (k0_t1 : Fin k0_t1_loop.trips) (k0_t3 : Fin k0_t3_loop.trips), ∀ (k0_h3 : k0_cond3 i k0_t1 = 1#1), ∀ a, (k0_off80 k0_t3) a + S1x16.size a ≤ S32x768.size a
  k0_off81_inb : ∀ (i : grid0.Coords) (k0_t1 : Fin k0_t1_loop.trips) (k0_t3 : Fin k0_t3_loop.trips), ∀ (k0_h3 : k0_cond3 i k0_t1 = 1#1), ∀ a, (k0_off81 k0_t3) a + S1x16.size a ≤ S32x768.size a
  k0_off82_inb : ∀ (i : grid0.Coords) (k0_t1 : Fin k0_t1_loop.trips) (k0_t3 : Fin k0_t3_loop.trips), ∀ (k0_h3 : k0_cond3 i k0_t1 = 1#1), ∀ a, (k0_off82 k0_t3) a + S1x16.size a ≤ S32x768.size a
  k0_off83_inb : ∀ (i : grid0.Coords) (k0_t1 : Fin k0_t1_loop.trips) (k0_t3 : Fin k0_t3_loop.trips), ∀ (k0_h3 : k0_cond3 i k0_t1 = 1#1), ∀ a, (k0_off83 k0_t3) a + S1x16.size a ≤ S32x768.size a
  k0_off84_inb : ∀ (i : grid0.Coords) (k0_t1 : Fin k0_t1_loop.trips) (k0_t3 : Fin k0_t3_loop.trips), ∀ (k0_h3 : k0_cond3 i k0_t1 = 1#1), ∀ a, (k0_off84 k0_t3) a + S1x16.size a ≤ S32x768.size a
  k0_off85_inb : ∀ (i : grid0.Coords) (k0_t1 : Fin k0_t1_loop.trips) (k0_t3 : Fin k0_t3_loop.trips), ∀ (k0_h3 : k0_cond3 i k0_t1 = 1#1), ∀ a, (k0_off85 k0_t3) a + S1x16.size a ≤ S32x768.size a
  k0_off86_inb : ∀ (i : grid0.Coords) (k0_t1 : Fin k0_t1_loop.trips) (k0_t3 : Fin k0_t3_loop.trips), ∀ (k0_h3 : k0_cond3 i k0_t1 = 1#1), ∀ a, (k0_off86 k0_t3) a + S1x16.size a ≤ S32x768.size a
  k0_off87_inb : ∀ (i : grid0.Coords) (k0_t1 : Fin k0_t1_loop.trips) (k0_t3 : Fin k0_t3_loop.trips), ∀ (k0_h3 : k0_cond3 i k0_t1 = 1#1), ∀ a, (k0_off87 k0_t3) a + S1x16.size a ≤ S32x768.size a
  k0_off88_inb : ∀ (i : grid0.Coords) (k0_t1 : Fin k0_t1_loop.trips) (k0_t3 : Fin k0_t3_loop.trips), ∀ (k0_h3 : k0_cond3 i k0_t1 = 1#1), ∀ a, (k0_off88 k0_t3) a + S1x16.size a ≤ S32x768.size a
  k0_off89_inb : ∀ (i : grid0.Coords) (k0_t1 : Fin k0_t1_loop.trips) (k0_t3 : Fin k0_t3_loop.trips), ∀ (k0_h3 : k0_cond3 i k0_t1 = 1#1), ∀ a, (k0_off89 k0_t3) a + S1x16.size a ≤ S32x768.size a
  k0_off90_inb : ∀ (i : grid0.Coords) (k0_t1 : Fin k0_t1_loop.trips) (k0_t3 : Fin k0_t3_loop.trips), ∀ (k0_h3 : k0_cond3 i k0_t1 = 1#1), ∀ a, (k0_off90 k0_t3) a + S1x16.size a ≤ S32x768.size a
  k0_off91_inb : ∀ (i : grid0.Coords) (k0_t1 : Fin k0_t1_loop.trips) (k0_t3 : Fin k0_t3_loop.trips), ∀ (k0_h3 : k0_cond3 i k0_t1 = 1#1), ∀ a, (k0_off91 k0_t3) a + S1x16.size a ≤ S32x768.size a
  k0_off92_inb : ∀ (i : grid0.Coords) (k0_t1 : Fin k0_t1_loop.trips) (k0_t3 : Fin k0_t3_loop.trips), ∀ (k0_h3 : k0_cond3 i k0_t1 = 1#1), ∀ a, (k0_off92 k0_t3) a + S1x16.size a ≤ S32x768.size a
  k0_off93_inb : ∀ (i : grid0.Coords) (k0_t1 : Fin k0_t1_loop.trips) (k0_t3 : Fin k0_t3_loop.trips), ∀ (k0_h3 : k0_cond3 i k0_t1 = 1#1), ∀ a, (k0_off93 k0_t3) a + S1x16.size a ≤ S32x768.size a
  k0_off94_inb : ∀ (i : grid0.Coords) (k0_t1 : Fin k0_t1_loop.trips) (k0_t3 : Fin k0_t3_loop.trips), ∀ (k0_h3 : k0_cond3 i k0_t1 = 1#1), ∀ a, (k0_off94 k0_t3) a + S1x16.size a ≤ S32x768.size a
  k0_off95_inb : ∀ (i : grid0.Coords) (k0_t1 : Fin k0_t1_loop.trips) (k0_t3 : Fin k0_t3_loop.trips), ∀ (k0_h3 : k0_cond3 i k0_t1 = 1#1), ∀ a, (k0_off95 k0_t3) a + S1x16.size a ≤ S32x768.size a
  k0_off96_inb : ∀ (i : grid0.Coords) (k0_t1 : Fin k0_t1_loop.trips) (k0_t3 : Fin k0_t3_loop.trips), ∀ (k0_h3 : k0_cond3 i k0_t1 = 1#1), ∀ a, (k0_off96 k0_t3) a + S1x16.size a ≤ S32x768.size a
  k0_off97_inb : ∀ (i : grid0.Coords) (k0_t1 : Fin k0_t1_loop.trips) (k0_t3 : Fin k0_t3_loop.trips), ∀ (k0_h3 : k0_cond3 i k0_t1 = 1#1), ∀ a, (k0_off97 k0_t3) a + S1x16.size a ≤ S32x768.size a
  k0_off98_inb : ∀ (i : grid0.Coords) (k0_t1 : Fin k0_t1_loop.trips) (k0_t3 : Fin k0_t3_loop.trips), ∀ (k0_h3 : k0_cond3 i k0_t1 = 1#1), ∀ a, (k0_off98 k0_t3) a + S1x16.size a ≤ S32x768.size a
  k0_off99_inb : ∀ (i : grid0.Coords) (k0_t1 : Fin k0_t1_loop.trips) (k0_t3 : Fin k0_t3_loop.trips), ∀ (k0_h3 : k0_cond3 i k0_t1 = 1#1), ∀ a, (k0_off99 k0_t3) a + S1x16.size a ≤ S32x768.size a
  k0_off100_inb : ∀ (i : grid0.Coords) (k0_t1 : Fin k0_t1_loop.trips) (k0_t3 : Fin k0_t3_loop.trips), ∀ (k0_h3 : k0_cond3 i k0_t1 = 1#1), ∀ a, (k0_off100 k0_t3) a + S1x16.size a ≤ S32x768.size a
  k0_off101_inb : ∀ (i : grid0.Coords) (k0_t1 : Fin k0_t1_loop.trips) (k0_t3 : Fin k0_t3_loop.trips), ∀ (k0_h3 : k0_cond3 i k0_t1 = 1#1), ∀ a, (k0_off101 k0_t3) a + S1x16.size a ≤ S32x768.size a
  k0_off102_inb : ∀ (i : grid0.Coords) (k0_t1 : Fin k0_t1_loop.trips) (k0_t3 : Fin k0_t3_loop.trips), ∀ (k0_h3 : k0_cond3 i k0_t1 = 1#1), ∀ a, (k0_off102 k0_t3) a + S1x16.size a ≤ S32x768.size a
  k0_off103_inb : ∀ (i : grid0.Coords) (k0_t1 : Fin k0_t1_loop.trips), ∀ (k0_h3 : k0_cond3 i k0_t1 = 1#1), ∀ a, (k0_off103 i k0_t1) a + S32x768.size a ≤ S62001x768.size a
  k0_mult3_dvd : ∀ (i : grid0.Coords) (k0_t1 : Fin k0_t1_loop.trips), ∀ (k0_h5 : k0_cond5 i k0_t1 = 1#1), 8 ∣ (k0_mult3 i k0_t1).toNat
  k0_off104_inb : ∀ (i : grid0.Coords) (k0_t1 : Fin k0_t1_loop.trips), ∀ (k0_h5 : k0_cond5 i k0_t1 = 1#1), ∀ (k0_h6 : k0_cond6 k0_t1 = 1#1), ∀ a, (k0_off104 i k0_t1) a + S32x768.size a ≤ S62001x768.size a
  k0_t4_ok : ∀ (i : grid0.Coords) (k0_t1 : Fin k0_t1_loop.trips), ∀ (k0_h5 : k0_cond5 i k0_t1 = 1#1), k0_t4_loop.OK
  k0_off105_inb : ∀ (i : grid0.Coords) (k0_t1 : Fin k0_t1_loop.trips) (k0_t4 : Fin k0_t4_loop.trips), ∀ (k0_h5 : k0_cond5 i k0_t1 = 1#1), ∀ (r₁ : Fin 3) (r₂ : Fin 16), ∀ a, (k0_off105 i k0_t1 k0_t4 (BitVec.ofNat 32 (16384 * r₁.val)) (BitVec.ofNat 32 (512 * r₂.val))) a + S16.size a ≤ S49152.size a
  k0_off106_inb : ∀ (i : grid0.Coords) (k0_t1 : Fin k0_t1_loop.trips) (k0_t4 : Fin k0_t4_loop.trips), ∀ (k0_h5 : k0_cond5 i k0_t1 = 1#1), ∀ a, (k0_off106 k0_t4) a + S1x16.size a ≤ S32x768.size a
  k0_off107_inb : ∀ (i : grid0.Coords) (k0_t1 : Fin k0_t1_loop.trips) (k0_t4 : Fin k0_t4_loop.trips), ∀ (k0_h5 : k0_cond5 i k0_t1 = 1#1), ∀ a, (k0_off107 k0_t4) a + S1x16.size a ≤ S32x768.size a
  k0_off108_inb : ∀ (i : grid0.Coords) (k0_t1 : Fin k0_t1_loop.trips) (k0_t4 : Fin k0_t4_loop.trips), ∀ (k0_h5 : k0_cond5 i k0_t1 = 1#1), ∀ a, (k0_off108 k0_t4) a + S1x16.size a ≤ S32x768.size a
  k0_off109_inb : ∀ (i : grid0.Coords) (k0_t1 : Fin k0_t1_loop.trips) (k0_t4 : Fin k0_t4_loop.trips), ∀ (k0_h5 : k0_cond5 i k0_t1 = 1#1), ∀ a, (k0_off109 k0_t4) a + S1x16.size a ≤ S32x768.size a
  k0_off110_inb : ∀ (i : grid0.Coords) (k0_t1 : Fin k0_t1_loop.trips) (k0_t4 : Fin k0_t4_loop.trips), ∀ (k0_h5 : k0_cond5 i k0_t1 = 1#1), ∀ a, (k0_off110 k0_t4) a + S1x16.size a ≤ S32x768.size a
  k0_off111_inb : ∀ (i : grid0.Coords) (k0_t1 : Fin k0_t1_loop.trips) (k0_t4 : Fin k0_t4_loop.trips), ∀ (k0_h5 : k0_cond5 i k0_t1 = 1#1), ∀ a, (k0_off111 k0_t4) a + S1x16.size a ≤ S32x768.size a
  k0_off112_inb : ∀ (i : grid0.Coords) (k0_t1 : Fin k0_t1_loop.trips) (k0_t4 : Fin k0_t4_loop.trips), ∀ (k0_h5 : k0_cond5 i k0_t1 = 1#1), ∀ a, (k0_off112 k0_t4) a + S1x16.size a ≤ S32x768.size a
  k0_off113_inb : ∀ (i : grid0.Coords) (k0_t1 : Fin k0_t1_loop.trips) (k0_t4 : Fin k0_t4_loop.trips), ∀ (k0_h5 : k0_cond5 i k0_t1 = 1#1), ∀ a, (k0_off113 k0_t4) a + S1x16.size a ≤ S32x768.size a
  k0_off114_inb : ∀ (i : grid0.Coords) (k0_t1 : Fin k0_t1_loop.trips) (k0_t4 : Fin k0_t4_loop.trips), ∀ (k0_h5 : k0_cond5 i k0_t1 = 1#1), ∀ a, (k0_off114 k0_t4) a + S1x16.size a ≤ S32x768.size a
  k0_off115_inb : ∀ (i : grid0.Coords) (k0_t1 : Fin k0_t1_loop.trips) (k0_t4 : Fin k0_t4_loop.trips), ∀ (k0_h5 : k0_cond5 i k0_t1 = 1#1), ∀ a, (k0_off115 k0_t4) a + S1x16.size a ≤ S32x768.size a
  k0_off116_inb : ∀ (i : grid0.Coords) (k0_t1 : Fin k0_t1_loop.trips) (k0_t4 : Fin k0_t4_loop.trips), ∀ (k0_h5 : k0_cond5 i k0_t1 = 1#1), ∀ a, (k0_off116 k0_t4) a + S1x16.size a ≤ S32x768.size a
  k0_off117_inb : ∀ (i : grid0.Coords) (k0_t1 : Fin k0_t1_loop.trips) (k0_t4 : Fin k0_t4_loop.trips), ∀ (k0_h5 : k0_cond5 i k0_t1 = 1#1), ∀ a, (k0_off117 k0_t4) a + S1x16.size a ≤ S32x768.size a
  k0_off118_inb : ∀ (i : grid0.Coords) (k0_t1 : Fin k0_t1_loop.trips) (k0_t4 : Fin k0_t4_loop.trips), ∀ (k0_h5 : k0_cond5 i k0_t1 = 1#1), ∀ a, (k0_off118 k0_t4) a + S1x16.size a ≤ S32x768.size a
  k0_off119_inb : ∀ (i : grid0.Coords) (k0_t1 : Fin k0_t1_loop.trips) (k0_t4 : Fin k0_t4_loop.trips), ∀ (k0_h5 : k0_cond5 i k0_t1 = 1#1), ∀ a, (k0_off119 k0_t4) a + S1x16.size a ≤ S32x768.size a
  k0_off120_inb : ∀ (i : grid0.Coords) (k0_t1 : Fin k0_t1_loop.trips) (k0_t4 : Fin k0_t4_loop.trips), ∀ (k0_h5 : k0_cond5 i k0_t1 = 1#1), ∀ a, (k0_off120 k0_t4) a + S1x16.size a ≤ S32x768.size a
  k0_off121_inb : ∀ (i : grid0.Coords) (k0_t1 : Fin k0_t1_loop.trips) (k0_t4 : Fin k0_t4_loop.trips), ∀ (k0_h5 : k0_cond5 i k0_t1 = 1#1), ∀ a, (k0_off121 k0_t4) a + S1x16.size a ≤ S32x768.size a
  k0_off122_inb : ∀ (i : grid0.Coords) (k0_t1 : Fin k0_t1_loop.trips) (k0_t4 : Fin k0_t4_loop.trips), ∀ (k0_h5 : k0_cond5 i k0_t1 = 1#1), ∀ a, (k0_off122 k0_t4) a + S1x16.size a ≤ S32x768.size a
  k0_off123_inb : ∀ (i : grid0.Coords) (k0_t1 : Fin k0_t1_loop.trips) (k0_t4 : Fin k0_t4_loop.trips), ∀ (k0_h5 : k0_cond5 i k0_t1 = 1#1), ∀ a, (k0_off123 k0_t4) a + S1x16.size a ≤ S32x768.size a
  k0_off124_inb : ∀ (i : grid0.Coords) (k0_t1 : Fin k0_t1_loop.trips) (k0_t4 : Fin k0_t4_loop.trips), ∀ (k0_h5 : k0_cond5 i k0_t1 = 1#1), ∀ a, (k0_off124 k0_t4) a + S1x16.size a ≤ S32x768.size a
  k0_off125_inb : ∀ (i : grid0.Coords) (k0_t1 : Fin k0_t1_loop.trips) (k0_t4 : Fin k0_t4_loop.trips), ∀ (k0_h5 : k0_cond5 i k0_t1 = 1#1), ∀ a, (k0_off125 k0_t4) a + S1x16.size a ≤ S32x768.size a
  k0_off126_inb : ∀ (i : grid0.Coords) (k0_t1 : Fin k0_t1_loop.trips) (k0_t4 : Fin k0_t4_loop.trips), ∀ (k0_h5 : k0_cond5 i k0_t1 = 1#1), ∀ a, (k0_off126 k0_t4) a + S1x16.size a ≤ S32x768.size a
  k0_off127_inb : ∀ (i : grid0.Coords) (k0_t1 : Fin k0_t1_loop.trips) (k0_t4 : Fin k0_t4_loop.trips), ∀ (k0_h5 : k0_cond5 i k0_t1 = 1#1), ∀ a, (k0_off127 k0_t4) a + S1x16.size a ≤ S32x768.size a
  k0_off128_inb : ∀ (i : grid0.Coords) (k0_t1 : Fin k0_t1_loop.trips) (k0_t4 : Fin k0_t4_loop.trips), ∀ (k0_h5 : k0_cond5 i k0_t1 = 1#1), ∀ a, (k0_off128 k0_t4) a + S1x16.size a ≤ S32x768.size a
  k0_off129_inb : ∀ (i : grid0.Coords) (k0_t1 : Fin k0_t1_loop.trips) (k0_t4 : Fin k0_t4_loop.trips), ∀ (k0_h5 : k0_cond5 i k0_t1 = 1#1), ∀ a, (k0_off129 k0_t4) a + S1x16.size a ≤ S32x768.size a
  k0_off130_inb : ∀ (i : grid0.Coords) (k0_t1 : Fin k0_t1_loop.trips) (k0_t4 : Fin k0_t4_loop.trips), ∀ (k0_h5 : k0_cond5 i k0_t1 = 1#1), ∀ a, (k0_off130 k0_t4) a + S1x16.size a ≤ S32x768.size a
  k0_off131_inb : ∀ (i : grid0.Coords) (k0_t1 : Fin k0_t1_loop.trips) (k0_t4 : Fin k0_t4_loop.trips), ∀ (k0_h5 : k0_cond5 i k0_t1 = 1#1), ∀ a, (k0_off131 k0_t4) a + S1x16.size a ≤ S32x768.size a
  k0_off132_inb : ∀ (i : grid0.Coords) (k0_t1 : Fin k0_t1_loop.trips) (k0_t4 : Fin k0_t4_loop.trips), ∀ (k0_h5 : k0_cond5 i k0_t1 = 1#1), ∀ a, (k0_off132 k0_t4) a + S1x16.size a ≤ S32x768.size a
  k0_off133_inb : ∀ (i : grid0.Coords) (k0_t1 : Fin k0_t1_loop.trips) (k0_t4 : Fin k0_t4_loop.trips), ∀ (k0_h5 : k0_cond5 i k0_t1 = 1#1), ∀ a, (k0_off133 k0_t4) a + S1x16.size a ≤ S32x768.size a
  k0_off134_inb : ∀ (i : grid0.Coords) (k0_t1 : Fin k0_t1_loop.trips) (k0_t4 : Fin k0_t4_loop.trips), ∀ (k0_h5 : k0_cond5 i k0_t1 = 1#1), ∀ a, (k0_off134 k0_t4) a + S1x16.size a ≤ S32x768.size a
  k0_off135_inb : ∀ (i : grid0.Coords) (k0_t1 : Fin k0_t1_loop.trips) (k0_t4 : Fin k0_t4_loop.trips), ∀ (k0_h5 : k0_cond5 i k0_t1 = 1#1), ∀ a, (k0_off135 k0_t4) a + S1x16.size a ≤ S32x768.size a
  k0_off136_inb : ∀ (i : grid0.Coords) (k0_t1 : Fin k0_t1_loop.trips) (k0_t4 : Fin k0_t4_loop.trips), ∀ (k0_h5 : k0_cond5 i k0_t1 = 1#1), ∀ a, (k0_off136 k0_t4) a + S1x16.size a ≤ S32x768.size a
  k0_off137_inb : ∀ (i : grid0.Coords) (k0_t1 : Fin k0_t1_loop.trips) (k0_t4 : Fin k0_t4_loop.trips), ∀ (k0_h5 : k0_cond5 i k0_t1 = 1#1), ∀ a, (k0_off137 k0_t4) a + S1x16.size a ≤ S32x768.size a
  k0_off138_inb : ∀ (i : grid0.Coords) (k0_t1 : Fin k0_t1_loop.trips) (k0_t4 : Fin k0_t4_loop.trips), ∀ (k0_h5 : k0_cond5 i k0_t1 = 1#1), ∀ a, (k0_off138 k0_t4) a + S1x16.size a ≤ S32x768.size a
  k0_off139_inb : ∀ (i : grid0.Coords) (k0_t1 : Fin k0_t1_loop.trips) (k0_t4 : Fin k0_t4_loop.trips), ∀ (k0_h5 : k0_cond5 i k0_t1 = 1#1), ∀ a, (k0_off139 k0_t4) a + S1x16.size a ≤ S32x768.size a
  k0_off140_inb : ∀ (i : grid0.Coords) (k0_t1 : Fin k0_t1_loop.trips) (k0_t4 : Fin k0_t4_loop.trips), ∀ (k0_h5 : k0_cond5 i k0_t1 = 1#1), ∀ a, (k0_off140 k0_t4) a + S1x16.size a ≤ S32x768.size a
  k0_off141_inb : ∀ (i : grid0.Coords) (k0_t1 : Fin k0_t1_loop.trips) (k0_t4 : Fin k0_t4_loop.trips), ∀ (k0_h5 : k0_cond5 i k0_t1 = 1#1), ∀ a, (k0_off141 k0_t4) a + S1x16.size a ≤ S32x768.size a
  k0_off142_inb : ∀ (i : grid0.Coords) (k0_t1 : Fin k0_t1_loop.trips) (k0_t4 : Fin k0_t4_loop.trips), ∀ (k0_h5 : k0_cond5 i k0_t1 = 1#1), ∀ a, (k0_off142 k0_t4) a + S1x16.size a ≤ S32x768.size a
  k0_off143_inb : ∀ (i : grid0.Coords) (k0_t1 : Fin k0_t1_loop.trips) (k0_t4 : Fin k0_t4_loop.trips), ∀ (k0_h5 : k0_cond5 i k0_t1 = 1#1), ∀ a, (k0_off143 k0_t4) a + S1x16.size a ≤ S32x768.size a
  k0_off144_inb : ∀ (i : grid0.Coords) (k0_t1 : Fin k0_t1_loop.trips) (k0_t4 : Fin k0_t4_loop.trips), ∀ (k0_h5 : k0_cond5 i k0_t1 = 1#1), ∀ a, (k0_off144 k0_t4) a + S1x16.size a ≤ S32x768.size a
  k0_off145_inb : ∀ (i : grid0.Coords) (k0_t1 : Fin k0_t1_loop.trips) (k0_t4 : Fin k0_t4_loop.trips), ∀ (k0_h5 : k0_cond5 i k0_t1 = 1#1), ∀ a, (k0_off145 k0_t4) a + S1x16.size a ≤ S32x768.size a
  k0_off146_inb : ∀ (i : grid0.Coords) (k0_t1 : Fin k0_t1_loop.trips) (k0_t4 : Fin k0_t4_loop.trips), ∀ (k0_h5 : k0_cond5 i k0_t1 = 1#1), ∀ a, (k0_off146 k0_t4) a + S1x16.size a ≤ S32x768.size a
  k0_off147_inb : ∀ (i : grid0.Coords) (k0_t1 : Fin k0_t1_loop.trips) (k0_t4 : Fin k0_t4_loop.trips), ∀ (k0_h5 : k0_cond5 i k0_t1 = 1#1), ∀ a, (k0_off147 k0_t4) a + S1x16.size a ≤ S32x768.size a
  k0_off148_inb : ∀ (i : grid0.Coords) (k0_t1 : Fin k0_t1_loop.trips) (k0_t4 : Fin k0_t4_loop.trips), ∀ (k0_h5 : k0_cond5 i k0_t1 = 1#1), ∀ a, (k0_off148 k0_t4) a + S1x16.size a ≤ S32x768.size a
  k0_off149_inb : ∀ (i : grid0.Coords) (k0_t1 : Fin k0_t1_loop.trips) (k0_t4 : Fin k0_t4_loop.trips), ∀ (k0_h5 : k0_cond5 i k0_t1 = 1#1), ∀ a, (k0_off149 k0_t4) a + S1x16.size a ≤ S32x768.size a
  k0_off150_inb : ∀ (i : grid0.Coords) (k0_t1 : Fin k0_t1_loop.trips) (k0_t4 : Fin k0_t4_loop.trips), ∀ (k0_h5 : k0_cond5 i k0_t1 = 1#1), ∀ a, (k0_off150 k0_t4) a + S1x16.size a ≤ S32x768.size a
  k0_off151_inb : ∀ (i : grid0.Coords) (k0_t1 : Fin k0_t1_loop.trips) (k0_t4 : Fin k0_t4_loop.trips), ∀ (k0_h5 : k0_cond5 i k0_t1 = 1#1), ∀ a, (k0_off151 k0_t4) a + S1x16.size a ≤ S32x768.size a
  k0_off152_inb : ∀ (i : grid0.Coords) (k0_t1 : Fin k0_t1_loop.trips) (k0_t4 : Fin k0_t4_loop.trips), ∀ (k0_h5 : k0_cond5 i k0_t1 = 1#1), ∀ a, (k0_off152 k0_t4) a + S1x16.size a ≤ S32x768.size a
  k0_off153_inb : ∀ (i : grid0.Coords) (k0_t1 : Fin k0_t1_loop.trips) (k0_t4 : Fin k0_t4_loop.trips), ∀ (k0_h5 : k0_cond5 i k0_t1 = 1#1), ∀ a, (k0_off153 k0_t4) a + S1x16.size a ≤ S32x768.size a
  k0_off154_inb : ∀ (i : grid0.Coords) (k0_t1 : Fin k0_t1_loop.trips), ∀ (k0_h5 : k0_cond5 i k0_t1 = 1#1), ∀ a, (k0_off154 i k0_t1) a + S32x768.size a ≤ S62001x768.size a
  k0_mult4_dvd : ∀ i : grid0.Coords, ∀ (k0_h7 : k0_cond7 i = 1#1), 8 ∣ (k0_mult4 i).toNat
  k0_off155_inb : ∀ i : grid0.Coords, ∀ (k0_h7 : k0_cond7 i = 1#1), ∀ (k0_h8 : k0_cond8 = 1#1), ∀ a, (k0_off155 i) a + S32x768.size a ≤ S62001x768.size a
  k0_t5_ok : ∀ i : grid0.Coords, ∀ (k0_h7 : k0_cond7 i = 1#1), k0_t5_loop.OK
  k0_off156_inb : ∀ (i : grid0.Coords) (k0_t5 : Fin k0_t5_loop.trips), ∀ (k0_h7 : k0_cond7 i = 1#1), ∀ (r₁ : Fin 3) (r₂ : Fin 16), ∀ a, (k0_off156 i k0_t5 (BitVec.ofNat 32 (16384 * r₁.val)) (BitVec.ofNat 32 (512 * r₂.val))) a + S16.size a ≤ S49152.size a
  k0_off157_inb : ∀ (i : grid0.Coords) (k0_t5 : Fin k0_t5_loop.trips), ∀ (k0_h7 : k0_cond7 i = 1#1), ∀ a, (k0_off157 k0_t5) a + S1x16.size a ≤ S32x768.size a
  k0_off158_inb : ∀ (i : grid0.Coords) (k0_t5 : Fin k0_t5_loop.trips), ∀ (k0_h7 : k0_cond7 i = 1#1), ∀ a, (k0_off158 k0_t5) a + S1x16.size a ≤ S32x768.size a
  k0_off159_inb : ∀ (i : grid0.Coords) (k0_t5 : Fin k0_t5_loop.trips), ∀ (k0_h7 : k0_cond7 i = 1#1), ∀ a, (k0_off159 k0_t5) a + S1x16.size a ≤ S32x768.size a
  k0_off160_inb : ∀ (i : grid0.Coords) (k0_t5 : Fin k0_t5_loop.trips), ∀ (k0_h7 : k0_cond7 i = 1#1), ∀ a, (k0_off160 k0_t5) a + S1x16.size a ≤ S32x768.size a
  k0_off161_inb : ∀ (i : grid0.Coords) (k0_t5 : Fin k0_t5_loop.trips), ∀ (k0_h7 : k0_cond7 i = 1#1), ∀ a, (k0_off161 k0_t5) a + S1x16.size a ≤ S32x768.size a
  k0_off162_inb : ∀ (i : grid0.Coords) (k0_t5 : Fin k0_t5_loop.trips), ∀ (k0_h7 : k0_cond7 i = 1#1), ∀ a, (k0_off162 k0_t5) a + S1x16.size a ≤ S32x768.size a
  k0_off163_inb : ∀ (i : grid0.Coords) (k0_t5 : Fin k0_t5_loop.trips), ∀ (k0_h7 : k0_cond7 i = 1#1), ∀ a, (k0_off163 k0_t5) a + S1x16.size a ≤ S32x768.size a
  k0_off164_inb : ∀ (i : grid0.Coords) (k0_t5 : Fin k0_t5_loop.trips), ∀ (k0_h7 : k0_cond7 i = 1#1), ∀ a, (k0_off164 k0_t5) a + S1x16.size a ≤ S32x768.size a
  k0_off165_inb : ∀ (i : grid0.Coords) (k0_t5 : Fin k0_t5_loop.trips), ∀ (k0_h7 : k0_cond7 i = 1#1), ∀ a, (k0_off165 k0_t5) a + S1x16.size a ≤ S32x768.size a
  k0_off166_inb : ∀ (i : grid0.Coords) (k0_t5 : Fin k0_t5_loop.trips), ∀ (k0_h7 : k0_cond7 i = 1#1), ∀ a, (k0_off166 k0_t5) a + S1x16.size a ≤ S32x768.size a
  k0_off167_inb : ∀ (i : grid0.Coords) (k0_t5 : Fin k0_t5_loop.trips), ∀ (k0_h7 : k0_cond7 i = 1#1), ∀ a, (k0_off167 k0_t5) a + S1x16.size a ≤ S32x768.size a
  k0_off168_inb : ∀ (i : grid0.Coords) (k0_t5 : Fin k0_t5_loop.trips), ∀ (k0_h7 : k0_cond7 i = 1#1), ∀ a, (k0_off168 k0_t5) a + S1x16.size a ≤ S32x768.size a
  k0_off169_inb : ∀ (i : grid0.Coords) (k0_t5 : Fin k0_t5_loop.trips), ∀ (k0_h7 : k0_cond7 i = 1#1), ∀ a, (k0_off169 k0_t5) a + S1x16.size a ≤ S32x768.size a
  k0_off170_inb : ∀ (i : grid0.Coords) (k0_t5 : Fin k0_t5_loop.trips), ∀ (k0_h7 : k0_cond7 i = 1#1), ∀ a, (k0_off170 k0_t5) a + S1x16.size a ≤ S32x768.size a
  k0_off171_inb : ∀ (i : grid0.Coords) (k0_t5 : Fin k0_t5_loop.trips), ∀ (k0_h7 : k0_cond7 i = 1#1), ∀ a, (k0_off171 k0_t5) a + S1x16.size a ≤ S32x768.size a
  k0_off172_inb : ∀ (i : grid0.Coords) (k0_t5 : Fin k0_t5_loop.trips), ∀ (k0_h7 : k0_cond7 i = 1#1), ∀ a, (k0_off172 k0_t5) a + S1x16.size a ≤ S32x768.size a
  k0_off173_inb : ∀ (i : grid0.Coords) (k0_t5 : Fin k0_t5_loop.trips), ∀ (k0_h7 : k0_cond7 i = 1#1), ∀ a, (k0_off173 k0_t5) a + S1x16.size a ≤ S32x768.size a
  k0_off174_inb : ∀ (i : grid0.Coords) (k0_t5 : Fin k0_t5_loop.trips), ∀ (k0_h7 : k0_cond7 i = 1#1), ∀ a, (k0_off174 k0_t5) a + S1x16.size a ≤ S32x768.size a
  k0_off175_inb : ∀ (i : grid0.Coords) (k0_t5 : Fin k0_t5_loop.trips), ∀ (k0_h7 : k0_cond7 i = 1#1), ∀ a, (k0_off175 k0_t5) a + S1x16.size a ≤ S32x768.size a
  k0_off176_inb : ∀ (i : grid0.Coords) (k0_t5 : Fin k0_t5_loop.trips), ∀ (k0_h7 : k0_cond7 i = 1#1), ∀ a, (k0_off176 k0_t5) a + S1x16.size a ≤ S32x768.size a
  k0_off177_inb : ∀ (i : grid0.Coords) (k0_t5 : Fin k0_t5_loop.trips), ∀ (k0_h7 : k0_cond7 i = 1#1), ∀ a, (k0_off177 k0_t5) a + S1x16.size a ≤ S32x768.size a
  k0_off178_inb : ∀ (i : grid0.Coords) (k0_t5 : Fin k0_t5_loop.trips), ∀ (k0_h7 : k0_cond7 i = 1#1), ∀ a, (k0_off178 k0_t5) a + S1x16.size a ≤ S32x768.size a
  k0_off179_inb : ∀ (i : grid0.Coords) (k0_t5 : Fin k0_t5_loop.trips), ∀ (k0_h7 : k0_cond7 i = 1#1), ∀ a, (k0_off179 k0_t5) a + S1x16.size a ≤ S32x768.size a
  k0_off180_inb : ∀ (i : grid0.Coords) (k0_t5 : Fin k0_t5_loop.trips), ∀ (k0_h7 : k0_cond7 i = 1#1), ∀ a, (k0_off180 k0_t5) a + S1x16.size a ≤ S32x768.size a
  k0_off181_inb : ∀ (i : grid0.Coords) (k0_t5 : Fin k0_t5_loop.trips), ∀ (k0_h7 : k0_cond7 i = 1#1), ∀ a, (k0_off181 k0_t5) a + S1x16.size a ≤ S32x768.size a
  k0_off182_inb : ∀ (i : grid0.Coords) (k0_t5 : Fin k0_t5_loop.trips), ∀ (k0_h7 : k0_cond7 i = 1#1), ∀ a, (k0_off182 k0_t5) a + S1x16.size a ≤ S32x768.size a
  k0_off183_inb : ∀ (i : grid0.Coords) (k0_t5 : Fin k0_t5_loop.trips), ∀ (k0_h7 : k0_cond7 i = 1#1), ∀ a, (k0_off183 k0_t5) a + S1x16.size a ≤ S32x768.size a
  k0_off184_inb : ∀ (i : grid0.Coords) (k0_t5 : Fin k0_t5_loop.trips), ∀ (k0_h7 : k0_cond7 i = 1#1), ∀ a, (k0_off184 k0_t5) a + S1x16.size a ≤ S32x768.size a
  k0_off185_inb : ∀ (i : grid0.Coords) (k0_t5 : Fin k0_t5_loop.trips), ∀ (k0_h7 : k0_cond7 i = 1#1), ∀ a, (k0_off185 k0_t5) a + S1x16.size a ≤ S32x768.size a
  k0_off186_inb : ∀ (i : grid0.Coords) (k0_t5 : Fin k0_t5_loop.trips), ∀ (k0_h7 : k0_cond7 i = 1#1), ∀ a, (k0_off186 k0_t5) a + S1x16.size a ≤ S32x768.size a
  k0_off187_inb : ∀ (i : grid0.Coords) (k0_t5 : Fin k0_t5_loop.trips), ∀ (k0_h7 : k0_cond7 i = 1#1), ∀ a, (k0_off187 k0_t5) a + S1x16.size a ≤ S32x768.size a
  k0_off188_inb : ∀ (i : grid0.Coords) (k0_t5 : Fin k0_t5_loop.trips), ∀ (k0_h7 : k0_cond7 i = 1#1), ∀ a, (k0_off188 k0_t5) a + S1x16.size a ≤ S32x768.size a
  k0_off189_inb : ∀ (i : grid0.Coords) (k0_t5 : Fin k0_t5_loop.trips), ∀ (k0_h7 : k0_cond7 i = 1#1), ∀ a, (k0_off189 k0_t5) a + S1x16.size a ≤ S32x768.size a
  k0_off190_inb : ∀ (i : grid0.Coords) (k0_t5 : Fin k0_t5_loop.trips), ∀ (k0_h7 : k0_cond7 i = 1#1), ∀ a, (k0_off190 k0_t5) a + S1x16.size a ≤ S32x768.size a
  k0_off191_inb : ∀ (i : grid0.Coords) (k0_t5 : Fin k0_t5_loop.trips), ∀ (k0_h7 : k0_cond7 i = 1#1), ∀ a, (k0_off191 k0_t5) a + S1x16.size a ≤ S32x768.size a
  k0_off192_inb : ∀ (i : grid0.Coords) (k0_t5 : Fin k0_t5_loop.trips), ∀ (k0_h7 : k0_cond7 i = 1#1), ∀ a, (k0_off192 k0_t5) a + S1x16.size a ≤ S32x768.size a
  k0_off193_inb : ∀ (i : grid0.Coords) (k0_t5 : Fin k0_t5_loop.trips), ∀ (k0_h7 : k0_cond7 i = 1#1), ∀ a, (k0_off193 k0_t5) a + S1x16.size a ≤ S32x768.size a
  k0_off194_inb : ∀ (i : grid0.Coords) (k0_t5 : Fin k0_t5_loop.trips), ∀ (k0_h7 : k0_cond7 i = 1#1), ∀ a, (k0_off194 k0_t5) a + S1x16.size a ≤ S32x768.size a
  k0_off195_inb : ∀ (i : grid0.Coords) (k0_t5 : Fin k0_t5_loop.trips), ∀ (k0_h7 : k0_cond7 i = 1#1), ∀ a, (k0_off195 k0_t5) a + S1x16.size a ≤ S32x768.size a
  k0_off196_inb : ∀ (i : grid0.Coords) (k0_t5 : Fin k0_t5_loop.trips), ∀ (k0_h7 : k0_cond7 i = 1#1), ∀ a, (k0_off196 k0_t5) a + S1x16.size a ≤ S32x768.size a
  k0_off197_inb : ∀ (i : grid0.Coords) (k0_t5 : Fin k0_t5_loop.trips), ∀ (k0_h7 : k0_cond7 i = 1#1), ∀ a, (k0_off197 k0_t5) a + S1x16.size a ≤ S32x768.size a
  k0_off198_inb : ∀ (i : grid0.Coords) (k0_t5 : Fin k0_t5_loop.trips), ∀ (k0_h7 : k0_cond7 i = 1#1), ∀ a, (k0_off198 k0_t5) a + S1x16.size a ≤ S32x768.size a
  k0_off199_inb : ∀ (i : grid0.Coords) (k0_t5 : Fin k0_t5_loop.trips), ∀ (k0_h7 : k0_cond7 i = 1#1), ∀ a, (k0_off199 k0_t5) a + S1x16.size a ≤ S32x768.size a
  k0_off200_inb : ∀ (i : grid0.Coords) (k0_t5 : Fin k0_t5_loop.trips), ∀ (k0_h7 : k0_cond7 i = 1#1), ∀ a, (k0_off200 k0_t5) a + S1x16.size a ≤ S32x768.size a
  k0_off201_inb : ∀ (i : grid0.Coords) (k0_t5 : Fin k0_t5_loop.trips), ∀ (k0_h7 : k0_cond7 i = 1#1), ∀ a, (k0_off201 k0_t5) a + S1x16.size a ≤ S32x768.size a
  k0_off202_inb : ∀ (i : grid0.Coords) (k0_t5 : Fin k0_t5_loop.trips), ∀ (k0_h7 : k0_cond7 i = 1#1), ∀ a, (k0_off202 k0_t5) a + S1x16.size a ≤ S32x768.size a
  k0_off203_inb : ∀ (i : grid0.Coords) (k0_t5 : Fin k0_t5_loop.trips), ∀ (k0_h7 : k0_cond7 i = 1#1), ∀ a, (k0_off203 k0_t5) a + S1x16.size a ≤ S32x768.size a
  k0_off204_inb : ∀ (i : grid0.Coords) (k0_t5 : Fin k0_t5_loop.trips), ∀ (k0_h7 : k0_cond7 i = 1#1), ∀ a, (k0_off204 k0_t5) a + S1x16.size a ≤ S32x768.size a
  k0_off205_inb : ∀ i : grid0.Coords, ∀ (k0_h7 : k0_cond7 i = 1#1), ∀ a, (k0_off205 i) a + S32x768.size a ≤ S62001x768.size a
  k0_t6_ok : ∀ i : grid0.Coords, ∀ (k0_h9 : k0_cond9 i = 1#1), k0_t6_loop.OK
  k0_off206_inb : ∀ (i : grid0.Coords) (k0_t6 : Fin k0_t6_loop.trips), ∀ (k0_h9 : k0_cond9 i = 1#1), ∀ (r₁ : Fin 3) (r₂ : Fin 16), ∀ a, (k0_off206 i k0_t6 (BitVec.ofNat 32 (16384 * r₁.val)) (BitVec.ofNat 32 (512 * r₂.val))) a + S16.size a ≤ S49152.size a
  k0_off207_inb : ∀ (i : grid0.Coords) (k0_t6 : Fin k0_t6_loop.trips), ∀ (k0_h9 : k0_cond9 i = 1#1), ∀ a, (k0_off207 k0_t6) a + S1x16.size a ≤ S32x768.size a
  k0_off208_inb : ∀ (i : grid0.Coords) (k0_t6 : Fin k0_t6_loop.trips), ∀ (k0_h9 : k0_cond9 i = 1#1), ∀ a, (k0_off208 k0_t6) a + S1x16.size a ≤ S32x768.size a
  k0_off209_inb : ∀ (i : grid0.Coords) (k0_t6 : Fin k0_t6_loop.trips), ∀ (k0_h9 : k0_cond9 i = 1#1), ∀ a, (k0_off209 k0_t6) a + S1x16.size a ≤ S32x768.size a
  k0_off210_inb : ∀ (i : grid0.Coords) (k0_t6 : Fin k0_t6_loop.trips), ∀ (k0_h9 : k0_cond9 i = 1#1), ∀ a, (k0_off210 k0_t6) a + S1x16.size a ≤ S32x768.size a
  k0_off211_inb : ∀ (i : grid0.Coords) (k0_t6 : Fin k0_t6_loop.trips), ∀ (k0_h9 : k0_cond9 i = 1#1), ∀ a, (k0_off211 k0_t6) a + S1x16.size a ≤ S32x768.size a
  k0_off212_inb : ∀ (i : grid0.Coords) (k0_t6 : Fin k0_t6_loop.trips), ∀ (k0_h9 : k0_cond9 i = 1#1), ∀ a, (k0_off212 k0_t6) a + S1x16.size a ≤ S32x768.size a
  k0_off213_inb : ∀ (i : grid0.Coords) (k0_t6 : Fin k0_t6_loop.trips), ∀ (k0_h9 : k0_cond9 i = 1#1), ∀ a, (k0_off213 k0_t6) a + S1x16.size a ≤ S32x768.size a
  k0_off214_inb : ∀ (i : grid0.Coords) (k0_t6 : Fin k0_t6_loop.trips), ∀ (k0_h9 : k0_cond9 i = 1#1), ∀ a, (k0_off214 k0_t6) a + S1x16.size a ≤ S32x768.size a
  k0_off215_inb : ∀ (i : grid0.Coords) (k0_t6 : Fin k0_t6_loop.trips), ∀ (k0_h9 : k0_cond9 i = 1#1), ∀ a, (k0_off215 k0_t6) a + S1x16.size a ≤ S32x768.size a
  k0_off216_inb : ∀ (i : grid0.Coords) (k0_t6 : Fin k0_t6_loop.trips), ∀ (k0_h9 : k0_cond9 i = 1#1), ∀ a, (k0_off216 k0_t6) a + S1x16.size a ≤ S32x768.size a
  k0_off217_inb : ∀ (i : grid0.Coords) (k0_t6 : Fin k0_t6_loop.trips), ∀ (k0_h9 : k0_cond9 i = 1#1), ∀ a, (k0_off217 k0_t6) a + S1x16.size a ≤ S32x768.size a
  k0_off218_inb : ∀ (i : grid0.Coords) (k0_t6 : Fin k0_t6_loop.trips), ∀ (k0_h9 : k0_cond9 i = 1#1), ∀ a, (k0_off218 k0_t6) a + S1x16.size a ≤ S32x768.size a
  k0_off219_inb : ∀ (i : grid0.Coords) (k0_t6 : Fin k0_t6_loop.trips), ∀ (k0_h9 : k0_cond9 i = 1#1), ∀ a, (k0_off219 k0_t6) a + S1x16.size a ≤ S32x768.size a
  k0_off220_inb : ∀ (i : grid0.Coords) (k0_t6 : Fin k0_t6_loop.trips), ∀ (k0_h9 : k0_cond9 i = 1#1), ∀ a, (k0_off220 k0_t6) a + S1x16.size a ≤ S32x768.size a
  k0_off221_inb : ∀ (i : grid0.Coords) (k0_t6 : Fin k0_t6_loop.trips), ∀ (k0_h9 : k0_cond9 i = 1#1), ∀ a, (k0_off221 k0_t6) a + S1x16.size a ≤ S32x768.size a
  k0_off222_inb : ∀ (i : grid0.Coords) (k0_t6 : Fin k0_t6_loop.trips), ∀ (k0_h9 : k0_cond9 i = 1#1), ∀ a, (k0_off222 k0_t6) a + S1x16.size a ≤ S32x768.size a
  k0_off223_inb : ∀ (i : grid0.Coords) (k0_t6 : Fin k0_t6_loop.trips), ∀ (k0_h9 : k0_cond9 i = 1#1), ∀ a, (k0_off223 k0_t6) a + S1x16.size a ≤ S32x768.size a
  k0_off224_inb : ∀ (i : grid0.Coords) (k0_t6 : Fin k0_t6_loop.trips), ∀ (k0_h9 : k0_cond9 i = 1#1), ∀ a, (k0_off224 k0_t6) a + S1x16.size a ≤ S32x768.size a
  k0_off225_inb : ∀ (i : grid0.Coords) (k0_t6 : Fin k0_t6_loop.trips), ∀ (k0_h9 : k0_cond9 i = 1#1), ∀ a, (k0_off225 k0_t6) a + S1x16.size a ≤ S32x768.size a
  k0_off226_inb : ∀ (i : grid0.Coords) (k0_t6 : Fin k0_t6_loop.trips), ∀ (k0_h9 : k0_cond9 i = 1#1), ∀ a, (k0_off226 k0_t6) a + S1x16.size a ≤ S32x768.size a
  k0_off227_inb : ∀ (i : grid0.Coords) (k0_t6 : Fin k0_t6_loop.trips), ∀ (k0_h9 : k0_cond9 i = 1#1), ∀ a, (k0_off227 k0_t6) a + S1x16.size a ≤ S32x768.size a
  k0_off228_inb : ∀ (i : grid0.Coords) (k0_t6 : Fin k0_t6_loop.trips), ∀ (k0_h9 : k0_cond9 i = 1#1), ∀ a, (k0_off228 k0_t6) a + S1x16.size a ≤ S32x768.size a
  k0_off229_inb : ∀ (i : grid0.Coords) (k0_t6 : Fin k0_t6_loop.trips), ∀ (k0_h9 : k0_cond9 i = 1#1), ∀ a, (k0_off229 k0_t6) a + S1x16.size a ≤ S32x768.size a
  k0_off230_inb : ∀ (i : grid0.Coords) (k0_t6 : Fin k0_t6_loop.trips), ∀ (k0_h9 : k0_cond9 i = 1#1), ∀ a, (k0_off230 k0_t6) a + S1x16.size a ≤ S32x768.size a
  k0_off231_inb : ∀ (i : grid0.Coords) (k0_t6 : Fin k0_t6_loop.trips), ∀ (k0_h9 : k0_cond9 i = 1#1), ∀ a, (k0_off231 k0_t6) a + S1x16.size a ≤ S32x768.size a
  k0_off232_inb : ∀ (i : grid0.Coords) (k0_t6 : Fin k0_t6_loop.trips), ∀ (k0_h9 : k0_cond9 i = 1#1), ∀ a, (k0_off232 k0_t6) a + S1x16.size a ≤ S32x768.size a
  k0_off233_inb : ∀ (i : grid0.Coords) (k0_t6 : Fin k0_t6_loop.trips), ∀ (k0_h9 : k0_cond9 i = 1#1), ∀ a, (k0_off233 k0_t6) a + S1x16.size a ≤ S32x768.size a
  k0_off234_inb : ∀ (i : grid0.Coords) (k0_t6 : Fin k0_t6_loop.trips), ∀ (k0_h9 : k0_cond9 i = 1#1), ∀ a, (k0_off234 k0_t6) a + S1x16.size a ≤ S32x768.size a
  k0_off235_inb : ∀ (i : grid0.Coords) (k0_t6 : Fin k0_t6_loop.trips), ∀ (k0_h9 : k0_cond9 i = 1#1), ∀ a, (k0_off235 k0_t6) a + S1x16.size a ≤ S32x768.size a
  k0_off236_inb : ∀ (i : grid0.Coords) (k0_t6 : Fin k0_t6_loop.trips), ∀ (k0_h9 : k0_cond9 i = 1#1), ∀ a, (k0_off236 k0_t6) a + S1x16.size a ≤ S32x768.size a
  k0_off237_inb : ∀ (i : grid0.Coords) (k0_t6 : Fin k0_t6_loop.trips), ∀ (k0_h9 : k0_cond9 i = 1#1), ∀ a, (k0_off237 k0_t6) a + S1x16.size a ≤ S32x768.size a
  k0_off238_inb : ∀ (i : grid0.Coords) (k0_t6 : Fin k0_t6_loop.trips), ∀ (k0_h9 : k0_cond9 i = 1#1), ∀ a, (k0_off238 k0_t6) a + S1x16.size a ≤ S32x768.size a
  k0_off239_inb : ∀ (i : grid0.Coords) (k0_t6 : Fin k0_t6_loop.trips), ∀ (k0_h9 : k0_cond9 i = 1#1), ∀ a, (k0_off239 k0_t6) a + S1x16.size a ≤ S32x768.size a
  k0_off240_inb : ∀ (i : grid0.Coords) (k0_t6 : Fin k0_t6_loop.trips), ∀ (k0_h9 : k0_cond9 i = 1#1), ∀ a, (k0_off240 k0_t6) a + S1x16.size a ≤ S32x768.size a
  k0_off241_inb : ∀ (i : grid0.Coords) (k0_t6 : Fin k0_t6_loop.trips), ∀ (k0_h9 : k0_cond9 i = 1#1), ∀ a, (k0_off241 k0_t6) a + S1x16.size a ≤ S32x768.size a
  k0_off242_inb : ∀ (i : grid0.Coords) (k0_t6 : Fin k0_t6_loop.trips), ∀ (k0_h9 : k0_cond9 i = 1#1), ∀ a, (k0_off242 k0_t6) a + S1x16.size a ≤ S32x768.size a
  k0_off243_inb : ∀ (i : grid0.Coords) (k0_t6 : Fin k0_t6_loop.trips), ∀ (k0_h9 : k0_cond9 i = 1#1), ∀ a, (k0_off243 k0_t6) a + S1x16.size a ≤ S32x768.size a
  k0_off244_inb : ∀ (i : grid0.Coords) (k0_t6 : Fin k0_t6_loop.trips), ∀ (k0_h9 : k0_cond9 i = 1#1), ∀ a, (k0_off244 k0_t6) a + S1x16.size a ≤ S32x768.size a
  k0_off245_inb : ∀ (i : grid0.Coords) (k0_t6 : Fin k0_t6_loop.trips), ∀ (k0_h9 : k0_cond9 i = 1#1), ∀ a, (k0_off245 k0_t6) a + S1x16.size a ≤ S32x768.size a
  k0_off246_inb : ∀ (i : grid0.Coords) (k0_t6 : Fin k0_t6_loop.trips), ∀ (k0_h9 : k0_cond9 i = 1#1), ∀ a, (k0_off246 k0_t6) a + S1x16.size a ≤ S32x768.size a
  k0_off247_inb : ∀ (i : grid0.Coords) (k0_t6 : Fin k0_t6_loop.trips), ∀ (k0_h9 : k0_cond9 i = 1#1), ∀ a, (k0_off247 k0_t6) a + S1x16.size a ≤ S32x768.size a
  k0_off248_inb : ∀ (i : grid0.Coords) (k0_t6 : Fin k0_t6_loop.trips), ∀ (k0_h9 : k0_cond9 i = 1#1), ∀ a, (k0_off248 k0_t6) a + S1x16.size a ≤ S32x768.size a
  k0_off249_inb : ∀ (i : grid0.Coords) (k0_t6 : Fin k0_t6_loop.trips), ∀ (k0_h9 : k0_cond9 i = 1#1), ∀ a, (k0_off249 k0_t6) a + S1x16.size a ≤ S32x768.size a
  k0_off250_inb : ∀ (i : grid0.Coords) (k0_t6 : Fin k0_t6_loop.trips), ∀ (k0_h9 : k0_cond9 i = 1#1), ∀ a, (k0_off250 k0_t6) a + S1x16.size a ≤ S32x768.size a
  k0_off251_inb : ∀ (i : grid0.Coords) (k0_t6 : Fin k0_t6_loop.trips), ∀ (k0_h9 : k0_cond9 i = 1#1), ∀ a, (k0_off251 k0_t6) a + S1x16.size a ≤ S32x768.size a
  k0_off252_inb : ∀ (i : grid0.Coords) (k0_t6 : Fin k0_t6_loop.trips), ∀ (k0_h9 : k0_cond9 i = 1#1), ∀ a, (k0_off252 k0_t6) a + S1x16.size a ≤ S32x768.size a
  k0_off253_inb : ∀ (i : grid0.Coords) (k0_t6 : Fin k0_t6_loop.trips), ∀ (k0_h9 : k0_cond9 i = 1#1), ∀ a, (k0_off253 k0_t6) a + S1x16.size a ≤ S32x768.size a
  k0_off254_inb : ∀ (i : grid0.Coords) (k0_t6 : Fin k0_t6_loop.trips), ∀ (k0_h9 : k0_cond9 i = 1#1), ∀ a, (k0_off254 k0_t6) a + S1x16.size a ≤ S32x768.size a
  k0_t7_ok : k0_t7_loop.OK
  k0_mult5_dvd : ∀ (i : grid0.Coords) (k0_t7 : Fin k0_t7_loop.trips), ∀ (k0_h10 : k0_cond10 i k0_t7 = 1#1), 8 ∣ (k0_mult5 i k0_t7).toNat
  k0_off255_inb : ∀ (i : grid0.Coords) (k0_t7 : Fin k0_t7_loop.trips), ∀ (k0_h10 : k0_cond10 i k0_t7 = 1#1), ∀ (k0_h11 : k0_cond11 k0_t7 = 1#1), ∀ a, (k0_off255 i k0_t7) a + S32x768.size a ≤ S62001x768.size a
  k0_t8_ok : ∀ (i : grid0.Coords) (k0_t7 : Fin k0_t7_loop.trips), ∀ (k0_h10 : k0_cond10 i k0_t7 = 1#1), k0_t8_loop.OK
  k0_off256_inb : ∀ (i : grid0.Coords) (k0_t7 : Fin k0_t7_loop.trips) (k0_t8 : Fin k0_t8_loop.trips), ∀ (k0_h10 : k0_cond10 i k0_t7 = 1#1), ∀ (r₁ : Fin 3) (r₂ : Fin 16), ∀ a, (k0_off256 i k0_t7 k0_t8 (BitVec.ofNat 32 (16384 * r₁.val)) (BitVec.ofNat 32 (512 * r₂.val))) a + S16.size a ≤ S49152.size a
  k0_off257_inb : ∀ (i : grid0.Coords) (k0_t7 : Fin k0_t7_loop.trips) (k0_t8 : Fin k0_t8_loop.trips), ∀ (k0_h10 : k0_cond10 i k0_t7 = 1#1), ∀ a, (k0_off257 k0_t8) a + S1x16.size a ≤ S32x768.size a
  k0_off258_inb : ∀ (i : grid0.Coords) (k0_t7 : Fin k0_t7_loop.trips) (k0_t8 : Fin k0_t8_loop.trips), ∀ (k0_h10 : k0_cond10 i k0_t7 = 1#1), ∀ a, (k0_off258 k0_t8) a + S1x16.size a ≤ S32x768.size a
  k0_off259_inb : ∀ (i : grid0.Coords) (k0_t7 : Fin k0_t7_loop.trips) (k0_t8 : Fin k0_t8_loop.trips), ∀ (k0_h10 : k0_cond10 i k0_t7 = 1#1), ∀ a, (k0_off259 k0_t8) a + S1x16.size a ≤ S32x768.size a
  k0_off260_inb : ∀ (i : grid0.Coords) (k0_t7 : Fin k0_t7_loop.trips) (k0_t8 : Fin k0_t8_loop.trips), ∀ (k0_h10 : k0_cond10 i k0_t7 = 1#1), ∀ a, (k0_off260 k0_t8) a + S1x16.size a ≤ S32x768.size a
  k0_off261_inb : ∀ (i : grid0.Coords) (k0_t7 : Fin k0_t7_loop.trips) (k0_t8 : Fin k0_t8_loop.trips), ∀ (k0_h10 : k0_cond10 i k0_t7 = 1#1), ∀ a, (k0_off261 k0_t8) a + S1x16.size a ≤ S32x768.size a
  k0_off262_inb : ∀ (i : grid0.Coords) (k0_t7 : Fin k0_t7_loop.trips) (k0_t8 : Fin k0_t8_loop.trips), ∀ (k0_h10 : k0_cond10 i k0_t7 = 1#1), ∀ a, (k0_off262 k0_t8) a + S1x16.size a ≤ S32x768.size a
  k0_off263_inb : ∀ (i : grid0.Coords) (k0_t7 : Fin k0_t7_loop.trips) (k0_t8 : Fin k0_t8_loop.trips), ∀ (k0_h10 : k0_cond10 i k0_t7 = 1#1), ∀ a, (k0_off263 k0_t8) a + S1x16.size a ≤ S32x768.size a
  k0_off264_inb : ∀ (i : grid0.Coords) (k0_t7 : Fin k0_t7_loop.trips) (k0_t8 : Fin k0_t8_loop.trips), ∀ (k0_h10 : k0_cond10 i k0_t7 = 1#1), ∀ a, (k0_off264 k0_t8) a + S1x16.size a ≤ S32x768.size a
  k0_off265_inb : ∀ (i : grid0.Coords) (k0_t7 : Fin k0_t7_loop.trips) (k0_t8 : Fin k0_t8_loop.trips), ∀ (k0_h10 : k0_cond10 i k0_t7 = 1#1), ∀ a, (k0_off265 k0_t8) a + S1x16.size a ≤ S32x768.size a
  k0_off266_inb : ∀ (i : grid0.Coords) (k0_t7 : Fin k0_t7_loop.trips) (k0_t8 : Fin k0_t8_loop.trips), ∀ (k0_h10 : k0_cond10 i k0_t7 = 1#1), ∀ a, (k0_off266 k0_t8) a + S1x16.size a ≤ S32x768.size a
  k0_off267_inb : ∀ (i : grid0.Coords) (k0_t7 : Fin k0_t7_loop.trips) (k0_t8 : Fin k0_t8_loop.trips), ∀ (k0_h10 : k0_cond10 i k0_t7 = 1#1), ∀ a, (k0_off267 k0_t8) a + S1x16.size a ≤ S32x768.size a
  k0_off268_inb : ∀ (i : grid0.Coords) (k0_t7 : Fin k0_t7_loop.trips) (k0_t8 : Fin k0_t8_loop.trips), ∀ (k0_h10 : k0_cond10 i k0_t7 = 1#1), ∀ a, (k0_off268 k0_t8) a + S1x16.size a ≤ S32x768.size a
  k0_off269_inb : ∀ (i : grid0.Coords) (k0_t7 : Fin k0_t7_loop.trips) (k0_t8 : Fin k0_t8_loop.trips), ∀ (k0_h10 : k0_cond10 i k0_t7 = 1#1), ∀ a, (k0_off269 k0_t8) a + S1x16.size a ≤ S32x768.size a
  k0_off270_inb : ∀ (i : grid0.Coords) (k0_t7 : Fin k0_t7_loop.trips) (k0_t8 : Fin k0_t8_loop.trips), ∀ (k0_h10 : k0_cond10 i k0_t7 = 1#1), ∀ a, (k0_off270 k0_t8) a + S1x16.size a ≤ S32x768.size a
  k0_off271_inb : ∀ (i : grid0.Coords) (k0_t7 : Fin k0_t7_loop.trips) (k0_t8 : Fin k0_t8_loop.trips), ∀ (k0_h10 : k0_cond10 i k0_t7 = 1#1), ∀ a, (k0_off271 k0_t8) a + S1x16.size a ≤ S32x768.size a
  k0_off272_inb : ∀ (i : grid0.Coords) (k0_t7 : Fin k0_t7_loop.trips) (k0_t8 : Fin k0_t8_loop.trips), ∀ (k0_h10 : k0_cond10 i k0_t7 = 1#1), ∀ a, (k0_off272 k0_t8) a + S1x16.size a ≤ S32x768.size a
  k0_off273_inb : ∀ (i : grid0.Coords) (k0_t7 : Fin k0_t7_loop.trips) (k0_t8 : Fin k0_t8_loop.trips), ∀ (k0_h10 : k0_cond10 i k0_t7 = 1#1), ∀ a, (k0_off273 k0_t8) a + S1x16.size a ≤ S32x768.size a
  k0_off274_inb : ∀ (i : grid0.Coords) (k0_t7 : Fin k0_t7_loop.trips) (k0_t8 : Fin k0_t8_loop.trips), ∀ (k0_h10 : k0_cond10 i k0_t7 = 1#1), ∀ a, (k0_off274 k0_t8) a + S1x16.size a ≤ S32x768.size a
  k0_off275_inb : ∀ (i : grid0.Coords) (k0_t7 : Fin k0_t7_loop.trips) (k0_t8 : Fin k0_t8_loop.trips), ∀ (k0_h10 : k0_cond10 i k0_t7 = 1#1), ∀ a, (k0_off275 k0_t8) a + S1x16.size a ≤ S32x768.size a
  k0_off276_inb : ∀ (i : grid0.Coords) (k0_t7 : Fin k0_t7_loop.trips) (k0_t8 : Fin k0_t8_loop.trips), ∀ (k0_h10 : k0_cond10 i k0_t7 = 1#1), ∀ a, (k0_off276 k0_t8) a + S1x16.size a ≤ S32x768.size a
  k0_off277_inb : ∀ (i : grid0.Coords) (k0_t7 : Fin k0_t7_loop.trips) (k0_t8 : Fin k0_t8_loop.trips), ∀ (k0_h10 : k0_cond10 i k0_t7 = 1#1), ∀ a, (k0_off277 k0_t8) a + S1x16.size a ≤ S32x768.size a
  k0_off278_inb : ∀ (i : grid0.Coords) (k0_t7 : Fin k0_t7_loop.trips) (k0_t8 : Fin k0_t8_loop.trips), ∀ (k0_h10 : k0_cond10 i k0_t7 = 1#1), ∀ a, (k0_off278 k0_t8) a + S1x16.size a ≤ S32x768.size a
  k0_off279_inb : ∀ (i : grid0.Coords) (k0_t7 : Fin k0_t7_loop.trips) (k0_t8 : Fin k0_t8_loop.trips), ∀ (k0_h10 : k0_cond10 i k0_t7 = 1#1), ∀ a, (k0_off279 k0_t8) a + S1x16.size a ≤ S32x768.size a
  k0_off280_inb : ∀ (i : grid0.Coords) (k0_t7 : Fin k0_t7_loop.trips) (k0_t8 : Fin k0_t8_loop.trips), ∀ (k0_h10 : k0_cond10 i k0_t7 = 1#1), ∀ a, (k0_off280 k0_t8) a + S1x16.size a ≤ S32x768.size a
  k0_off281_inb : ∀ (i : grid0.Coords) (k0_t7 : Fin k0_t7_loop.trips) (k0_t8 : Fin k0_t8_loop.trips), ∀ (k0_h10 : k0_cond10 i k0_t7 = 1#1), ∀ a, (k0_off281 k0_t8) a + S1x16.size a ≤ S32x768.size a
  k0_off282_inb : ∀ (i : grid0.Coords) (k0_t7 : Fin k0_t7_loop.trips) (k0_t8 : Fin k0_t8_loop.trips), ∀ (k0_h10 : k0_cond10 i k0_t7 = 1#1), ∀ a, (k0_off282 k0_t8) a + S1x16.size a ≤ S32x768.size a
  k0_off283_inb : ∀ (i : grid0.Coords) (k0_t7 : Fin k0_t7_loop.trips) (k0_t8 : Fin k0_t8_loop.trips), ∀ (k0_h10 : k0_cond10 i k0_t7 = 1#1), ∀ a, (k0_off283 k0_t8) a + S1x16.size a ≤ S32x768.size a
  k0_off284_inb : ∀ (i : grid0.Coords) (k0_t7 : Fin k0_t7_loop.trips) (k0_t8 : Fin k0_t8_loop.trips), ∀ (k0_h10 : k0_cond10 i k0_t7 = 1#1), ∀ a, (k0_off284 k0_t8) a + S1x16.size a ≤ S32x768.size a
  k0_off285_inb : ∀ (i : grid0.Coords) (k0_t7 : Fin k0_t7_loop.trips) (k0_t8 : Fin k0_t8_loop.trips), ∀ (k0_h10 : k0_cond10 i k0_t7 = 1#1), ∀ a, (k0_off285 k0_t8) a + S1x16.size a ≤ S32x768.size a
  k0_off286_inb : ∀ (i : grid0.Coords) (k0_t7 : Fin k0_t7_loop.trips) (k0_t8 : Fin k0_t8_loop.trips), ∀ (k0_h10 : k0_cond10 i k0_t7 = 1#1), ∀ a, (k0_off286 k0_t8) a + S1x16.size a ≤ S32x768.size a
  k0_off287_inb : ∀ (i : grid0.Coords) (k0_t7 : Fin k0_t7_loop.trips) (k0_t8 : Fin k0_t8_loop.trips), ∀ (k0_h10 : k0_cond10 i k0_t7 = 1#1), ∀ a, (k0_off287 k0_t8) a + S1x16.size a ≤ S32x768.size a
  k0_off288_inb : ∀ (i : grid0.Coords) (k0_t7 : Fin k0_t7_loop.trips) (k0_t8 : Fin k0_t8_loop.trips), ∀ (k0_h10 : k0_cond10 i k0_t7 = 1#1), ∀ a, (k0_off288 k0_t8) a + S1x16.size a ≤ S32x768.size a
  k0_off289_inb : ∀ (i : grid0.Coords) (k0_t7 : Fin k0_t7_loop.trips) (k0_t8 : Fin k0_t8_loop.trips), ∀ (k0_h10 : k0_cond10 i k0_t7 = 1#1), ∀ a, (k0_off289 k0_t8) a + S1x16.size a ≤ S32x768.size a
  k0_off290_inb : ∀ (i : grid0.Coords) (k0_t7 : Fin k0_t7_loop.trips) (k0_t8 : Fin k0_t8_loop.trips), ∀ (k0_h10 : k0_cond10 i k0_t7 = 1#1), ∀ a, (k0_off290 k0_t8) a + S1x16.size a ≤ S32x768.size a
  k0_off291_inb : ∀ (i : grid0.Coords) (k0_t7 : Fin k0_t7_loop.trips) (k0_t8 : Fin k0_t8_loop.trips), ∀ (k0_h10 : k0_cond10 i k0_t7 = 1#1), ∀ a, (k0_off291 k0_t8) a + S1x16.size a ≤ S32x768.size a
  k0_off292_inb : ∀ (i : grid0.Coords) (k0_t7 : Fin k0_t7_loop.trips) (k0_t8 : Fin k0_t8_loop.trips), ∀ (k0_h10 : k0_cond10 i k0_t7 = 1#1), ∀ a, (k0_off292 k0_t8) a + S1x16.size a ≤ S32x768.size a
  k0_off293_inb : ∀ (i : grid0.Coords) (k0_t7 : Fin k0_t7_loop.trips) (k0_t8 : Fin k0_t8_loop.trips), ∀ (k0_h10 : k0_cond10 i k0_t7 = 1#1), ∀ a, (k0_off293 k0_t8) a + S1x16.size a ≤ S32x768.size a
  k0_off294_inb : ∀ (i : grid0.Coords) (k0_t7 : Fin k0_t7_loop.trips) (k0_t8 : Fin k0_t8_loop.trips), ∀ (k0_h10 : k0_cond10 i k0_t7 = 1#1), ∀ a, (k0_off294 k0_t8) a + S1x16.size a ≤ S32x768.size a
  k0_off295_inb : ∀ (i : grid0.Coords) (k0_t7 : Fin k0_t7_loop.trips) (k0_t8 : Fin k0_t8_loop.trips), ∀ (k0_h10 : k0_cond10 i k0_t7 = 1#1), ∀ a, (k0_off295 k0_t8) a + S1x16.size a ≤ S32x768.size a
  k0_off296_inb : ∀ (i : grid0.Coords) (k0_t7 : Fin k0_t7_loop.trips) (k0_t8 : Fin k0_t8_loop.trips), ∀ (k0_h10 : k0_cond10 i k0_t7 = 1#1), ∀ a, (k0_off296 k0_t8) a + S1x16.size a ≤ S32x768.size a
  k0_off297_inb : ∀ (i : grid0.Coords) (k0_t7 : Fin k0_t7_loop.trips) (k0_t8 : Fin k0_t8_loop.trips), ∀ (k0_h10 : k0_cond10 i k0_t7 = 1#1), ∀ a, (k0_off297 k0_t8) a + S1x16.size a ≤ S32x768.size a
  k0_off298_inb : ∀ (i : grid0.Coords) (k0_t7 : Fin k0_t7_loop.trips) (k0_t8 : Fin k0_t8_loop.trips), ∀ (k0_h10 : k0_cond10 i k0_t7 = 1#1), ∀ a, (k0_off298 k0_t8) a + S1x16.size a ≤ S32x768.size a
  k0_off299_inb : ∀ (i : grid0.Coords) (k0_t7 : Fin k0_t7_loop.trips) (k0_t8 : Fin k0_t8_loop.trips), ∀ (k0_h10 : k0_cond10 i k0_t7 = 1#1), ∀ a, (k0_off299 k0_t8) a + S1x16.size a ≤ S32x768.size a
  k0_off300_inb : ∀ (i : grid0.Coords) (k0_t7 : Fin k0_t7_loop.trips) (k0_t8 : Fin k0_t8_loop.trips), ∀ (k0_h10 : k0_cond10 i k0_t7 = 1#1), ∀ a, (k0_off300 k0_t8) a + S1x16.size a ≤ S32x768.size a
  k0_off301_inb : ∀ (i : grid0.Coords) (k0_t7 : Fin k0_t7_loop.trips) (k0_t8 : Fin k0_t8_loop.trips), ∀ (k0_h10 : k0_cond10 i k0_t7 = 1#1), ∀ a, (k0_off301 k0_t8) a + S1x16.size a ≤ S32x768.size a
  k0_off302_inb : ∀ (i : grid0.Coords) (k0_t7 : Fin k0_t7_loop.trips) (k0_t8 : Fin k0_t8_loop.trips), ∀ (k0_h10 : k0_cond10 i k0_t7 = 1#1), ∀ a, (k0_off302 k0_t8) a + S1x16.size a ≤ S32x768.size a
  k0_off303_inb : ∀ (i : grid0.Coords) (k0_t7 : Fin k0_t7_loop.trips) (k0_t8 : Fin k0_t8_loop.trips), ∀ (k0_h10 : k0_cond10 i k0_t7 = 1#1), ∀ a, (k0_off303 k0_t8) a + S1x16.size a ≤ S32x768.size a
  k0_off304_inb : ∀ (i : grid0.Coords) (k0_t7 : Fin k0_t7_loop.trips) (k0_t8 : Fin k0_t8_loop.trips), ∀ (k0_h10 : k0_cond10 i k0_t7 = 1#1), ∀ a, (k0_off304 k0_t8) a + S1x16.size a ≤ S32x768.size a
  k0_off305_inb : ∀ (i : grid0.Coords) (k0_t7 : Fin k0_t7_loop.trips), ∀ (k0_h10 : k0_cond10 i k0_t7 = 1#1), ∀ a, (k0_off305 i k0_t7) a + S32x768.size a ≤ S62001x768.size a
  k0_mult6_dvd : ∀ (i : grid0.Coords) (k0_t7 : Fin k0_t7_loop.trips), ∀ (k0_h12 : k0_cond12 i k0_t7 = 1#1), 8 ∣ (k0_mult6 i k0_t7).toNat
  k0_off306_inb : ∀ (i : grid0.Coords) (k0_t7 : Fin k0_t7_loop.trips), ∀ (k0_h12 : k0_cond12 i k0_t7 = 1#1), ∀ (k0_h13 : k0_cond13 k0_t7 = 1#1), ∀ a, (k0_off306 i k0_t7) a + S32x768.size a ≤ S62001x768.size a
  k0_t9_ok : ∀ (i : grid0.Coords) (k0_t7 : Fin k0_t7_loop.trips), ∀ (k0_h12 : k0_cond12 i k0_t7 = 1#1), k0_t9_loop.OK
  k0_off307_inb : ∀ (i : grid0.Coords) (k0_t7 : Fin k0_t7_loop.trips) (k0_t9 : Fin k0_t9_loop.trips), ∀ (k0_h12 : k0_cond12 i k0_t7 = 1#1), ∀ (r₁ : Fin 3) (r₂ : Fin 16), ∀ a, (k0_off307 i k0_t7 k0_t9 (BitVec.ofNat 32 (16384 * r₁.val)) (BitVec.ofNat 32 (512 * r₂.val))) a + S16.size a ≤ S49152.size a
  k0_off308_inb : ∀ (i : grid0.Coords) (k0_t7 : Fin k0_t7_loop.trips) (k0_t9 : Fin k0_t9_loop.trips), ∀ (k0_h12 : k0_cond12 i k0_t7 = 1#1), ∀ a, (k0_off308 k0_t9) a + S1x16.size a ≤ S32x768.size a
  k0_off309_inb : ∀ (i : grid0.Coords) (k0_t7 : Fin k0_t7_loop.trips) (k0_t9 : Fin k0_t9_loop.trips), ∀ (k0_h12 : k0_cond12 i k0_t7 = 1#1), ∀ a, (k0_off309 k0_t9) a + S1x16.size a ≤ S32x768.size a
  k0_off310_inb : ∀ (i : grid0.Coords) (k0_t7 : Fin k0_t7_loop.trips) (k0_t9 : Fin k0_t9_loop.trips), ∀ (k0_h12 : k0_cond12 i k0_t7 = 1#1), ∀ a, (k0_off310 k0_t9) a + S1x16.size a ≤ S32x768.size a
  k0_off311_inb : ∀ (i : grid0.Coords) (k0_t7 : Fin k0_t7_loop.trips) (k0_t9 : Fin k0_t9_loop.trips), ∀ (k0_h12 : k0_cond12 i k0_t7 = 1#1), ∀ a, (k0_off311 k0_t9) a + S1x16.size a ≤ S32x768.size a
  k0_off312_inb : ∀ (i : grid0.Coords) (k0_t7 : Fin k0_t7_loop.trips) (k0_t9 : Fin k0_t9_loop.trips), ∀ (k0_h12 : k0_cond12 i k0_t7 = 1#1), ∀ a, (k0_off312 k0_t9) a + S1x16.size a ≤ S32x768.size a
  k0_off313_inb : ∀ (i : grid0.Coords) (k0_t7 : Fin k0_t7_loop.trips) (k0_t9 : Fin k0_t9_loop.trips), ∀ (k0_h12 : k0_cond12 i k0_t7 = 1#1), ∀ a, (k0_off313 k0_t9) a + S1x16.size a ≤ S32x768.size a
  k0_off314_inb : ∀ (i : grid0.Coords) (k0_t7 : Fin k0_t7_loop.trips) (k0_t9 : Fin k0_t9_loop.trips), ∀ (k0_h12 : k0_cond12 i k0_t7 = 1#1), ∀ a, (k0_off314 k0_t9) a + S1x16.size a ≤ S32x768.size a
  k0_off315_inb : ∀ (i : grid0.Coords) (k0_t7 : Fin k0_t7_loop.trips) (k0_t9 : Fin k0_t9_loop.trips), ∀ (k0_h12 : k0_cond12 i k0_t7 = 1#1), ∀ a, (k0_off315 k0_t9) a + S1x16.size a ≤ S32x768.size a
  k0_off316_inb : ∀ (i : grid0.Coords) (k0_t7 : Fin k0_t7_loop.trips) (k0_t9 : Fin k0_t9_loop.trips), ∀ (k0_h12 : k0_cond12 i k0_t7 = 1#1), ∀ a, (k0_off316 k0_t9) a + S1x16.size a ≤ S32x768.size a
  k0_off317_inb : ∀ (i : grid0.Coords) (k0_t7 : Fin k0_t7_loop.trips) (k0_t9 : Fin k0_t9_loop.trips), ∀ (k0_h12 : k0_cond12 i k0_t7 = 1#1), ∀ a, (k0_off317 k0_t9) a + S1x16.size a ≤ S32x768.size a
  k0_off318_inb : ∀ (i : grid0.Coords) (k0_t7 : Fin k0_t7_loop.trips) (k0_t9 : Fin k0_t9_loop.trips), ∀ (k0_h12 : k0_cond12 i k0_t7 = 1#1), ∀ a, (k0_off318 k0_t9) a + S1x16.size a ≤ S32x768.size a
  k0_off319_inb : ∀ (i : grid0.Coords) (k0_t7 : Fin k0_t7_loop.trips) (k0_t9 : Fin k0_t9_loop.trips), ∀ (k0_h12 : k0_cond12 i k0_t7 = 1#1), ∀ a, (k0_off319 k0_t9) a + S1x16.size a ≤ S32x768.size a
  k0_off320_inb : ∀ (i : grid0.Coords) (k0_t7 : Fin k0_t7_loop.trips) (k0_t9 : Fin k0_t9_loop.trips), ∀ (k0_h12 : k0_cond12 i k0_t7 = 1#1), ∀ a, (k0_off320 k0_t9) a + S1x16.size a ≤ S32x768.size a
  k0_off321_inb : ∀ (i : grid0.Coords) (k0_t7 : Fin k0_t7_loop.trips) (k0_t9 : Fin k0_t9_loop.trips), ∀ (k0_h12 : k0_cond12 i k0_t7 = 1#1), ∀ a, (k0_off321 k0_t9) a + S1x16.size a ≤ S32x768.size a
  k0_off322_inb : ∀ (i : grid0.Coords) (k0_t7 : Fin k0_t7_loop.trips) (k0_t9 : Fin k0_t9_loop.trips), ∀ (k0_h12 : k0_cond12 i k0_t7 = 1#1), ∀ a, (k0_off322 k0_t9) a + S1x16.size a ≤ S32x768.size a
  k0_off323_inb : ∀ (i : grid0.Coords) (k0_t7 : Fin k0_t7_loop.trips) (k0_t9 : Fin k0_t9_loop.trips), ∀ (k0_h12 : k0_cond12 i k0_t7 = 1#1), ∀ a, (k0_off323 k0_t9) a + S1x16.size a ≤ S32x768.size a
  k0_off324_inb : ∀ (i : grid0.Coords) (k0_t7 : Fin k0_t7_loop.trips) (k0_t9 : Fin k0_t9_loop.trips), ∀ (k0_h12 : k0_cond12 i k0_t7 = 1#1), ∀ a, (k0_off324 k0_t9) a + S1x16.size a ≤ S32x768.size a
  k0_off325_inb : ∀ (i : grid0.Coords) (k0_t7 : Fin k0_t7_loop.trips) (k0_t9 : Fin k0_t9_loop.trips), ∀ (k0_h12 : k0_cond12 i k0_t7 = 1#1), ∀ a, (k0_off325 k0_t9) a + S1x16.size a ≤ S32x768.size a
  k0_off326_inb : ∀ (i : grid0.Coords) (k0_t7 : Fin k0_t7_loop.trips) (k0_t9 : Fin k0_t9_loop.trips), ∀ (k0_h12 : k0_cond12 i k0_t7 = 1#1), ∀ a, (k0_off326 k0_t9) a + S1x16.size a ≤ S32x768.size a
  k0_off327_inb : ∀ (i : grid0.Coords) (k0_t7 : Fin k0_t7_loop.trips) (k0_t9 : Fin k0_t9_loop.trips), ∀ (k0_h12 : k0_cond12 i k0_t7 = 1#1), ∀ a, (k0_off327 k0_t9) a + S1x16.size a ≤ S32x768.size a
  k0_off328_inb : ∀ (i : grid0.Coords) (k0_t7 : Fin k0_t7_loop.trips) (k0_t9 : Fin k0_t9_loop.trips), ∀ (k0_h12 : k0_cond12 i k0_t7 = 1#1), ∀ a, (k0_off328 k0_t9) a + S1x16.size a ≤ S32x768.size a
  k0_off329_inb : ∀ (i : grid0.Coords) (k0_t7 : Fin k0_t7_loop.trips) (k0_t9 : Fin k0_t9_loop.trips), ∀ (k0_h12 : k0_cond12 i k0_t7 = 1#1), ∀ a, (k0_off329 k0_t9) a + S1x16.size a ≤ S32x768.size a
  k0_off330_inb : ∀ (i : grid0.Coords) (k0_t7 : Fin k0_t7_loop.trips) (k0_t9 : Fin k0_t9_loop.trips), ∀ (k0_h12 : k0_cond12 i k0_t7 = 1#1), ∀ a, (k0_off330 k0_t9) a + S1x16.size a ≤ S32x768.size a
  k0_off331_inb : ∀ (i : grid0.Coords) (k0_t7 : Fin k0_t7_loop.trips) (k0_t9 : Fin k0_t9_loop.trips), ∀ (k0_h12 : k0_cond12 i k0_t7 = 1#1), ∀ a, (k0_off331 k0_t9) a + S1x16.size a ≤ S32x768.size a
  k0_off332_inb : ∀ (i : grid0.Coords) (k0_t7 : Fin k0_t7_loop.trips) (k0_t9 : Fin k0_t9_loop.trips), ∀ (k0_h12 : k0_cond12 i k0_t7 = 1#1), ∀ a, (k0_off332 k0_t9) a + S1x16.size a ≤ S32x768.size a
  k0_off333_inb : ∀ (i : grid0.Coords) (k0_t7 : Fin k0_t7_loop.trips) (k0_t9 : Fin k0_t9_loop.trips), ∀ (k0_h12 : k0_cond12 i k0_t7 = 1#1), ∀ a, (k0_off333 k0_t9) a + S1x16.size a ≤ S32x768.size a
  k0_off334_inb : ∀ (i : grid0.Coords) (k0_t7 : Fin k0_t7_loop.trips) (k0_t9 : Fin k0_t9_loop.trips), ∀ (k0_h12 : k0_cond12 i k0_t7 = 1#1), ∀ a, (k0_off334 k0_t9) a + S1x16.size a ≤ S32x768.size a
  k0_off335_inb : ∀ (i : grid0.Coords) (k0_t7 : Fin k0_t7_loop.trips) (k0_t9 : Fin k0_t9_loop.trips), ∀ (k0_h12 : k0_cond12 i k0_t7 = 1#1), ∀ a, (k0_off335 k0_t9) a + S1x16.size a ≤ S32x768.size a
  k0_off336_inb : ∀ (i : grid0.Coords) (k0_t7 : Fin k0_t7_loop.trips) (k0_t9 : Fin k0_t9_loop.trips), ∀ (k0_h12 : k0_cond12 i k0_t7 = 1#1), ∀ a, (k0_off336 k0_t9) a + S1x16.size a ≤ S32x768.size a
  k0_off337_inb : ∀ (i : grid0.Coords) (k0_t7 : Fin k0_t7_loop.trips) (k0_t9 : Fin k0_t9_loop.trips), ∀ (k0_h12 : k0_cond12 i k0_t7 = 1#1), ∀ a, (k0_off337 k0_t9) a + S1x16.size a ≤ S32x768.size a
  k0_off338_inb : ∀ (i : grid0.Coords) (k0_t7 : Fin k0_t7_loop.trips) (k0_t9 : Fin k0_t9_loop.trips), ∀ (k0_h12 : k0_cond12 i k0_t7 = 1#1), ∀ a, (k0_off338 k0_t9) a + S1x16.size a ≤ S32x768.size a
  k0_off339_inb : ∀ (i : grid0.Coords) (k0_t7 : Fin k0_t7_loop.trips) (k0_t9 : Fin k0_t9_loop.trips), ∀ (k0_h12 : k0_cond12 i k0_t7 = 1#1), ∀ a, (k0_off339 k0_t9) a + S1x16.size a ≤ S32x768.size a
  k0_off340_inb : ∀ (i : grid0.Coords) (k0_t7 : Fin k0_t7_loop.trips) (k0_t9 : Fin k0_t9_loop.trips), ∀ (k0_h12 : k0_cond12 i k0_t7 = 1#1), ∀ a, (k0_off340 k0_t9) a + S1x16.size a ≤ S32x768.size a
  k0_off341_inb : ∀ (i : grid0.Coords) (k0_t7 : Fin k0_t7_loop.trips) (k0_t9 : Fin k0_t9_loop.trips), ∀ (k0_h12 : k0_cond12 i k0_t7 = 1#1), ∀ a, (k0_off341 k0_t9) a + S1x16.size a ≤ S32x768.size a
  k0_off342_inb : ∀ (i : grid0.Coords) (k0_t7 : Fin k0_t7_loop.trips) (k0_t9 : Fin k0_t9_loop.trips), ∀ (k0_h12 : k0_cond12 i k0_t7 = 1#1), ∀ a, (k0_off342 k0_t9) a + S1x16.size a ≤ S32x768.size a
  k0_off343_inb : ∀ (i : grid0.Coords) (k0_t7 : Fin k0_t7_loop.trips) (k0_t9 : Fin k0_t9_loop.trips), ∀ (k0_h12 : k0_cond12 i k0_t7 = 1#1), ∀ a, (k0_off343 k0_t9) a + S1x16.size a ≤ S32x768.size a
  k0_off344_inb : ∀ (i : grid0.Coords) (k0_t7 : Fin k0_t7_loop.trips) (k0_t9 : Fin k0_t9_loop.trips), ∀ (k0_h12 : k0_cond12 i k0_t7 = 1#1), ∀ a, (k0_off344 k0_t9) a + S1x16.size a ≤ S32x768.size a
  k0_off345_inb : ∀ (i : grid0.Coords) (k0_t7 : Fin k0_t7_loop.trips) (k0_t9 : Fin k0_t9_loop.trips), ∀ (k0_h12 : k0_cond12 i k0_t7 = 1#1), ∀ a, (k0_off345 k0_t9) a + S1x16.size a ≤ S32x768.size a
  k0_off346_inb : ∀ (i : grid0.Coords) (k0_t7 : Fin k0_t7_loop.trips) (k0_t9 : Fin k0_t9_loop.trips), ∀ (k0_h12 : k0_cond12 i k0_t7 = 1#1), ∀ a, (k0_off346 k0_t9) a + S1x16.size a ≤ S32x768.size a
  k0_off347_inb : ∀ (i : grid0.Coords) (k0_t7 : Fin k0_t7_loop.trips) (k0_t9 : Fin k0_t9_loop.trips), ∀ (k0_h12 : k0_cond12 i k0_t7 = 1#1), ∀ a, (k0_off347 k0_t9) a + S1x16.size a ≤ S32x768.size a
  k0_off348_inb : ∀ (i : grid0.Coords) (k0_t7 : Fin k0_t7_loop.trips) (k0_t9 : Fin k0_t9_loop.trips), ∀ (k0_h12 : k0_cond12 i k0_t7 = 1#1), ∀ a, (k0_off348 k0_t9) a + S1x16.size a ≤ S32x768.size a
  k0_off349_inb : ∀ (i : grid0.Coords) (k0_t7 : Fin k0_t7_loop.trips) (k0_t9 : Fin k0_t9_loop.trips), ∀ (k0_h12 : k0_cond12 i k0_t7 = 1#1), ∀ a, (k0_off349 k0_t9) a + S1x16.size a ≤ S32x768.size a
  k0_off350_inb : ∀ (i : grid0.Coords) (k0_t7 : Fin k0_t7_loop.trips) (k0_t9 : Fin k0_t9_loop.trips), ∀ (k0_h12 : k0_cond12 i k0_t7 = 1#1), ∀ a, (k0_off350 k0_t9) a + S1x16.size a ≤ S32x768.size a
  k0_off351_inb : ∀ (i : grid0.Coords) (k0_t7 : Fin k0_t7_loop.trips) (k0_t9 : Fin k0_t9_loop.trips), ∀ (k0_h12 : k0_cond12 i k0_t7 = 1#1), ∀ a, (k0_off351 k0_t9) a + S1x16.size a ≤ S32x768.size a
  k0_off352_inb : ∀ (i : grid0.Coords) (k0_t7 : Fin k0_t7_loop.trips) (k0_t9 : Fin k0_t9_loop.trips), ∀ (k0_h12 : k0_cond12 i k0_t7 = 1#1), ∀ a, (k0_off352 k0_t9) a + S1x16.size a ≤ S32x768.size a
  k0_off353_inb : ∀ (i : grid0.Coords) (k0_t7 : Fin k0_t7_loop.trips) (k0_t9 : Fin k0_t9_loop.trips), ∀ (k0_h12 : k0_cond12 i k0_t7 = 1#1), ∀ a, (k0_off353 k0_t9) a + S1x16.size a ≤ S32x768.size a
  k0_off354_inb : ∀ (i : grid0.Coords) (k0_t7 : Fin k0_t7_loop.trips) (k0_t9 : Fin k0_t9_loop.trips), ∀ (k0_h12 : k0_cond12 i k0_t7 = 1#1), ∀ a, (k0_off354 k0_t9) a + S1x16.size a ≤ S32x768.size a
  k0_off355_inb : ∀ (i : grid0.Coords) (k0_t7 : Fin k0_t7_loop.trips) (k0_t9 : Fin k0_t9_loop.trips), ∀ (k0_h12 : k0_cond12 i k0_t7 = 1#1), ∀ a, (k0_off355 k0_t9) a + S1x16.size a ≤ S32x768.size a
  k0_off356_inb : ∀ (i : grid0.Coords) (k0_t7 : Fin k0_t7_loop.trips), ∀ (k0_h12 : k0_cond12 i k0_t7 = 1#1), ∀ a, (k0_off356 i k0_t7) a + S32x768.size a ≤ S62001x768.size a
  k0_mult7_dvd : ∀ (i : grid0.Coords) (k0_t7 : Fin k0_t7_loop.trips), ∀ (k0_h14 : k0_cond14 i k0_t7 = 1#1), 8 ∣ (k0_mult7 i k0_t7).toNat
  k0_off357_inb : ∀ (i : grid0.Coords) (k0_t7 : Fin k0_t7_loop.trips), ∀ (k0_h14 : k0_cond14 i k0_t7 = 1#1), ∀ (k0_h15 : k0_cond15 k0_t7 = 1#1), ∀ a, (k0_off357 i k0_t7) a + S32x768.size a ≤ S62001x768.size a
  k0_t10_ok : ∀ (i : grid0.Coords) (k0_t7 : Fin k0_t7_loop.trips), ∀ (k0_h14 : k0_cond14 i k0_t7 = 1#1), k0_t10_loop.OK
  k0_off358_inb : ∀ (i : grid0.Coords) (k0_t7 : Fin k0_t7_loop.trips) (k0_t10 : Fin k0_t10_loop.trips), ∀ (k0_h14 : k0_cond14 i k0_t7 = 1#1), ∀ (r₁ : Fin 3) (r₂ : Fin 16), ∀ a, (k0_off358 i k0_t7 k0_t10 (BitVec.ofNat 32 (16384 * r₁.val)) (BitVec.ofNat 32 (512 * r₂.val))) a + S16.size a ≤ S49152.size a
  k0_off359_inb : ∀ (i : grid0.Coords) (k0_t7 : Fin k0_t7_loop.trips) (k0_t10 : Fin k0_t10_loop.trips), ∀ (k0_h14 : k0_cond14 i k0_t7 = 1#1), ∀ a, (k0_off359 k0_t10) a + S1x16.size a ≤ S32x768.size a
  k0_off360_inb : ∀ (i : grid0.Coords) (k0_t7 : Fin k0_t7_loop.trips) (k0_t10 : Fin k0_t10_loop.trips), ∀ (k0_h14 : k0_cond14 i k0_t7 = 1#1), ∀ a, (k0_off360 k0_t10) a + S1x16.size a ≤ S32x768.size a
  k0_off361_inb : ∀ (i : grid0.Coords) (k0_t7 : Fin k0_t7_loop.trips) (k0_t10 : Fin k0_t10_loop.trips), ∀ (k0_h14 : k0_cond14 i k0_t7 = 1#1), ∀ a, (k0_off361 k0_t10) a + S1x16.size a ≤ S32x768.size a
  k0_off362_inb : ∀ (i : grid0.Coords) (k0_t7 : Fin k0_t7_loop.trips) (k0_t10 : Fin k0_t10_loop.trips), ∀ (k0_h14 : k0_cond14 i k0_t7 = 1#1), ∀ a, (k0_off362 k0_t10) a + S1x16.size a ≤ S32x768.size a
  k0_off363_inb : ∀ (i : grid0.Coords) (k0_t7 : Fin k0_t7_loop.trips) (k0_t10 : Fin k0_t10_loop.trips), ∀ (k0_h14 : k0_cond14 i k0_t7 = 1#1), ∀ a, (k0_off363 k0_t10) a + S1x16.size a ≤ S32x768.size a
  k0_off364_inb : ∀ (i : grid0.Coords) (k0_t7 : Fin k0_t7_loop.trips) (k0_t10 : Fin k0_t10_loop.trips), ∀ (k0_h14 : k0_cond14 i k0_t7 = 1#1), ∀ a, (k0_off364 k0_t10) a + S1x16.size a ≤ S32x768.size a
  k0_off365_inb : ∀ (i : grid0.Coords) (k0_t7 : Fin k0_t7_loop.trips) (k0_t10 : Fin k0_t10_loop.trips), ∀ (k0_h14 : k0_cond14 i k0_t7 = 1#1), ∀ a, (k0_off365 k0_t10) a + S1x16.size a ≤ S32x768.size a
  k0_off366_inb : ∀ (i : grid0.Coords) (k0_t7 : Fin k0_t7_loop.trips) (k0_t10 : Fin k0_t10_loop.trips), ∀ (k0_h14 : k0_cond14 i k0_t7 = 1#1), ∀ a, (k0_off366 k0_t10) a + S1x16.size a ≤ S32x768.size a
  k0_off367_inb : ∀ (i : grid0.Coords) (k0_t7 : Fin k0_t7_loop.trips) (k0_t10 : Fin k0_t10_loop.trips), ∀ (k0_h14 : k0_cond14 i k0_t7 = 1#1), ∀ a, (k0_off367 k0_t10) a + S1x16.size a ≤ S32x768.size a
  k0_off368_inb : ∀ (i : grid0.Coords) (k0_t7 : Fin k0_t7_loop.trips) (k0_t10 : Fin k0_t10_loop.trips), ∀ (k0_h14 : k0_cond14 i k0_t7 = 1#1), ∀ a, (k0_off368 k0_t10) a + S1x16.size a ≤ S32x768.size a
  k0_off369_inb : ∀ (i : grid0.Coords) (k0_t7 : Fin k0_t7_loop.trips) (k0_t10 : Fin k0_t10_loop.trips), ∀ (k0_h14 : k0_cond14 i k0_t7 = 1#1), ∀ a, (k0_off369 k0_t10) a + S1x16.size a ≤ S32x768.size a
  k0_off370_inb : ∀ (i : grid0.Coords) (k0_t7 : Fin k0_t7_loop.trips) (k0_t10 : Fin k0_t10_loop.trips), ∀ (k0_h14 : k0_cond14 i k0_t7 = 1#1), ∀ a, (k0_off370 k0_t10) a + S1x16.size a ≤ S32x768.size a
  k0_off371_inb : ∀ (i : grid0.Coords) (k0_t7 : Fin k0_t7_loop.trips) (k0_t10 : Fin k0_t10_loop.trips), ∀ (k0_h14 : k0_cond14 i k0_t7 = 1#1), ∀ a, (k0_off371 k0_t10) a + S1x16.size a ≤ S32x768.size a
  k0_off372_inb : ∀ (i : grid0.Coords) (k0_t7 : Fin k0_t7_loop.trips) (k0_t10 : Fin k0_t10_loop.trips), ∀ (k0_h14 : k0_cond14 i k0_t7 = 1#1), ∀ a, (k0_off372 k0_t10) a + S1x16.size a ≤ S32x768.size a
  k0_off373_inb : ∀ (i : grid0.Coords) (k0_t7 : Fin k0_t7_loop.trips) (k0_t10 : Fin k0_t10_loop.trips), ∀ (k0_h14 : k0_cond14 i k0_t7 = 1#1), ∀ a, (k0_off373 k0_t10) a + S1x16.size a ≤ S32x768.size a
  k0_off374_inb : ∀ (i : grid0.Coords) (k0_t7 : Fin k0_t7_loop.trips) (k0_t10 : Fin k0_t10_loop.trips), ∀ (k0_h14 : k0_cond14 i k0_t7 = 1#1), ∀ a, (k0_off374 k0_t10) a + S1x16.size a ≤ S32x768.size a
  k0_off375_inb : ∀ (i : grid0.Coords) (k0_t7 : Fin k0_t7_loop.trips) (k0_t10 : Fin k0_t10_loop.trips), ∀ (k0_h14 : k0_cond14 i k0_t7 = 1#1), ∀ a, (k0_off375 k0_t10) a + S1x16.size a ≤ S32x768.size a
  k0_off376_inb : ∀ (i : grid0.Coords) (k0_t7 : Fin k0_t7_loop.trips) (k0_t10 : Fin k0_t10_loop.trips), ∀ (k0_h14 : k0_cond14 i k0_t7 = 1#1), ∀ a, (k0_off376 k0_t10) a + S1x16.size a ≤ S32x768.size a
  k0_off377_inb : ∀ (i : grid0.Coords) (k0_t7 : Fin k0_t7_loop.trips) (k0_t10 : Fin k0_t10_loop.trips), ∀ (k0_h14 : k0_cond14 i k0_t7 = 1#1), ∀ a, (k0_off377 k0_t10) a + S1x16.size a ≤ S32x768.size a
  k0_off378_inb : ∀ (i : grid0.Coords) (k0_t7 : Fin k0_t7_loop.trips) (k0_t10 : Fin k0_t10_loop.trips), ∀ (k0_h14 : k0_cond14 i k0_t7 = 1#1), ∀ a, (k0_off378 k0_t10) a + S1x16.size a ≤ S32x768.size a
  k0_off379_inb : ∀ (i : grid0.Coords) (k0_t7 : Fin k0_t7_loop.trips) (k0_t10 : Fin k0_t10_loop.trips), ∀ (k0_h14 : k0_cond14 i k0_t7 = 1#1), ∀ a, (k0_off379 k0_t10) a + S1x16.size a ≤ S32x768.size a
  k0_off380_inb : ∀ (i : grid0.Coords) (k0_t7 : Fin k0_t7_loop.trips) (k0_t10 : Fin k0_t10_loop.trips), ∀ (k0_h14 : k0_cond14 i k0_t7 = 1#1), ∀ a, (k0_off380 k0_t10) a + S1x16.size a ≤ S32x768.size a
  k0_off381_inb : ∀ (i : grid0.Coords) (k0_t7 : Fin k0_t7_loop.trips) (k0_t10 : Fin k0_t10_loop.trips), ∀ (k0_h14 : k0_cond14 i k0_t7 = 1#1), ∀ a, (k0_off381 k0_t10) a + S1x16.size a ≤ S32x768.size a
  k0_off382_inb : ∀ (i : grid0.Coords) (k0_t7 : Fin k0_t7_loop.trips) (k0_t10 : Fin k0_t10_loop.trips), ∀ (k0_h14 : k0_cond14 i k0_t7 = 1#1), ∀ a, (k0_off382 k0_t10) a + S1x16.size a ≤ S32x768.size a
  k0_off383_inb : ∀ (i : grid0.Coords) (k0_t7 : Fin k0_t7_loop.trips) (k0_t10 : Fin k0_t10_loop.trips), ∀ (k0_h14 : k0_cond14 i k0_t7 = 1#1), ∀ a, (k0_off383 k0_t10) a + S1x16.size a ≤ S32x768.size a
  k0_off384_inb : ∀ (i : grid0.Coords) (k0_t7 : Fin k0_t7_loop.trips) (k0_t10 : Fin k0_t10_loop.trips), ∀ (k0_h14 : k0_cond14 i k0_t7 = 1#1), ∀ a, (k0_off384 k0_t10) a + S1x16.size a ≤ S32x768.size a
  k0_off385_inb : ∀ (i : grid0.Coords) (k0_t7 : Fin k0_t7_loop.trips) (k0_t10 : Fin k0_t10_loop.trips), ∀ (k0_h14 : k0_cond14 i k0_t7 = 1#1), ∀ a, (k0_off385 k0_t10) a + S1x16.size a ≤ S32x768.size a
  k0_off386_inb : ∀ (i : grid0.Coords) (k0_t7 : Fin k0_t7_loop.trips) (k0_t10 : Fin k0_t10_loop.trips), ∀ (k0_h14 : k0_cond14 i k0_t7 = 1#1), ∀ a, (k0_off386 k0_t10) a + S1x16.size a ≤ S32x768.size a
  k0_off387_inb : ∀ (i : grid0.Coords) (k0_t7 : Fin k0_t7_loop.trips) (k0_t10 : Fin k0_t10_loop.trips), ∀ (k0_h14 : k0_cond14 i k0_t7 = 1#1), ∀ a, (k0_off387 k0_t10) a + S1x16.size a ≤ S32x768.size a
  k0_off388_inb : ∀ (i : grid0.Coords) (k0_t7 : Fin k0_t7_loop.trips) (k0_t10 : Fin k0_t10_loop.trips), ∀ (k0_h14 : k0_cond14 i k0_t7 = 1#1), ∀ a, (k0_off388 k0_t10) a + S1x16.size a ≤ S32x768.size a
  k0_off389_inb : ∀ (i : grid0.Coords) (k0_t7 : Fin k0_t7_loop.trips) (k0_t10 : Fin k0_t10_loop.trips), ∀ (k0_h14 : k0_cond14 i k0_t7 = 1#1), ∀ a, (k0_off389 k0_t10) a + S1x16.size a ≤ S32x768.size a
  k0_off390_inb : ∀ (i : grid0.Coords) (k0_t7 : Fin k0_t7_loop.trips) (k0_t10 : Fin k0_t10_loop.trips), ∀ (k0_h14 : k0_cond14 i k0_t7 = 1#1), ∀ a, (k0_off390 k0_t10) a + S1x16.size a ≤ S32x768.size a
  k0_off391_inb : ∀ (i : grid0.Coords) (k0_t7 : Fin k0_t7_loop.trips) (k0_t10 : Fin k0_t10_loop.trips), ∀ (k0_h14 : k0_cond14 i k0_t7 = 1#1), ∀ a, (k0_off391 k0_t10) a + S1x16.size a ≤ S32x768.size a
  k0_off392_inb : ∀ (i : grid0.Coords) (k0_t7 : Fin k0_t7_loop.trips) (k0_t10 : Fin k0_t10_loop.trips), ∀ (k0_h14 : k0_cond14 i k0_t7 = 1#1), ∀ a, (k0_off392 k0_t10) a + S1x16.size a ≤ S32x768.size a
  k0_off393_inb : ∀ (i : grid0.Coords) (k0_t7 : Fin k0_t7_loop.trips) (k0_t10 : Fin k0_t10_loop.trips), ∀ (k0_h14 : k0_cond14 i k0_t7 = 1#1), ∀ a, (k0_off393 k0_t10) a + S1x16.size a ≤ S32x768.size a
  k0_off394_inb : ∀ (i : grid0.Coords) (k0_t7 : Fin k0_t7_loop.trips) (k0_t10 : Fin k0_t10_loop.trips), ∀ (k0_h14 : k0_cond14 i k0_t7 = 1#1), ∀ a, (k0_off394 k0_t10) a + S1x16.size a ≤ S32x768.size a
  k0_off395_inb : ∀ (i : grid0.Coords) (k0_t7 : Fin k0_t7_loop.trips) (k0_t10 : Fin k0_t10_loop.trips), ∀ (k0_h14 : k0_cond14 i k0_t7 = 1#1), ∀ a, (k0_off395 k0_t10) a + S1x16.size a ≤ S32x768.size a
  k0_off396_inb : ∀ (i : grid0.Coords) (k0_t7 : Fin k0_t7_loop.trips) (k0_t10 : Fin k0_t10_loop.trips), ∀ (k0_h14 : k0_cond14 i k0_t7 = 1#1), ∀ a, (k0_off396 k0_t10) a + S1x16.size a ≤ S32x768.size a
  k0_off397_inb : ∀ (i : grid0.Coords) (k0_t7 : Fin k0_t7_loop.trips) (k0_t10 : Fin k0_t10_loop.trips), ∀ (k0_h14 : k0_cond14 i k0_t7 = 1#1), ∀ a, (k0_off397 k0_t10) a + S1x16.size a ≤ S32x768.size a
  k0_off398_inb : ∀ (i : grid0.Coords) (k0_t7 : Fin k0_t7_loop.trips) (k0_t10 : Fin k0_t10_loop.trips), ∀ (k0_h14 : k0_cond14 i k0_t7 = 1#1), ∀ a, (k0_off398 k0_t10) a + S1x16.size a ≤ S32x768.size a
  k0_off399_inb : ∀ (i : grid0.Coords) (k0_t7 : Fin k0_t7_loop.trips) (k0_t10 : Fin k0_t10_loop.trips), ∀ (k0_h14 : k0_cond14 i k0_t7 = 1#1), ∀ a, (k0_off399 k0_t10) a + S1x16.size a ≤ S32x768.size a
  k0_off400_inb : ∀ (i : grid0.Coords) (k0_t7 : Fin k0_t7_loop.trips) (k0_t10 : Fin k0_t10_loop.trips), ∀ (k0_h14 : k0_cond14 i k0_t7 = 1#1), ∀ a, (k0_off400 k0_t10) a + S1x16.size a ≤ S32x768.size a
  k0_off401_inb : ∀ (i : grid0.Coords) (k0_t7 : Fin k0_t7_loop.trips) (k0_t10 : Fin k0_t10_loop.trips), ∀ (k0_h14 : k0_cond14 i k0_t7 = 1#1), ∀ a, (k0_off401 k0_t10) a + S1x16.size a ≤ S32x768.size a
  k0_off402_inb : ∀ (i : grid0.Coords) (k0_t7 : Fin k0_t7_loop.trips) (k0_t10 : Fin k0_t10_loop.trips), ∀ (k0_h14 : k0_cond14 i k0_t7 = 1#1), ∀ a, (k0_off402 k0_t10) a + S1x16.size a ≤ S32x768.size a
  k0_off403_inb : ∀ (i : grid0.Coords) (k0_t7 : Fin k0_t7_loop.trips) (k0_t10 : Fin k0_t10_loop.trips), ∀ (k0_h14 : k0_cond14 i k0_t7 = 1#1), ∀ a, (k0_off403 k0_t10) a + S1x16.size a ≤ S32x768.size a
  k0_off404_inb : ∀ (i : grid0.Coords) (k0_t7 : Fin k0_t7_loop.trips) (k0_t10 : Fin k0_t10_loop.trips), ∀ (k0_h14 : k0_cond14 i k0_t7 = 1#1), ∀ a, (k0_off404 k0_t10) a + S1x16.size a ≤ S32x768.size a
  k0_off405_inb : ∀ (i : grid0.Coords) (k0_t7 : Fin k0_t7_loop.trips) (k0_t10 : Fin k0_t10_loop.trips), ∀ (k0_h14 : k0_cond14 i k0_t7 = 1#1), ∀ a, (k0_off405 k0_t10) a + S1x16.size a ≤ S32x768.size a
  k0_off406_inb : ∀ (i : grid0.Coords) (k0_t7 : Fin k0_t7_loop.trips) (k0_t10 : Fin k0_t10_loop.trips), ∀ (k0_h14 : k0_cond14 i k0_t7 = 1#1), ∀ a, (k0_off406 k0_t10) a + S1x16.size a ≤ S32x768.size a
  k0_off407_inb : ∀ (i : grid0.Coords) (k0_t7 : Fin k0_t7_loop.trips), ∀ (k0_h14 : k0_cond14 i k0_t7 = 1#1), ∀ a, (k0_off407 i k0_t7) a + S32x768.size a ≤ S62001x768.size a
  k0_mult8_dvd : ∀ i : grid0.Coords, ∀ (k0_h16 : k0_cond16 i = 1#1), 8 ∣ (k0_mult8 i).toNat
  k0_off408_inb : ∀ i : grid0.Coords, ∀ (k0_h16 : k0_cond16 i = 1#1), ∀ (k0_h17 : k0_cond17 = 1#1), ∀ a, (k0_off408 i) a + S32x768.size a ≤ S62001x768.size a
  k0_t11_ok : ∀ i : grid0.Coords, ∀ (k0_h16 : k0_cond16 i = 1#1), k0_t11_loop.OK
  k0_off409_inb : ∀ (i : grid0.Coords) (k0_t11 : Fin k0_t11_loop.trips), ∀ (k0_h16 : k0_cond16 i = 1#1), ∀ (r₁ : Fin 3) (r₂ : Fin 16), ∀ a, (k0_off409 i k0_t11 (BitVec.ofNat 32 (16384 * r₁.val)) (BitVec.ofNat 32 (512 * r₂.val))) a + S16.size a ≤ S49152.size a
  k0_off410_inb : ∀ (i : grid0.Coords) (k0_t11 : Fin k0_t11_loop.trips), ∀ (k0_h16 : k0_cond16 i = 1#1), ∀ a, (k0_off410 k0_t11) a + S1x16.size a ≤ S32x768.size a
  k0_off411_inb : ∀ (i : grid0.Coords) (k0_t11 : Fin k0_t11_loop.trips), ∀ (k0_h16 : k0_cond16 i = 1#1), ∀ a, (k0_off411 k0_t11) a + S1x16.size a ≤ S32x768.size a
  k0_off412_inb : ∀ (i : grid0.Coords) (k0_t11 : Fin k0_t11_loop.trips), ∀ (k0_h16 : k0_cond16 i = 1#1), ∀ a, (k0_off412 k0_t11) a + S1x16.size a ≤ S32x768.size a
  k0_off413_inb : ∀ (i : grid0.Coords) (k0_t11 : Fin k0_t11_loop.trips), ∀ (k0_h16 : k0_cond16 i = 1#1), ∀ a, (k0_off413 k0_t11) a + S1x16.size a ≤ S32x768.size a
  k0_off414_inb : ∀ (i : grid0.Coords) (k0_t11 : Fin k0_t11_loop.trips), ∀ (k0_h16 : k0_cond16 i = 1#1), ∀ a, (k0_off414 k0_t11) a + S1x16.size a ≤ S32x768.size a
  k0_off415_inb : ∀ (i : grid0.Coords) (k0_t11 : Fin k0_t11_loop.trips), ∀ (k0_h16 : k0_cond16 i = 1#1), ∀ a, (k0_off415 k0_t11) a + S1x16.size a ≤ S32x768.size a
  k0_off416_inb : ∀ (i : grid0.Coords) (k0_t11 : Fin k0_t11_loop.trips), ∀ (k0_h16 : k0_cond16 i = 1#1), ∀ a, (k0_off416 k0_t11) a + S1x16.size a ≤ S32x768.size a
  k0_off417_inb : ∀ (i : grid0.Coords) (k0_t11 : Fin k0_t11_loop.trips), ∀ (k0_h16 : k0_cond16 i = 1#1), ∀ a, (k0_off417 k0_t11) a + S1x16.size a ≤ S32x768.size a
  k0_off418_inb : ∀ (i : grid0.Coords) (k0_t11 : Fin k0_t11_loop.trips), ∀ (k0_h16 : k0_cond16 i = 1#1), ∀ a, (k0_off418 k0_t11) a + S1x16.size a ≤ S32x768.size a
  k0_off419_inb : ∀ (i : grid0.Coords) (k0_t11 : Fin k0_t11_loop.trips), ∀ (k0_h16 : k0_cond16 i = 1#1), ∀ a, (k0_off419 k0_t11) a + S1x16.size a ≤ S32x768.size a
  k0_off420_inb : ∀ (i : grid0.Coords) (k0_t11 : Fin k0_t11_loop.trips), ∀ (k0_h16 : k0_cond16 i = 1#1), ∀ a, (k0_off420 k0_t11) a + S1x16.size a ≤ S32x768.size a
  k0_off421_inb : ∀ (i : grid0.Coords) (k0_t11 : Fin k0_t11_loop.trips), ∀ (k0_h16 : k0_cond16 i = 1#1), ∀ a, (k0_off421 k0_t11) a + S1x16.size a ≤ S32x768.size a
  k0_off422_inb : ∀ (i : grid0.Coords) (k0_t11 : Fin k0_t11_loop.trips), ∀ (k0_h16 : k0_cond16 i = 1#1), ∀ a, (k0_off422 k0_t11) a + S1x16.size a ≤ S32x768.size a
  k0_off423_inb : ∀ (i : grid0.Coords) (k0_t11 : Fin k0_t11_loop.trips), ∀ (k0_h16 : k0_cond16 i = 1#1), ∀ a, (k0_off423 k0_t11) a + S1x16.size a ≤ S32x768.size a
  k0_off424_inb : ∀ (i : grid0.Coords) (k0_t11 : Fin k0_t11_loop.trips), ∀ (k0_h16 : k0_cond16 i = 1#1), ∀ a, (k0_off424 k0_t11) a + S1x16.size a ≤ S32x768.size a
  k0_off425_inb : ∀ (i : grid0.Coords) (k0_t11 : Fin k0_t11_loop.trips), ∀ (k0_h16 : k0_cond16 i = 1#1), ∀ a, (k0_off425 k0_t11) a + S1x16.size a ≤ S32x768.size a
  k0_off426_inb : ∀ (i : grid0.Coords) (k0_t11 : Fin k0_t11_loop.trips), ∀ (k0_h16 : k0_cond16 i = 1#1), ∀ a, (k0_off426 k0_t11) a + S1x16.size a ≤ S32x768.size a
  k0_off427_inb : ∀ (i : grid0.Coords) (k0_t11 : Fin k0_t11_loop.trips), ∀ (k0_h16 : k0_cond16 i = 1#1), ∀ a, (k0_off427 k0_t11) a + S1x16.size a ≤ S32x768.size a
  k0_off428_inb : ∀ (i : grid0.Coords) (k0_t11 : Fin k0_t11_loop.trips), ∀ (k0_h16 : k0_cond16 i = 1#1), ∀ a, (k0_off428 k0_t11) a + S1x16.size a ≤ S32x768.size a
  k0_off429_inb : ∀ (i : grid0.Coords) (k0_t11 : Fin k0_t11_loop.trips), ∀ (k0_h16 : k0_cond16 i = 1#1), ∀ a, (k0_off429 k0_t11) a + S1x16.size a ≤ S32x768.size a
  k0_off430_inb : ∀ (i : grid0.Coords) (k0_t11 : Fin k0_t11_loop.trips), ∀ (k0_h16 : k0_cond16 i = 1#1), ∀ a, (k0_off430 k0_t11) a + S1x16.size a ≤ S32x768.size a
  k0_off431_inb : ∀ (i : grid0.Coords) (k0_t11 : Fin k0_t11_loop.trips), ∀ (k0_h16 : k0_cond16 i = 1#1), ∀ a, (k0_off431 k0_t11) a + S1x16.size a ≤ S32x768.size a
  k0_off432_inb : ∀ (i : grid0.Coords) (k0_t11 : Fin k0_t11_loop.trips), ∀ (k0_h16 : k0_cond16 i = 1#1), ∀ a, (k0_off432 k0_t11) a + S1x16.size a ≤ S32x768.size a
  k0_off433_inb : ∀ (i : grid0.Coords) (k0_t11 : Fin k0_t11_loop.trips), ∀ (k0_h16 : k0_cond16 i = 1#1), ∀ a, (k0_off433 k0_t11) a + S1x16.size a ≤ S32x768.size a
  k0_off434_inb : ∀ (i : grid0.Coords) (k0_t11 : Fin k0_t11_loop.trips), ∀ (k0_h16 : k0_cond16 i = 1#1), ∀ a, (k0_off434 k0_t11) a + S1x16.size a ≤ S32x768.size a
  k0_off435_inb : ∀ (i : grid0.Coords) (k0_t11 : Fin k0_t11_loop.trips), ∀ (k0_h16 : k0_cond16 i = 1#1), ∀ a, (k0_off435 k0_t11) a + S1x16.size a ≤ S32x768.size a
  k0_off436_inb : ∀ (i : grid0.Coords) (k0_t11 : Fin k0_t11_loop.trips), ∀ (k0_h16 : k0_cond16 i = 1#1), ∀ a, (k0_off436 k0_t11) a + S1x16.size a ≤ S32x768.size a
  k0_off437_inb : ∀ (i : grid0.Coords) (k0_t11 : Fin k0_t11_loop.trips), ∀ (k0_h16 : k0_cond16 i = 1#1), ∀ a, (k0_off437 k0_t11) a + S1x16.size a ≤ S32x768.size a
  k0_off438_inb : ∀ (i : grid0.Coords) (k0_t11 : Fin k0_t11_loop.trips), ∀ (k0_h16 : k0_cond16 i = 1#1), ∀ a, (k0_off438 k0_t11) a + S1x16.size a ≤ S32x768.size a
  k0_off439_inb : ∀ (i : grid0.Coords) (k0_t11 : Fin k0_t11_loop.trips), ∀ (k0_h16 : k0_cond16 i = 1#1), ∀ a, (k0_off439 k0_t11) a + S1x16.size a ≤ S32x768.size a
  k0_off440_inb : ∀ (i : grid0.Coords) (k0_t11 : Fin k0_t11_loop.trips), ∀ (k0_h16 : k0_cond16 i = 1#1), ∀ a, (k0_off440 k0_t11) a + S1x16.size a ≤ S32x768.size a
  k0_off441_inb : ∀ (i : grid0.Coords) (k0_t11 : Fin k0_t11_loop.trips), ∀ (k0_h16 : k0_cond16 i = 1#1), ∀ a, (k0_off441 k0_t11) a + S1x16.size a ≤ S32x768.size a
  k0_off442_inb : ∀ (i : grid0.Coords) (k0_t11 : Fin k0_t11_loop.trips), ∀ (k0_h16 : k0_cond16 i = 1#1), ∀ a, (k0_off442 k0_t11) a + S1x16.size a ≤ S32x768.size a
  k0_off443_inb : ∀ (i : grid0.Coords) (k0_t11 : Fin k0_t11_loop.trips), ∀ (k0_h16 : k0_cond16 i = 1#1), ∀ a, (k0_off443 k0_t11) a + S1x16.size a ≤ S32x768.size a
  k0_off444_inb : ∀ (i : grid0.Coords) (k0_t11 : Fin k0_t11_loop.trips), ∀ (k0_h16 : k0_cond16 i = 1#1), ∀ a, (k0_off444 k0_t11) a + S1x16.size a ≤ S32x768.size a
  k0_off445_inb : ∀ (i : grid0.Coords) (k0_t11 : Fin k0_t11_loop.trips), ∀ (k0_h16 : k0_cond16 i = 1#1), ∀ a, (k0_off445 k0_t11) a + S1x16.size a ≤ S32x768.size a
  k0_off446_inb : ∀ (i : grid0.Coords) (k0_t11 : Fin k0_t11_loop.trips), ∀ (k0_h16 : k0_cond16 i = 1#1), ∀ a, (k0_off446 k0_t11) a + S1x16.size a ≤ S32x768.size a
  k0_off447_inb : ∀ (i : grid0.Coords) (k0_t11 : Fin k0_t11_loop.trips), ∀ (k0_h16 : k0_cond16 i = 1#1), ∀ a, (k0_off447 k0_t11) a + S1x16.size a ≤ S32x768.size a
  k0_off448_inb : ∀ (i : grid0.Coords) (k0_t11 : Fin k0_t11_loop.trips), ∀ (k0_h16 : k0_cond16 i = 1#1), ∀ a, (k0_off448 k0_t11) a + S1x16.size a ≤ S32x768.size a
  k0_off449_inb : ∀ (i : grid0.Coords) (k0_t11 : Fin k0_t11_loop.trips), ∀ (k0_h16 : k0_cond16 i = 1#1), ∀ a, (k0_off449 k0_t11) a + S1x16.size a ≤ S32x768.size a
  k0_off450_inb : ∀ (i : grid0.Coords) (k0_t11 : Fin k0_t11_loop.trips), ∀ (k0_h16 : k0_cond16 i = 1#1), ∀ a, (k0_off450 k0_t11) a + S1x16.size a ≤ S32x768.size a
  k0_off451_inb : ∀ (i : grid0.Coords) (k0_t11 : Fin k0_t11_loop.trips), ∀ (k0_h16 : k0_cond16 i = 1#1), ∀ a, (k0_off451 k0_t11) a + S1x16.size a ≤ S32x768.size a
  k0_off452_inb : ∀ (i : grid0.Coords) (k0_t11 : Fin k0_t11_loop.trips), ∀ (k0_h16 : k0_cond16 i = 1#1), ∀ a, (k0_off452 k0_t11) a + S1x16.size a ≤ S32x768.size a
  k0_off453_inb : ∀ (i : grid0.Coords) (k0_t11 : Fin k0_t11_loop.trips), ∀ (k0_h16 : k0_cond16 i = 1#1), ∀ a, (k0_off453 k0_t11) a + S1x16.size a ≤ S32x768.size a
  k0_off454_inb : ∀ (i : grid0.Coords) (k0_t11 : Fin k0_t11_loop.trips), ∀ (k0_h16 : k0_cond16 i = 1#1), ∀ a, (k0_off454 k0_t11) a + S1x16.size a ≤ S32x768.size a
  k0_off455_inb : ∀ (i : grid0.Coords) (k0_t11 : Fin k0_t11_loop.trips), ∀ (k0_h16 : k0_cond16 i = 1#1), ∀ a, (k0_off455 k0_t11) a + S1x16.size a ≤ S32x768.size a
  k0_off456_inb : ∀ (i : grid0.Coords) (k0_t11 : Fin k0_t11_loop.trips), ∀ (k0_h16 : k0_cond16 i = 1#1), ∀ a, (k0_off456 k0_t11) a + S1x16.size a ≤ S32x768.size a
  k0_off457_inb : ∀ (i : grid0.Coords) (k0_t11 : Fin k0_t11_loop.trips), ∀ (k0_h16 : k0_cond16 i = 1#1), ∀ a, (k0_off457 k0_t11) a + S1x16.size a ≤ S32x768.size a
  k0_off458_inb : ∀ i : grid0.Coords, ∀ (k0_h16 : k0_cond16 i = 1#1), ∀ a, (k0_off458 i) a + S32x768.size a ≤ S62001x768.size a
  k0_t12_ok : ∀ i : grid0.Coords, ∀ (k0_h18 : k0_cond18 i = 1#1), k0_t12_loop.OK
  k0_off459_inb : ∀ (i : grid0.Coords) (k0_t12 : Fin k0_t12_loop.trips), ∀ (k0_h18 : k0_cond18 i = 1#1), ∀ (r₁ : Fin 3) (r₂ : Fin 16), ∀ a, (k0_off459 i k0_t12 (BitVec.ofNat 32 (16384 * r₁.val)) (BitVec.ofNat 32 (512 * r₂.val))) a + S16.size a ≤ S49152.size a
  k0_off460_inb : ∀ (i : grid0.Coords) (k0_t12 : Fin k0_t12_loop.trips), ∀ (k0_h18 : k0_cond18 i = 1#1), ∀ a, (k0_off460 k0_t12) a + S1x16.size a ≤ S32x768.size a
  k0_off461_inb : ∀ (i : grid0.Coords) (k0_t12 : Fin k0_t12_loop.trips), ∀ (k0_h18 : k0_cond18 i = 1#1), ∀ a, (k0_off461 k0_t12) a + S1x16.size a ≤ S32x768.size a
  k0_off462_inb : ∀ (i : grid0.Coords) (k0_t12 : Fin k0_t12_loop.trips), ∀ (k0_h18 : k0_cond18 i = 1#1), ∀ a, (k0_off462 k0_t12) a + S1x16.size a ≤ S32x768.size a
  k0_off463_inb : ∀ (i : grid0.Coords) (k0_t12 : Fin k0_t12_loop.trips), ∀ (k0_h18 : k0_cond18 i = 1#1), ∀ a, (k0_off463 k0_t12) a + S1x16.size a ≤ S32x768.size a
  k0_off464_inb : ∀ (i : grid0.Coords) (k0_t12 : Fin k0_t12_loop.trips), ∀ (k0_h18 : k0_cond18 i = 1#1), ∀ a, (k0_off464 k0_t12) a + S1x16.size a ≤ S32x768.size a
  k0_off465_inb : ∀ (i : grid0.Coords) (k0_t12 : Fin k0_t12_loop.trips), ∀ (k0_h18 : k0_cond18 i = 1#1), ∀ a, (k0_off465 k0_t12) a + S1x16.size a ≤ S32x768.size a
  k0_off466_inb : ∀ (i : grid0.Coords) (k0_t12 : Fin k0_t12_loop.trips), ∀ (k0_h18 : k0_cond18 i = 1#1), ∀ a, (k0_off466 k0_t12) a + S1x16.size a ≤ S32x768.size a
  k0_off467_inb : ∀ (i : grid0.Coords) (k0_t12 : Fin k0_t12_loop.trips), ∀ (k0_h18 : k0_cond18 i = 1#1), ∀ a, (k0_off467 k0_t12) a + S1x16.size a ≤ S32x768.size a
  k0_off468_inb : ∀ (i : grid0.Coords) (k0_t12 : Fin k0_t12_loop.trips), ∀ (k0_h18 : k0_cond18 i = 1#1), ∀ a, (k0_off468 k0_t12) a + S1x16.size a ≤ S32x768.size a
  k0_off469_inb : ∀ (i : grid0.Coords) (k0_t12 : Fin k0_t12_loop.trips), ∀ (k0_h18 : k0_cond18 i = 1#1), ∀ a, (k0_off469 k0_t12) a + S1x16.size a ≤ S32x768.size a
  k0_off470_inb : ∀ (i : grid0.Coords) (k0_t12 : Fin k0_t12_loop.trips), ∀ (k0_h18 : k0_cond18 i = 1#1), ∀ a, (k0_off470 k0_t12) a + S1x16.size a ≤ S32x768.size a
  k0_off471_inb : ∀ (i : grid0.Coords) (k0_t12 : Fin k0_t12_loop.trips), ∀ (k0_h18 : k0_cond18 i = 1#1), ∀ a, (k0_off471 k0_t12) a + S1x16.size a ≤ S32x768.size a
  k0_off472_inb : ∀ (i : grid0.Coords) (k0_t12 : Fin k0_t12_loop.trips), ∀ (k0_h18 : k0_cond18 i = 1#1), ∀ a, (k0_off472 k0_t12) a + S1x16.size a ≤ S32x768.size a
  k0_off473_inb : ∀ (i : grid0.Coords) (k0_t12 : Fin k0_t12_loop.trips), ∀ (k0_h18 : k0_cond18 i = 1#1), ∀ a, (k0_off473 k0_t12) a + S1x16.size a ≤ S32x768.size a
  k0_off474_inb : ∀ (i : grid0.Coords) (k0_t12 : Fin k0_t12_loop.trips), ∀ (k0_h18 : k0_cond18 i = 1#1), ∀ a, (k0_off474 k0_t12) a + S1x16.size a ≤ S32x768.size a
  k0_off475_inb : ∀ (i : grid0.Coords) (k0_t12 : Fin k0_t12_loop.trips), ∀ (k0_h18 : k0_cond18 i = 1#1), ∀ a, (k0_off475 k0_t12) a + S1x16.size a ≤ S32x768.size a
  k0_off476_inb : ∀ (i : grid0.Coords) (k0_t12 : Fin k0_t12_loop.trips), ∀ (k0_h18 : k0_cond18 i = 1#1), ∀ a, (k0_off476 k0_t12) a + S1x16.size a ≤ S32x768.size a
  k0_off477_inb : ∀ (i : grid0.Coords) (k0_t12 : Fin k0_t12_loop.trips), ∀ (k0_h18 : k0_cond18 i = 1#1), ∀ a, (k0_off477 k0_t12) a + S1x16.size a ≤ S32x768.size a
  k0_off478_inb : ∀ (i : grid0.Coords) (k0_t12 : Fin k0_t12_loop.trips), ∀ (k0_h18 : k0_cond18 i = 1#1), ∀ a, (k0_off478 k0_t12) a + S1x16.size a ≤ S32x768.size a
  k0_off479_inb : ∀ (i : grid0.Coords) (k0_t12 : Fin k0_t12_loop.trips), ∀ (k0_h18 : k0_cond18 i = 1#1), ∀ a, (k0_off479 k0_t12) a + S1x16.size a ≤ S32x768.size a
  k0_off480_inb : ∀ (i : grid0.Coords) (k0_t12 : Fin k0_t12_loop.trips), ∀ (k0_h18 : k0_cond18 i = 1#1), ∀ a, (k0_off480 k0_t12) a + S1x16.size a ≤ S32x768.size a
  k0_off481_inb : ∀ (i : grid0.Coords) (k0_t12 : Fin k0_t12_loop.trips), ∀ (k0_h18 : k0_cond18 i = 1#1), ∀ a, (k0_off481 k0_t12) a + S1x16.size a ≤ S32x768.size a
  k0_off482_inb : ∀ (i : grid0.Coords) (k0_t12 : Fin k0_t12_loop.trips), ∀ (k0_h18 : k0_cond18 i = 1#1), ∀ a, (k0_off482 k0_t12) a + S1x16.size a ≤ S32x768.size a
  k0_off483_inb : ∀ (i : grid0.Coords) (k0_t12 : Fin k0_t12_loop.trips), ∀ (k0_h18 : k0_cond18 i = 1#1), ∀ a, (k0_off483 k0_t12) a + S1x16.size a ≤ S32x768.size a
  k0_off484_inb : ∀ (i : grid0.Coords) (k0_t12 : Fin k0_t12_loop.trips), ∀ (k0_h18 : k0_cond18 i = 1#1), ∀ a, (k0_off484 k0_t12) a + S1x16.size a ≤ S32x768.size a
  k0_off485_inb : ∀ (i : grid0.Coords) (k0_t12 : Fin k0_t12_loop.trips), ∀ (k0_h18 : k0_cond18 i = 1#1), ∀ a, (k0_off485 k0_t12) a + S1x16.size a ≤ S32x768.size a
  k0_off486_inb : ∀ (i : grid0.Coords) (k0_t12 : Fin k0_t12_loop.trips), ∀ (k0_h18 : k0_cond18 i = 1#1), ∀ a, (k0_off486 k0_t12) a + S1x16.size a ≤ S32x768.size a
  k0_off487_inb : ∀ (i : grid0.Coords) (k0_t12 : Fin k0_t12_loop.trips), ∀ (k0_h18 : k0_cond18 i = 1#1), ∀ a, (k0_off487 k0_t12) a + S1x16.size a ≤ S32x768.size a
  k0_off488_inb : ∀ (i : grid0.Coords) (k0_t12 : Fin k0_t12_loop.trips), ∀ (k0_h18 : k0_cond18 i = 1#1), ∀ a, (k0_off488 k0_t12) a + S1x16.size a ≤ S32x768.size a
  k0_off489_inb : ∀ (i : grid0.Coords) (k0_t12 : Fin k0_t12_loop.trips), ∀ (k0_h18 : k0_cond18 i = 1#1), ∀ a, (k0_off489 k0_t12) a + S1x16.size a ≤ S32x768.size a
  k0_off490_inb : ∀ (i : grid0.Coords) (k0_t12 : Fin k0_t12_loop.trips), ∀ (k0_h18 : k0_cond18 i = 1#1), ∀ a, (k0_off490 k0_t12) a + S1x16.size a ≤ S32x768.size a
  k0_off491_inb : ∀ (i : grid0.Coords) (k0_t12 : Fin k0_t12_loop.trips), ∀ (k0_h18 : k0_cond18 i = 1#1), ∀ a, (k0_off491 k0_t12) a + S1x16.size a ≤ S32x768.size a
  k0_off492_inb : ∀ (i : grid0.Coords) (k0_t12 : Fin k0_t12_loop.trips), ∀ (k0_h18 : k0_cond18 i = 1#1), ∀ a, (k0_off492 k0_t12) a + S1x16.size a ≤ S32x768.size a
  k0_off493_inb : ∀ (i : grid0.Coords) (k0_t12 : Fin k0_t12_loop.trips), ∀ (k0_h18 : k0_cond18 i = 1#1), ∀ a, (k0_off493 k0_t12) a + S1x16.size a ≤ S32x768.size a
  k0_off494_inb : ∀ (i : grid0.Coords) (k0_t12 : Fin k0_t12_loop.trips), ∀ (k0_h18 : k0_cond18 i = 1#1), ∀ a, (k0_off494 k0_t12) a + S1x16.size a ≤ S32x768.size a
  k0_off495_inb : ∀ (i : grid0.Coords) (k0_t12 : Fin k0_t12_loop.trips), ∀ (k0_h18 : k0_cond18 i = 1#1), ∀ a, (k0_off495 k0_t12) a + S1x16.size a ≤ S32x768.size a
  k0_off496_inb : ∀ (i : grid0.Coords) (k0_t12 : Fin k0_t12_loop.trips), ∀ (k0_h18 : k0_cond18 i = 1#1), ∀ a, (k0_off496 k0_t12) a + S1x16.size a ≤ S32x768.size a
  k0_off497_inb : ∀ (i : grid0.Coords) (k0_t12 : Fin k0_t12_loop.trips), ∀ (k0_h18 : k0_cond18 i = 1#1), ∀ a, (k0_off497 k0_t12) a + S1x16.size a ≤ S32x768.size a
  k0_off498_inb : ∀ (i : grid0.Coords) (k0_t12 : Fin k0_t12_loop.trips), ∀ (k0_h18 : k0_cond18 i = 1#1), ∀ a, (k0_off498 k0_t12) a + S1x16.size a ≤ S32x768.size a
  k0_off499_inb : ∀ (i : grid0.Coords) (k0_t12 : Fin k0_t12_loop.trips), ∀ (k0_h18 : k0_cond18 i = 1#1), ∀ a, (k0_off499 k0_t12) a + S1x16.size a ≤ S32x768.size a
  k0_off500_inb : ∀ (i : grid0.Coords) (k0_t12 : Fin k0_t12_loop.trips), ∀ (k0_h18 : k0_cond18 i = 1#1), ∀ a, (k0_off500 k0_t12) a + S1x16.size a ≤ S32x768.size a
  k0_off501_inb : ∀ (i : grid0.Coords) (k0_t12 : Fin k0_t12_loop.trips), ∀ (k0_h18 : k0_cond18 i = 1#1), ∀ a, (k0_off501 k0_t12) a + S1x16.size a ≤ S32x768.size a
  k0_off502_inb : ∀ (i : grid0.Coords) (k0_t12 : Fin k0_t12_loop.trips), ∀ (k0_h18 : k0_cond18 i = 1#1), ∀ a, (k0_off502 k0_t12) a + S1x16.size a ≤ S32x768.size a
  k0_off503_inb : ∀ (i : grid0.Coords) (k0_t12 : Fin k0_t12_loop.trips), ∀ (k0_h18 : k0_cond18 i = 1#1), ∀ a, (k0_off503 k0_t12) a + S1x16.size a ≤ S32x768.size a
  k0_off504_inb : ∀ (i : grid0.Coords) (k0_t12 : Fin k0_t12_loop.trips), ∀ (k0_h18 : k0_cond18 i = 1#1), ∀ a, (k0_off504 k0_t12) a + S1x16.size a ≤ S32x768.size a
  k0_off505_inb : ∀ (i : grid0.Coords) (k0_t12 : Fin k0_t12_loop.trips), ∀ (k0_h18 : k0_cond18 i = 1#1), ∀ a, (k0_off505 k0_t12) a + S1x16.size a ≤ S32x768.size a
  k0_off506_inb : ∀ (i : grid0.Coords) (k0_t12 : Fin k0_t12_loop.trips), ∀ (k0_h18 : k0_cond18 i = 1#1), ∀ a, (k0_off506 k0_t12) a + S1x16.size a ≤ S32x768.size a
  k0_off507_inb : ∀ (i : grid0.Coords) (k0_t12 : Fin k0_t12_loop.trips), ∀ (k0_h18 : k0_cond18 i = 1#1), ∀ a, (k0_off507 k0_t12) a + S1x16.size a ≤ S32x768.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0
abbrev cc0_scoped1 : DmaSems sig S_ := SemArray.consecutive 4 S_ hcc0_scoped1
abbrev cc0_scoped2 : DmaSems sig S_ := SemArray.consecutive 5 S_ hcc0_scoped2
abbrev cc0_scoped3 : DmaSems sig S_ := SemArray.consecutive 6 S_ hcc0_scoped3
abbrev cc0_scoped4 : DmaSems sig S_ := SemArray.consecutive 7 S_ hcc0_scoped4
abbrev cc0_scoped5 : DmaSems sig S_ := SemArray.consecutive 8 S_ hcc0_scoped5
abbrev cc0_scoped6 : DmaSems sig S_ := SemArray.consecutive 9 S_ hcc0_scoped6
abbrev cc0_scoped7 : DmaSems sig S_ := SemArray.consecutive 10 S_ hcc0_scoped7
abbrev cc0_scoped8 : DmaSems sig S_ := SemArray.consecutive 11 S_ hcc0_scoped8
abbrev cc0_scoped9 : DmaSems sig S_ := SemArray.consecutive 12 S_ hcc0_scoped9

class Facts : Prop extends Facts₀ where

variable [Facts]
-- ==== ReferenceIdeal.lean ====
abbrev S1x3x512x512 : Shape := ⟨4, ![1, 3, 512, 512]⟩
abbrev S249 : Shape := ⟨1, ![249]⟩
abbrev S_ : Shape := ⟨0, ![]⟩
abbrev S249x1 : Shape := ⟨2, ![249, 1]⟩
abbrev S16 : Shape := ⟨1, ![16]⟩
abbrev S1x16 : Shape := ⟨2, ![1, 16]⟩
abbrev S249x16 : Shape := ⟨2, ![249, 16]⟩
abbrev S3x512x512 : Shape := ⟨3, ![3, 512, 512]⟩
abbrev S249x16x1 : Shape := ⟨3, ![249, 16, 1]⟩
abbrev S3x249x16x512 : Shape := ⟨4, ![3, 249, 16, 512]⟩
abbrev S3x249x16x249x16 : Shape := ⟨5, ![3, 249, 16, 249, 16]⟩
abbrev S249x249x3x16x16 : Shape := ⟨5, ![249, 249, 3, 16, 16]⟩
abbrev S62001x768 : Shape := ⟨2, ![62001, 768]⟩

abbrev nBuf : Space → Nat
  | .hbm => 84
  | .vmem => 0
  | .smem => 0
  | _ => 0

abbrev bufTy : (tb : Table) → Fin (tcTables nBuf tb) → BufTy
  | .hbm, ⟨0, _⟩ => ⟨S1x3x512x512, .f32⟩
  | .hbm, ⟨1, _⟩ => ⟨S1x3x512x512, .f32⟩
  | .hbm, ⟨2, _⟩ => ⟨S249, .i32⟩
  | .hbm, ⟨3, _⟩ => ⟨S_, .i32⟩
  | .hbm, ⟨4, _⟩ => ⟨S249, .i32⟩
  | .hbm, ⟨5, _⟩ => ⟨S249, .i32⟩
  | .hbm, ⟨6, _⟩ => ⟨S249x1, .i32⟩
  | .hbm, ⟨7, _⟩ => ⟨S16, .i32⟩
  | .hbm, ⟨8, _⟩ => ⟨S1x16, .i32⟩
  | .hbm, ⟨9, _⟩ => ⟨S249x16, .i32⟩
  | .hbm, ⟨10, _⟩ => ⟨S249x16, .i32⟩
  | .hbm, ⟨11, _⟩ => ⟨S249x16, .i32⟩
  | .hbm, ⟨12, _⟩ => ⟨S249, .i32⟩
  | .hbm, ⟨13, _⟩ => ⟨S_, .i32⟩
  | .hbm, ⟨14, _⟩ => ⟨S249, .i32⟩
  | .hbm, ⟨15, _⟩ => ⟨S249, .i32⟩
  | .hbm, ⟨16, _⟩ => ⟨S249x1, .i32⟩
  | .hbm, ⟨17, _⟩ => ⟨S16, .i32⟩
  | .hbm, ⟨18, _⟩ => ⟨S1x16, .i32⟩
  | .hbm, ⟨19, _⟩ => ⟨S249x16, .i32⟩
  | .hbm, ⟨20, _⟩ => ⟨S249x16, .i32⟩
  | .hbm, ⟨21, _⟩ => ⟨S249x16, .i32⟩
  | .hbm, ⟨22, _⟩ => ⟨S3x512x512, .f32⟩
  | .hbm, ⟨23, _⟩ => ⟨S_, .i32⟩
  | .hbm, ⟨24, _⟩ => ⟨S249x16, .i32⟩
  | .hbm, ⟨25, _⟩ => ⟨S249x16, .i1⟩
  | .hbm, ⟨26, _⟩ => ⟨S_, .i32⟩
  | .hbm, ⟨27, _⟩ => ⟨S249x16, .i32⟩
  | .hbm, ⟨28, _⟩ => ⟨S249x16, .i32⟩
  | .hbm, ⟨29, _⟩ => ⟨S249x16, .i32⟩
  | .hbm, ⟨30, _⟩ => ⟨S249x16x1, .i32⟩
  | .hbm, ⟨31, _⟩ => ⟨S3x249x16x512, .f32⟩
  | .hbm, ⟨32, _⟩ => ⟨S_, .i32⟩
  | .hbm, ⟨33, _⟩ => ⟨S249x16, .i32⟩
  | .hbm, ⟨34, _⟩ => ⟨S249x16, .i1⟩
  | .hbm, ⟨35, _⟩ => ⟨S_, .i32⟩
  | .hbm, ⟨36, _⟩ => ⟨S249x16, .i32⟩
  | .hbm, ⟨37, _⟩ => ⟨S249x16, .i32⟩
  | .hbm, ⟨38, _⟩ => ⟨S249x16, .i32⟩
  | .hbm, ⟨39, _⟩ => ⟨S249x16x1, .i32⟩
  | .hbm, ⟨40, _⟩ => ⟨S3x249x16x249x16, .f32⟩
  | .hbm, ⟨41, _⟩ => ⟨S249x249x3x16x16, .f32⟩
  | .hbm, ⟨42, _⟩ => ⟨S62001x768, .f32⟩
  | .hbm, ⟨43, _⟩ => ⟨S249, .i32⟩
  | .hbm, ⟨44, _⟩ => ⟨S_, .i32⟩
  | .hbm, ⟨45, _⟩ => ⟨S249, .i32⟩
  | .hbm, ⟨46, _⟩ => ⟨S249, .i32⟩
  | .hbm, ⟨47, _⟩ => ⟨S249x1, .i32⟩
  | .hbm, ⟨48, _⟩ => ⟨S16, .i32⟩
  | .hbm, ⟨49, _⟩ => ⟨S1x16, .i32⟩
  | .hbm, ⟨50, _⟩ => ⟨S249x16, .i32⟩
  | .hbm, ⟨51, _⟩ => ⟨S249x16, .i32⟩
  | .hbm, ⟨52, _⟩ => ⟨S249x16, .i32⟩
  | .hbm, ⟨53, _⟩ => ⟨S249, .i32⟩
  | .hbm, ⟨54, _⟩ => ⟨S_, .i32⟩
  | .hbm, ⟨55, _⟩ => ⟨S249, .i32⟩
  | .hbm, ⟨56, _⟩ => ⟨S249, .i32⟩
  | .hbm, ⟨57, _⟩ => ⟨S249x1, .i32⟩
  | .hbm, ⟨58, _⟩ => ⟨S16, .i32⟩
  | .hbm, ⟨59, _⟩ => ⟨S1x16, .i32⟩
  | .hbm, ⟨60, _⟩ => ⟨S249x16, .i32⟩
  | .hbm, ⟨61, _⟩ => ⟨S249x16, .i32⟩
  | .hbm, ⟨62, _⟩ => ⟨S249x16, .i32⟩
  | .hbm, ⟨63, _⟩ => ⟨S3x512x512, .f32⟩
  | .hbm, ⟨64, _⟩ => ⟨S_, .i32⟩
  | .hbm, ⟨65, _⟩ => ⟨S249x16, .i32⟩
  | .hbm, ⟨66, _⟩ => ⟨S249x16, .i1⟩
  | .hbm, ⟨67, _⟩ => ⟨S_, .i32⟩
  | .hbm, ⟨68, _⟩ => ⟨S249x16, .i32⟩
  | .hbm, ⟨69, _⟩ => ⟨S249x16, .i32⟩
  | .hbm, ⟨70, _⟩ => ⟨S249x16, .i32⟩
  | .hbm, ⟨71, _⟩ => ⟨S249x16x1, .i32⟩
  | .hbm, ⟨72, _⟩ => ⟨S3x249x16x512, .f32⟩
  | .hbm, ⟨73, _⟩ => ⟨S_, .i32⟩
  | .hbm, ⟨74, _⟩ => ⟨S249x16, .i32⟩
  | .hbm, ⟨75, _⟩ => ⟨S249x16, .i1⟩
  | .hbm, ⟨76, _⟩ => ⟨S_, .i32⟩
  | .hbm, ⟨77, _⟩ => ⟨S249x16, .i32⟩
  | .hbm, ⟨78, _⟩ => ⟨S249x16, .i32⟩
  | .hbm, ⟨79, _⟩ => ⟨S249x16, .i32⟩
  | .hbm, ⟨80, _⟩ => ⟨S249x16x1, .i32⟩
  | .hbm, ⟨81, _⟩ => ⟨S3x249x16x249x16, .f32⟩
  | .hbm, ⟨82, _⟩ => ⟨S249x249x3x16x16, .f32⟩
  | .hbm, ⟨83, _⟩ => ⟨S62001x768, .f32⟩
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_6 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_7 : Ref sig .tc := ⟨.hbm, 64, rfl⟩
abbrev main_v54 : Ref sig .tc := ⟨.hbm, 65, rfl⟩
abbrev main_v55 : Ref sig .tc := ⟨.hbm, 66, rfl⟩
abbrev main_c_8 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_c_9 : Ref sig .tc := ⟨.hbm, 73, rfl⟩
abbrev main_v61 : Ref sig .tc := ⟨.hbm, 74, rfl⟩
abbrev main_v62 : Ref sig .tc := ⟨.hbm, 75, rfl⟩
abbrev main_c_10 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]

class Facts₀ : Prop where
  bcast_S_S249 : S_.BroadcastsInDim S249 (![] : Fin 0 → Fin S249.rank)
  bcast_S249_S249x1_0 : S249.BroadcastsInDim S249x1 (![0] : Fin 1 → Fin S249x1.rank)
  bcast_S16_S1x16_1 : S16.BroadcastsInDim S1x16 (![1] : Fin 1 → Fin S1x16.rank)
  bcast_S249x1_S249x16_0_1 : S249x1.BroadcastsInDim S249x16 (![0, 1] : Fin 2 → Fin S249x16.rank)
  bcast_S1x16_S249x16_0_1 : S1x16.BroadcastsInDim S249x16 (![0, 1] : Fin 2 → Fin S249x16.rank)
  shapeCasts_S1x3x512x512_S3x512x512 : S1x3x512x512.ShapeCasts S3x512x512
  bcast_S_S249x16 : S_.BroadcastsInDim S249x16 (![] : Fin 0 → Fin S249x16.rank)
  bcast_S249x16_S249x16x1_0_1 : S249x16.BroadcastsInDim S249x16x1 (![0, 1] : Fin 2 → Fin S249x16x1.rank)
  transposes_S3x249x16x249x16_S249x249x3x16x16_1_3_0_2_4 : S3x249x16x249x16.Transposes [1, 3, 0, 2, 4] S249x249x3x16x16
  shapeCasts_S249x249x3x16x16_S62001x768 : S249x249x3x16x16.ShapeCasts S62001x768
  gather_S3x512x512_S249x16x1_S3x249x16x512_03_1_n_n_1_2_31512_wf : GatherDims.WF S3x512x512 S249x16x1 S3x249x16x512 [0, 3] [1] [] [1] [] 2 ![3, 1, 512]
  gather_S3x249x16x512_S249x16x1_S3x249x16x249x16_012_3_n_n_3_2_3249161_wf : GatherDims.WF S3x249x16x512 S249x16x1 S3x249x16x249x16 [0, 1, 2] [3] [] [3] [] 2 ![3, 249, 16, 1]

variable [Facts₀]

def gather_S3x512x512_S249x16x1_S3x249x16x512_03_1_n_n_1_2_31512 : GatherDims S3x512x512 S249x16x1 S3x249x16x512 where
  offsetDims := [0, 3]
  collapsedSliceDims := [1]
  operandBatchingDims := []
  startIndicesBatchingDims := []
  startIndexMap := [1]
  indexVectorDim := 2
  sliceSizes := ![3, 1, 512]
  wf := gather_S3x512x512_S249x16x1_S3x249x16x512_03_1_n_n_1_2_31512_wf
def gather_S3x249x16x512_S249x16x1_S3x249x16x249x16_012_3_n_n_3_2_3249161 : GatherDims S3x249x16x512 S249x16x1 S3x249x16x249x16 where
  offsetDims := [0, 1, 2]
  collapsedSliceDims := [3]
  operandBatchingDims := []
  startIndicesBatchingDims := []
  startIndexMap := [3]
  indexVectorDim := 2
  sliceSizes := ![3, 249, 16, 1]
  wf := gather_S3x249x16x512_S249x16x1_S3x249x16x249x16_012_3_n_n_3_2_3249161_wf

class Facts : Prop extends Facts₀ where

variable [Facts]
-- ==== Proof.Spec.lean ====
/-
  The specification: `unfold` with a 16×16 window and stride 2 over a 3×512×512 image, as ONE index function.
  Patch `r = 249·i + j` (row-major over the 249×249 patch positions) has its top-left pixel at image row `2i`,
  column `2j`; its feature `f = 256·c + 16·kh + kw` is the pixel of channel `c` at row `2i + kh`, column `2j + kw`.
  Stated twice — over the image as a 4-D array and over its row-major flattening — with the two related by the
  flattening's position `262144·c + 512·row + col`.
-/
import Idealize.ShloMosaic.Lib.ValueIdx

namespace Cert.Unfold

open Idealize.ShloMosaic Idealize.ShloMosaic.ValueIdx

/-- The image as an array, its flattening, and the patches matrix. -/
abbrev SImg : Shape := ⟨4, ![1, 3, 512, 512]⟩
abbrev SFlat : Shape := ⟨1, ![786432]⟩
abbrev SPat : Shape := ⟨2, ![62001, 768]⟩

/-- Channel, image row and image column of feature `f` of patch `r`. -/
def chan (f : Nat) : Nat := f / 256
def irow (r f : Nat) : Nat := 2 * (r / 249) + (f % 256) / 16
def icol (r f : Nat) : Nat := 2 * (r % 249) + f % 16

theorem chan_lt {f : Nat} (hf : f < 768) : chan f < 3 := by unfold chan; omega
theorem irow_lt {r f : Nat} (hr : r < 62001) : irow r f < 512 := by unfold irow; omega
theorem icol_lt {r f : Nat} : icol r f < 512 := by unfold icol; omega

/-- The position of that pixel in the flattened image. -/
def flatPos (r f : Nat) : Nat := 262144 * chan f + 512 * irow r f + icol r f

theorem flatPos_lt {r f : Nat} (hr : r < 62001) (hf : f < 768) : flatPos r f < 786432 := by
  have := chan_lt hf; have := irow_lt (f := f) hr; have := icol_lt (r := r) (f := f)
  unfold flatPos; omega

/-- Where entry `y` of the patches matrix comes from, in the flattened image and in the 4-D image. -/
def srcFlat (y : SPat.Idx) : SFlat.Idx :=
  ix1 ⟨flatPos (y 0).val (y 1).val, flatPos_lt (y 0).isLt (y 1).isLt⟩
def srcImg (y : SPat.Idx) : SImg.Idx :=
  ix4 ⟨0, by decide⟩ ⟨chan (y 1).val, chan_lt (y 1).isLt⟩ ⟨irow (y 0).val (y 1).val, irow_lt (y 0).isLt⟩
    ⟨icol (y 0).val (y 1).val, icol_lt⟩

/-- The patches matrix of a flattened image, and of a 4-D image. -/
def patchesFlat {α : Type} (x : SFlat.Idx → α) : SPat.Idx → α := fun y => x (srcFlat y)
def patches {α : Type} (x : SImg.Idx → α) : SPat.Idx → α := fun y => x (srcImg y)

theorem patchesFlat_apply {α : Type} (x : SFlat.Idx → α) (y : SPat.Idx) : patchesFlat x y = x (srcFlat y) := rfl
theorem patches_apply {α : Type} (x : SImg.Idx → α) (y : SPat.Idx) : patches x y = x (srcImg y) := rfl

/-- If the flat image is the 4-D image read row-major, the two patches matrices agree. -/
theorem patchesFlat_of_rowMajor {α : Type} (x : SImg.Idx → α) (xf : SFlat.Idx → α)
    (h : ∀ (k : SFlat.Idx) (i : SImg.Idx), (k 0).val = 262144 * (i 1).val + 512 * (i 2).val + (i 3).val → xf k = x i) :
    patchesFlat xf = patches x := by
  funext y
  exact h (srcFlat y) (srcImg y) rfl

end Cert.Unfold
-- ==== Proof.Base.lean ====
/-
  The integers of the tile's task, over the grid's coordinates alone: tile number `2·s + c` (subcore `s`, core `c`)
  owns patches `[1952·(2s + c), +1952)`, the last tile the remaining 1489; it writes 61 chunks of 32 patches (the last
  tile 46 and a tail of 17); its slab holds the 32 image rows from `wstart`; patch `row = 249·i + j` starts, inside one
  channel's window, at `(2i − wstart)·512 + 2j`.
-/
import proofs.«212940_g32057635897708_cont_8to1_b_1299_25_alg».proof.KernelIdeal

namespace Cert.Proof.KI

open Cert.KernelIdeal Idealize.ShloMosaic

/-- A tile's number, its first patch and how many patches it owns. -/
def wid (L : grid0.Coords) : Nat := 2 * (L 1).val + (L 0).val
def wbase (L : grid0.Coords) : Nat := 1952 * wid L
def nrows (L : grid0.Coords) : Nat := if wid L = 31 then 1489 else 1952

theorem wid_lt (L : grid0.Coords) : wid L < 32 := by
  have h0 : (L 0).val < 2 := (L 0).isLt
  have h1 : (L 1).val < 16 := (L 1).isLt
  unfold wid; omega

/-- How many full chunks of 32 patches a tile writes; the first image row of its 32-row window; and where, inside one
    channel's window, the first pixel of patch `row` lies. -/
def nch (L : grid0.Coords) : Nat := if wid L = 31 then 46 else 61
def wstart (L : grid0.Coords) : Nat := min (2 * (wbase L / 249)) 480
def slabOff (L : grid0.Coords) (row : Nat) : Nat := (2 * (row / 249) - wstart L) * 512 + 2 * (row % 249)

end Cert.Proof.KI
-- ==== Proof.Arith.lean ====
/-
  The kernel's integer arithmetic in closed form.  Every offset and every branch condition of the program is a
  chain of 32-bit word operations over the tile's coordinates and the loops' trips.  The branch conditions and the
  window's start are evaluated over the whole (finite) grid; the chains that place a patch in the window are followed
  operation by operation over the integers (no operation wraps), the division by 249 that the kernel does by a
  multiplication and two shifts being evaluated once over the multiples of 32 it is applied to.  From the closed
  forms: the window holds every patch the tile owns, and every load from the slab lies inside it.
-/
import proofs.«212940_g32057635897708_cont_8to1_b_1299_25_alg».proof.Proof.Base
import Idealize.ShloMosaic.Lib.Decide
import Idealize.ShloMosaic.Lib.Affine

set_option synthInstance.maxSize 4096
set_option Elab.async false

namespace Cert.Proof.KI

open Cert.KernelIdeal
open Idealize.ShloMosaic

/-! ## The branch conditions -/

/-- The first chunk of trip `k` (chunk `3k`) is one the tile has. -/
theorem cond1_iff : ∀ (L : grid0.Coords) (k : Fin k0_t1_loop.trips), k0_cond1 L k = 1#1 ↔ 3 * k.val < nch L := by decide +kernel
theorem cond3_iff : ∀ (L : grid0.Coords) (k : Fin k0_t1_loop.trips), k0_cond3 L k = 1#1 ↔ 3 * k.val + 1 < nch L := by decide +kernel
theorem cond5_iff : ∀ (L : grid0.Coords) (k : Fin k0_t1_loop.trips), k0_cond5 L k = 1#1 ↔ 3 * k.val + 2 < nch L := by decide +kernel
theorem cond2_iff : ∀ (k : Fin k0_t1_loop.trips), k0_cond2 k = 1#1 ↔ 1 ≤ k.val := by decide +kernel
theorem cond4_iff : ∀ (k : Fin k0_t1_loop.trips), k0_cond4 k = 1#1 ↔ 1 ≤ k.val := by decide +kernel
theorem cond6_iff : ∀ (k : Fin k0_t1_loop.trips), k0_cond6 k = 1#1 ↔ 1 ≤ k.val := by decide +kernel
/-- Chunk 60 exists on every tile but the last. -/
theorem cond7_iff : ∀ (L : grid0.Coords), k0_cond7 L = 1#1 ↔ wid L ≠ 31 := by decide +kernel
theorem cond8_true : k0_cond8 = 1#1 := by decide +kernel
/-- Only the last tile has a tail. -/
theorem cond9_iff : ∀ (L : grid0.Coords), k0_cond9 L = 1#1 ↔ wid L = 31 := by decide +kernel

/-- The first chunk of trip `k` (chunk `3k`) is one the tile has. -/
theorem cond10_iff : ∀ (L : grid0.Coords) (k : Fin k0_t7_loop.trips), k0_cond10 L k = 1#1 ↔ 3 * k.val < nch L := by decide +kernel
theorem cond12_iff : ∀ (L : grid0.Coords) (k : Fin k0_t7_loop.trips), k0_cond12 L k = 1#1 ↔ 3 * k.val + 1 < nch L := by decide +kernel
theorem cond14_iff : ∀ (L : grid0.Coords) (k : Fin k0_t7_loop.trips), k0_cond14 L k = 1#1 ↔ 3 * k.val + 2 < nch L := by decide +kernel
theorem cond11_iff : ∀ (k : Fin k0_t7_loop.trips), k0_cond11 k = 1#1 ↔ 1 ≤ k.val := by decide +kernel
theorem cond13_iff : ∀ (k : Fin k0_t7_loop.trips), k0_cond13 k = 1#1 ↔ 1 ≤ k.val := by decide +kernel
theorem cond15_iff : ∀ (k : Fin k0_t7_loop.trips), k0_cond15 k = 1#1 ↔ 1 ≤ k.val := by decide +kernel
/-- Chunk 60 exists on every tile but the last. -/
theorem cond16_iff : ∀ (L : grid0.Coords), k0_cond16 L = 1#1 ↔ wid L ≠ 31 := by decide +kernel
theorem cond17_true : k0_cond17 = 1#1 := by decide +kernel
/-- Only the last tile has a tail. -/
theorem cond18_iff : ∀ (L : grid0.Coords), k0_cond18 L = 1#1 ↔ wid L = 31 := by decide +kernel

/-! ## The window -/

/-- Where in the flattened image a channel's window begins: the channel's offset and 512 pixels per image row. -/
theorem off1_eq : ∀ (L : grid0.Coords) (r : Fin 3), k0_off1 L (BitVec.ofNat 32 (262144 * r.val)) = ![262144 * r.val + 512 * wstart L] := by decide +kernel

/-- The window's first image row is no later than the image row of the tile's first patch, and the image rows of
    the tile's last patch end inside the window. -/
theorem window_ends : ∀ (L : grid0.Coords), wstart L ≤ 2 * (wbase L / 249) ∧ 2 * ((wbase L + nrows L - 1) / 249) + 16 ≤ wstart L + 32 := by decide +kernel

/-- The 32-row window holds the 16 image rows of every patch the tile owns. -/
theorem window_ok : ∀ (L : grid0.Coords) (row : ℕ), wbase L ≤ row → row < wbase L + nrows L →
    wstart L ≤ 2 * (row / 249) ∧ 2 * (row / 249) + 16 ≤ wstart L + 32 := by
  intro L row h₁ h₂
  have h := window_ends L
  have hlo : wbase L / 249 ≤ row / 249 := Nat.div_le_div_right h₁
  have hhi : row / 249 ≤ (wbase L + nrows L - 1) / 249 := Nat.div_le_div_right (by omega)
  omega

/-! ## Where a patch begins in the window -/

open Affine in
/-- The division by 249 the kernel does by a multiplication and two shifts, on a multiple of 32. -/
def divW (x : BitVec 32) : BitVec 32 := Scalar.shrsi (Scalar.muli (Scalar.shrui x 5#32) 67379#32) 19#32

/-- It is the quotient, for every multiple of 32 below 65536 (the patches end at 62001). -/
theorem divW_ofNat : ∀ m : Fin 2048, divW (BitVec.ofNat 32 (32 * m.val)) = BitVec.ofNat 32 (32 * m.val / 249) := by decide +kernel

theorem divW_isInt {x : BitVec 32} {m : Nat} (hm : m < 2048) (hx : Affine.IsInt x ((32 * m : Nat) : Int)) :
    Affine.IsInt (divW x) ((32 * m / 249 : Nat) : Int) := by
  have hn : x.toNat = 32 * m := Affine.nat_eq hx _ rfl
  have hx' : x = BitVec.ofNat 32 (32 * m) := by
    apply BitVec.eq_of_toNat_eq
    rw [hn, BitVec.toNat_ofNat]
    omega
  rw [hx', divW_ofNat ⟨m, hm⟩]
  exact Affine.ofNat _ ⟨rfl, by omega⟩

/-- The word the kernel computes for where a patch's first pixel lies in the window: from the tile's first patch
    `v2`, the chunk's first patch `v64`, the row of the chunk `v82`, and the channel's and the patch row's offsets. -/
def slabW (v2 v64 v82 a b : BitVec 32) : BitVec 32 :=
  let v67 := divW v64
  let v70 := Scalar.muli 2#32 v67
  let v7 := Scalar.minsi (Scalar.muli 2#32 (divW v2)) 480#32
  let v72 := Scalar.muli (Scalar.subi v70 v7) 512#32
  let v69 := Scalar.subi v64 (Scalar.muli v67 249#32)
  let v74 := Scalar.addi v72 (Scalar.muli 2#32 v69)
  let v86 := Scalar.addi v74 (Scalar.muli 2#32 v82)
  let v84 := Scalar.cmpi .sge (Scalar.addi v69 v82) 249#32
  let v88 := Scalar.addi v86 (Scalar.select v84 526#32 0#32)
  Scalar.indexCast (Scalar.addi (Scalar.addi v88 a) b)

/-- The same position over the naturals, for tile `w` and patch `n`. -/
def slabN (w n : Nat) : Nat := (2 * (n / 249) - min (2 * (32 * (61 * w) / 249)) 480) * 512 + 2 * (n % 249)

theorem slabW_isInt {v2 v64 v82 : BitVec 32} {w m j : Nat}
    (h2 : Affine.IsInt v2 ((32 * (61 * w) : Nat) : Int)) (h64 : Affine.IsInt v64 ((32 * m : Nat) : Int))
    (h82 : Affine.IsInt v82 ((j : Nat) : Int)) (r₁ : Fin 3) (r₂ : Fin 16)
    (hw : 61 * w ≤ m) (hm : m < 2048) (hj : j < 32) :
    Affine.IsInt (slabW v2 v64 v82 (BitVec.ofNat 32 (16384 * r₁.val)) (BitVec.ofNat 32 (512 * r₂.val)))
      ((slabN w (32 * m + j) + 16384 * r₁.val + 512 * r₂.val : Nat) : Int) := by
  have hr₁ := r₁.isLt
  have hr₂ := r₂.isLt
  have ha : Affine.IsInt (BitVec.ofNat 32 (16384 * r₁.val)) ((16384 * r₁.val : Nat) : Int) := Affine.ofNat _ ⟨rfl, by omega⟩
  have hb : Affine.IsInt (BitVec.ofNat 32 (512 * r₂.val)) ((512 * r₂.val : Nat) : Int) := Affine.ofNat _ ⟨rfl, by omega⟩
  have c2 : Affine.IsInt 2#32 2 := Affine.ofNat _ (by omega)
  have c480 : Affine.IsInt 480#32 480 := Affine.ofNat _ (by omega)
  have c512 : Affine.IsInt 512#32 512 := Affine.ofNat _ (by omega)
  have c249 : Affine.IsInt 249#32 249 := Affine.ofNat _ (by omega)
  have c526 : Affine.IsInt 526#32 526 := Affine.ofNat _ (by omega)
  have c0 : Affine.IsInt 0#32 0 := Affine.ofNat _ (by omega)
  -- the two quotients, as naturals the later steps treat as unknowns with their defining bounds
  obtain ⟨q, hq⟩ : ∃ q : Nat, q = 32 * m / 249 := ⟨_, rfl⟩
  obtain ⟨q₀, hq₀⟩ : ∃ q₀ : Nat, q₀ = 32 * (61 * w) / 249 := ⟨_, rfl⟩
  have h67 : Affine.IsInt (divW v64) ((q : Nat) : Int) := hq ▸ divW_isInt hm h64
  have h5 : Affine.IsInt (divW v2) ((q₀ : Nat) : Int) := hq₀ ▸ divW_isInt (by omega) h2
  have h70 : Affine.IsInt _ (2 * (q : Int)) := Affine.muli c2 h67 (by omega)
  have h6 : Affine.IsInt _ (2 * (q₀ : Int)) := Affine.muli c2 h5 (by omega)
  have h7 : Affine.IsInt _ (((min (2 * q₀) 480 : Nat)) : Int) := Affine.minsi h6 c480 (by omega)
  have h71 : Affine.IsInt _ (2 * (q : Int) - ((min (2 * q₀) 480 : Nat) : Int)) := Affine.subi h70 h7 (by omega)
  have h72 : Affine.IsInt _ ((2 * (q : Int) - ((min (2 * q₀) 480 : Nat) : Int)) * 512) := Affine.muli h71 c512 (by omega)
  have h68 : Affine.IsInt _ ((q : Int) * 249) := Affine.muli h67 c249 (by omega)
  have h69 : Affine.IsInt _ (32 * (m : Int) - (q : Int) * 249) := Affine.subi h64 h68 (by omega)
  have h73 : Affine.IsInt _ (2 * (32 * (m : Int) - (q : Int) * 249)) := Affine.muli c2 h69 (by omega)
  have h74 : Affine.IsInt _ ((2 * (q : Int) - ((min (2 * q₀) 480 : Nat) : Int)) * 512 + 2 * (32 * (m : Int) - (q : Int) * 249)) :=
    Affine.addi h72 h73 (by omega)
  have h85 : Affine.IsInt _ (2 * (j : Int)) := Affine.muli c2 h82 (by omega)
  have h86 : Affine.IsInt _ ((2 * (q : Int) - ((min (2 * q₀) 480 : Nat) : Int)) * 512 + 2 * (32 * (m : Int) - (q : Int) * 249) + 2 * (j : Int)) :=
    Affine.addi h74 h85 (by omega)
  have h83 : Affine.IsInt _ (32 * (m : Int) - (q : Int) * 249 + (j : Int)) := Affine.addi h69 h82 (by omega)
  by_cases hwrap : 249 ≤ 32 * m - q * 249 + j
  · -- the patch lies in the next row of patches: one image-row pair further, 249 patch columns back
    have h84 := Affine.sge_holds h83 c249 (by omega)
    have h87 : Affine.IsInt _ 526 := Affine.select_holds h84 c526 c0 rfl
    have h88 := Affine.addi h86 h87 ⟨rfl, by omega, by omega⟩
    have h89 := Affine.addi h88 ha ⟨rfl, by omega, by omega⟩
    have h90 := Affine.addi h89 hb ⟨rfl, by omega, by omega⟩
    refine Affine.relit (Affine.indexCast h90) ?_
    unfold slabN
    omega
  · have h84 := Affine.sge_fails h83 c249 (by omega)
    have h87 : Affine.IsInt _ 0 := Affine.select_fails h84 c526 c0 rfl
    have h88 := Affine.addi h86 h87 ⟨rfl, by omega, by omega⟩
    have h89 := Affine.addi h88 ha ⟨rfl, by omega, by omega⟩
    have h90 := Affine.addi h89 hb ⟨rfl, by omega, by omega⟩
    refine Affine.relit (Affine.indexCast h90) ?_
    unfold slabN
    omega

/-- The tile's first patch, as the kernel computes it from the tile's coordinates. -/
def wbaseW (L : grid0.Coords) : BitVec 32 :=
  Scalar.muli (Scalar.addi (Scalar.muli (BitVec.ofNat 32 (L 1).val) 2#32) (BitVec.ofNat 32 (L 0).val)) 1952#32

theorem wbaseW_isInt (L : grid0.Coords) : Affine.IsInt (wbaseW L) ((32 * (61 * wid L) : Nat) : Int) := by
  have h0 : (L 0).val < 2 := (L 0).isLt
  have h1 : (L 1).val < 16 := (L 1).isLt
  have a1 : Affine.IsInt (BitVec.ofNat 32 (L 1).val) (((L 1).val : Nat) : Int) := Affine.ofNat _ ⟨rfl, by omega⟩
  have a0 : Affine.IsInt (BitVec.ofNat 32 (L 0).val) (((L 0).val : Nat) : Int) := Affine.ofNat _ ⟨rfl, by omega⟩
  have c2 : Affine.IsInt 2#32 2 := Affine.ofNat _ (by omega)
  have c1952 : Affine.IsInt 1952#32 1952 := Affine.ofNat _ (by omega)
  have v0 := Affine.muli a1 c2 ⟨rfl, by omega, by omega⟩
  have v1 := Affine.addi v0 a0 ⟨rfl, by omega, by omega⟩
  have v2 := Affine.muli v1 c1952 ⟨rfl, by omega, by omega⟩
  refine Affine.relit v2 ?_
  unfold wid
  omega

/-- The first patch of chunk `3t + c` of the tile. -/
theorem chunkW_isInt (L : grid0.Coords) (t c : Nat) (ht : t < 20) (hc : c < 3) :
    Affine.IsInt (Scalar.addi (wbaseW L) (Scalar.muli (Scalar.addi (Scalar.addi 0#32 (Scalar.muli (Scf.iv 0#32 1#32 t) 3#32)) (BitVec.ofNat 32 c)) 32#32))
      ((32 * (61 * wid L + 3 * t + c) : Nat) : Int) := by
  have hw := wid_lt L
  have c0 : Affine.IsInt 0#32 0 := Affine.ofNat _ (by omega)
  have c1 : Affine.IsInt 1#32 1 := Affine.ofNat _ (by omega)
  have c3 : Affine.IsInt 3#32 3 := Affine.ofNat _ (by omega)
  have c32 : Affine.IsInt 32#32 32 := Affine.ofNat _ (by omega)
  have cc : Affine.IsInt (BitVec.ofNat 32 c) ((c : Nat) : Int) := Affine.ofNat _ ⟨rfl, by omega⟩
  have a13 : Affine.IsInt (Scf.iv 0#32 1#32 t) ((t : Nat) : Int) := Affine.iv c0 c1 t (by omega)
  have v48 := Affine.muli a13 c3 ⟨rfl, by omega, by omega⟩
  have v49 := Affine.addi c0 v48 ⟨rfl, by omega, by omega⟩
  have v50 := Affine.addi v49 cc ⟨rfl, by omega, by omega⟩
  have v62 := Affine.muli v50 c32 ⟨rfl, by omega, by omega⟩
  have v63 := Affine.addi (wbaseW_isInt L) v62 ⟨rfl, by omega, by omega⟩
  exact Affine.relit v63 (by omega)

/-- The first patch of chunk 60 of the tile. -/
theorem lastW_isInt (L : grid0.Coords) :
    Affine.IsInt (Scalar.addi (wbaseW L) (Scalar.muli 60#32 32#32)) ((32 * (61 * wid L + 60) : Nat) : Int) := by
  have hw := wid_lt L
  have c60 : Affine.IsInt 60#32 60 := Affine.ofNat _ (by omega)
  have c32 : Affine.IsInt 32#32 32 := Affine.ofNat _ (by omega)
  have v48 := Affine.muli c60 c32 ⟨rfl, by omega, by omega⟩
  have v49 := Affine.addi (wbaseW_isInt L) v48 ⟨rfl, by omega, by omega⟩
  exact Affine.relit v49 (by omega)

/-- The row of the chunk. -/
theorem rowW_isInt (j : Nat) (hj : j < 32) :
    Affine.IsInt (Scalar.addi 0#32 (Scalar.muli (Scf.iv 0#32 1#32 j) 1#32)) ((j : Nat) : Int) := by
  have c0 : Affine.IsInt 0#32 0 := Affine.ofNat _ (by omega)
  have c1 : Affine.IsInt 1#32 1 := Affine.ofNat _ (by omega)
  have a14 : Affine.IsInt (Scf.iv 0#32 1#32 j) ((j : Nat) : Int) := Affine.iv c0 c1 j (by omega)
  have v81 := Affine.muli a14 c1 ⟨rfl, by omega, by omega⟩
  have v82 := Affine.addi c0 v81 ⟨rfl, by omega, by omega⟩
  exact Affine.relit v82 (by omega)

/-- The window position over the definitions of the tile. -/
theorem slabN_eq (L : grid0.Coords) (n : Nat) : slabN (wid L) n = slabOff L n := by
  unfold slabN slabOff wstart wbase
  have : 32 * (61 * wid L) = 1952 * wid L := by omega
  rw [this]

theorem trips_t1 : k0_t1_loop.trips = 20 := by decide
theorem trips_t2 : k0_t2_loop.trips = 32 := by decide
theorem trips_t3 : k0_t3_loop.trips = 32 := by decide
theorem trips_t4 : k0_t4_loop.trips = 32 := by decide
theorem trips_t5 : k0_t5_loop.trips = 32 := by decide
theorem trips_t6 : k0_t6_loop.trips = 17 := by decide
theorem trips_t7 : k0_t7_loop.trips = 20 := by decide
theorem trips_t8 : k0_t8_loop.trips = 32 := by decide
theorem trips_t9 : k0_t9_loop.trips = 32 := by decide
theorem trips_t10 : k0_t10_loop.trips = 32 := by decide
theorem trips_t11 : k0_t11_loop.trips = 32 := by decide
theorem trips_t12 : k0_t12_loop.trips = 17 := by decide

/-! ### The first image's pass -/

theorem off3_eq : ∀ (L : grid0.Coords) (k : Fin k0_t1_loop.trips) (jj : Fin k0_t2_loop.trips), k0_cond1 L k = 1#1 → ∀ (r₁ : Fin 3) (r₂ : Fin 16),
    k0_off3 L k jj (BitVec.ofNat 32 (16384 * r₁.val)) (BitVec.ofNat 32 (512 * r₂.val))
      = ![slabOff L (wbase L + 96 * k.val + jj.val) + 16384 * r₁.val + 512 * r₂.val] := by
  intro L k jj _ r₁ r₂
  have hk : k.val < 20 := Nat.lt_of_lt_of_le k.isLt (Nat.le_of_eq trips_t1)
  have hj : jj.val < 32 := Nat.lt_of_lt_of_le jj.isLt (Nat.le_of_eq trips_t2)
  have hw := wid_lt L
  have h := slabW_isInt (wbaseW_isInt L) (chunkW_isInt L k.val 0 hk (by omega)) (rowW_isInt jj.val hj) r₁ r₂ (by omega) (by omega) hj
  have e : 32 * (61 * wid L + 3 * k.val + 0) + jj.val = wbase L + 96 * k.val + jj.val := by unfold wbase; omega
  rw [slabN_eq, e] at h
  exact Affine.vec_cons h rfl Affine.vec_nil

theorem off54_eq : ∀ (L : grid0.Coords) (k : Fin k0_t1_loop.trips) (jj : Fin k0_t3_loop.trips), k0_cond3 L k = 1#1 → ∀ (r₁ : Fin 3) (r₂ : Fin 16),
    k0_off54 L k jj (BitVec.ofNat 32 (16384 * r₁.val)) (BitVec.ofNat 32 (512 * r₂.val))
      = ![slabOff L (wbase L + 96 * k.val + 32 + jj.val) + 16384 * r₁.val + 512 * r₂.val] := by
  intro L k jj _ r₁ r₂
  have hk : k.val < 20 := Nat.lt_of_lt_of_le k.isLt (Nat.le_of_eq trips_t1)
  have hj : jj.val < 32 := Nat.lt_of_lt_of_le jj.isLt (Nat.le_of_eq trips_t3)
  have hw := wid_lt L
  have h := slabW_isInt (wbaseW_isInt L) (chunkW_isInt L k.val 1 hk (by omega)) (rowW_isInt jj.val hj) r₁ r₂ (by omega) (by omega) hj
  have e : 32 * (61 * wid L + 3 * k.val + 1) + jj.val = wbase L + 96 * k.val + 32 + jj.val := by unfold wbase; omega
  rw [slabN_eq, e] at h
  exact Affine.vec_cons h rfl Affine.vec_nil

theorem off105_eq : ∀ (L : grid0.Coords) (k : Fin k0_t1_loop.trips) (jj : Fin k0_t4_loop.trips), k0_cond5 L k = 1#1 → ∀ (r₁ : Fin 3) (r₂ : Fin 16),
    k0_off105 L k jj (BitVec.ofNat 32 (16384 * r₁.val)) (BitVec.ofNat 32 (512 * r₂.val))
      = ![slabOff L (wbase L + 96 * k.val + 64 + jj.val) + 16384 * r₁.val + 512 * r₂.val] := by
  intro L k jj _ r₁ r₂
  have hk : k.val < 20 := Nat.lt_of_lt_of_le k.isLt (Nat.le_of_eq trips_t1)
  have hj : jj.val < 32 := Nat.lt_of_lt_of_le jj.isLt (Nat.le_of_eq trips_t4)
  have hw := wid_lt L
  have h := slabW_isInt (wbaseW_isInt L) (chunkW_isInt L k.val 2 hk (by omega)) (rowW_isInt jj.val hj) r₁ r₂ (by omega) (by omega) hj
  have e : 32 * (61 * wid L + 3 * k.val + 2) + jj.val = wbase L + 96 * k.val + 64 + jj.val := by unfold wbase; omega
  rw [slabN_eq, e] at h
  exact Affine.vec_cons h rfl Affine.vec_nil

theorem off156_eq : ∀ (L : grid0.Coords) (jj : Fin k0_t5_loop.trips), k0_cond7 L = 1#1 → ∀ (r₁ : Fin 3) (r₂ : Fin 16),
    k0_off156 L jj (BitVec.ofNat 32 (16384 * r₁.val)) (BitVec.ofNat 32 (512 * r₂.val))
      = ![slabOff L (wbase L + 1920 + jj.val) + 16384 * r₁.val + 512 * r₂.val] := by
  intro L jj _ r₁ r₂
  have hj : jj.val < 32 := Nat.lt_of_lt_of_le jj.isLt (Nat.le_of_eq trips_t5)
  have hw := wid_lt L
  have h := slabW_isInt (wbaseW_isInt L) (lastW_isInt L) (rowW_isInt jj.val hj) r₁ r₂ (by omega) (by omega) hj
  have e : 32 * (61 * wid L + 60) + jj.val = wbase L + 1920 + jj.val := by unfold wbase; omega
  rw [slabN_eq, e] at h
  exact Affine.vec_cons h rfl Affine.vec_nil

theorem off206_eq : ∀ (L : grid0.Coords) (jj : Fin k0_t6_loop.trips), k0_cond9 L = 1#1 → ∀ (r₁ : Fin 3) (r₂ : Fin 16),
    k0_off206 L jj (BitVec.ofNat 32 (16384 * r₁.val)) (BitVec.ofNat 32 (512 * r₂.val)) = ![slabOff L (61984 + jj.val) + 16384 * r₁.val + 512 * r₂.val] := by decide +kernel

/-! ### The second image's pass -/

theorem off256_eq : ∀ (L : grid0.Coords) (k : Fin k0_t7_loop.trips) (jj : Fin k0_t8_loop.trips), k0_cond10 L k = 1#1 → ∀ (r₁ : Fin 3) (r₂ : Fin 16),
    k0_off256 L k jj (BitVec.ofNat 32 (16384 * r₁.val)) (BitVec.ofNat 32 (512 * r₂.val))
      = ![slabOff L (wbase L + 96 * k.val + jj.val) + 16384 * r₁.val + 512 * r₂.val] := by
  intro L k jj _ r₁ r₂
  have hk : k.val < 20 := Nat.lt_of_lt_of_le k.isLt (Nat.le_of_eq trips_t7)
  have hj : jj.val < 32 := Nat.lt_of_lt_of_le jj.isLt (Nat.le_of_eq trips_t8)
  have hw := wid_lt L
  have h := slabW_isInt (wbaseW_isInt L) (chunkW_isInt L k.val 0 hk (by omega)) (rowW_isInt jj.val hj) r₁ r₂ (by omega) (by omega) hj
  have e : 32 * (61 * wid L + 3 * k.val + 0) + jj.val = wbase L + 96 * k.val + jj.val := by unfold wbase; omega
  rw [slabN_eq, e] at h
  exact Affine.vec_cons h rfl Affine.vec_nil

theorem off307_eq : ∀ (L : grid0.Coords) (k : Fin k0_t7_loop.trips) (jj : Fin k0_t9_loop.trips), k0_cond12 L k = 1#1 → ∀ (r₁ : Fin 3) (r₂ : Fin 16),
    k0_off307 L k jj (BitVec.ofNat 32 (16384 * r₁.val)) (BitVec.ofNat 32 (512 * r₂.val))
      = ![slabOff L (wbase L + 96 * k.val + 32 + jj.val) + 16384 * r₁.val + 512 * r₂.val] := by
  intro L k jj _ r₁ r₂
  have hk : k.val < 20 := Nat.lt_of_lt_of_le k.isLt (Nat.le_of_eq trips_t7)
  have hj : jj.val < 32 := Nat.lt_of_lt_of_le jj.isLt (Nat.le_of_eq trips_t9)
  have hw := wid_lt L
  have h := slabW_isInt (wbaseW_isInt L) (chunkW_isInt L k.val 1 hk (by omega)) (rowW_isInt jj.val hj) r₁ r₂ (by omega) (by omega) hj
  have e : 32 * (61 * wid L + 3 * k.val + 1) + jj.val = wbase L + 96 * k.val + 32 + jj.val := by unfold wbase; omega
  rw [slabN_eq, e] at h
  exact Affine.vec_cons h rfl Affine.vec_nil

theorem off358_eq : ∀ (L : grid0.Coords) (k : Fin k0_t7_loop.trips) (jj : Fin k0_t10_loop.trips), k0_cond14 L k = 1#1 → ∀ (r₁ : Fin 3) (r₂ : Fin 16),
    k0_off358 L k jj (BitVec.ofNat 32 (16384 * r₁.val)) (BitVec.ofNat 32 (512 * r₂.val))
      = ![slabOff L (wbase L + 96 * k.val + 64 + jj.val) + 16384 * r₁.val + 512 * r₂.val] := by
  intro L k jj _ r₁ r₂
  have hk : k.val < 20 := Nat.lt_of_lt_of_le k.isLt (Nat.le_of_eq trips_t7)
  have hj : jj.val < 32 := Nat.lt_of_lt_of_le jj.isLt (Nat.le_of_eq trips_t10)
  have hw := wid_lt L
  have h := slabW_isInt (wbaseW_isInt L) (chunkW_isInt L k.val 2 hk (by omega)) (rowW_isInt jj.val hj) r₁ r₂ (by omega) (by omega) hj
  have e : 32 * (61 * wid L + 3 * k.val + 2) + jj.val = wbase L + 96 * k.val + 64 + jj.val := by unfold wbase; omega
  rw [slabN_eq, e] at h
  exact Affine.vec_cons h rfl Affine.vec_nil

theorem off409_eq : ∀ (L : grid0.Coords) (jj : Fin k0_t11_loop.trips), k0_cond16 L = 1#1 → ∀ (r₁ : Fin 3) (r₂ : Fin 16),
    k0_off409 L jj (BitVec.ofNat 32 (16384 * r₁.val)) (BitVec.ofNat 32 (512 * r₂.val))
      = ![slabOff L (wbase L + 1920 + jj.val) + 16384 * r₁.val + 512 * r₂.val] := by
  intro L jj _ r₁ r₂
  have hj : jj.val < 32 := Nat.lt_of_lt_of_le jj.isLt (Nat.le_of_eq trips_t11)
  have hw := wid_lt L
  have h := slabW_isInt (wbaseW_isInt L) (lastW_isInt L) (rowW_isInt jj.val hj) r₁ r₂ (by omega) (by omega) hj
  have e : 32 * (61 * wid L + 60) + jj.val = wbase L + 1920 + jj.val := by unfold wbase; omega
  rw [slabN_eq, e] at h
  exact Affine.vec_cons h rfl Affine.vec_nil

theorem off459_eq : ∀ (L : grid0.Coords) (jj : Fin k0_t12_loop.trips), k0_cond18 L = 1#1 → ∀ (r₁ : Fin 3) (r₂ : Fin 16),
    k0_off459 L jj (BitVec.ofNat 32 (16384 * r₁.val)) (BitVec.ofNat 32 (512 * r₂.val)) = ![slabOff L (61984 + jj.val) + 16384 * r₁.val + 512 * r₂.val] := by decide +kernel

/-! ## The slab loads stay inside the slab -/

/-- The full chunks a tile writes are patches it owns. -/
theorem nch_le (L : grid0.Coords) : 32 * nch L ≤ nrows L := by
  unfold nch nrows
  split <;> omega

/-- A patch the tile owns begins at most 16 image rows into the window, so its 16 lanes of any of the 16 patch rows of
    any channel lie inside the slab. -/
theorem slab_inb (L : grid0.Coords) (row : ℕ) (h₁ : wbase L ≤ row) (h₂ : row < wbase L + nrows L) (r₁ : Fin 3) (r₂ : Fin 16) :
    slabOff L row + 16384 * r₁.val + 512 * r₂.val + 16 ≤ 49152 := by
  obtain ⟨hlo, hhi⟩ := window_ok L row h₁ h₂
  have hr₁ := r₁.isLt
  have hr₂ := r₂.isLt
  have hm : row % 249 < 249 := Nat.mod_lt _ (by omega)
  unfold slabOff
  omega

theorem k0_off3_inb : ∀ (i : grid0.Coords) (k0_t1 : Fin k0_t1_loop.trips) (k0_t2 : Fin k0_t2_loop.trips), ∀ (k0_h1 : k0_cond1 i k0_t1 = 1#1), ∀ (r₁ : Fin 3) (r₂ : Fin 16), ∀ a, (k0_off3 i k0_t1 k0_t2 (BitVec.ofNat 32 (16384 * r₁.val)) (BitVec.ofNat 32 (512 * r₂.val))) a + S16.size a ≤ S49152.size a := by
  intro i k0_t1 k0_t2 k0_h1 r₁ r₂ a
  have hc := (cond1_iff i k0_t1).mp k0_h1
  have hj : k0_t2.val < 32 := Nat.lt_of_lt_of_le k0_t2.isLt (Nat.le_of_eq trips_t2)
  have hn := nch_le i
  have h := slab_inb i (wbase i + 96 * k0_t1.val + k0_t2.val) (by omega) (by omega) r₁ r₂
  rw [off3_eq i k0_t1 k0_t2 k0_h1 r₁ r₂]
  match a with
  | ⟨0, _⟩ => exact h

theorem k0_off54_inb : ∀ (i : grid0.Coords) (k0_t1 : Fin k0_t1_loop.trips) (k0_t3 : Fin k0_t3_loop.trips), ∀ (k0_h3 : k0_cond3 i k0_t1 = 1#1), ∀ (r₁ : Fin 3) (r₂ : Fin 16), ∀ a, (k0_off54 i k0_t1 k0_t3 (BitVec.ofNat 32 (16384 * r₁.val)) (BitVec.ofNat 32 (512 * r₂.val))) a + S16.size a ≤ S49152.size a := by
  intro i k0_t1 k0_t3 k0_h3 r₁ r₂ a
  have hc := (cond3_iff i k0_t1).mp k0_h3
  have hj : k0_t3.val < 32 := Nat.lt_of_lt_of_le k0_t3.isLt (Nat.le_of_eq trips_t3)
  have hn := nch_le i
  have h := slab_inb i (wbase i + 96 * k0_t1.val + 32 + k0_t3.val) (by omega) (by omega) r₁ r₂
  rw [off54_eq i k0_t1 k0_t3 k0_h3 r₁ r₂]
  match a with
  | ⟨0, _⟩ => exact h

theorem k0_off105_inb : ∀ (i : grid0.Coords) (k0_t1 : Fin k0_t1_loop.trips) (k0_t4 : Fin k0_t4_loop.trips), ∀ (k0_h5 : k0_cond5 i k0_t1 = 1#1), ∀ (r₁ : Fin 3) (r₂ : Fin 16), ∀ a, (k0_off105 i k0_t1 k0_t4 (BitVec.ofNat 32 (16384 * r₁.val)) (BitVec.ofNat 32 (512 * r₂.val))) a + S16.size a ≤ S49152.size a := by
  intro i k0_t1 k0_t4 k0_h5 r₁ r₂ a
  have hc := (cond5_iff i k0_t1).mp k0_h5
  have hj : k0_t4.val < 32 := Nat.lt_of_lt_of_le k0_t4.isLt (Nat.le_of_eq trips_t4)
  have hn := nch_le i
  have h := slab_inb i (wbase i + 96 * k0_t1.val + 64 + k0_t4.val) (by omega) (by omega) r₁ r₂
  rw [off105_eq i k0_t1 k0_t4 k0_h5 r₁ r₂]
  match a with
  | ⟨0, _⟩ => exact h

theorem k0_off156_inb : ∀ (i : grid0.Coords) (k0_t5 : Fin k0_t5_loop.trips), ∀ (k0_h7 : k0_cond7 i = 1#1), ∀ (r₁ : Fin 3) (r₂ : Fin 16), ∀ a, (k0_off156 i k0_t5 (BitVec.ofNat 32 (16384 * r₁.val)) (BitVec.ofNat 32 (512 * r₂.val))) a + S16.size a ≤ S49152.size a := by
  intro i k0_t5 k0_h7 r₁ r₂ a
  have hc := (cond7_iff i).mp k0_h7
  have hj : k0_t5.val < 32 := Nat.lt_of_lt_of_le k0_t5.isLt (Nat.le_of_eq trips_t5)
  have hn : nrows i = 1952 := by unfold nrows; rw [if_neg hc]
  have h := slab_inb i (wbase i + 1920 + k0_t5.val) (by omega) (by omega) r₁ r₂
  rw [off156_eq i k0_t5 k0_h7 r₁ r₂]
  match a with
  | ⟨0, _⟩ => exact h

theorem k0_off206_inb : ∀ (i : grid0.Coords) (k0_t6 : Fin k0_t6_loop.trips), ∀ (k0_h9 : k0_cond9 i = 1#1), ∀ (r₁ : Fin 3) (r₂ : Fin 16), ∀ a, (k0_off206 i k0_t6 (BitVec.ofNat 32 (16384 * r₁.val)) (BitVec.ofNat 32 (512 * r₂.val))) a + S16.size a ≤ S49152.size a := by
  intro i k0_t6 k0_h9 r₁ r₂ a
  have hc := (cond9_iff i).mp k0_h9
  have hj : k0_t6.val < 17 := Nat.lt_of_lt_of_le k0_t6.isLt (Nat.le_of_eq trips_t6)
  have hn : nrows i = 1489 := by unfold nrows; rw [if_pos hc]
  have hb : wbase i = 60512 := by unfold wbase; rw [hc]
  have h := slab_inb i (61984 + k0_t6.val) (by omega) (by omega) r₁ r₂
  rw [off206_eq i k0_t6 k0_h9 r₁ r₂]
  match a with
  | ⟨0, _⟩ => exact h

theorem k0_off256_inb : ∀ (i : grid0.Coords) (k0_t7 : Fin k0_t7_loop.trips) (k0_t8 : Fin k0_t8_loop.trips), ∀ (k0_h10 : k0_cond10 i k0_t7 = 1#1), ∀ (r₁ : Fin 3) (r₂ : Fin 16), ∀ a, (k0_off256 i k0_t7 k0_t8 (BitVec.ofNat 32 (16384 * r₁.val)) (BitVec.ofNat 32 (512 * r₂.val))) a + S16.size a ≤ S49152.size a := by
  intro i k0_t7 k0_t8 k0_h10 r₁ r₂ a
  have hc := (cond10_iff i k0_t7).mp k0_h10
  have hj : k0_t8.val < 32 := Nat.lt_of_lt_of_le k0_t8.isLt (Nat.le_of_eq trips_t8)
  have hn := nch_le i
  have h := slab_inb i (wbase i + 96 * k0_t7.val + k0_t8.val) (by omega) (by omega) r₁ r₂
  rw [off256_eq i k0_t7 k0_t8 k0_h10 r₁ r₂]
  match a with
  | ⟨0, _⟩ => exact h

theorem k0_off307_inb : ∀ (i : grid0.Coords) (k0_t7 : Fin k0_t7_loop.trips) (k0_t9 : Fin k0_t9_loop.trips), ∀ (k0_h12 : k0_cond12 i k0_t7 = 1#1), ∀ (r₁ : Fin 3) (r₂ : Fin 16), ∀ a, (k0_off307 i k0_t7 k0_t9 (BitVec.ofNat 32 (16384 * r₁.val)) (BitVec.ofNat 32 (512 * r₂.val))) a + S16.size a ≤ S49152.size a := by
  intro i k0_t7 k0_t9 k0_h12 r₁ r₂ a
  have hc := (cond12_iff i k0_t7).mp k0_h12
  have hj : k0_t9.val < 32 := Nat.lt_of_lt_of_le k0_t9.isLt (Nat.le_of_eq trips_t9)
  have hn := nch_le i
  have h := slab_inb i (wbase i + 96 * k0_t7.val + 32 + k0_t9.val) (by omega) (by omega) r₁ r₂
  rw [off307_eq i k0_t7 k0_t9 k0_h12 r₁ r₂]
  match a with
  | ⟨0, _⟩ => exact h

theorem k0_off358_inb : ∀ (i : grid0.Coords) (k0_t7 : Fin k0_t7_loop.trips) (k0_t10 : Fin k0_t10_loop.trips), ∀ (k0_h14 : k0_cond14 i k0_t7 = 1#1), ∀ (r₁ : Fin 3) (r₂ : Fin 16), ∀ a, (k0_off358 i k0_t7 k0_t10 (BitVec.ofNat 32 (16384 * r₁.val)) (BitVec.ofNat 32 (512 * r₂.val))) a + S16.size a ≤ S49152.size a := by
  intro i k0_t7 k0_t10 k0_h14 r₁ r₂ a
  have hc := (cond14_iff i k0_t7).mp k0_h14
  have hj : k0_t10.val < 32 := Nat.lt_of_lt_of_le k0_t10.isLt (Nat.le_of_eq trips_t10)
  have hn := nch_le i
  have h := slab_inb i (wbase i + 96 * k0_t7.val + 64 + k0_t10.val) (by omega) (by omega) r₁ r₂
  rw [off358_eq i k0_t7 k0_t10 k0_h14 r₁ r₂]
  match a with
  | ⟨0, _⟩ => exact h

theorem k0_off409_inb : ∀ (i : grid0.Coords) (k0_t11 : Fin k0_t11_loop.trips), ∀ (k0_h16 : k0_cond16 i = 1#1), ∀ (r₁ : Fin 3) (r₂ : Fin 16), ∀ a, (k0_off409 i k0_t11 (BitVec.ofNat 32 (16384 * r₁.val)) (BitVec.ofNat 32 (512 * r₂.val))) a + S16.size a ≤ S49152.size a := by
  intro i k0_t11 k0_h16 r₁ r₂ a
  have hc := (cond16_iff i).mp k0_h16
  have hj : k0_t11.val < 32 := Nat.lt_of_lt_of_le k0_t11.isLt (Nat.le_of_eq trips_t11)
  have hn : nrows i = 1952 := by unfold nrows; rw [if_neg hc]
  have h := slab_inb i (wbase i + 1920 + k0_t11.val) (by omega) (by omega) r₁ r₂
  rw [off409_eq i k0_t11 k0_h16 r₁ r₂]
  match a with
  | ⟨0, _⟩ => exact h

theorem k0_off459_inb : ∀ (i : grid0.Coords) (k0_t12 : Fin k0_t12_loop.trips), ∀ (k0_h18 : k0_cond18 i = 1#1), ∀ (r₁ : Fin 3) (r₂ : Fin 16), ∀ a, (k0_off459 i k0_t12 (BitVec.ofNat 32 (16384 * r₁.val)) (BitVec.ofNat 32 (512 * r₂.val))) a + S16.size a ≤ S49152.size a := by
  intro i k0_t12 k0_h18 r₁ r₂ a
  have hc := (cond18_iff i).mp k0_h18
  have hj : k0_t12.val < 17 := Nat.lt_of_lt_of_le k0_t12.isLt (Nat.le_of_eq trips_t12)
  have hn : nrows i = 1489 := by unfold nrows; rw [if_pos hc]
  have hb : wbase i = 60512 := by unfold wbase; rw [hc]
  have h := slab_inb i (61984 + k0_t12.val) (by omega) (by omega) r₁ r₂
  rw [off459_eq i k0_t12 k0_h18 r₁ r₂]
  match a with
  | ⟨0, _⟩ => exact h

end Cert.Proof.KI
-- ==== Proof.Common.lean ====
/-
  The program as the SparseCore launch sees it, the ghost state, and the arrays' names: the two flattened images
  (read-only, shared by all thirty-two tiles), the two patches matrices (each tile owns a run of consecutive rows),
  and each tile's scratch (a window of 32 image rows per channel, and three staging buffers of 32 patches).
  Tile number `2·s + c` (subcore `s`, core `c`) owns patches `[1952·(2s + c), +1952)`, the last tile the
  remaining 1489.
-/
import proofs.«212940_g32057635897708_cont_8to1_b_1299_25_alg».proof.Defs
import proofs.«212940_g32057635897708_cont_8to1_b_1299_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212940_g32057635897708_cont_8to1_b_1299_25_alg».proof.Proof.Base
import proofs.«212940_g32057635897708_cont_8to1_b_1299_25_alg».proof.Proof.FactsKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

/-! ## The arrays -/

/-- The two images as @main receives them, their flattenings, and the two results, as locations of device `d`. -/
abbrev a0Loc (d : Dev nD) : Loc nD τ sig := (SparseCore.T d).loc main_arg0
abbrev a1Loc (d : Dev nD) : Loc nD τ sig := (SparseCore.T d).loc main_arg1
abbrev x0Loc (d : Dev nD) : Loc nD τ sig := (SparseCore.T d).loc main_v0
abbrev x1Loc (d : Dev nD) : Loc nD τ sig := (SparseCore.T d).loc main_v1
abbrev o0Loc (d : Dev nD) : Loc nD τ sig := (SparseCore.T d).loc main_v2_0
abbrev o1Loc (d : Dev nD) : Loc nD τ sig := (SparseCore.T d).loc main_v2_1

/-! ## The tiles' rows -/

theorem tile_inb (L : grid0.Coords) : ∀ a, (![wbase L, 0] : Fin 2 → Nat) a + (![nrows L, 768] : Fin 2 → Nat) a ≤ S62001x768.size a := by
  have h := wid_lt L
  intro a
  match a with
  | ⟨0, _⟩ =>
    show wbase L + nrows L ≤ 62001
    unfold wbase nrows; split <;> omega
  | ⟨1, _⟩ => show 0 + 768 ≤ 768; omega

/-- The rows of the patches matrix a tile owns. -/
abbrev tileRect (L : grid0.Coords) : Rect S62001x768 := Rect.unit (s := S62001x768) ![wbase L, 0] ![nrows L, 768] (tile_inb L)
abbrev tileSet (L : grid0.Coords) : Finset S62001x768.Idx := (tileRect L).set

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's read share of an image: the core's token of the whole, then the subcore's token of that. -/
abbrev coreShare (c : Nat) : PosShare TreeShare := Transfers.shareTokN fullShare c
abbrev tileShare (c s : Nat) : PosShare TreeShare := Transfers.shareTokN (coreShare c) s

/-! ## A tile's thread, and what the launch hands it and takes back -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The patches matrix of a flattened image, as the contents of a result array. -/
def pat0 (d : Dev nD) (x : Buf (Elt F) (x0Loc d)) : Buf (Elt F) (o0Loc d) := Cert.Unfold.patchesFlat (α := Elt F .f32) x
def pat1 (d : Dev nD) (x : Buf (Elt F) (x1Loc d)) : Buf (Elt F) (o1Loc d) := Cert.Unfold.patchesFlat (α := Elt F .f32) x

section Res

local notation "𝕄" => MT nD τ sig (HIx 1) (Elt F) ℕ UU ℕ

/-- What a tile is handed: its read share of the two flattened images (at contents `x0`, `x1`) and its rows of the
    two results (at whatever they hold, `f0`, `f1`). -/
def goRes (d : Dev nD) (L : grid0.Coords) (x0 : Buf (Elt F) (x0Loc d)) (x1 : Buf (Elt F) (x1Loc d))
    (f0 : Buf (Elt F) (o0Loc d)) (f1 : Buf (Elt F) (o1Loc d)) : sProp 𝕄 :=
  iprop((x0Loc d ↦{tileShare (L 0).val (L 1).val} x0) ∗ (x1Loc d ↦{tileShare (L 0).val (L 1).val} x1)
    ∗ (o0Loc d ↦[tileSet L]{fullShare} f0) ∗ (o1Loc d ↦[tileSet L]{fullShare} f1))

/-- What it hands back: the shares unchanged, its rows of each result at the image's patches. -/
def tdRes (d : Dev nD) (L : grid0.Coords) (x0 : Buf (Elt F) (x0Loc d)) (x1 : Buf (Elt F) (x1Loc d)) : sProp 𝕄 :=
  iprop((x0Loc d ↦{tileShare (L 0).val (L 1).val} x0) ∗ (x1Loc d ↦{tileShare (L 0).val (L 1).val} x1)
    ∗ (o0Loc d ↦[tileSet L]{fullShare} pat0 d x0) ∗ (o1Loc d ↦[tileSet L]{fullShare} pat1 d x1))

end Res

end Cert.Proof.KI

end
-- ==== Proof.Chunks.lean ====
/-
  A tile's rows, cut as the task writes them: chunk `3j + p` (32 patches) goes through staging buffer `p`; buffer `p`
  carries `nIss L p` chunks in all; the last tile's remaining 17 patches go out as 16 rows and 1 row. The chunks and
  the tail pieces are pairwise disjoint and make up exactly the tile's rows.
-/
import proofs.«212940_g32057635897708_cont_8to1_b_1299_25_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- How many chunks staging buffer `p` carries: the `j` with `3j + p < nch L`. -/
def nIss (L : grid0.Coords) (p : Nat) : Nat := (nch L + 2 - p) / 3

/-- Of those, how many have been issued before trip `k` of the chunk loop. -/
def issued (L : grid0.Coords) (p k : Nat) : Nat := min k (nIss L p)

/-- The first patch of chunk `j` of buffer `p`. -/
def chunkRow (L : grid0.Coords) (p j : Nat) : Nat := wbase L + 32 * (3 * j + p)

/-- Chunk `j` of buffer `p` is one of the tile's `nch L` chunks. -/
theorem chunk_lt (L : grid0.Coords) (p j : Nat) (hj : j < nIss L p) : 3 * j + p < nch L := by
  unfold nIss at hj; omega

theorem chunk_inb (L : grid0.Coords) (p j : Nat) (hp : p < 3) (hj : j < nIss L p) :
    ∀ a, (![chunkRow L p j, 0] : Fin 2 → Nat) a + S32x768.size a ≤ S62001x768.size a := by
  have hw := wid_lt L
  have hc := chunk_lt L p j hj
  intro a
  match a with
  | ⟨0, _⟩ =>
    show chunkRow L p j + 32 ≤ 62001
    unfold nch at hc; unfold chunkRow wbase
    split at hc <;> omega
  | ⟨1, _⟩ => show 0 + 768 ≤ 768; omega

/-- The rows of chunk `j` of buffer `p` (the empty rectangle at the origin when `(p, j)` names no chunk, so that the
    family is total). -/
def chunkRect (L : grid0.Coords) (p j : Nat) : Rect S62001x768 :=
  if h : p < 3 ∧ j < nIss L p then Rect.unit (s := S62001x768) ![chunkRow L p j, 0] S32x768.size (chunk_inb L p j h.1 h.2)
  else Rect.unit (s := S62001x768) ![0, 0] ![0, 0] (by intro a; fin_cases a <;> simp)
def chunkSet (L : grid0.Coords) (p j : Nat) : Finset S62001x768.Idx := (chunkRect L p j).set

/-- The last tile's tail: patches 61984 … 61999 and patch 62000 (both empty for every other tile). -/
def tailSetA (L : grid0.Coords) : Finset S62001x768.Idx :=
  if wid L = 31 then (Rect.unit (s := S62001x768) ![61984, 0] S16x768.size inb_S62001x768_S16x768_61984_0).set else ∅
def tailSetB (L : grid0.Coords) : Finset S62001x768.Idx :=
  if wid L = 31 then (Rect.unit (s := S62001x768) ![62000, 0] S1x768.size inb_S62001x768_S1x768_62000_0).set else ∅

/-- All the chunks of one buffer. -/
def bufSet (L : grid0.Coords) (p : Nat) : Finset S62001x768.Idx := (Finset.range (nIss L p)).biUnion (chunkSet L p)

/-- A run of whole rows: membership is a condition on the row coordinate alone. -/
theorem mem_rows (off n : Nat) (size : Fin 2 → Nat) (h0 : size 0 = n) (h1 : size 1 = 768)
    (inb : ∀ a, (![off, 0] : Fin 2 → Nat) a + size a ≤ S62001x768.size a) (i : S62001x768.Idx) :
    i ∈ (Rect.unit (s := S62001x768) ![off, 0] size inb).set ↔ off ≤ (i 0).val ∧ (i 0).val < off + n := by
  have hi : (i 1).val < 768 := (i 1).isLt
  rw [Rect.mem_set_unit]
  constructor
  · intro h
    have := h 0
    rw [h0] at this
    exact this
  · intro h a
    match a with
    | ⟨0, _⟩ => show off ≤ (i 0).val ∧ (i 0).val < off + size 0; rw [h0]; exact h
    | ⟨1, _⟩ => show 0 ≤ (i 1).val ∧ (i 1).val < 0 + size 1; rw [h1]; omega

theorem mem_tileSet (L : grid0.Coords) (i : S62001x768.Idx) :
    i ∈ tileSet L ↔ wbase L ≤ (i 0).val ∧ (i 0).val < wbase L + nrows L :=
  mem_rows (wbase L) (nrows L) _ rfl rfl _ i

theorem mem_chunkSet (L : grid0.Coords) (p j : Nat) (i : S62001x768.Idx) :
    i ∈ chunkSet L p j ↔ (p < 3 ∧ j < nIss L p) ∧ chunkRow L p j ≤ (i 0).val ∧ (i 0).val < chunkRow L p j + 32 := by
  unfold chunkSet chunkRect
  by_cases h : p < 3 ∧ j < nIss L p
  · rw [dif_pos h, mem_rows (chunkRow L p j) 32 _ rfl rfl]
    exact ⟨fun h' => ⟨h, h'⟩, fun h' => h'.2⟩
  · rw [dif_neg h, Rect.mem_set_unit]
    constructor
    · intro h'
      have h2 : (i 0).val < 0 + 0 := (h' 0).2
      omega
    · intro h'; exact absurd h'.1 h

theorem mem_tailSetA (L : grid0.Coords) (i : S62001x768.Idx) :
    i ∈ tailSetA L ↔ wid L = 31 ∧ 61984 ≤ (i 0).val ∧ (i 0).val < 62000 := by
  unfold tailSetA
  by_cases h : wid L = 31
  · rw [if_pos h, mem_rows 61984 16 _ rfl rfl]
    constructor
    · intro h'; exact ⟨h, h'.1, by omega⟩
    · intro h'; exact ⟨h'.2.1, by omega⟩
  · rw [if_neg h]
    exact ⟨fun h' => absurd h' (Finset.notMem_empty _), fun h' => absurd h'.1 h⟩

theorem mem_tailSetB (L : grid0.Coords) (i : S62001x768.Idx) :
    i ∈ tailSetB L ↔ wid L = 31 ∧ (i 0).val = 62000 := by
  unfold tailSetB
  by_cases h : wid L = 31
  · rw [if_pos h, mem_rows 62000 1 _ rfl rfl]
    constructor
    · intro h'; exact ⟨h, by omega⟩
    · intro h'; omega
  · rw [if_neg h]
    exact ⟨fun h' => absurd h' (Finset.notMem_empty _), fun h' => absurd h'.1 h⟩

theorem mem_bufSet (L : grid0.Coords) (p : Nat) (i : S62001x768.Idx) :
    i ∈ bufSet L p ↔ ∃ j, j < nIss L p ∧ i ∈ chunkSet L p j := by
  unfold bufSet
  simp only [Finset.mem_biUnion, Finset.mem_range]

theorem chunks_disjoint (L : grid0.Coords) (p : Nat) :
    ∀ j ∈ Finset.range (nIss L p), ∀ j' ∈ Finset.range (nIss L p), j ≠ j' → Disjoint (chunkSet L p j) (chunkSet L p j') := by
  intro j _ j' _ hne
  rw [Finset.disjoint_left]
  intro i h h'
  rw [mem_chunkSet] at h h'
  unfold chunkRow at h h'
  omega

theorem bufs_disjoint (L : grid0.Coords) :
    ∀ p ∈ Finset.range 3, ∀ p' ∈ Finset.range 3, p ≠ p' → Disjoint (bufSet L p) (bufSet L p') := by
  intro p _ p' _ hne
  rw [Finset.disjoint_left]
  intro i h h'
  rw [mem_bufSet] at h h'
  obtain ⟨j, _, h⟩ := h
  obtain ⟨j', _, h'⟩ := h'
  rw [mem_chunkSet] at h h'
  unfold chunkRow at h h'
  omega

/-- Membership in the union of all the chunks, on the row coordinate: the row's chunk number is below `nch L`. -/
theorem mem_allChunks (L : grid0.Coords) (i : S62001x768.Idx) :
    i ∈ (Finset.range 3).biUnion (bufSet L) ↔ wbase L ≤ (i 0).val ∧ (i 0).val < wbase L + 32 * nch L := by
  simp only [Finset.mem_biUnion, Finset.mem_range, mem_bufSet, mem_chunkSet]
  constructor
  · rintro ⟨p, _, j, hj, _, h⟩
    have hc := chunk_lt L p j hj
    unfold chunkRow at h
    omega
  · intro h
    refine ⟨((i 0).val - wbase L) / 32 % 3, by omega, ((i 0).val - wbase L) / 32 / 3, ?_, ⟨by omega, ?_⟩, ?_⟩
    · unfold nIss; omega
    · unfold nIss; omega
    · unfold chunkRow; omega

theorem tile_cover (L : grid0.Coords) :
    tileSet L = (Finset.range 3).biUnion (bufSet L) ∪ (tailSetA L ∪ tailSetB L) := by
  have hw := wid_lt L
  ext i
  rw [Finset.mem_union, Finset.mem_union, mem_allChunks, mem_tailSetA, mem_tailSetB, mem_tileSet]
  unfold nrows nch wbase
  split <;> omega

theorem tail_disjoint (L : grid0.Coords) :
    Disjoint ((Finset.range 3).biUnion (bufSet L)) (tailSetA L ∪ tailSetB L) ∧ Disjoint (tailSetA L) (tailSetB L) := by
  constructor
  · rw [Finset.disjoint_left]
    intro i h h'
    rw [mem_allChunks] at h
    rw [Finset.mem_union, mem_tailSetA, mem_tailSetB] at h'
    unfold nch wbase at h
    split at h <;> omega
  · rw [Finset.disjoint_left]
    intro i h h'
    rw [mem_tailSetA] at h
    rw [mem_tailSetB] at h'
    omega

section Pts

local notation "𝕄" => MT nD τ sig (HIx 1) (Elt F) ℕ UU ℕ

/-- A points-to over a set cut into three families of pairwise disjoint pieces and two further pieces, all disjoint,
    is the separating conjunction of the pieces' points-tos. -/
theorem pointsTo_split3 {ℓ : Loc nD τ sig} {q : PosShare TreeShare} (f : Buf (Elt F) ℓ)
    (T A A' : Finset (Idx ℓ)) (B : Nat → Finset (Idx ℓ)) (C : Nat → Nat → Finset (Idx ℓ)) (n : Nat → Nat)
    (hcov : T = (Finset.range 3).biUnion B ∪ (A ∪ A'))
    (hB : ∀ p, B p = (Finset.range (n p)).biUnion (C p))
    (hdC : ∀ p, ∀ j ∈ Finset.range (n p), ∀ j' ∈ Finset.range (n p), j ≠ j' → Disjoint (C p j) (C p j'))
    (hdB : ∀ p ∈ Finset.range 3, ∀ p' ∈ Finset.range 3, p ≠ p' → Disjoint (B p) (B p'))
    (hdT : Disjoint ((Finset.range 3).biUnion B) (A ∪ A')) (hdA : Disjoint A A') :
    (ℓ ↦[T]{q} f : sProp 𝕄)
      = iprop((bigSep (Finset.range 3) fun p => bigSep (Finset.range (n p)) fun j => ℓ ↦[C p j]{q} f)
          ∗ (ℓ ↦[A]{q} f) ∗ (ℓ ↦[A']{q} f)) := by
  have hb : (bigSep (Finset.range 3) fun p => (ℓ ↦[B p]{q} f : sProp 𝕄))
      = bigSep (Finset.range 3) fun p => bigSep (Finset.range (n p)) fun j => ℓ ↦[C p j]{q} f :=
    bigSep_congr fun p _ => by rw [hB p]; exact pointsTo_biUnion (Finset.range (n p)) (C p) (hdC p)
  have hT : (ℓ ↦[(Finset.range 3).biUnion B ∪ (A ∪ A')]{q} f : sProp 𝕄)
      ⊣⊢ iprop((ℓ ↦[(Finset.range 3).biUnion B]{q} f) ∗ ℓ ↦[A ∪ A']{q} f) := pointsTo_union hdT
  have hA : (ℓ ↦[A ∪ A']{q} f : sProp 𝕄) ⊣⊢ iprop((ℓ ↦[A]{q} f) ∗ ℓ ↦[A']{q} f) := pointsTo_union hdA
  rw [hcov, BI.equiv_iff.mp ⟨hT.1, hT.2⟩, BI.equiv_iff.mp ⟨hA.1, hA.2⟩,
    pointsTo_biUnion (Finset.range 3) B hdB, hb]

/-- A tile's rows of a result array are its chunks', buffer by buffer, and its tail pieces' (an equation: it splits and it joins). -/
theorem tile_split0 (d : Dev nD) (L : grid0.Coords) (f : Buf (Elt F) (o0Loc d)) :
    (o0Loc d ↦[tileSet L]{fullShare} f : sProp 𝕄)
      = iprop((bigSep (Finset.range 3) fun p => bigSep (Finset.range (nIss L p)) fun j => o0Loc d ↦[chunkSet L p j]{fullShare} f)
          ∗ (o0Loc d ↦[tailSetA L]{fullShare} f) ∗ (o0Loc d ↦[tailSetB L]{fullShare} f)) :=
  pointsTo_split3 f (tileSet L) (tailSetA L) (tailSetB L) (bufSet L) (chunkSet L) (nIss L) (tile_cover L) (fun _ => rfl)
    (chunks_disjoint L) (bufs_disjoint L) (tail_disjoint L).1 (tail_disjoint L).2

theorem tile_split1 (d : Dev nD) (L : grid0.Coords) (f : Buf (Elt F) (o1Loc d)) :
    (o1Loc d ↦[tileSet L]{fullShare} f : sProp 𝕄)
      = iprop((bigSep (Finset.range 3) fun p => bigSep (Finset.range (nIss L p)) fun j => o1Loc d ↦[chunkSet L p j]{fullShare} f)
          ∗ (o1Loc d ↦[tailSetA L]{fullShare} f) ∗ (o1Loc d ↦[tailSetB L]{fullShare} f)) :=
  pointsTo_split3 f (tileSet L) (tailSetA L) (tailSetB L) (bufSet L) (chunkSet L) (nIss L) (tile_cover L) (fun _ => rfl)
    (chunks_disjoint L) (bufs_disjoint L) (tail_disjoint L).1 (tail_disjoint L).2

end Pts

end Cert.Proof.KI

end
-- ==== Proof.Val.lean ====
/-
  The value vocabulary of the tile's task. The slab holds, per channel, image rows `[ws, ws + 32)`; a staging buffer's
  row `r` holds patch `row0 + r`. The one identity: lane `l` of segment `(c, kh)` of patch `row = 249·i + j` is the
  slab's word at `(2i − ws)·512 + 2j + 16384·c + 512·kh + l` and the image's pixel `(c, 2i + kh, 2j + l)`, which is
  feature `256·c + 16·kh + l` of the patch.
-/
import proofs.«212940_g32057635897708_cont_8to1_b_1299_25_alg».proof.Proof.Spec

namespace Cert.Unfold

open Idealize.ShloMosaic Idealize.ShloMosaic.ValueIdx

abbrev SBuf : Shape := ⟨2, ![32, 768]⟩
abbrev SSlab : Shape := ⟨1, ![49152]⟩

/-- A flattened image read at a position (at position 0 when out of range, so that the function is total). -/
def xAt {α : Type} (x : SFlat.Idx → α) (p : Nat) : α :=
  if h : p < 786432 then x (ix1 ⟨p, h⟩) else x (ix1 ⟨0, by decide⟩)

theorem patchesFlat_eq_xAt {α : Type} (x : SFlat.Idx → α) (y : SPat.Idx) :
    patchesFlat x y = xAt x (flatPos (y 0).val (y 1).val) := by
  unfold patchesFlat srcFlat xAt
  rw [dif_pos (flatPos_lt (y 0).isLt (y 1).isLt)]

/-- The slab holds, per channel, the 32 image rows from `ws`. -/
def SlabOK {α : Type} (g : SSlab.Idx → α) (x : SFlat.Idx → α) (ws : Nat) : Prop :=
  ∀ s : Fin 49152, g (ix1 s) = xAt x (262144 * (s.val / 16384) + 512 * ws + s.val % 16384)

/-- The slab filled below position `N` only (the channels are copied in one after the other). -/
def SlabUpTo {α : Type} (g : SSlab.Idx → α) (x : SFlat.Idx → α) (ws N : Nat) : Prop :=
  ∀ s : Fin 49152, s.val < N → g (ix1 s) = xAt x (262144 * (s.val / 16384) + 512 * ws + s.val % 16384)

theorem slabOK_of_upTo {α : Type} {g : SSlab.Idx → α} {x : SFlat.Idx → α} {ws : Nat} (h : SlabUpTo g x ws 49152) :
    SlabOK g x ws := fun s => h s s.isLt

theorem slabUpTo_zero {α : Type} (g : SSlab.Idx → α) (x : SFlat.Idx → α) (ws : Nat) : SlabUpTo g x ws 0 :=
  fun _ h => absurd h (Nat.not_lt_zero _)

/-- Rows below `n` of a staging buffer hold the patches from `row0`. -/
def RowsDone {α : Type} (t : SBuf.Idx → α) (x : SFlat.Idx → α) (row0 n : Nat) : Prop :=
  ∀ (r : Fin 32) (f : Fin 768), r.val < n → t (ix2 r f) = xAt x (flatPos (row0 + r.val) f.val)

theorem rowsDone_zero {α : Type} (t : SBuf.Idx → α) (x : SFlat.Idx → α) (row0 : Nat) : RowsDone t x row0 0 :=
  fun _ _ h => absurd h (Nat.not_lt_zero _)

/-- The arithmetic of one lane. -/
theorem lane_pos (ws row c kh l : Nat) (hc : c < 3) (hkh : kh < 16) (hl : l < 16)
    (hw1 : ws ≤ 2 * (row / 249)) (hw2 : 2 * (row / 249) + 16 ≤ ws + 32) :
    let s := (2 * (row / 249) - ws) * 512 + 2 * (row % 249) + 16384 * c + 512 * kh + l
    s < 49152 ∧ 262144 * (s / 16384) + 512 * ws + s % 16384 = flatPos row (256 * c + 16 * kh + l) := by
  intro s
  have hj : row % 249 < 249 := Nat.mod_lt _ (by decide)
  have hd : 2 * (row / 249) - ws + kh ≤ 31 := by omega
  have hin : (2 * (row / 249) - ws) * 512 + 2 * (row % 249) + 512 * kh + l < 16384 := by
    have : (2 * (row / 249) - ws + kh) * 512 ≤ 31 * 512 := Nat.mul_le_mul_right _ hd
    have e : (2 * (row / 249) - ws + kh) * 512 = (2 * (row / 249) - ws) * 512 + 512 * kh := by ring
    omega
  have hs : s = 16384 * c + ((2 * (row / 249) - ws) * 512 + 2 * (row % 249) + 512 * kh + l) := by
    show (2 * (row / 249) - ws) * 512 + 2 * (row % 249) + 16384 * c + 512 * kh + l = _; omega
  have hdiv : s / 16384 = c := by rw [hs, Nat.mul_add_div (by decide : 0 < 16384), Nat.div_eq_of_lt hin, Nat.add_zero]
  have hmod : s % 16384 = (2 * (row / 249) - ws) * 512 + 2 * (row % 249) + 512 * kh + l := by
    rw [hs, Nat.mul_add_mod, Nat.mod_eq_of_lt hin]
  refine ⟨by rw [hs]; omega, ?_⟩
  rw [hdiv, hmod]
  unfold flatPos chan irow icol
  have h1 : (256 * c + 16 * kh + l) / 256 = c := by omega
  have h2 : (256 * c + 16 * kh + l) % 256 / 16 = kh := by omega
  have h3 : (256 * c + 16 * kh + l) % 16 = l := by omega
  rw [h1, h2, h3]
  have e : (2 * (row / 249) - ws) * 512 = 512 * (2 * (row / 249)) - 512 * ws := by
    rw [Nat.sub_mul, Nat.mul_comm, Nat.mul_comm ws]
  have : 512 * ws ≤ 512 * (2 * (row / 249)) := Nat.mul_le_mul_left _ hw1
  omega

/-- The slab's word for a lane is the patch's feature. -/
theorem slab_lane {α : Type} (g : SSlab.Idx → α) (x : SFlat.Idx → α) (ws : Nat) (h : SlabOK g x ws)
    (row c kh l : Nat) (hc : c < 3) (hkh : kh < 16) (hl : l < 16)
    (hw1 : ws ≤ 2 * (row / 249)) (hw2 : 2 * (row / 249) + 16 ≤ ws + 32)
    (hs : (2 * (row / 249) - ws) * 512 + 2 * (row % 249) + 16384 * c + 512 * kh + l < 49152) :
    g (ix1 ⟨(2 * (row / 249) - ws) * 512 + 2 * (row % 249) + 16384 * c + 512 * kh + l, hs⟩)
      = xAt x (flatPos row (256 * c + 16 * kh + l)) := by
  rw [h ⟨_, hs⟩]
  exact congrArg (xAt x) (lane_pos ws row c kh l hc hkh hl hw1 hw2).2

end Cert.Unfold
-- ==== Proof.Inv.lean ====
/-
  The invariants of the tile's loops.
  A row loop (32 patches into one staging buffer): the slab holds the image window; rows below the trip of the
  buffer hold the patches from `row0`.
  The chunk loop, per staging buffer `p`: the chunks it has issued and seen land hold the patches; the last one it
  issued is in flight on the buffer's semaphore (the flight delivers the chunk's rows at the landed contents and the
  buffer back); the chunks it has not reached hold what they held.
-/
import proofs.«212940_g32057635897708_cont_8to1_b_1299_25_alg».proof.Proof.Common
import proofs.«212940_g32057635897708_cont_8to1_b_1299_25_alg».proof.Proof.Chunks
import proofs.«212940_g32057635897708_cont_8to1_b_1299_25_alg».proof.Proof.Val

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)

/-- The tile's DMA semaphore number `k`. -/
abbrev dsem (k : Nat) (hk : k < 13 := by decide) : DmaSem sig := ⟨k, hk⟩

/-- The slab at the window of the flattened image `x`, filled below position `N`. -/
def slabInv (x : Cert.Unfold.SFlat.Idx → Elt F .f32) (N : Nat) : sProp 𝕄 :=
  iprop(∃ g : Buf (Elt F) ((slabV).view.loc (VT d L)), ⌜SlabUpTo (α := Elt F .f32) ((slabV).view.read (Elt F) g) x (wstart L) N⌝
    ∗ (slabV).view.loc (VT d L) ↦[(slabV).view.set]{fullShare} g)

/-- The first row of chunk `(p, j)`, clamped into the array so that the rectangle below is total. -/
def chunkRowC (p j : Nat) : Nat := min (chunkRow L p j) 61969

theorem chunkC_inb (p j : Nat) : ∀ a, (![chunkRowC L p j, 0] : Fin 2 → Nat) a + S32x768.size a ≤ S62001x768.size a := by
  have h : chunkRowC L p j ≤ 61969 := Nat.min_le_right _ _
  intro a
  match a with
  | ⟨0, _⟩ => show chunkRowC L p j + 32 ≤ 62001; omega
  | ⟨1, _⟩ => show 0 + 768 ≤ 768; omega

/-- Chunk `(p, j)` of a result array, as a memref: what the task copies staging buffer `p` into. -/
abbrev chunkMem (oV : Memref sig .scVector .hbm S62001x768 .f32) (p j : Nat) : Memref sig .scVector .hbm S32x768 .f32 :=
  oV.slice (Rect.unit (s := S62001x768) ![chunkRowC L p j, 0] S32x768.size (chunkC_inb L p j)) (fun _ => rfl)

/-! ### Staging buffer 0 -/

/-- Rows below `n` of staging buffer 0 hold the patches of `x` from `row0`. -/
def bufRows0 (x : Cert.Unfold.SFlat.Idx → Elt F .f32) (row0 n : Nat) : sProp 𝕄 :=
  iprop(∃ t : Buf (Elt F) ((b0V).view.loc (VT d L)), ⌜RowsDone (α := Elt F .f32) ((b0V).view.read (Elt F) t) x row0 n⌝
    ∗ (b0V).view.loc (VT d L) ↦[(b0V).view.set]{fullShare} t)

/-- The invariant of a row loop filling staging buffer 0, before trip `jj`. -/
def rowInv0 (x : Cert.Unfold.SFlat.Idx → Elt F .f32) (row0 : Nat) (jj : Nat) (_ : PUnit) : sProp 𝕄 :=
  iprop(slabInv d L x 49152 ∗ bufRows0 d L x row0 jj)

/-- Staging buffer 0 at rest: held, whatever it holds; its semaphore at zero. -/
def bufIdle0 : sProp 𝕄 :=
  iprop((∃ t : Buf (Elt F) ((b0V).view.loc (VT d L)), (b0V).view.loc (VT d L) ↦[(b0V).view.set]{fullShare} t)
    ∗ semVal (VT d L, SemLoc.dma (dsem 0)) 0)

/-- Staging buffer 0 copying chunk `(0, j)` of result 0 out: the transfer in flight on its semaphore delivers the chunk's
    rows at the buffer's contents (which are the patches) over what they held, and the buffer back. -/
def bufFlying0_0 (x : Buf (Elt F) (x0Loc d)) (f : Buf (Elt F) (o0Loc d)) (j : Nat) : sProp 𝕄 :=
  iprop(∃ t : Buf (Elt F) ((b0V).view.loc (VT d L)), ⌜RowsDone (α := Elt F .f32) ((b0V).view.read (Elt F) t) x (chunkRow L 0 j) 32⌝
    ∗ Transfers.Flight (countersEmb (U := UU)) (VT d L) (.dma (dsem 0)) (none : HIx 1)
        ((chunkMem L o0V 0 j).view.amount (SemLoc.dma (sig := sig) (dsem 0)))
        iprop(((chunkMem L o0V 0 j).view.loc (VT d L) ↦[(chunkMem L o0V 0 j).view.set]{fullShare}
                (chunkMem L o0V 0 j).view.writes (Elt F) f [⟨Rect.whole S32x768, ReadAs.same.apply ((b0V).view.read (Elt F) t)⟩])
              ∗ ((b0V).view.loc (VT d L) ↦[(b0V).view.set]{fullShare} t)))

/-- Staging buffer 0 before trip `k` of the chunk loop of the pass that writes result 0 (its rows holding `f` at the start)
    from the flattened image `x`: its landed chunks hold the patches, its last issued chunk is in flight, the chunks to come hold `f`. -/
def bufState0_0 (x : Buf (Elt F) (x0Loc d)) (f : Buf (Elt F) (o0Loc d)) (k : Nat) : sProp 𝕄 :=
  iprop((bigSep (Finset.range (issued L 0 k - 1)) fun j => o0Loc d ↦[chunkSet L 0 j]{fullShare} pat0 d x)
    ∗ (bigSep (Finset.Ico (issued L 0 k) (nIss L 0)) fun j => o0Loc d ↦[chunkSet L 0 j]{fullShare} f)
    ∗ (if issued L 0 k = 0 then bufIdle0 d L else bufFlying0_0 d L x f (issued L 0 k - 1)))

/-- Staging buffer 0 copying chunk `(0, j)` of result 1 out: the transfer in flight on its semaphore delivers the chunk's
    rows at the buffer's contents (which are the patches) over what they held, and the buffer back. -/
def bufFlying1_0 (x : Buf (Elt F) (x1Loc d)) (f : Buf (Elt F) (o1Loc d)) (j : Nat) : sProp 𝕄 :=
  iprop(∃ t : Buf (Elt F) ((b0V).view.loc (VT d L)), ⌜RowsDone (α := Elt F .f32) ((b0V).view.read (Elt F) t) x (chunkRow L 0 j) 32⌝
    ∗ Transfers.Flight (countersEmb (U := UU)) (VT d L) (.dma (dsem 0)) (none : HIx 1)
        ((chunkMem L o1V 0 j).view.amount (SemLoc.dma (sig := sig) (dsem 0)))
        iprop(((chunkMem L o1V 0 j).view.loc (VT d L) ↦[(chunkMem L o1V 0 j).view.set]{fullShare}
                (chunkMem L o1V 0 j).view.writes (Elt F) f [⟨Rect.whole S32x768, ReadAs.same.apply ((b0V).view.read (Elt F) t)⟩])
              ∗ ((b0V).view.loc (VT d L) ↦[(b0V).view.set]{fullShare} t)))

/-- Staging buffer 0 before trip `k` of the chunk loop of the pass that writes result 1 (its rows holding `f` at the start)
    from the flattened image `x`: its landed chunks hold the patches, its last issued chunk is in flight, the chunks to come hold `f`. -/
def bufState1_0 (x : Buf (Elt F) (x1Loc d)) (f : Buf (Elt F) (o1Loc d)) (k : Nat) : sProp 𝕄 :=
  iprop((bigSep (Finset.range (issued L 0 k - 1)) fun j => o1Loc d ↦[chunkSet L 0 j]{fullShare} pat1 d x)
    ∗ (bigSep (Finset.Ico (issued L 0 k) (nIss L 0)) fun j => o1Loc d ↦[chunkSet L 0 j]{fullShare} f)
    ∗ (if issued L 0 k = 0 then bufIdle0 d L else bufFlying1_0 d L x f (issued L 0 k - 1)))

/-! ### Staging buffer 1 -/

/-- Rows below `n` of staging buffer 1 hold the patches of `x` from `row0`. -/
def bufRows1 (x : Cert.Unfold.SFlat.Idx → Elt F .f32) (row0 n : Nat) : sProp 𝕄 :=
  iprop(∃ t : Buf (Elt F) ((b1V).view.loc (VT d L)), ⌜RowsDone (α := Elt F .f32) ((b1V).view.read (Elt F) t) x row0 n⌝
    ∗ (b1V).view.loc (VT d L) ↦[(b1V).view.set]{fullShare} t)

/-- The invariant of a row loop filling staging buffer 1, before trip `jj`. -/
def rowInv1 (x : Cert.Unfold.SFlat.Idx → Elt F .f32) (row0 : Nat) (jj : Nat) (_ : PUnit) : sProp 𝕄 :=
  iprop(slabInv d L x 49152 ∗ bufRows1 d L x row0 jj)

/-- Staging buffer 1 at rest: held, whatever it holds; its semaphore at zero. -/
def bufIdle1 : sProp 𝕄 :=
  iprop((∃ t : Buf (Elt F) ((b1V).view.loc (VT d L)), (b1V).view.loc (VT d L) ↦[(b1V).view.set]{fullShare} t)
    ∗ semVal (VT d L, SemLoc.dma (dsem 1)) 0)

/-- Staging buffer 1 copying chunk `(1, j)` of result 0 out: the transfer in flight on its semaphore delivers the chunk's
    rows at the buffer's contents (which are the patches) over what they held, and the buffer back. -/
def bufFlying0_1 (x : Buf (Elt F) (x0Loc d)) (f : Buf (Elt F) (o0Loc d)) (j : Nat) : sProp 𝕄 :=
  iprop(∃ t : Buf (Elt F) ((b1V).view.loc (VT d L)), ⌜RowsDone (α := Elt F .f32) ((b1V).view.read (Elt F) t) x (chunkRow L 1 j) 32⌝
    ∗ Transfers.Flight (countersEmb (U := UU)) (VT d L) (.dma (dsem 1)) (none : HIx 1)
        ((chunkMem L o0V 1 j).view.amount (SemLoc.dma (sig := sig) (dsem 1)))
        iprop(((chunkMem L o0V 1 j).view.loc (VT d L) ↦[(chunkMem L o0V 1 j).view.set]{fullShare}
                (chunkMem L o0V 1 j).view.writes (Elt F) f [⟨Rect.whole S32x768, ReadAs.same.apply ((b1V).view.read (Elt F) t)⟩])
              ∗ ((b1V).view.loc (VT d L) ↦[(b1V).view.set]{fullShare} t)))

/-- Staging buffer 1 before trip `k` of the chunk loop of the pass that writes result 0 (its rows holding `f` at the start)
    from the flattened image `x`: its landed chunks hold the patches, its last issued chunk is in flight, the chunks to come hold `f`. -/
def bufState0_1 (x : Buf (Elt F) (x0Loc d)) (f : Buf (Elt F) (o0Loc d)) (k : Nat) : sProp 𝕄 :=
  iprop((bigSep (Finset.range (issued L 1 k - 1)) fun j => o0Loc d ↦[chunkSet L 1 j]{fullShare} pat0 d x)
    ∗ (bigSep (Finset.Ico (issued L 1 k) (nIss L 1)) fun j => o0Loc d ↦[chunkSet L 1 j]{fullShare} f)
    ∗ (if issued L 1 k = 0 then bufIdle1 d L else bufFlying0_1 d L x f (issued L 1 k - 1)))

/-- Staging buffer 1 copying chunk `(1, j)` of result 1 out: the transfer in flight on its semaphore delivers the chunk's
    rows at the buffer's contents (which are the patches) over what they held, and the buffer back. -/
def bufFlying1_1 (x : Buf (Elt F) (x1Loc d)) (f : Buf (Elt F) (o1Loc d)) (j : Nat) : sProp 𝕄 :=
  iprop(∃ t : Buf (Elt F) ((b1V).view.loc (VT d L)), ⌜RowsDone (α := Elt F .f32) ((b1V).view.read (Elt F) t) x (chunkRow L 1 j) 32⌝
    ∗ Transfers.Flight (countersEmb (U := UU)) (VT d L) (.dma (dsem 1)) (none : HIx 1)
        ((chunkMem L o1V 1 j).view.amount (SemLoc.dma (sig := sig) (dsem 1)))
        iprop(((chunkMem L o1V 1 j).view.loc (VT d L) ↦[(chunkMem L o1V 1 j).view.set]{fullShare}
                (chunkMem L o1V 1 j).view.writes (Elt F) f [⟨Rect.whole S32x768, ReadAs.same.apply ((b1V).view.read (Elt F) t)⟩])
              ∗ ((b1V).view.loc (VT d L) ↦[(b1V).view.set]{fullShare} t)))

/-- Staging buffer 1 before trip `k` of the chunk loop of the pass that writes result 1 (its rows holding `f` at the start)
    from the flattened image `x`: its landed chunks hold the patches, its last issued chunk is in flight, the chunks to come hold `f`. -/
def bufState1_1 (x : Buf (Elt F) (x1Loc d)) (f : Buf (Elt F) (o1Loc d)) (k : Nat) : sProp 𝕄 :=
  iprop((bigSep (Finset.range (issued L 1 k - 1)) fun j => o1Loc d ↦[chunkSet L 1 j]{fullShare} pat1 d x)
    ∗ (bigSep (Finset.Ico (issued L 1 k) (nIss L 1)) fun j => o1Loc d ↦[chunkSet L 1 j]{fullShare} f)
    ∗ (if issued L 1 k = 0 then bufIdle1 d L else bufFlying1_1 d L x f (issued L 1 k - 1)))

/-! ### Staging buffer 2 -/

/-- Rows below `n` of staging buffer 2 hold the patches of `x` from `row0`. -/
def bufRows2 (x : Cert.Unfold.SFlat.Idx → Elt F .f32) (row0 n : Nat) : sProp 𝕄 :=
  iprop(∃ t : Buf (Elt F) ((b2V).view.loc (VT d L)), ⌜RowsDone (α := Elt F .f32) ((b2V).view.read (Elt F) t) x row0 n⌝
    ∗ (b2V).view.loc (VT d L) ↦[(b2V).view.set]{fullShare} t)

/-- The invariant of a row loop filling staging buffer 2, before trip `jj`. -/
def rowInv2 (x : Cert.Unfold.SFlat.Idx → Elt F .f32) (row0 : Nat) (jj : Nat) (_ : PUnit) : sProp 𝕄 :=
  iprop(slabInv d L x 49152 ∗ bufRows2 d L x row0 jj)

/-- Staging buffer 2 at rest: held, whatever it holds; its semaphore at zero. -/
def bufIdle2 : sProp 𝕄 :=
  iprop((∃ t : Buf (Elt F) ((b2V).view.loc (VT d L)), (b2V).view.loc (VT d L) ↦[(b2V).view.set]{fullShare} t)
    ∗ semVal (VT d L, SemLoc.dma (dsem 2)) 0)

/-- Staging buffer 2 copying chunk `(2, j)` of result 0 out: the transfer in flight on its semaphore delivers the chunk's
    rows at the buffer's contents (which are the patches) over what they held, and the buffer back. -/
def bufFlying0_2 (x : Buf (Elt F) (x0Loc d)) (f : Buf (Elt F) (o0Loc d)) (j : Nat) : sProp 𝕄 :=
  iprop(∃ t : Buf (Elt F) ((b2V).view.loc (VT d L)), ⌜RowsDone (α := Elt F .f32) ((b2V).view.read (Elt F) t) x (chunkRow L 2 j) 32⌝
    ∗ Transfers.Flight (countersEmb (U := UU)) (VT d L) (.dma (dsem 2)) (none : HIx 1)
        ((chunkMem L o0V 2 j).view.amount (SemLoc.dma (sig := sig) (dsem 2)))
        iprop(((chunkMem L o0V 2 j).view.loc (VT d L) ↦[(chunkMem L o0V 2 j).view.set]{fullShare}
                (chunkMem L o0V 2 j).view.writes (Elt F) f [⟨Rect.whole S32x768, ReadAs.same.apply ((b2V).view.read (Elt F) t)⟩])
              ∗ ((b2V).view.loc (VT d L) ↦[(b2V).view.set]{fullShare} t)))

/-- Staging buffer 2 before trip `k` of the chunk loop of the pass that writes result 0 (its rows holding `f` at the start)
    from the flattened image `x`: its landed chunks hold the patches, its last issued chunk is in flight, the chunks to come hold `f`. -/
def bufState0_2 (x : Buf (Elt F) (x0Loc d)) (f : Buf (Elt F) (o0Loc d)) (k : Nat) : sProp 𝕄 :=
  iprop((bigSep (Finset.range (issued L 2 k - 1)) fun j => o0Loc d ↦[chunkSet L 2 j]{fullShare} pat0 d x)
    ∗ (bigSep (Finset.Ico (issued L 2 k) (nIss L 2)) fun j => o0Loc d ↦[chunkSet L 2 j]{fullShare} f)
    ∗ (if issued L 2 k = 0 then bufIdle2 d L else bufFlying0_2 d L x f (issued L 2 k - 1)))

/-- Staging buffer 2 copying chunk `(2, j)` of result 1 out: the transfer in flight on its semaphore delivers the chunk's
    rows at the buffer's contents (which are the patches) over what they held, and the buffer back. -/
def bufFlying1_2 (x : Buf (Elt F) (x1Loc d)) (f : Buf (Elt F) (o1Loc d)) (j : Nat) : sProp 𝕄 :=
  iprop(∃ t : Buf (Elt F) ((b2V).view.loc (VT d L)), ⌜RowsDone (α := Elt F .f32) ((b2V).view.read (Elt F) t) x (chunkRow L 2 j) 32⌝
    ∗ Transfers.Flight (countersEmb (U := UU)) (VT d L) (.dma (dsem 2)) (none : HIx 1)
        ((chunkMem L o1V 2 j).view.amount (SemLoc.dma (sig := sig) (dsem 2)))
        iprop(((chunkMem L o1V 2 j).view.loc (VT d L) ↦[(chunkMem L o1V 2 j).view.set]{fullShare}
                (chunkMem L o1V 2 j).view.writes (Elt F) f [⟨Rect.whole S32x768, ReadAs.same.apply ((b2V).view.read (Elt F) t)⟩])
              ∗ ((b2V).view.loc (VT d L) ↦[(b2V).view.set]{fullShare} t)))

/-- Staging buffer 2 before trip `k` of the chunk loop of the pass that writes result 1 (its rows holding `f` at the start)
    from the flattened image `x`: its landed chunks hold the patches, its last issued chunk is in flight, the chunks to come hold `f`. -/
def bufState1_2 (x : Buf (Elt F) (x1Loc d)) (f : Buf (Elt F) (o1Loc d)) (k : Nat) : sProp 𝕄 :=
  iprop((bigSep (Finset.range (issued L 2 k - 1)) fun j => o1Loc d ↦[chunkSet L 2 j]{fullShare} pat1 d x)
    ∗ (bigSep (Finset.Ico (issued L 2 k) (nIss L 2)) fun j => o1Loc d ↦[chunkSet L 2 j]{fullShare} f)
    ∗ (if issued L 2 k = 0 then bufIdle2 d L else bufFlying1_2 d L x f (issued L 2 k - 1)))

end Cert.Proof.KI

end
-- ==== Proof.Book.lean ====
/-
  The chunk loop's book-keeping.  Per staging buffer the loop keeps the chunks that have landed as a separating
  conjunction over an initial segment of the naturals and the chunks not yet touched as one over an interval: the
  steps that move one chunk from the second to the first.  And the spelling equations: each destination the program
  slices out of a result array (32 rows at an offset it computes from the tile's coordinates and the trip; the last
  tile's 16 rows and 1 row) is, as a set of elements, the chunk or the tail piece of that name.
-/
import proofs.«212940_g32057635897708_cont_8to1_b_1299_25_alg».proof.Proof.Chunks
import proofs.«212940_g32057635897708_cont_8to1_b_1299_25_alg».proof.Proof.Arith

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)

/-! ## Landed and untouched chunks -/

/-- A run of naturals loses its first member. -/
theorem Ico_eq_insert {k n : Nat} (h : k < n) : Finset.Ico k n = insert k (Finset.Ico (k + 1) n) := by
  ext x; simp only [Finset.mem_Ico, Finset.mem_insert]; omega

/-- One more landed: the conjunction over `range k` with the `k`-th is the conjunction over `range (k + 1)`. -/
theorem done_step (Φ : ℕ → sProp 𝕄) (k : Nat) :
    iprop(bigSep (Finset.range k) Φ ∗ Φ k) = bigSep (Finset.range (k + 1)) Φ := by
  rw [Finset.range_add_one, bigSep_insert Finset.notMem_range_self]
  exact Idealize.SL.BI.Entails.antisymm Idealize.SL.BI.sep_comm Idealize.SL.BI.sep_comm

/-- One fewer to do: the conjunction over `[k, n)` gives up its `k`-th. -/
theorem todo_step (Φ : ℕ → sProp 𝕄) {k n : Nat} (h : k < n) :
    bigSep (Finset.Ico k n) Φ = iprop(Φ k ∗ bigSep (Finset.Ico (k + 1) n) Φ) := by
  rw [Ico_eq_insert h, bigSep_insert (by simp only [Finset.mem_Ico]; omega)]
  rfl

theorem todo_all (Φ : ℕ → sProp 𝕄) (n : Nat) : bigSep (Finset.range n) Φ = bigSep (Finset.Ico 0 n) Φ := by
  rw [Finset.range_eq_Ico]

theorem todo_none (Φ : ℕ → sProp 𝕄) (n : Nat) : bigSep (Finset.Ico n n) Φ = iprop(emp) := by
  rw [Finset.Ico_self, bigSep_empty]
  rfl

/-! ## The program's slices are the chunks -/

/-- The elements of a slice of a whole result array are the rectangle's. -/
theorem set_o0_slice (R : Rect S62001x768) (hR : ∀ a, R.stride a = 1) : ((o0V).slice R hR).view.set = R.set := by
  show ((View.whole (main_v2_0_scv : Ref sig .scVector)).slice R).set = R.set
  exact View.set_slice_whole (main_v2_0_scv : Ref sig .scVector) R
theorem set_o1_slice (R : Rect S62001x768) (hR : ∀ a, R.stride a = 1) : ((o1V).slice R hR).view.set = R.set := by
  show ((View.whole (main_v2_1_scv : Ref sig .scVector)).slice R).set = R.set
  exact View.set_slice_whole (main_v2_1_scv : Ref sig .scVector) R

/-- A tile's points-to through a slice of a result array, named by the slice's element set. -/
theorem pts_o0 (d : Dev nD) (L : grid0.Coords) (R : Rect S62001x768) (hR : ∀ a, R.stride a = 1) (I : Finset S62001x768.Idx)
    (hI : R.set = I) (f : Buf (Elt F) (o0Loc d)) :
    ((((o0V).slice R hR).view.loc (VT d L) ↦[((o0V).slice R hR).view.set]{fullShare} f) : sProp 𝕄)
      = o0Loc d ↦[I]{fullShare} f :=
  congrArg (fun J => (o0Loc d ↦[J]{fullShare} f : sProp 𝕄)) ((set_o0_slice R hR).trans hI)
theorem pts_o1 (d : Dev nD) (L : grid0.Coords) (R : Rect S62001x768) (hR : ∀ a, R.stride a = 1) (I : Finset S62001x768.Idx)
    (hI : R.set = I) (f : Buf (Elt F) (o1Loc d)) :
    ((((o1V).slice R hR).view.loc (VT d L) ↦[((o1V).slice R hR).view.set]{fullShare} f) : sProp 𝕄)
      = o1Loc d ↦[I]{fullShare} f :=
  congrArg (fun J => (o1Loc d ↦[J]{fullShare} f : sProp 𝕄)) ((set_o1_slice R hR).trans hI)

/-- 32 whole rows from the first row of chunk `j` of buffer `p` are that chunk. -/
theorem unit_set_chunk (L : grid0.Coords) (p j : Nat) (hp : p < 3) (hj : j < nIss L p) (off : Fin 2 → Nat)
    (inb : ∀ a, off a + S32x768.size a ≤ S62001x768.size a) (hoff : off = ![chunkRow L p j, 0]) :
    (Rect.unit (s := S62001x768) off S32x768.size inb).set = chunkSet L p j := by
  subst hoff
  unfold chunkSet chunkRect
  rw [dif_pos ⟨hp, hj⟩]

/-- Chunk number `3j + p` below `nch L` is chunk `j` of buffer `p`. -/
theorem nIss_of_lt (L : grid0.Coords) (p j : Nat) (h : 3 * j + p < nch L) : j < nIss L p := by
  unfold nIss; omega

/-- The program's spelling of a chunk's first row, from the tile's two coordinates. -/
theorem row_eq (L : grid0.Coords) (p j r : Nat) (h : r = 3904 * (L 1).val + 1952 * (L 0).val + 96 * j + 32 * p) :
    (![r, 0] : Fin 2 → Nat) = ![chunkRow L p j, 0] := by
  have e : r = chunkRow L p j := by unfold chunkRow wbase wid; omega
  rw [e]

/-! ### The first result's chunks, buffer by buffer; then the second's -/

theorem pts_chunk0_p0 (d : Dev nD) (L : grid0.Coords) (k : Fin k0_t1_loop.trips) (h : k0_cond1 L k = 1#1) (f : Buf (Elt F) (o0Loc d)) :
    ((((o0V).slice (Rect.unit (s := S62001x768) (k0_off52 L k) S32x768.size (k0_off52_inb L k h)) (fun _ => rfl)).view.loc (VT d L)
        ↦[((o0V).slice (Rect.unit (s := S62001x768) (k0_off52 L k) S32x768.size (k0_off52_inb L k h)) (fun _ => rfl)).view.set]{fullShare} f) : sProp 𝕄)
      = o0Loc d ↦[chunkSet L 0 k.val]{fullShare} f :=
  pts_o0 d L _ _ _ (unit_set_chunk L 0 k.val (by omega) (nIss_of_lt L 0 k.val (by have := (cond1_iff L k).mp h; omega)) _ _
    (by rw [k0_off52_eq]; exact row_eq L 0 k.val _ (by omega))) f

theorem pts_chunk0_p1 (d : Dev nD) (L : grid0.Coords) (k : Fin k0_t1_loop.trips) (h : k0_cond3 L k = 1#1) (f : Buf (Elt F) (o0Loc d)) :
    ((((o0V).slice (Rect.unit (s := S62001x768) (k0_off103 L k) S32x768.size (k0_off103_inb L k h)) (fun _ => rfl)).view.loc (VT d L)
        ↦[((o0V).slice (Rect.unit (s := S62001x768) (k0_off103 L k) S32x768.size (k0_off103_inb L k h)) (fun _ => rfl)).view.set]{fullShare} f) : sProp 𝕄)
      = o0Loc d ↦[chunkSet L 1 k.val]{fullShare} f :=
  pts_o0 d L _ _ _ (unit_set_chunk L 1 k.val (by omega) (nIss_of_lt L 1 k.val (by have := (cond3_iff L k).mp h; omega)) _ _
    (by rw [k0_off103_eq]; exact row_eq L 1 k.val _ (by omega))) f

theorem pts_chunk0_p2 (d : Dev nD) (L : grid0.Coords) (k : Fin k0_t1_loop.trips) (h : k0_cond5 L k = 1#1) (f : Buf (Elt F) (o0Loc d)) :
    ((((o0V).slice (Rect.unit (s := S62001x768) (k0_off154 L k) S32x768.size (k0_off154_inb L k h)) (fun _ => rfl)).view.loc (VT d L)
        ↦[((o0V).slice (Rect.unit (s := S62001x768) (k0_off154 L k) S32x768.size (k0_off154_inb L k h)) (fun _ => rfl)).view.set]{fullShare} f) : sProp 𝕄)
      = o0Loc d ↦[chunkSet L 2 k.val]{fullShare} f :=
  pts_o0 d L _ _ _ (unit_set_chunk L 2 k.val (by omega) (nIss_of_lt L 2 k.val (by have := (cond5_iff L k).mp h; omega)) _ _
    (by rw [k0_off154_eq]; exact row_eq L 2 k.val _ (by omega))) f

theorem pts_chunk1_p0 (d : Dev nD) (L : grid0.Coords) (k : Fin k0_t7_loop.trips) (h : k0_cond10 L k = 1#1) (f : Buf (Elt F) (o1Loc d)) :
    ((((o1V).slice (Rect.unit (s := S62001x768) (k0_off305 L k) S32x768.size (k0_off305_inb L k h)) (fun _ => rfl)).view.loc (VT d L)
        ↦[((o1V).slice (Rect.unit (s := S62001x768) (k0_off305 L k) S32x768.size (k0_off305_inb L k h)) (fun _ => rfl)).view.set]{fullShare} f) : sProp 𝕄)
      = o1Loc d ↦[chunkSet L 0 k.val]{fullShare} f :=
  pts_o1 d L _ _ _ (unit_set_chunk L 0 k.val (by omega) (nIss_of_lt L 0 k.val (by have := (cond10_iff L k).mp h; omega)) _ _
    (by rw [k0_off305_eq]; exact row_eq L 0 k.val _ (by omega))) f

theorem pts_chunk1_p1 (d : Dev nD) (L : grid0.Coords) (k : Fin k0_t7_loop.trips) (h : k0_cond12 L k = 1#1) (f : Buf (Elt F) (o1Loc d)) :
    ((((o1V).slice (Rect.unit (s := S62001x768) (k0_off356 L k) S32x768.size (k0_off356_inb L k h)) (fun _ => rfl)).view.loc (VT d L)
        ↦[((o1V).slice (Rect.unit (s := S62001x768) (k0_off356 L k) S32x768.size (k0_off356_inb L k h)) (fun _ => rfl)).view.set]{fullShare} f) : sProp 𝕄)
      = o1Loc d ↦[chunkSet L 1 k.val]{fullShare} f :=
  pts_o1 d L _ _ _ (unit_set_chunk L 1 k.val (by omega) (nIss_of_lt L 1 k.val (by have := (cond12_iff L k).mp h; omega)) _ _
    (by rw [k0_off356_eq]; exact row_eq L 1 k.val _ (by omega))) f

theorem pts_chunk1_p2 (d : Dev nD) (L : grid0.Coords) (k : Fin k0_t7_loop.trips) (h : k0_cond14 L k = 1#1) (f : Buf (Elt F) (o1Loc d)) :
    ((((o1V).slice (Rect.unit (s := S62001x768) (k0_off407 L k) S32x768.size (k0_off407_inb L k h)) (fun _ => rfl)).view.loc (VT d L)
        ↦[((o1V).slice (Rect.unit (s := S62001x768) (k0_off407 L k) S32x768.size (k0_off407_inb L k h)) (fun _ => rfl)).view.set]{fullShare} f) : sProp 𝕄)
      = o1Loc d ↦[chunkSet L 2 k.val]{fullShare} f :=
  pts_o1 d L _ _ _ (unit_set_chunk L 2 k.val (by omega) (nIss_of_lt L 2 k.val (by have := (cond14_iff L k).mp h; omega)) _ _
    (by rw [k0_off407_eq]; exact row_eq L 2 k.val _ (by omega))) f

/-! ### The last chunk of buffer 0 on the tiles that have 61 chunks -/

theorem pts_last0 (d : Dev nD) (L : grid0.Coords) (h : k0_cond7 L = 1#1) (f : Buf (Elt F) (o0Loc d)) :
    ((((o0V).slice (Rect.unit (s := S62001x768) (k0_off205 L) S32x768.size (k0_off205_inb L h)) (fun _ => rfl)).view.loc (VT d L)
        ↦[((o0V).slice (Rect.unit (s := S62001x768) (k0_off205 L) S32x768.size (k0_off205_inb L h)) (fun _ => rfl)).view.set]{fullShare} f) : sProp 𝕄)
      = o0Loc d ↦[chunkSet L 0 20]{fullShare} f :=
  pts_o0 d L _ _ _ (unit_set_chunk L 0 20 (by omega)
    (nIss_of_lt L 0 20 (by have := (cond7_iff L).mp h; unfold nch; split <;> omega)) _ _
    (by rw [k0_off205_eq]; exact row_eq L 0 20 _ (by omega))) f

theorem pts_last1 (d : Dev nD) (L : grid0.Coords) (h : k0_cond16 L = 1#1) (f : Buf (Elt F) (o1Loc d)) :
    ((((o1V).slice (Rect.unit (s := S62001x768) (k0_off458 L) S32x768.size (k0_off458_inb L h)) (fun _ => rfl)).view.loc (VT d L)
        ↦[((o1V).slice (Rect.unit (s := S62001x768) (k0_off458 L) S32x768.size (k0_off458_inb L h)) (fun _ => rfl)).view.set]{fullShare} f) : sProp 𝕄)
      = o1Loc d ↦[chunkSet L 0 20]{fullShare} f :=
  pts_o1 d L _ _ _ (unit_set_chunk L 0 20 (by omega)
    (nIss_of_lt L 0 20 (by have := (cond16_iff L).mp h; unfold nch; split <;> omega)) _ _
    (by rw [k0_off458_eq]; exact row_eq L 0 20 _ (by omega))) f

/-! ### The last tile's tail -/

theorem tailA_set (L : grid0.Coords) (hw : wid L = 31) :
    (Rect.unit (s := S62001x768) ![61984, 0] S16x768.size inb_S62001x768_S16x768_61984_0).set = tailSetA L := by
  unfold tailSetA; rw [if_pos hw]
theorem tailB_set (L : grid0.Coords) (hw : wid L = 31) :
    (Rect.unit (s := S62001x768) ![62000, 0] S1x768.size inb_S62001x768_S1x768_62000_0).set = tailSetB L := by
  unfold tailSetB; rw [if_pos hw]

theorem pts_tailA0 (d : Dev nD) (L : grid0.Coords) (h : k0_cond9 L = 1#1) (f : Buf (Elt F) (o0Loc d)) :
    ((((o0V).slice (Rect.unit (s := S62001x768) ![61984, 0] S16x768.size inb_S62001x768_S16x768_61984_0) (fun _ => rfl)).view.loc (VT d L)
        ↦[((o0V).slice (Rect.unit (s := S62001x768) ![61984, 0] S16x768.size inb_S62001x768_S16x768_61984_0) (fun _ => rfl)).view.set]{fullShare} f) : sProp 𝕄)
      = o0Loc d ↦[tailSetA L]{fullShare} f :=
  pts_o0 d L _ _ _ (tailA_set L ((cond9_iff L).mp h)) f

theorem pts_tailB0 (d : Dev nD) (L : grid0.Coords) (h : k0_cond9 L = 1#1) (f : Buf (Elt F) (o0Loc d)) :
    ((((o0V).slice (Rect.unit (s := S62001x768) ![62000, 0] S1x768.size inb_S62001x768_S1x768_62000_0) (fun _ => rfl)).view.loc (VT d L)
        ↦[((o0V).slice (Rect.unit (s := S62001x768) ![62000, 0] S1x768.size inb_S62001x768_S1x768_62000_0) (fun _ => rfl)).view.set]{fullShare} f) : sProp 𝕄)
      = o0Loc d ↦[tailSetB L]{fullShare} f :=
  pts_o0 d L _ _ _ (tailB_set L ((cond9_iff L).mp h)) f

theorem pts_tailA1 (d : Dev nD) (L : grid0.Coords) (h : k0_cond18 L = 1#1) (f : Buf (Elt F) (o1Loc d)) :
    ((((o1V).slice (Rect.unit (s := S62001x768) ![61984, 0] S16x768.size inb_S62001x768_S16x768_61984_0) (fun _ => rfl)).view.loc (VT d L)
        ↦[((o1V).slice (Rect.unit (s := S62001x768) ![61984, 0] S16x768.size inb_S62001x768_S16x768_61984_0) (fun _ => rfl)).view.set]{fullShare} f) : sProp 𝕄)
      = o1Loc d ↦[tailSetA L]{fullShare} f :=
  pts_o1 d L _ _ _ (tailA_set L ((cond18_iff L).mp h)) f

theorem pts_tailB1 (d : Dev nD) (L : grid0.Coords) (h : k0_cond18 L = 1#1) (f : Buf (Elt F) (o1Loc d)) :
    ((((o1V).slice (Rect.unit (s := S62001x768) ![62000, 0] S1x768.size inb_S62001x768_S1x768_62000_0) (fun _ => rfl)).view.loc (VT d L)
        ↦[((o1V).slice (Rect.unit (s := S62001x768) ![62000, 0] S1x768.size inb_S62001x768_S1x768_62000_0) (fun _ => rfl)).view.set]{fullShare} f) : sProp 𝕄)
      = o1Loc d ↦[tailSetB L]{fullShare} f :=
  pts_o1 d L _ _ _ (tailB_set L ((cond18_iff L).mp h)) f

end Cert.Proof.KI

end
-- ==== Proof.ProgMem.lean ====
/-
  The rows of a result array the program slices for a chunk's write-back, through its printed chains, are the rows of
  the chunk in closed form: a chunk the tile has starts at most at row 61969, so the clamp of the closed form is idle.
-/
import proofs.«212940_g32057635897708_cont_8to1_b_1299_25_alg».proof.Proof.Inv
import proofs.«212940_g32057635897708_cont_8to1_b_1299_25_alg».proof.Proof.Arith
import proofs.«212940_g32057635897708_cont_8to1_b_1299_25_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)

/-- The first row of a chunk the tile has, over the tile's coordinates: the clamp is idle. -/
theorem chunkRowC_eq (L : grid0.Coords) (p j : Nat) (h : 3 * j + p < nch L) :
    chunkRowC L p j = 3904 * (L 1).val + 1952 * (L 0).val + 96 * j + 32 * p := by
  have h0 : (L 0).val < 2 := (L 0).isLt
  have h1 : (L 1).val < 16 := (L 1).isLt
  unfold chunkRowC chunkRow wbase
  unfold nch at h
  unfold wid at *
  split at h <;> omega

/-! ## The first result -/

/-- The rows the program names for chunk `3k + 0` of the first result are the chunk's. -/
theorem off52_chunk (L : grid0.Coords) (k : Fin k0_t1_loop.trips) (h : k0_cond1 L k = 1#1) :
    k0_off52 L k = ![chunkRowC L 0 k.val, 0] := by
  have hc := (cond1_iff L k).mp h
  have e : chunkRowC L 0 k.val = 3904 * (L 1).val + 1952 * (L 0).val + 96 * k.val :=
    (chunkRowC_eq L 0 k.val (by omega)).trans (by omega)
  rw [k0_off52_eq, e]

theorem progMem0_p0 (L : grid0.Coords) (k : Fin k0_t1_loop.trips) (h : k0_cond1 L k = 1#1) :
    (o0V).slice (Rect.unit (s := S62001x768) (k0_off52 L k) S32x768.size (k0_off52_inb L k h)) (fun _ => rfl)
      = chunkMem L o0V 0 k.val := by
  have e := off52_chunk L k h
  generalize k0_off52_inb L k h = pf
  revert pf
  rw [e]
  intro pf
  rfl

/-- The rows the program names for chunk `3k + 1` of the first result are the chunk's. -/
theorem off103_chunk (L : grid0.Coords) (k : Fin k0_t1_loop.trips) (h : k0_cond3 L k = 1#1) :
    k0_off103 L k = ![chunkRowC L 1 k.val, 0] := by
  have hc := (cond3_iff L k).mp h
  have e : chunkRowC L 1 k.val = 3904 * (L 1).val + 1952 * (L 0).val + 96 * k.val + 32 :=
    (chunkRowC_eq L 1 k.val (by omega)).trans (by omega)
  rw [k0_off103_eq, e]

theorem progMem0_p1 (L : grid0.Coords) (k : Fin k0_t1_loop.trips) (h : k0_cond3 L k = 1#1) :
    (o0V).slice (Rect.unit (s := S62001x768) (k0_off103 L k) S32x768.size (k0_off103_inb L k h)) (fun _ => rfl)
      = chunkMem L o0V 1 k.val := by
  have e := off103_chunk L k h
  generalize k0_off103_inb L k h = pf
  revert pf
  rw [e]
  intro pf
  rfl

/-- The rows the program names for chunk `3k + 2` of the first result are the chunk's. -/
theorem off154_chunk (L : grid0.Coords) (k : Fin k0_t1_loop.trips) (h : k0_cond5 L k = 1#1) :
    k0_off154 L k = ![chunkRowC L 2 k.val, 0] := by
  have hc := (cond5_iff L k).mp h
  have e : chunkRowC L 2 k.val = 3904 * (L 1).val + 1952 * (L 0).val + 96 * k.val + 64 :=
    (chunkRowC_eq L 2 k.val (by omega)).trans (by omega)
  rw [k0_off154_eq, e]

theorem progMem0_p2 (L : grid0.Coords) (k : Fin k0_t1_loop.trips) (h : k0_cond5 L k = 1#1) :
    (o0V).slice (Rect.unit (s := S62001x768) (k0_off154 L k) S32x768.size (k0_off154_inb L k h)) (fun _ => rfl)
      = chunkMem L o0V 2 k.val := by
  have e := off154_chunk L k h
  generalize k0_off154_inb L k h = pf
  revert pf
  rw [e]
  intro pf
  rfl

/-- The rows the program names for chunk 60 of the first result are those of chunk 20 of buffer 0. -/
theorem off205_chunk (L : grid0.Coords) (h : k0_cond7 L = 1#1) : k0_off205 L = ![chunkRowC L 0 20, 0] := by
  have hc := (cond7_iff L).mp h
  have hn : nch L = 61 := by unfold nch; rw [if_neg hc]
  have e : chunkRowC L 0 20 = 3904 * (L 1).val + 1952 * (L 0).val + 1920 :=
    (chunkRowC_eq L 0 20 (by omega)).trans (by omega)
  rw [k0_off205_eq, e]

theorem progMem0_last (L : grid0.Coords) (h : k0_cond7 L = 1#1) :
    (o0V).slice (Rect.unit (s := S62001x768) (k0_off205 L) S32x768.size (k0_off205_inb L h)) (fun _ => rfl)
      = chunkMem L o0V 0 20 := by
  have e := off205_chunk L h
  generalize k0_off205_inb L h = pf
  revert pf
  rw [e]
  intro pf
  rfl

/-! ## The second result -/

/-- The rows the program names for chunk `3k + 0` of the second result are the chunk's. -/
theorem off305_chunk (L : grid0.Coords) (k : Fin k0_t7_loop.trips) (h : k0_cond10 L k = 1#1) :
    k0_off305 L k = ![chunkRowC L 0 k.val, 0] := by
  have hc := (cond10_iff L k).mp h
  have e : chunkRowC L 0 k.val = 3904 * (L 1).val + 1952 * (L 0).val + 96 * k.val :=
    (chunkRowC_eq L 0 k.val (by omega)).trans (by omega)
  rw [k0_off305_eq, e]

theorem progMem1_p0 (L : grid0.Coords) (k : Fin k0_t7_loop.trips) (h : k0_cond10 L k = 1#1) :
    (o1V).slice (Rect.unit (s := S62001x768) (k0_off305 L k) S32x768.size (k0_off305_inb L k h)) (fun _ => rfl)
      = chunkMem L o1V 0 k.val := by
  have e := off305_chunk L k h
  generalize k0_off305_inb L k h = pf
  revert pf
  rw [e]
  intro pf
  rfl

/-- The rows the program names for chunk `3k + 1` of the second result are the chunk's. -/
theorem off356_chunk (L : grid0.Coords) (k : Fin k0_t7_loop.trips) (h : k0_cond12 L k = 1#1) :
    k0_off356 L k = ![chunkRowC L 1 k.val, 0] := by
  have hc := (cond12_iff L k).mp h
  have e : chunkRowC L 1 k.val = 3904 * (L 1).val + 1952 * (L 0).val + 96 * k.val + 32 :=
    (chunkRowC_eq L 1 k.val (by omega)).trans (by omega)
  rw [k0_off356_eq, e]

theorem progMem1_p1 (L : grid0.Coords) (k : Fin k0_t7_loop.trips) (h : k0_cond12 L k = 1#1) :
    (o1V).slice (Rect.unit (s := S62001x768) (k0_off356 L k) S32x768.size (k0_off356_inb L k h)) (fun _ => rfl)
      = chunkMem L o1V 1 k.val := by
  have e := off356_chunk L k h
  generalize k0_off356_inb L k h = pf
  revert pf
  rw [e]
  intro pf
  rfl

/-- The rows the program names for chunk `3k + 2` of the second result are the chunk's. -/
theorem off407_chunk (L : grid0.Coords) (k : Fin k0_t7_loop.trips) (h : k0_cond14 L k = 1#1) :
    k0_off407 L k = ![chunkRowC L 2 k.val, 0] := by
  have hc := (cond14_iff L k).mp h
  have e : chunkRowC L 2 k.val = 3904 * (L 1).val + 1952 * (L 0).val + 96 * k.val + 64 :=
    (chunkRowC_eq L 2 k.val (by omega)).trans (by omega)
  rw [k0_off407_eq, e]

theorem progMem1_p2 (L : grid0.Coords) (k : Fin k0_t7_loop.trips) (h : k0_cond14 L k = 1#1) :
    (o1V).slice (Rect.unit (s := S62001x768) (k0_off407 L k) S32x768.size (k0_off407_inb L k h)) (fun _ => rfl)
      = chunkMem L o1V 2 k.val := by
  have e := off407_chunk L k h
  generalize k0_off407_inb L k h = pf
  revert pf
  rw [e]
  intro pf
  rfl

/-- The rows the program names for chunk 60 of the second result are those of chunk 20 of buffer 0. -/
theorem off458_chunk (L : grid0.Coords) (h : k0_cond16 L = 1#1) : k0_off458 L = ![chunkRowC L 0 20, 0] := by
  have hc := (cond16_iff L).mp h
  have hn : nch L = 61 := by unfold nch; rw [if_neg hc]
  have e : chunkRowC L 0 20 = 3904 * (L 1).val + 1952 * (L 0).val + 1920 :=
    (chunkRowC_eq L 0 20 (by omega)).trans (by omega)
  rw [k0_off458_eq, e]

theorem progMem1_last (L : grid0.Coords) (h : k0_cond16 L = 1#1) :
    (o1V).slice (Rect.unit (s := S62001x768) (k0_off458 L) S32x768.size (k0_off458_inb L h)) (fun _ => rfl)
      = chunkMem L o1V 0 20 := by
  have e := off458_chunk L h
  generalize k0_off458_inb L h = pf
  revert pf
  rw [e]
  intro pf
  rfl

end Cert.Proof.KI

end
-- ==== Proof.ValMem.lean ====
/-
  Reading the contents the task leaves. A result's chunk after a staging buffer has landed on it holds the image's
  patches, when the buffer's rows held them; the slab after a channel's window has been copied in holds that channel's
  32 image rows, position by position. Every statement is at one symbolic index.
-/
import proofs.«212940_g32057635897708_cont_8to1_b_1299_25_alg».proof.Proof.Inv
import proofs.«212940_g32057635897708_cont_8to1_b_1299_25_alg».proof.Proof.Arith
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)

/-! ## A chunk of a result array: its rows, and what a landed staging buffer leaves there -/

omit [FloatOps F] in
/-- A real chunk lies inside the array, so clamping its first row changes nothing. -/
theorem chunkRowC_of_lt (p j : Nat) (hp : p < 3) (hj : j < nIss L p) : chunkRowC L p j = chunkRow L p j := by
  have h : chunkRow L p j + 32 ≤ 62001 := chunk_inb L p j hp hj 0
  unfold chunkRowC
  exact Nat.min_eq_left (by omega)

omit [FloatOps F] in
/-- The elements of chunk `(p, j)` of the first result, as the task slices it, are the chunk's rows. -/
theorem chunkMem_set0 (p j : Nat) (hp : p < 3) (hj : j < nIss L p) : (chunkMem L o0V p j).view.set = chunkSet L p j := by
  ext i
  rw [mem_chunkSet]
  show i ∈ ((View.whole main_v2_0_scv).slice _).set ↔ _
  rw [View.set_slice_whole, mem_rows (chunkRowC L p j) 32 _ rfl rfl, chunkRowC_of_lt L p j hp hj]
  exact ⟨fun h => ⟨⟨hp, hj⟩, h⟩, fun h => h.2⟩

omit [FloatOps F] in
/-- The same for the second result. -/
theorem chunkMem_set1 (p j : Nat) (hp : p < 3) (hj : j < nIss L p) : (chunkMem L o1V p j).view.set = chunkSet L p j := by
  ext i
  rw [mem_chunkSet]
  show i ∈ ((View.whole main_v2_1_scv).slice _).set ↔ _
  rw [View.set_slice_whole, mem_rows (chunkRowC L p j) 32 _ rfl rfl, chunkRowC_of_lt L p j hp hj]
  exact ⟨fun h => ⟨⟨hp, hj⟩, h⟩, fun h => h.2⟩

omit [FloatOps F] in
/-- Entry `(r, c)` of a 32-row block written whole over chunk `(p, j)` of the first result lands at row
    `chunkRow + r`, column `c`; if the block's rows held the patches from `chunkRow`, the chunk now holds the image's
    patches. -/
theorem landed_o0 (p j : Nat) (hp : p < 3) (hj : j < nIss L p) (x0 : Buf (Elt F) (x0Loc d)) (f : Buf (Elt F) (o0Loc d))
    (w : S32x768.Idx → Elt F .f32) (h : RowsDone (α := Elt F .f32) w x0 (chunkRow L p j) 32) :
    ∀ i ∈ (chunkMem L o0V p j).view.set,
      ((chunkMem L o0V p j).view.writes (Elt F) f [⟨Rect.whole S32x768, ReadAs.same.apply w⟩]) i = pat0 d x0 i := by
  intro i hi
  obtain ⟨y, -, rfl⟩ := Finset.mem_map.mp hi
  -- the written block read back at `y` is the payload at `y`
  have key := View.read_writes_cons_emb (chunkMem L o0V p j).view f (Rect.whole S32x768) (ReadAs.same.apply w) [] y
  rw [Rect.emb_whole_apply] at key
  generalize (chunkMem L o0V p j).view.writes (Elt F) f [⟨Rect.whole S32x768, ReadAs.same.apply w⟩] = G at key ⊢
  have hG : G ((chunkMem L o0V p j).view.emb y) = (chunkMem L o0V p j).view.read (Elt F) G y := rfl
  rw [hG, key, ReadAs.apply_same]
  -- the payload is the patch's feature, and so is the patches matrix there
  have hy : y = ix2 (y 0) (y 1) := eq_ix2 y
  have hw : w y = xAt x0 (flatPos (chunkRow L p j + (y 0).val) (y 1).val) := by
    conv_lhs => rw [hy]
    exact h (y 0) (y 1) (y 0).isLt
  rw [hw]
  unfold pat0
  rw [Cert.Unfold.patchesFlat_eq_xAt]
  have e0 : (((chunkMem L o0V p j).view.emb y) 0).val = chunkRow L p j + (y 0).val := by
    show chunkRowC L p j + 1 * (y 0).val = _
    rw [chunkRowC_of_lt L p j hp hj]; omega
  have e1 : (((chunkMem L o0V p j).view.emb y) 1).val = (y 1).val := by
    show 0 + 1 * (y 1).val = _
    omega
  rw [e0, e1]

omit [FloatOps F] in
/-- The same over the second result and the second image. -/
theorem landed_o1 (p j : Nat) (hp : p < 3) (hj : j < nIss L p) (x1 : Buf (Elt F) (x1Loc d)) (f : Buf (Elt F) (o1Loc d))
    (w : S32x768.Idx → Elt F .f32) (h : RowsDone (α := Elt F .f32) w x1 (chunkRow L p j) 32) :
    ∀ i ∈ (chunkMem L o1V p j).view.set,
      ((chunkMem L o1V p j).view.writes (Elt F) f [⟨Rect.whole S32x768, ReadAs.same.apply w⟩]) i = pat1 d x1 i := by
  intro i hi
  obtain ⟨y, -, rfl⟩ := Finset.mem_map.mp hi
  -- the written block read back at `y` is the payload at `y`
  have key := View.read_writes_cons_emb (chunkMem L o1V p j).view f (Rect.whole S32x768) (ReadAs.same.apply w) [] y
  rw [Rect.emb_whole_apply] at key
  generalize (chunkMem L o1V p j).view.writes (Elt F) f [⟨Rect.whole S32x768, ReadAs.same.apply w⟩] = G at key ⊢
  have hG : G ((chunkMem L o1V p j).view.emb y) = (chunkMem L o1V p j).view.read (Elt F) G y := rfl
  rw [hG, key, ReadAs.apply_same]
  -- the payload is the patch's feature, and so is the patches matrix there
  have hy : y = ix2 (y 0) (y 1) := eq_ix2 y
  have hw : w y = xAt x1 (flatPos (chunkRow L p j + (y 0).val) (y 1).val) := by
    conv_lhs => rw [hy]
    exact h (y 0) (y 1) (y 0).isLt
  rw [hw]
  unfold pat1
  rw [Cert.Unfold.patchesFlat_eq_xAt]
  have e0 : (((chunkMem L o1V p j).view.emb y) 0).val = chunkRow L p j + (y 0).val := by
    show chunkRowC L p j + 1 * (y 0).val = _
    rw [chunkRowC_of_lt L p j hp hj]; omega
  have e1 : (((chunkMem L o1V p j).view.emb y) 1).val = (y 1).val := by
    show 0 + 1 * (y 1).val = _
    omega
  rw [e0, e1]

omit [FloatOps F] in
/-- The delivered rows of a landed chunk of the first result, restated over the chunk's rows at the patches matrix. -/
theorem landed_pts0 (p j : Nat) (hp : p < 3) (hj : j < nIss L p) (x0 : Buf (Elt F) (x0Loc d)) (f : Buf (Elt F) (o0Loc d))
    (w : S32x768.Idx → Elt F .f32) (h : RowsDone (α := Elt F .f32) w x0 (chunkRow L p j) 32) :
    ((chunkMem L o0V p j).view.loc (VT d L) ↦[(chunkMem L o0V p j).view.set]{fullShare}
        (chunkMem L o0V p j).view.writes (Elt F) f [⟨Rect.whole S32x768, ReadAs.same.apply w⟩] : sProp 𝕄)
      = (o0Loc d ↦[chunkSet L p j]{fullShare} pat0 d x0) := by
  rw [← chunkMem_set0 L p j hp hj]
  exact pointsTo_congr (landed_o0 d L p j hp hj x0 f w h)

omit [FloatOps F] in
/-- The same for the second result. -/
theorem landed_pts1 (p j : Nat) (hp : p < 3) (hj : j < nIss L p) (x1 : Buf (Elt F) (x1Loc d)) (f : Buf (Elt F) (o1Loc d))
    (w : S32x768.Idx → Elt F .f32) (h : RowsDone (α := Elt F .f32) w x1 (chunkRow L p j) 32) :
    ((chunkMem L o1V p j).view.loc (VT d L) ↦[(chunkMem L o1V p j).view.set]{fullShare}
        (chunkMem L o1V p j).view.writes (Elt F) f [⟨Rect.whole S32x768, ReadAs.same.apply w⟩] : sProp 𝕄)
      = (o1Loc d ↦[chunkSet L p j]{fullShare} pat1 d x1) := by
  rw [← chunkMem_set1 L p j hp hj]
  exact pointsTo_congr (landed_o1 d L p j hp hj x1 f w h)

/-! ## One trip of a row loop -/

omit [FloatOps F] in
/-- A staging buffer whose rows below `jj` hold the patches from `row0`, after writes that all lie in row `jj`, cover
    it, and put there the features of patch `row0 + jj`, has its rows below `jj + 1` holding the patches. -/
theorem rows_step {κ : Kind} {sp : Space} (v : View sig κ sp S32x768 .f32) (x : Cert.Unfold.SFlat.Idx → Elt F .f32)
    (row0 jj : Nat) (hjj : jj < 32) (t : v.ty.Contents (Elt F)) (Lp : List (View.Piece (Elt F) S32x768 .f32))
    (ht : RowsDone (α := Elt F .f32) (v.read (Elt F) t) x row0 jj)
    (hrow : ∀ p ∈ Lp, ∀ y ∈ p.1.set, (y 0).val = jj)
    (hval : ∀ p ∈ Lp, ∀ z : p.1.shape.Idx, p.2 z = xAt x (flatPos (row0 + jj) ((p.1.emb z) 1).val))
    (hcov : ∀ f : Fin 768, ∃ p ∈ Lp, (ix2 ⟨jj, hjj⟩ f : S32x768.Idx) ∈ p.1.set) :
    RowsDone (α := Elt F .f32) (v.read (Elt F) (v.writes (Elt F) t Lp)) x row0 (jj + 1) := by
  intro r f hr
  by_cases hlt : r.val < jj
  · -- an earlier row: no write reaches it
    refine (View.read_writes_apply_of_forall_not_mem v t (ix2 r f) Lp fun p hp hm => ?_).trans (ht r f hlt)
    have h0 : r.val = jj := hrow p hp _ hm
    omega
  · -- row `jj`: every write there is a block of the patch's features
    have hrj : r = ⟨jj, hjj⟩ := Fin.ext (show r.val = jj by omega)
    subst hrj
    obtain ⟨p, hp, hm⟩ := hcov f
    exact View.read_writes_apply_of_pieces v t (fun y => xAt x (flatPos (row0 + jj) (y 1).val)) Lp
      (fun p hp z => hval p hp z) (ix2 ⟨jj, hjj⟩ f) ⟨p, hp, hm⟩

/-! ## The writes of one trip of a row loop: blocks of 16 lanes of one row -/

omit [FloatOps F] in
/-- A block of 16 lanes at `(jj, c)` lies in row `jj`; -/
theorem piece_row {off : Fin 2 → Nat} {jj c : Nat} (h : off = ![jj, c])
    (inb : ∀ a, off a + S1x16.size a ≤ S32x768.size a) :
    ∀ y ∈ (Rect.unit (s := S32x768) off S1x16.size inb).set, (y 0).val = jj := by
  subst h
  intro y hy
  have h0 := (Rect.mem_set_unit.mp hy) 0
  have h1 : jj ≤ (y 0).val := h0.1
  have h2 : (y 0).val < jj + 1 := h0.2
  omega

omit [FloatOps F] in
/-- its lane `l` is column `c + l`; -/
theorem piece_emb1 {off : Fin 2 → Nat} {jj c : Nat} (h : off = ![jj, c])
    (inb : ∀ a, off a + S1x16.size a ≤ S32x768.size a) (z : (Rect.unit (s := S32x768) off S1x16.size inb).shape.Idx) :
    (((Rect.unit (s := S32x768) off S1x16.size inb).emb z) 1).val = c + (z 1).val := by
  subst h
  show c + 1 * (z 1).val = _
  omega

omit [FloatOps F] in
/-- and the block at column `16·s` holds the columns whose sixteenth is `s`. -/
theorem piece_cov {off : Fin 2 → Nat} {jj s : Nat} (h : off = ![jj, 16 * s])
    (inb : ∀ a, off a + S1x16.size a ≤ S32x768.size a) (hjj : jj < 32) (f : Fin 768) (hf : f.val / 16 = s) :
    (ix2 ⟨jj, hjj⟩ f : S32x768.Idx) ∈ (Rect.unit (s := S32x768) off S1x16.size inb).set := by
  subst h
  rw [Rect.mem_set_unit]
  intro a
  match a with
  | ⟨0, _⟩ => show jj ≤ jj ∧ jj < jj + 1; omega
  | ⟨1, _⟩ => show 16 * s ≤ f.val ∧ f.val < 16 * s + 16; omega

omit [FloatOps F] in
/-- Sixteen lanes re-shaped to a 1×16 block read lane `z 1`. -/
theorem pay_eq {α : Type} (v : S16.Idx → α) (h1 : S16.ShapeCasts S16) (h2 : S16.ShapeCasts S1x16) (z : S1x16.Idx) :
    shapeCast S1x16 (shapeCast S16 v h1) h2 z = v (ix1 (n := 16) (z 1)) := by
  have hz : (z 0).val = 0 := by have h : (z 0).val < 1 := (z 0).isLt; omega
  refine (shapeCast_apply _ h2 z (ix1 (n := 16) (z 1)) ?_).trans (shapeCast_apply _ h1 _ (ix1 (n := 16) (z 1)) rfl)
  rw [Shape.rowMajor_val_one, Shape.rowMajor_val_two, hz]
  show (z 1).val = 0 * 16 + (z 1).val
  omega

omit [FloatOps F] in
/-- Sixteen lanes loaded from the slab at position `off3 0` read the slab's words from there. -/
theorem load_eq (g : Buf (Elt F) ((slabV).view.loc (VT d L))) (off3 : Fin 1 → Nat)
    (inb3 : ∀ a, off3 a + S16.size a ≤ S49152.size a) (l : S16.Idx)
    (hl : off3 0 + (l 0).val < 49152) :
    View.readAt (Elt F) (slabV).view (Rect.unit (s := S49152) off3 S16.size inb3).toLoadRect g l
      = (slabV).view.read (Elt F) g (ix1 ⟨off3 0 + (l 0).val, hl⟩) := by
  rw [View.readAt_apply]
  congr 1
  funext a
  match a with
  | ⟨0, _⟩ =>
    apply Fin.ext
    show off3 0 + 1 * (l 0).val = off3 0 + (l 0).val
    omega

/-- What a row loop's trip asks of block `s` of its writes: it lies in row `jj`, it holds the features of patch `row`
    at its columns, and it holds the columns whose sixteenth is `s`. -/
def PieceOK (x : Cert.Unfold.SFlat.Idx → Elt F .f32) (row jj : Nat) (hjj : jj < 32) (s : Nat)
    (p : View.Piece (Elt F) S32x768 .f32) : Prop :=
  (∀ y ∈ p.1.set, (y 0).val = jj) ∧ (∀ z : p.1.shape.Idx, p.2 z = xAt x (flatPos row ((p.1.emb z) 1).val))
    ∧ ∀ f : Fin 768, f.val / 16 = s → (ix2 ⟨jj, hjj⟩ f : S32x768.Idx) ∈ p.1.set

/-- A list of writes, the newest first, whose blocks are `n − 1, …, 0`. -/
inductive PiecesOK (x : Cert.Unfold.SFlat.Idx → Elt F .f32) (row jj : Nat) (hjj : jj < 32) :
    Nat → List (View.Piece (Elt F) S32x768 .f32) → Prop
  | nil : PiecesOK x row jj hjj 0 []
  | cons {m : Nat} {p : View.Piece (Elt F) S32x768 .f32} {l : List (View.Piece (Elt F) S32x768 .f32)} :
      PieceOK x row jj hjj m p → PiecesOK x row jj hjj m l → PiecesOK x row jj hjj (m + 1) (p :: l)

omit [FloatOps F] in
theorem PiecesOK.forall {x : Cert.Unfold.SFlat.Idx → Elt F .f32} {row jj : Nat} {hjj : jj < 32} {n : Nat}
    {l : List (View.Piece (Elt F) S32x768 .f32)} (h : PiecesOK x row jj hjj n l) :
    ∀ p ∈ l, (∀ y ∈ p.1.set, (y 0).val = jj) ∧ ∀ z : p.1.shape.Idx, p.2 z = xAt x (flatPos row ((p.1.emb z) 1).val) := by
  induction h with
  | nil => intro p hp; exact absurd hp List.not_mem_nil
  | cons hp _ ih =>
    intro q hq
    rcases List.mem_cons.mp hq with rfl | hq
    · exact ⟨hp.1, hp.2.1⟩
    · exact ih q hq

omit [FloatOps F] in
theorem PiecesOK.cover {x : Cert.Unfold.SFlat.Idx → Elt F .f32} {row jj : Nat} {hjj : jj < 32} {n : Nat}
    {l : List (View.Piece (Elt F) S32x768 .f32)} (h : PiecesOK x row jj hjj n l) :
    ∀ f : Fin 768, f.val / 16 < n → ∃ p ∈ l, (ix2 ⟨jj, hjj⟩ f : S32x768.Idx) ∈ p.1.set := by
  induction h with
  | nil => intro f hf; exact absurd hf (Nat.not_lt_zero _)
  | @cons m p l hp _ ih =>
    intro f hf
    by_cases hm : f.val / 16 = m
    · exact ⟨p, List.mem_cons_self, hp.2.2 f hm⟩
    · obtain ⟨q, hq, hmem⟩ := ih f (by omega)
      exact ⟨q, List.mem_cons_of_mem _ hq, hmem⟩

omit [FloatOps F] in
/-- One trip of a row loop, from its 48 blocks. -/
theorem rows_step' {κ : Kind} {sp : Space} (v : View sig κ sp S32x768 .f32) (x : Cert.Unfold.SFlat.Idx → Elt F .f32)
    (row0 jj : Nat) (hjj : jj < 32) (t : v.ty.Contents (Elt F)) (Lp : List (View.Piece (Elt F) S32x768 .f32))
    (ht : RowsDone (α := Elt F .f32) (v.read (Elt F) t) x row0 jj)
    (hok : PiecesOK x (row0 + jj) jj hjj 48 Lp) :
    RowsDone (α := Elt F .f32) (v.read (Elt F) (v.writes (Elt F) t Lp)) x row0 (jj + 1) :=
  rows_step v x row0 jj hjj t Lp ht (fun p hp => (hok.forall p hp).1) (fun p hp => (hok.forall p hp).2)
    (fun f => hok.cover f (by have := f.isLt; omega))

omit [FloatOps F] in
/-- Block `16·c + kh` of a trip's writes: the sixteen lanes the slab holds at patch `row`'s place in channel `c`, patch
    row `kh`, written at columns `256·c + 16·kh + l` of buffer row `jj`, are the patch's features there. -/
theorem piece_ok (x : Cert.Unfold.SFlat.Idx → Elt F .f32) (g : Buf (Elt F) ((slabV).view.loc (VT d L)))
    (hg : SlabUpTo (α := Elt F .f32) ((slabV).view.read (Elt F) g) x (wstart L) 49152)
    (row jj : Nat) (hjj : jj < 32) (hr1 : wbase L ≤ row) (hr2 : row < wbase L + nrows L)
    (c : Fin 3) (kh : Fin 16)
    (off3 : Fin 1 → Nat) (h3 : off3 = ![slabOff L row + 16384 * c.val + 512 * kh.val]) (inb3 : ∀ a, off3 a + S16.size a ≤ S49152.size a)
    (off : Fin 2 → Nat) (h : off = ![jj, 16 * (16 * c.val + kh.val)]) (inb : ∀ a, off a + S1x16.size a ≤ S32x768.size a)
    (h1 : S16.ShapeCasts S16) (h2 : S16.ShapeCasts S1x16) :
    PieceOK x row jj hjj (16 * c.val + kh.val)
      ⟨Rect.unit (s := S32x768) off S1x16.size inb,
        shapeCast S1x16 (shapeCast S16
          (View.readAt (Elt F) (slabV).view (Rect.unit (s := S49152) off3 S16.size inb3).toLoadRect g) h1) h2⟩ := by
  refine ⟨piece_row h inb, fun z => ?_, fun f hf => piece_cov h inb hjj f hf⟩
  obtain ⟨hw1, hw2⟩ := window_ok L row hr1 hr2
  have hc : c.val < 3 := c.isLt
  have hkh : kh.val < 16 := kh.isLt
  have hz : (z 1).val < 16 := (z 1).isLt
  obtain ⟨hs, -⟩ := Cert.Unfold.lane_pos (wstart L) row c.val kh.val (z 1).val hc hkh hz hw1 hw2
  have e1 := piece_emb1 h inb z
  have e3 : off3 0 = slabOff L row + 16384 * c.val + 512 * kh.val := by rw [h3]; rfl
  have hl : off3 0 + (z 1).val < 49152 := by rw [e3]; unfold slabOff; omega
  show shapeCast S1x16 (shapeCast S16
      (View.readAt (Elt F) (slabV).view (Rect.unit (s := S49152) off3 S16.size inb3).toLoadRect g) h1) h2 z = _
  rw [e1]
  refine (pay_eq _ h1 h2 z).trans ((load_eq d L g off3 inb3 _ hl).trans ?_)
  have e := Cert.Unfold.slab_lane (α := Elt F .f32) ((slabV).view.read (Elt F) g) x (wstart L) (Cert.Unfold.slabOK_of_upTo hg)
    row c.val kh.val (z 1).val hc hkh hz hw1 hw2 hs
  have e4 : 16 * (16 * c.val + kh.val) + (z 1).val = 256 * c.val + 16 * kh.val + (z 1).val := by omega
  rw [e4, ← e]
  congr 2
  apply Fin.ext
  show off3 0 + (z 1).val = (2 * (row / 249) - wstart L) * 512 + 2 * (row % 249) + 16384 * c.val + 512 * kh.val + (z 1).val
  rw [e3]; unfold slabOff; omega

end Cert.Proof.KI

end
-- ==== Proof.Init.lean ====
/-
  What both passes of a tile's task need before their chunk loops: the slab after a channel's copy holds one more
  channel of the image's window, and each staging buffer's state before the first trip is its chunks untouched, the
  buffer at rest and its semaphore at zero.
-/
import proofs.«212940_g32057635897708_cont_8to1_b_1299_25_alg».proof.Proof.Inv
import proofs.«212940_g32057635897708_cont_8to1_b_1299_25_alg».proof.Proof.Book
import proofs.«212940_g32057635897708_cont_8to1_b_1299_25_alg».proof.Proof.Arith
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)

/-! ## The slab after the three channel copies -/

/-- A position of the flattened image inside the array reads the image there. -/
theorem xAt_of_lt (x : Cert.Unfold.SFlat.Idx → Elt F .f32) (p : Nat) (h : p < 786432) :
    xAt x p = x (Idealize.ShloMosaic.ValueIdx.ix1 ⟨p, h⟩) := by
  unfold Cert.Unfold.xAt; rw [dif_pos h]

theorem wstart_le (L : grid0.Coords) : wstart L ≤ 480 := by unfold wstart; exact Nat.min_le_right _ _

/-- One more channel: the slab filled below `16384·c`, then channel `c`'s 32 image rows written at `16384·c`. -/
theorem slabUpTo_chan (x : Cert.Unfold.SFlat.Idx → Elt F .f32) (ws : Nat)
    (f : (slabV).view.ty.Contents (Elt F)) (Ls : List (View.Piece (Elt F) S49152 .f32))
    (c : Nat) (off : Fin 1 → Nat) (inb : ∀ a, off a + S16384.size a ≤ S49152.size a) (hoff : off = ![16384 * c])
    (w : (Rect.unit (s := S49152) off S16384.size inb).shape.Idx → Elt F .f32)
    (hw : ∀ i : (Rect.unit (s := S49152) off S16384.size inb).shape.Idx, w i = xAt x (262144 * c + 512 * ws + (i 0).val))
    (hprev : SlabUpTo (α := Elt F .f32) ((slabV).view.read (Elt F) ((slabV).view.writes (Elt F) f Ls)) x ws (16384 * c)) :
    SlabUpTo (α := Elt F .f32) ((slabV).view.read (Elt F) ((slabV).view.writes (Elt F) f (⟨Rect.unit (s := S49152) off S16384.size inb, w⟩ :: Ls)))
      x ws (16384 * (c + 1)) := by
  intro s hs
  by_cases hlt : s.val < 16384 * c
  · rw [View.read_writes_cons_unit_of_not_mem _ _ inb w Ls _ hoff 0 (Or.inl hlt)]
    exact hprev s hlt
  · have hge : 16384 * c ≤ s.val := Nat.le_of_not_lt hlt
    rw [View.read_writes_cons_unit_of_mem _ _ inb w Ls _ (fun a => ⟨s.val - 16384 * c, by
        have ha : a = 0 := Subsingleton.elim _ _
        subst ha
        show s.val - 16384 * c < 16384; omega⟩) hoff
      (fun a => by
        have ha : a = 0 := Subsingleton.elim _ _
        subst ha
        show s.val = 16384 * c + (s.val - 16384 * c); omega), hw]
    have h1 : s.val / 16384 = c := by omega
    have h2 : s.val % 16384 = s.val - 16384 * c := by omega
    show xAt x (262144 * c + 512 * ws + (s.val - 16384 * c)) = _
    rw [h1, h2]

/-- What the copy of channel `c`'s window delivers: the image from that window's first pixel. -/
theorem chan_payload (L : grid0.Coords) (x1 : Buf (Elt F) (x1Loc d)) (c : Fin 3) (off : Fin 1 → Nat)
    (inb : ∀ a, off a + S16384.size a ≤ S786432.size a) (hoff : off = ![262144 * c.val + 512 * wstart L])
    (hr : ∀ a, (Rect.unit (s := S786432) off S16384.size inb).stride a = 1) (i : S16384.Idx) :
    ReadAs.same.apply (View.read (Elt F) ((x1V).slice (Rect.unit (s := S786432) off S16384.size inb) hr).view x1) i
      = xAt (α := Elt F .f32) x1 (262144 * c.val + 512 * wstart L + (i 0).val) := by
  subst hoff
  have hc := c.isLt
  have hi : (i 0).val < 16384 := (i 0).isLt
  have hws := wstart_le L
  rw [xAt_of_lt _ _ (by omega)]
  show x1 _ = x1 _
  refine congrArg x1 (funext fun (a : Fin 1) => ?_)
  have ha : a = 0 := Subsingleton.elim _ _
  subst ha
  refine Fin.ext ?_
  show (262144 * c.val + 512 * wstart L) + 1 * (i 0).val = 262144 * c.val + 512 * wstart L + (i 0).val
  omega

/-- The same for the first image. -/
theorem chan_payload0 (L : grid0.Coords) (x0 : Buf (Elt F) (x0Loc d)) (c : Fin 3) (off : Fin 1 → Nat)
    (inb : ∀ a, off a + S16384.size a ≤ S786432.size a) (hoff : off = ![262144 * c.val + 512 * wstart L])
    (hr : ∀ a, (Rect.unit (s := S786432) off S16384.size inb).stride a = 1) (i : S16384.Idx) :
    ReadAs.same.apply (View.read (Elt F) ((x0V).slice (Rect.unit (s := S786432) off S16384.size inb) hr).view x0) i
      = xAt (α := Elt F .f32) x0 (262144 * c.val + 512 * wstart L + (i 0).val) := by
  subst hoff
  have hc := c.isLt
  have hi : (i 0).val < 16384 := (i 0).isLt
  have hws := wstart_le L
  rw [xAt_of_lt _ _ (by omega)]
  show x0 _ = x0 _
  refine congrArg x0 (funext fun (a : Fin 1) => ?_)
  have ha : a = 0 := Subsingleton.elim _ _
  subst ha
  refine Fin.ext ?_
  show (262144 * c.val + 512 * wstart L) + 1 * (i 0).val = 262144 * c.val + 512 * wstart L + (i 0).val
  omega

/-- The slab after the three copies holds the second image's window. -/
theorem slab_filled (L : grid0.Coords) (x1 : Buf (Elt F) (x1Loc d)) (f : (slabV).view.ty.Contents (Elt F)) :
    SlabUpTo (α := Elt F .f32) ((slabV).view.read (Elt F) ((slabV).view.writes (Elt F) f
      [⟨Rect.unit (s := S49152) ![32768] S16384.size inb_S49152_S16384_32768,
          ReadAs.same.apply (View.read (Elt F) ((x1V).slice (Rect.unit (s := S786432) (k0_off1 L 524288#32) S16384.size (k0_off1_inb L 2)) (fun _ => rfl)).view x1)⟩,
        ⟨Rect.unit (s := S49152) ![16384] S16384.size inb_S49152_S16384_16384,
          ReadAs.same.apply (View.read (Elt F) ((x1V).slice (Rect.unit (s := S786432) (k0_off1 L 262144#32) S16384.size (k0_off1_inb L 1)) (fun _ => rfl)).view x1)⟩,
        ⟨Rect.unit (s := S49152) ![0] S16384.size inb_S49152_S16384_0,
          ReadAs.same.apply (View.read (Elt F) ((x1V).slice (Rect.unit (s := S786432) (k0_off1 L 0#32) S16384.size (k0_off1_inb L 0)) (fun _ => rfl)).view x1)⟩]))
      x1 (wstart L) 49152 :=
  slabUpTo_chan x1 (wstart L) f _ 2 _ _ rfl _ (fun i => chan_payload d L x1 2 _ _ (off1_eq L 2) _ i)
    (slabUpTo_chan x1 (wstart L) f _ 1 _ _ rfl _ (fun i => chan_payload d L x1 1 _ _ (off1_eq L 1) _ i)
      (slabUpTo_chan x1 (wstart L) f [] 0 _ _ rfl _ (fun i => chan_payload d L x1 0 _ _ (off1_eq L 0) _ i)
        (Cert.Unfold.slabUpTo_zero _ _ _)))

/-- The slab holding the first image's window below the third channel, after the third channel's copy: the whole window. -/
theorem slab_filled2_x0 (L : grid0.Coords) (x0 : Buf (Elt F) (x0Loc d)) (g : (slabV).view.ty.Contents (Elt F))
    (hprev : SlabUpTo (α := Elt F .f32) ((slabV).view.read (Elt F) g) x0 (wstart L) 32768) :
    SlabUpTo (α := Elt F .f32) ((slabV).view.read (Elt F) ((slabV).view.writes (Elt F) g
      [⟨Rect.unit (s := S49152) ![32768] S16384.size inb_S49152_S16384_32768,
          ReadAs.same.apply (View.read (Elt F) ((x0V).slice (Rect.unit (s := S786432) (k0_off1 L 524288#32) S16384.size (k0_off1_inb L 2)) (fun _ => rfl)).view x0)⟩]))
      x0 (wstart L) 49152 :=
  slabUpTo_chan x0 (wstart L) g [] 2 _ _ rfl _ (fun i => chan_payload0 d L x0 2 _ _ (off1_eq L 2) _ i) hprev

/-! ## The chunk loop's invariant before its first trip -/

theorem issued_zero (L : grid0.Coords) (p : Nat) : issued L p 0 = 0 := by unfold issued; exact Nat.zero_min _

/-! ### The second pass -/

theorem bufState1_0_init (x : Buf (Elt F) (x1Loc d)) (f : Buf (Elt F) (o1Loc d)) (t : Buf (Elt F) ((b0V).view.loc (VT d L))) :
    (iprop((bigSep (Finset.range (nIss L 0)) fun j => o1Loc d ↦[chunkSet L 0 j]{fullShare} f)
      ∗ ((b0V).view.loc (VT d L) ↦[(b0V).view.set]{fullShare} t) ∗ semVal (VT d L, SemLoc.dma (dsem 0)) 0) : sProp 𝕄)
    ⊢ bufState1_0 d L x f 0 := by
  unfold bufState1_0
  rw [issued_zero, if_pos rfl, Nat.zero_sub, Finset.range_zero, bigSep_empty, ← todo_all]
  unfold bufIdle0
  iintro ⟨HD, HT, Hc⟩
  isplitl []
  · iempintro
  isplitl [HD]; · iexact HD
  isplitl [HT]; · iexists t; iexact HT
  iexact Hc

theorem bufState1_1_init (x : Buf (Elt F) (x1Loc d)) (f : Buf (Elt F) (o1Loc d)) (t : Buf (Elt F) ((b1V).view.loc (VT d L))) :
    (iprop((bigSep (Finset.range (nIss L 1)) fun j => o1Loc d ↦[chunkSet L 1 j]{fullShare} f)
      ∗ ((b1V).view.loc (VT d L) ↦[(b1V).view.set]{fullShare} t) ∗ semVal (VT d L, SemLoc.dma (dsem 1)) 0) : sProp 𝕄)
    ⊢ bufState1_1 d L x f 0 := by
  unfold bufState1_1
  rw [issued_zero, if_pos rfl, Nat.zero_sub, Finset.range_zero, bigSep_empty, ← todo_all]
  unfold bufIdle1
  iintro ⟨HD, HT, Hc⟩
  isplitl []
  · iempintro
  isplitl [HD]; · iexact HD
  isplitl [HT]; · iexists t; iexact HT
  iexact Hc

theorem bufState1_2_init (x : Buf (Elt F) (x1Loc d)) (f : Buf (Elt F) (o1Loc d)) (t : Buf (Elt F) ((b2V).view.loc (VT d L))) :
    (iprop((bigSep (Finset.range (nIss L 2)) fun j => o1Loc d ↦[chunkSet L 2 j]{fullShare} f)
      ∗ ((b2V).view.loc (VT d L) ↦[(b2V).view.set]{fullShare} t) ∗ semVal (VT d L, SemLoc.dma (dsem 2)) 0) : sProp 𝕄)
    ⊢ bufState1_2 d L x f 0 := by
  unfold bufState1_2
  rw [issued_zero, if_pos rfl, Nat.zero_sub, Finset.range_zero, bigSep_empty, ← todo_all]
  unfold bufIdle2
  iintro ⟨HD, HT, Hc⟩
  isplitl []
  · iempintro
  isplitl [HD]; · iexact HD
  isplitl [HT]; · iexists t; iexact HT
  iexact Hc

/-! ### The first pass -/

theorem bufState0_0_init (x : Buf (Elt F) (x0Loc d)) (f : Buf (Elt F) (o0Loc d)) (t : Buf (Elt F) ((b0V).view.loc (VT d L))) :
    (iprop((bigSep (Finset.range (nIss L 0)) fun j => o0Loc d ↦[chunkSet L 0 j]{fullShare} f)
      ∗ ((b0V).view.loc (VT d L) ↦[(b0V).view.set]{fullShare} t) ∗ semVal (VT d L, SemLoc.dma (dsem 0)) 0) : sProp 𝕄)
    ⊢ bufState0_0 d L x f 0 := by
  unfold bufState0_0
  rw [issued_zero, if_pos rfl, Nat.zero_sub, Finset.range_zero, bigSep_empty, ← todo_all]
  unfold bufIdle0
  iintro ⟨HD, HT, Hc⟩
  isplitl []
  · iempintro
  isplitl [HD]; · iexact HD
  isplitl [HT]; · iexists t; iexact HT
  iexact Hc

theorem bufState0_1_init (x : Buf (Elt F) (x0Loc d)) (f : Buf (Elt F) (o0Loc d)) (t : Buf (Elt F) ((b1V).view.loc (VT d L))) :
    (iprop((bigSep (Finset.range (nIss L 1)) fun j => o0Loc d ↦[chunkSet L 1 j]{fullShare} f)
      ∗ ((b1V).view.loc (VT d L) ↦[(b1V).view.set]{fullShare} t) ∗ semVal (VT d L, SemLoc.dma (dsem 1)) 0) : sProp 𝕄)
    ⊢ bufState0_1 d L x f 0 := by
  unfold bufState0_1
  rw [issued_zero, if_pos rfl, Nat.zero_sub, Finset.range_zero, bigSep_empty, ← todo_all]
  unfold bufIdle1
  iintro ⟨HD, HT, Hc⟩
  isplitl []
  · iempintro
  isplitl [HD]; · iexact HD
  isplitl [HT]; · iexists t; iexact HT
  iexact Hc

theorem bufState0_2_init (x : Buf (Elt F) (x0Loc d)) (f : Buf (Elt F) (o0Loc d)) (t : Buf (Elt F) ((b2V).view.loc (VT d L))) :
    (iprop((bigSep (Finset.range (nIss L 2)) fun j => o0Loc d ↦[chunkSet L 2 j]{fullShare} f)
      ∗ ((b2V).view.loc (VT d L) ↦[(b2V).view.set]{fullShare} t) ∗ semVal (VT d L, SemLoc.dma (dsem 2)) 0) : sProp 𝕄)
    ⊢ bufState0_2 d L x f 0 := by
  unfold bufState0_2
  rw [issued_zero, if_pos rfl, Nat.zero_sub, Finset.range_zero, bigSep_empty, ← todo_all]
  unfold bufIdle2
  iintro ⟨HD, HT, Hc⟩
  isplitl []
  · iempintro
  isplitl [HD]; · iexact HD
  isplitl [HT]; · iexists t; iexact HT
  iexact Hc

end Cert.Proof.KI

end
-- ==== Proof.ValTail.lean ====
/-
  What the end of the first pass leaves in a result: the last chunk of buffer 0 as the program slices it, and
  the last tile's two tail pieces, delivered from staging buffer 0 when its rows hold the patches, hold the image's
  patches; a tile without a tail holds its (empty) tail pieces at any contents.
-/
import proofs.«212940_g32057635897708_cont_8to1_b_1299_25_alg».proof.Proof.Inv
import proofs.«212940_g32057635897708_cont_8to1_b_1299_25_alg».proof.Proof.Book
import proofs.«212940_g32057635897708_cont_8to1_b_1299_25_alg».proof.Proof.ValMem
import proofs.«212940_g32057635897708_cont_8to1_b_1299_25_alg».proof.Proof.ProgMem
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)
/-! ## The first pass -/

omit [FloatOps F] in
/-- A chunk of the first result sliced at an offset vector that is the chunk's, delivered whole from a block whose rows
    hold the patches from the chunk's first row, holds the image's patches. -/
theorem landed_respell0 (off : Fin 2 → Nat) (p j : Nat) (hoff : off = ![chunkRowC L p j, 0])
    (inb : ∀ a, off a + S32x768.size a ≤ S62001x768.size a) (hp : p < 3) (hj : j < nIss L p)
    (x0 : Buf (Elt F) (x0Loc d)) (f : Buf (Elt F) (o0Loc d))
    (w : S32x768.Idx → Elt F .f32) (h : RowsDone (α := Elt F .f32) w x0 (chunkRow L p j) 32) :
    ((((o0V).slice (Rect.unit (s := S62001x768) off S32x768.size inb) (fun _ => rfl)).view.loc (VT d L)
        ↦[((o0V).slice (Rect.unit (s := S62001x768) off S32x768.size inb) (fun _ => rfl)).view.set]{fullShare}
        ((o0V).slice (Rect.unit (s := S62001x768) off S32x768.size inb) (fun _ => rfl)).view.writes (Elt F) f
          [⟨Rect.whole S32x768, ReadAs.same.apply w⟩]) : sProp 𝕄)
      = o0Loc d ↦[chunkSet L p j]{fullShare} pat0 d x0 := by
  subst hoff
  exact landed_pts0 d L p j hp hj x0 f w h

omit [FloatOps F] in
theorem last_landed0 (h7 : k0_cond7 L = 1#1) (x0 : Buf (Elt F) (x0Loc d)) (f : Buf (Elt F) (o0Loc d))
    (w : S32x768.Idx → Elt F .f32) (h : RowsDone (α := Elt F .f32) w x0 (chunkRow L 0 20) 32) :
    ((((o0V).slice (Rect.unit (s := S62001x768) (k0_off205 L) S32x768.size (k0_off205_inb L h7)) (fun _ => rfl)).view.loc (VT d L)
        ↦[((o0V).slice (Rect.unit (s := S62001x768) (k0_off205 L) S32x768.size (k0_off205_inb L h7)) (fun _ => rfl)).view.set]{fullShare}
        ((o0V).slice (Rect.unit (s := S62001x768) (k0_off205 L) S32x768.size (k0_off205_inb L h7)) (fun _ => rfl)).view.writes (Elt F) f
          [⟨Rect.whole S32x768, ReadAs.same.apply w⟩]) : sProp 𝕄)
      = o0Loc d ↦[chunkSet L 0 20]{fullShare} pat0 d x0 :=
  landed_respell0 d L (k0_off205 L) 0 20 (off205_chunk L h7) (k0_off205_inb L h7) (by omega)
    (by have := (cond7_iff L).mp h7; unfold nIss nch; rw [if_neg this]; omega) x0 f w h

omit [FloatOps F] in
/-- Entry `(r, c)` of a block written whole over the last tile's 16-row tail piece lands at row `61984 + r`, column
    `c`; if the block's entries are the patches' features there, the piece holds the image's patches. -/
theorem tailA_val (x0 : Buf (Elt F) (x0Loc d)) (f : Buf (Elt F) (o0Loc d)) (w : S16x768.Idx → Elt F .f32)
    (hw : ∀ y : S16x768.Idx, w y = xAt x0 (flatPos (61984 + (y 0).val) (y 1).val)) :
    ∀ i ∈ ((o0V).slice (Rect.unit (s := S62001x768) ![61984, 0] S16x768.size inb_S62001x768_S16x768_61984_0) (fun _ => rfl)).view.set,
      (((o0V).slice (Rect.unit (s := S62001x768) ![61984, 0] S16x768.size inb_S62001x768_S16x768_61984_0) (fun _ => rfl)).view.writes (Elt F) f [⟨Rect.whole S16x768, ReadAs.same.apply w⟩]) i = pat0 d x0 i := by
  intro i hi
  obtain ⟨y, -, rfl⟩ := Finset.mem_map.mp hi
  have key := View.read_writes_cons_emb ((o0V).slice (Rect.unit (s := S62001x768) ![61984, 0] S16x768.size inb_S62001x768_S16x768_61984_0) (fun _ => rfl)).view f (Rect.whole S16x768) (ReadAs.same.apply w) [] y
  have e1 : (Rect.whole S16x768).emb y = y := Rect.emb_whole_apply S16x768 y
  rw [e1] at key
  -- read back through the piece's view, the written block is the payload; the prior contents play no part
  generalize ((o0V).slice (Rect.unit (s := S62001x768) ![61984, 0] S16x768.size inb_S62001x768_S16x768_61984_0) (fun _ => rfl)).view.writes (Elt F) f [⟨Rect.whole S16x768, ReadAs.same.apply w⟩] = G at key ⊢
  have hG : G (((o0V).slice (Rect.unit (s := S62001x768) ![61984, 0] S16x768.size inb_S62001x768_S16x768_61984_0) (fun _ => rfl)).view.emb y) = ((o0V).slice (Rect.unit (s := S62001x768) ![61984, 0] S16x768.size inb_S62001x768_S16x768_61984_0) (fun _ => rfl)).view.read (Elt F) G y := rfl
  rw [hG, key, ReadAs.apply_same, hw y]
  unfold pat0
  rw [Cert.Unfold.patchesFlat_eq_xAt]
  have e0 : ((((o0V).slice (Rect.unit (s := S62001x768) ![61984, 0] S16x768.size inb_S62001x768_S16x768_61984_0) (fun _ => rfl)).view.emb y) 0).val = 61984 + (y 0).val := by
    show 61984 + 1 * (y 0).val = _; omega
  have e1' : ((((o0V).slice (Rect.unit (s := S62001x768) ![61984, 0] S16x768.size inb_S62001x768_S16x768_61984_0) (fun _ => rfl)).view.emb y) 1).val = (y 1).val := by
    show 0 + 1 * (y 1).val = _; omega
  rw [e0, e1']

omit [FloatOps F] in
/-- Rows `0 …` of staging buffer 0, read through the 16-row slice, are the patches from row 61984. -/
theorem tailA_pay (x0 : Buf (Elt F) (x0Loc d)) (t : Buf (Elt F) ((b0V).view.loc (VT d L)))
    (ht : RowsDone (α := Elt F .f32) ((b0V).view.read (Elt F) t) x0 61984 17) (y : S16x768.Idx) :
    (((b0V).slice (Rect.unit (s := S32x768) ![0, 0] S16x768.size inb_S32x768_S16x768_0_0) (fun _ => rfl)).view.read (Elt F) t) y = xAt x0 (flatPos (61984 + (y 0).val) (y 1).val) := by
  have h0 : (y 0).val < 16 := (y 0).isLt
  have hr : 0 + (y 0).val < 32 := by omega
  have hrow := ht ⟨0 + (y 0).val, hr⟩ (y 1) (by show 0 + (y 0).val < 17; omega)
  have e : 61984 + (0 + (y 0).val) = 61984 + (y 0).val := by omega
  rw [show (⟨0 + (y 0).val, hr⟩ : Fin 32).val = 0 + (y 0).val from rfl, e] at hrow
  refine Eq.trans ?_ hrow
  have hemb : ((b0V).slice (Rect.unit (s := S32x768) ![0, 0] S16x768.size inb_S32x768_S16x768_0_0) (fun _ => rfl)).view.emb y = (b0V).view.emb (ix2 ⟨0 + (y 0).val, hr⟩ (y 1)) := by
    funext a
    apply Fin.ext
    match a with
    | ⟨0, _⟩ => show 0 + 1 * (y 0).val = 0 + (y 0).val; omega
    | ⟨1, _⟩ => show 0 + 1 * (y 1).val = (y 1).val; omega
  rw [View.read_apply, View.read_apply, hemb]

omit [FloatOps F] in
theorem tailA_landed0 (hw : wid L = 31) (x0 : Buf (Elt F) (x0Loc d)) (f : Buf (Elt F) (o0Loc d))
    (t : Buf (Elt F) ((b0V).view.loc (VT d L))) (ht : RowsDone (α := Elt F .f32) ((b0V).view.read (Elt F) t) x0 61984 17) :
    ((((o0V).slice (Rect.unit (s := S62001x768) ![61984, 0] S16x768.size inb_S62001x768_S16x768_61984_0) (fun _ => rfl)).view.loc (VT d L)
        ↦[((o0V).slice (Rect.unit (s := S62001x768) ![61984, 0] S16x768.size inb_S62001x768_S16x768_61984_0) (fun _ => rfl)).view.set]{fullShare}
        ((o0V).slice (Rect.unit (s := S62001x768) ![61984, 0] S16x768.size inb_S62001x768_S16x768_61984_0) (fun _ => rfl)).view.writes (Elt F) f
          [⟨Rect.whole S16x768, ReadAs.same.apply (((b0V).slice (Rect.unit (s := S32x768) ![0, 0] S16x768.size inb_S32x768_S16x768_0_0) (fun _ => rfl)).view.read (Elt F) t)⟩]) : sProp 𝕄)
      = o0Loc d ↦[tailSetA L]{fullShare} pat0 d x0 := by
  rw [← (set_o0_slice (Rect.unit (s := S62001x768) ![61984, 0] S16x768.size inb_S62001x768_S16x768_61984_0) (fun _ => rfl)).trans (tailA_set L hw)]
  exact pointsTo_congr (tailA_val d x0 f _ (tailA_pay d L x0 t ht))

omit [FloatOps F] in
/-- Entry `(r, c)` of a block written whole over the last tile's 1-row tail piece lands at row `62000 + r`, column
    `c`; if the block's entries are the patches' features there, the piece holds the image's patches. -/
theorem tailB_val (x0 : Buf (Elt F) (x0Loc d)) (f : Buf (Elt F) (o0Loc d)) (w : S1x768.Idx → Elt F .f32)
    (hw : ∀ y : S1x768.Idx, w y = xAt x0 (flatPos (62000 + (y 0).val) (y 1).val)) :
    ∀ i ∈ ((o0V).slice (Rect.unit (s := S62001x768) ![62000, 0] S1x768.size inb_S62001x768_S1x768_62000_0) (fun _ => rfl)).view.set,
      (((o0V).slice (Rect.unit (s := S62001x768) ![62000, 0] S1x768.size inb_S62001x768_S1x768_62000_0) (fun _ => rfl)).view.writes (Elt F) f [⟨Rect.whole S1x768, ReadAs.same.apply w⟩]) i = pat0 d x0 i := by
  intro i hi
  obtain ⟨y, -, rfl⟩ := Finset.mem_map.mp hi
  have key := View.read_writes_cons_emb ((o0V).slice (Rect.unit (s := S62001x768) ![62000, 0] S1x768.size inb_S62001x768_S1x768_62000_0) (fun _ => rfl)).view f (Rect.whole S1x768) (ReadAs.same.apply w) [] y
  have e1 : (Rect.whole S1x768).emb y = y := Rect.emb_whole_apply S1x768 y
  rw [e1] at key
  -- read back through the piece's view, the written block is the payload; the prior contents play no part
  generalize ((o0V).slice (Rect.unit (s := S62001x768) ![62000, 0] S1x768.size inb_S62001x768_S1x768_62000_0) (fun _ => rfl)).view.writes (Elt F) f [⟨Rect.whole S1x768, ReadAs.same.apply w⟩] = G at key ⊢
  have hG : G (((o0V).slice (Rect.unit (s := S62001x768) ![62000, 0] S1x768.size inb_S62001x768_S1x768_62000_0) (fun _ => rfl)).view.emb y) = ((o0V).slice (Rect.unit (s := S62001x768) ![62000, 0] S1x768.size inb_S62001x768_S1x768_62000_0) (fun _ => rfl)).view.read (Elt F) G y := rfl
  rw [hG, key, ReadAs.apply_same, hw y]
  unfold pat0
  rw [Cert.Unfold.patchesFlat_eq_xAt]
  have e0 : ((((o0V).slice (Rect.unit (s := S62001x768) ![62000, 0] S1x768.size inb_S62001x768_S1x768_62000_0) (fun _ => rfl)).view.emb y) 0).val = 62000 + (y 0).val := by
    show 62000 + 1 * (y 0).val = _; omega
  have e1' : ((((o0V).slice (Rect.unit (s := S62001x768) ![62000, 0] S1x768.size inb_S62001x768_S1x768_62000_0) (fun _ => rfl)).view.emb y) 1).val = (y 1).val := by
    show 0 + 1 * (y 1).val = _; omega
  rw [e0, e1']

omit [FloatOps F] in
/-- Rows `16 …` of staging buffer 0, read through the 1-row slice, are the patches from row 62000. -/
theorem tailB_pay (x0 : Buf (Elt F) (x0Loc d)) (t : Buf (Elt F) ((b0V).view.loc (VT d L)))
    (ht : RowsDone (α := Elt F .f32) ((b0V).view.read (Elt F) t) x0 61984 17) (y : S1x768.Idx) :
    (((b0V).slice (Rect.unit (s := S32x768) ![16, 0] S1x768.size inb_S32x768_S1x768_16_0) (fun _ => rfl)).view.read (Elt F) t) y = xAt x0 (flatPos (62000 + (y 0).val) (y 1).val) := by
  have h0 : (y 0).val < 1 := (y 0).isLt
  have hr : 16 + (y 0).val < 32 := by omega
  have hrow := ht ⟨16 + (y 0).val, hr⟩ (y 1) (by show 16 + (y 0).val < 17; omega)
  have e : 61984 + (16 + (y 0).val) = 62000 + (y 0).val := by omega
  rw [show (⟨16 + (y 0).val, hr⟩ : Fin 32).val = 16 + (y 0).val from rfl, e] at hrow
  refine Eq.trans ?_ hrow
  have hemb : ((b0V).slice (Rect.unit (s := S32x768) ![16, 0] S1x768.size inb_S32x768_S1x768_16_0) (fun _ => rfl)).view.emb y = (b0V).view.emb (ix2 ⟨16 + (y 0).val, hr⟩ (y 1)) := by
    funext a
    apply Fin.ext
    match a with
    | ⟨0, _⟩ => show 16 + 1 * (y 0).val = 16 + (y 0).val; omega
    | ⟨1, _⟩ => show 0 + 1 * (y 1).val = (y 1).val; omega
  rw [View.read_apply, View.read_apply, hemb]

omit [FloatOps F] in
theorem tailB_landed0 (hw : wid L = 31) (x0 : Buf (Elt F) (x0Loc d)) (f : Buf (Elt F) (o0Loc d))
    (t : Buf (Elt F) ((b0V).view.loc (VT d L))) (ht : RowsDone (α := Elt F .f32) ((b0V).view.read (Elt F) t) x0 61984 17) :
    ((((o0V).slice (Rect.unit (s := S62001x768) ![62000, 0] S1x768.size inb_S62001x768_S1x768_62000_0) (fun _ => rfl)).view.loc (VT d L)
        ↦[((o0V).slice (Rect.unit (s := S62001x768) ![62000, 0] S1x768.size inb_S62001x768_S1x768_62000_0) (fun _ => rfl)).view.set]{fullShare}
        ((o0V).slice (Rect.unit (s := S62001x768) ![62000, 0] S1x768.size inb_S62001x768_S1x768_62000_0) (fun _ => rfl)).view.writes (Elt F) f
          [⟨Rect.whole S1x768, ReadAs.same.apply (((b0V).slice (Rect.unit (s := S32x768) ![16, 0] S1x768.size inb_S32x768_S1x768_16_0) (fun _ => rfl)).view.read (Elt F) t)⟩]) : sProp 𝕄)
      = o0Loc d ↦[tailSetB L]{fullShare} pat0 d x0 := by
  rw [← (set_o0_slice (Rect.unit (s := S62001x768) ![62000, 0] S1x768.size inb_S62001x768_S1x768_62000_0) (fun _ => rfl)).trans (tailB_set L hw)]
  exact pointsTo_congr (tailB_val d x0 f _ (tailB_pay d L x0 t ht))

omit [FloatOps F] in
/-- A tile other than the last has no tail: its (empty) tail pieces hold whatever one likes. -/
theorem tailA_none (hw : ¬ wid L = 31) (f g : Buf (Elt F) (o0Loc d)) :
    (o0Loc d ↦[tailSetA L]{fullShare} f : sProp 𝕄) = o0Loc d ↦[tailSetA L]{fullShare} g :=
  pointsTo_congr fun i hi => by unfold tailSetA at hi; rw [if_neg hw] at hi; exact absurd hi (Finset.notMem_empty i)
omit [FloatOps F] in
theorem tailB_none (hw : ¬ wid L = 31) (f g : Buf (Elt F) (o0Loc d)) :
    (o0Loc d ↦[tailSetB L]{fullShare} f : sProp 𝕄) = o0Loc d ↦[tailSetB L]{fullShare} g :=
  pointsTo_congr fun i hi => by unfold tailSetB at hi; rw [if_neg hw] at hi; exact absurd hi (Finset.notMem_empty i)

/-! ## The second pass -/

omit [FloatOps F] in
/-- A chunk of the second result sliced at an offset vector that is the chunk's, delivered whole from a block whose rows
    hold the patches from the chunk's first row, holds the image's patches. -/
theorem landed_respell1 (off : Fin 2 → Nat) (p j : Nat) (hoff : off = ![chunkRowC L p j, 0])
    (inb : ∀ a, off a + S32x768.size a ≤ S62001x768.size a) (hp : p < 3) (hj : j < nIss L p)
    (x1 : Buf (Elt F) (x1Loc d)) (f : Buf (Elt F) (o1Loc d))
    (w : S32x768.Idx → Elt F .f32) (h : RowsDone (α := Elt F .f32) w x1 (chunkRow L p j) 32) :
    ((((o1V).slice (Rect.unit (s := S62001x768) off S32x768.size inb) (fun _ => rfl)).view.loc (VT d L)
        ↦[((o1V).slice (Rect.unit (s := S62001x768) off S32x768.size inb) (fun _ => rfl)).view.set]{fullShare}
        ((o1V).slice (Rect.unit (s := S62001x768) off S32x768.size inb) (fun _ => rfl)).view.writes (Elt F) f
          [⟨Rect.whole S32x768, ReadAs.same.apply w⟩]) : sProp 𝕄)
      = o1Loc d ↦[chunkSet L p j]{fullShare} pat1 d x1 := by
  subst hoff
  exact landed_pts1 d L p j hp hj x1 f w h

omit [FloatOps F] in
theorem last_landed1 (h16 : k0_cond16 L = 1#1) (x1 : Buf (Elt F) (x1Loc d)) (f : Buf (Elt F) (o1Loc d))
    (w : S32x768.Idx → Elt F .f32) (h : RowsDone (α := Elt F .f32) w x1 (chunkRow L 0 20) 32) :
    ((((o1V).slice (Rect.unit (s := S62001x768) (k0_off458 L) S32x768.size (k0_off458_inb L h16)) (fun _ => rfl)).view.loc (VT d L)
        ↦[((o1V).slice (Rect.unit (s := S62001x768) (k0_off458 L) S32x768.size (k0_off458_inb L h16)) (fun _ => rfl)).view.set]{fullShare}
        ((o1V).slice (Rect.unit (s := S62001x768) (k0_off458 L) S32x768.size (k0_off458_inb L h16)) (fun _ => rfl)).view.writes (Elt F) f
          [⟨Rect.whole S32x768, ReadAs.same.apply w⟩]) : sProp 𝕄)
      = o1Loc d ↦[chunkSet L 0 20]{fullShare} pat1 d x1 :=
  landed_respell1 d L (k0_off458 L) 0 20 (off458_chunk L h16) (k0_off458_inb L h16) (by omega)
    (by have := (cond16_iff L).mp h16; unfold nIss nch; rw [if_neg this]; omega) x1 f w h

omit [FloatOps F] in
/-- Entry `(r, c)` of a block written whole over the last tile's 16-row tail piece lands at row `61984 + r`, column
    `c`; if the block's entries are the patches' features there, the piece holds the image's patches. -/
theorem tailA_val1 (x1 : Buf (Elt F) (x1Loc d)) (f : Buf (Elt F) (o1Loc d)) (w : S16x768.Idx → Elt F .f32)
    (hw : ∀ y : S16x768.Idx, w y = xAt x1 (flatPos (61984 + (y 0).val) (y 1).val)) :
    ∀ i ∈ ((o1V).slice (Rect.unit (s := S62001x768) ![61984, 0] S16x768.size inb_S62001x768_S16x768_61984_0) (fun _ => rfl)).view.set,
      (((o1V).slice (Rect.unit (s := S62001x768) ![61984, 0] S16x768.size inb_S62001x768_S16x768_61984_0) (fun _ => rfl)).view.writes (Elt F) f [⟨Rect.whole S16x768, ReadAs.same.apply w⟩]) i = pat1 d x1 i := by
  intro i hi
  obtain ⟨y, -, rfl⟩ := Finset.mem_map.mp hi
  have key := View.read_writes_cons_emb ((o1V).slice (Rect.unit (s := S62001x768) ![61984, 0] S16x768.size inb_S62001x768_S16x768_61984_0) (fun _ => rfl)).view f (Rect.whole S16x768) (ReadAs.same.apply w) [] y
  have e1 : (Rect.whole S16x768).emb y = y := Rect.emb_whole_apply S16x768 y
  rw [e1] at key
  -- read back through the piece's view, the written block is the payload; the prior contents play no part
  generalize ((o1V).slice (Rect.unit (s := S62001x768) ![61984, 0] S16x768.size inb_S62001x768_S16x768_61984_0) (fun _ => rfl)).view.writes (Elt F) f [⟨Rect.whole S16x768, ReadAs.same.apply w⟩] = G at key ⊢
  have hG : G (((o1V).slice (Rect.unit (s := S62001x768) ![61984, 0] S16x768.size inb_S62001x768_S16x768_61984_0) (fun _ => rfl)).view.emb y) = ((o1V).slice (Rect.unit (s := S62001x768) ![61984, 0] S16x768.size inb_S62001x768_S16x768_61984_0) (fun _ => rfl)).view.read (Elt F) G y := rfl
  rw [hG, key, ReadAs.apply_same, hw y]
  unfold pat1
  rw [Cert.Unfold.patchesFlat_eq_xAt]
  have e0 : ((((o1V).slice (Rect.unit (s := S62001x768) ![61984, 0] S16x768.size inb_S62001x768_S16x768_61984_0) (fun _ => rfl)).view.emb y) 0).val = 61984 + (y 0).val := by
    show 61984 + 1 * (y 0).val = _; omega
  have e1' : ((((o1V).slice (Rect.unit (s := S62001x768) ![61984, 0] S16x768.size inb_S62001x768_S16x768_61984_0) (fun _ => rfl)).view.emb y) 1).val = (y 1).val := by
    show 0 + 1 * (y 1).val = _; omega
  rw [e0, e1']

omit [FloatOps F] in
/-- Rows `0 …` of staging buffer 0, read through the 16-row slice, are the patches from row 61984. -/
theorem tailA_pay1 (x1 : Buf (Elt F) (x1Loc d)) (t : Buf (Elt F) ((b0V).view.loc (VT d L)))
    (ht : RowsDone (α := Elt F .f32) ((b0V).view.read (Elt F) t) x1 61984 17) (y : S16x768.Idx) :
    (((b0V).slice (Rect.unit (s := S32x768) ![0, 0] S16x768.size inb_S32x768_S16x768_0_0) (fun _ => rfl)).view.read (Elt F) t) y = xAt x1 (flatPos (61984 + (y 0).val) (y 1).val) := by
  have h0 : (y 0).val < 16 := (y 0).isLt
  have hr : 0 + (y 0).val < 32 := by omega
  have hrow := ht ⟨0 + (y 0).val, hr⟩ (y 1) (by show 0 + (y 0).val < 17; omega)
  have e : 61984 + (0 + (y 0).val) = 61984 + (y 0).val := by omega
  rw [show (⟨0 + (y 0).val, hr⟩ : Fin 32).val = 0 + (y 0).val from rfl, e] at hrow
  refine Eq.trans ?_ hrow
  have hemb : ((b0V).slice (Rect.unit (s := S32x768) ![0, 0] S16x768.size inb_S32x768_S16x768_0_0) (fun _ => rfl)).view.emb y = (b0V).view.emb (ix2 ⟨0 + (y 0).val, hr⟩ (y 1)) := by
    funext a
    apply Fin.ext
    match a with
    | ⟨0, _⟩ => show 0 + 1 * (y 0).val = 0 + (y 0).val; omega
    | ⟨1, _⟩ => show 0 + 1 * (y 1).val = (y 1).val; omega
  rw [View.read_apply, View.read_apply, hemb]

omit [FloatOps F] in
theorem tailA_landed1 (hw : wid L = 31) (x1 : Buf (Elt F) (x1Loc d)) (f : Buf (Elt F) (o1Loc d))
    (t : Buf (Elt F) ((b0V).view.loc (VT d L))) (ht : RowsDone (α := Elt F .f32) ((b0V).view.read (Elt F) t) x1 61984 17) :
    ((((o1V).slice (Rect.unit (s := S62001x768) ![61984, 0] S16x768.size inb_S62001x768_S16x768_61984_0) (fun _ => rfl)).view.loc (VT d L)
        ↦[((o1V).slice (Rect.unit (s := S62001x768) ![61984, 0] S16x768.size inb_S62001x768_S16x768_61984_0) (fun _ => rfl)).view.set]{fullShare}
        ((o1V).slice (Rect.unit (s := S62001x768) ![61984, 0] S16x768.size inb_S62001x768_S16x768_61984_0) (fun _ => rfl)).view.writes (Elt F) f
          [⟨Rect.whole S16x768, ReadAs.same.apply (((b0V).slice (Rect.unit (s := S32x768) ![0, 0] S16x768.size inb_S32x768_S16x768_0_0) (fun _ => rfl)).view.read (Elt F) t)⟩]) : sProp 𝕄)
      = o1Loc d ↦[tailSetA L]{fullShare} pat1 d x1 := by
  rw [← (set_o1_slice (Rect.unit (s := S62001x768) ![61984, 0] S16x768.size inb_S62001x768_S16x768_61984_0) (fun _ => rfl)).trans (tailA_set L hw)]
  exact pointsTo_congr (tailA_val1 d x1 f _ (tailA_pay1 d L x1 t ht))

omit [FloatOps F] in
/-- Entry `(r, c)` of a block written whole over the last tile's 1-row tail piece lands at row `62000 + r`, column
    `c`; if the block's entries are the patches' features there, the piece holds the image's patches. -/
theorem tailB_val1 (x1 : Buf (Elt F) (x1Loc d)) (f : Buf (Elt F) (o1Loc d)) (w : S1x768.Idx → Elt F .f32)
    (hw : ∀ y : S1x768.Idx, w y = xAt x1 (flatPos (62000 + (y 0).val) (y 1).val)) :
    ∀ i ∈ ((o1V).slice (Rect.unit (s := S62001x768) ![62000, 0] S1x768.size inb_S62001x768_S1x768_62000_0) (fun _ => rfl)).view.set,
      (((o1V).slice (Rect.unit (s := S62001x768) ![62000, 0] S1x768.size inb_S62001x768_S1x768_62000_0) (fun _ => rfl)).view.writes (Elt F) f [⟨Rect.whole S1x768, ReadAs.same.apply w⟩]) i = pat1 d x1 i := by
  intro i hi
  obtain ⟨y, -, rfl⟩ := Finset.mem_map.mp hi
  have key := View.read_writes_cons_emb ((o1V).slice (Rect.unit (s := S62001x768) ![62000, 0] S1x768.size inb_S62001x768_S1x768_62000_0) (fun _ => rfl)).view f (Rect.whole S1x768) (ReadAs.same.apply w) [] y
  have e1 : (Rect.whole S1x768).emb y = y := Rect.emb_whole_apply S1x768 y
  rw [e1] at key
  -- read back through the piece's view, the written block is the payload; the prior contents play no part
  generalize ((o1V).slice (Rect.unit (s := S62001x768) ![62000, 0] S1x768.size inb_S62001x768_S1x768_62000_0) (fun _ => rfl)).view.writes (Elt F) f [⟨Rect.whole S1x768, ReadAs.same.apply w⟩] = G at key ⊢
  have hG : G (((o1V).slice (Rect.unit (s := S62001x768) ![62000, 0] S1x768.size inb_S62001x768_S1x768_62000_0) (fun _ => rfl)).view.emb y) = ((o1V).slice (Rect.unit (s := S62001x768) ![62000, 0] S1x768.size inb_S62001x768_S1x768_62000_0) (fun _ => rfl)).view.read (Elt F) G y := rfl
  rw [hG, key, ReadAs.apply_same, hw y]
  unfold pat1
  rw [Cert.Unfold.patchesFlat_eq_xAt]
  have e0 : ((((o1V).slice (Rect.unit (s := S62001x768) ![62000, 0] S1x768.size inb_S62001x768_S1x768_62000_0) (fun _ => rfl)).view.emb y) 0).val = 62000 + (y 0).val := by
    show 62000 + 1 * (y 0).val = _; omega
  have e1' : ((((o1V).slice (Rect.unit (s := S62001x768) ![62000, 0] S1x768.size inb_S62001x768_S1x768_62000_0) (fun _ => rfl)).view.emb y) 1).val = (y 1).val := by
    show 0 + 1 * (y 1).val = _; omega
  rw [e0, e1']

omit [FloatOps F] in
/-- Rows `16 …` of staging buffer 0, read through the 1-row slice, are the patches from row 62000. -/
theorem tailB_pay1 (x1 : Buf (Elt F) (x1Loc d)) (t : Buf (Elt F) ((b0V).view.loc (VT d L)))
    (ht : RowsDone (α := Elt F .f32) ((b0V).view.read (Elt F) t) x1 61984 17) (y : S1x768.Idx) :
    (((b0V).slice (Rect.unit (s := S32x768) ![16, 0] S1x768.size inb_S32x768_S1x768_16_0) (fun _ => rfl)).view.read (Elt F) t) y = xAt x1 (flatPos (62000 + (y 0).val) (y 1).val) := by
  have h0 : (y 0).val < 1 := (y 0).isLt
  have hr : 16 + (y 0).val < 32 := by omega
  have hrow := ht ⟨16 + (y 0).val, hr⟩ (y 1) (by show 16 + (y 0).val < 17; omega)
  have e : 61984 + (16 + (y 0).val) = 62000 + (y 0).val := by omega
  rw [show (⟨16 + (y 0).val, hr⟩ : Fin 32).val = 16 + (y 0).val from rfl, e] at hrow
  refine Eq.trans ?_ hrow
  have hemb : ((b0V).slice (Rect.unit (s := S32x768) ![16, 0] S1x768.size inb_S32x768_S1x768_16_0) (fun _ => rfl)).view.emb y = (b0V).view.emb (ix2 ⟨16 + (y 0).val, hr⟩ (y 1)) := by
    funext a
    apply Fin.ext
    match a with
    | ⟨0, _⟩ => show 16 + 1 * (y 0).val = 16 + (y 0).val; omega
    | ⟨1, _⟩ => show 0 + 1 * (y 1).val = (y 1).val; omega
  rw [View.read_apply, View.read_apply, hemb]

omit [FloatOps F] in
theorem tailB_landed1 (hw : wid L = 31) (x1 : Buf (Elt F) (x1Loc d)) (f : Buf (Elt F) (o1Loc d))
    (t : Buf (Elt F) ((b0V).view.loc (VT d L))) (ht : RowsDone (α := Elt F .f32) ((b0V).view.read (Elt F) t) x1 61984 17) :
    ((((o1V).slice (Rect.unit (s := S62001x768) ![62000, 0] S1x768.size inb_S62001x768_S1x768_62000_0) (fun _ => rfl)).view.loc (VT d L)
        ↦[((o1V).slice (Rect.unit (s := S62001x768) ![62000, 0] S1x768.size inb_S62001x768_S1x768_62000_0) (fun _ => rfl)).view.set]{fullShare}
        ((o1V).slice (Rect.unit (s := S62001x768) ![62000, 0] S1x768.size inb_S62001x768_S1x768_62000_0) (fun _ => rfl)).view.writes (Elt F) f
          [⟨Rect.whole S1x768, ReadAs.same.apply (((b0V).slice (Rect.unit (s := S32x768) ![16, 0] S1x768.size inb_S32x768_S1x768_16_0) (fun _ => rfl)).view.read (Elt F) t)⟩]) : sProp 𝕄)
      = o1Loc d ↦[tailSetB L]{fullShare} pat1 d x1 := by
  rw [← (set_o1_slice (Rect.unit (s := S62001x768) ![62000, 0] S1x768.size inb_S62001x768_S1x768_62000_0) (fun _ => rfl)).trans (tailB_set L hw)]
  exact pointsTo_congr (tailB_val1 d x1 f _ (tailB_pay1 d L x1 t ht))

omit [FloatOps F] in
/-- A tile other than the last has no tail: its (empty) tail pieces hold whatever one likes. -/
theorem tailA_none1 (hw : ¬ wid L = 31) (f g : Buf (Elt F) (o1Loc d)) :
    (o1Loc d ↦[tailSetA L]{fullShare} f : sProp 𝕄) = o1Loc d ↦[tailSetA L]{fullShare} g :=
  pointsTo_congr fun i hi => by unfold tailSetA at hi; rw [if_neg hw] at hi; exact absurd hi (Finset.notMem_empty i)
omit [FloatOps F] in
theorem tailB_none1 (hw : ¬ wid L = 31) (f g : Buf (Elt F) (o1Loc d)) :
    (o1Loc d ↦[tailSetB L]{fullShare} f : sProp 𝕄) = o1Loc d ↦[tailSetB L]{fullShare} g :=
  pointsTo_congr fun i hi => by unfold tailSetB at hi; rw [if_neg hw] at hi; exact absurd hi (Finset.notMem_empty i)

end Cert.Proof.KI

end
-- ==== Proof.P104.lean ====
/-
  The first pass of a tile's task (after the first two channels of the image's window are in the slab): the third
  channel's copy, the chunk loop, the last chunk, the three final waits and, on the last tile, the tail. It ends with
  every chunk and tail piece of the tile's rows of the first result holding the first image's patches.
-/
import proofs.«212940_g32057635897708_cont_8to1_b_1299_25_alg».proof.Proof.Inv
import proofs.«212940_g32057635897708_cont_8to1_b_1299_25_alg».proof.Proof.Book
import proofs.«212940_g32057635897708_cont_8to1_b_1299_25_alg».proof.Proof.ProgMem
import proofs.«212940_g32057635897708_cont_8to1_b_1299_25_alg».proof.Proof.ValMem
import proofs.«212940_g32057635897708_cont_8to1_b_1299_25_alg».proof.Proof.Init
import proofs.«212940_g32057635897708_cont_8to1_b_1299_25_alg».proof.Proof.ValTail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)

omit [FloatOps F] in
/-- A transfer in flight into rows of result 0 named through one offset vector is the same assertion named through an equal one. -/
theorem flight_respell0 (sm : SemLoc sig) (off off' : Fin 2 → Nat) (h : off = off')
    (inb : ∀ a, off a + S32x768.size a ≤ S62001x768.size a) (inb' : ∀ a, off' a + S32x768.size a ≤ S62001x768.size a)
    (f : Buf (Elt F) (o0Loc d)) (w : S32x768.Idx → Elt F .f32) (R : sProp 𝕄) :
    (Transfers.Flight (countersEmb (U := UU)) (VT d L) sm (default : HIx 1) 786432
      iprop((((o0V).slice (Rect.unit (s := S62001x768) off S32x768.size inb) (fun _ => rfl)).view.loc (VT d L)
          ↦[((o0V).slice (Rect.unit (s := S62001x768) off S32x768.size inb) (fun _ => rfl)).view.set]{fullShare}
          ((o0V).slice (Rect.unit (s := S62001x768) off S32x768.size inb) (fun _ => rfl)).view.writes (Elt F) f
            [⟨Rect.whole (Rect.unit (s := S62001x768) off S32x768.size inb).shape, w⟩]) ∗ R) : sProp 𝕄)
    = Transfers.Flight (countersEmb (U := UU)) (VT d L) sm (default : HIx 1) 786432
      iprop((((o0V).slice (Rect.unit (s := S62001x768) off' S32x768.size inb') (fun _ => rfl)).view.loc (VT d L)
          ↦[((o0V).slice (Rect.unit (s := S62001x768) off' S32x768.size inb') (fun _ => rfl)).view.set]{fullShare}
          ((o0V).slice (Rect.unit (s := S62001x768) off' S32x768.size inb') (fun _ => rfl)).view.writes (Elt F) f
            [⟨Rect.whole (Rect.unit (s := S62001x768) off' S32x768.size inb').shape, w⟩]) ∗ R) := by
  subst h; rfl

/-- The chunk loop's invariant in the first pass, before trip `k`. -/
def chunkInv0 (O : CellTallies nD τ sig (HIx 1)) (W : Waits sig (HIx 1)) (x0 : Buf (Elt F) (x0Loc d)) (f0 : Buf (Elt F) (o0Loc d))
    (k : Nat) (_ : PUnit) : sProp 𝕄 :=
  iprop(Transfers.MayWaits (VT d L) (default : HIx 1) O
    ∗ slabInv d L x0 49152
    ∗ bufState0_0 d L x0 f0 k ∗ bufState0_1 d L x0 f0 k ∗ bufState0_2 d L x0 f0 k
    ∗ ∃ W', owes (VT d L) O W')

set_option maxHeartbeats 4000000 in
set_option pp.proofs false in
set_option pp.deepTerms false in
set_option pp.maxSteps 3000 in
theorem part104_run (v1 v2 v7 v9 v14 : BitVec 32) (O : CellTallies nD τ sig (HIx 1)) (W : Waits sig (HIx 1))
    (x0 : Buf (Elt F) (x0Loc d)) (f0 : Buf (Elt F) (o0Loc d))
    (t0 : Buf (Elt F) ((b0V).view.loc (VT d L))) (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ slabInv d L x0 32768
        ∗ (bigSep (Finset.range (nIss L 0)) fun j => o0Loc d ↦[chunkSet L 0 j]{fullShare} f0)
        ∗ (bigSep (Finset.range (nIss L 1)) fun j => o0Loc d ↦[chunkSet L 1 j]{fullShare} f0)
        ∗ (bigSep (Finset.range (nIss L 2)) fun j => o0Loc d ↦[chunkSet L 2 j]{fullShare} f0)
        ∗ (o0Loc d ↦[tailSetA L]{fullShare} f0) ∗ (o0Loc d ↦[tailSetB L]{fullShare} f0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ semVal (VT d L, SemLoc.dma (dsem 0)) 0 ∗ semVal (VT d L, SemLoc.dma (dsem 1)) 0 ∗ semVal (VT d L, SemLoc.dma (dsem 2)) 0
        ∗ semVal (VT d L, SemLoc.dma (dsem 5)) 0 ∗ semVal (VT d L, SemLoc.dma (dsem 6)) 0 ∗ semVal (VT d L, SemLoc.dma (dsem 7)) 0
        ∗ owes (VT d L) O W) : sProp 𝕄)
      ⊢ wp frame (wpE (defs₀ (F := F)) 𝒱₀ (VT d L) none) Set.univ
          (k0_part104 L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9 v1 v2 v7 v9 v14)
          fun _ => iprop(((x0V).view.loc (VT d L) ↦{tileShare (L 0).val (L 1).val} x0)
            ∗ (∃ g, (slabV).view.loc (VT d L) ↦[(slabV).view.set]{fullShare} g)
            ∗ (bigSep (Finset.range (nIss L 0)) fun j => o0Loc d ↦[chunkSet L 0 j]{fullShare} pat0 d x0)
            ∗ (bigSep (Finset.range (nIss L 1)) fun j => o0Loc d ↦[chunkSet L 1 j]{fullShare} pat0 d x0)
            ∗ (bigSep (Finset.range (nIss L 2)) fun j => o0Loc d ↦[chunkSet L 2 j]{fullShare} pat0 d x0)
            ∗ (o0Loc d ↦[tailSetA L]{fullShare} pat0 d x0) ∗ (o0Loc d ↦[tailSetB L]{fullShare} pat0 d x0)
            ∗ bufIdle0 d L ∗ bufIdle1 d L ∗ bufIdle2 d L
            ∗ semVal (VT d L, SemLoc.dma (dsem 5)) 0 ∗ semVal (VT d L, SemLoc.dma (dsem 6)) 0 ∗ semVal (VT d L, SemLoc.dma (dsem 7)) 0
            ∗ ∃ W', owes (VT d L) O W') := by
  iintro ⟨#Hmw, HX0, HS, HD0, HD1, HD2, HTA, HTB, HT0, HT1, HT2, Hc0, Hc1, Hc2, Hc5, Hc6, Hc7, HO⟩
  unfold slabInv
  icases HS with ⟨%g, %hg, HG⟩
  sl_unfold [k0_part104]
  sl_exec
  sl_for (chunkInv0 d L O W x0 f0) $$ [HG HD0 HD1 HD2 HT0 HT1 HT2 Hc0 Hc1 Hc2 HO]
  case region =>
    intro k _
    have hk20 : k.val < 20 := by have h := k.isLt; change k.val < k0_t1_loop.trips at h; rw [trips_t1] at h; exact h
    have hn0 : 16 ≤ nIss L 0 ∧ 15 ≤ nIss L 1 ∧ 15 ≤ nIss L 2 := by unfold nIss nch; split <;> omega
    have h32 : Scf.trips k0_t2_loop.lb k0_t2_loop.ub k0_t2_loop.st = 32 := by decide
    rcases Nat.eq_zero_or_pos k.val with hk0 | hkpos
    · -- trip 0: the three buffers are at rest; every block runs, none waits
      have h1 : k0_cond1 L k = 1#1 := (cond1_iff L k).2 (by rw [hk0]; unfold nch; split <;> omega)
      have h3 : k0_cond3 L k = 1#1 := (cond3_iff L k).2 (by rw [hk0]; unfold nch; split <;> omega)
      have h5 : k0_cond5 L k = 1#1 := (cond5_iff L k).2 (by rw [hk0]; unfold nch; split <;> omega)
      have h2 : ¬ k0_cond2 k = 1#1 := fun h => by have := (cond2_iff k).1 h; omega
      have h4 : ¬ k0_cond4 k = 1#1 := fun h => by have := (cond4_iff k).1 h; omega
      have h6 : ¬ k0_cond6 k = 1#1 := fun h => by have := (cond6_iff k).1 h; omega
      have e0 : issued L 0 k.val = k.val := by unfold issued; omega
      have e1 : issued L 1 k.val = k.val := by unfold issued; omega
      have e2 : issued L 2 k.val = k.val := by unfold issued; omega
      have e0' : issued L 0 (k.val + 1) = k.val + 1 := by unfold issued; omega
      have e1' : issued L 1 (k.val + 1) = k.val + 1 := by unfold issued; omega
      have e2' : issued L 2 (k.val + 1) = k.val + 1 := by unfold issued; omega
      show chunkInv0 d L O W x0 f0 k.val _ ⊢ wp _ _ _ _ (fun _ => chunkInv0 d L O W x0 f0 (k.val + 1) ⟨⟩)
      unfold chunkInv0 bufState0_0 bufState0_1 bufState0_2
      rw [e0, e1, e2, e0', e1', e2', if_pos hk0, if_pos hk0, if_pos hk0,
        if_neg (Nat.succ_ne_zero _), if_neg (Nat.succ_ne_zero _), if_neg (Nat.succ_ne_zero _)]
      simp only [Nat.add_sub_cancel]
      have hr0 : Finset.range k.val = ∅ := by rw [hk0, Finset.range_zero]
      rw [hr0, bigSep_empty]
      unfold bufIdle0 bufIdle1 bufIdle2 bufFlying0_0 bufFlying0_1 bufFlying0_2 slabInv
      iintro ⟨#Hmw, ⟨%gS, %hgS, HG⟩, ⟨-, Ht0, ⟨%t0, HT0⟩, Hc0⟩, ⟨-, Ht1, ⟨%t1, HT1⟩, Hc1⟩, ⟨-, Ht2, ⟨%t2, HT2⟩, Hc2⟩, %W', HO⟩
      sl_exec
      -- buffer 0: fill its 32 rows, then send them off as chunk k
      sl_for (rowInv0 d L x0 (chunkRow L 0 k.val)) $$ [HG HT0]
      case region =>
        intro jj _
        unfold rowInv0 slabInv bufRows0
        iintro ⟨⟨%g, %hg, HG⟩, %t, %ht, HT0⟩
        have hjj : jj.val < 32 := by have h := jj.isLt; change jj.val < k0_t2_loop.trips at h; rw [trips_t2] at h; omega
        sl_exec
        sl_step
        isplitl [HG]
        · iexists g; isplitr; · ipureintro; exact hg
          iexact HG
        iexists _; isplitr
        rotate_left
        · iexact HT0
        ipureintro
        have hk3 : 3 * k.val < nch L := (cond1_iff L k).1 h1
        have hnl := nch_le L
        have erow : chunkRow L 0 k.val + jj.val = wbase L + 96 * k.val + jj.val := by unfold chunkRow; omega
        have hr1 : wbase L ≤ wbase L + 96 * k.val + jj.val := by omega
        have hr2 : wbase L + 96 * k.val + jj.val < wbase L + nrows L := by omega
        refine rows_step' (b0V).view x0 (chunkRow L 0 k.val) jj.val hjj t _ ht ?_
        rw [erow]
        have pk := fun (c : Fin 3) (kh : Fin 16) =>
          piece_ok d L x0 g hg (wbase L + 96 * k.val + jj.val) jj.val hjj hr1 hr2 c kh
        apply PiecesOK.cons (pk 2 15 _ (off3_eq L k jj h1 2 15) _ _ (k0_off51_eq jj) _ _ _)
        apply PiecesOK.cons (pk 2 14 _ (off3_eq L k jj h1 2 14) _ _ (k0_off50_eq jj) _ _ _)
        apply PiecesOK.cons (pk 2 13 _ (off3_eq L k jj h1 2 13) _ _ (k0_off49_eq jj) _ _ _)
        apply PiecesOK.cons (pk 2 12 _ (off3_eq L k jj h1 2 12) _ _ (k0_off48_eq jj) _ _ _)
        apply PiecesOK.cons (pk 2 11 _ (off3_eq L k jj h1 2 11) _ _ (k0_off47_eq jj) _ _ _)
        apply PiecesOK.cons (pk 2 10 _ (off3_eq L k jj h1 2 10) _ _ (k0_off46_eq jj) _ _ _)
        apply PiecesOK.cons (pk 2 9 _ (off3_eq L k jj h1 2 9) _ _ (k0_off45_eq jj) _ _ _)
        apply PiecesOK.cons (pk 2 8 _ (off3_eq L k jj h1 2 8) _ _ (k0_off44_eq jj) _ _ _)
        apply PiecesOK.cons (pk 2 7 _ (off3_eq L k jj h1 2 7) _ _ (k0_off43_eq jj) _ _ _)
        apply PiecesOK.cons (pk 2 6 _ (off3_eq L k jj h1 2 6) _ _ (k0_off42_eq jj) _ _ _)
        apply PiecesOK.cons (pk 2 5 _ (off3_eq L k jj h1 2 5) _ _ (k0_off41_eq jj) _ _ _)
        apply PiecesOK.cons (pk 2 4 _ (off3_eq L k jj h1 2 4) _ _ (k0_off40_eq jj) _ _ _)
        apply PiecesOK.cons (pk 2 3 _ (off3_eq L k jj h1 2 3) _ _ (k0_off39_eq jj) _ _ _)
        apply PiecesOK.cons (pk 2 2 _ (off3_eq L k jj h1 2 2) _ _ (k0_off38_eq jj) _ _ _)
        apply PiecesOK.cons (pk 2 1 _ (off3_eq L k jj h1 2 1) _ _ (k0_off37_eq jj) _ _ _)
        apply PiecesOK.cons (pk 2 0 _ (off3_eq L k jj h1 2 0) _ _ (k0_off36_eq jj) _ _ _)
        apply PiecesOK.cons (pk 1 15 _ (off3_eq L k jj h1 1 15) _ _ (k0_off35_eq jj) _ _ _)
        apply PiecesOK.cons (pk 1 14 _ (off3_eq L k jj h1 1 14) _ _ (k0_off34_eq jj) _ _ _)
        apply PiecesOK.cons (pk 1 13 _ (off3_eq L k jj h1 1 13) _ _ (k0_off33_eq jj) _ _ _)
        apply PiecesOK.cons (pk 1 12 _ (off3_eq L k jj h1 1 12) _ _ (k0_off32_eq jj) _ _ _)
        apply PiecesOK.cons (pk 1 11 _ (off3_eq L k jj h1 1 11) _ _ (k0_off31_eq jj) _ _ _)
        apply PiecesOK.cons (pk 1 10 _ (off3_eq L k jj h1 1 10) _ _ (k0_off30_eq jj) _ _ _)
        apply PiecesOK.cons (pk 1 9 _ (off3_eq L k jj h1 1 9) _ _ (k0_off29_eq jj) _ _ _)
        apply PiecesOK.cons (pk 1 8 _ (off3_eq L k jj h1 1 8) _ _ (k0_off28_eq jj) _ _ _)
        apply PiecesOK.cons (pk 1 7 _ (off3_eq L k jj h1 1 7) _ _ (k0_off27_eq jj) _ _ _)
        apply PiecesOK.cons (pk 1 6 _ (off3_eq L k jj h1 1 6) _ _ (k0_off26_eq jj) _ _ _)
        apply PiecesOK.cons (pk 1 5 _ (off3_eq L k jj h1 1 5) _ _ (k0_off25_eq jj) _ _ _)
        apply PiecesOK.cons (pk 1 4 _ (off3_eq L k jj h1 1 4) _ _ (k0_off24_eq jj) _ _ _)
        apply PiecesOK.cons (pk 1 3 _ (off3_eq L k jj h1 1 3) _ _ (k0_off23_eq jj) _ _ _)
        apply PiecesOK.cons (pk 1 2 _ (off3_eq L k jj h1 1 2) _ _ (k0_off22_eq jj) _ _ _)
        apply PiecesOK.cons (pk 1 1 _ (off3_eq L k jj h1 1 1) _ _ (k0_off21_eq jj) _ _ _)
        apply PiecesOK.cons (pk 1 0 _ (off3_eq L k jj h1 1 0) _ _ (k0_off20_eq jj) _ _ _)
        apply PiecesOK.cons (pk 0 15 _ (off3_eq L k jj h1 0 15) _ _ (k0_off19_eq jj) _ _ _)
        apply PiecesOK.cons (pk 0 14 _ (off3_eq L k jj h1 0 14) _ _ (k0_off18_eq jj) _ _ _)
        apply PiecesOK.cons (pk 0 13 _ (off3_eq L k jj h1 0 13) _ _ (k0_off17_eq jj) _ _ _)
        apply PiecesOK.cons (pk 0 12 _ (off3_eq L k jj h1 0 12) _ _ (k0_off16_eq jj) _ _ _)
        apply PiecesOK.cons (pk 0 11 _ (off3_eq L k jj h1 0 11) _ _ (k0_off15_eq jj) _ _ _)
        apply PiecesOK.cons (pk 0 10 _ (off3_eq L k jj h1 0 10) _ _ (k0_off14_eq jj) _ _ _)
        apply PiecesOK.cons (pk 0 9 _ (off3_eq L k jj h1 0 9) _ _ (k0_off13_eq jj) _ _ _)
        apply PiecesOK.cons (pk 0 8 _ (off3_eq L k jj h1 0 8) _ _ (k0_off12_eq jj) _ _ _)
        apply PiecesOK.cons (pk 0 7 _ (off3_eq L k jj h1 0 7) _ _ (k0_off11_eq jj) _ _ _)
        apply PiecesOK.cons (pk 0 6 _ (off3_eq L k jj h1 0 6) _ _ (k0_off10_eq jj) _ _ _)
        apply PiecesOK.cons (pk 0 5 _ (off3_eq L k jj h1 0 5) _ _ (k0_off9_eq jj) _ _ _)
        apply PiecesOK.cons (pk 0 4 _ (off3_eq L k jj h1 0 4) _ _ (k0_off8_eq jj) _ _ _)
        apply PiecesOK.cons (pk 0 3 _ (off3_eq L k jj h1 0 3) _ _ (k0_off7_eq jj) _ _ _)
        apply PiecesOK.cons (pk 0 2 _ (off3_eq L k jj h1 0 2) _ _ (k0_off6_eq jj) _ _ _)
        apply PiecesOK.cons (pk 0 1 _ (off3_eq L k jj h1 0 1) _ _ (k0_off5_eq jj) _ _ _)
        apply PiecesOK.cons (pk 0 0 _ (off3_eq L k jj h1 0 0) _ _ (k0_off4_eq jj) _ _ _)
        exact PiecesOK.nil
      · unfold rowInv0 slabInv bufRows0
        isplitl [HG]
        · iexists _; isplitr; rotate_left; iexact HG; ipureintro; exact hgS
        · iexists _; isplitr; rotate_left; iexact HT0; ipureintro; exact Cert.Unfold.rowsDone_zero _ _ _
      iintro %_ HR
      unfold rowInv0 slabInv bufRows0
      icases HR with ⟨⟨%gS0, %hgS0, HG⟩, %tt0, %htt0, HT0⟩
      rw [h32] at htt0
      have hgS := hgS0
      have hlt0 : k.val < nIss L 0 := by omega
      ihave Hsp := (Entails.of_eq (todo_step (fun j => (o0Loc d ↦[chunkSet L 0 j]{fullShare} f0 : sProp 𝕄)) hlt0)) $$ Ht0
      icases Hsp with ⟨Hck, Ht0⟩
      ihave Hck' := (Entails.of_eq (pts_chunk0_p0 (F := F) d L k h1 f0).symm) $$ Hck
      sl_exec
      -- buffer 1: fill its 32 rows, then send them off as chunk k
      sl_for (rowInv1 d L x0 (chunkRow L 1 k.val)) $$ [HG HT1]
      case region =>
        intro jj _
        unfold rowInv1 slabInv bufRows1
        iintro ⟨⟨%g, %hg, HG⟩, %t, %ht, HT1⟩
        have hjj : jj.val < 32 := by have h := jj.isLt; change jj.val < k0_t3_loop.trips at h; rw [trips_t3] at h; omega
        sl_exec
        sl_step
        isplitl [HG]
        · iexists g; isplitr; · ipureintro; exact hg
          iexact HG
        iexists _; isplitr
        rotate_left
        · iexact HT1
        ipureintro
        have hk3 : 3 * k.val + 1 < nch L := (cond3_iff L k).1 h3
        have hnl := nch_le L
        have erow : chunkRow L 1 k.val + jj.val = wbase L + 96 * k.val + 32 + jj.val := by unfold chunkRow; omega
        have hr1 : wbase L ≤ wbase L + 96 * k.val + 32 + jj.val := by omega
        have hr2 : wbase L + 96 * k.val + 32 + jj.val < wbase L + nrows L := by omega
        refine rows_step' (b1V).view x0 (chunkRow L 1 k.val) jj.val hjj t _ ht ?_
        rw [erow]
        have pk := fun (c : Fin 3) (kh : Fin 16) =>
          piece_ok d L x0 g hg (wbase L + 96 * k.val + 32 + jj.val) jj.val hjj hr1 hr2 c kh
        apply PiecesOK.cons (pk 2 15 _ (off54_eq L k jj h3 2 15) _ _ (k0_off102_eq jj) _ _ _)
        apply PiecesOK.cons (pk 2 14 _ (off54_eq L k jj h3 2 14) _ _ (k0_off101_eq jj) _ _ _)
        apply PiecesOK.cons (pk 2 13 _ (off54_eq L k jj h3 2 13) _ _ (k0_off100_eq jj) _ _ _)
        apply PiecesOK.cons (pk 2 12 _ (off54_eq L k jj h3 2 12) _ _ (k0_off99_eq jj) _ _ _)
        apply PiecesOK.cons (pk 2 11 _ (off54_eq L k jj h3 2 11) _ _ (k0_off98_eq jj) _ _ _)
        apply PiecesOK.cons (pk 2 10 _ (off54_eq L k jj h3 2 10) _ _ (k0_off97_eq jj) _ _ _)
        apply PiecesOK.cons (pk 2 9 _ (off54_eq L k jj h3 2 9) _ _ (k0_off96_eq jj) _ _ _)
        apply PiecesOK.cons (pk 2 8 _ (off54_eq L k jj h3 2 8) _ _ (k0_off95_eq jj) _ _ _)
        apply PiecesOK.cons (pk 2 7 _ (off54_eq L k jj h3 2 7) _ _ (k0_off94_eq jj) _ _ _)
        apply PiecesOK.cons (pk 2 6 _ (off54_eq L k jj h3 2 6) _ _ (k0_off93_eq jj) _ _ _)
        apply PiecesOK.cons (pk 2 5 _ (off54_eq L k jj h3 2 5) _ _ (k0_off92_eq jj) _ _ _)
        apply PiecesOK.cons (pk 2 4 _ (off54_eq L k jj h3 2 4) _ _ (k0_off91_eq jj) _ _ _)
        apply PiecesOK.cons (pk 2 3 _ (off54_eq L k jj h3 2 3) _ _ (k0_off90_eq jj) _ _ _)
        apply PiecesOK.cons (pk 2 2 _ (off54_eq L k jj h3 2 2) _ _ (k0_off89_eq jj) _ _ _)
        apply PiecesOK.cons (pk 2 1 _ (off54_eq L k jj h3 2 1) _ _ (k0_off88_eq jj) _ _ _)
        apply PiecesOK.cons (pk 2 0 _ (off54_eq L k jj h3 2 0) _ _ (k0_off87_eq jj) _ _ _)
        apply PiecesOK.cons (pk 1 15 _ (off54_eq L k jj h3 1 15) _ _ (k0_off86_eq jj) _ _ _)
        apply PiecesOK.cons (pk 1 14 _ (off54_eq L k jj h3 1 14) _ _ (k0_off85_eq jj) _ _ _)
        apply PiecesOK.cons (pk 1 13 _ (off54_eq L k jj h3 1 13) _ _ (k0_off84_eq jj) _ _ _)
        apply PiecesOK.cons (pk 1 12 _ (off54_eq L k jj h3 1 12) _ _ (k0_off83_eq jj) _ _ _)
        apply PiecesOK.cons (pk 1 11 _ (off54_eq L k jj h3 1 11) _ _ (k0_off82_eq jj) _ _ _)
        apply PiecesOK.cons (pk 1 10 _ (off54_eq L k jj h3 1 10) _ _ (k0_off81_eq jj) _ _ _)
        apply PiecesOK.cons (pk 1 9 _ (off54_eq L k jj h3 1 9) _ _ (k0_off80_eq jj) _ _ _)
        apply PiecesOK.cons (pk 1 8 _ (off54_eq L k jj h3 1 8) _ _ (k0_off79_eq jj) _ _ _)
        apply PiecesOK.cons (pk 1 7 _ (off54_eq L k jj h3 1 7) _ _ (k0_off78_eq jj) _ _ _)
        apply PiecesOK.cons (pk 1 6 _ (off54_eq L k jj h3 1 6) _ _ (k0_off77_eq jj) _ _ _)
        apply PiecesOK.cons (pk 1 5 _ (off54_eq L k jj h3 1 5) _ _ (k0_off76_eq jj) _ _ _)
        apply PiecesOK.cons (pk 1 4 _ (off54_eq L k jj h3 1 4) _ _ (k0_off75_eq jj) _ _ _)
        apply PiecesOK.cons (pk 1 3 _ (off54_eq L k jj h3 1 3) _ _ (k0_off74_eq jj) _ _ _)
        apply PiecesOK.cons (pk 1 2 _ (off54_eq L k jj h3 1 2) _ _ (k0_off73_eq jj) _ _ _)
        apply PiecesOK.cons (pk 1 1 _ (off54_eq L k jj h3 1 1) _ _ (k0_off72_eq jj) _ _ _)
        apply PiecesOK.cons (pk 1 0 _ (off54_eq L k jj h3 1 0) _ _ (k0_off71_eq jj) _ _ _)
        apply PiecesOK.cons (pk 0 15 _ (off54_eq L k jj h3 0 15) _ _ (k0_off70_eq jj) _ _ _)
        apply PiecesOK.cons (pk 0 14 _ (off54_eq L k jj h3 0 14) _ _ (k0_off69_eq jj) _ _ _)
        apply PiecesOK.cons (pk 0 13 _ (off54_eq L k jj h3 0 13) _ _ (k0_off68_eq jj) _ _ _)
        apply PiecesOK.cons (pk 0 12 _ (off54_eq L k jj h3 0 12) _ _ (k0_off67_eq jj) _ _ _)
        apply PiecesOK.cons (pk 0 11 _ (off54_eq L k jj h3 0 11) _ _ (k0_off66_eq jj) _ _ _)
        apply PiecesOK.cons (pk 0 10 _ (off54_eq L k jj h3 0 10) _ _ (k0_off65_eq jj) _ _ _)
        apply PiecesOK.cons (pk 0 9 _ (off54_eq L k jj h3 0 9) _ _ (k0_off64_eq jj) _ _ _)
        apply PiecesOK.cons (pk 0 8 _ (off54_eq L k jj h3 0 8) _ _ (k0_off63_eq jj) _ _ _)
        apply PiecesOK.cons (pk 0 7 _ (off54_eq L k jj h3 0 7) _ _ (k0_off62_eq jj) _ _ _)
        apply PiecesOK.cons (pk 0 6 _ (off54_eq L k jj h3 0 6) _ _ (k0_off61_eq jj) _ _ _)
        apply PiecesOK.cons (pk 0 5 _ (off54_eq L k jj h3 0 5) _ _ (k0_off60_eq jj) _ _ _)
        apply PiecesOK.cons (pk 0 4 _ (off54_eq L k jj h3 0 4) _ _ (k0_off59_eq jj) _ _ _)
        apply PiecesOK.cons (pk 0 3 _ (off54_eq L k jj h3 0 3) _ _ (k0_off58_eq jj) _ _ _)
        apply PiecesOK.cons (pk 0 2 _ (off54_eq L k jj h3 0 2) _ _ (k0_off57_eq jj) _ _ _)
        apply PiecesOK.cons (pk 0 1 _ (off54_eq L k jj h3 0 1) _ _ (k0_off56_eq jj) _ _ _)
        apply PiecesOK.cons (pk 0 0 _ (off54_eq L k jj h3 0 0) _ _ (k0_off55_eq jj) _ _ _)
        exact PiecesOK.nil
      · unfold rowInv1 slabInv bufRows1
        isplitl [HG]
        · iexists _; isplitr; rotate_left; iexact HG; ipureintro; exact hgS
        · iexists _; isplitr; rotate_left; iexact HT1; ipureintro; exact Cert.Unfold.rowsDone_zero _ _ _
      iintro %_ HR
      unfold rowInv1 slabInv bufRows1
      icases HR with ⟨⟨%gS1, %hgS1, HG⟩, %tt1, %htt1, HT1⟩
      rw [h32] at htt1
      have hgS := hgS1
      have hlt1 : k.val < nIss L 1 := by omega
      ihave Hsp := (Entails.of_eq (todo_step (fun j => (o0Loc d ↦[chunkSet L 1 j]{fullShare} f0 : sProp 𝕄)) hlt1)) $$ Ht1
      icases Hsp with ⟨Hck, Ht1⟩
      ihave Hck' := (Entails.of_eq (pts_chunk0_p1 (F := F) d L k h3 f0).symm) $$ Hck
      sl_exec
      -- buffer 2: fill its 32 rows, then send them off as chunk k
      sl_for (rowInv2 d L x0 (chunkRow L 2 k.val)) $$ [HG HT2]
      case region =>
        intro jj _
        unfold rowInv2 slabInv bufRows2
        iintro ⟨⟨%g, %hg, HG⟩, %t, %ht, HT2⟩
        have hjj : jj.val < 32 := by have h := jj.isLt; change jj.val < k0_t4_loop.trips at h; rw [trips_t4] at h; omega
        sl_exec
        sl_step
        isplitl [HG]
        · iexists g; isplitr; · ipureintro; exact hg
          iexact HG
        iexists _; isplitr
        rotate_left
        · iexact HT2
        ipureintro
        have hk3 : 3 * k.val + 2 < nch L := (cond5_iff L k).1 h5
        have hnl := nch_le L
        have erow : chunkRow L 2 k.val + jj.val = wbase L + 96 * k.val + 64 + jj.val := by unfold chunkRow; omega
        have hr1 : wbase L ≤ wbase L + 96 * k.val + 64 + jj.val := by omega
        have hr2 : wbase L + 96 * k.val + 64 + jj.val < wbase L + nrows L := by omega
        refine rows_step' (b2V).view x0 (chunkRow L 2 k.val) jj.val hjj t _ ht ?_
        rw [erow]
        have pk := fun (c : Fin 3) (kh : Fin 16) =>
          piece_ok d L x0 g hg (wbase L + 96 * k.val + 64 + jj.val) jj.val hjj hr1 hr2 c kh
        apply PiecesOK.cons (pk 2 15 _ (off105_eq L k jj h5 2 15) _ _ (k0_off153_eq jj) _ _ _)
        apply PiecesOK.cons (pk 2 14 _ (off105_eq L k jj h5 2 14) _ _ (k0_off152_eq jj) _ _ _)
        apply PiecesOK.cons (pk 2 13 _ (off105_eq L k jj h5 2 13) _ _ (k0_off151_eq jj) _ _ _)
        apply PiecesOK.cons (pk 2 12 _ (off105_eq L k jj h5 2 12) _ _ (k0_off150_eq jj) _ _ _)
        apply PiecesOK.cons (pk 2 11 _ (off105_eq L k jj h5 2 11) _ _ (k0_off149_eq jj) _ _ _)
        apply PiecesOK.cons (pk 2 10 _ (off105_eq L k jj h5 2 10) _ _ (k0_off148_eq jj) _ _ _)
        apply PiecesOK.cons (pk 2 9 _ (off105_eq L k jj h5 2 9) _ _ (k0_off147_eq jj) _ _ _)
        apply PiecesOK.cons (pk 2 8 _ (off105_eq L k jj h5 2 8) _ _ (k0_off146_eq jj) _ _ _)
        apply PiecesOK.cons (pk 2 7 _ (off105_eq L k jj h5 2 7) _ _ (k0_off145_eq jj) _ _ _)
        apply PiecesOK.cons (pk 2 6 _ (off105_eq L k jj h5 2 6) _ _ (k0_off144_eq jj) _ _ _)
        apply PiecesOK.cons (pk 2 5 _ (off105_eq L k jj h5 2 5) _ _ (k0_off143_eq jj) _ _ _)
        apply PiecesOK.cons (pk 2 4 _ (off105_eq L k jj h5 2 4) _ _ (k0_off142_eq jj) _ _ _)
        apply PiecesOK.cons (pk 2 3 _ (off105_eq L k jj h5 2 3) _ _ (k0_off141_eq jj) _ _ _)
        apply PiecesOK.cons (pk 2 2 _ (off105_eq L k jj h5 2 2) _ _ (k0_off140_eq jj) _ _ _)
        apply PiecesOK.cons (pk 2 1 _ (off105_eq L k jj h5 2 1) _ _ (k0_off139_eq jj) _ _ _)
        apply PiecesOK.cons (pk 2 0 _ (off105_eq L k jj h5 2 0) _ _ (k0_off138_eq jj) _ _ _)
        apply PiecesOK.cons (pk 1 15 _ (off105_eq L k jj h5 1 15) _ _ (k0_off137_eq jj) _ _ _)
        apply PiecesOK.cons (pk 1 14 _ (off105_eq L k jj h5 1 14) _ _ (k0_off136_eq jj) _ _ _)
        apply PiecesOK.cons (pk 1 13 _ (off105_eq L k jj h5 1 13) _ _ (k0_off135_eq jj) _ _ _)
        apply PiecesOK.cons (pk 1 12 _ (off105_eq L k jj h5 1 12) _ _ (k0_off134_eq jj) _ _ _)
        apply PiecesOK.cons (pk 1 11 _ (off105_eq L k jj h5 1 11) _ _ (k0_off133_eq jj) _ _ _)
        apply PiecesOK.cons (pk 1 10 _ (off105_eq L k jj h5 1 10) _ _ (k0_off132_eq jj) _ _ _)
        apply PiecesOK.cons (pk 1 9 _ (off105_eq L k jj h5 1 9) _ _ (k0_off131_eq jj) _ _ _)
        apply PiecesOK.cons (pk 1 8 _ (off105_eq L k jj h5 1 8) _ _ (k0_off130_eq jj) _ _ _)
        apply PiecesOK.cons (pk 1 7 _ (off105_eq L k jj h5 1 7) _ _ (k0_off129_eq jj) _ _ _)
        apply PiecesOK.cons (pk 1 6 _ (off105_eq L k jj h5 1 6) _ _ (k0_off128_eq jj) _ _ _)
        apply PiecesOK.cons (pk 1 5 _ (off105_eq L k jj h5 1 5) _ _ (k0_off127_eq jj) _ _ _)
        apply PiecesOK.cons (pk 1 4 _ (off105_eq L k jj h5 1 4) _ _ (k0_off126_eq jj) _ _ _)
        apply PiecesOK.cons (pk 1 3 _ (off105_eq L k jj h5 1 3) _ _ (k0_off125_eq jj) _ _ _)
        apply PiecesOK.cons (pk 1 2 _ (off105_eq L k jj h5 1 2) _ _ (k0_off124_eq jj) _ _ _)
        apply PiecesOK.cons (pk 1 1 _ (off105_eq L k jj h5 1 1) _ _ (k0_off123_eq jj) _ _ _)
        apply PiecesOK.cons (pk 1 0 _ (off105_eq L k jj h5 1 0) _ _ (k0_off122_eq jj) _ _ _)
        apply PiecesOK.cons (pk 0 15 _ (off105_eq L k jj h5 0 15) _ _ (k0_off121_eq jj) _ _ _)
        apply PiecesOK.cons (pk 0 14 _ (off105_eq L k jj h5 0 14) _ _ (k0_off120_eq jj) _ _ _)
        apply PiecesOK.cons (pk 0 13 _ (off105_eq L k jj h5 0 13) _ _ (k0_off119_eq jj) _ _ _)
        apply PiecesOK.cons (pk 0 12 _ (off105_eq L k jj h5 0 12) _ _ (k0_off118_eq jj) _ _ _)
        apply PiecesOK.cons (pk 0 11 _ (off105_eq L k jj h5 0 11) _ _ (k0_off117_eq jj) _ _ _)
        apply PiecesOK.cons (pk 0 10 _ (off105_eq L k jj h5 0 10) _ _ (k0_off116_eq jj) _ _ _)
        apply PiecesOK.cons (pk 0 9 _ (off105_eq L k jj h5 0 9) _ _ (k0_off115_eq jj) _ _ _)
        apply PiecesOK.cons (pk 0 8 _ (off105_eq L k jj h5 0 8) _ _ (k0_off114_eq jj) _ _ _)
        apply PiecesOK.cons (pk 0 7 _ (off105_eq L k jj h5 0 7) _ _ (k0_off113_eq jj) _ _ _)
        apply PiecesOK.cons (pk 0 6 _ (off105_eq L k jj h5 0 6) _ _ (k0_off112_eq jj) _ _ _)
        apply PiecesOK.cons (pk 0 5 _ (off105_eq L k jj h5 0 5) _ _ (k0_off111_eq jj) _ _ _)
        apply PiecesOK.cons (pk 0 4 _ (off105_eq L k jj h5 0 4) _ _ (k0_off110_eq jj) _ _ _)
        apply PiecesOK.cons (pk 0 3 _ (off105_eq L k jj h5 0 3) _ _ (k0_off109_eq jj) _ _ _)
        apply PiecesOK.cons (pk 0 2 _ (off105_eq L k jj h5 0 2) _ _ (k0_off108_eq jj) _ _ _)
        apply PiecesOK.cons (pk 0 1 _ (off105_eq L k jj h5 0 1) _ _ (k0_off107_eq jj) _ _ _)
        apply PiecesOK.cons (pk 0 0 _ (off105_eq L k jj h5 0 0) _ _ (k0_off106_eq jj) _ _ _)
        exact PiecesOK.nil
      · unfold rowInv2 slabInv bufRows2
        isplitl [HG]
        · iexists _; isplitr; rotate_left; iexact HG; ipureintro; exact hgS
        · iexists _; isplitr; rotate_left; iexact HT2; ipureintro; exact Cert.Unfold.rowsDone_zero _ _ _
      iintro %_ HR
      unfold rowInv2 slabInv bufRows2
      icases HR with ⟨⟨%gS2, %hgS2, HG⟩, %tt2, %htt2, HT2⟩
      rw [h32] at htt2
      have hgS := hgS2
      have hlt2 : k.val < nIss L 2 := by omega
      ihave Hsp := (Entails.of_eq (todo_step (fun j => (o0Loc d ↦[chunkSet L 2 j]{fullShare} f0 : sProp 𝕄)) hlt2)) $$ Ht2
      icases Hsp with ⟨Hck, Ht2⟩
      ihave Hck' := (Entails.of_eq (pts_chunk0_p2 (F := F) d L k h5 f0).symm) $$ Hck
      sl_exec
      -- the trip's end: every buffer has chunk k in flight
      ihave Hc0 := (Entails.of_eq (flight_respell0 (F := F) d L _ (k0_off52 L k) _ (off52_chunk L k h1) (k0_off52_inb L k h1) (chunkC_inb L 0 k.val) f0 _ _)) $$ Hc0
      ihave Hc1 := (Entails.of_eq (flight_respell0 (F := F) d L _ (k0_off103 L k) _ (off103_chunk L k h3) (k0_off103_inb L k h3) (chunkC_inb L 1 k.val) f0 _ _)) $$ Hc1
      ihave Hc2 := (Entails.of_eq (flight_respell0 (F := F) d L _ (k0_off154 L k) _ (off154_chunk L k h5) (k0_off154_inb L k h5) (chunkC_inb L 2 k.val) f0 _ _)) $$ Hc2
      sl_step
      isplitr; · iexact Hmw
      isplitl [HG]
      · iexists _; isplitr; rotate_left; iexact HG; ipureintro; exact hgS
      isplitl [Ht0 Hc0]
      · isplitl []
        · iempintro
        isplitl [Ht0]; · iexact Ht0
        iexists tt0; isplitr; · ipureintro; exact htt0
        iexact Hc0
      isplitl [Ht1 Hc1]
      · isplitl []
        · iempintro
        isplitl [Ht1]; · iexact Ht1
        iexists tt1; isplitr; · ipureintro; exact htt1
        iexact Hc1
      isplitl [Ht2 Hc2]
      · isplitl []
        · iempintro
        isplitl [Ht2]; · iexact Ht2
        iexists tt2; isplitr; · ipureintro; exact htt2
        iexact Hc2
      iexists _; iexact HO
    · -- a later trip
      by_cases hB : k.val < nIss L 2
      · -- a later trip in which every buffer still has a chunk: each waits for its previous copy first
        have hle : nIss L 2 ≤ nIss L 1 ∧ nIss L 1 ≤ nIss L 0 := by unfold nIss; omega
        have h1 : k0_cond1 L k = 1#1 := (cond1_iff L k).2 (by unfold nIss at hB; omega)
        have h3 : k0_cond3 L k = 1#1 := (cond3_iff L k).2 (by unfold nIss at hB; omega)
        have h5 : k0_cond5 L k = 1#1 := (cond5_iff L k).2 (by unfold nIss at hB; omega)
        have h2 : k0_cond2 k = 1#1 := (cond2_iff k).2 hkpos
        have h4 : k0_cond4 k = 1#1 := (cond4_iff k).2 hkpos
        have h6 : k0_cond6 k = 1#1 := (cond6_iff k).2 hkpos
        have e0 : issued L 0 k.val = k.val := by unfold issued; omega
        have e1 : issued L 1 k.val = k.val := by unfold issued; omega
        have e2 : issued L 2 k.val = k.val := by unfold issued; omega
        have e0' : issued L 0 (k.val + 1) = k.val + 1 := by unfold issued; omega
        have e1' : issued L 1 (k.val + 1) = k.val + 1 := by unfold issued; omega
        have e2' : issued L 2 (k.val + 1) = k.val + 1 := by unfold issued; omega
        have hkne : ¬ k.val = 0 := by omega
        have hdone0 : (iprop((bigSep (Finset.range (k.val - 1)) (fun j => (o0Loc d ↦[chunkSet L 0 j]{fullShare} pat0 d x0 : sProp 𝕄))) ∗ (fun j => (o0Loc d ↦[chunkSet L 0 j]{fullShare} pat0 d x0 : sProp 𝕄)) (k.val - 1)) : sProp 𝕄)
            = bigSep (Finset.range k.val) (fun j => (o0Loc d ↦[chunkSet L 0 j]{fullShare} pat0 d x0 : sProp 𝕄)) := by
          have h := done_step (fun j => (o0Loc d ↦[chunkSet L 0 j]{fullShare} pat0 d x0 : sProp 𝕄)) (k.val - 1)
          rwa [show k.val - 1 + 1 = k.val by omega] at h
        have hdone1 : (iprop((bigSep (Finset.range (k.val - 1)) (fun j => (o0Loc d ↦[chunkSet L 1 j]{fullShare} pat0 d x0 : sProp 𝕄))) ∗ (fun j => (o0Loc d ↦[chunkSet L 1 j]{fullShare} pat0 d x0 : sProp 𝕄)) (k.val - 1)) : sProp 𝕄)
            = bigSep (Finset.range k.val) (fun j => (o0Loc d ↦[chunkSet L 1 j]{fullShare} pat0 d x0 : sProp 𝕄)) := by
          have h := done_step (fun j => (o0Loc d ↦[chunkSet L 1 j]{fullShare} pat0 d x0 : sProp 𝕄)) (k.val - 1)
          rwa [show k.val - 1 + 1 = k.val by omega] at h
        have hdone2 : (iprop((bigSep (Finset.range (k.val - 1)) (fun j => (o0Loc d ↦[chunkSet L 2 j]{fullShare} pat0 d x0 : sProp 𝕄))) ∗ (fun j => (o0Loc d ↦[chunkSet L 2 j]{fullShare} pat0 d x0 : sProp 𝕄)) (k.val - 1)) : sProp 𝕄)
            = bigSep (Finset.range k.val) (fun j => (o0Loc d ↦[chunkSet L 2 j]{fullShare} pat0 d x0 : sProp 𝕄)) := by
          have h := done_step (fun j => (o0Loc d ↦[chunkSet L 2 j]{fullShare} pat0 d x0 : sProp 𝕄)) (k.val - 1)
          rwa [show k.val - 1 + 1 = k.val by omega] at h
        show chunkInv0 d L O W x0 f0 k.val _ ⊢ wp _ _ _ _ (fun _ => chunkInv0 d L O W x0 f0 (k.val + 1) ⟨⟩)
        unfold chunkInv0 bufState0_0 bufState0_1 bufState0_2
        rw [e0, e1, e2, e0', e1', e2', if_neg hkne, if_neg hkne, if_neg hkne,
          if_neg (Nat.succ_ne_zero _), if_neg (Nat.succ_ne_zero _), if_neg (Nat.succ_ne_zero _)]
        simp only [Nat.add_sub_cancel]
        unfold bufFlying0_0 bufFlying0_1 bufFlying0_2 slabInv
        iintro ⟨#Hmw, ⟨%gS, %hgS, HG⟩, ⟨Hd0, Ht0, %tf0, %hfl0, Hc0⟩, ⟨Hd1, Ht1, %tf1, %hfl1, Hc1⟩, ⟨Hd2, Ht2, %tf2, %hfl2, Hc2⟩, %W', HO⟩
        sl_exec
        -- buffer 0: its previous copy has been waited for; chunk k-1 has landed and holds the patches
        ihave Hl0 := (Entails.of_eq (landed_pts0 (F := F) d L 0 (k.val - 1) (by decide) (by omega) x0 _ _ hfl0)) $$ [Hc0_dst]
        · iexact Hc0_dst
        ihave Hd0 := (Entails.of_eq hdone0) $$ [Hd0 Hl0]
        · isplitl [Hd0]; · iexact Hd0
          iexact Hl0
        -- buffer 0: fill its 32 rows, then send them off as chunk k
        sl_for (rowInv0 d L x0 (chunkRow L 0 k.val)) $$ [HG Hc0_src]
        case region =>
          intro jj _
          unfold rowInv0 slabInv bufRows0
          iintro ⟨⟨%g, %hg, HG⟩, %t, %ht, HT0⟩
          have hjj : jj.val < 32 := by have h := jj.isLt; change jj.val < k0_t2_loop.trips at h; rw [trips_t2] at h; omega
          sl_exec
          sl_step
          isplitl [HG]
          · iexists g; isplitr; · ipureintro; exact hg
            iexact HG
          iexists _; isplitr
          rotate_left
          · iexact HT0
          ipureintro
          have hk3 : 3 * k.val < nch L := (cond1_iff L k).1 h1
          have hnl := nch_le L
          have erow : chunkRow L 0 k.val + jj.val = wbase L + 96 * k.val + jj.val := by unfold chunkRow; omega
          have hr1 : wbase L ≤ wbase L + 96 * k.val + jj.val := by omega
          have hr2 : wbase L + 96 * k.val + jj.val < wbase L + nrows L := by omega
          refine rows_step' (b0V).view x0 (chunkRow L 0 k.val) jj.val hjj t _ ht ?_
          rw [erow]
          have pk := fun (c : Fin 3) (kh : Fin 16) =>
            piece_ok d L x0 g hg (wbase L + 96 * k.val + jj.val) jj.val hjj hr1 hr2 c kh
          apply PiecesOK.cons (pk 2 15 _ (off3_eq L k jj h1 2 15) _ _ (k0_off51_eq jj) _ _ _)
          apply PiecesOK.cons (pk 2 14 _ (off3_eq L k jj h1 2 14) _ _ (k0_off50_eq jj) _ _ _)
          apply PiecesOK.cons (pk 2 13 _ (off3_eq L k jj h1 2 13) _ _ (k0_off49_eq jj) _ _ _)
          apply PiecesOK.cons (pk 2 12 _ (off3_eq L k jj h1 2 12) _ _ (k0_off48_eq jj) _ _ _)
          apply PiecesOK.cons (pk 2 11 _ (off3_eq L k jj h1 2 11) _ _ (k0_off47_eq jj) _ _ _)
          apply PiecesOK.cons (pk 2 10 _ (off3_eq L k jj h1 2 10) _ _ (k0_off46_eq jj) _ _ _)
          apply PiecesOK.cons (pk 2 9 _ (off3_eq L k jj h1 2 9) _ _ (k0_off45_eq jj) _ _ _)
          apply PiecesOK.cons (pk 2 8 _ (off3_eq L k jj h1 2 8) _ _ (k0_off44_eq jj) _ _ _)
          apply PiecesOK.cons (pk 2 7 _ (off3_eq L k jj h1 2 7) _ _ (k0_off43_eq jj) _ _ _)
          apply PiecesOK.cons (pk 2 6 _ (off3_eq L k jj h1 2 6) _ _ (k0_off42_eq jj) _ _ _)
          apply PiecesOK.cons (pk 2 5 _ (off3_eq L k jj h1 2 5) _ _ (k0_off41_eq jj) _ _ _)
          apply PiecesOK.cons (pk 2 4 _ (off3_eq L k jj h1 2 4) _ _ (k0_off40_eq jj) _ _ _)
          apply PiecesOK.cons (pk 2 3 _ (off3_eq L k jj h1 2 3) _ _ (k0_off39_eq jj) _ _ _)
          apply PiecesOK.cons (pk 2 2 _ (off3_eq L k jj h1 2 2) _ _ (k0_off38_eq jj) _ _ _)
          apply PiecesOK.cons (pk 2 1 _ (off3_eq L k jj h1 2 1) _ _ (k0_off37_eq jj) _ _ _)
          apply PiecesOK.cons (pk 2 0 _ (off3_eq L k jj h1 2 0) _ _ (k0_off36_eq jj) _ _ _)
          apply PiecesOK.cons (pk 1 15 _ (off3_eq L k jj h1 1 15) _ _ (k0_off35_eq jj) _ _ _)
          apply PiecesOK.cons (pk 1 14 _ (off3_eq L k jj h1 1 14) _ _ (k0_off34_eq jj) _ _ _)
          apply PiecesOK.cons (pk 1 13 _ (off3_eq L k jj h1 1 13) _ _ (k0_off33_eq jj) _ _ _)
          apply PiecesOK.cons (pk 1 12 _ (off3_eq L k jj h1 1 12) _ _ (k0_off32_eq jj) _ _ _)
          apply PiecesOK.cons (pk 1 11 _ (off3_eq L k jj h1 1 11) _ _ (k0_off31_eq jj) _ _ _)
          apply PiecesOK.cons (pk 1 10 _ (off3_eq L k jj h1 1 10) _ _ (k0_off30_eq jj) _ _ _)
          apply PiecesOK.cons (pk 1 9 _ (off3_eq L k jj h1 1 9) _ _ (k0_off29_eq jj) _ _ _)
          apply PiecesOK.cons (pk 1 8 _ (off3_eq L k jj h1 1 8) _ _ (k0_off28_eq jj) _ _ _)
          apply PiecesOK.cons (pk 1 7 _ (off3_eq L k jj h1 1 7) _ _ (k0_off27_eq jj) _ _ _)
          apply PiecesOK.cons (pk 1 6 _ (off3_eq L k jj h1 1 6) _ _ (k0_off26_eq jj) _ _ _)
          apply PiecesOK.cons (pk 1 5 _ (off3_eq L k jj h1 1 5) _ _ (k0_off25_eq jj) _ _ _)
          apply PiecesOK.cons (pk 1 4 _ (off3_eq L k jj h1 1 4) _ _ (k0_off24_eq jj) _ _ _)
          apply PiecesOK.cons (pk 1 3 _ (off3_eq L k jj h1 1 3) _ _ (k0_off23_eq jj) _ _ _)
          apply PiecesOK.cons (pk 1 2 _ (off3_eq L k jj h1 1 2) _ _ (k0_off22_eq jj) _ _ _)
          apply PiecesOK.cons (pk 1 1 _ (off3_eq L k jj h1 1 1) _ _ (k0_off21_eq jj) _ _ _)
          apply PiecesOK.cons (pk 1 0 _ (off3_eq L k jj h1 1 0) _ _ (k0_off20_eq jj) _ _ _)
          apply PiecesOK.cons (pk 0 15 _ (off3_eq L k jj h1 0 15) _ _ (k0_off19_eq jj) _ _ _)
          apply PiecesOK.cons (pk 0 14 _ (off3_eq L k jj h1 0 14) _ _ (k0_off18_eq jj) _ _ _)
          apply PiecesOK.cons (pk 0 13 _ (off3_eq L k jj h1 0 13) _ _ (k0_off17_eq jj) _ _ _)
          apply PiecesOK.cons (pk 0 12 _ (off3_eq L k jj h1 0 12) _ _ (k0_off16_eq jj) _ _ _)
          apply PiecesOK.cons (pk 0 11 _ (off3_eq L k jj h1 0 11) _ _ (k0_off15_eq jj) _ _ _)
          apply PiecesOK.cons (pk 0 10 _ (off3_eq L k jj h1 0 10) _ _ (k0_off14_eq jj) _ _ _)
          apply PiecesOK.cons (pk 0 9 _ (off3_eq L k jj h1 0 9) _ _ (k0_off13_eq jj) _ _ _)
          apply PiecesOK.cons (pk 0 8 _ (off3_eq L k jj h1 0 8) _ _ (k0_off12_eq jj) _ _ _)
          apply PiecesOK.cons (pk 0 7 _ (off3_eq L k jj h1 0 7) _ _ (k0_off11_eq jj) _ _ _)
          apply PiecesOK.cons (pk 0 6 _ (off3_eq L k jj h1 0 6) _ _ (k0_off10_eq jj) _ _ _)
          apply PiecesOK.cons (pk 0 5 _ (off3_eq L k jj h1 0 5) _ _ (k0_off9_eq jj) _ _ _)
          apply PiecesOK.cons (pk 0 4 _ (off3_eq L k jj h1 0 4) _ _ (k0_off8_eq jj) _ _ _)
          apply PiecesOK.cons (pk 0 3 _ (off3_eq L k jj h1 0 3) _ _ (k0_off7_eq jj) _ _ _)
          apply PiecesOK.cons (pk 0 2 _ (off3_eq L k jj h1 0 2) _ _ (k0_off6_eq jj) _ _ _)
          apply PiecesOK.cons (pk 0 1 _ (off3_eq L k jj h1 0 1) _ _ (k0_off5_eq jj) _ _ _)
          apply PiecesOK.cons (pk 0 0 _ (off3_eq L k jj h1 0 0) _ _ (k0_off4_eq jj) _ _ _)
          exact PiecesOK.nil
        · unfold rowInv0 slabInv bufRows0
          isplitl [HG]
          · iexists _; isplitr; rotate_left; iexact HG; ipureintro; exact hgS
          · iexists _; isplitr; rotate_left; iexact Hc0_src; ipureintro; exact Cert.Unfold.rowsDone_zero _ _ _
        iintro %_ HR
        unfold rowInv0 slabInv bufRows0
        icases HR with ⟨⟨%gS0, %hgS0, HG⟩, %tt0, %htt0, HT0⟩
        rw [h32] at htt0
        have hgS := hgS0
        have hlt0 : k.val < nIss L 0 := by omega
        ihave Hsp := (Entails.of_eq (todo_step (fun j => (o0Loc d ↦[chunkSet L 0 j]{fullShare} f0 : sProp 𝕄)) hlt0)) $$ Ht0
        icases Hsp with ⟨Hck, Ht0⟩
        ihave Hck' := (Entails.of_eq (pts_chunk0_p0 (F := F) d L k h1 f0).symm) $$ Hck
        sl_exec
        -- buffer 1: its previous copy has been waited for; chunk k-1 has landed and holds the patches
        ihave Hl1 := (Entails.of_eq (landed_pts0 (F := F) d L 1 (k.val - 1) (by decide) (by omega) x0 _ _ hfl1)) $$ [Hc1_dst]
        · iexact Hc1_dst
        ihave Hd1 := (Entails.of_eq hdone1) $$ [Hd1 Hl1]
        · isplitl [Hd1]; · iexact Hd1
          iexact Hl1
        -- buffer 1: fill its 32 rows, then send them off as chunk k
        sl_for (rowInv1 d L x0 (chunkRow L 1 k.val)) $$ [HG Hc1_src]
        case region =>
          intro jj _
          unfold rowInv1 slabInv bufRows1
          iintro ⟨⟨%g, %hg, HG⟩, %t, %ht, HT1⟩
          have hjj : jj.val < 32 := by have h := jj.isLt; change jj.val < k0_t3_loop.trips at h; rw [trips_t3] at h; omega
          sl_exec
          sl_step
          isplitl [HG]
          · iexists g; isplitr; · ipureintro; exact hg
            iexact HG
          iexists _; isplitr
          rotate_left
          · iexact HT1
          ipureintro
          have hk3 : 3 * k.val + 1 < nch L := (cond3_iff L k).1 h3
          have hnl := nch_le L
          have erow : chunkRow L 1 k.val + jj.val = wbase L + 96 * k.val + 32 + jj.val := by unfold chunkRow; omega
          have hr1 : wbase L ≤ wbase L + 96 * k.val + 32 + jj.val := by omega
          have hr2 : wbase L + 96 * k.val + 32 + jj.val < wbase L + nrows L := by omega
          refine rows_step' (b1V).view x0 (chunkRow L 1 k.val) jj.val hjj t _ ht ?_
          rw [erow]
          have pk := fun (c : Fin 3) (kh : Fin 16) =>
            piece_ok d L x0 g hg (wbase L + 96 * k.val + 32 + jj.val) jj.val hjj hr1 hr2 c kh
          apply PiecesOK.cons (pk 2 15 _ (off54_eq L k jj h3 2 15) _ _ (k0_off102_eq jj) _ _ _)
          apply PiecesOK.cons (pk 2 14 _ (off54_eq L k jj h3 2 14) _ _ (k0_off101_eq jj) _ _ _)
          apply PiecesOK.cons (pk 2 13 _ (off54_eq L k jj h3 2 13) _ _ (k0_off100_eq jj) _ _ _)
          apply PiecesOK.cons (pk 2 12 _ (off54_eq L k jj h3 2 12) _ _ (k0_off99_eq jj) _ _ _)
          apply PiecesOK.cons (pk 2 11 _ (off54_eq L k jj h3 2 11) _ _ (k0_off98_eq jj) _ _ _)
          apply PiecesOK.cons (pk 2 10 _ (off54_eq L k jj h3 2 10) _ _ (k0_off97_eq jj) _ _ _)
          apply PiecesOK.cons (pk 2 9 _ (off54_eq L k jj h3 2 9) _ _ (k0_off96_eq jj) _ _ _)
          apply PiecesOK.cons (pk 2 8 _ (off54_eq L k jj h3 2 8) _ _ (k0_off95_eq jj) _ _ _)
          apply PiecesOK.cons (pk 2 7 _ (off54_eq L k jj h3 2 7) _ _ (k0_off94_eq jj) _ _ _)
          apply PiecesOK.cons (pk 2 6 _ (off54_eq L k jj h3 2 6) _ _ (k0_off93_eq jj) _ _ _)
          apply PiecesOK.cons (pk 2 5 _ (off54_eq L k jj h3 2 5) _ _ (k0_off92_eq jj) _ _ _)
          apply PiecesOK.cons (pk 2 4 _ (off54_eq L k jj h3 2 4) _ _ (k0_off91_eq jj) _ _ _)
          apply PiecesOK.cons (pk 2 3 _ (off54_eq L k jj h3 2 3) _ _ (k0_off90_eq jj) _ _ _)
          apply PiecesOK.cons (pk 2 2 _ (off54_eq L k jj h3 2 2) _ _ (k0_off89_eq jj) _ _ _)
          apply PiecesOK.cons (pk 2 1 _ (off54_eq L k jj h3 2 1) _ _ (k0_off88_eq jj) _ _ _)
          apply PiecesOK.cons (pk 2 0 _ (off54_eq L k jj h3 2 0) _ _ (k0_off87_eq jj) _ _ _)
          apply PiecesOK.cons (pk 1 15 _ (off54_eq L k jj h3 1 15) _ _ (k0_off86_eq jj) _ _ _)
          apply PiecesOK.cons (pk 1 14 _ (off54_eq L k jj h3 1 14) _ _ (k0_off85_eq jj) _ _ _)
          apply PiecesOK.cons (pk 1 13 _ (off54_eq L k jj h3 1 13) _ _ (k0_off84_eq jj) _ _ _)
          apply PiecesOK.cons (pk 1 12 _ (off54_eq L k jj h3 1 12) _ _ (k0_off83_eq jj) _ _ _)
          apply PiecesOK.cons (pk 1 11 _ (off54_eq L k jj h3 1 11) _ _ (k0_off82_eq jj) _ _ _)
          apply PiecesOK.cons (pk 1 10 _ (off54_eq L k jj h3 1 10) _ _ (k0_off81_eq jj) _ _ _)
          apply PiecesOK.cons (pk 1 9 _ (off54_eq L k jj h3 1 9) _ _ (k0_off80_eq jj) _ _ _)
          apply PiecesOK.cons (pk 1 8 _ (off54_eq L k jj h3 1 8) _ _ (k0_off79_eq jj) _ _ _)
          apply PiecesOK.cons (pk 1 7 _ (off54_eq L k jj h3 1 7) _ _ (k0_off78_eq jj) _ _ _)
          apply PiecesOK.cons (pk 1 6 _ (off54_eq L k jj h3 1 6) _ _ (k0_off77_eq jj) _ _ _)
          apply PiecesOK.cons (pk 1 5 _ (off54_eq L k jj h3 1 5) _ _ (k0_off76_eq jj) _ _ _)
          apply PiecesOK.cons (pk 1 4 _ (off54_eq L k jj h3 1 4) _ _ (k0_off75_eq jj) _ _ _)
          apply PiecesOK.cons (pk 1 3 _ (off54_eq L k jj h3 1 3) _ _ (k0_off74_eq jj) _ _ _)
          apply PiecesOK.cons (pk 1 2 _ (off54_eq L k jj h3 1 2) _ _ (k0_off73_eq jj) _ _ _)
          apply PiecesOK.cons (pk 1 1 _ (off54_eq L k jj h3 1 1) _ _ (k0_off72_eq jj) _ _ _)
          apply PiecesOK.cons (pk 1 0 _ (off54_eq L k jj h3 1 0) _ _ (k0_off71_eq jj) _ _ _)
          apply PiecesOK.cons (pk 0 15 _ (off54_eq L k jj h3 0 15) _ _ (k0_off70_eq jj) _ _ _)
          apply PiecesOK.cons (pk 0 14 _ (off54_eq L k jj h3 0 14) _ _ (k0_off69_eq jj) _ _ _)
          apply PiecesOK.cons (pk 0 13 _ (off54_eq L k jj h3 0 13) _ _ (k0_off68_eq jj) _ _ _)
          apply PiecesOK.cons (pk 0 12 _ (off54_eq L k jj h3 0 12) _ _ (k0_off67_eq jj) _ _ _)
          apply PiecesOK.cons (pk 0 11 _ (off54_eq L k jj h3 0 11) _ _ (k0_off66_eq jj) _ _ _)
          apply PiecesOK.cons (pk 0 10 _ (off54_eq L k jj h3 0 10) _ _ (k0_off65_eq jj) _ _ _)
          apply PiecesOK.cons (pk 0 9 _ (off54_eq L k jj h3 0 9) _ _ (k0_off64_eq jj) _ _ _)
          apply PiecesOK.cons (pk 0 8 _ (off54_eq L k jj h3 0 8) _ _ (k0_off63_eq jj) _ _ _)
          apply PiecesOK.cons (pk 0 7 _ (off54_eq L k jj h3 0 7) _ _ (k0_off62_eq jj) _ _ _)
          apply PiecesOK.cons (pk 0 6 _ (off54_eq L k jj h3 0 6) _ _ (k0_off61_eq jj) _ _ _)
          apply PiecesOK.cons (pk 0 5 _ (off54_eq L k jj h3 0 5) _ _ (k0_off60_eq jj) _ _ _)
          apply PiecesOK.cons (pk 0 4 _ (off54_eq L k jj h3 0 4) _ _ (k0_off59_eq jj) _ _ _)
          apply PiecesOK.cons (pk 0 3 _ (off54_eq L k jj h3 0 3) _ _ (k0_off58_eq jj) _ _ _)
          apply PiecesOK.cons (pk 0 2 _ (off54_eq L k jj h3 0 2) _ _ (k0_off57_eq jj) _ _ _)
          apply PiecesOK.cons (pk 0 1 _ (off54_eq L k jj h3 0 1) _ _ (k0_off56_eq jj) _ _ _)
          apply PiecesOK.cons (pk 0 0 _ (off54_eq L k jj h3 0 0) _ _ (k0_off55_eq jj) _ _ _)
          exact PiecesOK.nil
        · unfold rowInv1 slabInv bufRows1
          isplitl [HG]
          · iexists _; isplitr; rotate_left; iexact HG; ipureintro; exact hgS
          · iexists _; isplitr; rotate_left; iexact Hc1_src; ipureintro; exact Cert.Unfold.rowsDone_zero _ _ _
        iintro %_ HR
        unfold rowInv1 slabInv bufRows1
        icases HR with ⟨⟨%gS1, %hgS1, HG⟩, %tt1, %htt1, HT1⟩
        rw [h32] at htt1
        have hgS := hgS1
        have hlt1 : k.val < nIss L 1 := by omega
        ihave Hsp := (Entails.of_eq (todo_step (fun j => (o0Loc d ↦[chunkSet L 1 j]{fullShare} f0 : sProp 𝕄)) hlt1)) $$ Ht1
        icases Hsp with ⟨Hck, Ht1⟩
        ihave Hck' := (Entails.of_eq (pts_chunk0_p1 (F := F) d L k h3 f0).symm) $$ Hck
        sl_exec
        -- buffer 2: its previous copy has been waited for; chunk k-1 has landed and holds the patches
        ihave Hl2 := (Entails.of_eq (landed_pts0 (F := F) d L 2 (k.val - 1) (by decide) (by omega) x0 _ _ hfl2)) $$ [Hc2_dst]
        · iexact Hc2_dst
        ihave Hd2 := (Entails.of_eq hdone2) $$ [Hd2 Hl2]
        · isplitl [Hd2]; · iexact Hd2
          iexact Hl2
        -- buffer 2: fill its 32 rows, then send them off as chunk k
        sl_for (rowInv2 d L x0 (chunkRow L 2 k.val)) $$ [HG Hc2_src]
        case region =>
          intro jj _
          unfold rowInv2 slabInv bufRows2
          iintro ⟨⟨%g, %hg, HG⟩, %t, %ht, HT2⟩
          have hjj : jj.val < 32 := by have h := jj.isLt; change jj.val < k0_t4_loop.trips at h; rw [trips_t4] at h; omega
          sl_exec
          sl_step
          isplitl [HG]
          · iexists g; isplitr; · ipureintro; exact hg
            iexact HG
          iexists _; isplitr
          rotate_left
          · iexact HT2
          ipureintro
          have hk3 : 3 * k.val + 2 < nch L := (cond5_iff L k).1 h5
          have hnl := nch_le L
          have erow : chunkRow L 2 k.val + jj.val = wbase L + 96 * k.val + 64 + jj.val := by unfold chunkRow; omega
          have hr1 : wbase L ≤ wbase L + 96 * k.val + 64 + jj.val := by omega
          have hr2 : wbase L + 96 * k.val + 64 + jj.val < wbase L + nrows L := by omega
          refine rows_step' (b2V).view x0 (chunkRow L 2 k.val) jj.val hjj t _ ht ?_
          rw [erow]
          have pk := fun (c : Fin 3) (kh : Fin 16) =>
            piece_ok d L x0 g hg (wbase L + 96 * k.val + 64 + jj.val) jj.val hjj hr1 hr2 c kh
          apply PiecesOK.cons (pk 2 15 _ (off105_eq L k jj h5 2 15) _ _ (k0_off153_eq jj) _ _ _)
          apply PiecesOK.cons (pk 2 14 _ (off105_eq L k jj h5 2 14) _ _ (k0_off152_eq jj) _ _ _)
          apply PiecesOK.cons (pk 2 13 _ (off105_eq L k jj h5 2 13) _ _ (k0_off151_eq jj) _ _ _)
          apply PiecesOK.cons (pk 2 12 _ (off105_eq L k jj h5 2 12) _ _ (k0_off150_eq jj) _ _ _)
          apply PiecesOK.cons (pk 2 11 _ (off105_eq L k jj h5 2 11) _ _ (k0_off149_eq jj) _ _ _)
          apply PiecesOK.cons (pk 2 10 _ (off105_eq L k jj h5 2 10) _ _ (k0_off148_eq jj) _ _ _)
          apply PiecesOK.cons (pk 2 9 _ (off105_eq L k jj h5 2 9) _ _ (k0_off147_eq jj) _ _ _)
          apply PiecesOK.cons (pk 2 8 _ (off105_eq L k jj h5 2 8) _ _ (k0_off146_eq jj) _ _ _)
          apply PiecesOK.cons (pk 2 7 _ (off105_eq L k jj h5 2 7) _ _ (k0_off145_eq jj) _ _ _)
          apply PiecesOK.cons (pk 2 6 _ (off105_eq L k jj h5 2 6) _ _ (k0_off144_eq jj) _ _ _)
          apply PiecesOK.cons (pk 2 5 _ (off105_eq L k jj h5 2 5) _ _ (k0_off143_eq jj) _ _ _)
          apply PiecesOK.cons (pk 2 4 _ (off105_eq L k jj h5 2 4) _ _ (k0_off142_eq jj) _ _ _)
          apply PiecesOK.cons (pk 2 3 _ (off105_eq L k jj h5 2 3) _ _ (k0_off141_eq jj) _ _ _)
          apply PiecesOK.cons (pk 2 2 _ (off105_eq L k jj h5 2 2) _ _ (k0_off140_eq jj) _ _ _)
          apply PiecesOK.cons (pk 2 1 _ (off105_eq L k jj h5 2 1) _ _ (k0_off139_eq jj) _ _ _)
          apply PiecesOK.cons (pk 2 0 _ (off105_eq L k jj h5 2 0) _ _ (k0_off138_eq jj) _ _ _)
          apply PiecesOK.cons (pk 1 15 _ (off105_eq L k jj h5 1 15) _ _ (k0_off137_eq jj) _ _ _)
          apply PiecesOK.cons (pk 1 14 _ (off105_eq L k jj h5 1 14) _ _ (k0_off136_eq jj) _ _ _)
          apply PiecesOK.cons (pk 1 13 _ (off105_eq L k jj h5 1 13) _ _ (k0_off135_eq jj) _ _ _)
          apply PiecesOK.cons (pk 1 12 _ (off105_eq L k jj h5 1 12) _ _ (k0_off134_eq jj) _ _ _)
          apply PiecesOK.cons (pk 1 11 _ (off105_eq L k jj h5 1 11) _ _ (k0_off133_eq jj) _ _ _)
          apply PiecesOK.cons (pk 1 10 _ (off105_eq L k jj h5 1 10) _ _ (k0_off132_eq jj) _ _ _)
          apply PiecesOK.cons (pk 1 9 _ (off105_eq L k jj h5 1 9) _ _ (k0_off131_eq jj) _ _ _)
          apply PiecesOK.cons (pk 1 8 _ (off105_eq L k jj h5 1 8) _ _ (k0_off130_eq jj) _ _ _)
          apply PiecesOK.cons (pk 1 7 _ (off105_eq L k jj h5 1 7) _ _ (k0_off129_eq jj) _ _ _)
          apply PiecesOK.cons (pk 1 6 _ (off105_eq L k jj h5 1 6) _ _ (k0_off128_eq jj) _ _ _)
          apply PiecesOK.cons (pk 1 5 _ (off105_eq L k jj h5 1 5) _ _ (k0_off127_eq jj) _ _ _)
          apply PiecesOK.cons (pk 1 4 _ (off105_eq L k jj h5 1 4) _ _ (k0_off126_eq jj) _ _ _)
          apply PiecesOK.cons (pk 1 3 _ (off105_eq L k jj h5 1 3) _ _ (k0_off125_eq jj) _ _ _)
          apply PiecesOK.cons (pk 1 2 _ (off105_eq L k jj h5 1 2) _ _ (k0_off124_eq jj) _ _ _)
          apply PiecesOK.cons (pk 1 1 _ (off105_eq L k jj h5 1 1) _ _ (k0_off123_eq jj) _ _ _)
          apply PiecesOK.cons (pk 1 0 _ (off105_eq L k jj h5 1 0) _ _ (k0_off122_eq jj) _ _ _)
          apply PiecesOK.cons (pk 0 15 _ (off105_eq L k jj h5 0 15) _ _ (k0_off121_eq jj) _ _ _)
          apply PiecesOK.cons (pk 0 14 _ (off105_eq L k jj h5 0 14) _ _ (k0_off120_eq jj) _ _ _)
          apply PiecesOK.cons (pk 0 13 _ (off105_eq L k jj h5 0 13) _ _ (k0_off119_eq jj) _ _ _)
          apply PiecesOK.cons (pk 0 12 _ (off105_eq L k jj h5 0 12) _ _ (k0_off118_eq jj) _ _ _)
          apply PiecesOK.cons (pk 0 11 _ (off105_eq L k jj h5 0 11) _ _ (k0_off117_eq jj) _ _ _)
          apply PiecesOK.cons (pk 0 10 _ (off105_eq L k jj h5 0 10) _ _ (k0_off116_eq jj) _ _ _)
          apply PiecesOK.cons (pk 0 9 _ (off105_eq L k jj h5 0 9) _ _ (k0_off115_eq jj) _ _ _)
          apply PiecesOK.cons (pk 0 8 _ (off105_eq L k jj h5 0 8) _ _ (k0_off114_eq jj) _ _ _)
          apply PiecesOK.cons (pk 0 7 _ (off105_eq L k jj h5 0 7) _ _ (k0_off113_eq jj) _ _ _)
          apply PiecesOK.cons (pk 0 6 _ (off105_eq L k jj h5 0 6) _ _ (k0_off112_eq jj) _ _ _)
          apply PiecesOK.cons (pk 0 5 _ (off105_eq L k jj h5 0 5) _ _ (k0_off111_eq jj) _ _ _)
          apply PiecesOK.cons (pk 0 4 _ (off105_eq L k jj h5 0 4) _ _ (k0_off110_eq jj) _ _ _)
          apply PiecesOK.cons (pk 0 3 _ (off105_eq L k jj h5 0 3) _ _ (k0_off109_eq jj) _ _ _)
          apply PiecesOK.cons (pk 0 2 _ (off105_eq L k jj h5 0 2) _ _ (k0_off108_eq jj) _ _ _)
          apply PiecesOK.cons (pk 0 1 _ (off105_eq L k jj h5 0 1) _ _ (k0_off107_eq jj) _ _ _)
          apply PiecesOK.cons (pk 0 0 _ (off105_eq L k jj h5 0 0) _ _ (k0_off106_eq jj) _ _ _)
          exact PiecesOK.nil
        · unfold rowInv2 slabInv bufRows2
          isplitl [HG]
          · iexists _; isplitr; rotate_left; iexact HG; ipureintro; exact hgS
          · iexists _; isplitr; rotate_left; iexact Hc2_src; ipureintro; exact Cert.Unfold.rowsDone_zero _ _ _
        iintro %_ HR
        unfold rowInv2 slabInv bufRows2
        icases HR with ⟨⟨%gS2, %hgS2, HG⟩, %tt2, %htt2, HT2⟩
        rw [h32] at htt2
        have hgS := hgS2
        have hlt2 : k.val < nIss L 2 := by omega
        ihave Hsp := (Entails.of_eq (todo_step (fun j => (o0Loc d ↦[chunkSet L 2 j]{fullShare} f0 : sProp 𝕄)) hlt2)) $$ Ht2
        icases Hsp with ⟨Hck, Ht2⟩
        ihave Hck' := (Entails.of_eq (pts_chunk0_p2 (F := F) d L k h5 f0).symm) $$ Hck
        sl_exec
        -- the trip's end: every buffer has chunk k in flight
        ihave Hc0 := (Entails.of_eq (flight_respell0 (F := F) d L _ (k0_off52 L k) _ (off52_chunk L k h1) (k0_off52_inb L k h1) (chunkC_inb L 0 k.val) f0 _ _)) $$ Hc0
        ihave Hc1 := (Entails.of_eq (flight_respell0 (F := F) d L _ (k0_off103 L k) _ (off103_chunk L k h3) (k0_off103_inb L k h3) (chunkC_inb L 1 k.val) f0 _ _)) $$ Hc1
        ihave Hc2 := (Entails.of_eq (flight_respell0 (F := F) d L _ (k0_off154 L k) _ (off154_chunk L k h5) (k0_off154_inb L k h5) (chunkC_inb L 2 k.val) f0 _ _)) $$ Hc2
        sl_step
        isplitr; · iexact Hmw
        isplitl [HG]
        · iexists _; isplitr; rotate_left; iexact HG; ipureintro; exact hgS
        isplitl [Ht0 Hc0 Hd0]
        · isplitl [Hd0]
          · iexact Hd0
          isplitl [Ht0]; · iexact Ht0
          iexists tt0; isplitr; · ipureintro; exact htt0
          iexact Hc0
        isplitl [Ht1 Hc1 Hd1]
        · isplitl [Hd1]
          · iexact Hd1
          isplitl [Ht1]; · iexact Ht1
          iexists tt1; isplitr; · ipureintro; exact htt1
          iexact Hc1
        isplitl [Ht2 Hc2 Hd2]
        · isplitl [Hd2]
          · iexact Hd2
          isplitl [Ht2]; · iexact Ht2
          iexists tt2; isplitr; · ipureintro; exact htt2
          iexact Hc2
        iexists _; iexact HO
      · by_cases hD : k.val < nIss L 0
        · -- the last tile's trip in which only buffer 0 still has a chunk
          have hge2 : nIss L 2 ≤ k.val := Nat.le_of_not_lt hB
          have hge1 : nIss L 1 ≤ k.val := by
            by_cases hw : wid L = 31 <;> simp only [nIss, nch, hw, ↓reduceIte] at hge2 ⊢ <;> omega
          have h1 : k0_cond1 L k = 1#1 := (cond1_iff L k).2 (by unfold nIss at hD; omega)
          have h3 : ¬ k0_cond3 L k = 1#1 := fun h => by have := (cond3_iff L k).1 h; unfold nIss at hge1; omega
          have h5 : ¬ k0_cond5 L k = 1#1 := fun h => by have := (cond5_iff L k).1 h; unfold nIss at hge2; omega
          have h2 : k0_cond2 k = 1#1 := (cond2_iff k).2 hkpos
          have e0 : issued L 0 k.val = k.val := by unfold issued; omega
          have e0' : issued L 0 (k.val + 1) = k.val + 1 := by unfold issued; omega
          have hkne : ¬ k.val = 0 := by omega
          have eS1 : bufState0_1 d L x0 f0 (k.val + 1) = bufState0_1 d L x0 f0 k.val := by
            unfold bufState0_1 issued
            rw [Nat.min_eq_right (by omega : nIss L 1 ≤ k.val + 1), Nat.min_eq_right hge1]
          have eS2 : bufState0_2 d L x0 f0 (k.val + 1) = bufState0_2 d L x0 f0 k.val := by
            unfold bufState0_2 issued
            rw [Nat.min_eq_right (by omega : nIss L 2 ≤ k.val + 1), Nat.min_eq_right hge2]
          have hdone0 : (iprop((bigSep (Finset.range (k.val - 1)) (fun j => (o0Loc d ↦[chunkSet L 0 j]{fullShare} pat0 d x0 : sProp 𝕄))) ∗ (fun j => (o0Loc d ↦[chunkSet L 0 j]{fullShare} pat0 d x0 : sProp 𝕄)) (k.val - 1)) : sProp 𝕄)
              = bigSep (Finset.range k.val) (fun j => (o0Loc d ↦[chunkSet L 0 j]{fullShare} pat0 d x0 : sProp 𝕄)) := by
            have h := done_step (fun j => (o0Loc d ↦[chunkSet L 0 j]{fullShare} pat0 d x0 : sProp 𝕄)) (k.val - 1)
            rwa [show k.val - 1 + 1 = k.val by omega] at h
          show chunkInv0 d L O W x0 f0 k.val _ ⊢ wp _ _ _ _ (fun _ => chunkInv0 d L O W x0 f0 (k.val + 1) ⟨⟩)
          unfold chunkInv0 bufState0_0
          rw [e0, e0', if_neg hkne, if_neg (Nat.succ_ne_zero _), eS1, eS2]
          simp only [Nat.add_sub_cancel]
          unfold bufFlying0_0 slabInv
          iintro ⟨#Hmw, ⟨%gS, %hgS, HG⟩, ⟨Hd0, Ht0, %tf0, %hfl0, Hc0⟩, HS1, HS2, %W', HO⟩
          sl_exec
          -- buffer 0: its previous copy has been waited for; chunk k-1 has landed and holds the patches
          ihave Hl0 := (Entails.of_eq (landed_pts0 (F := F) d L 0 (k.val - 1) (by decide) (by omega) x0 _ _ hfl0)) $$ [Hc0_dst]
          · iexact Hc0_dst
          ihave Hd0 := (Entails.of_eq hdone0) $$ [Hd0 Hl0]
          · isplitl [Hd0]; · iexact Hd0
            iexact Hl0
          -- buffer 0: fill its 32 rows, then send them off as chunk k
          sl_for (rowInv0 d L x0 (chunkRow L 0 k.val)) $$ [HG Hc0_src]
          case region =>
            intro jj _
            unfold rowInv0 slabInv bufRows0
            iintro ⟨⟨%g, %hg, HG⟩, %t, %ht, HT0⟩
            have hjj : jj.val < 32 := by have h := jj.isLt; change jj.val < k0_t2_loop.trips at h; rw [trips_t2] at h; omega
            sl_exec
            sl_step
            isplitl [HG]
            · iexists g; isplitr; · ipureintro; exact hg
              iexact HG
            iexists _; isplitr
            rotate_left
            · iexact HT0
            ipureintro
            have hk3 : 3 * k.val < nch L := (cond1_iff L k).1 h1
            have hnl := nch_le L
            have erow : chunkRow L 0 k.val + jj.val = wbase L + 96 * k.val + jj.val := by unfold chunkRow; omega
            have hr1 : wbase L ≤ wbase L + 96 * k.val + jj.val := by omega
            have hr2 : wbase L + 96 * k.val + jj.val < wbase L + nrows L := by omega
            refine rows_step' (b0V).view x0 (chunkRow L 0 k.val) jj.val hjj t _ ht ?_
            rw [erow]
            have pk := fun (c : Fin 3) (kh : Fin 16) =>
              piece_ok d L x0 g hg (wbase L + 96 * k.val + jj.val) jj.val hjj hr1 hr2 c kh
            apply PiecesOK.cons (pk 2 15 _ (off3_eq L k jj h1 2 15) _ _ (k0_off51_eq jj) _ _ _)
            apply PiecesOK.cons (pk 2 14 _ (off3_eq L k jj h1 2 14) _ _ (k0_off50_eq jj) _ _ _)
            apply PiecesOK.cons (pk 2 13 _ (off3_eq L k jj h1 2 13) _ _ (k0_off49_eq jj) _ _ _)
            apply PiecesOK.cons (pk 2 12 _ (off3_eq L k jj h1 2 12) _ _ (k0_off48_eq jj) _ _ _)
            apply PiecesOK.cons (pk 2 11 _ (off3_eq L k jj h1 2 11) _ _ (k0_off47_eq jj) _ _ _)
            apply PiecesOK.cons (pk 2 10 _ (off3_eq L k jj h1 2 10) _ _ (k0_off46_eq jj) _ _ _)
            apply PiecesOK.cons (pk 2 9 _ (off3_eq L k jj h1 2 9) _ _ (k0_off45_eq jj) _ _ _)
            apply PiecesOK.cons (pk 2 8 _ (off3_eq L k jj h1 2 8) _ _ (k0_off44_eq jj) _ _ _)
            apply PiecesOK.cons (pk 2 7 _ (off3_eq L k jj h1 2 7) _ _ (k0_off43_eq jj) _ _ _)
            apply PiecesOK.cons (pk 2 6 _ (off3_eq L k jj h1 2 6) _ _ (k0_off42_eq jj) _ _ _)
            apply PiecesOK.cons (pk 2 5 _ (off3_eq L k jj h1 2 5) _ _ (k0_off41_eq jj) _ _ _)
            apply PiecesOK.cons (pk 2 4 _ (off3_eq L k jj h1 2 4) _ _ (k0_off40_eq jj) _ _ _)
            apply PiecesOK.cons (pk 2 3 _ (off3_eq L k jj h1 2 3) _ _ (k0_off39_eq jj) _ _ _)
            apply PiecesOK.cons (pk 2 2 _ (off3_eq L k jj h1 2 2) _ _ (k0_off38_eq jj) _ _ _)
            apply PiecesOK.cons (pk 2 1 _ (off3_eq L k jj h1 2 1) _ _ (k0_off37_eq jj) _ _ _)
            apply PiecesOK.cons (pk 2 0 _ (off3_eq L k jj h1 2 0) _ _ (k0_off36_eq jj) _ _ _)
            apply PiecesOK.cons (pk 1 15 _ (off3_eq L k jj h1 1 15) _ _ (k0_off35_eq jj) _ _ _)
            apply PiecesOK.cons (pk 1 14 _ (off3_eq L k jj h1 1 14) _ _ (k0_off34_eq jj) _ _ _)
            apply PiecesOK.cons (pk 1 13 _ (off3_eq L k jj h1 1 13) _ _ (k0_off33_eq jj) _ _ _)
            apply PiecesOK.cons (pk 1 12 _ (off3_eq L k jj h1 1 12) _ _ (k0_off32_eq jj) _ _ _)
            apply PiecesOK.cons (pk 1 11 _ (off3_eq L k jj h1 1 11) _ _ (k0_off31_eq jj) _ _ _)
            apply PiecesOK.cons (pk 1 10 _ (off3_eq L k jj h1 1 10) _ _ (k0_off30_eq jj) _ _ _)
            apply PiecesOK.cons (pk 1 9 _ (off3_eq L k jj h1 1 9) _ _ (k0_off29_eq jj) _ _ _)
            apply PiecesOK.cons (pk 1 8 _ (off3_eq L k jj h1 1 8) _ _ (k0_off28_eq jj) _ _ _)
            apply PiecesOK.cons (pk 1 7 _ (off3_eq L k jj h1 1 7) _ _ (k0_off27_eq jj) _ _ _)
            apply PiecesOK.cons (pk 1 6 _ (off3_eq L k jj h1 1 6) _ _ (k0_off26_eq jj) _ _ _)
            apply PiecesOK.cons (pk 1 5 _ (off3_eq L k jj h1 1 5) _ _ (k0_off25_eq jj) _ _ _)
            apply PiecesOK.cons (pk 1 4 _ (off3_eq L k jj h1 1 4) _ _ (k0_off24_eq jj) _ _ _)
            apply PiecesOK.cons (pk 1 3 _ (off3_eq L k jj h1 1 3) _ _ (k0_off23_eq jj) _ _ _)
            apply PiecesOK.cons (pk 1 2 _ (off3_eq L k jj h1 1 2) _ _ (k0_off22_eq jj) _ _ _)
            apply PiecesOK.cons (pk 1 1 _ (off3_eq L k jj h1 1 1) _ _ (k0_off21_eq jj) _ _ _)
            apply PiecesOK.cons (pk 1 0 _ (off3_eq L k jj h1 1 0) _ _ (k0_off20_eq jj) _ _ _)
            apply PiecesOK.cons (pk 0 15 _ (off3_eq L k jj h1 0 15) _ _ (k0_off19_eq jj) _ _ _)
            apply PiecesOK.cons (pk 0 14 _ (off3_eq L k jj h1 0 14) _ _ (k0_off18_eq jj) _ _ _)
            apply PiecesOK.cons (pk 0 13 _ (off3_eq L k jj h1 0 13) _ _ (k0_off17_eq jj) _ _ _)
            apply PiecesOK.cons (pk 0 12 _ (off3_eq L k jj h1 0 12) _ _ (k0_off16_eq jj) _ _ _)
            apply PiecesOK.cons (pk 0 11 _ (off3_eq L k jj h1 0 11) _ _ (k0_off15_eq jj) _ _ _)
            apply PiecesOK.cons (pk 0 10 _ (off3_eq L k jj h1 0 10) _ _ (k0_off14_eq jj) _ _ _)
            apply PiecesOK.cons (pk 0 9 _ (off3_eq L k jj h1 0 9) _ _ (k0_off13_eq jj) _ _ _)
            apply PiecesOK.cons (pk 0 8 _ (off3_eq L k jj h1 0 8) _ _ (k0_off12_eq jj) _ _ _)
            apply PiecesOK.cons (pk 0 7 _ (off3_eq L k jj h1 0 7) _ _ (k0_off11_eq jj) _ _ _)
            apply PiecesOK.cons (pk 0 6 _ (off3_eq L k jj h1 0 6) _ _ (k0_off10_eq jj) _ _ _)
            apply PiecesOK.cons (pk 0 5 _ (off3_eq L k jj h1 0 5) _ _ (k0_off9_eq jj) _ _ _)
            apply PiecesOK.cons (pk 0 4 _ (off3_eq L k jj h1 0 4) _ _ (k0_off8_eq jj) _ _ _)
            apply PiecesOK.cons (pk 0 3 _ (off3_eq L k jj h1 0 3) _ _ (k0_off7_eq jj) _ _ _)
            apply PiecesOK.cons (pk 0 2 _ (off3_eq L k jj h1 0 2) _ _ (k0_off6_eq jj) _ _ _)
            apply PiecesOK.cons (pk 0 1 _ (off3_eq L k jj h1 0 1) _ _ (k0_off5_eq jj) _ _ _)
            apply PiecesOK.cons (pk 0 0 _ (off3_eq L k jj h1 0 0) _ _ (k0_off4_eq jj) _ _ _)
            exact PiecesOK.nil
          · unfold rowInv0 slabInv bufRows0
            isplitl [HG]
            · iexists _; isplitr; rotate_left; iexact HG; ipureintro; exact hgS
            · iexists _; isplitr; rotate_left; iexact Hc0_src; ipureintro; exact Cert.Unfold.rowsDone_zero _ _ _
          iintro %_ HR
          unfold rowInv0 slabInv bufRows0
          icases HR with ⟨⟨%gS0, %hgS0, HG⟩, %tt0, %htt0, HT0⟩
          rw [h32] at htt0
          have hgS := hgS0
          have hlt0 : k.val < nIss L 0 := by omega
          ihave Hsp := (Entails.of_eq (todo_step (fun j => (o0Loc d ↦[chunkSet L 0 j]{fullShare} f0 : sProp 𝕄)) hlt0)) $$ Ht0
          icases Hsp with ⟨Hck, Ht0⟩
          ihave Hck' := (Entails.of_eq (pts_chunk0_p0 (F := F) d L k h1 f0).symm) $$ Hck
          sl_exec
          -- the trip's end: buffer 0 has chunk k in flight; the other two are as they were
          ihave Hc0 := (Entails.of_eq (flight_respell0 (F := F) d L _ (k0_off52 L k) _ (off52_chunk L k h1) (k0_off52_inb L k h1) (chunkC_inb L 0 k.val) f0 _ _)) $$ Hc0
          sl_step
          isplitr; · iexact Hmw
          isplitl [HG]
          · iexists _; isplitr; rotate_left; iexact HG; ipureintro; exact hgS
          isplitl [Ht0 Hc0 Hd0]
          · isplitl [Hd0]
            · iexact Hd0
            isplitl [Ht0]; · iexact Ht0
            iexists tt0; isplitr; · ipureintro; exact htt0
            iexact Hc0
          isplitl [HS1]; · iexact HS1
          isplitl [HS2]; · iexact HS2
          iexists _; iexact HO
        · -- nothing is left for any buffer: the trip changes nothing
          have hC : nIss L 0 ≤ k.val := Nat.le_of_not_lt hD
          have hle : nIss L 2 ≤ nIss L 1 ∧ nIss L 1 ≤ nIss L 0 := by unfold nIss; omega
          have h1 : ¬ k0_cond1 L k = 1#1 := fun h => by have := (cond1_iff L k).1 h; unfold nIss at hC; omega
          have h3 : ¬ k0_cond3 L k = 1#1 := fun h => by have := (cond3_iff L k).1 h; unfold nIss at hC; omega
          have h5 : ¬ k0_cond5 L k = 1#1 := fun h => by have := (cond5_iff L k).1 h; unfold nIss at hC; omega
          have eI : chunkInv0 d L O W x0 f0 (k.val + 1) ⟨⟩ = chunkInv0 d L O W x0 f0 k.val ⟨⟩ := by
            unfold chunkInv0 bufState0_0 bufState0_1 bufState0_2 issued
            rw [Nat.min_eq_right (by omega : nIss L 0 ≤ k.val + 1), Nat.min_eq_right (by omega : nIss L 0 ≤ k.val),
              Nat.min_eq_right (by omega : nIss L 1 ≤ k.val + 1), Nat.min_eq_right (by omega : nIss L 1 ≤ k.val),
              Nat.min_eq_right (by omega : nIss L 2 ≤ k.val + 1), Nat.min_eq_right (by omega : nIss L 2 ≤ k.val)]
          show chunkInv0 d L O W x0 f0 k.val _ ⊢ wp _ _ _ _ (fun _ => chunkInv0 d L O W x0 f0 (k.val + 1) ⟨⟩)
          rw [eI]
          iintro H
          sl_exec
          sl_step
          iexact H
  · unfold chunkInv0
    isplitr; · iexact Hmw
    isplitl [HG]
    · unfold slabInv; iexists _; isplitr; rotate_left; iexact HG; ipureintro; exact slab_filled2_x0 d L x0 g hg
    isplitl [HD0 HT0 Hc0]
    · iapply (bufState0_0_init d L x0 f0 t0)
      isplitl [HD0]; · iexact HD0
      isplitl [HT0]; · iexact HT0
      iexact Hc0
    isplitl [HD1 HT1 Hc1]
    · iapply (bufState0_1_init d L x0 f0 t1)
      isplitl [HD1]; · iexact HD1
      isplitl [HT1]; · iexact HT1
      iexact Hc1
    isplitl [HD2 HT2 Hc2]
    · iapply (bufState0_2_init d L x0 f0 t2)
      isplitl [HD2]; · iexact HD2
      isplitl [HT2]; · iexact HT2
      iexact Hc2
    iexists _; iexact HO
  iintro %_ HI
  have e20 : Scf.trips k0_t1_loop.lb k0_t1_loop.ub k0_t1_loop.st = 20 := trips_t1
  rw [e20]
  by_cases hw : wid L = 31
  · -- the last tile: 46 chunks (16, 15, 15), no chunk left to issue; the tail follows the three waits
    have k0_h7 : ¬ k0_cond7 L = 1#1 := fun h => (cond7_iff L).1 h hw
    have k0_h9 : k0_cond9 L = 1#1 := (cond9_iff L).2 hw
    have n0 : nIss L 0 = 16 := by unfold nIss nch; rw [if_pos hw]
    have n1 : nIss L 1 = 15 := by unfold nIss nch; rw [if_pos hw]
    have n2 : nIss L 2 = 15 := by unfold nIss nch; rw [if_pos hw]
    have i0 : issued L 0 20 = 16 := by unfold issued; omega
    have i1 : issued L 1 20 = 15 := by unfold issued; omega
    have i2 : issued L 2 20 = 15 := by unfold issued; omega
    unfold chunkInv0 bufState0_0 bufState0_1 bufState0_2
    rw [i0, i1, i2, n0, n1, n2]
    simp only [Nat.reduceSub, Finset.Ico_self, bigSep_empty, OfNat.ofNat_ne_zero, ↓reduceIte]
    unfold bufFlying0_0 bufFlying0_1 bufFlying0_2 slabInv
    icases HI with ⟨-, ⟨%g, %hg, HG⟩, ⟨HD0, -, ⟨%u0, %hu0, HF0⟩⟩, ⟨HD1, -, ⟨%u1, %hu1, HF1⟩⟩, ⟨HD2, -, ⟨%u2, %hu2, HF2⟩⟩, %W', HO⟩
    -- the tail pieces in the program's spelling
    ihave HTA' := (Entails.of_eq (pts_tailA0 (F := F) d L k0_h9 f0).symm) $$ HTA
    ihave HTB' := (Entails.of_eq (pts_tailB0 (F := F) d L k0_h9 f0).symm) $$ HTB
    sl_unfold [part104_run.sl.prog.cont_1]
    sl_exec
    sl_for (rowInv0 d L x0 61984) $$ [HG HF0_src]
    case region =>
      intro jj _
      unfold rowInv0 slabInv bufRows0
      iintro ⟨⟨%g, %hg, HG⟩, %t, %ht, HT0⟩
      have hjj17 : jj.val < 17 := by have h := jj.isLt; change jj.val < k0_t6_loop.trips at h; rw [trips_t6] at h; exact h
      have hjj : jj.val < 32 := by omega
      sl_exec
      sl_step
      isplitl [HG]
      · iexists g; isplitr; · ipureintro; exact hg
        iexact HG
      iexists _; isplitr
      rotate_left
      · iexact HT0
      ipureintro
      have hwb : wbase L = 60512 := by unfold wbase; rw [hw]
      have hnr : nrows L = 1489 := by unfold nrows; rw [if_pos hw]
      have hr1 : wbase L ≤ 61984 + jj.val := by omega
      have hr2 : 61984 + jj.val < wbase L + nrows L := by omega
      refine rows_step' (b0V).view x0 (61984) jj.val hjj t _ ht ?_
      have pk := fun (c : Fin 3) (kh : Fin 16) =>
        piece_ok d L x0 g hg (61984 + jj.val) jj.val hjj hr1 hr2 c kh
      apply PiecesOK.cons (pk 2 15 _ (off206_eq L jj k0_h9 2 15) _ _ (k0_off254_eq jj) _ _ _)
      apply PiecesOK.cons (pk 2 14 _ (off206_eq L jj k0_h9 2 14) _ _ (k0_off253_eq jj) _ _ _)
      apply PiecesOK.cons (pk 2 13 _ (off206_eq L jj k0_h9 2 13) _ _ (k0_off252_eq jj) _ _ _)
      apply PiecesOK.cons (pk 2 12 _ (off206_eq L jj k0_h9 2 12) _ _ (k0_off251_eq jj) _ _ _)
      apply PiecesOK.cons (pk 2 11 _ (off206_eq L jj k0_h9 2 11) _ _ (k0_off250_eq jj) _ _ _)
      apply PiecesOK.cons (pk 2 10 _ (off206_eq L jj k0_h9 2 10) _ _ (k0_off249_eq jj) _ _ _)
      apply PiecesOK.cons (pk 2 9 _ (off206_eq L jj k0_h9 2 9) _ _ (k0_off248_eq jj) _ _ _)
      apply PiecesOK.cons (pk 2 8 _ (off206_eq L jj k0_h9 2 8) _ _ (k0_off247_eq jj) _ _ _)
      apply PiecesOK.cons (pk 2 7 _ (off206_eq L jj k0_h9 2 7) _ _ (k0_off246_eq jj) _ _ _)
      apply PiecesOK.cons (pk 2 6 _ (off206_eq L jj k0_h9 2 6) _ _ (k0_off245_eq jj) _ _ _)
      apply PiecesOK.cons (pk 2 5 _ (off206_eq L jj k0_h9 2 5) _ _ (k0_off244_eq jj) _ _ _)
      apply PiecesOK.cons (pk 2 4 _ (off206_eq L jj k0_h9 2 4) _ _ (k0_off243_eq jj) _ _ _)
      apply PiecesOK.cons (pk 2 3 _ (off206_eq L jj k0_h9 2 3) _ _ (k0_off242_eq jj) _ _ _)
      apply PiecesOK.cons (pk 2 2 _ (off206_eq L jj k0_h9 2 2) _ _ (k0_off241_eq jj) _ _ _)
      apply PiecesOK.cons (pk 2 1 _ (off206_eq L jj k0_h9 2 1) _ _ (k0_off240_eq jj) _ _ _)
      apply PiecesOK.cons (pk 2 0 _ (off206_eq L jj k0_h9 2 0) _ _ (k0_off239_eq jj) _ _ _)
      apply PiecesOK.cons (pk 1 15 _ (off206_eq L jj k0_h9 1 15) _ _ (k0_off238_eq jj) _ _ _)
      apply PiecesOK.cons (pk 1 14 _ (off206_eq L jj k0_h9 1 14) _ _ (k0_off237_eq jj) _ _ _)
      apply PiecesOK.cons (pk 1 13 _ (off206_eq L jj k0_h9 1 13) _ _ (k0_off236_eq jj) _ _ _)
      apply PiecesOK.cons (pk 1 12 _ (off206_eq L jj k0_h9 1 12) _ _ (k0_off235_eq jj) _ _ _)
      apply PiecesOK.cons (pk 1 11 _ (off206_eq L jj k0_h9 1 11) _ _ (k0_off234_eq jj) _ _ _)
      apply PiecesOK.cons (pk 1 10 _ (off206_eq L jj k0_h9 1 10) _ _ (k0_off233_eq jj) _ _ _)
      apply PiecesOK.cons (pk 1 9 _ (off206_eq L jj k0_h9 1 9) _ _ (k0_off232_eq jj) _ _ _)
      apply PiecesOK.cons (pk 1 8 _ (off206_eq L jj k0_h9 1 8) _ _ (k0_off231_eq jj) _ _ _)
      apply PiecesOK.cons (pk 1 7 _ (off206_eq L jj k0_h9 1 7) _ _ (k0_off230_eq jj) _ _ _)
      apply PiecesOK.cons (pk 1 6 _ (off206_eq L jj k0_h9 1 6) _ _ (k0_off229_eq jj) _ _ _)
      apply PiecesOK.cons (pk 1 5 _ (off206_eq L jj k0_h9 1 5) _ _ (k0_off228_eq jj) _ _ _)
      apply PiecesOK.cons (pk 1 4 _ (off206_eq L jj k0_h9 1 4) _ _ (k0_off227_eq jj) _ _ _)
      apply PiecesOK.cons (pk 1 3 _ (off206_eq L jj k0_h9 1 3) _ _ (k0_off226_eq jj) _ _ _)
      apply PiecesOK.cons (pk 1 2 _ (off206_eq L jj k0_h9 1 2) _ _ (k0_off225_eq jj) _ _ _)
      apply PiecesOK.cons (pk 1 1 _ (off206_eq L jj k0_h9 1 1) _ _ (k0_off224_eq jj) _ _ _)
      apply PiecesOK.cons (pk 1 0 _ (off206_eq L jj k0_h9 1 0) _ _ (k0_off223_eq jj) _ _ _)
      apply PiecesOK.cons (pk 0 15 _ (off206_eq L jj k0_h9 0 15) _ _ (k0_off222_eq jj) _ _ _)
      apply PiecesOK.cons (pk 0 14 _ (off206_eq L jj k0_h9 0 14) _ _ (k0_off221_eq jj) _ _ _)
      apply PiecesOK.cons (pk 0 13 _ (off206_eq L jj k0_h9 0 13) _ _ (k0_off220_eq jj) _ _ _)
      apply PiecesOK.cons (pk 0 12 _ (off206_eq L jj k0_h9 0 12) _ _ (k0_off219_eq jj) _ _ _)
      apply PiecesOK.cons (pk 0 11 _ (off206_eq L jj k0_h9 0 11) _ _ (k0_off218_eq jj) _ _ _)
      apply PiecesOK.cons (pk 0 10 _ (off206_eq L jj k0_h9 0 10) _ _ (k0_off217_eq jj) _ _ _)
      apply PiecesOK.cons (pk 0 9 _ (off206_eq L jj k0_h9 0 9) _ _ (k0_off216_eq jj) _ _ _)
      apply PiecesOK.cons (pk 0 8 _ (off206_eq L jj k0_h9 0 8) _ _ (k0_off215_eq jj) _ _ _)
      apply PiecesOK.cons (pk 0 7 _ (off206_eq L jj k0_h9 0 7) _ _ (k0_off214_eq jj) _ _ _)
      apply PiecesOK.cons (pk 0 6 _ (off206_eq L jj k0_h9 0 6) _ _ (k0_off213_eq jj) _ _ _)
      apply PiecesOK.cons (pk 0 5 _ (off206_eq L jj k0_h9 0 5) _ _ (k0_off212_eq jj) _ _ _)
      apply PiecesOK.cons (pk 0 4 _ (off206_eq L jj k0_h9 0 4) _ _ (k0_off211_eq jj) _ _ _)
      apply PiecesOK.cons (pk 0 3 _ (off206_eq L jj k0_h9 0 3) _ _ (k0_off210_eq jj) _ _ _)
      apply PiecesOK.cons (pk 0 2 _ (off206_eq L jj k0_h9 0 2) _ _ (k0_off209_eq jj) _ _ _)
      apply PiecesOK.cons (pk 0 1 _ (off206_eq L jj k0_h9 0 1) _ _ (k0_off208_eq jj) _ _ _)
      apply PiecesOK.cons (pk 0 0 _ (off206_eq L jj k0_h9 0 0) _ _ (k0_off207_eq jj) _ _ _)
      exact PiecesOK.nil
    · unfold rowInv0 slabInv bufRows0
      isplitl [HG]
      · iexists g; isplitr
        · ipureintro; exact hg
        · iexact HG
      · iexists u0; isplitr
        · ipureintro; exact Cert.Unfold.rowsDone_zero _ _ _
        · iexact HF0_src
    iintro %_ HR
    unfold rowInv0 slabInv bufRows0
    icases HR with ⟨⟨%g', %hg', HG⟩, ⟨%t, %ht, HT0⟩⟩
    sl_exec
    sl_step
    have ht17 : RowsDone (α := Elt F .f32) ((b0V).view.read (Elt F) t) x0 61984 17 := ht
    -- the three delivered chunks join the landed ones
    ihave HL0 := (Entails.of_eq (landed_pts0 (F := F) d L 0 15 (by omega) (by omega) x0 _ _ hu0)) $$ HF0_dst
    ihave HL1 := (Entails.of_eq (landed_pts0 (F := F) d L 1 14 (by omega) (by omega) x0 _ _ hu1)) $$ HF1_dst
    ihave HL2 := (Entails.of_eq (landed_pts0 (F := F) d L 2 14 (by omega) (by omega) x0 _ _ hu2)) $$ HF2_dst
    ihave HD0' := (Entails.of_eq (done_step (fun j => (o0Loc d ↦[chunkSet L 0 j]{fullShare} pat0 d x0 : sProp 𝕄)) 15)) $$ [HD0 HL0]
    · isplitl [HD0]; · iexact HD0
      iexact HL0
    ihave HD1' := (Entails.of_eq (done_step (fun j => (o0Loc d ↦[chunkSet L 1 j]{fullShare} pat0 d x0 : sProp 𝕄)) 14)) $$ [HD1 HL1]
    · isplitl [HD1]; · iexact HD1
      iexact HL1
    ihave HD2' := (Entails.of_eq (done_step (fun j => (o0Loc d ↦[chunkSet L 2 j]{fullShare} pat0 d x0 : sProp 𝕄)) 14)) $$ [HD2 HL2]
    · isplitl [HD2]; · iexact HD2
      iexact HL2
    isplitl [HX0]; · iexact HX0
    isplitl [HG]; · iexists _; iexact HG
    isplitl [HD0']; · iexact HD0'
    isplitl [HD1']; · iexact HD1'
    isplitl [HD2']; · iexact HD2'
    isplitl [HTA']
    · iapply (Entails.of_eq (tailA_landed0 (F := F) d L hw x0 f0 t ht17)); iexact HTA'
    isplitl [HTB']
    · iapply (Entails.of_eq (tailB_landed0 (F := F) d L hw x0 f0 t ht17)); iexact HTB'
    isplitl [HT0 HF0]
    · unfold bufIdle0
      isplitl [HT0]; · iexists _; iexact HT0
      iexact HF0
    isplitl [HF1_src HF1]
    · unfold bufIdle1
      isplitl [HF1_src]; · iexists _; iexact HF1_src
      iexact HF1
    isplitl [HF2_src HF2]
    · unfold bufIdle2
      isplitl [HF2_src]; · iexists _; iexact HF2_src
      iexact HF2
    isplitl [Hc5]; · iexact Hc5
    isplitl [Hc6]; · iexact Hc6
    isplitl [Hc7]; · iexact Hc7
    iexists _; iexact HO
  · -- every other tile: 61 chunks (21, 20, 20); chunk (0, 20) is still to come
    have k0_h7 : k0_cond7 L = 1#1 := (cond7_iff L).2 hw
    have k0_h8 : k0_cond8 = 1#1 := cond8_true
    have k0_h9 : ¬ k0_cond9 L = 1#1 := fun h => hw ((cond9_iff L).1 h)
    have n0 : nIss L 0 = 21 := by unfold nIss nch; rw [if_neg hw]
    have n1 : nIss L 1 = 20 := by unfold nIss nch; rw [if_neg hw]
    have n2 : nIss L 2 = 20 := by unfold nIss nch; rw [if_neg hw]
    have i0 : issued L 0 20 = 20 := by unfold issued; omega
    have i1 : issued L 1 20 = 20 := by unfold issued; omega
    have i2 : issued L 2 20 = 20 := by unfold issued; omega
    unfold chunkInv0 bufState0_0 bufState0_1 bufState0_2
    rw [i0, i1, i2, n0, n1, n2]
    rw [todo_step (fun j => (o0Loc d ↦[chunkSet L 0 j]{fullShare} f0 : sProp 𝕄)) (show 20 < 21 by omega)]
    simp only [Nat.reduceSub, Nat.reduceAdd, Finset.Ico_self, bigSep_empty, OfNat.ofNat_ne_zero, ↓reduceIte]
    unfold bufFlying0_0 bufFlying0_1 bufFlying0_2 slabInv
    icases HI with ⟨-, ⟨%g, %hg, HG⟩, ⟨HD0, ⟨HN0, -⟩, ⟨%u0, %hu0, HF0⟩⟩, ⟨HD1, -, ⟨%u1, %hu1, HF1⟩⟩, ⟨HD2, -, ⟨%u2, %hu2, HF2⟩⟩, %W', HO⟩
    -- the chunk to come in the program's spelling
    ihave HN0' := (Entails.of_eq (pts_last0 (F := F) d L k0_h7 f0).symm) $$ HN0
    sl_unfold [part104_run.sl.prog.cont_1]
    sl_exec
    sl_for (rowInv0 d L x0 (chunkRow L 0 20)) $$ [HG HF0_src]
    case region =>
      intro jj _
      unfold rowInv0 slabInv bufRows0
      iintro ⟨⟨%g, %hg, HG⟩, %t, %ht, HT0⟩
      have hjj : jj.val < 32 := by have h := jj.isLt; change jj.val < k0_t5_loop.trips at h; rw [trips_t5] at h; exact h
      sl_exec
      sl_step
      isplitl [HG]
      · iexists g; isplitr; · ipureintro; exact hg
        iexact HG
      iexists _; isplitr
      rotate_left
      · iexact HT0
      ipureintro
      have hnr : nrows L = 1952 := by unfold nrows; rw [if_neg hw]
      have erow : chunkRow L 0 20 + jj.val = wbase L + 1920 + jj.val := by unfold chunkRow; omega
      have hr1 : wbase L ≤ wbase L + 1920 + jj.val := by omega
      have hr2 : wbase L + 1920 + jj.val < wbase L + nrows L := by omega
      refine rows_step' (b0V).view x0 (chunkRow L 0 20) jj.val hjj t _ ht ?_
      rw [erow]
      have pk := fun (c : Fin 3) (kh : Fin 16) =>
        piece_ok d L x0 g hg (wbase L + 1920 + jj.val) jj.val hjj hr1 hr2 c kh
      apply PiecesOK.cons (pk 2 15 _ (off156_eq L jj k0_h7 2 15) _ _ (k0_off204_eq jj) _ _ _)
      apply PiecesOK.cons (pk 2 14 _ (off156_eq L jj k0_h7 2 14) _ _ (k0_off203_eq jj) _ _ _)
      apply PiecesOK.cons (pk 2 13 _ (off156_eq L jj k0_h7 2 13) _ _ (k0_off202_eq jj) _ _ _)
      apply PiecesOK.cons (pk 2 12 _ (off156_eq L jj k0_h7 2 12) _ _ (k0_off201_eq jj) _ _ _)
      apply PiecesOK.cons (pk 2 11 _ (off156_eq L jj k0_h7 2 11) _ _ (k0_off200_eq jj) _ _ _)
      apply PiecesOK.cons (pk 2 10 _ (off156_eq L jj k0_h7 2 10) _ _ (k0_off199_eq jj) _ _ _)
      apply PiecesOK.cons (pk 2 9 _ (off156_eq L jj k0_h7 2 9) _ _ (k0_off198_eq jj) _ _ _)
      apply PiecesOK.cons (pk 2 8 _ (off156_eq L jj k0_h7 2 8) _ _ (k0_off197_eq jj) _ _ _)
      apply PiecesOK.cons (pk 2 7 _ (off156_eq L jj k0_h7 2 7) _ _ (k0_off196_eq jj) _ _ _)
      apply PiecesOK.cons (pk 2 6 _ (off156_eq L jj k0_h7 2 6) _ _ (k0_off195_eq jj) _ _ _)
      apply PiecesOK.cons (pk 2 5 _ (off156_eq L jj k0_h7 2 5) _ _ (k0_off194_eq jj) _ _ _)
      apply PiecesOK.cons (pk 2 4 _ (off156_eq L jj k0_h7 2 4) _ _ (k0_off193_eq jj) _ _ _)
      apply PiecesOK.cons (pk 2 3 _ (off156_eq L jj k0_h7 2 3) _ _ (k0_off192_eq jj) _ _ _)
      apply PiecesOK.cons (pk 2 2 _ (off156_eq L jj k0_h7 2 2) _ _ (k0_off191_eq jj) _ _ _)
      apply PiecesOK.cons (pk 2 1 _ (off156_eq L jj k0_h7 2 1) _ _ (k0_off190_eq jj) _ _ _)
      apply PiecesOK.cons (pk 2 0 _ (off156_eq L jj k0_h7 2 0) _ _ (k0_off189_eq jj) _ _ _)
      apply PiecesOK.cons (pk 1 15 _ (off156_eq L jj k0_h7 1 15) _ _ (k0_off188_eq jj) _ _ _)
      apply PiecesOK.cons (pk 1 14 _ (off156_eq L jj k0_h7 1 14) _ _ (k0_off187_eq jj) _ _ _)
      apply PiecesOK.cons (pk 1 13 _ (off156_eq L jj k0_h7 1 13) _ _ (k0_off186_eq jj) _ _ _)
      apply PiecesOK.cons (pk 1 12 _ (off156_eq L jj k0_h7 1 12) _ _ (k0_off185_eq jj) _ _ _)
      apply PiecesOK.cons (pk 1 11 _ (off156_eq L jj k0_h7 1 11) _ _ (k0_off184_eq jj) _ _ _)
      apply PiecesOK.cons (pk 1 10 _ (off156_eq L jj k0_h7 1 10) _ _ (k0_off183_eq jj) _ _ _)
      apply PiecesOK.cons (pk 1 9 _ (off156_eq L jj k0_h7 1 9) _ _ (k0_off182_eq jj) _ _ _)
      apply PiecesOK.cons (pk 1 8 _ (off156_eq L jj k0_h7 1 8) _ _ (k0_off181_eq jj) _ _ _)
      apply PiecesOK.cons (pk 1 7 _ (off156_eq L jj k0_h7 1 7) _ _ (k0_off180_eq jj) _ _ _)
      apply PiecesOK.cons (pk 1 6 _ (off156_eq L jj k0_h7 1 6) _ _ (k0_off179_eq jj) _ _ _)
      apply PiecesOK.cons (pk 1 5 _ (off156_eq L jj k0_h7 1 5) _ _ (k0_off178_eq jj) _ _ _)
      apply PiecesOK.cons (pk 1 4 _ (off156_eq L jj k0_h7 1 4) _ _ (k0_off177_eq jj) _ _ _)
      apply PiecesOK.cons (pk 1 3 _ (off156_eq L jj k0_h7 1 3) _ _ (k0_off176_eq jj) _ _ _)
      apply PiecesOK.cons (pk 1 2 _ (off156_eq L jj k0_h7 1 2) _ _ (k0_off175_eq jj) _ _ _)
      apply PiecesOK.cons (pk 1 1 _ (off156_eq L jj k0_h7 1 1) _ _ (k0_off174_eq jj) _ _ _)
      apply PiecesOK.cons (pk 1 0 _ (off156_eq L jj k0_h7 1 0) _ _ (k0_off173_eq jj) _ _ _)
      apply PiecesOK.cons (pk 0 15 _ (off156_eq L jj k0_h7 0 15) _ _ (k0_off172_eq jj) _ _ _)
      apply PiecesOK.cons (pk 0 14 _ (off156_eq L jj k0_h7 0 14) _ _ (k0_off171_eq jj) _ _ _)
      apply PiecesOK.cons (pk 0 13 _ (off156_eq L jj k0_h7 0 13) _ _ (k0_off170_eq jj) _ _ _)
      apply PiecesOK.cons (pk 0 12 _ (off156_eq L jj k0_h7 0 12) _ _ (k0_off169_eq jj) _ _ _)
      apply PiecesOK.cons (pk 0 11 _ (off156_eq L jj k0_h7 0 11) _ _ (k0_off168_eq jj) _ _ _)
      apply PiecesOK.cons (pk 0 10 _ (off156_eq L jj k0_h7 0 10) _ _ (k0_off167_eq jj) _ _ _)
      apply PiecesOK.cons (pk 0 9 _ (off156_eq L jj k0_h7 0 9) _ _ (k0_off166_eq jj) _ _ _)
      apply PiecesOK.cons (pk 0 8 _ (off156_eq L jj k0_h7 0 8) _ _ (k0_off165_eq jj) _ _ _)
      apply PiecesOK.cons (pk 0 7 _ (off156_eq L jj k0_h7 0 7) _ _ (k0_off164_eq jj) _ _ _)
      apply PiecesOK.cons (pk 0 6 _ (off156_eq L jj k0_h7 0 6) _ _ (k0_off163_eq jj) _ _ _)
      apply PiecesOK.cons (pk 0 5 _ (off156_eq L jj k0_h7 0 5) _ _ (k0_off162_eq jj) _ _ _)
      apply PiecesOK.cons (pk 0 4 _ (off156_eq L jj k0_h7 0 4) _ _ (k0_off161_eq jj) _ _ _)
      apply PiecesOK.cons (pk 0 3 _ (off156_eq L jj k0_h7 0 3) _ _ (k0_off160_eq jj) _ _ _)
      apply PiecesOK.cons (pk 0 2 _ (off156_eq L jj k0_h7 0 2) _ _ (k0_off159_eq jj) _ _ _)
      apply PiecesOK.cons (pk 0 1 _ (off156_eq L jj k0_h7 0 1) _ _ (k0_off158_eq jj) _ _ _)
      apply PiecesOK.cons (pk 0 0 _ (off156_eq L jj k0_h7 0 0) _ _ (k0_off157_eq jj) _ _ _)
      exact PiecesOK.nil
    · unfold rowInv0 slabInv bufRows0
      isplitl [HG]
      · iexists g; isplitr
        · ipureintro; exact hg
        · iexact HG
      · iexists u0; isplitr
        · ipureintro; exact Cert.Unfold.rowsDone_zero _ _ _
        · iexact HF0_src
    iintro %_ HR
    unfold rowInv0 slabInv bufRows0
    icases HR with ⟨⟨%g', %hg', HG⟩, ⟨%t, %ht, HT0⟩⟩
    sl_exec
    sl_step
    have ht32 : RowsDone (α := Elt F .f32) ((b0V).view.read (Elt F) t) x0 (chunkRow L 0 20) 32 := ht
    -- the four delivered chunks join the landed ones
    ihave HL0 := (Entails.of_eq (landed_pts0 (F := F) d L 0 19 (by omega) (by omega) x0 _ _ hu0)) $$ HF0_dst
    ihave HL1 := (Entails.of_eq (landed_pts0 (F := F) d L 1 19 (by omega) (by omega) x0 _ _ hu1)) $$ HF1_dst
    ihave HL2 := (Entails.of_eq (landed_pts0 (F := F) d L 2 19 (by omega) (by omega) x0 _ _ hu2)) $$ HF2_dst
    ihave HL0' := (Entails.of_eq (last_landed0 (F := F) d L k0_h7 x0 f0 _ ht32)) $$ [HN0']
    · iexact HN0'
    ihave HD0' := (Entails.of_eq (done_step (fun j => (o0Loc d ↦[chunkSet L 0 j]{fullShare} pat0 d x0 : sProp 𝕄)) 19)) $$ [HD0 HL0]
    · isplitl [HD0]; · iexact HD0
      iexact HL0
    ihave HD0'' := (Entails.of_eq (done_step (fun j => (o0Loc d ↦[chunkSet L 0 j]{fullShare} pat0 d x0 : sProp 𝕄)) 20)) $$ [HD0' HL0']
    · isplitl [HD0']; · iexact HD0'
      iexact HL0'
    ihave HD1' := (Entails.of_eq (done_step (fun j => (o0Loc d ↦[chunkSet L 1 j]{fullShare} pat0 d x0 : sProp 𝕄)) 19)) $$ [HD1 HL1]
    · isplitl [HD1]; · iexact HD1
      iexact HL1
    ihave HD2' := (Entails.of_eq (done_step (fun j => (o0Loc d ↦[chunkSet L 2 j]{fullShare} pat0 d x0 : sProp 𝕄)) 19)) $$ [HD2 HL2]
    · isplitl [HD2]; · iexact HD2
      iexact HL2
    isplitl [HX0]; · iexact HX0
    isplitl [HG]; · iexists _; iexact HG
    isplitl [HD0'']; · iexact HD0''
    isplitl [HD1']; · iexact HD1'
    isplitl [HD2']; · iexact HD2'
    isplitl [HTA]
    · iapply (Entails.of_eq (tailA_none (F := F) d L hw f0 (pat0 d x0))); iexact HTA
    isplitl [HTB]
    · iapply (Entails.of_eq (tailB_none (F := F) d L hw f0 (pat0 d x0))); iexact HTB
    isplitl [HT0 HF0]
    · unfold bufIdle0
      isplitl [HT0]; · iexists _; iexact HT0
      iexact HF0
    isplitl [HF1_src HF1]
    · unfold bufIdle1
      isplitl [HF1_src]; · iexists _; iexact HF1_src
      iexact HF1
    isplitl [HF2_src HF2]
    · unfold bufIdle2
      isplitl [HF2_src]; · iexists _; iexact HF2_src
      iexact HF2
    isplitl [Hc5]; · iexact Hc5
    isplitl [Hc6]; · iexact Hc6
    isplitl [Hc7]; · iexact Hc7
    iexists _; iexact HO

end Cert.Proof.KI

end
-- ==== Proof.RowVal.lean ====
/-
  One trip of a row loop, read as values. A trip stores the 48 segments of one patch, sixteen lanes each, into one row
  of a staging buffer, left to right; each segment was loaded from the slab where the patch's segment lies. Rows below
  the trip's keep the patches they held; the trip's row holds the patch below the column the stores have reached.
-/
import proofs.«212940_g32057635897708_cont_8to1_b_1299_25_alg».proof.Proof.Inv
import proofs.«212940_g32057635897708_cont_8to1_b_1299_25_alg».proof.Proof.Arith
import Idealize.ShloMosaic.Lib.WritesUnit
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)

/-! ## One row of a staging buffer, sixteen lanes at a time -/

section RowPart
variable {κ : Kind} {sp : Space} (v : View sig κ sp S32x768 .f32)

/-- Rows below `jj` hold the patches from `row0`, and row `jj` holds patch `row0 + jj` below column `n`. -/
def RowPart (g : S32x768.Idx → Elt F .f32) (x : Cert.Unfold.SFlat.Idx → Elt F .f32) (row0 jj n : Nat) : Prop :=
  RowsDone (α := Elt F .f32) g x row0 jj ∧
    ∀ (hjj : jj < 32) (f : Fin 768), f.val < n → g (ix2 ⟨jj, hjj⟩ f) = xAt x (flatPos (row0 + jj) f.val)

theorem rowPart_zero (g : S32x768.Idx → Elt F .f32) (x : Cert.Unfold.SFlat.Idx → Elt F .f32) (row0 jj : Nat)
    (h : RowsDone (α := Elt F .f32) g x row0 jj) : RowPart g x row0 jj 0 :=
  ⟨h, fun _ _ hf => absurd hf (Nat.not_lt_zero _)⟩

theorem rowsDone_of_part (g : S32x768.Idx → Elt F .f32) (x : Cert.Unfold.SFlat.Idx → Elt F .f32) (row0 jj : Nat)
    (h : RowPart g x row0 jj 768) : RowsDone (α := Elt F .f32) g x row0 (jj + 1) := by
  intro r f hr
  by_cases hlt : r.val < jj
  · exact h.1 r f hlt
  · have hrj : r.val = jj := by omega
    subst hrj
    exact h.2 r.isLt f f.isLt

/-- One more store of sixteen lanes into row `jj`, at the column the part done so far ends at. -/
theorem rowPart_step (t : v.ty.Contents (Elt F)) (x : Cert.Unfold.SFlat.Idx → Elt F .f32) (row0 jj N : Nat)
    (Ls : List (View.Piece (Elt F) S32x768 .f32)) (off : Fin 2 → Nat) (inb : ∀ a, off a + S1x16.size a ≤ S32x768.size a)
    (w : (Rect.unit (s := S32x768) off S1x16.size inb).shape.Idx → Elt F .f32)
    (h0 : off 0 = jj) (h1 : off 1 + 16 = N)
    (hw : ∀ z : (Rect.unit (s := S32x768) off S1x16.size inb).shape.Idx, w z = xAt x (flatPos (row0 + jj) (off 1 + (z 1).val)))
    (hprev : RowPart (v.read (Elt F) (v.writes (Elt F) t Ls)) x row0 jj (off 1)) :
    RowPart (v.read (Elt F) (v.writes (Elt F) t (⟨Rect.unit (s := S32x768) off S1x16.size inb, w⟩ :: Ls))) x row0 jj N := by
  refine ⟨fun r f hr => ?_, fun hjj f hf => ?_⟩
  · rw [View.read_writes_cons_unit_of_not_mem v t inb w Ls (ix2 r f) rfl 0 (Or.inl (by show r.val < off 0; omega))]
    exact hprev.1 r f hr
  · by_cases hlt : f.val < off 1
    · rw [View.read_writes_cons_unit_of_not_mem v t inb w Ls (ix2 ⟨jj, hjj⟩ f) rfl 1 (Or.inl (by show f.val < off 1; exact hlt))]
      exact hprev.2 hjj f hlt
    · rw [View.read_writes_cons_unit_of_mem v t inb w Ls (ix2 ⟨jj, hjj⟩ f) (ix2 (0 : Fin 1) (⟨f.val - off 1, by omega⟩ : Fin 16)) rfl
        (Fin.forall_fin_two.mpr ⟨by show jj = off 0 + 0; omega, by show f.val = off 1 + (f.val - off 1); omega⟩), hw]
      show xAt x (flatPos (row0 + jj) (off 1 + (f.val - off 1))) = _
      have e : off 1 + (f.val - off 1) = f.val := by omega
      rw [e]

end RowPart

/-! ## What one store of a row trip writes -/

/-- Sixteen lanes loaded from the slab where segment `(c, kh)` of patch `row` lies are that segment's features. -/
theorem slab_load (x1 : Cert.Unfold.SFlat.Idx → Elt F .f32) (gs : Buf (Elt F) ((slabV).view.loc (VT d L)))
    (hgs : SlabUpTo (α := Elt F .f32) ((slabV).view.read (Elt F) gs) x1 (wstart L) 49152)
    (row : Nat) (hr1 : wbase L ≤ row) (hr2 : row < wbase L + nrows L) (c kh : Nat) (hc : c < 3) (hkh : kh < 16)
    (off : Fin 1 → Nat) (inb : ∀ a, off a + S16.size a ≤ S49152.size a)
    (hoff : off = ![slabOff L row + 16384 * c + 512 * kh]) (l : S16.Idx) :
    (slabV).view.readAt (Elt F) (Rect.unit (s := S49152) off S16.size inb).toLoadRect gs l
      = xAt (α := Elt F .f32) x1 (flatPos row (256 * c + 16 * kh + (l 0).val)) := by
  subst hoff
  obtain ⟨hw1, hw2⟩ := window_ok L row hr1 hr2
  have hl : (l 0).val < 16 := (l 0).isLt
  have hb := slab_inb L row hr1 hr2 ⟨c, hc⟩ ⟨kh, hkh⟩
  have hs : (2 * (row / 249) - wstart L) * 512 + 2 * (row % 249) + 16384 * c + 512 * kh + (l 0).val < 49152 := by
    unfold slabOff at hb
    show _ < 49152
    have : (⟨c, hc⟩ : Fin 3).val = c := rfl
    have : (⟨kh, hkh⟩ : Fin 16).val = kh := rfl
    omega
  rw [← Cert.Unfold.slab_lane _ x1 (wstart L) (Cert.Unfold.slabOK_of_upTo hgs) row c kh (l 0).val hc hkh hl hw1 hw2 hs, View.readAt_apply]
  refine congrArg ((slabV).view.read (Elt F) gs) (funext fun (a : Fin 1) => ?_)
  have ha : a = 0 := Subsingleton.elim _ _
  subst ha
  refine Fin.ext ?_
  show slabOff L row + 16384 * c + 512 * kh + 1 * (l 0).val = (2 * (row / 249) - wstart L) * 512 + 2 * (row % 249) + 16384 * c + 512 * kh + (l 0).val
  unfold slabOff
  omega

/-- The payload of the store of segment `(c, kh)` into a staging row: the sixteen lanes, as a one-row block. -/
theorem piece_val (x1 : Cert.Unfold.SFlat.Idx → Elt F .f32) (gs : Buf (Elt F) ((slabV).view.loc (VT d L)))
    (hgs : SlabUpTo (α := Elt F .f32) ((slabV).view.read (Elt F) gs) x1 (wstart L) 49152)
    (row : Nat) (hr1 : wbase L ≤ row) (hr2 : row < wbase L + nrows L) (c kh : Nat) (hc : c < 3) (hkh : kh < 16)
    (col : Nat) (hcol : col = 256 * c + 16 * kh)
    (off : Fin 1 → Nat) (inb : ∀ a, off a + S16.size a ≤ S49152.size a)
    (hoff : off = ![slabOff L row + 16384 * c + 512 * kh])
    (hs1 : S16.ShapeCasts S16) (hs2 : S16.ShapeCasts S1x16) (z : S1x16.Idx) :
    shapeCast S1x16 (shapeCast S16 ((slabV).view.readAt (Elt F) (Rect.unit (s := S49152) off S16.size inb).toLoadRect gs) hs1) hs2 z
      = xAt (α := Elt F .f32) x1 (flatPos row (col + (z 1).val)) := by
  have hz1 : (z 0).val < 1 := (z 0).isLt
  have hz0 : (z 0).val = 0 := by omega
  rw [shapeCast_apply _ hs2 z (ix1 (z 1)) (by
      rw [Shape.rowMajor_val_one, Shape.rowMajor_val_two]
      show (z 1).val = (z 0).val * 16 + (z 1).val
      omega),
    shapeCast_apply _ hs1 (ix1 (z 1)) (ix1 (z 1)) rfl,
    slab_load d L x1 gs hgs row hr1 hr2 c kh hc hkh off inb hoff, hcol]

/-- The same for a store whose slab offset the program computes from the two words `a = 16384·c` and `b = 512·kh`
    it adds last (`offF a b`): the channel and the patch row are read off the words. -/
theorem piece_val' (x1 : Cert.Unfold.SFlat.Idx → Elt F .f32) (gs : Buf (Elt F) ((slabV).view.loc (VT d L)))
    (hgs : SlabUpTo (α := Elt F .f32) ((slabV).view.read (Elt F) gs) x1 (wstart L) 49152)
    (row : Nat) (hr1 : wbase L ≤ row) (hr2 : row < wbase L + nrows L)
    (offF : BitVec 32 → BitVec 32 → Fin 1 → Nat)
    (hF : ∀ (r₁ : Fin 3) (r₂ : Fin 16), offF (BitVec.ofNat 32 (16384 * r₁.val)) (BitVec.ofNat 32 (512 * r₂.val))
      = ![slabOff L row + 16384 * r₁.val + 512 * r₂.val])
    (a b : BitVec 32) (hA : a = BitVec.ofNat 32 (16384 * (a.toNat / 16384))) (hc : a.toNat / 16384 < 3)
    (hB : b = BitVec.ofNat 32 (512 * (b.toNat / 512))) (hkh : b.toNat / 512 < 16)
    (col : Nat) (hcol : col = 256 * (a.toNat / 16384) + 16 * (b.toNat / 512))
    (inb : ∀ a', (offF a b) a' + S16.size a' ≤ S49152.size a')
    (hs1 : S16.ShapeCasts S16) (hs2 : S16.ShapeCasts S1x16) (z : S1x16.Idx) :
    shapeCast S1x16 (shapeCast S16 ((slabV).view.readAt (Elt F) (Rect.unit (s := S49152) (offF a b) S16.size inb).toLoadRect gs) hs1) hs2 z
      = xAt (α := Elt F .f32) x1 (flatPos row (col + (z 1).val)) := by
  have hoff : offF a b = ![slabOff L row + 16384 * (a.toNat / 16384) + 512 * (b.toNat / 512)] := by
    have h := hF ⟨a.toNat / 16384, hc⟩ ⟨b.toNat / 512, hkh⟩
    rw [show BitVec.ofNat 32 (16384 * (⟨a.toNat / 16384, hc⟩ : Fin 3).val) = a from hA.symm,
      show BitVec.ofNat 32 (512 * (⟨b.toNat / 512, hkh⟩ : Fin 16).val) = b from hB.symm] at h
    exact h
  exact piece_val d L x1 gs hgs row hr1 hr2 _ _ hc hkh col hcol _ inb hoff hs1 hs2 z

end Cert.Proof.KI

end
-- ==== Proof.P105.lean ====
/-
  The second pass of a tile's task: the three channels of the second image's window are copied into the slab, then the
  chunk loop fills each staging buffer from the slab, 32 patches at a time, and sends it to its rows of the second
  result while the other two buffers are being filled. It ends with every chunk the loop has issued either landed at
  the second image's patches or still in flight from a staging buffer that holds them.
-/
import proofs.«212940_g32057635897708_cont_8to1_b_1299_25_alg».proof.Proof.Inv
import proofs.«212940_g32057635897708_cont_8to1_b_1299_25_alg».proof.Proof.Book
import Idealize.ShloMosaic.Lib.WritesUnit
import Idealize.ShloMosaic.Lib.Pipeline.Value
import proofs.«212940_g32057635897708_cont_8to1_b_1299_25_alg».proof.Proof.ProgMem
import proofs.«212940_g32057635897708_cont_8to1_b_1299_25_alg».proof.Proof.ValMem
import proofs.«212940_g32057635897708_cont_8to1_b_1299_25_alg».proof.Proof.Init
import proofs.«212940_g32057635897708_cont_8to1_b_1299_25_alg».proof.Proof.RowVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

variable (d : Dev nD) (L : grid0.Coords)

/-! ## A staging buffer's state while its chunks last -/

/-- A buffer that still has chunks has issued one per trip; one that has run out has issued them all. -/
theorem issued_of_le (L : grid0.Coords) (p k : Nat) (h : k ≤ nIss L p) : issued L p k = k := by
  unfold issued; exact Nat.min_eq_left h
theorem issued_of_ge (L : grid0.Coords) (p k : Nat) (h : nIss L p ≤ k) : issued L p k = nIss L p := by
  unfold issued; exact Nat.min_eq_right h

/-- Staging buffer 0's state while it still has chunks to issue: it has issued exactly `k` of them. -/
theorem bufState1_0_at (x : Buf (Elt F) (x1Loc d)) (f : Buf (Elt F) (o1Loc d)) (k : Nat) (h : issued L 0 k = k) :
    bufState1_0 d L x f k = iprop((bigSep (Finset.range (k - 1)) fun j => o1Loc d ↦[chunkSet L 0 j]{fullShare} pat1 d x)
      ∗ (bigSep (Finset.Ico k (nIss L 0)) fun j => o1Loc d ↦[chunkSet L 0 j]{fullShare} f)
      ∗ (if k = 0 then bufIdle0 d L else bufFlying1_0 d L x f (k - 1))) := by
  unfold bufState1_0; rw [h]

/-- Staging buffer 1's state while it still has chunks to issue: it has issued exactly `k` of them. -/
theorem bufState1_1_at (x : Buf (Elt F) (x1Loc d)) (f : Buf (Elt F) (o1Loc d)) (k : Nat) (h : issued L 1 k = k) :
    bufState1_1 d L x f k = iprop((bigSep (Finset.range (k - 1)) fun j => o1Loc d ↦[chunkSet L 1 j]{fullShare} pat1 d x)
      ∗ (bigSep (Finset.Ico k (nIss L 1)) fun j => o1Loc d ↦[chunkSet L 1 j]{fullShare} f)
      ∗ (if k = 0 then bufIdle1 d L else bufFlying1_1 d L x f (k - 1))) := by
  unfold bufState1_1; rw [h]

/-- Staging buffer 2's state while it still has chunks to issue: it has issued exactly `k` of them. -/
theorem bufState1_2_at (x : Buf (Elt F) (x1Loc d)) (f : Buf (Elt F) (o1Loc d)) (k : Nat) (h : issued L 2 k = k) :
    bufState1_2 d L x f k = iprop((bigSep (Finset.range (k - 1)) fun j => o1Loc d ↦[chunkSet L 2 j]{fullShare} pat1 d x)
      ∗ (bigSep (Finset.Ico k (nIss L 2)) fun j => o1Loc d ↦[chunkSet L 2 j]{fullShare} f)
      ∗ (if k = 0 then bufIdle2 d L else bufFlying1_2 d L x f (k - 1))) := by
  unfold bufState1_2; rw [h]

/-! ## A staging buffer sent off, and landed -/

/-- What a copy of 32 rows of 768 words counts on a subcore's DMA semaphore. -/
theorem bitCredit_S32x768 : RefSig.bitCredit S32x768 .f32 = 786432 := by
  unfold RefSig.bitCredit Shape.numel
  rw [Fin.prod_univ_two]
  rfl

/-- The count of a copy into 32 rows of the second result, wherever they start. -/
theorem amount_chunk1 (off : Fin 2 → Nat) (inb : ∀ a, off a + S32x768.size a ≤ S62001x768.size a) (sm : DmaSem sig) :
    ((o1V).slice (Rect.unit (s := S62001x768) off S32x768.size inb) (fun _ => rfl)).view.amount (SemLoc.dma (sig := sig) sm) = 786432 :=
  View.dmaCredit_closed _ S32x768 rfl _ rfl 786432 bitCredit_S32x768

/-- The copy the program issues for chunk `(0, j)` of the second result, from staging buffer 0 holding the patches, is
    that buffer in flight. -/
theorem flying1_0_fold (x : Buf (Elt F) (x1Loc d)) (f : Buf (Elt F) (o1Loc d)) (j : Nat)
    (off : Fin 2 → Nat) (inb : ∀ a, off a + S32x768.size a ≤ S62001x768.size a) (hoff : off = ![chunkRowC L 0 j, 0])
    (t : Buf (Elt F) ((b0V).view.loc (VT d L)))
    (ht : RowsDone (α := Elt F .f32) ((b0V).view.read (Elt F) t) x (chunkRow L 0 j) 32) :
    (Transfers.Flight (countersEmb (U := UU)) (VT d L) (.dma (dsem 0)) (default : HIx 1) 786432
        iprop((((o1V).slice (Rect.unit (s := S62001x768) off S32x768.size inb) (fun _ => rfl)).view.loc (VT d L)
                ↦[((o1V).slice (Rect.unit (s := S62001x768) off S32x768.size inb) (fun _ => rfl)).view.set]{fullShare}
                ((o1V).slice (Rect.unit (s := S62001x768) off S32x768.size inb) (fun _ => rfl)).view.writes (Elt F) f
                  [⟨Rect.whole S32x768, ReadAs.same.apply ((b0V).view.read (Elt F) t)⟩])
              ∗ ((b0V).view.loc (VT d L) ↦[(b0V).view.set]{fullShare} t)) : sProp 𝕄)
      ⊢ iprop(∃ t : Buf (Elt F) ((b0V).view.loc (VT d L)), ⌜RowsDone (α := Elt F .f32) ((b0V).view.read (Elt F) t) x (chunkRow L 0 j) 32⌝
          ∗ Transfers.Flight (countersEmb (U := UU)) (VT d L) (.dma (dsem 0)) (none : HIx 1)
              ((chunkMem L o1V 0 j).view.amount (SemLoc.dma (sig := sig) (dsem 0)))
              iprop(((chunkMem L o1V 0 j).view.loc (VT d L) ↦[(chunkMem L o1V 0 j).view.set]{fullShare}
                      (chunkMem L o1V 0 j).view.writes (Elt F) f [⟨Rect.whole S32x768, ReadAs.same.apply ((b0V).view.read (Elt F) t)⟩])
                    ∗ ((b0V).view.loc (VT d L) ↦[(b0V).view.set]{fullShare} t))) := by
  subst hoff
  rw [amount_chunk1]
  iintro H
  iexists t
  isplitr
  · ipureintro; exact ht
  · iexact H

/-- The copy the program issues for chunk `(1, j)` of the second result, from staging buffer 1 holding the patches, is
    that buffer in flight. -/
theorem flying1_1_fold (x : Buf (Elt F) (x1Loc d)) (f : Buf (Elt F) (o1Loc d)) (j : Nat)
    (off : Fin 2 → Nat) (inb : ∀ a, off a + S32x768.size a ≤ S62001x768.size a) (hoff : off = ![chunkRowC L 1 j, 0])
    (t : Buf (Elt F) ((b1V).view.loc (VT d L)))
    (ht : RowsDone (α := Elt F .f32) ((b1V).view.read (Elt F) t) x (chunkRow L 1 j) 32) :
    (Transfers.Flight (countersEmb (U := UU)) (VT d L) (.dma (dsem 1)) (default : HIx 1) 786432
        iprop((((o1V).slice (Rect.unit (s := S62001x768) off S32x768.size inb) (fun _ => rfl)).view.loc (VT d L)
                ↦[((o1V).slice (Rect.unit (s := S62001x768) off S32x768.size inb) (fun _ => rfl)).view.set]{fullShare}
                ((o1V).slice (Rect.unit (s := S62001x768) off S32x768.size inb) (fun _ => rfl)).view.writes (Elt F) f
                  [⟨Rect.whole S32x768, ReadAs.same.apply ((b1V).view.read (Elt F) t)⟩])
              ∗ ((b1V).view.loc (VT d L) ↦[(b1V).view.set]{fullShare} t)) : sProp 𝕄)
      ⊢ iprop(∃ t : Buf (Elt F) ((b1V).view.loc (VT d L)), ⌜RowsDone (α := Elt F .f32) ((b1V).view.read (Elt F) t) x (chunkRow L 1 j) 32⌝
          ∗ Transfers.Flight (countersEmb (U := UU)) (VT d L) (.dma (dsem 1)) (none : HIx 1)
              ((chunkMem L o1V 1 j).view.amount (SemLoc.dma (sig := sig) (dsem 1)))
              iprop(((chunkMem L o1V 1 j).view.loc (VT d L) ↦[(chunkMem L o1V 1 j).view.set]{fullShare}
                      (chunkMem L o1V 1 j).view.writes (Elt F) f [⟨Rect.whole S32x768, ReadAs.same.apply ((b1V).view.read (Elt F) t)⟩])
                    ∗ ((b1V).view.loc (VT d L) ↦[(b1V).view.set]{fullShare} t))) := by
  subst hoff
  rw [amount_chunk1]
  iintro H
  iexists t
  isplitr
  · ipureintro; exact ht
  · iexact H

/-- The copy the program issues for chunk `(2, j)` of the second result, from staging buffer 2 holding the patches, is
    that buffer in flight. -/
theorem flying1_2_fold (x : Buf (Elt F) (x1Loc d)) (f : Buf (Elt F) (o1Loc d)) (j : Nat)
    (off : Fin 2 → Nat) (inb : ∀ a, off a + S32x768.size a ≤ S62001x768.size a) (hoff : off = ![chunkRowC L 2 j, 0])
    (t : Buf (Elt F) ((b2V).view.loc (VT d L)))
    (ht : RowsDone (α := Elt F .f32) ((b2V).view.read (Elt F) t) x (chunkRow L 2 j) 32) :
    (Transfers.Flight (countersEmb (U := UU)) (VT d L) (.dma (dsem 2)) (default : HIx 1) 786432
        iprop((((o1V).slice (Rect.unit (s := S62001x768) off S32x768.size inb) (fun _ => rfl)).view.loc (VT d L)
                ↦[((o1V).slice (Rect.unit (s := S62001x768) off S32x768.size inb) (fun _ => rfl)).view.set]{fullShare}
                ((o1V).slice (Rect.unit (s := S62001x768) off S32x768.size inb) (fun _ => rfl)).view.writes (Elt F) f
                  [⟨Rect.whole S32x768, ReadAs.same.apply ((b2V).view.read (Elt F) t)⟩])
              ∗ ((b2V).view.loc (VT d L) ↦[(b2V).view.set]{fullShare} t)) : sProp 𝕄)
      ⊢ iprop(∃ t : Buf (Elt F) ((b2V).view.loc (VT d L)), ⌜RowsDone (α := Elt F .f32) ((b2V).view.read (Elt F) t) x (chunkRow L 2 j) 32⌝
          ∗ Transfers.Flight (countersEmb (U := UU)) (VT d L) (.dma (dsem 2)) (none : HIx 1)
              ((chunkMem L o1V 2 j).view.amount (SemLoc.dma (sig := sig) (dsem 2)))
              iprop(((chunkMem L o1V 2 j).view.loc (VT d L) ↦[(chunkMem L o1V 2 j).view.set]{fullShare}
                      (chunkMem L o1V 2 j).view.writes (Elt F) f [⟨Rect.whole S32x768, ReadAs.same.apply ((b2V).view.read (Elt F) t)⟩])
                    ∗ ((b2V).view.loc (VT d L) ↦[(b2V).view.set]{fullShare} t))) := by
  subst hoff
  rw [amount_chunk1]
  iintro H
  iexists t
  isplitr
  · ipureintro; exact ht
  · iexact H

/-- The chunk that has just landed joins the landed ones. -/
theorem landed_step (Φ : ℕ → sProp 𝕄) (k : Nat) (hk : 1 ≤ k) :
    (iprop(bigSep (Finset.range (k - 1)) Φ ∗ Φ (k - 1)) : sProp 𝕄) ⊢ bigSep (Finset.range k) Φ := by
  have h := done_step Φ (k - 1)
  rw [Nat.sub_add_cancel hk] at h
  exact Entails.of_eq h

/-- A trip in which staging buffer 0 issues nothing leaves its state as it is. -/
theorem bufState1_0_same (x : Buf (Elt F) (x1Loc d)) (f : Buf (Elt F) (o1Loc d)) (k : Nat) (h : issued L 0 (k + 1) = issued L 0 k) :
    bufState1_0 d L x f (k + 1) = bufState1_0 d L x f k := by
  unfold bufState1_0; rw [h]

/-- A trip in which staging buffer 1 issues nothing leaves its state as it is. -/
theorem bufState1_1_same (x : Buf (Elt F) (x1Loc d)) (f : Buf (Elt F) (o1Loc d)) (k : Nat) (h : issued L 1 (k + 1) = issued L 1 k) :
    bufState1_1 d L x f (k + 1) = bufState1_1 d L x f k := by
  unfold bufState1_1; rw [h]

/-- A trip in which staging buffer 2 issues nothing leaves its state as it is. -/
theorem bufState1_2_same (x : Buf (Elt F) (x1Loc d)) (f : Buf (Elt F) (o1Loc d)) (k : Nat) (h : issued L 2 (k + 1) = issued L 2 k) :
    bufState1_2 d L x f (k + 1) = bufState1_2 d L x f k := by
  unfold bufState1_2; rw [h]

/-- The chunk loop's invariant in the second pass, before trip `k`. -/
def chunkInv1 (O : CellTallies nD τ sig (HIx 1)) (x1 : Buf (Elt F) (x1Loc d)) (f1 : Buf (Elt F) (o1Loc d))
    (k : Nat) (_ : PUnit) : sProp 𝕄 :=
  iprop(Transfers.MayWaits (VT d L) (default : HIx 1) O
    ∗ slabInv d L x1 49152
    ∗ bufState1_0 d L x1 f1 k ∗ bufState1_1 d L x1 f1 k ∗ bufState1_2 d L x1 f1 k
    ∗ ∃ W', owes (VT d L) O W')

set_option maxHeartbeats 4000000 in
set_option pp.proofs false in
set_option pp.deepTerms false in
theorem part105_run (v2 v7 v9 : BitVec 32) (O : CellTallies nD τ sig (HIx 1)) (W : Waits sig (HIx 1))
    (x1 : Buf (Elt F) (x1Loc d)) (f1 : Buf (Elt F) (o1Loc d))
    (t0 : Buf (Elt F) ((b0V).view.loc (VT d L))) (t1 : Buf (Elt F) ((b1V).view.loc (VT d L))) (t2 : Buf (Elt F) ((b2V).view.loc (VT d L))) :
    (iprop(Transfers.MayWaits (VT d L) (default : HIx 1) O
        ∗ ((x1V).view.loc (VT d L) ↦{tileShare (L 0).val (L 1).val} x1)
        ∗ (∃ g : Buf (Elt F) ((slabV).view.loc (VT d L)), (slabV).view.loc (VT d L) ↦[(slabV).view.set]{fullShare} g)
        ∗ (bigSep (Finset.range (nIss L 0)) fun j => o1Loc d ↦[chunkSet L 0 j]{fullShare} f1)
        ∗ (bigSep (Finset.range (nIss L 1)) fun j => o1Loc d ↦[chunkSet L 1 j]{fullShare} f1)
        ∗ (bigSep (Finset.range (nIss L 2)) fun j => o1Loc d ↦[chunkSet L 2 j]{fullShare} f1)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ semVal (VT d L, SemLoc.dma (dsem 0)) 0 ∗ semVal (VT d L, SemLoc.dma (dsem 1)) 0 ∗ semVal (VT d L, SemLoc.dma (dsem 2)) 0
        ∗ semVal (VT d L, SemLoc.dma (dsem 8)) 0 ∗ semVal (VT d L, SemLoc.dma (dsem 9)) 0 ∗ semVal (VT d L, SemLoc.dma (dsem 10)) 0
        ∗ owes (VT d L) O W) : sProp 𝕄)
      ⊢ wp frame (wpE (defs₀ (F := F)) 𝒱₀ (VT d L) none) Set.univ
          (k0_part105 L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9 v2 v7 v9)
          fun _ => iprop(((x1V).view.loc (VT d L) ↦{tileShare (L 0).val (L 1).val} x1)
            ∗ slabInv d L x1 49152
            ∗ bufState1_0 d L x1 f1 20 ∗ bufState1_1 d L x1 f1 20 ∗ bufState1_2 d L x1 f1 20
            ∗ semVal (VT d L, SemLoc.dma (dsem 8)) 0 ∗ semVal (VT d L, SemLoc.dma (dsem 9)) 0 ∗ semVal (VT d L, SemLoc.dma (dsem 10)) 0
            ∗ ∃ W', owes (VT d L) O W') := by
  iintro ⟨#Hmw, HX1, ⟨%g, HG⟩, HD0, HD1, HD2, HT0, HT1, HT2, Hc0, Hc1, Hc2, Hc8, Hc9, Hc10, HO⟩
  sl_unfold [k0_part105]
  sl_exec
  have h20 : Scf.trips k0_t7_loop.lb k0_t7_loop.ub k0_t7_loop.st = 20 := by decide
  sl_for (chunkInv1 d L O x1 f1) $$ [Hmw HG HD0 HD1 HD2 HT0 HT1 HT2 Hc0 Hc1 Hc2 HO]
  case region =>
    intro k _
    have hk : k.val < 20 := Nat.lt_of_lt_of_le k.isLt (Nat.le_of_eq trips_t7)
    have hnch : 46 ≤ nch L := by unfold nch; split <;> omega
    have h32a : Scf.trips k0_t8_loop.lb k0_t8_loop.ub k0_t8_loop.st = 32 := by decide
    have h32b : Scf.trips k0_t9_loop.lb k0_t9_loop.ub k0_t9_loop.st = 32 := by decide
    have h32c : Scf.trips k0_t10_loop.lb k0_t10_loop.ub k0_t10_loop.st = 32 := by decide
    -- four kinds of trip: the first (nothing to wait for); a later trip with all three chunks; the last tile's trip
    -- whose first chunk alone exists; a trip past the tile's last chunk
    by_cases hk0 : k.val = 0
    · -- trip 0: chunks 0, 1, 2 exist, no copy is in flight yet
      have h10 : k0_cond10 L k = 1#1 := (cond10_iff L k).mpr (by omega)
      have h12 : k0_cond12 L k = 1#1 := (cond12_iff L k).mpr (by omega)
      have h14 : k0_cond14 L k = 1#1 := (cond14_iff L k).mpr (by omega)
      have h11 : ¬ k0_cond11 k = 1#1 := fun h => by have := (cond11_iff k).mp h; omega
      have h13 : ¬ k0_cond13 k = 1#1 := fun h => by have := (cond13_iff k).mp h; omega
      have h15 : ¬ k0_cond15 k = 1#1 := fun h => by have := (cond15_iff k).mp h; omega
      have hkn0 : k.val < nIss L 0 := nIss_of_lt L 0 k.val (by omega)
      have hkn1 : k.val < nIss L 1 := nIss_of_lt L 1 k.val (by omega)
      have hkn2 : k.val < nIss L 2 := nIss_of_lt L 2 k.val (by omega)
      unfold chunkInv1
      rw [bufState1_0_at d L x1 f1 (k.val + 1) (issued_of_le L 0 _ (by omega)), bufState1_1_at d L x1 f1 (k.val + 1) (issued_of_le L 1 _ (by omega)),
        bufState1_2_at d L x1 f1 (k.val + 1) (issued_of_le L 2 _ (by omega)),
        if_neg (Nat.succ_ne_zero _), if_neg (Nat.succ_ne_zero _), if_neg (Nat.succ_ne_zero _), Nat.add_sub_cancel,
        bufState1_0_at d L x1 f1 k.val (issued_of_le L 0 _ (by omega)), bufState1_1_at d L x1 f1 k.val (issued_of_le L 1 _ (by omega)),
        bufState1_2_at d L x1 f1 k.val (issued_of_le L 2 _ (by omega)), if_pos hk0, if_pos hk0, if_pos hk0,
        show Finset.range k.val = Finset.range (k.val - 1) from by rw [hk0]]
      unfold bufIdle0 bufIdle1 bufIdle2 bufFlying1_0 bufFlying1_1 bufFlying1_2 slabInv
      iintro ⟨#Hmw, ⟨%g', %hg', HG⟩, ⟨HL0, HD0, ⟨%t0', HT0⟩, Hc0⟩, ⟨HL1, HD1, ⟨%t1', HT1⟩, Hc1⟩, ⟨HL2, HD2, ⟨%t2', HT2⟩, Hc2⟩, %W', HO⟩
      sl_exec
      sl_for (rowInv0 d L x1 (chunkRow L 0 k.val)) $$ [HG HT0]
      case region =>
        intro jj _
        unfold rowInv0 slabInv bufRows0
        iintro ⟨⟨%gs, %hgs, HG⟩, %tb, %htb, HT⟩
        sl_exec
        sl_step
        isplitl [HG]
        · iexists gs; isplitr; · ipureintro; exact hgs
          iexact HG
        iexists _
        isplitr
        rotate_left
        · iexact HT
        ipureintro
        have hjj : jj.val < 32 := Nat.lt_of_lt_of_le jj.isLt (Nat.le_of_eq trips_t8)
        have hcK := (cond10_iff L k).mp h10
        have hn := nch_le L
        have hR : chunkRow L 0 k.val = wbase L + 96 * k.val := by unfold chunkRow; omega
        have hr1 : wbase L ≤ wbase L + 96 * k.val + jj.val := by omega
        have hr2 : wbase L + 96 * k.val + jj.val < wbase L + nrows L := by omega
        have h0 : (k0_off257 jj) 0 = jj.val := congrFun (k0_off257_eq jj) 0
        rw [hR] at htb ⊢
        -- the 48 stores of the trip, last first: each puts segment (c, kh) of the patch at columns [16(16c+kh), +16)
        refine rowsDone_of_part _ x1 _ _ ?_
        iterate 48
          refine rowPart_step (b0V).view tb x1 _ _ _ _ _ _ _ h0 rfl (fun z => ?_) ?_
          · refine piece_val' d L x1 gs hgs _ hr1 hr2 (k0_off256 L k jj) (off256_eq L k jj h10) _ _ ?_ ?_ ?_ ?_ _ rfl _ _ _ z <;> decide
        exact rowPart_zero _ x1 _ _ htb
      · unfold rowInv0 slabInv bufRows0
        isplitl [HG]
        · iexists g'; isplitr; · ipureintro; exact hg'
          iexact HG
        iexists t0'; isplitr; · ipureintro; exact Cert.Unfold.rowsDone_zero _ _ _
        iexact HT0
      iintro %_ HI
      unfold rowInv0 slabInv bufRows0
      icases HI with ⟨⟨%gq0, %hgq0, HG⟩, %tb0, %htb0, HT0⟩
      ihave HD0' := (Entails.of_eq (todo_step (fun j => (o1Loc d ↦[chunkSet L 0 j]{fullShare} f1 : sProp 𝕄)) hkn0)) $$ HD0
      icases HD0' with ⟨HK0, HD0⟩
      ihave HK0' := (Entails.of_eq (pts_chunk1_p0 d L k h10 f1).symm) $$ HK0
      sl_exec
      sl_for (rowInv1 d L x1 (chunkRow L 1 k.val)) $$ [HG HT1]
      case region =>
        intro jj _
        unfold rowInv1 slabInv bufRows1
        iintro ⟨⟨%gs, %hgs, HG⟩, %tb, %htb, HT⟩
        sl_exec
        sl_step
        isplitl [HG]
        · iexists gs; isplitr; · ipureintro; exact hgs
          iexact HG
        iexists _
        isplitr
        rotate_left
        · iexact HT
        ipureintro
        have hjj : jj.val < 32 := Nat.lt_of_lt_of_le jj.isLt (Nat.le_of_eq trips_t9)
        have hcK := (cond12_iff L k).mp h12
        have hn := nch_le L
        have hR : chunkRow L 1 k.val = wbase L + 96 * k.val + 32 := by unfold chunkRow; omega
        have hr1 : wbase L ≤ wbase L + 96 * k.val + 32 + jj.val := by omega
        have hr2 : wbase L + 96 * k.val + 32 + jj.val < wbase L + nrows L := by omega
        have h0 : (k0_off308 jj) 0 = jj.val := congrFun (k0_off308_eq jj) 0
        rw [hR] at htb ⊢
        refine rowsDone_of_part _ x1 _ _ ?_
        iterate 48
          refine rowPart_step (b1V).view tb x1 _ _ _ _ _ _ _ h0 rfl (fun z => ?_) ?_
          · refine piece_val' d L x1 gs hgs _ hr1 hr2 (k0_off307 L k jj) (off307_eq L k jj h12) _ _ ?_ ?_ ?_ ?_ _ rfl _ _ _ z <;> decide
        exact rowPart_zero _ x1 _ _ htb
      · unfold rowInv1 slabInv bufRows1
        isplitl [HG]
        · iexists gq0; isplitr; · ipureintro; exact hgq0
          iexact HG
        iexists t1'; isplitr; · ipureintro; exact Cert.Unfold.rowsDone_zero _ _ _
        iexact HT1
      iintro %_ HI
      unfold rowInv1 slabInv bufRows1
      icases HI with ⟨⟨%gq1, %hgq1, HG⟩, %tb1, %htb1, HT1⟩
      ihave HD1' := (Entails.of_eq (todo_step (fun j => (o1Loc d ↦[chunkSet L 1 j]{fullShare} f1 : sProp 𝕄)) hkn1)) $$ HD1
      icases HD1' with ⟨HK1, HD1⟩
      ihave HK1' := (Entails.of_eq (pts_chunk1_p1 d L k h12 f1).symm) $$ HK1
      sl_exec
      sl_for (rowInv2 d L x1 (chunkRow L 2 k.val)) $$ [HG HT2]
      case region =>
        intro jj _
        unfold rowInv2 slabInv bufRows2
        iintro ⟨⟨%gs, %hgs, HG⟩, %tb, %htb, HT⟩
        sl_exec
        sl_step
        isplitl [HG]
        · iexists gs; isplitr; · ipureintro; exact hgs
          iexact HG
        iexists _
        isplitr
        rotate_left
        · iexact HT
        ipureintro
        have hjj : jj.val < 32 := Nat.lt_of_lt_of_le jj.isLt (Nat.le_of_eq trips_t10)
        have hcK := (cond14_iff L k).mp h14
        have hn := nch_le L
        have hR : chunkRow L 2 k.val = wbase L + 96 * k.val + 64 := by unfold chunkRow; omega
        have hr1 : wbase L ≤ wbase L + 96 * k.val + 64 + jj.val := by omega
        have hr2 : wbase L + 96 * k.val + 64 + jj.val < wbase L + nrows L := by omega
        have h0 : (k0_off359 jj) 0 = jj.val := congrFun (k0_off359_eq jj) 0
        rw [hR] at htb ⊢
        refine rowsDone_of_part _ x1 _ _ ?_
        iterate 48
          refine rowPart_step (b2V).view tb x1 _ _ _ _ _ _ _ h0 rfl (fun z => ?_) ?_
          · refine piece_val' d L x1 gs hgs _ hr1 hr2 (k0_off358 L k jj) (off358_eq L k jj h14) _ _ ?_ ?_ ?_ ?_ _ rfl _ _ _ z <;> decide
        exact rowPart_zero _ x1 _ _ htb
      · unfold rowInv2 slabInv bufRows2
        isplitl [HG]
        · iexists gq1; isplitr; · ipureintro; exact hgq1
          iexact HG
        iexists t2'; isplitr; · ipureintro; exact Cert.Unfold.rowsDone_zero _ _ _
        iexact HT2
      iintro %_ HI
      unfold rowInv2 slabInv bufRows2
      icases HI with ⟨⟨%gq2, %hgq2, HG⟩, %tb2, %htb2, HT2⟩
      ihave HD2' := (Entails.of_eq (todo_step (fun j => (o1Loc d ↦[chunkSet L 2 j]{fullShare} f1 : sProp 𝕄)) hkn2)) $$ HD2
      icases HD2' with ⟨HK2, HD2⟩
      ihave HK2' := (Entails.of_eq (pts_chunk1_p2 d L k h14 f1).symm) $$ HK2
      sl_exec
      rw [h32a] at htb0
      rw [h32b] at htb1
      rw [h32c] at htb2
      sl_step
      isplitl []; · iexact Hmw
      isplitl [HG]
      · iexists gq2; isplitr; · ipureintro; exact hgq2
        iexact HG
      isplitl [HL0 HD0 Hc0]
      · isplitl [HL0]; · iexact HL0
        isplitl [HD0]; · iexact HD0
        iapply (flying1_0_fold d L x1 f1 k.val _ _ (off305_chunk L k h10) tb0 htb0)
        iexact Hc0
      isplitl [HL1 HD1 Hc1]
      · isplitl [HL1]; · iexact HL1
        isplitl [HD1]; · iexact HD1
        iapply (flying1_1_fold d L x1 f1 k.val _ _ (off356_chunk L k h12) tb1 htb1)
        iexact Hc1
      isplitl [HL2 HD2 Hc2]
      · isplitl [HL2]; · iexact HL2
        isplitl [HD2]; · iexact HD2
        iapply (flying1_2_fold d L x1 f1 k.val _ _ (off407_chunk L k h14) tb2 htb2)
        iexact Hc2
      iexists _; iexact HO
    · have hk1 : 1 ≤ k.val := Nat.one_le_iff_ne_zero.mpr hk0
      by_cases hc14 : 3 * k.val + 2 < nch L
      · -- a later trip with chunks 3k, 3k+1, 3k+2: each buffer first sees its previous chunk land
        have h10 : k0_cond10 L k = 1#1 := (cond10_iff L k).mpr (by omega)
        have h12 : k0_cond12 L k = 1#1 := (cond12_iff L k).mpr (by omega)
        have h14 : k0_cond14 L k = 1#1 := (cond14_iff L k).mpr hc14
        have h11 : k0_cond11 k = 1#1 := (cond11_iff k).mpr hk1
        have h13 : k0_cond13 k = 1#1 := (cond13_iff k).mpr hk1
        have h15 : k0_cond15 k = 1#1 := (cond15_iff k).mpr hk1
        have hkn0 : k.val < nIss L 0 := nIss_of_lt L 0 k.val (by omega)
        have hkn1 : k.val < nIss L 1 := nIss_of_lt L 1 k.val (by omega)
        have hkn2 : k.val < nIss L 2 := nIss_of_lt L 2 k.val (by omega)
        unfold chunkInv1
        rw [bufState1_0_at d L x1 f1 (k.val + 1) (issued_of_le L 0 _ (by omega)), bufState1_1_at d L x1 f1 (k.val + 1) (issued_of_le L 1 _ (by omega)),
          bufState1_2_at d L x1 f1 (k.val + 1) (issued_of_le L 2 _ (by omega)),
          if_neg (Nat.succ_ne_zero _), if_neg (Nat.succ_ne_zero _), if_neg (Nat.succ_ne_zero _), Nat.add_sub_cancel,
          bufState1_0_at d L x1 f1 k.val (issued_of_le L 0 _ (by omega)), bufState1_1_at d L x1 f1 k.val (issued_of_le L 1 _ (by omega)),
          bufState1_2_at d L x1 f1 k.val (issued_of_le L 2 _ (by omega)), if_neg hk0, if_neg hk0, if_neg hk0]
        unfold bufFlying1_0 bufFlying1_1 bufFlying1_2 slabInv
        iintro ⟨#Hmw, ⟨%g', %hg', HG⟩, ⟨HL0, HD0, %t0', %ht0', HF0⟩, ⟨HL1, HD1, %t1', %ht1', HF1⟩, ⟨HL2, HD2, %t2', %ht2', HF2⟩, %W', HO⟩
        sl_exec
        sl_for (rowInv0 d L x1 (chunkRow L 0 k.val)) $$ [HG HF0_src]
        case region =>
          intro jj _
          unfold rowInv0 slabInv bufRows0
          iintro ⟨⟨%gs, %hgs, HG⟩, %tb, %htb, HT⟩
          sl_exec
          sl_step
          isplitl [HG]
          · iexists gs; isplitr; · ipureintro; exact hgs
            iexact HG
          iexists _
          isplitr
          rotate_left
          · iexact HT
          ipureintro
          have hjj : jj.val < 32 := Nat.lt_of_lt_of_le jj.isLt (Nat.le_of_eq trips_t8)
          have hcK := (cond10_iff L k).mp h10
          have hn := nch_le L
          have hR : chunkRow L 0 k.val = wbase L + 96 * k.val := by unfold chunkRow; omega
          have hr1 : wbase L ≤ wbase L + 96 * k.val + jj.val := by omega
          have hr2 : wbase L + 96 * k.val + jj.val < wbase L + nrows L := by omega
          have h0 : (k0_off257 jj) 0 = jj.val := congrFun (k0_off257_eq jj) 0
          rw [hR] at htb ⊢
          refine rowsDone_of_part _ x1 _ _ ?_
          iterate 48
            refine rowPart_step (b0V).view tb x1 _ _ _ _ _ _ _ h0 rfl (fun z => ?_) ?_
            · refine piece_val' d L x1 gs hgs _ hr1 hr2 (k0_off256 L k jj) (off256_eq L k jj h10) _ _ ?_ ?_ ?_ ?_ _ rfl _ _ _ z <;> decide
          exact rowPart_zero _ x1 _ _ htb
        · unfold rowInv0 slabInv bufRows0
          isplitl [HG]
          · iexists g'; isplitr; · ipureintro; exact hg'
            iexact HG
          iexists t0'; isplitr; · ipureintro; exact Cert.Unfold.rowsDone_zero _ _ _
          iexact HF0_src
        iintro %_ HI
        unfold rowInv0 slabInv bufRows0
        icases HI with ⟨⟨%gq0, %hgq0, HG⟩, %tb0, %htb0, HF0_src⟩
        ihave HD0' := (Entails.of_eq (todo_step (fun j => (o1Loc d ↦[chunkSet L 0 j]{fullShare} f1 : sProp 𝕄)) hkn0)) $$ HD0
        icases HD0' with ⟨HK0, HD0⟩
        ihave HK0' := (Entails.of_eq (pts_chunk1_p0 d L k h10 f1).symm) $$ HK0
        sl_exec
        sl_for (rowInv1 d L x1 (chunkRow L 1 k.val)) $$ [HG HF1_src]
        case region =>
          intro jj _
          unfold rowInv1 slabInv bufRows1
          iintro ⟨⟨%gs, %hgs, HG⟩, %tb, %htb, HT⟩
          sl_exec
          sl_step
          isplitl [HG]
          · iexists gs; isplitr; · ipureintro; exact hgs
            iexact HG
          iexists _
          isplitr
          rotate_left
          · iexact HT
          ipureintro
          have hjj : jj.val < 32 := Nat.lt_of_lt_of_le jj.isLt (Nat.le_of_eq trips_t9)
          have hcK := (cond12_iff L k).mp h12
          have hn := nch_le L
          have hR : chunkRow L 1 k.val = wbase L + 96 * k.val + 32 := by unfold chunkRow; omega
          have hr1 : wbase L ≤ wbase L + 96 * k.val + 32 + jj.val := by omega
          have hr2 : wbase L + 96 * k.val + 32 + jj.val < wbase L + nrows L := by omega
          have h0 : (k0_off308 jj) 0 = jj.val := congrFun (k0_off308_eq jj) 0
          rw [hR] at htb ⊢
          refine rowsDone_of_part _ x1 _ _ ?_
          iterate 48
            refine rowPart_step (b1V).view tb x1 _ _ _ _ _ _ _ h0 rfl (fun z => ?_) ?_
            · refine piece_val' d L x1 gs hgs _ hr1 hr2 (k0_off307 L k jj) (off307_eq L k jj h12) _ _ ?_ ?_ ?_ ?_ _ rfl _ _ _ z <;> decide
          exact rowPart_zero _ x1 _ _ htb
        · unfold rowInv1 slabInv bufRows1
          isplitl [HG]
          · iexists gq0; isplitr; · ipureintro; exact hgq0
            iexact HG
          iexists t1'; isplitr; · ipureintro; exact Cert.Unfold.rowsDone_zero _ _ _
          iexact HF1_src
        iintro %_ HI
        unfold rowInv1 slabInv bufRows1
        icases HI with ⟨⟨%gq1, %hgq1, HG⟩, %tb1, %htb1, HF1_src⟩
        ihave HD1' := (Entails.of_eq (todo_step (fun j => (o1Loc d ↦[chunkSet L 1 j]{fullShare} f1 : sProp 𝕄)) hkn1)) $$ HD1
        icases HD1' with ⟨HK1, HD1⟩
        ihave HK1' := (Entails.of_eq (pts_chunk1_p1 d L k h12 f1).symm) $$ HK1
        sl_exec
        sl_for (rowInv2 d L x1 (chunkRow L 2 k.val)) $$ [HG HF2_src]
        case region =>
          intro jj _
          unfold rowInv2 slabInv bufRows2
          iintro ⟨⟨%gs, %hgs, HG⟩, %tb, %htb, HT⟩
          sl_exec
          sl_step
          isplitl [HG]
          · iexists gs; isplitr; · ipureintro; exact hgs
            iexact HG
          iexists _
          isplitr
          rotate_left
          · iexact HT
          ipureintro
          have hjj : jj.val < 32 := Nat.lt_of_lt_of_le jj.isLt (Nat.le_of_eq trips_t10)
          have hcK := (cond14_iff L k).mp h14
          have hn := nch_le L
          have hR : chunkRow L 2 k.val = wbase L + 96 * k.val + 64 := by unfold chunkRow; omega
          have hr1 : wbase L ≤ wbase L + 96 * k.val + 64 + jj.val := by omega
          have hr2 : wbase L + 96 * k.val + 64 + jj.val < wbase L + nrows L := by omega
          have h0 : (k0_off359 jj) 0 = jj.val := congrFun (k0_off359_eq jj) 0
          rw [hR] at htb ⊢
          refine rowsDone_of_part _ x1 _ _ ?_
          iterate 48
            refine rowPart_step (b2V).view tb x1 _ _ _ _ _ _ _ h0 rfl (fun z => ?_) ?_
            · refine piece_val' d L x1 gs hgs _ hr1 hr2 (k0_off358 L k jj) (off358_eq L k jj h14) _ _ ?_ ?_ ?_ ?_ _ rfl _ _ _ z <;> decide
          exact rowPart_zero _ x1 _ _ htb
        · unfold rowInv2 slabInv bufRows2
          isplitl [HG]
          · iexists gq1; isplitr; · ipureintro; exact hgq1
            iexact HG
          iexists t2'; isplitr; · ipureintro; exact Cert.Unfold.rowsDone_zero _ _ _
          iexact HF2_src
        iintro %_ HI
        unfold rowInv2 slabInv bufRows2
        icases HI with ⟨⟨%gq2, %hgq2, HG⟩, %tb2, %htb2, HF2_src⟩
        ihave HD2' := (Entails.of_eq (todo_step (fun j => (o1Loc d ↦[chunkSet L 2 j]{fullShare} f1 : sProp 𝕄)) hkn2)) $$ HD2
        icases HD2' with ⟨HK2, HD2⟩
        ihave HK2' := (Entails.of_eq (pts_chunk1_p2 d L k h14 f1).symm) $$ HK2
        sl_exec
        rw [h32a] at htb0
        rw [h32b] at htb1
        rw [h32c] at htb2
        sl_step
        isplitl []; · iexact Hmw
        isplitl [HG]
        · iexists gq2; isplitr; · ipureintro; exact hgq2
          iexact HG
        isplitl [HL0 HF0_dst HD0 HF0]
        · isplitl [HL0 HF0_dst]
          · iapply (landed_step (fun j => (o1Loc d ↦[chunkSet L 0 j]{fullShare} pat1 d x1 : sProp 𝕄)) k.val hk1)
            isplitl [HL0]; · iexact HL0
            iapply (Entails.of_eq (landed_pts1 d L 0 (k.val - 1) (by omega) (by omega) x1 _ _ ht0'))
            iexact HF0_dst
          isplitl [HD0]; · iexact HD0
          iapply (flying1_0_fold d L x1 f1 k.val _ _ (off305_chunk L k h10) tb0 htb0)
          iexact HF0
        isplitl [HL1 HF1_dst HD1 HF1]
        · isplitl [HL1 HF1_dst]
          · iapply (landed_step (fun j => (o1Loc d ↦[chunkSet L 1 j]{fullShare} pat1 d x1 : sProp 𝕄)) k.val hk1)
            isplitl [HL1]; · iexact HL1
            iapply (Entails.of_eq (landed_pts1 d L 1 (k.val - 1) (by omega) (by omega) x1 _ _ ht1'))
            iexact HF1_dst
          isplitl [HD1]; · iexact HD1
          iapply (flying1_1_fold d L x1 f1 k.val _ _ (off356_chunk L k h12) tb1 htb1)
          iexact HF1
        isplitl [HL2 HF2_dst HD2 HF2]
        · isplitl [HL2 HF2_dst]
          · iapply (landed_step (fun j => (o1Loc d ↦[chunkSet L 2 j]{fullShare} pat1 d x1 : sProp 𝕄)) k.val hk1)
            isplitl [HL2]; · iexact HL2
            iapply (Entails.of_eq (landed_pts1 d L 2 (k.val - 1) (by omega) (by omega) x1 _ _ ht2'))
            iexact HF2_dst
          isplitl [HD2]; · iexact HD2
          iapply (flying1_2_fold d L x1 f1 k.val _ _ (off407_chunk L k h14) tb2 htb2)
          iexact HF2
        iexists _; iexact HO
      · have hn2 : nch L = 46 ∨ nch L = 61 := by unfold nch; split <;> simp
        by_cases hc10 : 3 * k.val < nch L
        · -- the last tile's trip 15: chunk 45 exists, chunks 46 and 47 do not; buffers 1 and 2 are left as they are
          have hn46 : nch L = 46 := by omega
          have h10 : k0_cond10 L k = 1#1 := (cond10_iff L k).mpr hc10
          have h12 : ¬ k0_cond12 L k = 1#1 := fun h => by have := (cond12_iff L k).mp h; omega
          have h14 : ¬ k0_cond14 L k = 1#1 := fun h => hc14 ((cond14_iff L k).mp h)
          have h11 : k0_cond11 k = 1#1 := (cond11_iff k).mpr hk1
          have hkn0 : k.val < nIss L 0 := nIss_of_lt L 0 k.val (by omega)
          have e1 : nIss L 1 = 15 := by unfold nIss; rw [hn46]
          have e2 : nIss L 2 = 15 := by unfold nIss; rw [hn46]
          unfold chunkInv1
          rw [bufState1_0_at d L x1 f1 (k.val + 1) (issued_of_le L 0 _ (by omega)), if_neg (Nat.succ_ne_zero _), Nat.add_sub_cancel,
            bufState1_0_at d L x1 f1 k.val (issued_of_le L 0 _ (by omega)), if_neg hk0,
            bufState1_1_same d L x1 f1 k.val (by rw [issued_of_ge L 1 _ (by omega), issued_of_ge L 1 _ (by omega)]),
            bufState1_2_same d L x1 f1 k.val (by rw [issued_of_ge L 2 _ (by omega), issued_of_ge L 2 _ (by omega)])]
          unfold bufFlying1_0 slabInv
          iintro ⟨#Hmw, ⟨%g', %hg', HG⟩, ⟨HL0, HD0, %t0', %ht0', HF0⟩, HB1, HB2, %W', HO⟩
          sl_exec
          sl_for (rowInv0 d L x1 (chunkRow L 0 k.val)) $$ [HG HF0_src]
          case region =>
            intro jj _
            unfold rowInv0 slabInv bufRows0
            iintro ⟨⟨%gs, %hgs, HG⟩, %tb, %htb, HT⟩
            sl_exec
            sl_step
            isplitl [HG]
            · iexists gs; isplitr; · ipureintro; exact hgs
              iexact HG
            iexists _
            isplitr
            rotate_left
            · iexact HT
            ipureintro
            have hjj : jj.val < 32 := Nat.lt_of_lt_of_le jj.isLt (Nat.le_of_eq trips_t8)
            have hcK := (cond10_iff L k).mp h10
            have hn := nch_le L
            have hR : chunkRow L 0 k.val = wbase L + 96 * k.val := by unfold chunkRow; omega
            have hr1 : wbase L ≤ wbase L + 96 * k.val + jj.val := by omega
            have hr2 : wbase L + 96 * k.val + jj.val < wbase L + nrows L := by omega
            have h0 : (k0_off257 jj) 0 = jj.val := congrFun (k0_off257_eq jj) 0
            rw [hR] at htb ⊢
            refine rowsDone_of_part _ x1 _ _ ?_
            iterate 48
              refine rowPart_step (b0V).view tb x1 _ _ _ _ _ _ _ h0 rfl (fun z => ?_) ?_
              · refine piece_val' d L x1 gs hgs _ hr1 hr2 (k0_off256 L k jj) (off256_eq L k jj h10) _ _ ?_ ?_ ?_ ?_ _ rfl _ _ _ z <;> decide
            exact rowPart_zero _ x1 _ _ htb
          · unfold rowInv0 slabInv bufRows0
            isplitl [HG]
            · iexists g'; isplitr; · ipureintro; exact hg'
              iexact HG
            iexists t0'; isplitr; · ipureintro; exact Cert.Unfold.rowsDone_zero _ _ _
            iexact HF0_src
          iintro %_ HI
          unfold rowInv0 slabInv bufRows0
          icases HI with ⟨⟨%gq0, %hgq0, HG⟩, %tb0, %htb0, HF0_src⟩
          ihave HD0' := (Entails.of_eq (todo_step (fun j => (o1Loc d ↦[chunkSet L 0 j]{fullShare} f1 : sProp 𝕄)) hkn0)) $$ HD0
          icases HD0' with ⟨HK0, HD0⟩
          ihave HK0' := (Entails.of_eq (pts_chunk1_p0 d L k h10 f1).symm) $$ HK0
          sl_exec
          rw [h32a] at htb0
          sl_step
          isplitl []; · iexact Hmw
          isplitl [HG]
          · iexists gq0; isplitr; · ipureintro; exact hgq0
            iexact HG
          isplitl [HL0 HF0_dst HD0 HF0]
          · isplitl [HL0 HF0_dst]
            · iapply (landed_step (fun j => (o1Loc d ↦[chunkSet L 0 j]{fullShare} pat1 d x1 : sProp 𝕄)) k.val hk1)
              isplitl [HL0]; · iexact HL0
              iapply (Entails.of_eq (landed_pts1 d L 0 (k.val - 1) (by omega) (by omega) x1 _ _ ht0'))
              iexact HF0_dst
            isplitl [HD0]; · iexact HD0
            iapply (flying1_0_fold d L x1 f1 k.val _ _ (off305_chunk L k h10) tb0 htb0)
            iexact HF0
          isplitl [HB1]; · iexact HB1
          isplitl [HB2]; · iexact HB2
          iexists _; iexact HO
        · -- past the last tile's last chunk: nothing runs, nothing changes
          have hn46 : nch L = 46 := by omega
          have h10 : ¬ k0_cond10 L k = 1#1 := fun h => hc10 ((cond10_iff L k).mp h)
          have h12 : ¬ k0_cond12 L k = 1#1 := fun h => by have := (cond12_iff L k).mp h; omega
          have h14 : ¬ k0_cond14 L k = 1#1 := fun h => hc14 ((cond14_iff L k).mp h)
          have e0 : nIss L 0 = 16 := by unfold nIss; rw [hn46]
          have e1 : nIss L 1 = 15 := by unfold nIss; rw [hn46]
          have e2 : nIss L 2 = 15 := by unfold nIss; rw [hn46]
          unfold chunkInv1
          rw [bufState1_0_same d L x1 f1 k.val (by rw [issued_of_ge L 0 _ (by omega), issued_of_ge L 0 _ (by omega)]),
            bufState1_1_same d L x1 f1 k.val (by rw [issued_of_ge L 1 _ (by omega), issued_of_ge L 1 _ (by omega)]),
            bufState1_2_same d L x1 f1 k.val (by rw [issued_of_ge L 2 _ (by omega), issued_of_ge L 2 _ (by omega)])]
          iintro ⟨#Hmw, HS, HB0, HB1, HB2, %W', HO⟩
          sl_exec
          sl_step
          isplitl []; · iexact Hmw
          isplitl [HS]; · iexact HS
          isplitl [HB0]; · iexact HB0
          isplitl [HB1]; · iexact HB1
          isplitl [HB2]; · iexact HB2
          iexists W'; iexact HO
  · -- before the first trip: the slab holds the window, every chunk holds what it held, the buffers are at rest
    unfold chunkInv1
    isplitl []; · iexact Hmw
    isplitl [HG]
    · unfold slabInv
      iexists _
      isplitr
      rotate_left
      · iexact HG
      · ipureintro; exact slab_filled d L x1 _
    isplitl [HD0 HT0 Hc0]
    · iapply (bufState1_0_init d L x1 f1 t0)
      isplitl [HD0]; · iexact HD0
      isplitl [HT0]; · iexact HT0
      iexact Hc0
    isplitl [HD1 HT1 Hc1]
    · iapply (bufState1_1_init d L x1 f1 t1)
      isplitl [HD1]; · iexact HD1
      isplitl [HT1]; · iexact HT1
      iexact Hc1
    isplitl [HD2 HT2 Hc2]
    · iapply (bufState1_2_init d L x1 f1 t2)
      isplitl [HD2]; · iexact HD2
      isplitl [HT2]; · iexact HT2
      iexact Hc2
    iexists _; iexact HO
  rw [h20]
  iintro %_ HI
  unfold chunkInv1
  icases HI with ⟨-, HS, HB0, HB1, HB2, %W', HO⟩
  sl_exec
  sl_step
  isplitl [HX1]; · iexact HX1
  isplitl [HS]; · iexact HS
  isplitl [HB0]; · iexact HB0
  isplitl [HB1]; · iexact HB1
  isplitl [HB2]; · iexact HB2
  isplitl [Hc8]; · iexact Hc8
  isplitl [Hc9]; · iexact Hc9
  isplitl [Hc10]; · iexact Hc10
  iexists W'; iexact HO

end Cert.Proof.KI

end
-- ==== Proof.TileRun.lean ====
/-
  One tile's task run from its pieces, in the kernel function's own spelling of its arguments: the tile's read shares
  of the two flattened images, its rows of the two results, its slab, its three staging buffers and its thirteen DMA
  semaphores at zero. It ends with its rows of each result holding that image's patches.

  The task is: the first two channel copies of the first image's window into the slab; the rest of the first pass (the
  third copy, the chunk loop, the last chunk, the tail); the second pass's three copies and chunk loop; then, inline,
  the second pass's last chunk (on the tiles that have 61 chunks), the three final waits, and on the last tile the
  17-patch tail. The tile's rows of each result are cut into the chunks of the three staging buffers and the two tail
  pieces at the start and joined again at the end; the two passes enter as their own run lemmas.
-/
import proofs.«212940_g32057635897708_cont_8to1_b_1299_25_alg».proof.Proof.P104
import proofs.«212940_g32057635897708_cont_8to1_b_1299_25_alg».proof.Proof.P105
import proofs.«212940_g32057635897708_cont_8to1_b_1299_25_alg».proof.Proof.ValTail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

/-- The tile's DMA semaphores: three for the staging buffers' write-backs, ten scoped ones for its blocking copies. -/
abbrev csem (k : Nat) (hk : k < 13 := by decide) : DmaSem sig := ⟨k, hk⟩

/-- All thirteen at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0
    ∗ semVal (VT d L, SemLoc.dma (csem 12)) 0)

variable (d : Dev nD) (L : grid0.Coords)

/-! ## The slab after the first image's first two channel copies -/

/-- The slab after the first two copies holds the first image's window below position 32768. -/
theorem slab_two (x0 : Buf (Elt F) (x0Loc d)) (f : (slabV).view.ty.Contents (Elt F)) :
    SlabUpTo (α := Elt F .f32) ((slabV).view.read (Elt F) ((slabV).view.writes (Elt F) f
      [⟨Rect.unit (s := S49152) ![16384] S16384.size inb_S49152_S16384_16384,
          ReadAs.same.apply (View.read (Elt F) ((x0V).slice (Rect.unit (s := S786432) (k0_off1 L 262144#32) S16384.size (k0_off1_inb L 1)) (fun _ => rfl)).view x0)⟩,
        ⟨Rect.unit (s := S49152) ![0] S16384.size inb_S49152_S16384_0,
          ReadAs.same.apply (View.read (Elt F) ((x0V).slice (Rect.unit (s := S786432) (k0_off1 L 0#32) S16384.size (k0_off1_inb L 0)) (fun _ => rfl)).view x0)⟩]))
      x0 (wstart L) 32768 :=
  slabUpTo_chan x0 (wstart L) f _ 1 _ _ rfl _ (fun i => chan_payload0 d L x0 1 _ _ (off1_eq L 1) _ i)
    (slabUpTo_chan x0 (wstart L) f [] 0 _ _ rfl _ (fun i => chan_payload0 d L x0 0 _ _ (off1_eq L 0) _ i)
      (Cert.Unfold.slabUpTo_zero _ _ _))

/-- The three buffers' families of chunks, one by one. -/
theorem bigSep_range3 (Φ : ℕ → sProp 𝕄) : bigSep (Finset.range 3) Φ = iprop(Φ 0 ∗ Φ 1 ∗ Φ 2) := by
  rw [show Finset.range 3 = {0, 1, 2} by decide, bigSep_insert (by decide), bigSep_insert (by decide), bigSep_singleton]
  rfl

theorem part104_cut (v1 v2 v7 v9 v14 : BitVec 32) (O : CellTallies nD τ sig (HIx 1)) (W : Waits sig (HIx 1))
    (x0 : Buf (Elt F) (x0Loc d)) (f0 : Buf (Elt F) (o0Loc d))
    (g : Buf (Elt F) ((slabV).view.loc (VT d L))) (hg : SlabUpTo (α := Elt F .f32) ((slabV).view.read (Elt F) g) x0 (wstart L) 32768)
    (t0 : Buf (Elt F) ((b0V).view.loc (VT d L))) (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((slabV).view.loc (VT d L) ↦[(slabV).view.set]{fullShare} g)
        ∗ (bigSep (Finset.range (nIss L 0)) fun j => o0Loc d ↦[chunkSet L 0 j]{fullShare} f0)
        ∗ (bigSep (Finset.range (nIss L 1)) fun j => o0Loc d ↦[chunkSet L 1 j]{fullShare} f0)
        ∗ (bigSep (Finset.range (nIss L 2)) fun j => o0Loc d ↦[chunkSet L 2 j]{fullShare} f0)
        ∗ (o0Loc d ↦[tailSetA L]{fullShare} f0) ∗ (o0Loc d ↦[tailSetB L]{fullShare} f0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ semVal (VT d L, SemLoc.dma (dsem 0)) 0 ∗ semVal (VT d L, SemLoc.dma (dsem 1)) 0 ∗ semVal (VT d L, SemLoc.dma (dsem 2)) 0
        ∗ semVal (VT d L, SemLoc.dma (dsem 5)) 0 ∗ semVal (VT d L, SemLoc.dma (dsem 6)) 0 ∗ semVal (VT d L, SemLoc.dma (dsem 7)) 0
        ∗ owes (VT d L) O W) : sProp 𝕄)
      ⊢ wp frame (wpE (defs₀ (F := F)) 𝒱₀ (VT d L) none) Set.univ
          (k0_part104 L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9 v1 v2 v7 v9 v14)
          fun _ => iprop(((x0V).view.loc (VT d L) ↦{tileShare (L 0).val (L 1).val} x0)
            ∗ (∃ g, (slabV).view.loc (VT d L) ↦[(slabV).view.set]{fullShare} g)
            ∗ (bigSep (Finset.range (nIss L 0)) fun j => o0Loc d ↦[chunkSet L 0 j]{fullShare} pat0 d x0)
            ∗ (bigSep (Finset.range (nIss L 1)) fun j => o0Loc d ↦[chunkSet L 1 j]{fullShare} pat0 d x0)
            ∗ (bigSep (Finset.range (nIss L 2)) fun j => o0Loc d ↦[chunkSet L 2 j]{fullShare} pat0 d x0)
            ∗ (o0Loc d ↦[tailSetA L]{fullShare} pat0 d x0) ∗ (o0Loc d ↦[tailSetB L]{fullShare} pat0 d x0)
            ∗ ((∃ t : Buf (Elt F) ((b0V).view.loc (VT d L)), (b0V).view.loc (VT d L) ↦[(b0V).view.set]{fullShare} t) ∗ semVal (VT d L, SemLoc.dma (dsem 0)) 0)
            ∗ ((∃ t : Buf (Elt F) ((b1V).view.loc (VT d L)), (b1V).view.loc (VT d L) ↦[(b1V).view.set]{fullShare} t) ∗ semVal (VT d L, SemLoc.dma (dsem 1)) 0)
            ∗ ((∃ t : Buf (Elt F) ((b2V).view.loc (VT d L)), (b2V).view.loc (VT d L) ↦[(b2V).view.set]{fullShare} t) ∗ semVal (VT d L, SemLoc.dma (dsem 2)) 0)
            ∗ semVal (VT d L, SemLoc.dma (dsem 5)) 0 ∗ semVal (VT d L, SemLoc.dma (dsem 6)) 0 ∗ semVal (VT d L, SemLoc.dma (dsem 7)) 0
            ∗ ∃ W', owes (VT d L) O W') := by
  have h := part104_run d L v1 v2 v7 v9 v14 O W x0 f0 t0 t1 t2
  unfold slabInv bufIdle0 bufIdle1 bufIdle2 at h
  iintro ⟨Hm, Hx, Hg, Hrest⟩
  iapply h
  isplitl [Hm]; · iexact Hm
  isplitl [Hx]; · iexact Hx
  isplitl [Hg]
  · iexists g; isplitr
    · ipureintro; exact hg
    · iexact Hg
  iexact Hrest

set_option maxHeartbeats 4000000 in
set_option pp.proofs false in
set_option pp.deepTerms false in
set_option pp.maxSteps 3000 in
/-- The task on the last tile (46 chunks and the 17-patch tail). -/
theorem tile_run_last (hw : wid L = 31) (O : CellTallies nD τ sig (HIx 1)) (W : Waits sig (HIx 1))
    (x0 : Buf (Elt F) (x0Loc d)) (x1 : Buf (Elt F) (x1Loc d)) (f0 : Buf (Elt F) (o0Loc d)) (f1 : Buf (Elt F) (o1Loc d))
    (g0 : Buf (Elt F) ((slabV).view.loc (VT d L))) (t0 : Buf (Elt F) ((b0V).view.loc (VT d L)))
    (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((x1V).view.loc (VT d L) ↦{tileShare (L 0).val (L 1).val} x1)
        ∗ ((o0V).view.loc (VT d L) ↦[tileSet L]{fullShare} f0)
        ∗ ((o1V).view.loc (VT d L) ↦[tileSet L]{fullShare} f1)
        ∗ ((slabV).view.loc (VT d L) ↦[(slabV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ cells0 d L
        ∗ owes (VT d L) O W) : sProp 𝕄)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(((x0V).view.loc (VT d L) ↦{tileShare (L 0).val (L 1).val} x0)
            ∗ ((x1V).view.loc (VT d L) ↦{tileShare (L 0).val (L 1).val} x1)
            ∗ ((o0V).view.loc (VT d L) ↦[tileSet L]{fullShare} pat0 d x0)
            ∗ ((o1V).view.loc (VT d L) ↦[tileSet L]{fullShare} pat1 d x1)
            ∗ (∃ g, (slabV).view.loc (VT d L) ↦[(slabV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ cells0 d L
            ∗ ∃ W', owes (VT d L) O W') := by
  have k0_h16 : ¬ k0_cond16 L = 1#1 := fun h => (cond16_iff L).1 h hw
  have k0_h18 : k0_cond18 L = 1#1 := (cond18_iff L).2 hw
  have n0 : nIss L 0 = 16 := by unfold nIss nch; rw [if_pos hw]
  have n1 : nIss L 1 = 15 := by unfold nIss nch; rw [if_pos hw]
  have n2 : nIss L 2 = 15 := by unfold nIss nch; rw [if_pos hw]
  have i0 : issued L 0 20 = 16 := by unfold issued; omega
  have i1 : issued L 1 20 = 15 := by unfold issued; omega
  have i2 : issued L 2 20 = 15 := by unfold issued; omega
  have e0 : Finset.Ico (issued L 0 20) (nIss L 0) = ∅ := by rw [i0, n0, Finset.Ico_self]
  have e1 : Finset.Ico (issued L 1 20) (nIss L 1) = ∅ := by rw [i1, n1, Finset.Ico_self]
  have e2 : Finset.Ico (issued L 2 20) (nIss L 2) = ∅ := by rw [i2, n2, Finset.Ico_self]
  iintro ⟨#Hmw, HX0, HX1, HO0, HO1, HG, HT0, HT1, HT2, Hcells, HO⟩
  icases Hcells with ⟨Hc0, Hc1, Hc2, Hc3, Hc4, Hc5, Hc6, Hc7, Hc8, Hc9, Hc10, Hc11, Hc12⟩
  -- the tile's rows of each result, as its chunks (buffer by buffer) and its tail pieces
  ihave HO0' := (Entails.of_eq ((tile_split0 (F := F) d L f0).trans (congrArg (fun P => iprop(P ∗ (o0Loc d ↦[tailSetA L]{fullShare} f0) ∗ (o0Loc d ↦[tailSetB L]{fullShare} f0))) (bigSep_range3 _)))) $$ HO0
  icases HO0' with ⟨⟨HA0, HA1, HA2⟩, HATA, HATB⟩
  ihave HO1' := (Entails.of_eq ((tile_split1 (F := F) d L f1).trans (congrArg (fun P => iprop(P ∗ (o1Loc d ↦[tailSetA L]{fullShare} f1) ∗ (o1Loc d ↦[tailSetB L]{fullShare} f1))) (bigSep_range3 _)))) $$ HO1
  icases HO1' with ⟨⟨HB0, HB1, HB2⟩, HBTA, HBTB⟩
  -- the two named parts, as the run meets them
  have hs2 := slab_two d L x0 g0
  have h104 := fun (v1 v2 v7 v9 v14 : BitVec 32) (W : Waits sig (HIx 1)) (g : Buf (Elt F) ((slabV).view.loc (VT d L)))
      (hg : SlabUpTo (α := Elt F .f32) ((slabV).view.read (Elt F) g) x0 (wstart L) 32768)
      (t0 : Buf (Elt F) ((b0V).view.loc (VT d L))) (t1 : Buf (Elt F) ((b1V).view.loc (VT d L))) (t2 : Buf (Elt F) ((b2V).view.loc (VT d L))) =>
    part104_cut d L v1 v2 v7 v9 v14 O W x0 f0 g hg t0 t1 t2
  have h105 := fun (v2 v7 v9 : BitVec 32) (W : Waits sig (HIx 1)) (t0 : Buf (Elt F) ((b0V).view.loc (VT d L)))
      (t1 : Buf (Elt F) ((b1V).view.loc (VT d L))) (t2 : Buf (Elt F) ((b2V).view.loc (VT d L))) =>
    part105_run d L v2 v7 v9 O W x1 f1 t0 t1 t2
  unfold bufState1_0 bufState1_1 bufState1_2 at h105
  simp only [e0, e1, e2, bigSep_empty] at h105
  simp only [i0, i1, i2, Nat.reduceSub, OfNat.ofNat_ne_zero, ↓reduceIte] at h105
  unfold bufFlying1_0 bufFlying1_1 bufFlying1_2 slabInv at h105
  -- the tail pieces of the second result in the program's spelling
  ihave HTA' := (Entails.of_eq (pts_tailA1 (F := F) d L k0_h18 f1).symm) $$ HBTA
  ihave HTB' := (Entails.of_eq (pts_tailB1 (F := F) d L k0_h18 f1).symm) $$ HBTB
  sl_unfold [cc0__body]
  sl_exec
  -- the last tile's 17 remaining patches of the second image, into staging buffer 0
  sl_for (rowInv0 d L x1 61984) $$ [Hk0_part105_2 Hk0_part105_6_src]
  case region =>
    intro jj _
    unfold rowInv0 slabInv bufRows0
    iintro ⟨⟨%g, %hg, HG⟩, %t, %ht, HT0⟩
    have hjj17 : jj.val < 17 := by have h := jj.isLt; change jj.val < k0_t12_loop.trips at h; rw [trips_t12] at h; exact h
    have hjj : jj.val < 32 := by omega
    sl_exec
    sl_step
    isplitl [HG]
    · iexists g; isplitr; · ipureintro; exact hg
      iexact HG
    iexists _; isplitr
    rotate_left
    · iexact HT0
    ipureintro
    have hwb : wbase L = 60512 := by unfold wbase; rw [hw]
    have hnr : nrows L = 1489 := by unfold nrows; rw [if_pos hw]
    have hr1 : wbase L ≤ 61984 + jj.val := by omega
    have hr2 : 61984 + jj.val < wbase L + nrows L := by omega
    refine rows_step' (b0V).view x1 (61984) jj.val hjj t _ ht ?_
    have pk := fun (c : Fin 3) (kh : Fin 16) =>
      piece_ok d L x1 g hg (61984 + jj.val) jj.val hjj hr1 hr2 c kh
    apply PiecesOK.cons (pk 2 15 _ (off459_eq L jj k0_h18 2 15) _ _ (k0_off507_eq jj) _ _ _)
    apply PiecesOK.cons (pk 2 14 _ (off459_eq L jj k0_h18 2 14) _ _ (k0_off506_eq jj) _ _ _)
    apply PiecesOK.cons (pk 2 13 _ (off459_eq L jj k0_h18 2 13) _ _ (k0_off505_eq jj) _ _ _)
    apply PiecesOK.cons (pk 2 12 _ (off459_eq L jj k0_h18 2 12) _ _ (k0_off504_eq jj) _ _ _)
    apply PiecesOK.cons (pk 2 11 _ (off459_eq L jj k0_h18 2 11) _ _ (k0_off503_eq jj) _ _ _)
    apply PiecesOK.cons (pk 2 10 _ (off459_eq L jj k0_h18 2 10) _ _ (k0_off502_eq jj) _ _ _)
    apply PiecesOK.cons (pk 2 9 _ (off459_eq L jj k0_h18 2 9) _ _ (k0_off501_eq jj) _ _ _)
    apply PiecesOK.cons (pk 2 8 _ (off459_eq L jj k0_h18 2 8) _ _ (k0_off500_eq jj) _ _ _)
    apply PiecesOK.cons (pk 2 7 _ (off459_eq L jj k0_h18 2 7) _ _ (k0_off499_eq jj) _ _ _)
    apply PiecesOK.cons (pk 2 6 _ (off459_eq L jj k0_h18 2 6) _ _ (k0_off498_eq jj) _ _ _)
    apply PiecesOK.cons (pk 2 5 _ (off459_eq L jj k0_h18 2 5) _ _ (k0_off497_eq jj) _ _ _)
    apply PiecesOK.cons (pk 2 4 _ (off459_eq L jj k0_h18 2 4) _ _ (k0_off496_eq jj) _ _ _)
    apply PiecesOK.cons (pk 2 3 _ (off459_eq L jj k0_h18 2 3) _ _ (k0_off495_eq jj) _ _ _)
    apply PiecesOK.cons (pk 2 2 _ (off459_eq L jj k0_h18 2 2) _ _ (k0_off494_eq jj) _ _ _)
    apply PiecesOK.cons (pk 2 1 _ (off459_eq L jj k0_h18 2 1) _ _ (k0_off493_eq jj) _ _ _)
    apply PiecesOK.cons (pk 2 0 _ (off459_eq L jj k0_h18 2 0) _ _ (k0_off492_eq jj) _ _ _)
    apply PiecesOK.cons (pk 1 15 _ (off459_eq L jj k0_h18 1 15) _ _ (k0_off491_eq jj) _ _ _)
    apply PiecesOK.cons (pk 1 14 _ (off459_eq L jj k0_h18 1 14) _ _ (k0_off490_eq jj) _ _ _)
    apply PiecesOK.cons (pk 1 13 _ (off459_eq L jj k0_h18 1 13) _ _ (k0_off489_eq jj) _ _ _)
    apply PiecesOK.cons (pk 1 12 _ (off459_eq L jj k0_h18 1 12) _ _ (k0_off488_eq jj) _ _ _)
    apply PiecesOK.cons (pk 1 11 _ (off459_eq L jj k0_h18 1 11) _ _ (k0_off487_eq jj) _ _ _)
    apply PiecesOK.cons (pk 1 10 _ (off459_eq L jj k0_h18 1 10) _ _ (k0_off486_eq jj) _ _ _)
    apply PiecesOK.cons (pk 1 9 _ (off459_eq L jj k0_h18 1 9) _ _ (k0_off485_eq jj) _ _ _)
    apply PiecesOK.cons (pk 1 8 _ (off459_eq L jj k0_h18 1 8) _ _ (k0_off484_eq jj) _ _ _)
    apply PiecesOK.cons (pk 1 7 _ (off459_eq L jj k0_h18 1 7) _ _ (k0_off483_eq jj) _ _ _)
    apply PiecesOK.cons (pk 1 6 _ (off459_eq L jj k0_h18 1 6) _ _ (k0_off482_eq jj) _ _ _)
    apply PiecesOK.cons (pk 1 5 _ (off459_eq L jj k0_h18 1 5) _ _ (k0_off481_eq jj) _ _ _)
    apply PiecesOK.cons (pk 1 4 _ (off459_eq L jj k0_h18 1 4) _ _ (k0_off480_eq jj) _ _ _)
    apply PiecesOK.cons (pk 1 3 _ (off459_eq L jj k0_h18 1 3) _ _ (k0_off479_eq jj) _ _ _)
    apply PiecesOK.cons (pk 1 2 _ (off459_eq L jj k0_h18 1 2) _ _ (k0_off478_eq jj) _ _ _)
    apply PiecesOK.cons (pk 1 1 _ (off459_eq L jj k0_h18 1 1) _ _ (k0_off477_eq jj) _ _ _)
    apply PiecesOK.cons (pk 1 0 _ (off459_eq L jj k0_h18 1 0) _ _ (k0_off476_eq jj) _ _ _)
    apply PiecesOK.cons (pk 0 15 _ (off459_eq L jj k0_h18 0 15) _ _ (k0_off475_eq jj) _ _ _)
    apply PiecesOK.cons (pk 0 14 _ (off459_eq L jj k0_h18 0 14) _ _ (k0_off474_eq jj) _ _ _)
    apply PiecesOK.cons (pk 0 13 _ (off459_eq L jj k0_h18 0 13) _ _ (k0_off473_eq jj) _ _ _)
    apply PiecesOK.cons (pk 0 12 _ (off459_eq L jj k0_h18 0 12) _ _ (k0_off472_eq jj) _ _ _)
    apply PiecesOK.cons (pk 0 11 _ (off459_eq L jj k0_h18 0 11) _ _ (k0_off471_eq jj) _ _ _)
    apply PiecesOK.cons (pk 0 10 _ (off459_eq L jj k0_h18 0 10) _ _ (k0_off470_eq jj) _ _ _)
    apply PiecesOK.cons (pk 0 9 _ (off459_eq L jj k0_h18 0 9) _ _ (k0_off469_eq jj) _ _ _)
    apply PiecesOK.cons (pk 0 8 _ (off459_eq L jj k0_h18 0 8) _ _ (k0_off468_eq jj) _ _ _)
    apply PiecesOK.cons (pk 0 7 _ (off459_eq L jj k0_h18 0 7) _ _ (k0_off467_eq jj) _ _ _)
    apply PiecesOK.cons (pk 0 6 _ (off459_eq L jj k0_h18 0 6) _ _ (k0_off466_eq jj) _ _ _)
    apply PiecesOK.cons (pk 0 5 _ (off459_eq L jj k0_h18 0 5) _ _ (k0_off465_eq jj) _ _ _)
    apply PiecesOK.cons (pk 0 4 _ (off459_eq L jj k0_h18 0 4) _ _ (k0_off464_eq jj) _ _ _)
    apply PiecesOK.cons (pk 0 3 _ (off459_eq L jj k0_h18 0 3) _ _ (k0_off463_eq jj) _ _ _)
    apply PiecesOK.cons (pk 0 2 _ (off459_eq L jj k0_h18 0 2) _ _ (k0_off462_eq jj) _ _ _)
    apply PiecesOK.cons (pk 0 1 _ (off459_eq L jj k0_h18 0 1) _ _ (k0_off461_eq jj) _ _ _)
    apply PiecesOK.cons (pk 0 0 _ (off459_eq L jj k0_h18 0 0) _ _ (k0_off460_eq jj) _ _ _)
    exact PiecesOK.nil
  · unfold rowInv0 slabInv bufRows0
    isplitl [Hk0_part105_2]
    · iexists gk0_part105_0; isplitr
      · ipureintro; exact hk0_part105_1
      · iexact Hk0_part105_2
    · iexists tk0_part105_1; isplitr
      · ipureintro; exact Cert.Unfold.rowsDone_zero _ _ _
      · iexact Hk0_part105_6_src
  iintro %_ HR
  unfold rowInv0 slabInv bufRows0
  icases HR with ⟨⟨%g', %hg', HG⟩, ⟨%t, %ht, HT0⟩⟩
  sl_exec
  sl_step
  have ht17 : RowsDone (α := Elt F .f32) ((b0V).view.read (Elt F) t) x1 61984 17 := ht
  -- the three delivered chunks join the landed ones
  ihave HL0 := (Entails.of_eq (landed_pts1 (F := F) d L 0 15 (by omega) (by omega) x1 _ _ hk0_part105_5)) $$ Hk0_part105_6_dst
  ihave HL1 := (Entails.of_eq (landed_pts1 (F := F) d L 1 14 (by omega) (by omega) x1 _ _ hk0_part105_9)) $$ Hk0_part105_10_dst
  ihave HL2 := (Entails.of_eq (landed_pts1 (F := F) d L 2 14 (by omega) (by omega) x1 _ _ hk0_part105_13)) $$ Hk0_part105_14_dst
  ihave HD0 := (Entails.of_eq (done_step (fun j => (o1Loc d ↦[chunkSet L 0 j]{fullShare} pat1 d x1 : sProp 𝕄)) 15)) $$ [Hk0_part105_3 HL0]
  · isplitl [Hk0_part105_3]; · iexact Hk0_part105_3
    iexact HL0
  ihave HD1 := (Entails.of_eq (done_step (fun j => (o1Loc d ↦[chunkSet L 1 j]{fullShare} pat1 d x1 : sProp 𝕄)) 14)) $$ [Hk0_part105_7 HL1]
  · isplitl [Hk0_part105_7]; · iexact Hk0_part105_7
    iexact HL1
  ihave HD2 := (Entails.of_eq (done_step (fun j => (o1Loc d ↦[chunkSet L 2 j]{fullShare} pat1 d x1 : sProp 𝕄)) 14)) $$ [Hk0_part105_11 HL2]
  · isplitl [Hk0_part105_11]; · iexact Hk0_part105_11
    iexact HL2
  isplitl [Hk0_part104_0]; · iexact Hk0_part104_0
  isplitl [Hk0_part105_0]; · iexact Hk0_part105_0
  -- the first result's rows, joined
  isplitl [Hk0_part104_2 Hk0_part104_3 Hk0_part104_4 Hk0_part104_5 Hk0_part104_6]
  · iapply (Entails.of_eq ((tile_split0 (F := F) d L (pat0 d x0)).trans (congrArg (fun P => iprop(P ∗ (o0Loc d ↦[tailSetA L]{fullShare} pat0 d x0) ∗ (o0Loc d ↦[tailSetB L]{fullShare} pat0 d x0))) (bigSep_range3 _))).symm)
    isplitl [Hk0_part104_2 Hk0_part104_3 Hk0_part104_4]
    · isplitl [Hk0_part104_2]; · iexact Hk0_part104_2
      isplitl [Hk0_part104_3]; · iexact Hk0_part104_3
      iexact Hk0_part104_4
    isplitl [Hk0_part104_5]; · iexact Hk0_part104_5
    iexact Hk0_part104_6
  -- the second result's rows, joined
  isplitl [HD0 HD1 HD2 HTA' HTB']
  · iapply (Entails.of_eq ((tile_split1 (F := F) d L (pat1 d x1)).trans (congrArg (fun P => iprop(P ∗ (o1Loc d ↦[tailSetA L]{fullShare} pat1 d x1) ∗ (o1Loc d ↦[tailSetB L]{fullShare} pat1 d x1))) (bigSep_range3 _))).symm)
    rw [n0, n1, n2]
    isplitl [HD0 HD1 HD2]
    · isplitl [HD0]; · iexact HD0
      isplitl [HD1]; · iexact HD1
      iexact HD2
    isplitl [HTA']
    · iapply (Entails.of_eq (tailA_landed1 (F := F) d L hw x1 f1 t ht17)); iexact HTA'
    iapply (Entails.of_eq (tailB_landed1 (F := F) d L hw x1 f1 t ht17)); iexact HTB'
  isplitl [HG]; · iexists _; iexact HG
  isplitl [HT0]; · iexists _; iexact HT0
  isplitl [Hk0_part105_10_src]; · iexists _; iexact Hk0_part105_10_src
  isplitl [Hk0_part105_14_src]; · iexists _; iexact Hk0_part105_14_src
  -- the thirteen semaphores, all at zero again
  isplitl [Hk0_part105_6 Hk0_part105_10 Hk0_part105_14 Hc3 Hc4 Hk0_part104_13 Hk0_part104_14 Hk0_part104_15 Hk0_part105_15 Hk0_part105_16 Hk0_part105_17 Hc11 Hc12]
  · isplitl [Hk0_part105_6]; · iexact Hk0_part105_6
    isplitl [Hk0_part105_10]; · iexact Hk0_part105_10
    isplitl [Hk0_part105_14]; · iexact Hk0_part105_14
    isplitl [Hc3]; · iexact Hc3
    isplitl [Hc4]; · iexact Hc4
    isplitl [Hk0_part104_13]; · iexact Hk0_part104_13
    isplitl [Hk0_part104_14]; · iexact Hk0_part104_14
    isplitl [Hk0_part104_15]; · iexact Hk0_part104_15
    isplitl [Hk0_part105_15]; · iexact Hk0_part105_15
    isplitl [Hk0_part105_16]; · iexact Hk0_part105_16
    isplitl [Hk0_part105_17]; · iexact Hk0_part105_17
    isplitl [Hc11]; · iexact Hc11
    iexact Hc12
  iexists _; iexact Hk0_part105_18

set_option maxHeartbeats 4000000 in
set_option pp.proofs false in
set_option pp.deepTerms false in
set_option pp.maxSteps 3000 in
/-- The task on every other tile (61 chunks). -/
theorem tile_run_other (hw : wid L ≠ 31) (O : CellTallies nD τ sig (HIx 1)) (W : Waits sig (HIx 1))
    (x0 : Buf (Elt F) (x0Loc d)) (x1 : Buf (Elt F) (x1Loc d)) (f0 : Buf (Elt F) (o0Loc d)) (f1 : Buf (Elt F) (o1Loc d))
    (g0 : Buf (Elt F) ((slabV).view.loc (VT d L))) (t0 : Buf (Elt F) ((b0V).view.loc (VT d L)))
    (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((x1V).view.loc (VT d L) ↦{tileShare (L 0).val (L 1).val} x1)
        ∗ ((o0V).view.loc (VT d L) ↦[tileSet L]{fullShare} f0)
        ∗ ((o1V).view.loc (VT d L) ↦[tileSet L]{fullShare} f1)
        ∗ ((slabV).view.loc (VT d L) ↦[(slabV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ cells0 d L
        ∗ owes (VT d L) O W) : sProp 𝕄)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(((x0V).view.loc (VT d L) ↦{tileShare (L 0).val (L 1).val} x0)
            ∗ ((x1V).view.loc (VT d L) ↦{tileShare (L 0).val (L 1).val} x1)
            ∗ ((o0V).view.loc (VT d L) ↦[tileSet L]{fullShare} pat0 d x0)
            ∗ ((o1V).view.loc (VT d L) ↦[tileSet L]{fullShare} pat1 d x1)
            ∗ (∃ g, (slabV).view.loc (VT d L) ↦[(slabV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ cells0 d L
            ∗ ∃ W', owes (VT d L) O W') := by
  have k0_h16 : k0_cond16 L = 1#1 := (cond16_iff L).2 hw
  have k0_h17 : k0_cond17 = 1#1 := cond17_true
  have k0_h18 : ¬ k0_cond18 L = 1#1 := fun h => hw ((cond18_iff L).1 h)
  have n0 : nIss L 0 = 21 := by unfold nIss nch; rw [if_neg hw]
  have n1 : nIss L 1 = 20 := by unfold nIss nch; rw [if_neg hw]
  have n2 : nIss L 2 = 20 := by unfold nIss nch; rw [if_neg hw]
  have i0 : issued L 0 20 = 20 := by unfold issued; omega
  have i1 : issued L 1 20 = 20 := by unfold issued; omega
  have i2 : issued L 2 20 = 20 := by unfold issued; omega
  have e0 : Finset.Ico (issued L 0 20) (nIss L 0) = {20} := by rw [i0, n0]; rfl
  have e1 : Finset.Ico (issued L 1 20) (nIss L 1) = ∅ := by rw [i1, n1, Finset.Ico_self]
  have e2 : Finset.Ico (issued L 2 20) (nIss L 2) = ∅ := by rw [i2, n2, Finset.Ico_self]
  iintro ⟨#Hmw, HX0, HX1, HO0, HO1, HG, HT0, HT1, HT2, Hcells, HO⟩
  icases Hcells with ⟨Hc0, Hc1, Hc2, Hc3, Hc4, Hc5, Hc6, Hc7, Hc8, Hc9, Hc10, Hc11, Hc12⟩
  -- the tile's rows of each result, as its chunks (buffer by buffer) and its tail pieces
  ihave HO0' := (Entails.of_eq ((tile_split0 (F := F) d L f0).trans (congrArg (fun P => iprop(P ∗ (o0Loc d ↦[tailSetA L]{fullShare} f0) ∗ (o0Loc d ↦[tailSetB L]{fullShare} f0))) (bigSep_range3 _)))) $$ HO0
  icases HO0' with ⟨⟨HA0, HA1, HA2⟩, HATA, HATB⟩
  ihave HO1' := (Entails.of_eq ((tile_split1 (F := F) d L f1).trans (congrArg (fun P => iprop(P ∗ (o1Loc d ↦[tailSetA L]{fullShare} f1) ∗ (o1Loc d ↦[tailSetB L]{fullShare} f1))) (bigSep_range3 _)))) $$ HO1
  icases HO1' with ⟨⟨HB0, HB1, HB2⟩, HBTA, HBTB⟩
  -- the two named parts, as the run meets them
  have hs2 := slab_two d L x0 g0
  have h104 := fun (v1 v2 v7 v9 v14 : BitVec 32) (W : Waits sig (HIx 1)) (g : Buf (Elt F) ((slabV).view.loc (VT d L)))
      (hg : SlabUpTo (α := Elt F .f32) ((slabV).view.read (Elt F) g) x0 (wstart L) 32768)
      (t0 : Buf (Elt F) ((b0V).view.loc (VT d L))) (t1 : Buf (Elt F) ((b1V).view.loc (VT d L))) (t2 : Buf (Elt F) ((b2V).view.loc (VT d L))) =>
    part104_cut d L v1 v2 v7 v9 v14 O W x0 f0 g hg t0 t1 t2
  have h105 := fun (v2 v7 v9 : BitVec 32) (W : Waits sig (HIx 1)) (t0 : Buf (Elt F) ((b0V).view.loc (VT d L)))
      (t1 : Buf (Elt F) ((b1V).view.loc (VT d L))) (t2 : Buf (Elt F) ((b2V).view.loc (VT d L))) =>
    part105_run d L v2 v7 v9 O W x1 f1 t0 t1 t2
  unfold bufState1_0 bufState1_1 bufState1_2 at h105
  simp only [e0, e1, e2, bigSep_empty, bigSep_singleton] at h105
  simp only [i0, i1, i2, Nat.reduceSub, OfNat.ofNat_ne_zero, ↓reduceIte] at h105
  unfold bufFlying1_0 bufFlying1_1 bufFlying1_2 slabInv at h105
  sl_unfold [cc0__body]
  sl_exec
  -- chunk 60 (the twenty-first of buffer 0): its 32 patches of the second image, into staging buffer 0
  sl_for (rowInv0 d L x1 (chunkRow L 0 20)) $$ [Hk0_part105_2 Hk0_part105_6_src]
  case region =>
    intro jj _
    unfold rowInv0 slabInv bufRows0
    iintro ⟨⟨%g, %hg, HG⟩, %t, %ht, HT0⟩
    have hjj : jj.val < 32 := by have h := jj.isLt; change jj.val < k0_t11_loop.trips at h; rw [trips_t11] at h; exact h
    sl_exec
    sl_step
    isplitl [HG]
    · iexists g; isplitr; · ipureintro; exact hg
      iexact HG
    iexists _; isplitr
    rotate_left
    · iexact HT0
    ipureintro
    have hnr : nrows L = 1952 := by unfold nrows; rw [if_neg hw]
    have erow : chunkRow L 0 20 + jj.val = wbase L + 1920 + jj.val := by unfold chunkRow; omega
    have hr1 : wbase L ≤ wbase L + 1920 + jj.val := by omega
    have hr2 : wbase L + 1920 + jj.val < wbase L + nrows L := by omega
    refine rows_step' (b0V).view x1 (chunkRow L 0 20) jj.val hjj t _ ht ?_
    rw [erow]
    have pk := fun (c : Fin 3) (kh : Fin 16) =>
      piece_ok d L x1 g hg (wbase L + 1920 + jj.val) jj.val hjj hr1 hr2 c kh
    apply PiecesOK.cons (pk 2 15 _ (off409_eq L jj k0_h16 2 15) _ _ (k0_off457_eq jj) _ _ _)
    apply PiecesOK.cons (pk 2 14 _ (off409_eq L jj k0_h16 2 14) _ _ (k0_off456_eq jj) _ _ _)
    apply PiecesOK.cons (pk 2 13 _ (off409_eq L jj k0_h16 2 13) _ _ (k0_off455_eq jj) _ _ _)
    apply PiecesOK.cons (pk 2 12 _ (off409_eq L jj k0_h16 2 12) _ _ (k0_off454_eq jj) _ _ _)
    apply PiecesOK.cons (pk 2 11 _ (off409_eq L jj k0_h16 2 11) _ _ (k0_off453_eq jj) _ _ _)
    apply PiecesOK.cons (pk 2 10 _ (off409_eq L jj k0_h16 2 10) _ _ (k0_off452_eq jj) _ _ _)
    apply PiecesOK.cons (pk 2 9 _ (off409_eq L jj k0_h16 2 9) _ _ (k0_off451_eq jj) _ _ _)
    apply PiecesOK.cons (pk 2 8 _ (off409_eq L jj k0_h16 2 8) _ _ (k0_off450_eq jj) _ _ _)
    apply PiecesOK.cons (pk 2 7 _ (off409_eq L jj k0_h16 2 7) _ _ (k0_off449_eq jj) _ _ _)
    apply PiecesOK.cons (pk 2 6 _ (off409_eq L jj k0_h16 2 6) _ _ (k0_off448_eq jj) _ _ _)
    apply PiecesOK.cons (pk 2 5 _ (off409_eq L jj k0_h16 2 5) _ _ (k0_off447_eq jj) _ _ _)
    apply PiecesOK.cons (pk 2 4 _ (off409_eq L jj k0_h16 2 4) _ _ (k0_off446_eq jj) _ _ _)
    apply PiecesOK.cons (pk 2 3 _ (off409_eq L jj k0_h16 2 3) _ _ (k0_off445_eq jj) _ _ _)
    apply PiecesOK.cons (pk 2 2 _ (off409_eq L jj k0_h16 2 2) _ _ (k0_off444_eq jj) _ _ _)
    apply PiecesOK.cons (pk 2 1 _ (off409_eq L jj k0_h16 2 1) _ _ (k0_off443_eq jj) _ _ _)
    apply PiecesOK.cons (pk 2 0 _ (off409_eq L jj k0_h16 2 0) _ _ (k0_off442_eq jj) _ _ _)
    apply PiecesOK.cons (pk 1 15 _ (off409_eq L jj k0_h16 1 15) _ _ (k0_off441_eq jj) _ _ _)
    apply PiecesOK.cons (pk 1 14 _ (off409_eq L jj k0_h16 1 14) _ _ (k0_off440_eq jj) _ _ _)
    apply PiecesOK.cons (pk 1 13 _ (off409_eq L jj k0_h16 1 13) _ _ (k0_off439_eq jj) _ _ _)
    apply PiecesOK.cons (pk 1 12 _ (off409_eq L jj k0_h16 1 12) _ _ (k0_off438_eq jj) _ _ _)
    apply PiecesOK.cons (pk 1 11 _ (off409_eq L jj k0_h16 1 11) _ _ (k0_off437_eq jj) _ _ _)
    apply PiecesOK.cons (pk 1 10 _ (off409_eq L jj k0_h16 1 10) _ _ (k0_off436_eq jj) _ _ _)
    apply PiecesOK.cons (pk 1 9 _ (off409_eq L jj k0_h16 1 9) _ _ (k0_off435_eq jj) _ _ _)
    apply PiecesOK.cons (pk 1 8 _ (off409_eq L jj k0_h16 1 8) _ _ (k0_off434_eq jj) _ _ _)
    apply PiecesOK.cons (pk 1 7 _ (off409_eq L jj k0_h16 1 7) _ _ (k0_off433_eq jj) _ _ _)
    apply PiecesOK.cons (pk 1 6 _ (off409_eq L jj k0_h16 1 6) _ _ (k0_off432_eq jj) _ _ _)
    apply PiecesOK.cons (pk 1 5 _ (off409_eq L jj k0_h16 1 5) _ _ (k0_off431_eq jj) _ _ _)
    apply PiecesOK.cons (pk 1 4 _ (off409_eq L jj k0_h16 1 4) _ _ (k0_off430_eq jj) _ _ _)
    apply PiecesOK.cons (pk 1 3 _ (off409_eq L jj k0_h16 1 3) _ _ (k0_off429_eq jj) _ _ _)
    apply PiecesOK.cons (pk 1 2 _ (off409_eq L jj k0_h16 1 2) _ _ (k0_off428_eq jj) _ _ _)
    apply PiecesOK.cons (pk 1 1 _ (off409_eq L jj k0_h16 1 1) _ _ (k0_off427_eq jj) _ _ _)
    apply PiecesOK.cons (pk 1 0 _ (off409_eq L jj k0_h16 1 0) _ _ (k0_off426_eq jj) _ _ _)
    apply PiecesOK.cons (pk 0 15 _ (off409_eq L jj k0_h16 0 15) _ _ (k0_off425_eq jj) _ _ _)
    apply PiecesOK.cons (pk 0 14 _ (off409_eq L jj k0_h16 0 14) _ _ (k0_off424_eq jj) _ _ _)
    apply PiecesOK.cons (pk 0 13 _ (off409_eq L jj k0_h16 0 13) _ _ (k0_off423_eq jj) _ _ _)
    apply PiecesOK.cons (pk 0 12 _ (off409_eq L jj k0_h16 0 12) _ _ (k0_off422_eq jj) _ _ _)
    apply PiecesOK.cons (pk 0 11 _ (off409_eq L jj k0_h16 0 11) _ _ (k0_off421_eq jj) _ _ _)
    apply PiecesOK.cons (pk 0 10 _ (off409_eq L jj k0_h16 0 10) _ _ (k0_off420_eq jj) _ _ _)
    apply PiecesOK.cons (pk 0 9 _ (off409_eq L jj k0_h16 0 9) _ _ (k0_off419_eq jj) _ _ _)
    apply PiecesOK.cons (pk 0 8 _ (off409_eq L jj k0_h16 0 8) _ _ (k0_off418_eq jj) _ _ _)
    apply PiecesOK.cons (pk 0 7 _ (off409_eq L jj k0_h16 0 7) _ _ (k0_off417_eq jj) _ _ _)
    apply PiecesOK.cons (pk 0 6 _ (off409_eq L jj k0_h16 0 6) _ _ (k0_off416_eq jj) _ _ _)
    apply PiecesOK.cons (pk 0 5 _ (off409_eq L jj k0_h16 0 5) _ _ (k0_off415_eq jj) _ _ _)
    apply PiecesOK.cons (pk 0 4 _ (off409_eq L jj k0_h16 0 4) _ _ (k0_off414_eq jj) _ _ _)
    apply PiecesOK.cons (pk 0 3 _ (off409_eq L jj k0_h16 0 3) _ _ (k0_off413_eq jj) _ _ _)
    apply PiecesOK.cons (pk 0 2 _ (off409_eq L jj k0_h16 0 2) _ _ (k0_off412_eq jj) _ _ _)
    apply PiecesOK.cons (pk 0 1 _ (off409_eq L jj k0_h16 0 1) _ _ (k0_off411_eq jj) _ _ _)
    apply PiecesOK.cons (pk 0 0 _ (off409_eq L jj k0_h16 0 0) _ _ (k0_off410_eq jj) _ _ _)
    exact PiecesOK.nil
  · unfold rowInv0 slabInv bufRows0
    isplitl [Hk0_part105_2]
    · iexists gk0_part105_0; isplitr
      · ipureintro; exact hk0_part105_1
      · iexact Hk0_part105_2
    · iexists tk0_part105_1; isplitr
      · ipureintro; exact Cert.Unfold.rowsDone_zero _ _ _
      · iexact Hk0_part105_6_src
  iintro %_ HR
  unfold rowInv0 slabInv bufRows0
  icases HR with ⟨⟨%g', %hg', HG⟩, ⟨%t, %ht, HT0⟩⟩
  ihave HN0' := (Entails.of_eq (pts_last1 (F := F) d L k0_h16 f1).symm) $$ Hk0_part105_4
  sl_exec
  sl_step
  have h32 : Scf.trips k0_t11_loop.lb k0_t11_loop.ub k0_t11_loop.st = 32 := trips_t11
  rw [h32] at ht
  have hA : tailSetA L = ∅ := by unfold tailSetA; rw [if_neg hw]
  have hB : tailSetB L = ∅ := by unfold tailSetB; rw [if_neg hw]
  -- the delivered chunks (the last one through the program's own slice) join the landed ones
  ihave HL0 := (Entails.of_eq (landed_pts1 (F := F) d L 0 19 (by omega) (by omega) x1 _ _ hk0_part105_5)) $$ Hk0_part105_6_dst
  ihave HL1 := (Entails.of_eq (landed_pts1 (F := F) d L 1 19 (by omega) (by omega) x1 _ _ hk0_part105_9)) $$ Hk0_part105_10_dst
  ihave HL2 := (Entails.of_eq (landed_pts1 (F := F) d L 2 19 (by omega) (by omega) x1 _ _ hk0_part105_13)) $$ Hk0_part105_14_dst
  ihave HD0 := (Entails.of_eq (done_step (fun j => (o1Loc d ↦[chunkSet L 0 j]{fullShare} pat1 d x1 : sProp 𝕄)) 19)) $$ [Hk0_part105_3 HL0]
  · isplitl [Hk0_part105_3]; · iexact Hk0_part105_3
    iexact HL0
  ihave HD0' := (Entails.of_eq (done_step (fun j => (o1Loc d ↦[chunkSet L 0 j]{fullShare} pat1 d x1 : sProp 𝕄)) 20)) $$ [HD0 HN0']
  · isplitl [HD0]; · iexact HD0
    iapply (Entails.of_eq (last_landed1 (F := F) d L k0_h16 x1 f1 ((b0V).view.read (Elt F) t) ht)); iexact HN0'
  ihave HD1 := (Entails.of_eq (done_step (fun j => (o1Loc d ↦[chunkSet L 1 j]{fullShare} pat1 d x1 : sProp 𝕄)) 19)) $$ [Hk0_part105_7 HL1]
  · isplitl [Hk0_part105_7]; · iexact Hk0_part105_7
    iexact HL1
  ihave HD2 := (Entails.of_eq (done_step (fun j => (o1Loc d ↦[chunkSet L 2 j]{fullShare} pat1 d x1 : sProp 𝕄)) 19)) $$ [Hk0_part105_11 HL2]
  · isplitl [Hk0_part105_11]; · iexact Hk0_part105_11
    iexact HL2
  -- no tail on this tile: the two tail pieces are empty
  ihave HTA2 := (Entails.of_eq (pointsTo_congr (ℓ := o1Loc d) (I := tailSetA L) (q := fullShare) (f := f1) (g := pat1 d x1)
    (fun i hi => absurd hi (by rw [hA]; exact Finset.notMem_empty i)))) $$ HBTA
  ihave HTB2 := (Entails.of_eq (pointsTo_congr (ℓ := o1Loc d) (I := tailSetB L) (q := fullShare) (f := f1) (g := pat1 d x1)
    (fun i hi => absurd hi (by rw [hB]; exact Finset.notMem_empty i)))) $$ HBTB
  isplitl [Hk0_part104_0]; · iexact Hk0_part104_0
  isplitl [Hk0_part105_0]; · iexact Hk0_part105_0
  -- the first result's rows, joined
  isplitl [Hk0_part104_2 Hk0_part104_3 Hk0_part104_4 Hk0_part104_5 Hk0_part104_6]
  · iapply (Entails.of_eq ((tile_split0 (F := F) d L (pat0 d x0)).trans (congrArg (fun P => iprop(P ∗ (o0Loc d ↦[tailSetA L]{fullShare} pat0 d x0) ∗ (o0Loc d ↦[tailSetB L]{fullShare} pat0 d x0))) (bigSep_range3 _))).symm)
    isplitl [Hk0_part104_2 Hk0_part104_3 Hk0_part104_4]
    · isplitl [Hk0_part104_2]; · iexact Hk0_part104_2
      isplitl [Hk0_part104_3]; · iexact Hk0_part104_3
      iexact Hk0_part104_4
    isplitl [Hk0_part104_5]; · iexact Hk0_part104_5
    iexact Hk0_part104_6
  -- the second result's rows, joined
  isplitl [HD0' HD1 HD2 HTA2 HTB2]
  · iapply (Entails.of_eq ((tile_split1 (F := F) d L (pat1 d x1)).trans (congrArg (fun P => iprop(P ∗ (o1Loc d ↦[tailSetA L]{fullShare} pat1 d x1) ∗ (o1Loc d ↦[tailSetB L]{fullShare} pat1 d x1))) (bigSep_range3 _))).symm)
    rw [n0, n1, n2]
    isplitl [HD0' HD1 HD2]
    · isplitl [HD0']; · iexact HD0'
      isplitl [HD1]; · iexact HD1
      iexact HD2
    isplitl [HTA2]; · iexact HTA2
    iexact HTB2
  isplitl [HG]; · iexists _; iexact HG
  isplitl [HT0]; · iexists _; iexact HT0
  isplitl [Hk0_part105_10_src]; · iexists _; iexact Hk0_part105_10_src
  isplitl [Hk0_part105_14_src]; · iexists _; iexact Hk0_part105_14_src
  -- the thirteen semaphores, all at zero again
  isplitl [Hk0_part105_6 Hk0_part105_10 Hk0_part105_14 Hc3 Hc4 Hk0_part104_13 Hk0_part104_14 Hk0_part104_15 Hk0_part105_15 Hk0_part105_16 Hk0_part105_17 Hc11 Hc12]
  · isplitl [Hk0_part105_6]; · iexact Hk0_part105_6
    isplitl [Hk0_part105_10]; · iexact Hk0_part105_10
    isplitl [Hk0_part105_14]; · iexact Hk0_part105_14
    isplitl [Hc3]; · iexact Hc3
    isplitl [Hc4]; · iexact Hc4
    isplitl [Hk0_part104_13]; · iexact Hk0_part104_13
    isplitl [Hk0_part104_14]; · iexact Hk0_part104_14
    isplitl [Hk0_part104_15]; · iexact Hk0_part104_15
    isplitl [Hk0_part105_15]; · iexact Hk0_part105_15
    isplitl [Hk0_part105_16]; · iexact Hk0_part105_16
    isplitl [Hk0_part105_17]; · iexact Hk0_part105_17
    isplitl [Hc11]; · iexact Hc11
    iexact Hc12
  iexists _; iexact Hk0_part105_18

/-- The task on any tile. -/

theorem tile_run (O : CellTallies nD τ sig (HIx 1)) (W : Waits sig (HIx 1))
    (x0 : Buf (Elt F) (x0Loc d)) (x1 : Buf (Elt F) (x1Loc d)) (f0 : Buf (Elt F) (o0Loc d)) (f1 : Buf (Elt F) (o1Loc d))
    (g0 : Buf (Elt F) ((slabV).view.loc (VT d L))) (t0 : Buf (Elt F) ((b0V).view.loc (VT d L)))
    (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((x1V).view.loc (VT d L) ↦{tileShare (L 0).val (L 1).val} x1)
        ∗ ((o0V).view.loc (VT d L) ↦[tileSet L]{fullShare} f0)
        ∗ ((o1V).view.loc (VT d L) ↦[tileSet L]{fullShare} f1)
        ∗ ((slabV).view.loc (VT d L) ↦[(slabV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ cells0 d L
        ∗ owes (VT d L) O W) : sProp 𝕄)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(((x0V).view.loc (VT d L) ↦{tileShare (L 0).val (L 1).val} x0)
            ∗ ((x1V).view.loc (VT d L) ↦{tileShare (L 0).val (L 1).val} x1)
            ∗ ((o0V).view.loc (VT d L) ↦[tileSet L]{fullShare} pat0 d x0)
            ∗ ((o1V).view.loc (VT d L) ↦[tileSet L]{fullShare} pat1 d x1)
            ∗ (∃ g, (slabV).view.loc (VT d L) ↦[(slabV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ cells0 d L
            ∗ ∃ W', owes (VT d L) O W') := by
  by_cases hw : wid L = 31
  · exact tile_run_last d L hw O W x0 x1 f0 f1 g0 t0 t1 t2
  · exact tile_run_other d L hw O W x0 x1 f0 f1 g0 t0 t1 t2

end Cert.Proof.KI

end
-- ==== Proof.Body.lean ====
/-
  One tile's task, at a symbolic tile: from its share of the two images and its rows of the two results, the task
  ends with those rows holding the images' patches.
-/
import proofs.«212940_g32057635897708_cont_8to1_b_1299_25_alg».proof.Proof.TileRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable [FloatOps F]

/-! ## The tile's semaphores and buffers among the subcore's own -/

section Own

variable (d : Dev nD) (L : grid0.Coords)

/-- DMA semaphore `k` of subcore `i` of core `c`, as a cell of the machine. -/
abbrev dcell (d : Dev nD) (c : Fin τ.nSC) (i : Fin τ.nSub) (k : Fin 13) : GSem nD τ sig := (V d c i, .dma (csem k.val k.isLt))

omit [FloatOps F] in
/-- Every DMA semaphore of a vector subcore is scoped, so each of the thirteen is one of the subcore's own cells. -/
theorem dcell_mem (c : Fin τ.nSC) (i : Fin τ.nSub) (k : Fin 13) : dcell d c i k ∈ ownCells (V d c i) :=
  mem_ownCells.mpr ⟨rfl, (show ∀ s : DmaSem sig, (SemLoc.dma s : SemLoc sig).isScoped .scVector = true by decide) _⟩

omit [FloatOps F] in
theorem dcell_inj (c : Fin τ.nSC) (i : Fin τ.nSub) : Function.Injective (dcell d c i) := by
  intro a b h
  have := congrArg (fun g : GSem nD τ sig => g.2) h
  simp only [SemLoc.dma.injEq, Fin.mk.injEq] at this
  exact Fin.ext this

omit [FloatOps F] in
/-- The subcore's own cells at zero are the thirteen the task names, one by one, and the others. -/
theorem ownSems0_V :
    (ownSems0 (VT d L) : sProp 𝕄)
      = iprop(cells0 (F := F) d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => dcell_inj d (cV L) (jV L) h)]
  rw [show (Finset.univ : Finset (Fin 13)) = {0, 1, 2, 3, 4, 5, 6, 7, 8, 9, 10, 11, 12} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]
  rfl

/-- The subcore as a processor, and its four scratch buffers as buffers of the device. -/
abbrev pV (L : grid0.Coords) : Proc τ := Proc.scVector (cV L) (jV L)
abbrev sref0 (L : grid0.Coords) : DevRef τ sig := (pV L).devRef cc0_scratch0
abbrev sref1 (L : grid0.Coords) : DevRef τ sig := (pV L).devRef cc0_scratch1
abbrev sref2 (L : grid0.Coords) : DevRef τ sig := (pV L).devRef cc0_scratch2
abbrev sref3 (L : grid0.Coords) : DevRef τ sig := (pV L).devRef cc0_scratch3

/-- The subcore's own buffers other than the four. -/
abbrev restRefs (L : grid0.Coords) : Finset (DevRef τ sig) :=
  ((((ownRefs (τ := τ) (sig := sig) (pV L)).erase (sref0 L)).erase (sref1 L)).erase (sref2 L)).erase (sref3 L)

omit [FloatOps F] in
theorem ref_ne {a b : Ref sig .scVector} (h : a ≠ b) : (pV L).devRef a ≠ (pV L).devRef b :=
  fun e => h (Proc.devRef_injective _ e)

omit [FloatOps F] in
/-- The slab and the three staging buffers are among the subcore's own buffers: they are these four, each at some
    contents, and the others. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (restRefs L) fun b => iprop(∃ f, ((d, b) : Loc nD τ sig) ↦{fullShare} f)) := by
  have m0 : sref0 L ∈ ownRefs (τ := τ) (sig := sig) (pV L) := SparseCore.Cfg.mem_ownRefs_of_owner (p := pV L) (b := sref0 L) rfl
  have m1 : sref1 L ∈ ownRefs (τ := τ) (sig := sig) (pV L) := SparseCore.Cfg.mem_ownRefs_of_owner (p := pV L) (b := sref1 L) rfl
  have m2 : sref2 L ∈ ownRefs (τ := τ) (sig := sig) (pV L) := SparseCore.Cfg.mem_ownRefs_of_owner (p := pV L) (b := sref2 L) rfl
  have m3 : sref3 L ∈ ownRefs (τ := τ) (sig := sig) (pV L) := SparseCore.Cfg.mem_ownRefs_of_owner (p := pV L) (b := sref3 L) rfl
  have e1 : sref1 L ∈ (ownRefs (τ := τ) (sig := sig) (pV L)).erase (sref0 L) :=
    Finset.mem_erase.mpr ⟨ref_ne L (by decide), m1⟩
  have e2 : sref2 L ∈ ((ownRefs (τ := τ) (sig := sig) (pV L)).erase (sref0 L)).erase (sref1 L) :=
    Finset.mem_erase.mpr ⟨ref_ne L (by decide), Finset.mem_erase.mpr ⟨ref_ne L (by decide), m2⟩⟩
  have e3 : sref3 L ∈ (((ownRefs (τ := τ) (sig := sig) (pV L)).erase (sref0 L)).erase (sref1 L)).erase (sref2 L) :=
    Finset.mem_erase.mpr ⟨ref_ne L (by decide), Finset.mem_erase.mpr ⟨ref_ne L (by decide), Finset.mem_erase.mpr ⟨ref_ne L (by decide), m3⟩⟩⟩
  unfold SparseCore.Cfg.ownBufs
  refine (SparseCore.bigSep_erase' m0).trans ?_
  rw [SparseCore.bigSep_erase' e1, SparseCore.bigSep_erase' e2, SparseCore.bigSep_erase' e3]

/-! ## The launch's spelling of the pieces against the kernel function's -/

omit [FloatOps F] in
theorem pts_slab (f : Buf (Elt F) ((VT d L).loc cc0_scratch0)) :
    ((slabV).view.loc (VT d L) ↦[(slabV).view.set]{fullShare} f : sProp 𝕄) = (VT d L).loc cc0_scratch0 ↦{fullShare} f := by
  rw [View.set_whole]
omit [FloatOps F] in
theorem pts_b0 (f : Buf (Elt F) ((VT d L).loc cc0_scratch1)) :
    ((b0V).view.loc (VT d L) ↦[(b0V).view.set]{fullShare} f : sProp 𝕄) = (VT d L).loc cc0_scratch1 ↦{fullShare} f := by
  rw [View.set_whole]
omit [FloatOps F] in
theorem pts_b1 (f : Buf (Elt F) ((VT d L).loc cc0_scratch2)) :
    ((b1V).view.loc (VT d L) ↦[(b1V).view.set]{fullShare} f : sProp 𝕄) = (VT d L).loc cc0_scratch2 ↦{fullShare} f := by
  rw [View.set_whole]
omit [FloatOps F] in
theorem pts_b2 (f : Buf (Elt F) ((VT d L).loc cc0_scratch3)) :
    ((b2V).view.loc (VT d L) ↦[(b2V).view.set]{fullShare} f : sProp 𝕄) = (VT d L).loc cc0_scratch3 ↦{fullShare} f := by
  rw [View.set_whole]

omit [FloatOps F] in
/-- An image's share, and a result's rows, read the same in either spelling: the kernel's argument is the whole array. -/
theorem pts_x0 (q : PosShare TreeShare) (f : Buf (Elt F) (x0Loc d)) :
    ((x0V).view.loc (VT d L) ↦{q} f : sProp 𝕄) = x0Loc d ↦{q} f := rfl
omit [FloatOps F] in
theorem pts_x1 (q : PosShare TreeShare) (f : Buf (Elt F) (x1Loc d)) :
    ((x1V).view.loc (VT d L) ↦{q} f : sProp 𝕄) = x1Loc d ↦{q} f := rfl
omit [FloatOps F] in
theorem pts_o0V (f : Buf (Elt F) (o0Loc d)) :
    ((o0V).view.loc (VT d L) ↦[tileSet L]{fullShare} f : sProp 𝕄) = o0Loc d ↦[tileSet L]{fullShare} f := rfl
omit [FloatOps F] in
theorem pts_o1V (f : Buf (Elt F) (o1Loc d)) :
    ((o1V).view.loc (VT d L) ↦[tileSet L]{fullShare} f : sProp 𝕄) = o1Loc d ↦[tileSet L]{fullShare} f := rfl

end Own

/-- The task on the vector subcore at coordinates `L` of device `d`. -/
theorem tile_body (hF : (K (F := F)).Facts) (d : Dev nD) (L : grid0.Coords)
    (x0 : Buf (Elt F) (x0Loc d)) (x1 : Buf (Elt F) (x1Loc d)) (f0 : Buf (Elt F) (o0Loc d)) (f1 : Buf (Elt F) (o1Loc d))
    (O : CellTallies nD τ sig (HIx 1)) (W : Waits sig (HIx 1)) (hO : ∀ g, O g none = 0) :
    iprop(levAts (K (F := F)).L (K (F := F)).lev ∗ emp
        ∗ goRes d L x0 x1 f0 f1
        ∗ scopedBufs (VT d L) ∗ scopedSems0 (VT d L) ∗ owes (VT d L) O W)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(tdRes d L x0 x1
            ∗ scopedBufs (VT d L) ∗ scopedSems0 (VT d L)
            ∗ ∃ W', ⌜∀ p ∈ W', p ∈ W ∨ p.2 = none ∨ p.2 = some (0 : Fin 1)⌝ ∗ owes (VT d L) O W') := by
  unfold goRes tdRes
  rw [(K (F := F)).scopedBufs_V hF d (cV L) (jV L), SparseCore.Cfg.scopedSems0_V (Val := Elt F) d (cV L) (jV L),
    ownSems0_V, ownBufs_V]
  iintro ⟨#Hlv, -, ⟨Hx0, Hx1, Ho0, Ho1⟩, ⟨⟨%g0, HG⟩, ⟨%t0, HT0⟩, ⟨%t1, HT1⟩, ⟨%t2, HT2⟩, Hbufs⟩, ⟨HC, Hsems⟩, HO⟩
  -- no wait is owed at the start, so the thread may wait on its transfers
  ihave Hmw := (show levAts (K (F := F)).L (K (F := F)).lev ⊢ Transfers.MayWaits (VT d L) (default : HIx 1) O from
    (K (F := F)).mayWaits_none (thr := VT d L) hO) $$ Hlv
  -- the four scratch buffers held whole, in the kernel function's spelling
  ihave HG' := (Entails.of_eq (pts_slab (F := F) d L _).symm) $$ HG
  ihave HT0' := (Entails.of_eq (pts_b0 (F := F) d L _).symm) $$ HT0
  ihave HT1' := (Entails.of_eq (pts_b1 (F := F) d L _).symm) $$ HT1
  ihave HT2' := (Entails.of_eq (pts_b2 (F := F) d L _).symm) $$ HT2
  iapply (wp_wand_r Idealize.ShloMosaic.frame (wpE (defs₀ (F := F)) 𝒱₀ (VT d L) none) Set.univ)
  isplitl [Hx0 Hx1 Ho0 Ho1 HG' HT0' HT1' HT2' HC HO]
  · iapply (tile_run (F := F) d L O W x0 x1 f0 f1 g0 t0 t1 t2)
    isplitr; · iexact Hmw
    isplitl [Hx0]; · iexact Hx0
    isplitl [Hx1]; · iexact Hx1
    isplitl [Ho0]; · iexact Ho0
    isplitl [Ho1]; · iexact Ho1
    isplitl [HG']; · iexact HG'
    isplitl [HT0']; · iexact HT0'
    isplitl [HT1']; · iexact HT1'
    isplitl [HT2']; · iexact HT2'
    isplitl [HC]; · iexact HC
    iexact HO
  iintro %_ ⟨Hx0, Hx1, Ho0, Ho1, ⟨%g, HG'⟩, ⟨%u0, HT0'⟩, ⟨%u1, HT1'⟩, ⟨%u2, HT2'⟩, HC, ⟨%W', HO⟩⟩
  -- the images' shares and the rows, now at the patches, go back as they are
  isplitl [Hx0 Hx1 Ho0 Ho1]
  · isplitl [Hx0]; · iexact Hx0
    isplitl [Hx1]; · iexact Hx1
    isplitl [Ho0]; · iexact Ho0
    iexact Ho1
  -- the scratch buffers at whatever they hold now, with the subcore's other buffers
  isplitl [HG' HT0' HT1' HT2' Hbufs]
  · isplitl [HG']; · iexists _; iapply (Entails.of_eq (pts_slab (F := F) d L _)); iexact HG'
    isplitl [HT0']; · iexists _; iapply (Entails.of_eq (pts_b0 (F := F) d L _)); iexact HT0'
    isplitl [HT1']; · iexists _; iapply (Entails.of_eq (pts_b1 (F := F) d L _)); iexact HT1'
    isplitl [HT2']; · iexists _; iapply (Entails.of_eq (pts_b2 (F := F) d L _)); iexact HT2'
    iexact Hbufs
  -- the thirteen semaphores back at zero, with the subcore's other cells
  isplitl [HC Hsems]
  · isplitl [HC]; · iexact HC
    iexact Hsems
  -- the index type has one element, so a wait's index is none or 0
  iexists W'; isplitr
  · ipureintro; intro p _
    rcases p.2 with _ | q
    · exact .inr (.inl rfl)
    · exact .inr (.inr (congrArg some (Subsingleton.elim q 0)))
  · iexact HO

end Cert.Proof.KI

end
-- ==== Proof.Launch.lean ====
/-
  The launch: what the one SparseCore call hands its two cores and their thirty-two tiles, how the two results split
  into the tiles' runs of rows and join again, @main on the TensorCore (two reshapes, then the call), and the
  program's run: both results end as the patches matrices of the two images, the images unchanged.
-/
import proofs.«212940_g32057635897708_cont_8to1_b_1299_25_alg».proof.Proof.Body
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "x0V" => (Memref.whole Cert.KernelIdeal.main_v0_scv : Memref Cert.KernelIdeal.sig Kind.scVector Space.hbm Cert.KernelIdeal.S786432 EltTy.f32)
local notation "x1V" => (Memref.whole Cert.KernelIdeal.main_v1_scv : Memref Cert.KernelIdeal.sig Kind.scVector Space.hbm Cert.KernelIdeal.S786432 EltTy.f32)
local notation "o0V" => (Memref.whole Cert.KernelIdeal.main_v2_0_scv : Memref Cert.KernelIdeal.sig Kind.scVector Space.hbm Cert.KernelIdeal.S62001x768 EltTy.f32)
local notation "o1V" => (Memref.whole Cert.KernelIdeal.main_v2_1_scv : Memref Cert.KernelIdeal.sig Kind.scVector Space.hbm Cert.KernelIdeal.S62001x768 EltTy.f32)
local notation "slabV" => (Memref.whole Cert.KernelIdeal.cc0_scratch0 : Memref Cert.KernelIdeal.sig Kind.scVector Space.vmem Cert.KernelIdeal.S49152 EltTy.f32)
local notation "b0V" => (Memref.whole Cert.KernelIdeal.cc0_scratch1 : Memref Cert.KernelIdeal.sig Kind.scVector Space.vmem Cert.KernelIdeal.S32x768 EltTy.f32)
local notation "b1V" => (Memref.whole Cert.KernelIdeal.cc0_scratch2 : Memref Cert.KernelIdeal.sig Kind.scVector Space.vmem Cert.KernelIdeal.S32x768 EltTy.f32)
local notation "b2V" => (Memref.whole Cert.KernelIdeal.cc0_scratch3 : Memref Cert.KernelIdeal.sig Kind.scVector Space.vmem Cert.KernelIdeal.S32x768 EltTy.f32)

variable (m : (ℓ : Loc nD τ sig) → Buf (Elt F) ℓ) (ρ : Dev nD → PrngReg)

/-! ## The flattened images -/

/-- The contents of the two flattenings after @main's reshapes: the images read row-major. -/
def X0 (d : Dev nD) : Buf (Elt F) (x0Loc d) :=
  shapeCast S786432 (m (a0Loc d) : S1x3x512x512.Idx → Elt F .f32) shapeCasts_S1x3x512x512_S786432
def X1 (d : Dev nD) : Buf (Elt F) (x1Loc d) :=
  shapeCast S786432 (m (a1Loc d) : S1x3x512x512.Idx → Elt F .f32) shapeCasts_S1x3x512x512_S786432

/-- A reshape of the image to one axis reads it row-major: position `262144·c + 512·row + col`. -/
theorem rowMajor_flat {α : Type} (x : S1x3x512x512.Idx → α) (hc : S1x3x512x512.ShapeCasts S786432)
    (k : Cert.Unfold.SFlat.Idx) (i : Cert.Unfold.SImg.Idx)
    (h : (k 0).val = 262144 * (i 1).val + 512 * (i 2).val + (i 3).val) :
    shapeCast S786432 x hc k = x i := by
  refine shapeCast_apply x hc k i ?_
  rw [Shape.rowMajor_val_four, Shape.rowMajor_val_one]
  have h0 : (i 0).val = 0 := by have := (i 0).isLt; change (i 0).val < 1 at this; omega
  show (((i 0).val * 3 + (i 1).val) * 512 + (i 2).val) * 512 + (i 3).val = (k 0).val
  omega

theorem X0_rowMajor (d : Dev nD) (k : Cert.Unfold.SFlat.Idx) (i : Cert.Unfold.SImg.Idx)
    (h : (k 0).val = 262144 * (i 1).val + 512 * (i 2).val + (i 3).val) :
    (X0 m d : Cert.Unfold.SFlat.Idx → Elt F .f32) k = (m (a0Loc d) : Cert.Unfold.SImg.Idx → Elt F .f32) i :=
  rowMajor_flat (m (a0Loc d) : S1x3x512x512.Idx → Elt F .f32) shapeCasts_S1x3x512x512_S786432 k i h

theorem X1_rowMajor (d : Dev nD) (k : Cert.Unfold.SFlat.Idx) (i : Cert.Unfold.SImg.Idx)
    (h : (k 0).val = 262144 * (i 1).val + 512 * (i 2).val + (i 3).val) :
    (X1 m d : Cert.Unfold.SFlat.Idx → Elt F .f32) k = (m (a1Loc d) : Cert.Unfold.SImg.Idx → Elt F .f32) i :=
  rowMajor_flat (m (a1Loc d) : S1x3x512x512.Idx → Elt F .f32) shapeCasts_S1x3x512x512_S786432 k i h

theorem pat0_X0 (d : Dev nD) : pat0 d (X0 m d) = Cert.Unfold.patches (α := Elt F .f32) (m (a0Loc d)) :=
  Cert.Unfold.patchesFlat_of_rowMajor (α := Elt F .f32) (m (a0Loc d)) (X0 m d) fun k i h => X0_rowMajor m d k i h
theorem pat1_X1 (d : Dev nD) : pat1 d (X1 m d) = Cert.Unfold.patches (α := Elt F .f32) (m (a1Loc d)) :=
  Cert.Unfold.patchesFlat_of_rowMajor (α := Elt F .f32) (m (a1Loc d)) (X1 m d) fun k i h => X1_rowMajor m d k i h

/-! ## The tiles' rows: pairwise disjoint, together the whole matrix -/

theorem wid_coordsV (c : Fin (grid0.bound 0)) (s : Fin (grid0.bound 1)) : wid (coordsV c s) = 2 * s.val + c.val := rfl

/-- Distinct tiles own disjoint runs of rows. -/
theorem tiles_disjoint : ∀ p ∈ (Finset.univ : Finset (Fin (grid0.bound 0) × Fin (grid0.bound 1))), ∀ p' ∈ (Finset.univ : Finset (Fin (grid0.bound 0) × Fin (grid0.bound 1))),
    p ≠ p' → Disjoint (tileSet (coordsV p.1 p.2)) (tileSet (coordsV p'.1 p'.2)) := by
  intro p _ p' _ hne
  have hc : p.1.val < 2 := p.1.isLt
  have hc' : p'.1.val < 2 := p'.1.isLt
  have hs : p.2.val < 16 := p.2.isLt
  have hs' : p'.2.val < 16 := p'.2.isLt
  have hw : wid (coordsV p.1 p.2) ≠ wid (coordsV p'.1 p'.2) := by
    rw [wid_coordsV, wid_coordsV]
    intro e
    apply hne
    have h1 : p.1.val = p'.1.val := by omega
    have h2 : p.2.val = p'.2.val := by omega
    exact Prod.ext (Fin.ext h1) (Fin.ext h2)
  refine Rect.unit_disjoint (s := S62001x768) (0 : Fin 2) ?_
  show wbase (coordsV p.1 p.2) + nrows (coordsV p.1 p.2) ≤ wbase (coordsV p'.1 p'.2) ∨ wbase (coordsV p'.1 p'.2) + nrows (coordsV p'.1 p'.2) ≤ wbase (coordsV p.1 p.2)
  have hn : ∀ L : grid0.Coords, nrows L ≤ 1952 := fun L => by unfold nrows; split <;> omega
  have := hn (coordsV p.1 p.2); have := hn (coordsV p'.1 p'.2)
  unfold wbase
  omega

/-- Every row of the matrix lies in the run of the tile numbered by its quotient by 1952. -/
theorem tiles_cover : (Finset.univ : Finset (Fin (grid0.bound 0) × Fin (grid0.bound 1))).biUnion (fun p => tileSet (coordsV p.1 p.2)) = Finset.univ := by
  refine Finset.eq_univ_of_forall fun x => Finset.mem_biUnion.mpr ?_
  have h0 : (x 0).val < 62001 := (x 0).isLt
  have h1 : (x 1).val < 768 := (x 1).isLt
  have hw : (x 0).val / 1952 < 32 := by omega
  refine ⟨(⟨((x 0).val / 1952) % 2, Nat.mod_lt _ (by decide)⟩, ⟨((x 0).val / 1952) / 2, by show _ < 16; omega⟩), Finset.mem_univ _, ?_⟩
  rw [Rect.mem_set_unit]
  have hwid : wid (coordsV (⟨((x 0).val / 1952) % 2, Nat.mod_lt _ (by decide)⟩ : Fin (grid0.bound 0)) (⟨((x 0).val / 1952) / 2, by show _ < 16; omega⟩ : Fin (grid0.bound 1))) = (x 0).val / 1952 := by
    rw [wid_coordsV]; show 2 * (((x 0).val / 1952) / 2) + ((x 0).val / 1952) % 2 = _; omega
  intro a
  match a with
  | ⟨0, _⟩ =>
    show wbase _ ≤ (x 0).val ∧ (x 0).val < wbase _ + nrows _
    unfold wbase nrows
    rw [hwid]
    split <;> omega
  | ⟨1, _⟩ =>
    show 0 ≤ (x 1).val ∧ (x 1).val < 0 + 768
    omega

/-! ## Sums over the first naturals; a read share as its tokens -/

theorem bigSep_range_fin (n : ℕ) (Φ : ℕ → sProp 𝕄) :
    bigSep (Finset.range n) Φ = bigSep (Finset.univ : Finset (Fin n)) fun i => Φ i.val := by
  have e : Finset.range n = (Finset.univ : Finset (Fin n)).map Fin.valEmbedding := by
    ext k
    simp only [Finset.mem_range, Finset.mem_map, Finset.mem_univ, true_and, Fin.valEmbedding_apply]
    exact ⟨fun h => ⟨⟨k, h⟩, rfl⟩, fun ⟨i, hi⟩ => hi ▸ i.isLt⟩
  rw [e, BI.bigSep_map]; rfl

/-- A points-to at a share is what remains after `n` read tokens, and the tokens. -/
theorem share_split {ℓ : Loc nD τ sig} (q : PosShare TreeShare) (n : ℕ) (f : Buf (Elt F) ℓ) :
    (ℓ ↦{q} f : sProp 𝕄) ⊣⊢ iprop((ℓ ↦{Transfers.shareDrop q n} f) ∗ bigSep (Finset.univ : Finset (Fin n)) fun i => ℓ ↦{Transfers.shareTokN q i.val} f) := by
  have h : (ℓ ↦{q} f : sProp 𝕄) ⊣⊢ iprop((ℓ ↦{Transfers.shareDrop q n} f) ∗ bigSep (Finset.range n) fun i => ℓ ↦{Transfers.shareTokN q i} f) :=
    Transfers.pointsTo_toks_range (ℓ := ℓ) (S := Finset.univ) (f := f) q n
  rw [bigSep_range_fin] at h
  exact h

/-- A result array whole is its thirty-two tiles' runs of rows, grouped by core. -/
theorem o0_tiles (d : Dev nD) (f : Buf (Elt F) (o0Loc d)) :
    (o0Loc d ↦{fullShare} f : sProp 𝕄)
      = bigSep Finset.univ fun c : Fin (grid0.bound 0) => bigSep Finset.univ fun s : Fin (grid0.bound 1) => o0Loc d ↦[tileSet (coordsV c s)]{fullShare} f := by
  rw [show (o0Loc d ↦{fullShare} f : sProp 𝕄)
      = bigSep Finset.univ fun p : Fin (grid0.bound 0) × Fin (grid0.bound 1) => o0Loc d ↦[tileSet (coordsV p.1 p.2)]{fullShare} f from by
    rw [← pointsTo_biUnion Finset.univ (ℓ := o0Loc d) (fun p : Fin (grid0.bound 0) × Fin (grid0.bound 1) => tileSet (coordsV p.1 p.2)) tiles_disjoint, tiles_cover]
    try rfl,
    BI.bigSep_univ_prod]
  try rfl
theorem o1_tiles (d : Dev nD) (f : Buf (Elt F) (o1Loc d)) :
    (o1Loc d ↦{fullShare} f : sProp 𝕄)
      = bigSep Finset.univ fun c : Fin (grid0.bound 0) => bigSep Finset.univ fun s : Fin (grid0.bound 1) => o1Loc d ↦[tileSet (coordsV c s)]{fullShare} f := by
  rw [show (o1Loc d ↦{fullShare} f : sProp 𝕄)
      = bigSep Finset.univ fun p : Fin (grid0.bound 0) × Fin (grid0.bound 1) => o1Loc d ↦[tileSet (coordsV p.1 p.2)]{fullShare} f from by
    rw [← pointsTo_biUnion Finset.univ (ℓ := o1Loc d) (fun p : Fin (grid0.bound 0) × Fin (grid0.bound 1) => tileSet (coordsV p.1 p.2)) tiles_disjoint, tiles_cover]
    try rfl,
    BI.bigSep_univ_prod]
  try rfl

variable [FloatOps F]

/-! ## What the handshakes carry -/

/-- A core's part: its read share of the two flattened images, and its sixteen tiles' rows of the two results. -/
def coreRes (d : Dev nD) (c : Fin (grid0.bound 0)) (x0 : Buf (Elt F) (x0Loc d)) (x1 : Buf (Elt F) (x1Loc d))
    (f0 : Buf (Elt F) (o0Loc d)) (f1 : Buf (Elt F) (o1Loc d)) : sProp 𝕄 :=
  iprop((x0Loc d ↦{coreShare c.val} x0) ∗ (x1Loc d ↦{coreShare c.val} x1)
    ∗ (bigSep Finset.univ fun s : Fin (grid0.bound 1) => o0Loc d ↦[tileSet (coordsV c s)]{fullShare} f0)
    ∗ (bigSep Finset.univ fun s : Fin (grid0.bound 1) => o1Loc d ↦[tileSet (coordsV c s)]{fullShare} f1))

/-- The one call hands each core its share of the flattened images and its tiles' rows of the results (at the launch
    contents) and takes them back with the rows at the patches; each tile the same of its own rows. -/
def P : (K (F := F)).Pay (nD := nD) (Val := Elt F) (Name := ℕ) (U := UU) where
  st := fun q d c => match q with | 0 => coreRes d ⟨c.val, c.isLt⟩ (X0 m d) (X1 m d) (m (o0Loc d)) (m (o1Loc d))
  dn := fun q d c => match q with | 0 => coreRes d ⟨c.val, c.isLt⟩ (X0 m d) (X1 m d) (pat0 d (X0 m d)) (pat1 d (X1 m d))
  go := fun q d c i => match q with
    | 0 => goRes d (coordsV ⟨c.val, c.isLt⟩ ⟨i.val, i.isLt⟩) (X0 m d) (X1 m d) (m (o0Loc d)) (m (o1Loc d))
  td := fun q d c i => match q with
    | 0 => tdRes d (coordsV ⟨c.val, c.isLt⟩ ⟨i.val, i.isLt⟩) (X0 m d) (X1 m d)
  x := fun _ _ => iprop(emp)

instance coreRes_storable (d : Dev nD) (c : Fin (grid0.bound 0)) (x0 : Buf (Elt F) (x0Loc d)) (x1 : Buf (Elt F) (x1Loc d))
    (f0 : Buf (Elt F) (o0Loc d)) (f1 : Buf (Elt F) (o1Loc d)) : BI.Storable (upEmb : UEmb _ 𝕄) (coreRes d c x0 x1 f0 f1) := by
  unfold coreRes; infer_instance
instance goRes_storable (d : Dev nD) (L : grid0.Coords) (x0 : Buf (Elt F) (x0Loc d)) (x1 : Buf (Elt F) (x1Loc d))
    (f0 : Buf (Elt F) (o0Loc d)) (f1 : Buf (Elt F) (o1Loc d)) : BI.Storable (upEmb : UEmb _ 𝕄) (goRes d L x0 x1 f0 f1) := by
  unfold goRes; infer_instance
instance tdRes_storable (d : Dev nD) (L : grid0.Coords) (x0 : Buf (Elt F) (x0Loc d)) (x1 : Buf (Elt F) (x1Loc d)) :
    BI.Storable (upEmb : UEmb _ 𝕄) (tdRes d L x0 x1) := by
  unfold tdRes; infer_instance

instance P_storable : (P (F := F) m).IsStorable where
  st q d c := match q with
    | 0 => (inferInstance : BI.Storable (upEmb : UEmb _ 𝕄) (coreRes d ⟨c.val, c.isLt⟩ (X0 m d) (X1 m d) (m (o0Loc d)) (m (o1Loc d))))
  dn q d c := match q with
    | 0 => (inferInstance : BI.Storable (upEmb : UEmb _ 𝕄) (coreRes d ⟨c.val, c.isLt⟩ (X0 m d) (X1 m d) (pat0 d (X0 m d)) (pat1 d (X1 m d))))
  go q d c i := match q with
    | 0 => (inferInstance : BI.Storable (upEmb : UEmb _ 𝕄) (goRes d (coordsV ⟨c.val, c.isLt⟩ ⟨i.val, i.isLt⟩) (X0 m d) (X1 m d) (m (o0Loc d)) (m (o1Loc d))))
  td q d c i := match q with
    | 0 => (inferInstance : BI.Storable (upEmb : UEmb _ 𝕄) (tdRes d (coordsV ⟨c.val, c.isLt⟩ ⟨i.val, i.isLt⟩) (X0 m d) (X1 m d)))

/-! ## The obligation -/

theorem defs₀_vector (c : Fin τ.nSC) (s : Fin τ.nSub) :
    defs₀ (F := F) (.scVector c s) 0 ()
      = SparseCore.onTile hcore0 hsub0 (fun c s => cc0__body (coordsV c s)
          x0V (Memref.isWhole_whole _) x1V (Memref.isWhole_whole _) o0V (Memref.isWhole_whole _) o1V (Memref.isWhole_whole _)
          slabV (Memref.isWhole_whole _) b0V (Memref.isWhole_whole _) b1V (Memref.isWhole_whole _) b2V (Memref.isWhole_whole _)
          cc0_scratch4 cc0_scratch5 cc0_scratch6 cc0_scoped0 cc0_scoped1 cc0_scoped2 cc0_scoped3 cc0_scoped4 cc0_scoped5 cc0_scoped6 cc0_scoped7 cc0_scoped8 cc0_scoped9) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body hF d (coordsV ⟨_, hci.1⟩ ⟨_, hci.2⟩) (X0 m d) (X1 m d) (m (o0Loc d)) (m (o1Loc d)) O W hO

/-! ## The split among a core's tiles -/

/-- What a core's tiles are handed, and what they hand back, grouped by array. -/
theorem go_eq (d : Dev nD) (c : Fin (grid0.bound 0)) (x0 : Buf (Elt F) (x0Loc d)) (x1 : Buf (Elt F) (x1Loc d))
    (f0 : Buf (Elt F) (o0Loc d)) (f1 : Buf (Elt F) (o1Loc d)) :
    (bigSep Finset.univ fun s : Fin (grid0.bound 1) => goRes d (coordsV c s) x0 x1 f0 f1)
      = (iprop((bigSep Finset.univ fun s : Fin (grid0.bound 1) => x0Loc d ↦{Transfers.shareTokN (coreShare c.val) s.val} x0)
        ∗ (bigSep Finset.univ fun s : Fin (grid0.bound 1) => x1Loc d ↦{Transfers.shareTokN (coreShare c.val) s.val} x1)
        ∗ (bigSep Finset.univ fun s : Fin (grid0.bound 1) => o0Loc d ↦[tileSet (coordsV c s)]{fullShare} f0)
        ∗ (bigSep Finset.univ fun s : Fin (grid0.bound 1) => o1Loc d ↦[tileSet (coordsV c s)]{fullShare} f1)) : sProp 𝕄) := by
  unfold goRes
  rw [bigSep_sep', bigSep_sep', bigSep_sep']
  rfl
theorem td_eq (d : Dev nD) (c : Fin (grid0.bound 0)) (x0 : Buf (Elt F) (x0Loc d)) (x1 : Buf (Elt F) (x1Loc d)) :
    (bigSep Finset.univ fun s : Fin (grid0.bound 1) => tdRes d (coordsV c s) x0 x1)
      = (iprop((bigSep Finset.univ fun s : Fin (grid0.bound 1) => x0Loc d ↦{Transfers.shareTokN (coreShare c.val) s.val} x0)
        ∗ (bigSep Finset.univ fun s : Fin (grid0.bound 1) => x1Loc d ↦{Transfers.shareTokN (coreShare c.val) s.val} x1)
        ∗ (bigSep Finset.univ fun s : Fin (grid0.bound 1) => o0Loc d ↦[tileSet (coordsV c s)]{fullShare} pat0 d x0)
        ∗ (bigSep Finset.univ fun s : Fin (grid0.bound 1) => o1Loc d ↦[tileSet (coordsV c s)]{fullShare} pat1 d x1)) : sProp 𝕄) := by
  unfold tdRes
  rw [bigSep_sep', bigSep_sep', bigSep_sep']
  rfl

/-- A core's part splits into its sixteen tiles' (its share of each image into their tokens, what remains kept aside),
    and what they hand back joins to the core's. -/
theorem core_split (d : Dev nD) (c : Fin (grid0.bound 0)) (x0 : Buf (Elt F) (x0Loc d)) (x1 : Buf (Elt F) (x1Loc d))
    (f0 : Buf (Elt F) (o0Loc d)) (f1 : Buf (Elt F) (o1Loc d)) :
    coreRes d c x0 x1 f0 f1 ⊢ |={Set.univ}=> iprop(
      (bigSep Finset.univ fun s : Fin (grid0.bound 1) => goRes d (coordsV c s) x0 x1 f0 f1)
      ∗ ((bigSep Finset.univ fun s : Fin (grid0.bound 1) => tdRes d (coordsV c s) x0 x1) -∗ coreRes d c x0 x1 (pat0 d x0) (pat1 d x1))) := by
  rw [go_eq, td_eq]
  unfold coreRes
  iintro ⟨Hx0, Hx1, Ho0, Ho1⟩
  ihave Hx0' := (share_split (ℓ := x0Loc d) (coreShare c.val) (grid0.bound 1) x0).1 $$ Hx0
  icases Hx0' with ⟨Hr0, Hx0⟩
  ihave Hx1' := (share_split (ℓ := x1Loc d) (coreShare c.val) (grid0.bound 1) x1).1 $$ Hx1
  icases Hx1' with ⟨Hr1, Hx1⟩
  imodintro
  isplitl [Hx0 Hx1 Ho0 Ho1]
  · isplitl [Hx0]; · iexact Hx0
    isplitl [Hx1]; · iexact Hx1
    isplitl [Ho0]; · iexact Ho0
    iexact Ho1
  iintro ⟨Hx0, Hx1, Ho0, Ho1⟩
  isplitl [Hr0 Hx0]
  · iapply (share_split (ℓ := x0Loc d) (coreShare c.val) (grid0.bound 1) x0).2
    isplitl [Hr0]; · iexact Hr0
    iexact Hx0
  isplitl [Hr1 Hx1]
  · iapply (share_split (ℓ := x1Loc d) (coreShare c.val) (grid0.bound 1) x1).2
    isplitl [Hr1]; · iexact Hr1
    iexact Hx1
  isplitl [Ho0]; · iexact Ho0
  iexact Ho1

theorem vecSplit : (K (F := F)).VecSplit' (P m) 0 := by
  intro d c
  exact core_split d ⟨c.val, c.isLt⟩ (X0 m d) (X1 m d) (m (o0Loc d)) (m (o1Loc d))

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev x0' : DevRef τ sig := Proc.devRef .tc (main_v0 : Ref sig .tc)
abbrev x1' : DevRef τ sig := Proc.devRef .tc (main_v1 : Ref sig .tc)
abbrev o0' : DevRef τ sig := Proc.devRef .tc (main_v2_0 : Ref sig .tc)
abbrev o1' : DevRef τ sig := Proc.devRef .tc (main_v2_1 : Ref sig .tc)

/-- The two reshapes. -/
abbrev opR0 : HloOp τ sig (Elt F) := StableHlo.reshape main_arg0 main_v0 rfl shapeCasts_S1x3x512x512_S786432
abbrev opR1 : HloOp τ sig (Elt F) := StableHlo.reshape main_arg1 main_v1 rfl shapeCasts_S1x3x512x512_S786432

/-- The TensorCore's arrays, all unscoped. -/
abbrev S6 : Finset (DevRef τ sig) := {a0', a1', x0', x1', o0', o1'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (x0Loc d ↦{fullShare} W x0')
      ∗ (x1Loc d ↦{fullShare} W x1') ∗ (o0Loc d ↦{fullShare} W o0') ∗ (o1Loc d ↦{fullShare} W o1')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (x0Loc d ↦{fullShare} W main_v0)
      ∗ (x1Loc d ↦{fullShare} W main_v1) ∗ (o0Loc d ↦{fullShare} W main_v2_0) ∗ (o1Loc d ↦{fullShare} W main_v2_1)) := by
  unfold unscopedBufs
  rw [show (Finset.univ.filter fun b : Ref sig .tc => ¬ b.isScoped) = {main_arg0, main_arg1, main_v0, main_v1, main_v2_0, main_v2_1} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the first and the second reshape. -/
def V0 (d : Dev nD) : Valuation τ sig (Elt F) := fun b => m (d, b)
def V1 (d : Dev nD) : Valuation τ sig (Elt F) := (opR0 (F := F)).result (V0 m d)
def V2 (d : Dev nD) : Valuation τ sig (Elt F) := (opR1 (F := F)).result (V1 m d)

omit [FloatOps F] in
theorem unscoped_held (d : Dev nD) : (unscopedBufs d (fun b => m ((SparseCore.T d).loc b)) : sProp 𝕄) = held (T d) S6 (V0 m d) := by
  rw [unscopedBufs_eq, held_S6]; rfl

omit [FloatOps F] in
theorem V1_of_ne (d : Dev nD) (b : DevRef τ sig) (h : b ≠ x0') : V1 m d b = V0 m d b :=
  (opR0 (F := F)).result_of_not_mem (V0 m d) (b := b) (fun hw => h (Finset.mem_singleton.mp hw))
omit [FloatOps F] in
theorem V2_of_ne (d : Dev nD) (b : DevRef τ sig) (h : b ≠ x1') : V2 m d b = V1 m d b :=
  (opR1 (F := F)).result_of_not_mem (V1 m d) (b := b) (fun hw => h (Finset.mem_singleton.mp hw))

omit [FloatOps F] in
theorem V2_a0 (d : Dev nD) : V2 m d a0' = m (a0Loc d) := (V2_of_ne m d a0' (by decide)).trans (V1_of_ne m d a0' (by decide))
omit [FloatOps F] in
theorem V2_a1 (d : Dev nD) : V2 m d a1' = m (a1Loc d) := (V2_of_ne m d a1' (by decide)).trans (V1_of_ne m d a1' (by decide))
omit [FloatOps F] in
theorem V2_o0 (d : Dev nD) : V2 m d o0' = m (o0Loc d) := (V2_of_ne m d o0' (by decide)).trans (V1_of_ne m d o0' (by decide))
omit [FloatOps F] in
theorem V2_o1 (d : Dev nD) : V2 m d o1' = m (o1Loc d) := (V2_of_ne m d o1' (by decide)).trans (V1_of_ne m d o1' (by decide))
omit [FloatOps F] in
theorem V2_x0 (d : Dev nD) : V2 m d x0' = X0 m d := by
  refine (V2_of_ne m d x0' (by decide)).trans ?_
  refine (StableHlo.reshape_result (τ := τ) (Val := Elt F) main_arg0 main_v0 rfl shapeCasts_S1x3x512x512_S786432 ⟨by decide, rfl⟩ ⟨by decide, rfl⟩ (V0 m d)).trans ?_
  rfl
omit [FloatOps F] in
theorem V2_x1 (d : Dev nD) : V2 m d x1' = X1 m d := by
  refine (StableHlo.reshape_result (τ := τ) (Val := Elt F) main_arg1 main_v1 rfl shapeCasts_S1x3x512x512_S786432 ⟨by decide, rfl⟩ ⟨by decide, rfl⟩ (V1 m d)).trans ?_
  show (shapeCast S786432 (V1 m d a1' : S1x3x512x512.Idx → Elt F .f32) shapeCasts_S1x3x512x512_S786432) = X1 m d
  rw [V1_of_ne m d a1' (by decide)]
  rfl

omit [FloatOps F] in
theorem held_V2 (d : Dev nD) :
    (held (T d) S6 (V2 m d) : sProp 𝕄) = iprop((a0Loc d ↦{fullShare} m (a0Loc d)) ∗ (a1Loc d ↦{fullShare} m (a1Loc d)) ∗ (x0Loc d ↦{fullShare} X0 m d)
      ∗ (x1Loc d ↦{fullShare} X1 m d) ∗ (o0Loc d ↦{fullShare} m (o0Loc d)) ∗ (o1Loc d ↦{fullShare} m (o1Loc d))) := by
  rw [held_S6, V2_a0, V2_a1, V2_x0, V2_x1, V2_o0, V2_o1]

omit [FloatOps F] in
theorem hR0 : (opR0 (F := F)).bufs ⊆ S6 := show ({a0', x0'} : Finset (DevRef τ sig)) ⊆ S6 by decide
omit [FloatOps F] in
theorem hR1 : (opR1 (F := F)).bufs ⊆ S6 := show ({a1', x1'} : Finset (DevRef τ sig)) ⊆ S6 by decide

/-- What the call takes for the two cores, and what it hands back: a read token of each flattened image per core, the
    two results whole. -/
theorem st0_eq (d : Dev nD) : (bigSep Finset.univ fun c : Fin ((K (F := F)).nCore 0) => (P m).st 0 d c)
    = iprop((bigSep Finset.univ fun c : Fin (grid0.bound 0) => x0Loc d ↦{Transfers.shareTokN fullShare c.val} X0 m d)
      ∗ (bigSep Finset.univ fun c : Fin (grid0.bound 0) => x1Loc d ↦{Transfers.shareTokN fullShare c.val} X1 m d)
      ∗ (o0Loc d ↦{fullShare} m (o0Loc d)) ∗ (o1Loc d ↦{fullShare} m (o1Loc d))) := by
  show (bigSep Finset.univ fun c : Fin (grid0.bound 0) => coreRes d c (X0 m d) (X1 m d) (m (o0Loc d)) (m (o1Loc d))) = _
  unfold coreRes
  rw [bigSep_sep', bigSep_sep', bigSep_sep', ← o0_tiles, ← o1_tiles]
theorem dn0_eq (d : Dev nD) : (bigSep Finset.univ fun c : Fin ((K (F := F)).nCore 0) => (P m).dn 0 d c)
    = iprop((bigSep Finset.univ fun c : Fin (grid0.bound 0) => x0Loc d ↦{Transfers.shareTokN fullShare c.val} X0 m d)
      ∗ (bigSep Finset.univ fun c : Fin (grid0.bound 0) => x1Loc d ↦{Transfers.shareTokN fullShare c.val} X1 m d)
      ∗ (o0Loc d ↦{fullShare} pat0 d (X0 m d)) ∗ (o1Loc d ↦{fullShare} pat1 d (X1 m d))) := by
  show (bigSep Finset.univ fun c : Fin (grid0.bound 0) => coreRes d c (X0 m d) (X1 m d) (pat0 d (X0 m d)) (pat1 d (X1 m d))) = _
  unfold coreRes
  rw [bigSep_sep', bigSep_sep', bigSep_sep', ← o0_tiles, ← o1_tiles]

/-- What @main leaves the claim: the two images at their launch contents, the two results at the patches. -/
abbrev FIN (d : Dev nD) : sProp 𝕄 :=
  iprop((a0Loc d ↦{fullShare} m (a0Loc d)) ∗ (a1Loc d ↦{fullShare} m (a1Loc d))
    ∗ (o0Loc d ↦{fullShare} pat0 d (X0 m d)) ∗ (o1Loc d ↦{fullShare} pat1 d (X1 m d)))

/-- @main on device `d`'s TensorCore: the two reshapes, then the one call from a read token of each flattening per core
    and the two results whole; the images kept aside throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := opR0) (S := S6) hR0 (V := V0 m d)) $$ [Hb Hheld]
  · isplitl [Hb]; · iexact Hb
    iexact Hheld
  iintro ⟨Hb, Hheld⟩
  rw [wp_ret]; imodintro
  -- the second
  iapply (wp_hlo_within 𝒱 (SparseCore.T d) none Set.univ (op := opR1) (S := S6) hR1 (V := V1 m d)) $$ [Hb Hheld]
  · isplitl [Hb]; · iexact Hb
    iexact Hheld
  iintro ⟨Hb, Hheld⟩
  rw [wp_ret]; imodintro
  ihave Hh := (Entails.of_eq (show (held (SparseCore.T d) S6 ((opR1 (F := F)).result (V1 m d)) : sProp 𝕄) = _ from held_V2 (F := F) m d)) $$ Hheld
  icases Hh with ⟨Ha0, Ha1, Hx0, Hx1, Ho0, Ho1⟩
  ihave Hx0' := (share_split (ℓ := x0Loc d) fullShare (grid0.bound 0) (X0 m d)).1 $$ Hx0
  icases Hx0' with ⟨-, Hx0⟩
  ihave Hx1' := (share_split (ℓ := x1Loc d) fullShare (grid0.bound 0) (X1 m d)).1 $$ Hx1
  icases Hx1' with ⟨-, Hx1⟩
  -- the call
  iapply ((K (F := F)).wp_run (D (F := F)) 𝒱 (EH := EH) (P := P m) κ d 0) $$ [Hst Hx0 Hx1 Ho0 Ho1 Ha0 Ha1]
  isplitr; · iexact Hctx
  isplitl [Hst]; · iexact Hst
  isplitl [Hx0 Hx1 Ho0 Ho1]
  · rw [st0_eq]
    isplitl [Hx0]; · iexact Hx0
    isplitl [Hx1]; · iexact Hx1
    isplitl [Ho0]; · iexact Ho0
    iexact Ho1
  iintro ⟨Hst, Hdn⟩
  ihave Hdn' := (Entails.of_eq (dn0_eq m d)) $$ Hdn
  icases Hdn' with ⟨-, -, Ho0, Ho1⟩
  imodintro
  isplitl [Hst]; · iexact Hst
  isplitl [Ha0]; · iexact Ha0
  isplitl [Ha1]; · iexact Ha1
  isplitl [Ho0]; · iexact Ho0
  iexact Ho1

def fq (d : Dev nD) (s' : Phys nD τ sig (Elt F)) : Prop :=
  s'.mem.mem (o0Loc d) = pat0 d (X0 m d) ∧ s'.mem.mem (o1Loc d) = pat1 d (X1 m d)
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho0, Ho1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (persistent_entails_right (SI_pointsTo_agree (st := s') (ℓ := o0Loc d) (I := Finset.univ) (q := fullShare) (f := pat0 d (X0 m d)))) $$ [HSI Ho0]
  · isplitl [HSI] <;> iassumption
  icases H with ⟨%h3, HSI, -⟩
  ihave H := (SI_pointsTo_agree (st := s') (ℓ := o1Loc d) (I := Finset.univ) (q := fullShare) (f := pat1 d (X1 m d))) $$ [HSI Ho1]
  · isplitl [HSI] <;> iassumption
  icases H with %h4
  ipureintro
  exact ⟨funext fun (i : Idx (o0Loc d)) => h3 i (Finset.mem_univ i), funext fun (i : Idx (o1Loc d)) => h4 i (Finset.mem_univ i),
    funext fun (i : Idx (a0Loc d)) => h1 i (Finset.mem_univ i), funext fun (i : Idx (a1Loc d)) => h2 i (Finset.mem_univ i)⟩

/-! ## The program's run -/

def QC : PUnit × MemSt nD τ sig (Elt F) → Prop := fun r => ∀ c : Dev nD,
  r.2.mem (o0Loc c) = Cert.Unfold.patches (α := Elt F .f32) (m (a0Loc c)) ∧ r.2.mem (o1Loc c) = Cert.Unfold.patches (α := Elt F .f32) (m (a1Loc c))
    ∧ r.2.mem (a0Loc c) = m (a0Loc c) ∧ r.2.mem (a1Loc c) = m (a1Loc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h => by
      intro c
      obtain ⟨h0, h1, h2, h3⟩ := h c
      exact ⟨h0.trans (pat0_X0 m c), h1.trans (pat1_X1 m c), h2, h3⟩)

end Cert.Proof.KI

end
-- ==== Proof.BaseBits.lean ====
/-
  The integers of the tile's task, over the grid's coordinates alone: tile number `2·s + c` (subcore `s`, core `c`)
  owns patches `[1952·(2s + c), +1952)`, the last tile the remaining 1489; it writes 61 chunks of 32 patches (the last
  tile 46 and a tail of 17); its slab holds the 32 image rows from `wstart`; patch `row = 249·i + j` starts, inside one
  channel's window, at `(2i − wstart)·512 + 2j`.
-/
import proofs.«212940_g32057635897708_cont_8to1_b_1299_25_alg».proof.Kernel

namespace Cert.Proof.KB

open Cert.Kernel Idealize.ShloMosaic

/-- A tile's number, its first patch and how many patches it owns. -/
def wid (L : grid0.Coords) : Nat := 2 * (L 1).val + (L 0).val
def wbase (L : grid0.Coords) : Nat := 1952 * wid L
def nrows (L : grid0.Coords) : Nat := if wid L = 31 then 1489 else 1952

theorem wid_lt (L : grid0.Coords) : wid L < 32 := by
  have h0 : (L 0).val < 2 := (L 0).isLt
  have h1 : (L 1).val < 16 := (L 1).isLt
  unfold wid; omega

/-- How many full chunks of 32 patches a tile writes; the first image row of its 32-row window; and where, inside one
    channel's window, the first pixel of patch `row` lies. -/
def nch (L : grid0.Coords) : Nat := if wid L = 31 then 46 else 61
def wstart (L : grid0.Coords) : Nat := min (2 * (wbase L / 249)) 480
def slabOff (L : grid0.Coords) (row : Nat) : Nat := (2 * (row / 249) - wstart L) * 512 + 2 * (row % 249)

end Cert.Proof.KB
-- ==== Proof.ArithBits.lean ====
/-
  The kernel's integer arithmetic in closed form.  Every offset and every branch condition of the program is a
  chain of 32-bit word operations over the tile's coordinates and the loops' trips.  The branch conditions and the
  window's start are evaluated over the whole (finite) grid; the chains that place a patch in the window are followed
  operation by operation over the integers (no operation wraps), the division by 249 that the kernel does by a
  multiplication and two shifts being evaluated once over the multiples of 32 it is applied to.  From the closed
  forms: the window holds every patch the tile owns, and every load from the slab lies inside it.
-/
import proofs.«212940_g32057635897708_cont_8to1_b_1299_25_alg».proof.Proof.BaseBits
import Idealize.ShloMosaic.Lib.Decide
import Idealize.ShloMosaic.Lib.Affine

set_option synthInstance.maxSize 4096
set_option Elab.async false

namespace Cert.Proof.KB

open Cert.Kernel
open Idealize.ShloMosaic

/-! ## The branch conditions -/

/-- The first chunk of trip `k` (chunk `3k`) is one the tile has. -/
theorem cond1_iff : ∀ (L : grid0.Coords) (k : Fin k0_t1_loop.trips), k0_cond1 L k = 1#1 ↔ 3 * k.val < nch L := by decide +kernel
theorem cond3_iff : ∀ (L : grid0.Coords) (k : Fin k0_t1_loop.trips), k0_cond3 L k = 1#1 ↔ 3 * k.val + 1 < nch L := by decide +kernel
theorem cond5_iff : ∀ (L : grid0.Coords) (k : Fin k0_t1_loop.trips), k0_cond5 L k = 1#1 ↔ 3 * k.val + 2 < nch L := by decide +kernel
theorem cond2_iff : ∀ (k : Fin k0_t1_loop.trips), k0_cond2 k = 1#1 ↔ 1 ≤ k.val := by decide +kernel
theorem cond4_iff : ∀ (k : Fin k0_t1_loop.trips), k0_cond4 k = 1#1 ↔ 1 ≤ k.val := by decide +kernel
theorem cond6_iff : ∀ (k : Fin k0_t1_loop.trips), k0_cond6 k = 1#1 ↔ 1 ≤ k.val := by decide +kernel
/-- Chunk 60 exists on every tile but the last. -/
theorem cond7_iff : ∀ (L : grid0.Coords), k0_cond7 L = 1#1 ↔ wid L ≠ 31 := by decide +kernel
theorem cond8_true : k0_cond8 = 1#1 := by decide +kernel
/-- Only the last tile has a tail. -/
theorem cond9_iff : ∀ (L : grid0.Coords), k0_cond9 L = 1#1 ↔ wid L = 31 := by decide +kernel

/-- The first chunk of trip `k` (chunk `3k`) is one the tile has. -/
theorem cond10_iff : ∀ (L : grid0.Coords) (k : Fin k0_t7_loop.trips), k0_cond10 L k = 1#1 ↔ 3 * k.val < nch L := by decide +kernel
theorem cond12_iff : ∀ (L : grid0.Coords) (k : Fin k0_t7_loop.trips), k0_cond12 L k = 1#1 ↔ 3 * k.val + 1 < nch L := by decide +kernel
theorem cond14_iff : ∀ (L : grid0.Coords) (k : Fin k0_t7_loop.trips), k0_cond14 L k = 1#1 ↔ 3 * k.val + 2 < nch L := by decide +kernel
theorem cond11_iff : ∀ (k : Fin k0_t7_loop.trips), k0_cond11 k = 1#1 ↔ 1 ≤ k.val := by decide +kernel
theorem cond13_iff : ∀ (k : Fin k0_t7_loop.trips), k0_cond13 k = 1#1 ↔ 1 ≤ k.val := by decide +kernel
theorem cond15_iff : ∀ (k : Fin k0_t7_loop.trips), k0_cond15 k = 1#1 ↔ 1 ≤ k.val := by decide +kernel
/-- Chunk 60 exists on every tile but the last. -/
theorem cond16_iff : ∀ (L : grid0.Coords), k0_cond16 L = 1#1 ↔ wid L ≠ 31 := by decide +kernel
theorem cond17_true : k0_cond17 = 1#1 := by decide +kernel
/-- Only the last tile has a tail. -/
theorem cond18_iff : ∀ (L : grid0.Coords), k0_cond18 L = 1#1 ↔ wid L = 31 := by decide +kernel

/-! ## The window -/

/-- Where in the flattened image a channel's window begins: the channel's offset and 512 pixels per image row. -/
theorem off1_eq : ∀ (L : grid0.Coords) (r : Fin 3), k0_off1 L (BitVec.ofNat 32 (262144 * r.val)) = ![262144 * r.val + 512 * wstart L] := by decide +kernel

/-- The window's first image row is no later than the image row of the tile's first patch, and the image rows of
    the tile's last patch end inside the window. -/
theorem window_ends : ∀ (L : grid0.Coords), wstart L ≤ 2 * (wbase L / 249) ∧ 2 * ((wbase L + nrows L - 1) / 249) + 16 ≤ wstart L + 32 := by decide +kernel

/-- The 32-row window holds the 16 image rows of every patch the tile owns. -/
theorem window_ok : ∀ (L : grid0.Coords) (row : ℕ), wbase L ≤ row → row < wbase L + nrows L →
    wstart L ≤ 2 * (row / 249) ∧ 2 * (row / 249) + 16 ≤ wstart L + 32 := by
  intro L row h₁ h₂
  have h := window_ends L
  have hlo : wbase L / 249 ≤ row / 249 := Nat.div_le_div_right h₁
  have hhi : row / 249 ≤ (wbase L + nrows L - 1) / 249 := Nat.div_le_div_right (by omega)
  omega

/-! ## Where a patch begins in the window -/

open Affine in
/-- The division by 249 the kernel does by a multiplication and two shifts, on a multiple of 32. -/
def divW (x : BitVec 32) : BitVec 32 := Scalar.shrsi (Scalar.muli (Scalar.shrui x 5#32) 67379#32) 19#32

/-- It is the quotient, for every multiple of 32 below 65536 (the patches end at 62001). -/
theorem divW_ofNat : ∀ m : Fin 2048, divW (BitVec.ofNat 32 (32 * m.val)) = BitVec.ofNat 32 (32 * m.val / 249) := by decide +kernel

theorem divW_isInt {x : BitVec 32} {m : Nat} (hm : m < 2048) (hx : Affine.IsInt x ((32 * m : Nat) : Int)) :
    Affine.IsInt (divW x) ((32 * m / 249 : Nat) : Int) := by
  have hn : x.toNat = 32 * m := Affine.nat_eq hx _ rfl
  have hx' : x = BitVec.ofNat 32 (32 * m) := by
    apply BitVec.eq_of_toNat_eq
    rw [hn, BitVec.toNat_ofNat]
    omega
  rw [hx', divW_ofNat ⟨m, hm⟩]
  exact Affine.ofNat _ ⟨rfl, by omega⟩

/-- The word the kernel computes for where a patch's first pixel lies in the window: from the tile's first patch
    `v2`, the chunk's first patch `v64`, the row of the chunk `v82`, and the channel's and the patch row's offsets. -/
def slabW (v2 v64 v82 a b : BitVec 32) : BitVec 32 :=
  let v67 := divW v64
  let v70 := Scalar.muli 2#32 v67
  let v7 := Scalar.minsi (Scalar.muli 2#32 (divW v2)) 480#32
  let v72 := Scalar.muli (Scalar.subi v70 v7) 512#32
  let v69 := Scalar.subi v64 (Scalar.muli v67 249#32)
  let v74 := Scalar.addi v72 (Scalar.muli 2#32 v69)
  let v86 := Scalar.addi v74 (Scalar.muli 2#32 v82)
  let v84 := Scalar.cmpi .sge (Scalar.addi v69 v82) 249#32
  let v88 := Scalar.addi v86 (Scalar.select v84 526#32 0#32)
  Scalar.indexCast (Scalar.addi (Scalar.addi v88 a) b)

/-- The same position over the naturals, for tile `w` and patch `n`. -/
def slabN (w n : Nat) : Nat := (2 * (n / 249) - min (2 * (32 * (61 * w) / 249)) 480) * 512 + 2 * (n % 249)

theorem slabW_isInt {v2 v64 v82 : BitVec 32} {w m j : Nat}
    (h2 : Affine.IsInt v2 ((32 * (61 * w) : Nat) : Int)) (h64 : Affine.IsInt v64 ((32 * m : Nat) : Int))
    (h82 : Affine.IsInt v82 ((j : Nat) : Int)) (r₁ : Fin 3) (r₂ : Fin 16)
    (hw : 61 * w ≤ m) (hm : m < 2048) (hj : j < 32) :
    Affine.IsInt (slabW v2 v64 v82 (BitVec.ofNat 32 (16384 * r₁.val)) (BitVec.ofNat 32 (512 * r₂.val)))
      ((slabN w (32 * m + j) + 16384 * r₁.val + 512 * r₂.val : Nat) : Int) := by
  have hr₁ := r₁.isLt
  have hr₂ := r₂.isLt
  have ha : Affine.IsInt (BitVec.ofNat 32 (16384 * r₁.val)) ((16384 * r₁.val : Nat) : Int) := Affine.ofNat _ ⟨rfl, by omega⟩
  have hb : Affine.IsInt (BitVec.ofNat 32 (512 * r₂.val)) ((512 * r₂.val : Nat) : Int) := Affine.ofNat _ ⟨rfl, by omega⟩
  have c2 : Affine.IsInt 2#32 2 := Affine.ofNat _ (by omega)
  have c480 : Affine.IsInt 480#32 480 := Affine.ofNat _ (by omega)
  have c512 : Affine.IsInt 512#32 512 := Affine.ofNat _ (by omega)
  have c249 : Affine.IsInt 249#32 249 := Affine.ofNat _ (by omega)
  have c526 : Affine.IsInt 526#32 526 := Affine.ofNat _ (by omega)
  have c0 : Affine.IsInt 0#32 0 := Affine.ofNat _ (by omega)
  -- the two quotients, as naturals the later steps treat as unknowns with their defining bounds
  obtain ⟨q, hq⟩ : ∃ q : Nat, q = 32 * m / 249 := ⟨_, rfl⟩
  obtain ⟨q₀, hq₀⟩ : ∃ q₀ : Nat, q₀ = 32 * (61 * w) / 249 := ⟨_, rfl⟩
  have h67 : Affine.IsInt (divW v64) ((q : Nat) : Int) := hq ▸ divW_isInt hm h64
  have h5 : Affine.IsInt (divW v2) ((q₀ : Nat) : Int) := hq₀ ▸ divW_isInt (by omega) h2
  have h70 : Affine.IsInt _ (2 * (q : Int)) := Affine.muli c2 h67 (by omega)
  have h6 : Affine.IsInt _ (2 * (q₀ : Int)) := Affine.muli c2 h5 (by omega)
  have h7 : Affine.IsInt _ (((min (2 * q₀) 480 : Nat)) : Int) := Affine.minsi h6 c480 (by omega)
  have h71 : Affine.IsInt _ (2 * (q : Int) - ((min (2 * q₀) 480 : Nat) : Int)) := Affine.subi h70 h7 (by omega)
  have h72 : Affine.IsInt _ ((2 * (q : Int) - ((min (2 * q₀) 480 : Nat) : Int)) * 512) := Affine.muli h71 c512 (by omega)
  have h68 : Affine.IsInt _ ((q : Int) * 249) := Affine.muli h67 c249 (by omega)
  have h69 : Affine.IsInt _ (32 * (m : Int) - (q : Int) * 249) := Affine.subi h64 h68 (by omega)
  have h73 : Affine.IsInt _ (2 * (32 * (m : Int) - (q : Int) * 249)) := Affine.muli c2 h69 (by omega)
  have h74 : Affine.IsInt _ ((2 * (q : Int) - ((min (2 * q₀) 480 : Nat) : Int)) * 512 + 2 * (32 * (m : Int) - (q : Int) * 249)) :=
    Affine.addi h72 h73 (by omega)
  have h85 : Affine.IsInt _ (2 * (j : Int)) := Affine.muli c2 h82 (by omega)
  have h86 : Affine.IsInt _ ((2 * (q : Int) - ((min (2 * q₀) 480 : Nat) : Int)) * 512 + 2 * (32 * (m : Int) - (q : Int) * 249) + 2 * (j : Int)) :=
    Affine.addi h74 h85 (by omega)
  have h83 : Affine.IsInt _ (32 * (m : Int) - (q : Int) * 249 + (j : Int)) := Affine.addi h69 h82 (by omega)
  by_cases hwrap : 249 ≤ 32 * m - q * 249 + j
  · -- the patch lies in the next row of patches: one image-row pair further, 249 patch columns back
    have h84 := Affine.sge_holds h83 c249 (by omega)
    have h87 : Affine.IsInt _ 526 := Affine.select_holds h84 c526 c0 rfl
    have h88 := Affine.addi h86 h87 ⟨rfl, by omega, by omega⟩
    have h89 := Affine.addi h88 ha ⟨rfl, by omega, by omega⟩
    have h90 := Affine.addi h89 hb ⟨rfl, by omega, by omega⟩
    refine Affine.relit (Affine.indexCast h90) ?_
    unfold slabN
    omega
  · have h84 := Affine.sge_fails h83 c249 (by omega)
    have h87 : Affine.IsInt _ 0 := Affine.select_fails h84 c526 c0 rfl
    have h88 := Affine.addi h86 h87 ⟨rfl, by omega, by omega⟩
    have h89 := Affine.addi h88 ha ⟨rfl, by omega, by omega⟩
    have h90 := Affine.addi h89 hb ⟨rfl, by omega, by omega⟩
    refine Affine.relit (Affine.indexCast h90) ?_
    unfold slabN
    omega

/-- The tile's first patch, as the kernel computes it from the tile's coordinates. -/
def wbaseW (L : grid0.Coords) : BitVec 32 :=
  Scalar.muli (Scalar.addi (Scalar.muli (BitVec.ofNat 32 (L 1).val) 2#32) (BitVec.ofNat 32 (L 0).val)) 1952#32

theorem wbaseW_isInt (L : grid0.Coords) : Affine.IsInt (wbaseW L) ((32 * (61 * wid L) : Nat) : Int) := by
  have h0 : (L 0).val < 2 := (L 0).isLt
  have h1 : (L 1).val < 16 := (L 1).isLt
  have a1 : Affine.IsInt (BitVec.ofNat 32 (L 1).val) (((L 1).val : Nat) : Int) := Affine.ofNat _ ⟨rfl, by omega⟩
  have a0 : Affine.IsInt (BitVec.ofNat 32 (L 0).val) (((L 0).val : Nat) : Int) := Affine.ofNat _ ⟨rfl, by omega⟩
  have c2 : Affine.IsInt 2#32 2 := Affine.ofNat _ (by omega)
  have c1952 : Affine.IsInt 1952#32 1952 := Affine.ofNat _ (by omega)
  have v0 := Affine.muli a1 c2 ⟨rfl, by omega, by omega⟩
  have v1 := Affine.addi v0 a0 ⟨rfl, by omega, by omega⟩
  have v2 := Affine.muli v1 c1952 ⟨rfl, by omega, by omega⟩
  refine Affine.relit v2 ?_
  unfold wid
  omega

/-- The first patch of chunk `3t + c` of the tile. -/
theorem chunkW_isInt (L : grid0.Coords) (t c : Nat) (ht : t < 20) (hc : c < 3) :
    Affine.IsInt (Scalar.addi (wbaseW L) (Scalar.muli (Scalar.addi (Scalar.addi 0#32 (Scalar.muli (Scf.iv 0#32 1#32 t) 3#32)) (BitVec.ofNat 32 c)) 32#32))
      ((32 * (61 * wid L + 3 * t + c) : Nat) : Int) := by
  have hw := wid_lt L
  have c0 : Affine.IsInt 0#32 0 := Affine.ofNat _ (by omega)
  have c1 : Affine.IsInt 1#32 1 := Affine.ofNat _ (by omega)
  have c3 : Affine.IsInt 3#32 3 := Affine.ofNat _ (by omega)
  have c32 : Affine.IsInt 32#32 32 := Affine.ofNat _ (by omega)
  have cc : Affine.IsInt (BitVec.ofNat 32 c) ((c : Nat) : Int) := Affine.ofNat _ ⟨rfl, by omega⟩
  have a13 : Affine.IsInt (Scf.iv 0#32 1#32 t) ((t : Nat) : Int) := Affine.iv c0 c1 t (by omega)
  have v48 := Affine.muli a13 c3 ⟨rfl, by omega, by omega⟩
  have v49 := Affine.addi c0 v48 ⟨rfl, by omega, by omega⟩
  have v50 := Affine.addi v49 cc ⟨rfl, by omega, by omega⟩
  have v62 := Affine.muli v50 c32 ⟨rfl, by omega, by omega⟩
  have v63 := Affine.addi (wbaseW_isInt L) v62 ⟨rfl, by omega, by omega⟩
  exact Affine.relit v63 (by omega)

/-- The first patch of chunk 60 of the tile. -/
theorem lastW_isInt (L : grid0.Coords) :
    Affine.IsInt (Scalar.addi (wbaseW L) (Scalar.muli 60#32 32#32)) ((32 * (61 * wid L + 60) : Nat) : Int) := by
  have hw := wid_lt L
  have c60 : Affine.IsInt 60#32 60 := Affine.ofNat _ (by omega)
  have c32 : Affine.IsInt 32#32 32 := Affine.ofNat _ (by omega)
  have v48 := Affine.muli c60 c32 ⟨rfl, by omega, by omega⟩
  have v49 := Affine.addi (wbaseW_isInt L) v48 ⟨rfl, by omega, by omega⟩
  exact Affine.relit v49 (by omega)

/-- The row of the chunk. -/
theorem rowW_isInt (j : Nat) (hj : j < 32) :
    Affine.IsInt (Scalar.addi 0#32 (Scalar.muli (Scf.iv 0#32 1#32 j) 1#32)) ((j : Nat) : Int) := by
  have c0 : Affine.IsInt 0#32 0 := Affine.ofNat _ (by omega)
  have c1 : Affine.IsInt 1#32 1 := Affine.ofNat _ (by omega)
  have a14 : Affine.IsInt (Scf.iv 0#32 1#32 j) ((j : Nat) : Int) := Affine.iv c0 c1 j (by omega)
  have v81 := Affine.muli a14 c1 ⟨rfl, by omega, by omega⟩
  have v82 := Affine.addi c0 v81 ⟨rfl, by omega, by omega⟩
  exact Affine.relit v82 (by omega)

/-- The window position over the definitions of the tile. -/
theorem slabN_eq (L : grid0.Coords) (n : Nat) : slabN (wid L) n = slabOff L n := by
  unfold slabN slabOff wstart wbase
  have : 32 * (61 * wid L) = 1952 * wid L := by omega
  rw [this]

theorem trips_t1 : k0_t1_loop.trips = 20 := by decide
theorem trips_t2 : k0_t2_loop.trips = 32 := by decide
theorem trips_t3 : k0_t3_loop.trips = 32 := by decide
theorem trips_t4 : k0_t4_loop.trips = 32 := by decide
theorem trips_t5 : k0_t5_loop.trips = 32 := by decide
theorem trips_t6 : k0_t6_loop.trips = 17 := by decide
theorem trips_t7 : k0_t7_loop.trips = 20 := by decide
theorem trips_t8 : k0_t8_loop.trips = 32 := by decide
theorem trips_t9 : k0_t9_loop.trips = 32 := by decide
theorem trips_t10 : k0_t10_loop.trips = 32 := by decide
theorem trips_t11 : k0_t11_loop.trips = 32 := by decide
theorem trips_t12 : k0_t12_loop.trips = 17 := by decide

/-! ### The first image's pass -/

theorem off3_eq : ∀ (L : grid0.Coords) (k : Fin k0_t1_loop.trips) (jj : Fin k0_t2_loop.trips), k0_cond1 L k = 1#1 → ∀ (r₁ : Fin 3) (r₂ : Fin 16),
    k0_off3 L k jj (BitVec.ofNat 32 (16384 * r₁.val)) (BitVec.ofNat 32 (512 * r₂.val))
      = ![slabOff L (wbase L + 96 * k.val + jj.val) + 16384 * r₁.val + 512 * r₂.val] := by
  intro L k jj _ r₁ r₂
  have hk : k.val < 20 := Nat.lt_of_lt_of_le k.isLt (Nat.le_of_eq trips_t1)
  have hj : jj.val < 32 := Nat.lt_of_lt_of_le jj.isLt (Nat.le_of_eq trips_t2)
  have hw := wid_lt L
  have h := slabW_isInt (wbaseW_isInt L) (chunkW_isInt L k.val 0 hk (by omega)) (rowW_isInt jj.val hj) r₁ r₂ (by omega) (by omega) hj
  have e : 32 * (61 * wid L + 3 * k.val + 0) + jj.val = wbase L + 96 * k.val + jj.val := by unfold wbase; omega
  rw [slabN_eq, e] at h
  exact Affine.vec_cons h rfl Affine.vec_nil

theorem off54_eq : ∀ (L : grid0.Coords) (k : Fin k0_t1_loop.trips) (jj : Fin k0_t3_loop.trips), k0_cond3 L k = 1#1 → ∀ (r₁ : Fin 3) (r₂ : Fin 16),
    k0_off54 L k jj (BitVec.ofNat 32 (16384 * r₁.val)) (BitVec.ofNat 32 (512 * r₂.val))
      = ![slabOff L (wbase L + 96 * k.val + 32 + jj.val) + 16384 * r₁.val + 512 * r₂.val] := by
  intro L k jj _ r₁ r₂
  have hk : k.val < 20 := Nat.lt_of_lt_of_le k.isLt (Nat.le_of_eq trips_t1)
  have hj : jj.val < 32 := Nat.lt_of_lt_of_le jj.isLt (Nat.le_of_eq trips_t3)
  have hw := wid_lt L
  have h := slabW_isInt (wbaseW_isInt L) (chunkW_isInt L k.val 1 hk (by omega)) (rowW_isInt jj.val hj) r₁ r₂ (by omega) (by omega) hj
  have e : 32 * (61 * wid L + 3 * k.val + 1) + jj.val = wbase L + 96 * k.val + 32 + jj.val := by unfold wbase; omega
  rw [slabN_eq, e] at h
  exact Affine.vec_cons h rfl Affine.vec_nil

theorem off105_eq : ∀ (L : grid0.Coords) (k : Fin k0_t1_loop.trips) (jj : Fin k0_t4_loop.trips), k0_cond5 L k = 1#1 → ∀ (r₁ : Fin 3) (r₂ : Fin 16),
    k0_off105 L k jj (BitVec.ofNat 32 (16384 * r₁.val)) (BitVec.ofNat 32 (512 * r₂.val))
      = ![slabOff L (wbase L + 96 * k.val + 64 + jj.val) + 16384 * r₁.val + 512 * r₂.val] := by
  intro L k jj _ r₁ r₂
  have hk : k.val < 20 := Nat.lt_of_lt_of_le k.isLt (Nat.le_of_eq trips_t1)
  have hj : jj.val < 32 := Nat.lt_of_lt_of_le jj.isLt (Nat.le_of_eq trips_t4)
  have hw := wid_lt L
  have h := slabW_isInt (wbaseW_isInt L) (chunkW_isInt L k.val 2 hk (by omega)) (rowW_isInt jj.val hj) r₁ r₂ (by omega) (by omega) hj
  have e : 32 * (61 * wid L + 3 * k.val + 2) + jj.val = wbase L + 96 * k.val + 64 + jj.val := by unfold wbase; omega
  rw [slabN_eq, e] at h
  exact Affine.vec_cons h rfl Affine.vec_nil

theorem off156_eq : ∀ (L : grid0.Coords) (jj : Fin k0_t5_loop.trips), k0_cond7 L = 1#1 → ∀ (r₁ : Fin 3) (r₂ : Fin 16),
    k0_off156 L jj (BitVec.ofNat 32 (16384 * r₁.val)) (BitVec.ofNat 32 (512 * r₂.val))
      = ![slabOff L (wbase L + 1920 + jj.val) + 16384 * r₁.val + 512 * r₂.val] := by
  intro L jj _ r₁ r₂
  have hj : jj.val < 32 := Nat.lt_of_lt_of_le jj.isLt (Nat.le_of_eq trips_t5)
  have hw := wid_lt L
  have h := slabW_isInt (wbaseW_isInt L) (lastW_isInt L) (rowW_isInt jj.val hj) r₁ r₂ (by omega) (by omega) hj
  have e : 32 * (61 * wid L + 60) + jj.val = wbase L + 1920 + jj.val := by unfold wbase; omega
  rw [slabN_eq, e] at h
  exact Affine.vec_cons h rfl Affine.vec_nil

theorem off206_eq : ∀ (L : grid0.Coords) (jj : Fin k0_t6_loop.trips), k0_cond9 L = 1#1 → ∀ (r₁ : Fin 3) (r₂ : Fin 16),
    k0_off206 L jj (BitVec.ofNat 32 (16384 * r₁.val)) (BitVec.ofNat 32 (512 * r₂.val)) = ![slabOff L (61984 + jj.val) + 16384 * r₁.val + 512 * r₂.val] := by decide +kernel

/-! ### The second image's pass -/

theorem off256_eq : ∀ (L : grid0.Coords) (k : Fin k0_t7_loop.trips) (jj : Fin k0_t8_loop.trips), k0_cond10 L k = 1#1 → ∀ (r₁ : Fin 3) (r₂ : Fin 16),
    k0_off256 L k jj (BitVec.ofNat 32 (16384 * r₁.val)) (BitVec.ofNat 32 (512 * r₂.val))
      = ![slabOff L (wbase L + 96 * k.val + jj.val) + 16384 * r₁.val + 512 * r₂.val] := by
  intro L k jj _ r₁ r₂
  have hk : k.val < 20 := Nat.lt_of_lt_of_le k.isLt (Nat.le_of_eq trips_t7)
  have hj : jj.val < 32 := Nat.lt_of_lt_of_le jj.isLt (Nat.le_of_eq trips_t8)
  have hw := wid_lt L
  have h := slabW_isInt (wbaseW_isInt L) (chunkW_isInt L k.val 0 hk (by omega)) (rowW_isInt jj.val hj) r₁ r₂ (by omega) (by omega) hj
  have e : 32 * (61 * wid L + 3 * k.val + 0) + jj.val = wbase L + 96 * k.val + jj.val := by unfold wbase; omega
  rw [slabN_eq, e] at h
  exact Affine.vec_cons h rfl Affine.vec_nil

theorem off307_eq : ∀ (L : grid0.Coords) (k : Fin k0_t7_loop.trips) (jj : Fin k0_t9_loop.trips), k0_cond12 L k = 1#1 → ∀ (r₁ : Fin 3) (r₂ : Fin 16),
    k0_off307 L k jj (BitVec.ofNat 32 (16384 * r₁.val)) (BitVec.ofNat 32 (512 * r₂.val))
      = ![slabOff L (wbase L + 96 * k.val + 32 + jj.val) + 16384 * r₁.val + 512 * r₂.val] := by
  intro L k jj _ r₁ r₂
  have hk : k.val < 20 := Nat.lt_of_lt_of_le k.isLt (Nat.le_of_eq trips_t7)
  have hj : jj.val < 32 := Nat.lt_of_lt_of_le jj.isLt (Nat.le_of_eq trips_t9)
  have hw := wid_lt L
  have h := slabW_isInt (wbaseW_isInt L) (chunkW_isInt L k.val 1 hk (by omega)) (rowW_isInt jj.val hj) r₁ r₂ (by omega) (by omega) hj
  have e : 32 * (61 * wid L + 3 * k.val + 1) + jj.val = wbase L + 96 * k.val + 32 + jj.val := by unfold wbase; omega
  rw [slabN_eq, e] at h
  exact Affine.vec_cons h rfl Affine.vec_nil

theorem off358_eq : ∀ (L : grid0.Coords) (k : Fin k0_t7_loop.trips) (jj : Fin k0_t10_loop.trips), k0_cond14 L k = 1#1 → ∀ (r₁ : Fin 3) (r₂ : Fin 16),
    k0_off358 L k jj (BitVec.ofNat 32 (16384 * r₁.val)) (BitVec.ofNat 32 (512 * r₂.val))
      = ![slabOff L (wbase L + 96 * k.val + 64 + jj.val) + 16384 * r₁.val + 512 * r₂.val] := by
  intro L k jj _ r₁ r₂
  have hk : k.val < 20 := Nat.lt_of_lt_of_le k.isLt (Nat.le_of_eq trips_t7)
  have hj : jj.val < 32 := Nat.lt_of_lt_of_le jj.isLt (Nat.le_of_eq trips_t10)
  have hw := wid_lt L
  have h := slabW_isInt (wbaseW_isInt L) (chunkW_isInt L k.val 2 hk (by omega)) (rowW_isInt jj.val hj) r₁ r₂ (by omega) (by omega) hj
  have e : 32 * (61 * wid L + 3 * k.val + 2) + jj.val = wbase L + 96 * k.val + 64 + jj.val := by unfold wbase; omega
  rw [slabN_eq, e] at h
  exact Affine.vec_cons h rfl Affine.vec_nil

theorem off409_eq : ∀ (L : grid0.Coords) (jj : Fin k0_t11_loop.trips), k0_cond16 L = 1#1 → ∀ (r₁ : Fin 3) (r₂ : Fin 16),
    k0_off409 L jj (BitVec.ofNat 32 (16384 * r₁.val)) (BitVec.ofNat 32 (512 * r₂.val))
      = ![slabOff L (wbase L + 1920 + jj.val) + 16384 * r₁.val + 512 * r₂.val] := by
  intro L jj _ r₁ r₂
  have hj : jj.val < 32 := Nat.lt_of_lt_of_le jj.isLt (Nat.le_of_eq trips_t11)
  have hw := wid_lt L
  have h := slabW_isInt (wbaseW_isInt L) (lastW_isInt L) (rowW_isInt jj.val hj) r₁ r₂ (by omega) (by omega) hj
  have e : 32 * (61 * wid L + 60) + jj.val = wbase L + 1920 + jj.val := by unfold wbase; omega
  rw [slabN_eq, e] at h
  exact Affine.vec_cons h rfl Affine.vec_nil

theorem off459_eq : ∀ (L : grid0.Coords) (jj : Fin k0_t12_loop.trips), k0_cond18 L = 1#1 → ∀ (r₁ : Fin 3) (r₂ : Fin 16),
    k0_off459 L jj (BitVec.ofNat 32 (16384 * r₁.val)) (BitVec.ofNat 32 (512 * r₂.val)) = ![slabOff L (61984 + jj.val) + 16384 * r₁.val + 512 * r₂.val] := by decide +kernel

/-! ## The slab loads stay inside the slab -/

/-- The full chunks a tile writes are patches it owns. -/
theorem nch_le (L : grid0.Coords) : 32 * nch L ≤ nrows L := by
  unfold nch nrows
  split <;> omega

/-- A patch the tile owns begins at most 16 image rows into the window, so its 16 lanes of any of the 16 patch rows of
    any channel lie inside the slab. -/
theorem slab_inb (L : grid0.Coords) (row : ℕ) (h₁ : wbase L ≤ row) (h₂ : row < wbase L + nrows L) (r₁ : Fin 3) (r₂ : Fin 16) :
    slabOff L row + 16384 * r₁.val + 512 * r₂.val + 16 ≤ 49152 := by
  obtain ⟨hlo, hhi⟩ := window_ok L row h₁ h₂
  have hr₁ := r₁.isLt
  have hr₂ := r₂.isLt
  have hm : row % 249 < 249 := Nat.mod_lt _ (by omega)
  unfold slabOff
  omega

theorem k0_off3_inb : ∀ (i : grid0.Coords) (k0_t1 : Fin k0_t1_loop.trips) (k0_t2 : Fin k0_t2_loop.trips), ∀ (k0_h1 : k0_cond1 i k0_t1 = 1#1), ∀ (r₁ : Fin 3) (r₂ : Fin 16), ∀ a, (k0_off3 i k0_t1 k0_t2 (BitVec.ofNat 32 (16384 * r₁.val)) (BitVec.ofNat 32 (512 * r₂.val))) a + S16.size a ≤ S49152.size a := by
  intro i k0_t1 k0_t2 k0_h1 r₁ r₂ a
  have hc := (cond1_iff i k0_t1).mp k0_h1
  have hj : k0_t2.val < 32 := Nat.lt_of_lt_of_le k0_t2.isLt (Nat.le_of_eq trips_t2)
  have hn := nch_le i
  have h := slab_inb i (wbase i + 96 * k0_t1.val + k0_t2.val) (by omega) (by omega) r₁ r₂
  rw [off3_eq i k0_t1 k0_t2 k0_h1 r₁ r₂]
  match a with
  | ⟨0, _⟩ => exact h

theorem k0_off54_inb : ∀ (i : grid0.Coords) (k0_t1 : Fin k0_t1_loop.trips) (k0_t3 : Fin k0_t3_loop.trips), ∀ (k0_h3 : k0_cond3 i k0_t1 = 1#1), ∀ (r₁ : Fin 3) (r₂ : Fin 16), ∀ a, (k0_off54 i k0_t1 k0_t3 (BitVec.ofNat 32 (16384 * r₁.val)) (BitVec.ofNat 32 (512 * r₂.val))) a + S16.size a ≤ S49152.size a := by
  intro i k0_t1 k0_t3 k0_h3 r₁ r₂ a
  have hc := (cond3_iff i k0_t1).mp k0_h3
  have hj : k0_t3.val < 32 := Nat.lt_of_lt_of_le k0_t3.isLt (Nat.le_of_eq trips_t3)
  have hn := nch_le i
  have h := slab_inb i (wbase i + 96 * k0_t1.val + 32 + k0_t3.val) (by omega) (by omega) r₁ r₂
  rw [off54_eq i k0_t1 k0_t3 k0_h3 r₁ r₂]
  match a with
  | ⟨0, _⟩ => exact h

theorem k0_off105_inb : ∀ (i : grid0.Coords) (k0_t1 : Fin k0_t1_loop.trips) (k0_t4 : Fin k0_t4_loop.trips), ∀ (k0_h5 : k0_cond5 i k0_t1 = 1#1), ∀ (r₁ : Fin 3) (r₂ : Fin 16), ∀ a, (k0_off105 i k0_t1 k0_t4 (BitVec.ofNat 32 (16384 * r₁.val)) (BitVec.ofNat 32 (512 * r₂.val))) a + S16.size a ≤ S49152.size a := by
  intro i k0_t1 k0_t4 k0_h5 r₁ r₂ a
  have hc := (cond5_iff i k0_t1).mp k0_h5
  have hj : k0_t4.val < 32 := Nat.lt_of_lt_of_le k0_t4.isLt (Nat.le_of_eq trips_t4)
  have hn := nch_le i
  have h := slab_inb i (wbase i + 96 * k0_t1.val + 64 + k0_t4.val) (by omega) (by omega) r₁ r₂
  rw [off105_eq i k0_t1 k0_t4 k0_h5 r₁ r₂]
  match a with
  | ⟨0, _⟩ => exact h

theorem k0_off156_inb : ∀ (i : grid0.Coords) (k0_t5 : Fin k0_t5_loop.trips), ∀ (k0_h7 : k0_cond7 i = 1#1), ∀ (r₁ : Fin 3) (r₂ : Fin 16), ∀ a, (k0_off156 i k0_t5 (BitVec.ofNat 32 (16384 * r₁.val)) (BitVec.ofNat 32 (512 * r₂.val))) a + S16.size a ≤ S49152.size a := by
  intro i k0_t5 k0_h7 r₁ r₂ a
  have hc := (cond7_iff i).mp k0_h7
  have hj : k0_t5.val < 32 := Nat.lt_of_lt_of_le k0_t5.isLt (Nat.le_of_eq trips_t5)
  have hn : nrows i = 1952 := by unfold nrows; rw [if_neg hc]
  have h := slab_inb i (wbase i + 1920 + k0_t5.val) (by omega) (by omega) r₁ r₂
  rw [off156_eq i k0_t5 k0_h7 r₁ r₂]
  match a with
  | ⟨0, _⟩ => exact h

theorem k0_off206_inb : ∀ (i : grid0.Coords) (k0_t6 : Fin k0_t6_loop.trips), ∀ (k0_h9 : k0_cond9 i = 1#1), ∀ (r₁ : Fin 3) (r₂ : Fin 16), ∀ a, (k0_off206 i k0_t6 (BitVec.ofNat 32 (16384 * r₁.val)) (BitVec.ofNat 32 (512 * r₂.val))) a + S16.size a ≤ S49152.size a := by
  intro i k0_t6 k0_h9 r₁ r₂ a
  have hc := (cond9_iff i).mp k0_h9
  have hj : k0_t6.val < 17 := Nat.lt_of_lt_of_le k0_t6.isLt (Nat.le_of_eq trips_t6)
  have hn : nrows i = 1489 := by unfold nrows; rw [if_pos hc]
  have hb : wbase i = 60512 := by unfold wbase; rw [hc]
  have h := slab_inb i (61984 + k0_t6.val) (by omega) (by omega) r₁ r₂
  rw [off206_eq i k0_t6 k0_h9 r₁ r₂]
  match a with
  | ⟨0, _⟩ => exact h

theorem k0_off256_inb : ∀ (i : grid0.Coords) (k0_t7 : Fin k0_t7_loop.trips) (k0_t8 : Fin k0_t8_loop.trips), ∀ (k0_h10 : k0_cond10 i k0_t7 = 1#1), ∀ (r₁ : Fin 3) (r₂ : Fin 16), ∀ a, (k0_off256 i k0_t7 k0_t8 (BitVec.ofNat 32 (16384 * r₁.val)) (BitVec.ofNat 32 (512 * r₂.val))) a + S16.size a ≤ S49152.size a := by
  intro i k0_t7 k0_t8 k0_h10 r₁ r₂ a
  have hc := (cond10_iff i k0_t7).mp k0_h10
  have hj : k0_t8.val < 32 := Nat.lt_of_lt_of_le k0_t8.isLt (Nat.le_of_eq trips_t8)
  have hn := nch_le i
  have h := slab_inb i (wbase i + 96 * k0_t7.val + k0_t8.val) (by omega) (by omega) r₁ r₂
  rw [off256_eq i k0_t7 k0_t8 k0_h10 r₁ r₂]
  match a with
  | ⟨0, _⟩ => exact h

theorem k0_off307_inb : ∀ (i : grid0.Coords) (k0_t7 : Fin k0_t7_loop.trips) (k0_t9 : Fin k0_t9_loop.trips), ∀ (k0_h12 : k0_cond12 i k0_t7 = 1#1), ∀ (r₁ : Fin 3) (r₂ : Fin 16), ∀ a, (k0_off307 i k0_t7 k0_t9 (BitVec.ofNat 32 (16384 * r₁.val)) (BitVec.ofNat 32 (512 * r₂.val))) a + S16.size a ≤ S49152.size a := by
  intro i k0_t7 k0_t9 k0_h12 r₁ r₂ a
  have hc := (cond12_iff i k0_t7).mp k0_h12
  have hj : k0_t9.val < 32 := Nat.lt_of_lt_of_le k0_t9.isLt (Nat.le_of_eq trips_t9)
  have hn := nch_le i
  have h := slab_inb i (wbase i + 96 * k0_t7.val + 32 + k0_t9.val) (by omega) (by omega) r₁ r₂
  rw [off307_eq i k0_t7 k0_t9 k0_h12 r₁ r₂]
  match a with
  | ⟨0, _⟩ => exact h

theorem k0_off358_inb : ∀ (i : grid0.Coords) (k0_t7 : Fin k0_t7_loop.trips) (k0_t10 : Fin k0_t10_loop.trips), ∀ (k0_h14 : k0_cond14 i k0_t7 = 1#1), ∀ (r₁ : Fin 3) (r₂ : Fin 16), ∀ a, (k0_off358 i k0_t7 k0_t10 (BitVec.ofNat 32 (16384 * r₁.val)) (BitVec.ofNat 32 (512 * r₂.val))) a + S16.size a ≤ S49152.size a := by
  intro i k0_t7 k0_t10 k0_h14 r₁ r₂ a
  have hc := (cond14_iff i k0_t7).mp k0_h14
  have hj : k0_t10.val < 32 := Nat.lt_of_lt_of_le k0_t10.isLt (Nat.le_of_eq trips_t10)
  have hn := nch_le i
  have h := slab_inb i (wbase i + 96 * k0_t7.val + 64 + k0_t10.val) (by omega) (by omega) r₁ r₂
  rw [off358_eq i k0_t7 k0_t10 k0_h14 r₁ r₂]
  match a with
  | ⟨0, _⟩ => exact h

theorem k0_off409_inb : ∀ (i : grid0.Coords) (k0_t11 : Fin k0_t11_loop.trips), ∀ (k0_h16 : k0_cond16 i = 1#1), ∀ (r₁ : Fin 3) (r₂ : Fin 16), ∀ a, (k0_off409 i k0_t11 (BitVec.ofNat 32 (16384 * r₁.val)) (BitVec.ofNat 32 (512 * r₂.val))) a + S16.size a ≤ S49152.size a := by
  intro i k0_t11 k0_h16 r₁ r₂ a
  have hc := (cond16_iff i).mp k0_h16
  have hj : k0_t11.val < 32 := Nat.lt_of_lt_of_le k0_t11.isLt (Nat.le_of_eq trips_t11)
  have hn : nrows i = 1952 := by unfold nrows; rw [if_neg hc]
  have h := slab_inb i (wbase i + 1920 + k0_t11.val) (by omega) (by omega) r₁ r₂
  rw [off409_eq i k0_t11 k0_h16 r₁ r₂]
  match a with
  | ⟨0, _⟩ => exact h

theorem k0_off459_inb : ∀ (i : grid0.Coords) (k0_t12 : Fin k0_t12_loop.trips), ∀ (k0_h18 : k0_cond18 i = 1#1), ∀ (r₁ : Fin 3) (r₂ : Fin 16), ∀ a, (k0_off459 i k0_t12 (BitVec.ofNat 32 (16384 * r₁.val)) (BitVec.ofNat 32 (512 * r₂.val))) a + S16.size a ≤ S49152.size a := by
  intro i k0_t12 k0_h18 r₁ r₂ a
  have hc := (cond18_iff i).mp k0_h18
  have hj : k0_t12.val < 17 := Nat.lt_of_lt_of_le k0_t12.isLt (Nat.le_of_eq trips_t12)
  have hn : nrows i = 1489 := by unfold nrows; rw [if_pos hc]
  have hb : wbase i = 60512 := by unfold wbase; rw [hc]
  have h := slab_inb i (61984 + k0_t12.val) (by omega) (by omega) r₁ r₂
  rw [off459_eq i k0_t12 k0_h18 r₁ r₂]
  match a with
  | ⟨0, _⟩ => exact h

end Cert.Proof.KB
-- ==== Proof.CommonBits.lean ====
/-
  The program as the SparseCore launch sees it, the ghost state, and the arrays' names: the two flattened images
  (read-only, shared by all thirty-two tiles), the two patches matrices (each tile owns a run of consecutive rows),
  and each tile's scratch (a window of 32 image rows per channel, and three staging buffers of 32 patches).
  Tile number `2·s + c` (subcore `s`, core `c`) owns patches `[1952·(2s + c), +1952)`, the last tile the
  remaining 1489.
-/
import proofs.«212940_g32057635897708_cont_8to1_b_1299_25_alg».proof.Defs
import proofs.«212940_g32057635897708_cont_8to1_b_1299_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212940_g32057635897708_cont_8to1_b_1299_25_alg».proof.Proof.BaseBits
import proofs.«212940_g32057635897708_cont_8to1_b_1299_25_alg».proof.Proof.FactsKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

/-! ## The arrays -/

/-- The two images as @main receives them, their flattenings, and the two results, as locations of device `d`. -/
abbrev a0Loc (d : Dev nD) : Loc nD τ sig := (SparseCore.T d).loc main_arg0
abbrev a1Loc (d : Dev nD) : Loc nD τ sig := (SparseCore.T d).loc main_arg1
abbrev x0Loc (d : Dev nD) : Loc nD τ sig := (SparseCore.T d).loc main_v0
abbrev x1Loc (d : Dev nD) : Loc nD τ sig := (SparseCore.T d).loc main_v1
abbrev o0Loc (d : Dev nD) : Loc nD τ sig := (SparseCore.T d).loc main_v2_0
abbrev o1Loc (d : Dev nD) : Loc nD τ sig := (SparseCore.T d).loc main_v2_1

/-! ## The tiles' rows -/

theorem tile_inb (L : grid0.Coords) : ∀ a, (![wbase L, 0] : Fin 2 → Nat) a + (![nrows L, 768] : Fin 2 → Nat) a ≤ S62001x768.size a := by
  have h := wid_lt L
  intro a
  match a with
  | ⟨0, _⟩ =>
    show wbase L + nrows L ≤ 62001
    unfold wbase nrows; split <;> omega
  | ⟨1, _⟩ => show 0 + 768 ≤ 768; omega

/-- The rows of the patches matrix a tile owns. -/
abbrev tileRect (L : grid0.Coords) : Rect S62001x768 := Rect.unit (s := S62001x768) ![wbase L, 0] ![nrows L, 768] (tile_inb L)
abbrev tileSet (L : grid0.Coords) : Finset S62001x768.Idx := (tileRect L).set

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's read share of an image: the core's token of the whole, then the subcore's token of that. -/
abbrev coreShare (c : Nat) : PosShare TreeShare := Transfers.shareTokN fullShare c
abbrev tileShare (c s : Nat) : PosShare TreeShare := Transfers.shareTokN (coreShare c) s

/-! ## A tile's thread, and what the launch hands it and takes back -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The patches matrix of a flattened image, as the contents of a result array. -/
def pat0 (d : Dev nD) (x : Buf (Elt F) (x0Loc d)) : Buf (Elt F) (o0Loc d) := Cert.Unfold.patchesFlat (α := Elt F .f32) x
def pat1 (d : Dev nD) (x : Buf (Elt F) (x1Loc d)) : Buf (Elt F) (o1Loc d) := Cert.Unfold.patchesFlat (α := Elt F .f32) x

section Res

local notation "𝕄" => MT nD τ sig (HIx 1) (Elt F) ℕ UU ℕ

/-- What a tile is handed: its read share of the two flattened images (at contents `x0`, `x1`) and its rows of the
    two results (at whatever they hold, `f0`, `f1`). -/
def goRes (d : Dev nD) (L : grid0.Coords) (x0 : Buf (Elt F) (x0Loc d)) (x1 : Buf (Elt F) (x1Loc d))
    (f0 : Buf (Elt F) (o0Loc d)) (f1 : Buf (Elt F) (o1Loc d)) : sProp 𝕄 :=
  iprop((x0Loc d ↦{tileShare (L 0).val (L 1).val} x0) ∗ (x1Loc d ↦{tileShare (L 0).val (L 1).val} x1)
    ∗ (o0Loc d ↦[tileSet L]{fullShare} f0) ∗ (o1Loc d ↦[tileSet L]{fullShare} f1))

/-- What it hands back: the shares unchanged, its rows of each result at the image's patches. -/
def tdRes (d : Dev nD) (L : grid0.Coords) (x0 : Buf (Elt F) (x0Loc d)) (x1 : Buf (Elt F) (x1Loc d)) : sProp 𝕄 :=
  iprop((x0Loc d ↦{tileShare (L 0).val (L 1).val} x0) ∗ (x1Loc d ↦{tileShare (L 0).val (L 1).val} x1)
    ∗ (o0Loc d ↦[tileSet L]{fullShare} pat0 d x0) ∗ (o1Loc d ↦[tileSet L]{fullShare} pat1 d x1))

end Res

end Cert.Proof.KB

end
-- ==== Proof.ChunksBits.lean ====
/-
  A tile's rows, cut as the task writes them: chunk `3j + p` (32 patches) goes through staging buffer `p`; buffer `p`
  carries `nIss L p` chunks in all; the last tile's remaining 17 patches go out as 16 rows and 1 row. The chunks and
  the tail pieces are pairwise disjoint and make up exactly the tile's rows.
-/
import proofs.«212940_g32057635897708_cont_8to1_b_1299_25_alg».proof.Proof.CommonBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- How many chunks staging buffer `p` carries: the `j` with `3j + p < nch L`. -/
def nIss (L : grid0.Coords) (p : Nat) : Nat := (nch L + 2 - p) / 3

/-- Of those, how many have been issued before trip `k` of the chunk loop. -/
def issued (L : grid0.Coords) (p k : Nat) : Nat := min k (nIss L p)

/-- The first patch of chunk `j` of buffer `p`. -/
def chunkRow (L : grid0.Coords) (p j : Nat) : Nat := wbase L + 32 * (3 * j + p)

/-- Chunk `j` of buffer `p` is one of the tile's `nch L` chunks. -/
theorem chunk_lt (L : grid0.Coords) (p j : Nat) (hj : j < nIss L p) : 3 * j + p < nch L := by
  unfold nIss at hj; omega

theorem chunk_inb (L : grid0.Coords) (p j : Nat) (hp : p < 3) (hj : j < nIss L p) :
    ∀ a, (![chunkRow L p j, 0] : Fin 2 → Nat) a + S32x768.size a ≤ S62001x768.size a := by
  have hw := wid_lt L
  have hc := chunk_lt L p j hj
  intro a
  match a with
  | ⟨0, _⟩ =>
    show chunkRow L p j + 32 ≤ 62001
    unfold nch at hc; unfold chunkRow wbase
    split at hc <;> omega
  | ⟨1, _⟩ => show 0 + 768 ≤ 768; omega

/-- The rows of chunk `j` of buffer `p` (the empty rectangle at the origin when `(p, j)` names no chunk, so that the
    family is total). -/
def chunkRect (L : grid0.Coords) (p j : Nat) : Rect S62001x768 :=
  if h : p < 3 ∧ j < nIss L p then Rect.unit (s := S62001x768) ![chunkRow L p j, 0] S32x768.size (chunk_inb L p j h.1 h.2)
  else Rect.unit (s := S62001x768) ![0, 0] ![0, 0] (by intro a; fin_cases a <;> simp)
def chunkSet (L : grid0.Coords) (p j : Nat) : Finset S62001x768.Idx := (chunkRect L p j).set

/-- The last tile's tail: patches 61984 … 61999 and patch 62000 (both empty for every other tile). -/
def tailSetA (L : grid0.Coords) : Finset S62001x768.Idx :=
  if wid L = 31 then (Rect.unit (s := S62001x768) ![61984, 0] S16x768.size inb_S62001x768_S16x768_61984_0).set else ∅
def tailSetB (L : grid0.Coords) : Finset S62001x768.Idx :=
  if wid L = 31 then (Rect.unit (s := S62001x768) ![62000, 0] S1x768.size inb_S62001x768_S1x768_62000_0).set else ∅

/-- All the chunks of one buffer. -/
def bufSet (L : grid0.Coords) (p : Nat) : Finset S62001x768.Idx := (Finset.range (nIss L p)).biUnion (chunkSet L p)

/-- A run of whole rows: membership is a condition on the row coordinate alone. -/
theorem mem_rows (off n : Nat) (size : Fin 2 → Nat) (h0 : size 0 = n) (h1 : size 1 = 768)
    (inb : ∀ a, (![off, 0] : Fin 2 → Nat) a + size a ≤ S62001x768.size a) (i : S62001x768.Idx) :
    i ∈ (Rect.unit (s := S62001x768) ![off, 0] size inb).set ↔ off ≤ (i 0).val ∧ (i 0).val < off + n := by
  have hi : (i 1).val < 768 := (i 1).isLt
  rw [Rect.mem_set_unit]
  constructor
  · intro h
    have := h 0
    rw [h0] at this
    exact this
  · intro h a
    match a with
    | ⟨0, _⟩ => show off ≤ (i 0).val ∧ (i 0).val < off + size 0; rw [h0]; exact h
    | ⟨1, _⟩ => show 0 ≤ (i 1).val ∧ (i 1).val < 0 + size 1; rw [h1]; omega

theorem mem_tileSet (L : grid0.Coords) (i : S62001x768.Idx) :
    i ∈ tileSet L ↔ wbase L ≤ (i 0).val ∧ (i 0).val < wbase L + nrows L :=
  mem_rows (wbase L) (nrows L) _ rfl rfl _ i

theorem mem_chunkSet (L : grid0.Coords) (p j : Nat) (i : S62001x768.Idx) :
    i ∈ chunkSet L p j ↔ (p < 3 ∧ j < nIss L p) ∧ chunkRow L p j ≤ (i 0).val ∧ (i 0).val < chunkRow L p j + 32 := by
  unfold chunkSet chunkRect
  by_cases h : p < 3 ∧ j < nIss L p
  · rw [dif_pos h, mem_rows (chunkRow L p j) 32 _ rfl rfl]
    exact ⟨fun h' => ⟨h, h'⟩, fun h' => h'.2⟩
  · rw [dif_neg h, Rect.mem_set_unit]
    constructor
    · intro h'
      have h2 : (i 0).val < 0 + 0 := (h' 0).2
      omega
    · intro h'; exact absurd h'.1 h

theorem mem_tailSetA (L : grid0.Coords) (i : S62001x768.Idx) :
    i ∈ tailSetA L ↔ wid L = 31 ∧ 61984 ≤ (i 0).val ∧ (i 0).val < 62000 := by
  unfold tailSetA
  by_cases h : wid L = 31
  · rw [if_pos h, mem_rows 61984 16 _ rfl rfl]
    constructor
    · intro h'; exact ⟨h, h'.1, by omega⟩
    · intro h'; exact ⟨h'.2.1, by omega⟩
  · rw [if_neg h]
    exact ⟨fun h' => absurd h' (Finset.notMem_empty _), fun h' => absurd h'.1 h⟩

theorem mem_tailSetB (L : grid0.Coords) (i : S62001x768.Idx) :
    i ∈ tailSetB L ↔ wid L = 31 ∧ (i 0).val = 62000 := by
  unfold tailSetB
  by_cases h : wid L = 31
  · rw [if_pos h, mem_rows 62000 1 _ rfl rfl]
    constructor
    · intro h'; exact ⟨h, by omega⟩
    · intro h'; omega
  · rw [if_neg h]
    exact ⟨fun h' => absurd h' (Finset.notMem_empty _), fun h' => absurd h'.1 h⟩

theorem mem_bufSet (L : grid0.Coords) (p : Nat) (i : S62001x768.Idx) :
    i ∈ bufSet L p ↔ ∃ j, j < nIss L p ∧ i ∈ chunkSet L p j := by
  unfold bufSet
  simp only [Finset.mem_biUnion, Finset.mem_range]

theorem chunks_disjoint (L : grid0.Coords) (p : Nat) :
    ∀ j ∈ Finset.range (nIss L p), ∀ j' ∈ Finset.range (nIss L p), j ≠ j' → Disjoint (chunkSet L p j) (chunkSet L p j') := by
  intro j _ j' _ hne
  rw [Finset.disjoint_left]
  intro i h h'
  rw [mem_chunkSet] at h h'
  unfold chunkRow at h h'
  omega

theorem bufs_disjoint (L : grid0.Coords) :
    ∀ p ∈ Finset.range 3, ∀ p' ∈ Finset.range 3, p ≠ p' → Disjoint (bufSet L p) (bufSet L p') := by
  intro p _ p' _ hne
  rw [Finset.disjoint_left]
  intro i h h'
  rw [mem_bufSet] at h h'
  obtain ⟨j, _, h⟩ := h
  obtain ⟨j', _, h'⟩ := h'
  rw [mem_chunkSet] at h h'
  unfold chunkRow at h h'
  omega

/-- Membership in the union of all the chunks, on the row coordinate: the row's chunk number is below `nch L`. -/
theorem mem_allChunks (L : grid0.Coords) (i : S62001x768.Idx) :
    i ∈ (Finset.range 3).biUnion (bufSet L) ↔ wbase L ≤ (i 0).val ∧ (i 0).val < wbase L + 32 * nch L := by
  simp only [Finset.mem_biUnion, Finset.mem_range, mem_bufSet, mem_chunkSet]
  constructor
  · rintro ⟨p, _, j, hj, _, h⟩
    have hc := chunk_lt L p j hj
    unfold chunkRow at h
    omega
  · intro h
    refine ⟨((i 0).val - wbase L) / 32 % 3, by omega, ((i 0).val - wbase L) / 32 / 3, ?_, ⟨by omega, ?_⟩, ?_⟩
    · unfold nIss; omega
    · unfold nIss; omega
    · unfold chunkRow; omega

theorem tile_cover (L : grid0.Coords) :
    tileSet L = (Finset.range 3).biUnion (bufSet L) ∪ (tailSetA L ∪ tailSetB L) := by
  have hw := wid_lt L
  ext i
  rw [Finset.mem_union, Finset.mem_union, mem_allChunks, mem_tailSetA, mem_tailSetB, mem_tileSet]
  unfold nrows nch wbase
  split <;> omega

theorem tail_disjoint (L : grid0.Coords) :
    Disjoint ((Finset.range 3).biUnion (bufSet L)) (tailSetA L ∪ tailSetB L) ∧ Disjoint (tailSetA L) (tailSetB L) := by
  constructor
  · rw [Finset.disjoint_left]
    intro i h h'
    rw [mem_allChunks] at h
    rw [Finset.mem_union, mem_tailSetA, mem_tailSetB] at h'
    unfold nch wbase at h
    split at h <;> omega
  · rw [Finset.disjoint_left]
    intro i h h'
    rw [mem_tailSetA] at h
    rw [mem_tailSetB] at h'
    omega

section Pts

local notation "𝕄" => MT nD τ sig (HIx 1) (Elt F) ℕ UU ℕ

/-- A points-to over a set cut into three families of pairwise disjoint pieces and two further pieces, all disjoint,
    is the separating conjunction of the pieces' points-tos. -/
theorem pointsTo_split3 {ℓ : Loc nD τ sig} {q : PosShare TreeShare} (f : Buf (Elt F) ℓ)
    (T A A' : Finset (Idx ℓ)) (B : Nat → Finset (Idx ℓ)) (C : Nat → Nat → Finset (Idx ℓ)) (n : Nat → Nat)
    (hcov : T = (Finset.range 3).biUnion B ∪ (A ∪ A'))
    (hB : ∀ p, B p = (Finset.range (n p)).biUnion (C p))
    (hdC : ∀ p, ∀ j ∈ Finset.range (n p), ∀ j' ∈ Finset.range (n p), j ≠ j' → Disjoint (C p j) (C p j'))
    (hdB : ∀ p ∈ Finset.range 3, ∀ p' ∈ Finset.range 3, p ≠ p' → Disjoint (B p) (B p'))
    (hdT : Disjoint ((Finset.range 3).biUnion B) (A ∪ A')) (hdA : Disjoint A A') :
    (ℓ ↦[T]{q} f : sProp 𝕄)
      = iprop((bigSep (Finset.range 3) fun p => bigSep (Finset.range (n p)) fun j => ℓ ↦[C p j]{q} f)
          ∗ (ℓ ↦[A]{q} f) ∗ (ℓ ↦[A']{q} f)) := by
  have hb : (bigSep (Finset.range 3) fun p => (ℓ ↦[B p]{q} f : sProp 𝕄))
      = bigSep (Finset.range 3) fun p => bigSep (Finset.range (n p)) fun j => ℓ ↦[C p j]{q} f :=
    bigSep_congr fun p _ => by rw [hB p]; exact pointsTo_biUnion (Finset.range (n p)) (C p) (hdC p)
  have hT : (ℓ ↦[(Finset.range 3).biUnion B ∪ (A ∪ A')]{q} f : sProp 𝕄)
      ⊣⊢ iprop((ℓ ↦[(Finset.range 3).biUnion B]{q} f) ∗ ℓ ↦[A ∪ A']{q} f) := pointsTo_union hdT
  have hA : (ℓ ↦[A ∪ A']{q} f : sProp 𝕄) ⊣⊢ iprop((ℓ ↦[A]{q} f) ∗ ℓ ↦[A']{q} f) := pointsTo_union hdA
  rw [hcov, BI.equiv_iff.mp ⟨hT.1, hT.2⟩, BI.equiv_iff.mp ⟨hA.1, hA.2⟩,
    pointsTo_biUnion (Finset.range 3) B hdB, hb]

/-- A tile's rows of a result array are its chunks', buffer by buffer, and its tail pieces' (an equation: it splits and it joins). -/
theorem tile_split0 (d : Dev nD) (L : grid0.Coords) (f : Buf (Elt F) (o0Loc d)) :
    (o0Loc d ↦[tileSet L]{fullShare} f : sProp 𝕄)
      = iprop((bigSep (Finset.range 3) fun p => bigSep (Finset.range (nIss L p)) fun j => o0Loc d ↦[chunkSet L p j]{fullShare} f)
          ∗ (o0Loc d ↦[tailSetA L]{fullShare} f) ∗ (o0Loc d ↦[tailSetB L]{fullShare} f)) :=
  pointsTo_split3 f (tileSet L) (tailSetA L) (tailSetB L) (bufSet L) (chunkSet L) (nIss L) (tile_cover L) (fun _ => rfl)
    (chunks_disjoint L) (bufs_disjoint L) (tail_disjoint L).1 (tail_disjoint L).2

theorem tile_split1 (d : Dev nD) (L : grid0.Coords) (f : Buf (Elt F) (o1Loc d)) :
    (o1Loc d ↦[tileSet L]{fullShare} f : sProp 𝕄)
      = iprop((bigSep (Finset.range 3) fun p => bigSep (Finset.range (nIss L p)) fun j => o1Loc d ↦[chunkSet L p j]{fullShare} f)
          ∗ (o1Loc d ↦[tailSetA L]{fullShare} f) ∗ (o1Loc d ↦[tailSetB L]{fullShare} f)) :=
  pointsTo_split3 f (tileSet L) (tailSetA L) (tailSetB L) (bufSet L) (chunkSet L) (nIss L) (tile_cover L) (fun _ => rfl)
    (chunks_disjoint L) (bufs_disjoint L) (tail_disjoint L).1 (tail_disjoint L).2

end Pts

end Cert.Proof.KB

end
-- ==== Proof.InvBits.lean ====
/-
  The invariants of the tile's loops.
  A row loop (32 patches into one staging buffer): the slab holds the image window; rows below the trip of the
  buffer hold the patches from `row0`.
  The chunk loop, per staging buffer `p`: the chunks it has issued and seen land hold the patches; the last one it
  issued is in flight on the buffer's semaphore (the flight delivers the chunk's rows at the landed contents and the
  buffer back); the chunks it has not reached hold what they held.
-/
import proofs.«212940_g32057635897708_cont_8to1_b_1299_25_alg».proof.Proof.CommonBits
import proofs.«212940_g32057635897708_cont_8to1_b_1299_25_alg».proof.Proof.ChunksBits
import proofs.«212940_g32057635897708_cont_8to1_b_1299_25_alg».proof.Proof.Val

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)

/-- The tile's DMA semaphore number `k`. -/
abbrev dsem (k : Nat) (hk : k < 13 := by decide) : DmaSem sig := ⟨k, hk⟩

/-- The slab at the window of the flattened image `x`, filled below position `N`. -/
def slabInv (x : Cert.Unfold.SFlat.Idx → Elt F .f32) (N : Nat) : sProp 𝕄 :=
  iprop(∃ g : Buf (Elt F) ((slabV).view.loc (VT d L)), ⌜SlabUpTo (α := Elt F .f32) ((slabV).view.read (Elt F) g) x (wstart L) N⌝
    ∗ (slabV).view.loc (VT d L) ↦[(slabV).view.set]{fullShare} g)

/-- The first row of chunk `(p, j)`, clamped into the array so that the rectangle below is total. -/
def chunkRowC (p j : Nat) : Nat := min (chunkRow L p j) 61969

theorem chunkC_inb (p j : Nat) : ∀ a, (![chunkRowC L p j, 0] : Fin 2 → Nat) a + S32x768.size a ≤ S62001x768.size a := by
  have h : chunkRowC L p j ≤ 61969 := Nat.min_le_right _ _
  intro a
  match a with
  | ⟨0, _⟩ => show chunkRowC L p j + 32 ≤ 62001; omega
  | ⟨1, _⟩ => show 0 + 768 ≤ 768; omega

/-- Chunk `(p, j)` of a result array, as a memref: what the task copies staging buffer `p` into. -/
abbrev chunkMem (oV : Memref sig .scVector .hbm S62001x768 .f32) (p j : Nat) : Memref sig .scVector .hbm S32x768 .f32 :=
  oV.slice (Rect.unit (s := S62001x768) ![chunkRowC L p j, 0] S32x768.size (chunkC_inb L p j)) (fun _ => rfl)

/-! ### Staging buffer 0 -/

/-- Rows below `n` of staging buffer 0 hold the patches of `x` from `row0`. -/
def bufRows0 (x : Cert.Unfold.SFlat.Idx → Elt F .f32) (row0 n : Nat) : sProp 𝕄 :=
  iprop(∃ t : Buf (Elt F) ((b0V).view.loc (VT d L)), ⌜RowsDone (α := Elt F .f32) ((b0V).view.read (Elt F) t) x row0 n⌝
    ∗ (b0V).view.loc (VT d L) ↦[(b0V).view.set]{fullShare} t)

/-- The invariant of a row loop filling staging buffer 0, before trip `jj`. -/
def rowInv0 (x : Cert.Unfold.SFlat.Idx → Elt F .f32) (row0 : Nat) (jj : Nat) (_ : PUnit) : sProp 𝕄 :=
  iprop(slabInv d L x 49152 ∗ bufRows0 d L x row0 jj)

/-- Staging buffer 0 at rest: held, whatever it holds; its semaphore at zero. -/
def bufIdle0 : sProp 𝕄 :=
  iprop((∃ t : Buf (Elt F) ((b0V).view.loc (VT d L)), (b0V).view.loc (VT d L) ↦[(b0V).view.set]{fullShare} t)
    ∗ semVal (VT d L, SemLoc.dma (dsem 0)) 0)

/-- Staging buffer 0 copying chunk `(0, j)` of result 0 out: the transfer in flight on its semaphore delivers the chunk's
    rows at the buffer's contents (which are the patches) over what they held, and the buffer back. -/
def bufFlying0_0 (x : Buf (Elt F) (x0Loc d)) (f : Buf (Elt F) (o0Loc d)) (j : Nat) : sProp 𝕄 :=
  iprop(∃ t : Buf (Elt F) ((b0V).view.loc (VT d L)), ⌜RowsDone (α := Elt F .f32) ((b0V).view.read (Elt F) t) x (chunkRow L 0 j) 32⌝
    ∗ Transfers.Flight (countersEmb (U := UU)) (VT d L) (.dma (dsem 0)) (none : HIx 1)
        ((chunkMem L o0V 0 j).view.amount (SemLoc.dma (sig := sig) (dsem 0)))
        iprop(((chunkMem L o0V 0 j).view.loc (VT d L) ↦[(chunkMem L o0V 0 j).view.set]{fullShare}
                (chunkMem L o0V 0 j).view.writes (Elt F) f [⟨Rect.whole S32x768, ReadAs.same.apply ((b0V).view.read (Elt F) t)⟩])
              ∗ ((b0V).view.loc (VT d L) ↦[(b0V).view.set]{fullShare} t)))

/-- Staging buffer 0 before trip `k` of the chunk loop of the pass that writes result 0 (its rows holding `f` at the start)
    from the flattened image `x`: its landed chunks hold the patches, its last issued chunk is in flight, the chunks to come hold `f`. -/
def bufState0_0 (x : Buf (Elt F) (x0Loc d)) (f : Buf (Elt F) (o0Loc d)) (k : Nat) : sProp 𝕄 :=
  iprop((bigSep (Finset.range (issued L 0 k - 1)) fun j => o0Loc d ↦[chunkSet L 0 j]{fullShare} pat0 d x)
    ∗ (bigSep (Finset.Ico (issued L 0 k) (nIss L 0)) fun j => o0Loc d ↦[chunkSet L 0 j]{fullShare} f)
    ∗ (if issued L 0 k = 0 then bufIdle0 d L else bufFlying0_0 d L x f (issued L 0 k - 1)))

/-- Staging buffer 0 copying chunk `(0, j)` of result 1 out: the transfer in flight on its semaphore delivers the chunk's
    rows at the buffer's contents (which are the patches) over what they held, and the buffer back. -/
def bufFlying1_0 (x : Buf (Elt F) (x1Loc d)) (f : Buf (Elt F) (o1Loc d)) (j : Nat) : sProp 𝕄 :=
  iprop(∃ t : Buf (Elt F) ((b0V).view.loc (VT d L)), ⌜RowsDone (α := Elt F .f32) ((b0V).view.read (Elt F) t) x (chunkRow L 0 j) 32⌝
    ∗ Transfers.Flight (countersEmb (U := UU)) (VT d L) (.dma (dsem 0)) (none : HIx 1)
        ((chunkMem L o1V 0 j).view.amount (SemLoc.dma (sig := sig) (dsem 0)))
        iprop(((chunkMem L o1V 0 j).view.loc (VT d L) ↦[(chunkMem L o1V 0 j).view.set]{fullShare}
                (chunkMem L o1V 0 j).view.writes (Elt F) f [⟨Rect.whole S32x768, ReadAs.same.apply ((b0V).view.read (Elt F) t)⟩])
              ∗ ((b0V).view.loc (VT d L) ↦[(b0V).view.set]{fullShare} t)))

/-- Staging buffer 0 before trip `k` of the chunk loop of the pass that writes result 1 (its rows holding `f` at the start)
    from the flattened image `x`: its landed chunks hold the patches, its last issued chunk is in flight, the chunks to come hold `f`. -/
def bufState1_0 (x : Buf (Elt F) (x1Loc d)) (f : Buf (Elt F) (o1Loc d)) (k : Nat) : sProp 𝕄 :=
  iprop((bigSep (Finset.range (issued L 0 k - 1)) fun j => o1Loc d ↦[chunkSet L 0 j]{fullShare} pat1 d x)
    ∗ (bigSep (Finset.Ico (issued L 0 k) (nIss L 0)) fun j => o1Loc d ↦[chunkSet L 0 j]{fullShare} f)
    ∗ (if issued L 0 k = 0 then bufIdle0 d L else bufFlying1_0 d L x f (issued L 0 k - 1)))

/-! ### Staging buffer 1 -/

/-- Rows below `n` of staging buffer 1 hold the patches of `x` from `row0`. -/
def bufRows1 (x : Cert.Unfold.SFlat.Idx → Elt F .f32) (row0 n : Nat) : sProp 𝕄 :=
  iprop(∃ t : Buf (Elt F) ((b1V).view.loc (VT d L)), ⌜RowsDone (α := Elt F .f32) ((b1V).view.read (Elt F) t) x row0 n⌝
    ∗ (b1V).view.loc (VT d L) ↦[(b1V).view.set]{fullShare} t)

/-- The invariant of a row loop filling staging buffer 1, before trip `jj`. -/
def rowInv1 (x : Cert.Unfold.SFlat.Idx → Elt F .f32) (row0 : Nat) (jj : Nat) (_ : PUnit) : sProp 𝕄 :=
  iprop(slabInv d L x 49152 ∗ bufRows1 d L x row0 jj)

/-- Staging buffer 1 at rest: held, whatever it holds; its semaphore at zero. -/
def bufIdle1 : sProp 𝕄 :=
  iprop((∃ t : Buf (Elt F) ((b1V).view.loc (VT d L)), (b1V).view.loc (VT d L) ↦[(b1V).view.set]{fullShare} t)
    ∗ semVal (VT d L, SemLoc.dma (dsem 1)) 0)

/-- Staging buffer 1 copying chunk `(1, j)` of result 0 out: the transfer in flight on its semaphore delivers the chunk's
    rows at the buffer's contents (which are the patches) over what they held, and the buffer back. -/
def bufFlying0_1 (x : Buf (Elt F) (x0Loc d)) (f : Buf (Elt F) (o0Loc d)) (j : Nat) : sProp 𝕄 :=
  iprop(∃ t : Buf (Elt F) ((b1V).view.loc (VT d L)), ⌜RowsDone (α := Elt F .f32) ((b1V).view.read (Elt F) t) x (chunkRow L 1 j) 32⌝
    ∗ Transfers.Flight (countersEmb (U := UU)) (VT d L) (.dma (dsem 1)) (none : HIx 1)
        ((chunkMem L o0V 1 j).view.amount (SemLoc.dma (sig := sig) (dsem 1)))
        iprop(((chunkMem L o0V 1 j).view.loc (VT d L) ↦[(chunkMem L o0V 1 j).view.set]{fullShare}
                (chunkMem L o0V 1 j).view.writes (Elt F) f [⟨Rect.whole S32x768, ReadAs.same.apply ((b1V).view.read (Elt F) t)⟩])
              ∗ ((b1V).view.loc (VT d L) ↦[(b1V).view.set]{fullShare} t)))

/-- Staging buffer 1 before trip `k` of the chunk loop of the pass that writes result 0 (its rows holding `f` at the start)
    from the flattened image `x`: its landed chunks hold the patches, its last issued chunk is in flight, the chunks to come hold `f`. -/
def bufState0_1 (x : Buf (Elt F) (x0Loc d)) (f : Buf (Elt F) (o0Loc d)) (k : Nat) : sProp 𝕄 :=
  iprop((bigSep (Finset.range (issued L 1 k - 1)) fun j => o0Loc d ↦[chunkSet L 1 j]{fullShare} pat0 d x)
    ∗ (bigSep (Finset.Ico (issued L 1 k) (nIss L 1)) fun j => o0Loc d ↦[chunkSet L 1 j]{fullShare} f)
    ∗ (if issued L 1 k = 0 then bufIdle1 d L else bufFlying0_1 d L x f (issued L 1 k - 1)))

/-- Staging buffer 1 copying chunk `(1, j)` of result 1 out: the transfer in flight on its semaphore delivers the chunk's
    rows at the buffer's contents (which are the patches) over what they held, and the buffer back. -/
def bufFlying1_1 (x : Buf (Elt F) (x1Loc d)) (f : Buf (Elt F) (o1Loc d)) (j : Nat) : sProp 𝕄 :=
  iprop(∃ t : Buf (Elt F) ((b1V).view.loc (VT d L)), ⌜RowsDone (α := Elt F .f32) ((b1V).view.read (Elt F) t) x (chunkRow L 1 j) 32⌝
    ∗ Transfers.Flight (countersEmb (U := UU)) (VT d L) (.dma (dsem 1)) (none : HIx 1)
        ((chunkMem L o1V 1 j).view.amount (SemLoc.dma (sig := sig) (dsem 1)))
        iprop(((chunkMem L o1V 1 j).view.loc (VT d L) ↦[(chunkMem L o1V 1 j).view.set]{fullShare}
                (chunkMem L o1V 1 j).view.writes (Elt F) f [⟨Rect.whole S32x768, ReadAs.same.apply ((b1V).view.read (Elt F) t)⟩])
              ∗ ((b1V).view.loc (VT d L) ↦[(b1V).view.set]{fullShare} t)))

/-- Staging buffer 1 before trip `k` of the chunk loop of the pass that writes result 1 (its rows holding `f` at the start)
    from the flattened image `x`: its landed chunks hold the patches, its last issued chunk is in flight, the chunks to come hold `f`. -/
def bufState1_1 (x : Buf (Elt F) (x1Loc d)) (f : Buf (Elt F) (o1Loc d)) (k : Nat) : sProp 𝕄 :=
  iprop((bigSep (Finset.range (issued L 1 k - 1)) fun j => o1Loc d ↦[chunkSet L 1 j]{fullShare} pat1 d x)
    ∗ (bigSep (Finset.Ico (issued L 1 k) (nIss L 1)) fun j => o1Loc d ↦[chunkSet L 1 j]{fullShare} f)
    ∗ (if issued L 1 k = 0 then bufIdle1 d L else bufFlying1_1 d L x f (issued L 1 k - 1)))

/-! ### Staging buffer 2 -/

/-- Rows below `n` of staging buffer 2 hold the patches of `x` from `row0`. -/
def bufRows2 (x : Cert.Unfold.SFlat.Idx → Elt F .f32) (row0 n : Nat) : sProp 𝕄 :=
  iprop(∃ t : Buf (Elt F) ((b2V).view.loc (VT d L)), ⌜RowsDone (α := Elt F .f32) ((b2V).view.read (Elt F) t) x row0 n⌝
    ∗ (b2V).view.loc (VT d L) ↦[(b2V).view.set]{fullShare} t)

/-- The invariant of a row loop filling staging buffer 2, before trip `jj`. -/
def rowInv2 (x : Cert.Unfold.SFlat.Idx → Elt F .f32) (row0 : Nat) (jj : Nat) (_ : PUnit) : sProp 𝕄 :=
  iprop(slabInv d L x 49152 ∗ bufRows2 d L x row0 jj)

/-- Staging buffer 2 at rest: held, whatever it holds; its semaphore at zero. -/
def bufIdle2 : sProp 𝕄 :=
  iprop((∃ t : Buf (Elt F) ((b2V).view.loc (VT d L)), (b2V).view.loc (VT d L) ↦[(b2V).view.set]{fullShare} t)
    ∗ semVal (VT d L, SemLoc.dma (dsem 2)) 0)

/-- Staging buffer 2 copying chunk `(2, j)` of result 0 out: the transfer in flight on its semaphore delivers the chunk's
    rows at the buffer's contents (which are the patches) over what they held, and the buffer back. -/
def bufFlying0_2 (x : Buf (Elt F) (x0Loc d)) (f : Buf (Elt F) (o0Loc d)) (j : Nat) : sProp 𝕄 :=
  iprop(∃ t : Buf (Elt F) ((b2V).view.loc (VT d L)), ⌜RowsDone (α := Elt F .f32) ((b2V).view.read (Elt F) t) x (chunkRow L 2 j) 32⌝
    ∗ Transfers.Flight (countersEmb (U := UU)) (VT d L) (.dma (dsem 2)) (none : HIx 1)
        ((chunkMem L o0V 2 j).view.amount (SemLoc.dma (sig := sig) (dsem 2)))
        iprop(((chunkMem L o0V 2 j).view.loc (VT d L) ↦[(chunkMem L o0V 2 j).view.set]{fullShare}
                (chunkMem L o0V 2 j).view.writes (Elt F) f [⟨Rect.whole S32x768, ReadAs.same.apply ((b2V).view.read (Elt F) t)⟩])
              ∗ ((b2V).view.loc (VT d L) ↦[(b2V).view.set]{fullShare} t)))

/-- Staging buffer 2 before trip `k` of the chunk loop of the pass that writes result 0 (its rows holding `f` at the start)
    from the flattened image `x`: its landed chunks hold the patches, its last issued chunk is in flight, the chunks to come hold `f`. -/
def bufState0_2 (x : Buf (Elt F) (x0Loc d)) (f : Buf (Elt F) (o0Loc d)) (k : Nat) : sProp 𝕄 :=
  iprop((bigSep (Finset.range (issued L 2 k - 1)) fun j => o0Loc d ↦[chunkSet L 2 j]{fullShare} pat0 d x)
    ∗ (bigSep (Finset.Ico (issued L 2 k) (nIss L 2)) fun j => o0Loc d ↦[chunkSet L 2 j]{fullShare} f)
    ∗ (if issued L 2 k = 0 then bufIdle2 d L else bufFlying0_2 d L x f (issued L 2 k - 1)))

/-- Staging buffer 2 copying chunk `(2, j)` of result 1 out: the transfer in flight on its semaphore delivers the chunk's
    rows at the buffer's contents (which are the patches) over what they held, and the buffer back. -/
def bufFlying1_2 (x : Buf (Elt F) (x1Loc d)) (f : Buf (Elt F) (o1Loc d)) (j : Nat) : sProp 𝕄 :=
  iprop(∃ t : Buf (Elt F) ((b2V).view.loc (VT d L)), ⌜RowsDone (α := Elt F .f32) ((b2V).view.read (Elt F) t) x (chunkRow L 2 j) 32⌝
    ∗ Transfers.Flight (countersEmb (U := UU)) (VT d L) (.dma (dsem 2)) (none : HIx 1)
        ((chunkMem L o1V 2 j).view.amount (SemLoc.dma (sig := sig) (dsem 2)))
        iprop(((chunkMem L o1V 2 j).view.loc (VT d L) ↦[(chunkMem L o1V 2 j).view.set]{fullShare}
                (chunkMem L o1V 2 j).view.writes (Elt F) f [⟨Rect.whole S32x768, ReadAs.same.apply ((b2V).view.read (Elt F) t)⟩])
              ∗ ((b2V).view.loc (VT d L) ↦[(b2V).view.set]{fullShare} t)))

/-- Staging buffer 2 before trip `k` of the chunk loop of the pass that writes result 1 (its rows holding `f` at the start)
    from the flattened image `x`: its landed chunks hold the patches, its last issued chunk is in flight, the chunks to come hold `f`. -/
def bufState1_2 (x : Buf (Elt F) (x1Loc d)) (f : Buf (Elt F) (o1Loc d)) (k : Nat) : sProp 𝕄 :=
  iprop((bigSep (Finset.range (issued L 2 k - 1)) fun j => o1Loc d ↦[chunkSet L 2 j]{fullShare} pat1 d x)
    ∗ (bigSep (Finset.Ico (issued L 2 k) (nIss L 2)) fun j => o1Loc d ↦[chunkSet L 2 j]{fullShare} f)
    ∗ (if issued L 2 k = 0 then bufIdle2 d L else bufFlying1_2 d L x f (issued L 2 k - 1)))

end Cert.Proof.KB

end
-- ==== Proof.BookBits.lean ====
/-
  The chunk loop's book-keeping.  Per staging buffer the loop keeps the chunks that have landed as a separating
  conjunction over an initial segment of the naturals and the chunks not yet touched as one over an interval: the
  steps that move one chunk from the second to the first.  And the spelling equations: each destination the program
  slices out of a result array (32 rows at an offset it computes from the tile's coordinates and the trip; the last
  tile's 16 rows and 1 row) is, as a set of elements, the chunk or the tail piece of that name.
-/
import proofs.«212940_g32057635897708_cont_8to1_b_1299_25_alg».proof.Proof.ChunksBits
import proofs.«212940_g32057635897708_cont_8to1_b_1299_25_alg».proof.Proof.ArithBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)

/-! ## Landed and untouched chunks -/

/-- A run of naturals loses its first member. -/
theorem Ico_eq_insert {k n : Nat} (h : k < n) : Finset.Ico k n = insert k (Finset.Ico (k + 1) n) := by
  ext x; simp only [Finset.mem_Ico, Finset.mem_insert]; omega

/-- One more landed: the conjunction over `range k` with the `k`-th is the conjunction over `range (k + 1)`. -/
theorem done_step (Φ : ℕ → sProp 𝕄) (k : Nat) :
    iprop(bigSep (Finset.range k) Φ ∗ Φ k) = bigSep (Finset.range (k + 1)) Φ := by
  rw [Finset.range_add_one, bigSep_insert Finset.notMem_range_self]
  exact Idealize.SL.BI.Entails.antisymm Idealize.SL.BI.sep_comm Idealize.SL.BI.sep_comm

/-- One fewer to do: the conjunction over `[k, n)` gives up its `k`-th. -/
theorem todo_step (Φ : ℕ → sProp 𝕄) {k n : Nat} (h : k < n) :
    bigSep (Finset.Ico k n) Φ = iprop(Φ k ∗ bigSep (Finset.Ico (k + 1) n) Φ) := by
  rw [Ico_eq_insert h, bigSep_insert (by simp only [Finset.mem_Ico]; omega)]
  rfl

theorem todo_all (Φ : ℕ → sProp 𝕄) (n : Nat) : bigSep (Finset.range n) Φ = bigSep (Finset.Ico 0 n) Φ := by
  rw [Finset.range_eq_Ico]

theorem todo_none (Φ : ℕ → sProp 𝕄) (n : Nat) : bigSep (Finset.Ico n n) Φ = iprop(emp) := by
  rw [Finset.Ico_self, bigSep_empty]
  rfl

/-! ## The program's slices are the chunks -/

/-- The elements of a slice of a whole result array are the rectangle's. -/
theorem set_o0_slice (R : Rect S62001x768) (hR : ∀ a, R.stride a = 1) : ((o0V).slice R hR).view.set = R.set := by
  show ((View.whole (main_v2_0_scv : Ref sig .scVector)).slice R).set = R.set
  exact View.set_slice_whole (main_v2_0_scv : Ref sig .scVector) R
theorem set_o1_slice (R : Rect S62001x768) (hR : ∀ a, R.stride a = 1) : ((o1V).slice R hR).view.set = R.set := by
  show ((View.whole (main_v2_1_scv : Ref sig .scVector)).slice R).set = R.set
  exact View.set_slice_whole (main_v2_1_scv : Ref sig .scVector) R

/-- A tile's points-to through a slice of a result array, named by the slice's element set. -/
theorem pts_o0 (d : Dev nD) (L : grid0.Coords) (R : Rect S62001x768) (hR : ∀ a, R.stride a = 1) (I : Finset S62001x768.Idx)
    (hI : R.set = I) (f : Buf (Elt F) (o0Loc d)) :
    ((((o0V).slice R hR).view.loc (VT d L) ↦[((o0V).slice R hR).view.set]{fullShare} f) : sProp 𝕄)
      = o0Loc d ↦[I]{fullShare} f :=
  congrArg (fun J => (o0Loc d ↦[J]{fullShare} f : sProp 𝕄)) ((set_o0_slice R hR).trans hI)
theorem pts_o1 (d : Dev nD) (L : grid0.Coords) (R : Rect S62001x768) (hR : ∀ a, R.stride a = 1) (I : Finset S62001x768.Idx)
    (hI : R.set = I) (f : Buf (Elt F) (o1Loc d)) :
    ((((o1V).slice R hR).view.loc (VT d L) ↦[((o1V).slice R hR).view.set]{fullShare} f) : sProp 𝕄)
      = o1Loc d ↦[I]{fullShare} f :=
  congrArg (fun J => (o1Loc d ↦[J]{fullShare} f : sProp 𝕄)) ((set_o1_slice R hR).trans hI)

/-- 32 whole rows from the first row of chunk `j` of buffer `p` are that chunk. -/
theorem unit_set_chunk (L : grid0.Coords) (p j : Nat) (hp : p < 3) (hj : j < nIss L p) (off : Fin 2 → Nat)
    (inb : ∀ a, off a + S32x768.size a ≤ S62001x768.size a) (hoff : off = ![chunkRow L p j, 0]) :
    (Rect.unit (s := S62001x768) off S32x768.size inb).set = chunkSet L p j := by
  subst hoff
  unfold chunkSet chunkRect
  rw [dif_pos ⟨hp, hj⟩]

/-- Chunk number `3j + p` below `nch L` is chunk `j` of buffer `p`. -/
theorem nIss_of_lt (L : grid0.Coords) (p j : Nat) (h : 3 * j + p < nch L) : j < nIss L p := by
  unfold nIss; omega

/-- The program's spelling of a chunk's first row, from the tile's two coordinates. -/
theorem row_eq (L : grid0.Coords) (p j r : Nat) (h : r = 3904 * (L 1).val + 1952 * (L 0).val + 96 * j + 32 * p) :
    (![r, 0] : Fin 2 → Nat) = ![chunkRow L p j, 0] := by
  have e : r = chunkRow L p j := by unfold chunkRow wbase wid; omega
  rw [e]

/-! ### The first result's chunks, buffer by buffer; then the second's -/

theorem pts_chunk0_p0 (d : Dev nD) (L : grid0.Coords) (k : Fin k0_t1_loop.trips) (h : k0_cond1 L k = 1#1) (f : Buf (Elt F) (o0Loc d)) :
    ((((o0V).slice (Rect.unit (s := S62001x768) (k0_off52 L k) S32x768.size (k0_off52_inb L k h)) (fun _ => rfl)).view.loc (VT d L)
        ↦[((o0V).slice (Rect.unit (s := S62001x768) (k0_off52 L k) S32x768.size (k0_off52_inb L k h)) (fun _ => rfl)).view.set]{fullShare} f) : sProp 𝕄)
      = o0Loc d ↦[chunkSet L 0 k.val]{fullShare} f :=
  pts_o0 d L _ _ _ (unit_set_chunk L 0 k.val (by omega) (nIss_of_lt L 0 k.val (by have := (cond1_iff L k).mp h; omega)) _ _
    (by rw [k0_off52_eq]; exact row_eq L 0 k.val _ (by omega))) f

theorem pts_chunk0_p1 (d : Dev nD) (L : grid0.Coords) (k : Fin k0_t1_loop.trips) (h : k0_cond3 L k = 1#1) (f : Buf (Elt F) (o0Loc d)) :
    ((((o0V).slice (Rect.unit (s := S62001x768) (k0_off103 L k) S32x768.size (k0_off103_inb L k h)) (fun _ => rfl)).view.loc (VT d L)
        ↦[((o0V).slice (Rect.unit (s := S62001x768) (k0_off103 L k) S32x768.size (k0_off103_inb L k h)) (fun _ => rfl)).view.set]{fullShare} f) : sProp 𝕄)
      = o0Loc d ↦[chunkSet L 1 k.val]{fullShare} f :=
  pts_o0 d L _ _ _ (unit_set_chunk L 1 k.val (by omega) (nIss_of_lt L 1 k.val (by have := (cond3_iff L k).mp h; omega)) _ _
    (by rw [k0_off103_eq]; exact row_eq L 1 k.val _ (by omega))) f

theorem pts_chunk0_p2 (d : Dev nD) (L : grid0.Coords) (k : Fin k0_t1_loop.trips) (h : k0_cond5 L k = 1#1) (f : Buf (Elt F) (o0Loc d)) :
    ((((o0V).slice (Rect.unit (s := S62001x768) (k0_off154 L k) S32x768.size (k0_off154_inb L k h)) (fun _ => rfl)).view.loc (VT d L)
        ↦[((o0V).slice (Rect.unit (s := S62001x768) (k0_off154 L k) S32x768.size (k0_off154_inb L k h)) (fun _ => rfl)).view.set]{fullShare} f) : sProp 𝕄)
      = o0Loc d ↦[chunkSet L 2 k.val]{fullShare} f :=
  pts_o0 d L _ _ _ (unit_set_chunk L 2 k.val (by omega) (nIss_of_lt L 2 k.val (by have := (cond5_iff L k).mp h; omega)) _ _
    (by rw [k0_off154_eq]; exact row_eq L 2 k.val _ (by omega))) f

theorem pts_chunk1_p0 (d : Dev nD) (L : grid0.Coords) (k : Fin k0_t7_loop.trips) (h : k0_cond10 L k = 1#1) (f : Buf (Elt F) (o1Loc d)) :
    ((((o1V).slice (Rect.unit (s := S62001x768) (k0_off305 L k) S32x768.size (k0_off305_inb L k h)) (fun _ => rfl)).view.loc (VT d L)
        ↦[((o1V).slice (Rect.unit (s := S62001x768) (k0_off305 L k) S32x768.size (k0_off305_inb L k h)) (fun _ => rfl)).view.set]{fullShare} f) : sProp 𝕄)
      = o1Loc d ↦[chunkSet L 0 k.val]{fullShare} f :=
  pts_o1 d L _ _ _ (unit_set_chunk L 0 k.val (by omega) (nIss_of_lt L 0 k.val (by have := (cond10_iff L k).mp h; omega)) _ _
    (by rw [k0_off305_eq]; exact row_eq L 0 k.val _ (by omega))) f

theorem pts_chunk1_p1 (d : Dev nD) (L : grid0.Coords) (k : Fin k0_t7_loop.trips) (h : k0_cond12 L k = 1#1) (f : Buf (Elt F) (o1Loc d)) :
    ((((o1V).slice (Rect.unit (s := S62001x768) (k0_off356 L k) S32x768.size (k0_off356_inb L k h)) (fun _ => rfl)).view.loc (VT d L)
        ↦[((o1V).slice (Rect.unit (s := S62001x768) (k0_off356 L k) S32x768.size (k0_off356_inb L k h)) (fun _ => rfl)).view.set]{fullShare} f) : sProp 𝕄)
      = o1Loc d ↦[chunkSet L 1 k.val]{fullShare} f :=
  pts_o1 d L _ _ _ (unit_set_chunk L 1 k.val (by omega) (nIss_of_lt L 1 k.val (by have := (cond12_iff L k).mp h; omega)) _ _
    (by rw [k0_off356_eq]; exact row_eq L 1 k.val _ (by omega))) f

theorem pts_chunk1_p2 (d : Dev nD) (L : grid0.Coords) (k : Fin k0_t7_loop.trips) (h : k0_cond14 L k = 1#1) (f : Buf (Elt F) (o1Loc d)) :
    ((((o1V).slice (Rect.unit (s := S62001x768) (k0_off407 L k) S32x768.size (k0_off407_inb L k h)) (fun _ => rfl)).view.loc (VT d L)
        ↦[((o1V).slice (Rect.unit (s := S62001x768) (k0_off407 L k) S32x768.size (k0_off407_inb L k h)) (fun _ => rfl)).view.set]{fullShare} f) : sProp 𝕄)
      = o1Loc d ↦[chunkSet L 2 k.val]{fullShare} f :=
  pts_o1 d L _ _ _ (unit_set_chunk L 2 k.val (by omega) (nIss_of_lt L 2 k.val (by have := (cond14_iff L k).mp h; omega)) _ _
    (by rw [k0_off407_eq]; exact row_eq L 2 k.val _ (by omega))) f

/-! ### The last chunk of buffer 0 on the tiles that have 61 chunks -/

theorem pts_last0 (d : Dev nD) (L : grid0.Coords) (h : k0_cond7 L = 1#1) (f : Buf (Elt F) (o0Loc d)) :
    ((((o0V).slice (Rect.unit (s := S62001x768) (k0_off205 L) S32x768.size (k0_off205_inb L h)) (fun _ => rfl)).view.loc (VT d L)
        ↦[((o0V).slice (Rect.unit (s := S62001x768) (k0_off205 L) S32x768.size (k0_off205_inb L h)) (fun _ => rfl)).view.set]{fullShare} f) : sProp 𝕄)
      = o0Loc d ↦[chunkSet L 0 20]{fullShare} f :=
  pts_o0 d L _ _ _ (unit_set_chunk L 0 20 (by omega)
    (nIss_of_lt L 0 20 (by have := (cond7_iff L).mp h; unfold nch; split <;> omega)) _ _
    (by rw [k0_off205_eq]; exact row_eq L 0 20 _ (by omega))) f

theorem pts_last1 (d : Dev nD) (L : grid0.Coords) (h : k0_cond16 L = 1#1) (f : Buf (Elt F) (o1Loc d)) :
    ((((o1V).slice (Rect.unit (s := S62001x768) (k0_off458 L) S32x768.size (k0_off458_inb L h)) (fun _ => rfl)).view.loc (VT d L)
        ↦[((o1V).slice (Rect.unit (s := S62001x768) (k0_off458 L) S32x768.size (k0_off458_inb L h)) (fun _ => rfl)).view.set]{fullShare} f) : sProp 𝕄)
      = o1Loc d ↦[chunkSet L 0 20]{fullShare} f :=
  pts_o1 d L _ _ _ (unit_set_chunk L 0 20 (by omega)
    (nIss_of_lt L 0 20 (by have := (cond16_iff L).mp h; unfold nch; split <;> omega)) _ _
    (by rw [k0_off458_eq]; exact row_eq L 0 20 _ (by omega))) f

/-! ### The last tile's tail -/

theorem tailA_set (L : grid0.Coords) (hw : wid L = 31) :
    (Rect.unit (s := S62001x768) ![61984, 0] S16x768.size inb_S62001x768_S16x768_61984_0).set = tailSetA L := by
  unfold tailSetA; rw [if_pos hw]
theorem tailB_set (L : grid0.Coords) (hw : wid L = 31) :
    (Rect.unit (s := S62001x768) ![62000, 0] S1x768.size inb_S62001x768_S1x768_62000_0).set = tailSetB L := by
  unfold tailSetB; rw [if_pos hw]

theorem pts_tailA0 (d : Dev nD) (L : grid0.Coords) (h : k0_cond9 L = 1#1) (f : Buf (Elt F) (o0Loc d)) :
    ((((o0V).slice (Rect.unit (s := S62001x768) ![61984, 0] S16x768.size inb_S62001x768_S16x768_61984_0) (fun _ => rfl)).view.loc (VT d L)
        ↦[((o0V).slice (Rect.unit (s := S62001x768) ![61984, 0] S16x768.size inb_S62001x768_S16x768_61984_0) (fun _ => rfl)).view.set]{fullShare} f) : sProp 𝕄)
      = o0Loc d ↦[tailSetA L]{fullShare} f :=
  pts_o0 d L _ _ _ (tailA_set L ((cond9_iff L).mp h)) f

theorem pts_tailB0 (d : Dev nD) (L : grid0.Coords) (h : k0_cond9 L = 1#1) (f : Buf (Elt F) (o0Loc d)) :
    ((((o0V).slice (Rect.unit (s := S62001x768) ![62000, 0] S1x768.size inb_S62001x768_S1x768_62000_0) (fun _ => rfl)).view.loc (VT d L)
        ↦[((o0V).slice (Rect.unit (s := S62001x768) ![62000, 0] S1x768.size inb_S62001x768_S1x768_62000_0) (fun _ => rfl)).view.set]{fullShare} f) : sProp 𝕄)
      = o0Loc d ↦[tailSetB L]{fullShare} f :=
  pts_o0 d L _ _ _ (tailB_set L ((cond9_iff L).mp h)) f

theorem pts_tailA1 (d : Dev nD) (L : grid0.Coords) (h : k0_cond18 L = 1#1) (f : Buf (Elt F) (o1Loc d)) :
    ((((o1V).slice (Rect.unit (s := S62001x768) ![61984, 0] S16x768.size inb_S62001x768_S16x768_61984_0) (fun _ => rfl)).view.loc (VT d L)
        ↦[((o1V).slice (Rect.unit (s := S62001x768) ![61984, 0] S16x768.size inb_S62001x768_S16x768_61984_0) (fun _ => rfl)).view.set]{fullShare} f) : sProp 𝕄)
      = o1Loc d ↦[tailSetA L]{fullShare} f :=
  pts_o1 d L _ _ _ (tailA_set L ((cond18_iff L).mp h)) f

theorem pts_tailB1 (d : Dev nD) (L : grid0.Coords) (h : k0_cond18 L = 1#1) (f : Buf (Elt F) (o1Loc d)) :
    ((((o1V).slice (Rect.unit (s := S62001x768) ![62000, 0] S1x768.size inb_S62001x768_S1x768_62000_0) (fun _ => rfl)).view.loc (VT d L)
        ↦[((o1V).slice (Rect.unit (s := S62001x768) ![62000, 0] S1x768.size inb_S62001x768_S1x768_62000_0) (fun _ => rfl)).view.set]{fullShare} f) : sProp 𝕄)
      = o1Loc d ↦[tailSetB L]{fullShare} f :=
  pts_o1 d L _ _ _ (tailB_set L ((cond18_iff L).mp h)) f

end Cert.Proof.KB

end
-- ==== Proof.ProgMemBits.lean ====
/-
  The rows of a result array the program slices for a chunk's write-back, through its printed chains, are the rows of
  the chunk in closed form: a chunk the tile has starts at most at row 61969, so the clamp of the closed form is idle.
-/
import proofs.«212940_g32057635897708_cont_8to1_b_1299_25_alg».proof.Proof.InvBits
import proofs.«212940_g32057635897708_cont_8to1_b_1299_25_alg».proof.Proof.ArithBits
import proofs.«212940_g32057635897708_cont_8to1_b_1299_25_alg».proof.Proof.ChunksBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)

/-- The first row of a chunk the tile has, over the tile's coordinates: the clamp is idle. -/
theorem chunkRowC_eq (L : grid0.Coords) (p j : Nat) (h : 3 * j + p < nch L) :
    chunkRowC L p j = 3904 * (L 1).val + 1952 * (L 0).val + 96 * j + 32 * p := by
  have h0 : (L 0).val < 2 := (L 0).isLt
  have h1 : (L 1).val < 16 := (L 1).isLt
  unfold chunkRowC chunkRow wbase
  unfold nch at h
  unfold wid at *
  split at h <;> omega

/-! ## The first result -/

/-- The rows the program names for chunk `3k + 0` of the first result are the chunk's. -/
theorem off52_chunk (L : grid0.Coords) (k : Fin k0_t1_loop.trips) (h : k0_cond1 L k = 1#1) :
    k0_off52 L k = ![chunkRowC L 0 k.val, 0] := by
  have hc := (cond1_iff L k).mp h
  have e : chunkRowC L 0 k.val = 3904 * (L 1).val + 1952 * (L 0).val + 96 * k.val :=
    (chunkRowC_eq L 0 k.val (by omega)).trans (by omega)
  rw [k0_off52_eq, e]

theorem progMem0_p0 (L : grid0.Coords) (k : Fin k0_t1_loop.trips) (h : k0_cond1 L k = 1#1) :
    (o0V).slice (Rect.unit (s := S62001x768) (k0_off52 L k) S32x768.size (k0_off52_inb L k h)) (fun _ => rfl)
      = chunkMem L o0V 0 k.val := by
  have e := off52_chunk L k h
  generalize k0_off52_inb L k h = pf
  revert pf
  rw [e]
  intro pf
  rfl

/-- The rows the program names for chunk `3k + 1` of the first result are the chunk's. -/
theorem off103_chunk (L : grid0.Coords) (k : Fin k0_t1_loop.trips) (h : k0_cond3 L k = 1#1) :
    k0_off103 L k = ![chunkRowC L 1 k.val, 0] := by
  have hc := (cond3_iff L k).mp h
  have e : chunkRowC L 1 k.val = 3904 * (L 1).val + 1952 * (L 0).val + 96 * k.val + 32 :=
    (chunkRowC_eq L 1 k.val (by omega)).trans (by omega)
  rw [k0_off103_eq, e]

theorem progMem0_p1 (L : grid0.Coords) (k : Fin k0_t1_loop.trips) (h : k0_cond3 L k = 1#1) :
    (o0V).slice (Rect.unit (s := S62001x768) (k0_off103 L k) S32x768.size (k0_off103_inb L k h)) (fun _ => rfl)
      = chunkMem L o0V 1 k.val := by
  have e := off103_chunk L k h
  generalize k0_off103_inb L k h = pf
  revert pf
  rw [e]
  intro pf
  rfl

/-- The rows the program names for chunk `3k + 2` of the first result are the chunk's. -/
theorem off154_chunk (L : grid0.Coords) (k : Fin k0_t1_loop.trips) (h : k0_cond5 L k = 1#1) :
    k0_off154 L k = ![chunkRowC L 2 k.val, 0] := by
  have hc := (cond5_iff L k).mp h
  have e : chunkRowC L 2 k.val = 3904 * (L 1).val + 1952 * (L 0).val + 96 * k.val + 64 :=
    (chunkRowC_eq L 2 k.val (by omega)).trans (by omega)
  rw [k0_off154_eq, e]

theorem progMem0_p2 (L : grid0.Coords) (k : Fin k0_t1_loop.trips) (h : k0_cond5 L k = 1#1) :
    (o0V).slice (Rect.unit (s := S62001x768) (k0_off154 L k) S32x768.size (k0_off154_inb L k h)) (fun _ => rfl)
      = chunkMem L o0V 2 k.val := by
  have e := off154_chunk L k h
  generalize k0_off154_inb L k h = pf
  revert pf
  rw [e]
  intro pf
  rfl

/-- The rows the program names for chunk 60 of the first result are those of chunk 20 of buffer 0. -/
theorem off205_chunk (L : grid0.Coords) (h : k0_cond7 L = 1#1) : k0_off205 L = ![chunkRowC L 0 20, 0] := by
  have hc := (cond7_iff L).mp h
  have hn : nch L = 61 := by unfold nch; rw [if_neg hc]
  have e : chunkRowC L 0 20 = 3904 * (L 1).val + 1952 * (L 0).val + 1920 :=
    (chunkRowC_eq L 0 20 (by omega)).trans (by omega)
  rw [k0_off205_eq, e]

theorem progMem0_last (L : grid0.Coords) (h : k0_cond7 L = 1#1) :
    (o0V).slice (Rect.unit (s := S62001x768) (k0_off205 L) S32x768.size (k0_off205_inb L h)) (fun _ => rfl)
      = chunkMem L o0V 0 20 := by
  have e := off205_chunk L h
  generalize k0_off205_inb L h = pf
  revert pf
  rw [e]
  intro pf
  rfl

/-! ## The second result -/

/-- The rows the program names for chunk `3k + 0` of the second result are the chunk's. -/
theorem off305_chunk (L : grid0.Coords) (k : Fin k0_t7_loop.trips) (h : k0_cond10 L k = 1#1) :
    k0_off305 L k = ![chunkRowC L 0 k.val, 0] := by
  have hc := (cond10_iff L k).mp h
  have e : chunkRowC L 0 k.val = 3904 * (L 1).val + 1952 * (L 0).val + 96 * k.val :=
    (chunkRowC_eq L 0 k.val (by omega)).trans (by omega)
  rw [k0_off305_eq, e]

theorem progMem1_p0 (L : grid0.Coords) (k : Fin k0_t7_loop.trips) (h : k0_cond10 L k = 1#1) :
    (o1V).slice (Rect.unit (s := S62001x768) (k0_off305 L k) S32x768.size (k0_off305_inb L k h)) (fun _ => rfl)
      = chunkMem L o1V 0 k.val := by
  have e := off305_chunk L k h
  generalize k0_off305_inb L k h = pf
  revert pf
  rw [e]
  intro pf
  rfl

/-- The rows the program names for chunk `3k + 1` of the second result are the chunk's. -/
theorem off356_chunk (L : grid0.Coords) (k : Fin k0_t7_loop.trips) (h : k0_cond12 L k = 1#1) :
    k0_off356 L k = ![chunkRowC L 1 k.val, 0] := by
  have hc := (cond12_iff L k).mp h
  have e : chunkRowC L 1 k.val = 3904 * (L 1).val + 1952 * (L 0).val + 96 * k.val + 32 :=
    (chunkRowC_eq L 1 k.val (by omega)).trans (by omega)
  rw [k0_off356_eq, e]

theorem progMem1_p1 (L : grid0.Coords) (k : Fin k0_t7_loop.trips) (h : k0_cond12 L k = 1#1) :
    (o1V).slice (Rect.unit (s := S62001x768) (k0_off356 L k) S32x768.size (k0_off356_inb L k h)) (fun _ => rfl)
      = chunkMem L o1V 1 k.val := by
  have e := off356_chunk L k h
  generalize k0_off356_inb L k h = pf
  revert pf
  rw [e]
  intro pf
  rfl

/-- The rows the program names for chunk `3k + 2` of the second result are the chunk's. -/
theorem off407_chunk (L : grid0.Coords) (k : Fin k0_t7_loop.trips) (h : k0_cond14 L k = 1#1) :
    k0_off407 L k = ![chunkRowC L 2 k.val, 0] := by
  have hc := (cond14_iff L k).mp h
  have e : chunkRowC L 2 k.val = 3904 * (L 1).val + 1952 * (L 0).val + 96 * k.val + 64 :=
    (chunkRowC_eq L 2 k.val (by omega)).trans (by omega)
  rw [k0_off407_eq, e]

theorem progMem1_p2 (L : grid0.Coords) (k : Fin k0_t7_loop.trips) (h : k0_cond14 L k = 1#1) :
    (o1V).slice (Rect.unit (s := S62001x768) (k0_off407 L k) S32x768.size (k0_off407_inb L k h)) (fun _ => rfl)
      = chunkMem L o1V 2 k.val := by
  have e := off407_chunk L k h
  generalize k0_off407_inb L k h = pf
  revert pf
  rw [e]
  intro pf
  rfl

/-- The rows the program names for chunk 60 of the second result are those of chunk 20 of buffer 0. -/
theorem off458_chunk (L : grid0.Coords) (h : k0_cond16 L = 1#1) : k0_off458 L = ![chunkRowC L 0 20, 0] := by
  have hc := (cond16_iff L).mp h
  have hn : nch L = 61 := by unfold nch; rw [if_neg hc]
  have e : chunkRowC L 0 20 = 3904 * (L 1).val + 1952 * (L 0).val + 1920 :=
    (chunkRowC_eq L 0 20 (by omega)).trans (by omega)
  rw [k0_off458_eq, e]

theorem progMem1_last (L : grid0.Coords) (h : k0_cond16 L = 1#1) :
    (o1V).slice (Rect.unit (s := S62001x768) (k0_off458 L) S32x768.size (k0_off458_inb L h)) (fun _ => rfl)
      = chunkMem L o1V 0 20 := by
  have e := off458_chunk L h
  generalize k0_off458_inb L h = pf
  revert pf
  rw [e]
  intro pf
  rfl

end Cert.Proof.KB

end
-- ==== Proof.ValMemBits.lean ====
/-
  Reading the contents the task leaves. A result's chunk after a staging buffer has landed on it holds the image's
  patches, when the buffer's rows held them; the slab after a channel's window has been copied in holds that channel's
  32 image rows, position by position. Every statement is at one symbolic index.
-/
import proofs.«212940_g32057635897708_cont_8to1_b_1299_25_alg».proof.Proof.InvBits
import proofs.«212940_g32057635897708_cont_8to1_b_1299_25_alg».proof.Proof.ArithBits
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)

/-! ## A chunk of a result array: its rows, and what a landed staging buffer leaves there -/

omit [FloatOps F] in
/-- A real chunk lies inside the array, so clamping its first row changes nothing. -/
theorem chunkRowC_of_lt (p j : Nat) (hp : p < 3) (hj : j < nIss L p) : chunkRowC L p j = chunkRow L p j := by
  have h : chunkRow L p j + 32 ≤ 62001 := chunk_inb L p j hp hj 0
  unfold chunkRowC
  exact Nat.min_eq_left (by omega)

omit [FloatOps F] in
/-- The elements of chunk `(p, j)` of the first result, as the task slices it, are the chunk's rows. -/
theorem chunkMem_set0 (p j : Nat) (hp : p < 3) (hj : j < nIss L p) : (chunkMem L o0V p j).view.set = chunkSet L p j := by
  ext i
  rw [mem_chunkSet]
  show i ∈ ((View.whole main_v2_0_scv).slice _).set ↔ _
  rw [View.set_slice_whole, mem_rows (chunkRowC L p j) 32 _ rfl rfl, chunkRowC_of_lt L p j hp hj]
  exact ⟨fun h => ⟨⟨hp, hj⟩, h⟩, fun h => h.2⟩

omit [FloatOps F] in
/-- The same for the second result. -/
theorem chunkMem_set1 (p j : Nat) (hp : p < 3) (hj : j < nIss L p) : (chunkMem L o1V p j).view.set = chunkSet L p j := by
  ext i
  rw [mem_chunkSet]
  show i ∈ ((View.whole main_v2_1_scv).slice _).set ↔ _
  rw [View.set_slice_whole, mem_rows (chunkRowC L p j) 32 _ rfl rfl, chunkRowC_of_lt L p j hp hj]
  exact ⟨fun h => ⟨⟨hp, hj⟩, h⟩, fun h => h.2⟩

omit [FloatOps F] in
/-- Entry `(r, c)` of a 32-row block written whole over chunk `(p, j)` of the first result lands at row
    `chunkRow + r`, column `c`; if the block's rows held the patches from `chunkRow`, the chunk now holds the image's
    patches. -/
theorem landed_o0 (p j : Nat) (hp : p < 3) (hj : j < nIss L p) (x0 : Buf (Elt F) (x0Loc d)) (f : Buf (Elt F) (o0Loc d))
    (w : S32x768.Idx → Elt F .f32) (h : RowsDone (α := Elt F .f32) w x0 (chunkRow L p j) 32) :
    ∀ i ∈ (chunkMem L o0V p j).view.set,
      ((chunkMem L o0V p j).view.writes (Elt F) f [⟨Rect.whole S32x768, ReadAs.same.apply w⟩]) i = pat0 d x0 i := by
  intro i hi
  obtain ⟨y, -, rfl⟩ := Finset.mem_map.mp hi
  -- the written block read back at `y` is the payload at `y`
  have key := View.read_writes_cons_emb (chunkMem L o0V p j).view f (Rect.whole S32x768) (ReadAs.same.apply w) [] y
  rw [Rect.emb_whole_apply] at key
  generalize (chunkMem L o0V p j).view.writes (Elt F) f [⟨Rect.whole S32x768, ReadAs.same.apply w⟩] = G at key ⊢
  have hG : G ((chunkMem L o0V p j).view.emb y) = (chunkMem L o0V p j).view.read (Elt F) G y := rfl
  rw [hG, key, ReadAs.apply_same]
  -- the payload is the patch's feature, and so is the patches matrix there
  have hy : y = ix2 (y 0) (y 1) := eq_ix2 y
  have hw : w y = xAt x0 (flatPos (chunkRow L p j + (y 0).val) (y 1).val) := by
    conv_lhs => rw [hy]
    exact h (y 0) (y 1) (y 0).isLt
  rw [hw]
  unfold pat0
  rw [Cert.Unfold.patchesFlat_eq_xAt]
  have e0 : (((chunkMem L o0V p j).view.emb y) 0).val = chunkRow L p j + (y 0).val := by
    show chunkRowC L p j + 1 * (y 0).val = _
    rw [chunkRowC_of_lt L p j hp hj]; omega
  have e1 : (((chunkMem L o0V p j).view.emb y) 1).val = (y 1).val := by
    show 0 + 1 * (y 1).val = _
    omega
  rw [e0, e1]

omit [FloatOps F] in
/-- The same over the second result and the second image. -/
theorem landed_o1 (p j : Nat) (hp : p < 3) (hj : j < nIss L p) (x1 : Buf (Elt F) (x1Loc d)) (f : Buf (Elt F) (o1Loc d))
    (w : S32x768.Idx → Elt F .f32) (h : RowsDone (α := Elt F .f32) w x1 (chunkRow L p j) 32) :
    ∀ i ∈ (chunkMem L o1V p j).view.set,
      ((chunkMem L o1V p j).view.writes (Elt F) f [⟨Rect.whole S32x768, ReadAs.same.apply w⟩]) i = pat1 d x1 i := by
  intro i hi
  obtain ⟨y, -, rfl⟩ := Finset.mem_map.mp hi
  -- the written block read back at `y` is the payload at `y`
  have key := View.read_writes_cons_emb (chunkMem L o1V p j).view f (Rect.whole S32x768) (ReadAs.same.apply w) [] y
  rw [Rect.emb_whole_apply] at key
  generalize (chunkMem L o1V p j).view.writes (Elt F) f [⟨Rect.whole S32x768, ReadAs.same.apply w⟩] = G at key ⊢
  have hG : G ((chunkMem L o1V p j).view.emb y) = (chunkMem L o1V p j).view.read (Elt F) G y := rfl
  rw [hG, key, ReadAs.apply_same]
  -- the payload is the patch's feature, and so is the patches matrix there
  have hy : y = ix2 (y 0) (y 1) := eq_ix2 y
  have hw : w y = xAt x1 (flatPos (chunkRow L p j + (y 0).val) (y 1).val) := by
    conv_lhs => rw [hy]
    exact h (y 0) (y 1) (y 0).isLt
  rw [hw]
  unfold pat1
  rw [Cert.Unfold.patchesFlat_eq_xAt]
  have e0 : (((chunkMem L o1V p j).view.emb y) 0).val = chunkRow L p j + (y 0).val := by
    show chunkRowC L p j + 1 * (y 0).val = _
    rw [chunkRowC_of_lt L p j hp hj]; omega
  have e1 : (((chunkMem L o1V p j).view.emb y) 1).val = (y 1).val := by
    show 0 + 1 * (y 1).val = _
    omega
  rw [e0, e1]

omit [FloatOps F] in
/-- The delivered rows of a landed chunk of the first result, restated over the chunk's rows at the patches matrix. -/
theorem landed_pts0 (p j : Nat) (hp : p < 3) (hj : j < nIss L p) (x0 : Buf (Elt F) (x0Loc d)) (f : Buf (Elt F) (o0Loc d))
    (w : S32x768.Idx → Elt F .f32) (h : RowsDone (α := Elt F .f32) w x0 (chunkRow L p j) 32) :
    ((chunkMem L o0V p j).view.loc (VT d L) ↦[(chunkMem L o0V p j).view.set]{fullShare}
        (chunkMem L o0V p j).view.writes (Elt F) f [⟨Rect.whole S32x768, ReadAs.same.apply w⟩] : sProp 𝕄)
      = (o0Loc d ↦[chunkSet L p j]{fullShare} pat0 d x0) := by
  rw [← chunkMem_set0 L p j hp hj]
  exact pointsTo_congr (landed_o0 d L p j hp hj x0 f w h)

omit [FloatOps F] in
/-- The same for the second result. -/
theorem landed_pts1 (p j : Nat) (hp : p < 3) (hj : j < nIss L p) (x1 : Buf (Elt F) (x1Loc d)) (f : Buf (Elt F) (o1Loc d))
    (w : S32x768.Idx → Elt F .f32) (h : RowsDone (α := Elt F .f32) w x1 (chunkRow L p j) 32) :
    ((chunkMem L o1V p j).view.loc (VT d L) ↦[(chunkMem L o1V p j).view.set]{fullShare}
        (chunkMem L o1V p j).view.writes (Elt F) f [⟨Rect.whole S32x768, ReadAs.same.apply w⟩] : sProp 𝕄)
      = (o1Loc d ↦[chunkSet L p j]{fullShare} pat1 d x1) := by
  rw [← chunkMem_set1 L p j hp hj]
  exact pointsTo_congr (landed_o1 d L p j hp hj x1 f w h)

/-! ## One trip of a row loop -/

omit [FloatOps F] in
/-- A staging buffer whose rows below `jj` hold the patches from `row0`, after writes that all lie in row `jj`, cover
    it, and put there the features of patch `row0 + jj`, has its rows below `jj + 1` holding the patches. -/
theorem rows_step {κ : Kind} {sp : Space} (v : View sig κ sp S32x768 .f32) (x : Cert.Unfold.SFlat.Idx → Elt F .f32)
    (row0 jj : Nat) (hjj : jj < 32) (t : v.ty.Contents (Elt F)) (Lp : List (View.Piece (Elt F) S32x768 .f32))
    (ht : RowsDone (α := Elt F .f32) (v.read (Elt F) t) x row0 jj)
    (hrow : ∀ p ∈ Lp, ∀ y ∈ p.1.set, (y 0).val = jj)
    (hval : ∀ p ∈ Lp, ∀ z : p.1.shape.Idx, p.2 z = xAt x (flatPos (row0 + jj) ((p.1.emb z) 1).val))
    (hcov : ∀ f : Fin 768, ∃ p ∈ Lp, (ix2 ⟨jj, hjj⟩ f : S32x768.Idx) ∈ p.1.set) :
    RowsDone (α := Elt F .f32) (v.read (Elt F) (v.writes (Elt F) t Lp)) x row0 (jj + 1) := by
  intro r f hr
  by_cases hlt : r.val < jj
  · -- an earlier row: no write reaches it
    refine (View.read_writes_apply_of_forall_not_mem v t (ix2 r f) Lp fun p hp hm => ?_).trans (ht r f hlt)
    have h0 : r.val = jj := hrow p hp _ hm
    omega
  · -- row `jj`: every write there is a block of the patch's features
    have hrj : r = ⟨jj, hjj⟩ := Fin.ext (show r.val = jj by omega)
    subst hrj
    obtain ⟨p, hp, hm⟩ := hcov f
    exact View.read_writes_apply_of_pieces v t (fun y => xAt x (flatPos (row0 + jj) (y 1).val)) Lp
      (fun p hp z => hval p hp z) (ix2 ⟨jj, hjj⟩ f) ⟨p, hp, hm⟩

/-! ## The writes of one trip of a row loop: blocks of 16 lanes of one row -/

omit [FloatOps F] in
/-- A block of 16 lanes at `(jj, c)` lies in row `jj`; -/
theorem piece_row {off : Fin 2 → Nat} {jj c : Nat} (h : off = ![jj, c])
    (inb : ∀ a, off a + S1x16.size a ≤ S32x768.size a) :
    ∀ y ∈ (Rect.unit (s := S32x768) off S1x16.size inb).set, (y 0).val = jj := by
  subst h
  intro y hy
  have h0 := (Rect.mem_set_unit.mp hy) 0
  have h1 : jj ≤ (y 0).val := h0.1
  have h2 : (y 0).val < jj + 1 := h0.2
  omega

omit [FloatOps F] in
/-- its lane `l` is column `c + l`; -/
theorem piece_emb1 {off : Fin 2 → Nat} {jj c : Nat} (h : off = ![jj, c])
    (inb : ∀ a, off a + S1x16.size a ≤ S32x768.size a) (z : (Rect.unit (s := S32x768) off S1x16.size inb).shape.Idx) :
    (((Rect.unit (s := S32x768) off S1x16.size inb).emb z) 1).val = c + (z 1).val := by
  subst h
  show c + 1 * (z 1).val = _
  omega

omit [FloatOps F] in
/-- and the block at column `16·s` holds the columns whose sixteenth is `s`. -/
theorem piece_cov {off : Fin 2 → Nat} {jj s : Nat} (h : off = ![jj, 16 * s])
    (inb : ∀ a, off a + S1x16.size a ≤ S32x768.size a) (hjj : jj < 32) (f : Fin 768) (hf : f.val / 16 = s) :
    (ix2 ⟨jj, hjj⟩ f : S32x768.Idx) ∈ (Rect.unit (s := S32x768) off S1x16.size inb).set := by
  subst h
  rw [Rect.mem_set_unit]
  intro a
  match a with
  | ⟨0, _⟩ => show jj ≤ jj ∧ jj < jj + 1; omega
  | ⟨1, _⟩ => show 16 * s ≤ f.val ∧ f.val < 16 * s + 16; omega

omit [FloatOps F] in
/-- Sixteen lanes re-shaped to a 1×16 block read lane `z 1`. -/
theorem pay_eq {α : Type} (v : S16.Idx → α) (h1 : S16.ShapeCasts S16) (h2 : S16.ShapeCasts S1x16) (z : S1x16.Idx) :
    shapeCast S1x16 (shapeCast S16 v h1) h2 z = v (ix1 (n := 16) (z 1)) := by
  have hz : (z 0).val = 0 := by have h : (z 0).val < 1 := (z 0).isLt; omega
  refine (shapeCast_apply _ h2 z (ix1 (n := 16) (z 1)) ?_).trans (shapeCast_apply _ h1 _ (ix1 (n := 16) (z 1)) rfl)
  rw [Shape.rowMajor_val_one, Shape.rowMajor_val_two, hz]
  show (z 1).val = 0 * 16 + (z 1).val
  omega

omit [FloatOps F] in
/-- Sixteen lanes loaded from the slab at position `off3 0` read the slab's words from there. -/
theorem load_eq (g : Buf (Elt F) ((slabV).view.loc (VT d L))) (off3 : Fin 1 → Nat)
    (inb3 : ∀ a, off3 a + S16.size a ≤ S49152.size a) (l : S16.Idx)
    (hl : off3 0 + (l 0).val < 49152) :
    View.readAt (Elt F) (slabV).view (Rect.unit (s := S49152) off3 S16.size inb3).toLoadRect g l
      = (slabV).view.read (Elt F) g (ix1 ⟨off3 0 + (l 0).val, hl⟩) := by
  rw [View.readAt_apply]
  congr 1
  funext a
  match a with
  | ⟨0, _⟩ =>
    apply Fin.ext
    show off3 0 + 1 * (l 0).val = off3 0 + (l 0).val
    omega

/-- What a row loop's trip asks of block `s` of its writes: it lies in row `jj`, it holds the features of patch `row`
    at its columns, and it holds the columns whose sixteenth is `s`. -/
def PieceOK (x : Cert.Unfold.SFlat.Idx → Elt F .f32) (row jj : Nat) (hjj : jj < 32) (s : Nat)
    (p : View.Piece (Elt F) S32x768 .f32) : Prop :=
  (∀ y ∈ p.1.set, (y 0).val = jj) ∧ (∀ z : p.1.shape.Idx, p.2 z = xAt x (flatPos row ((p.1.emb z) 1).val))
    ∧ ∀ f : Fin 768, f.val / 16 = s → (ix2 ⟨jj, hjj⟩ f : S32x768.Idx) ∈ p.1.set

/-- A list of writes, the newest first, whose blocks are `n − 1, …, 0`. -/
inductive PiecesOK (x : Cert.Unfold.SFlat.Idx → Elt F .f32) (row jj : Nat) (hjj : jj < 32) :
    Nat → List (View.Piece (Elt F) S32x768 .f32) → Prop
  | nil : PiecesOK x row jj hjj 0 []
  | cons {m : Nat} {p : View.Piece (Elt F) S32x768 .f32} {l : List (View.Piece (Elt F) S32x768 .f32)} :
      PieceOK x row jj hjj m p → PiecesOK x row jj hjj m l → PiecesOK x row jj hjj (m + 1) (p :: l)

omit [FloatOps F] in
theorem PiecesOK.forall {x : Cert.Unfold.SFlat.Idx → Elt F .f32} {row jj : Nat} {hjj : jj < 32} {n : Nat}
    {l : List (View.Piece (Elt F) S32x768 .f32)} (h : PiecesOK x row jj hjj n l) :
    ∀ p ∈ l, (∀ y ∈ p.1.set, (y 0).val = jj) ∧ ∀ z : p.1.shape.Idx, p.2 z = xAt x (flatPos row ((p.1.emb z) 1).val) := by
  induction h with
  | nil => intro p hp; exact absurd hp List.not_mem_nil
  | cons hp _ ih =>
    intro q hq
    rcases List.mem_cons.mp hq with rfl | hq
    · exact ⟨hp.1, hp.2.1⟩
    · exact ih q hq

omit [FloatOps F] in
theorem PiecesOK.cover {x : Cert.Unfold.SFlat.Idx → Elt F .f32} {row jj : Nat} {hjj : jj < 32} {n : Nat}
    {l : List (View.Piece (Elt F) S32x768 .f32)} (h : PiecesOK x row jj hjj n l) :
    ∀ f : Fin 768, f.val / 16 < n → ∃ p ∈ l, (ix2 ⟨jj, hjj⟩ f : S32x768.Idx) ∈ p.1.set := by
  induction h with
  | nil => intro f hf; exact absurd hf (Nat.not_lt_zero _)
  | @cons m p l hp _ ih =>
    intro f hf
    by_cases hm : f.val / 16 = m
    · exact ⟨p, List.mem_cons_self, hp.2.2 f hm⟩
    · obtain ⟨q, hq, hmem⟩ := ih f (by omega)
      exact ⟨q, List.mem_cons_of_mem _ hq, hmem⟩

omit [FloatOps F] in
/-- One trip of a row loop, from its 48 blocks. -/
theorem rows_step' {κ : Kind} {sp : Space} (v : View sig κ sp S32x768 .f32) (x : Cert.Unfold.SFlat.Idx → Elt F .f32)
    (row0 jj : Nat) (hjj : jj < 32) (t : v.ty.Contents (Elt F)) (Lp : List (View.Piece (Elt F) S32x768 .f32))
    (ht : RowsDone (α := Elt F .f32) (v.read (Elt F) t) x row0 jj)
    (hok : PiecesOK x (row0 + jj) jj hjj 48 Lp) :
    RowsDone (α := Elt F .f32) (v.read (Elt F) (v.writes (Elt F) t Lp)) x row0 (jj + 1) :=
  rows_step v x row0 jj hjj t Lp ht (fun p hp => (hok.forall p hp).1) (fun p hp => (hok.forall p hp).2)
    (fun f => hok.cover f (by have := f.isLt; omega))

omit [FloatOps F] in
/-- Block `16·c + kh` of a trip's writes: the sixteen lanes the slab holds at patch `row`'s place in channel `c`, patch
    row `kh`, written at columns `256·c + 16·kh + l` of buffer row `jj`, are the patch's features there. -/
theorem piece_ok (x : Cert.Unfold.SFlat.Idx → Elt F .f32) (g : Buf (Elt F) ((slabV).view.loc (VT d L)))
    (hg : SlabUpTo (α := Elt F .f32) ((slabV).view.read (Elt F) g) x (wstart L) 49152)
    (row jj : Nat) (hjj : jj < 32) (hr1 : wbase L ≤ row) (hr2 : row < wbase L + nrows L)
    (c : Fin 3) (kh : Fin 16)
    (off3 : Fin 1 → Nat) (h3 : off3 = ![slabOff L row + 16384 * c.val + 512 * kh.val]) (inb3 : ∀ a, off3 a + S16.size a ≤ S49152.size a)
    (off : Fin 2 → Nat) (h : off = ![jj, 16 * (16 * c.val + kh.val)]) (inb : ∀ a, off a + S1x16.size a ≤ S32x768.size a)
    (h1 : S16.ShapeCasts S16) (h2 : S16.ShapeCasts S1x16) :
    PieceOK x row jj hjj (16 * c.val + kh.val)
      ⟨Rect.unit (s := S32x768) off S1x16.size inb,
        shapeCast S1x16 (shapeCast S16
          (View.readAt (Elt F) (slabV).view (Rect.unit (s := S49152) off3 S16.size inb3).toLoadRect g) h1) h2⟩ := by
  refine ⟨piece_row h inb, fun z => ?_, fun f hf => piece_cov h inb hjj f hf⟩
  obtain ⟨hw1, hw2⟩ := window_ok L row hr1 hr2
  have hc : c.val < 3 := c.isLt
  have hkh : kh.val < 16 := kh.isLt
  have hz : (z 1).val < 16 := (z 1).isLt
  obtain ⟨hs, -⟩ := Cert.Unfold.lane_pos (wstart L) row c.val kh.val (z 1).val hc hkh hz hw1 hw2
  have e1 := piece_emb1 h inb z
  have e3 : off3 0 = slabOff L row + 16384 * c.val + 512 * kh.val := by rw [h3]; rfl
  have hl : off3 0 + (z 1).val < 49152 := by rw [e3]; unfold slabOff; omega
  show shapeCast S1x16 (shapeCast S16
      (View.readAt (Elt F) (slabV).view (Rect.unit (s := S49152) off3 S16.size inb3).toLoadRect g) h1) h2 z = _
  rw [e1]
  refine (pay_eq _ h1 h2 z).trans ((load_eq d L g off3 inb3 _ hl).trans ?_)
  have e := Cert.Unfold.slab_lane (α := Elt F .f32) ((slabV).view.read (Elt F) g) x (wstart L) (Cert.Unfold.slabOK_of_upTo hg)
    row c.val kh.val (z 1).val hc hkh hz hw1 hw2 hs
  have e4 : 16 * (16 * c.val + kh.val) + (z 1).val = 256 * c.val + 16 * kh.val + (z 1).val := by omega
  rw [e4, ← e]
  congr 2
  apply Fin.ext
  show off3 0 + (z 1).val = (2 * (row / 249) - wstart L) * 512 + 2 * (row % 249) + 16384 * c.val + 512 * kh.val + (z 1).val
  rw [e3]; unfold slabOff; omega

end Cert.Proof.KB

end
-- ==== Proof.InitBits.lean ====
/-
  What both passes of a tile's task need before their chunk loops: the slab after a channel's copy holds one more
  channel of the image's window, and each staging buffer's state before the first trip is its chunks untouched, the
  buffer at rest and its semaphore at zero.
-/
import proofs.«212940_g32057635897708_cont_8to1_b_1299_25_alg».proof.Proof.InvBits
import proofs.«212940_g32057635897708_cont_8to1_b_1299_25_alg».proof.Proof.BookBits
import proofs.«212940_g32057635897708_cont_8to1_b_1299_25_alg».proof.Proof.ArithBits
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)

/-! ## The slab after the three channel copies -/

/-- A position of the flattened image inside the array reads the image there. -/
theorem xAt_of_lt (x : Cert.Unfold.SFlat.Idx → Elt F .f32) (p : Nat) (h : p < 786432) :
    xAt x p = x (Idealize.ShloMosaic.ValueIdx.ix1 ⟨p, h⟩) := by
  unfold Cert.Unfold.xAt; rw [dif_pos h]

theorem wstart_le (L : grid0.Coords) : wstart L ≤ 480 := by unfold wstart; exact Nat.min_le_right _ _

/-- One more channel: the slab filled below `16384·c`, then channel `c`'s 32 image rows written at `16384·c`. -/
theorem slabUpTo_chan (x : Cert.Unfold.SFlat.Idx → Elt F .f32) (ws : Nat)
    (f : (slabV).view.ty.Contents (Elt F)) (Ls : List (View.Piece (Elt F) S49152 .f32))
    (c : Nat) (off : Fin 1 → Nat) (inb : ∀ a, off a + S16384.size a ≤ S49152.size a) (hoff : off = ![16384 * c])
    (w : (Rect.unit (s := S49152) off S16384.size inb).shape.Idx → Elt F .f32)
    (hw : ∀ i : (Rect.unit (s := S49152) off S16384.size inb).shape.Idx, w i = xAt x (262144 * c + 512 * ws + (i 0).val))
    (hprev : SlabUpTo (α := Elt F .f32) ((slabV).view.read (Elt F) ((slabV).view.writes (Elt F) f Ls)) x ws (16384 * c)) :
    SlabUpTo (α := Elt F .f32) ((slabV).view.read (Elt F) ((slabV).view.writes (Elt F) f (⟨Rect.unit (s := S49152) off S16384.size inb, w⟩ :: Ls)))
      x ws (16384 * (c + 1)) := by
  intro s hs
  by_cases hlt : s.val < 16384 * c
  · rw [View.read_writes_cons_unit_of_not_mem _ _ inb w Ls _ hoff 0 (Or.inl hlt)]
    exact hprev s hlt
  · have hge : 16384 * c ≤ s.val := Nat.le_of_not_lt hlt
    rw [View.read_writes_cons_unit_of_mem _ _ inb w Ls _ (fun a => ⟨s.val - 16384 * c, by
        have ha : a = 0 := Subsingleton.elim _ _
        subst ha
        show s.val - 16384 * c < 16384; omega⟩) hoff
      (fun a => by
        have ha : a = 0 := Subsingleton.elim _ _
        subst ha
        show s.val = 16384 * c + (s.val - 16384 * c); omega), hw]
    have h1 : s.val / 16384 = c := by omega
    have h2 : s.val % 16384 = s.val - 16384 * c := by omega
    show xAt x (262144 * c + 512 * ws + (s.val - 16384 * c)) = _
    rw [h1, h2]

/-- What the copy of channel `c`'s window delivers: the image from that window's first pixel. -/
theorem chan_payload (L : grid0.Coords) (x1 : Buf (Elt F) (x1Loc d)) (c : Fin 3) (off : Fin 1 → Nat)
    (inb : ∀ a, off a + S16384.size a ≤ S786432.size a) (hoff : off = ![262144 * c.val + 512 * wstart L])
    (hr : ∀ a, (Rect.unit (s := S786432) off S16384.size inb).stride a = 1) (i : S16384.Idx) :
    ReadAs.same.apply (View.read (Elt F) ((x1V).slice (Rect.unit (s := S786432) off S16384.size inb) hr).view x1) i
      = xAt (α := Elt F .f32) x1 (262144 * c.val + 512 * wstart L + (i 0).val) := by
  subst hoff
  have hc := c.isLt
  have hi : (i 0).val < 16384 := (i 0).isLt
  have hws := wstart_le L
  rw [xAt_of_lt _ _ (by omega)]
  show x1 _ = x1 _
  refine congrArg x1 (funext fun (a : Fin 1) => ?_)
  have ha : a = 0 := Subsingleton.elim _ _
  subst ha
  refine Fin.ext ?_
  show (262144 * c.val + 512 * wstart L) + 1 * (i 0).val = 262144 * c.val + 512 * wstart L + (i 0).val
  omega

/-- The same for the first image. -/
theorem chan_payload0 (L : grid0.Coords) (x0 : Buf (Elt F) (x0Loc d)) (c : Fin 3) (off : Fin 1 → Nat)
    (inb : ∀ a, off a + S16384.size a ≤ S786432.size a) (hoff : off = ![262144 * c.val + 512 * wstart L])
    (hr : ∀ a, (Rect.unit (s := S786432) off S16384.size inb).stride a = 1) (i : S16384.Idx) :
    ReadAs.same.apply (View.read (Elt F) ((x0V).slice (Rect.unit (s := S786432) off S16384.size inb) hr).view x0) i
      = xAt (α := Elt F .f32) x0 (262144 * c.val + 512 * wstart L + (i 0).val) := by
  subst hoff
  have hc := c.isLt
  have hi : (i 0).val < 16384 := (i 0).isLt
  have hws := wstart_le L
  rw [xAt_of_lt _ _ (by omega)]
  show x0 _ = x0 _
  refine congrArg x0 (funext fun (a : Fin 1) => ?_)
  have ha : a = 0 := Subsingleton.elim _ _
  subst ha
  refine Fin.ext ?_
  show (262144 * c.val + 512 * wstart L) + 1 * (i 0).val = 262144 * c.val + 512 * wstart L + (i 0).val
  omega

/-- The slab after the three copies holds the second image's window. -/
theorem slab_filled (L : grid0.Coords) (x1 : Buf (Elt F) (x1Loc d)) (f : (slabV).view.ty.Contents (Elt F)) :
    SlabUpTo (α := Elt F .f32) ((slabV).view.read (Elt F) ((slabV).view.writes (Elt F) f
      [⟨Rect.unit (s := S49152) ![32768] S16384.size inb_S49152_S16384_32768,
          ReadAs.same.apply (View.read (Elt F) ((x1V).slice (Rect.unit (s := S786432) (k0_off1 L 524288#32) S16384.size (k0_off1_inb L 2)) (fun _ => rfl)).view x1)⟩,
        ⟨Rect.unit (s := S49152) ![16384] S16384.size inb_S49152_S16384_16384,
          ReadAs.same.apply (View.read (Elt F) ((x1V).slice (Rect.unit (s := S786432) (k0_off1 L 262144#32) S16384.size (k0_off1_inb L 1)) (fun _ => rfl)).view x1)⟩,
        ⟨Rect.unit (s := S49152) ![0] S16384.size inb_S49152_S16384_0,
          ReadAs.same.apply (View.read (Elt F) ((x1V).slice (Rect.unit (s := S786432) (k0_off1 L 0#32) S16384.size (k0_off1_inb L 0)) (fun _ => rfl)).view x1)⟩]))
      x1 (wstart L) 49152 :=
  slabUpTo_chan x1 (wstart L) f _ 2 _ _ rfl _ (fun i => chan_payload d L x1 2 _ _ (off1_eq L 2) _ i)
    (slabUpTo_chan x1 (wstart L) f _ 1 _ _ rfl _ (fun i => chan_payload d L x1 1 _ _ (off1_eq L 1) _ i)
      (slabUpTo_chan x1 (wstart L) f [] 0 _ _ rfl _ (fun i => chan_payload d L x1 0 _ _ (off1_eq L 0) _ i)
        (Cert.Unfold.slabUpTo_zero _ _ _)))

/-- The slab holding the first image's window below the third channel, after the third channel's copy: the whole window. -/
theorem slab_filled2_x0 (L : grid0.Coords) (x0 : Buf (Elt F) (x0Loc d)) (g : (slabV).view.ty.Contents (Elt F))
    (hprev : SlabUpTo (α := Elt F .f32) ((slabV).view.read (Elt F) g) x0 (wstart L) 32768) :
    SlabUpTo (α := Elt F .f32) ((slabV).view.read (Elt F) ((slabV).view.writes (Elt F) g
      [⟨Rect.unit (s := S49152) ![32768] S16384.size inb_S49152_S16384_32768,
          ReadAs.same.apply (View.read (Elt F) ((x0V).slice (Rect.unit (s := S786432) (k0_off1 L 524288#32) S16384.size (k0_off1_inb L 2)) (fun _ => rfl)).view x0)⟩]))
      x0 (wstart L) 49152 :=
  slabUpTo_chan x0 (wstart L) g [] 2 _ _ rfl _ (fun i => chan_payload0 d L x0 2 _ _ (off1_eq L 2) _ i) hprev

/-! ## The chunk loop's invariant before its first trip -/

theorem issued_zero (L : grid0.Coords) (p : Nat) : issued L p 0 = 0 := by unfold issued; exact Nat.zero_min _

/-! ### The second pass -/

theorem bufState1_0_init (x : Buf (Elt F) (x1Loc d)) (f : Buf (Elt F) (o1Loc d)) (t : Buf (Elt F) ((b0V).view.loc (VT d L))) :
    (iprop((bigSep (Finset.range (nIss L 0)) fun j => o1Loc d ↦[chunkSet L 0 j]{fullShare} f)
      ∗ ((b0V).view.loc (VT d L) ↦[(b0V).view.set]{fullShare} t) ∗ semVal (VT d L, SemLoc.dma (dsem 0)) 0) : sProp 𝕄)
    ⊢ bufState1_0 d L x f 0 := by
  unfold bufState1_0
  rw [issued_zero, if_pos rfl, Nat.zero_sub, Finset.range_zero, bigSep_empty, ← todo_all]
  unfold bufIdle0
  iintro ⟨HD, HT, Hc⟩
  isplitl []
  · iempintro
  isplitl [HD]; · iexact HD
  isplitl [HT]; · iexists t; iexact HT
  iexact Hc

theorem bufState1_1_init (x : Buf (Elt F) (x1Loc d)) (f : Buf (Elt F) (o1Loc d)) (t : Buf (Elt F) ((b1V).view.loc (VT d L))) :
    (iprop((bigSep (Finset.range (nIss L 1)) fun j => o1Loc d ↦[chunkSet L 1 j]{fullShare} f)
      ∗ ((b1V).view.loc (VT d L) ↦[(b1V).view.set]{fullShare} t) ∗ semVal (VT d L, SemLoc.dma (dsem 1)) 0) : sProp 𝕄)
    ⊢ bufState1_1 d L x f 0 := by
  unfold bufState1_1
  rw [issued_zero, if_pos rfl, Nat.zero_sub, Finset.range_zero, bigSep_empty, ← todo_all]
  unfold bufIdle1
  iintro ⟨HD, HT, Hc⟩
  isplitl []
  · iempintro
  isplitl [HD]; · iexact HD
  isplitl [HT]; · iexists t; iexact HT
  iexact Hc

theorem bufState1_2_init (x : Buf (Elt F) (x1Loc d)) (f : Buf (Elt F) (o1Loc d)) (t : Buf (Elt F) ((b2V).view.loc (VT d L))) :
    (iprop((bigSep (Finset.range (nIss L 2)) fun j => o1Loc d ↦[chunkSet L 2 j]{fullShare} f)
      ∗ ((b2V).view.loc (VT d L) ↦[(b2V).view.set]{fullShare} t) ∗ semVal (VT d L, SemLoc.dma (dsem 2)) 0) : sProp 𝕄)
    ⊢ bufState1_2 d L x f 0 := by
  unfold bufState1_2
  rw [issued_zero, if_pos rfl, Nat.zero_sub, Finset.range_zero, bigSep_empty, ← todo_all]
  unfold bufIdle2
  iintro ⟨HD, HT, Hc⟩
  isplitl []
  · iempintro
  isplitl [HD]; · iexact HD
  isplitl [HT]; · iexists t; iexact HT
  iexact Hc

/-! ### The first pass -/

theorem bufState0_0_init (x : Buf (Elt F) (x0Loc d)) (f : Buf (Elt F) (o0Loc d)) (t : Buf (Elt F) ((b0V).view.loc (VT d L))) :
    (iprop((bigSep (Finset.range (nIss L 0)) fun j => o0Loc d ↦[chunkSet L 0 j]{fullShare} f)
      ∗ ((b0V).view.loc (VT d L) ↦[(b0V).view.set]{fullShare} t) ∗ semVal (VT d L, SemLoc.dma (dsem 0)) 0) : sProp 𝕄)
    ⊢ bufState0_0 d L x f 0 := by
  unfold bufState0_0
  rw [issued_zero, if_pos rfl, Nat.zero_sub, Finset.range_zero, bigSep_empty, ← todo_all]
  unfold bufIdle0
  iintro ⟨HD, HT, Hc⟩
  isplitl []
  · iempintro
  isplitl [HD]; · iexact HD
  isplitl [HT]; · iexists t; iexact HT
  iexact Hc

theorem bufState0_1_init (x : Buf (Elt F) (x0Loc d)) (f : Buf (Elt F) (o0Loc d)) (t : Buf (Elt F) ((b1V).view.loc (VT d L))) :
    (iprop((bigSep (Finset.range (nIss L 1)) fun j => o0Loc d ↦[chunkSet L 1 j]{fullShare} f)
      ∗ ((b1V).view.loc (VT d L) ↦[(b1V).view.set]{fullShare} t) ∗ semVal (VT d L, SemLoc.dma (dsem 1)) 0) : sProp 𝕄)
    ⊢ bufState0_1 d L x f 0 := by
  unfold bufState0_1
  rw [issued_zero, if_pos rfl, Nat.zero_sub, Finset.range_zero, bigSep_empty, ← todo_all]
  unfold bufIdle1
  iintro ⟨HD, HT, Hc⟩
  isplitl []
  · iempintro
  isplitl [HD]; · iexact HD
  isplitl [HT]; · iexists t; iexact HT
  iexact Hc

theorem bufState0_2_init (x : Buf (Elt F) (x0Loc d)) (f : Buf (Elt F) (o0Loc d)) (t : Buf (Elt F) ((b2V).view.loc (VT d L))) :
    (iprop((bigSep (Finset.range (nIss L 2)) fun j => o0Loc d ↦[chunkSet L 2 j]{fullShare} f)
      ∗ ((b2V).view.loc (VT d L) ↦[(b2V).view.set]{fullShare} t) ∗ semVal (VT d L, SemLoc.dma (dsem 2)) 0) : sProp 𝕄)
    ⊢ bufState0_2 d L x f 0 := by
  unfold bufState0_2
  rw [issued_zero, if_pos rfl, Nat.zero_sub, Finset.range_zero, bigSep_empty, ← todo_all]
  unfold bufIdle2
  iintro ⟨HD, HT, Hc⟩
  isplitl []
  · iempintro
  isplitl [HD]; · iexact HD
  isplitl [HT]; · iexists t; iexact HT
  iexact Hc

end Cert.Proof.KB

end
-- ==== Proof.ValTailBits.lean ====
/-
  What the end of the first pass leaves in a result: the last chunk of buffer 0 as the program slices it, and
  the last tile's two tail pieces, delivered from staging buffer 0 when its rows hold the patches, hold the image's
  patches; a tile without a tail holds its (empty) tail pieces at any contents.
-/
import proofs.«212940_g32057635897708_cont_8to1_b_1299_25_alg».proof.Proof.InvBits
import proofs.«212940_g32057635897708_cont_8to1_b_1299_25_alg».proof.Proof.BookBits
import proofs.«212940_g32057635897708_cont_8to1_b_1299_25_alg».proof.Proof.ValMemBits
import proofs.«212940_g32057635897708_cont_8to1_b_1299_25_alg».proof.Proof.ProgMemBits
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)
/-! ## The first pass -/

omit [FloatOps F] in
/-- A chunk of the first result sliced at an offset vector that is the chunk's, delivered whole from a block whose rows
    hold the patches from the chunk's first row, holds the image's patches. -/
theorem landed_respell0 (off : Fin 2 → Nat) (p j : Nat) (hoff : off = ![chunkRowC L p j, 0])
    (inb : ∀ a, off a + S32x768.size a ≤ S62001x768.size a) (hp : p < 3) (hj : j < nIss L p)
    (x0 : Buf (Elt F) (x0Loc d)) (f : Buf (Elt F) (o0Loc d))
    (w : S32x768.Idx → Elt F .f32) (h : RowsDone (α := Elt F .f32) w x0 (chunkRow L p j) 32) :
    ((((o0V).slice (Rect.unit (s := S62001x768) off S32x768.size inb) (fun _ => rfl)).view.loc (VT d L)
        ↦[((o0V).slice (Rect.unit (s := S62001x768) off S32x768.size inb) (fun _ => rfl)).view.set]{fullShare}
        ((o0V).slice (Rect.unit (s := S62001x768) off S32x768.size inb) (fun _ => rfl)).view.writes (Elt F) f
          [⟨Rect.whole S32x768, ReadAs.same.apply w⟩]) : sProp 𝕄)
      = o0Loc d ↦[chunkSet L p j]{fullShare} pat0 d x0 := by
  subst hoff
  exact landed_pts0 d L p j hp hj x0 f w h

omit [FloatOps F] in
theorem last_landed0 (h7 : k0_cond7 L = 1#1) (x0 : Buf (Elt F) (x0Loc d)) (f : Buf (Elt F) (o0Loc d))
    (w : S32x768.Idx → Elt F .f32) (h : RowsDone (α := Elt F .f32) w x0 (chunkRow L 0 20) 32) :
    ((((o0V).slice (Rect.unit (s := S62001x768) (k0_off205 L) S32x768.size (k0_off205_inb L h7)) (fun _ => rfl)).view.loc (VT d L)
        ↦[((o0V).slice (Rect.unit (s := S62001x768) (k0_off205 L) S32x768.size (k0_off205_inb L h7)) (fun _ => rfl)).view.set]{fullShare}
        ((o0V).slice (Rect.unit (s := S62001x768) (k0_off205 L) S32x768.size (k0_off205_inb L h7)) (fun _ => rfl)).view.writes (Elt F) f
          [⟨Rect.whole S32x768, ReadAs.same.apply w⟩]) : sProp 𝕄)
      = o0Loc d ↦[chunkSet L 0 20]{fullShare} pat0 d x0 :=
  landed_respell0 d L (k0_off205 L) 0 20 (off205_chunk L h7) (k0_off205_inb L h7) (by omega)
    (by have := (cond7_iff L).mp h7; unfold nIss nch; rw [if_neg this]; omega) x0 f w h

omit [FloatOps F] in
/-- Entry `(r, c)` of a block written whole over the last tile's 16-row tail piece lands at row `61984 + r`, column
    `c`; if the block's entries are the patches' features there, the piece holds the image's patches. -/
theorem tailA_val (x0 : Buf (Elt F) (x0Loc d)) (f : Buf (Elt F) (o0Loc d)) (w : S16x768.Idx → Elt F .f32)
    (hw : ∀ y : S16x768.Idx, w y = xAt x0 (flatPos (61984 + (y 0).val) (y 1).val)) :
    ∀ i ∈ ((o0V).slice (Rect.unit (s := S62001x768) ![61984, 0] S16x768.size inb_S62001x768_S16x768_61984_0) (fun _ => rfl)).view.set,
      (((o0V).slice (Rect.unit (s := S62001x768) ![61984, 0] S16x768.size inb_S62001x768_S16x768_61984_0) (fun _ => rfl)).view.writes (Elt F) f [⟨Rect.whole S16x768, ReadAs.same.apply w⟩]) i = pat0 d x0 i := by
  intro i hi
  obtain ⟨y, -, rfl⟩ := Finset.mem_map.mp hi
  have key := View.read_writes_cons_emb ((o0V).slice (Rect.unit (s := S62001x768) ![61984, 0] S16x768.size inb_S62001x768_S16x768_61984_0) (fun _ => rfl)).view f (Rect.whole S16x768) (ReadAs.same.apply w) [] y
  have e1 : (Rect.whole S16x768).emb y = y := Rect.emb_whole_apply S16x768 y
  rw [e1] at key
  -- read back through the piece's view, the written block is the payload; the prior contents play no part
  generalize ((o0V).slice (Rect.unit (s := S62001x768) ![61984, 0] S16x768.size inb_S62001x768_S16x768_61984_0) (fun _ => rfl)).view.writes (Elt F) f [⟨Rect.whole S16x768, ReadAs.same.apply w⟩] = G at key ⊢
  have hG : G (((o0V).slice (Rect.unit (s := S62001x768) ![61984, 0] S16x768.size inb_S62001x768_S16x768_61984_0) (fun _ => rfl)).view.emb y) = ((o0V).slice (Rect.unit (s := S62001x768) ![61984, 0] S16x768.size inb_S62001x768_S16x768_61984_0) (fun _ => rfl)).view.read (Elt F) G y := rfl
  rw [hG, key, ReadAs.apply_same, hw y]
  unfold pat0
  rw [Cert.Unfold.patchesFlat_eq_xAt]
  have e0 : ((((o0V).slice (Rect.unit (s := S62001x768) ![61984, 0] S16x768.size inb_S62001x768_S16x768_61984_0) (fun _ => rfl)).view.emb y) 0).val = 61984 + (y 0).val := by
    show 61984 + 1 * (y 0).val = _; omega
  have e1' : ((((o0V).slice (Rect.unit (s := S62001x768) ![61984, 0] S16x768.size inb_S62001x768_S16x768_61984_0) (fun _ => rfl)).view.emb y) 1).val = (y 1).val := by
    show 0 + 1 * (y 1).val = _; omega
  rw [e0, e1']

omit [FloatOps F] in
/-- Rows `0 …` of staging buffer 0, read through the 16-row slice, are the patches from row 61984. -/
theorem tailA_pay (x0 : Buf (Elt F) (x0Loc d)) (t : Buf (Elt F) ((b0V).view.loc (VT d L)))
    (ht : RowsDone (α := Elt F .f32) ((b0V).view.read (Elt F) t) x0 61984 17) (y : S16x768.Idx) :
    (((b0V).slice (Rect.unit (s := S32x768) ![0, 0] S16x768.size inb_S32x768_S16x768_0_0) (fun _ => rfl)).view.read (Elt F) t) y = xAt x0 (flatPos (61984 + (y 0).val) (y 1).val) := by
  have h0 : (y 0).val < 16 := (y 0).isLt
  have hr : 0 + (y 0).val < 32 := by omega
  have hrow := ht ⟨0 + (y 0).val, hr⟩ (y 1) (by show 0 + (y 0).val < 17; omega)
  have e : 61984 + (0 + (y 0).val) = 61984 + (y 0).val := by omega
  rw [show (⟨0 + (y 0).val, hr⟩ : Fin 32).val = 0 + (y 0).val from rfl, e] at hrow
  refine Eq.trans ?_ hrow
  have hemb : ((b0V).slice (Rect.unit (s := S32x768) ![0, 0] S16x768.size inb_S32x768_S16x768_0_0) (fun _ => rfl)).view.emb y = (b0V).view.emb (ix2 ⟨0 + (y 0).val, hr⟩ (y 1)) := by
    funext a
    apply Fin.ext
    match a with
    | ⟨0, _⟩ => show 0 + 1 * (y 0).val = 0 + (y 0).val; omega
    | ⟨1, _⟩ => show 0 + 1 * (y 1).val = (y 1).val; omega
  rw [View.read_apply, View.read_apply, hemb]

omit [FloatOps F] in
theorem tailA_landed0 (hw : wid L = 31) (x0 : Buf (Elt F) (x0Loc d)) (f : Buf (Elt F) (o0Loc d))
    (t : Buf (Elt F) ((b0V).view.loc (VT d L))) (ht : RowsDone (α := Elt F .f32) ((b0V).view.read (Elt F) t) x0 61984 17) :
    ((((o0V).slice (Rect.unit (s := S62001x768) ![61984, 0] S16x768.size inb_S62001x768_S16x768_61984_0) (fun _ => rfl)).view.loc (VT d L)
        ↦[((o0V).slice (Rect.unit (s := S62001x768) ![61984, 0] S16x768.size inb_S62001x768_S16x768_61984_0) (fun _ => rfl)).view.set]{fullShare}
        ((o0V).slice (Rect.unit (s := S62001x768) ![61984, 0] S16x768.size inb_S62001x768_S16x768_61984_0) (fun _ => rfl)).view.writes (Elt F) f
          [⟨Rect.whole S16x768, ReadAs.same.apply (((b0V).slice (Rect.unit (s := S32x768) ![0, 0] S16x768.size inb_S32x768_S16x768_0_0) (fun _ => rfl)).view.read (Elt F) t)⟩]) : sProp 𝕄)
      = o0Loc d ↦[tailSetA L]{fullShare} pat0 d x0 := by
  rw [← (set_o0_slice (Rect.unit (s := S62001x768) ![61984, 0] S16x768.size inb_S62001x768_S16x768_61984_0) (fun _ => rfl)).trans (tailA_set L hw)]
  exact pointsTo_congr (tailA_val d x0 f _ (tailA_pay d L x0 t ht))

omit [FloatOps F] in
/-- Entry `(r, c)` of a block written whole over the last tile's 1-row tail piece lands at row `62000 + r`, column
    `c`; if the block's entries are the patches' features there, the piece holds the image's patches. -/
theorem tailB_val (x0 : Buf (Elt F) (x0Loc d)) (f : Buf (Elt F) (o0Loc d)) (w : S1x768.Idx → Elt F .f32)
    (hw : ∀ y : S1x768.Idx, w y = xAt x0 (flatPos (62000 + (y 0).val) (y 1).val)) :
    ∀ i ∈ ((o0V).slice (Rect.unit (s := S62001x768) ![62000, 0] S1x768.size inb_S62001x768_S1x768_62000_0) (fun _ => rfl)).view.set,
      (((o0V).slice (Rect.unit (s := S62001x768) ![62000, 0] S1x768.size inb_S62001x768_S1x768_62000_0) (fun _ => rfl)).view.writes (Elt F) f [⟨Rect.whole S1x768, ReadAs.same.apply w⟩]) i = pat0 d x0 i := by
  intro i hi
  obtain ⟨y, -, rfl⟩ := Finset.mem_map.mp hi
  have key := View.read_writes_cons_emb ((o0V).slice (Rect.unit (s := S62001x768) ![62000, 0] S1x768.size inb_S62001x768_S1x768_62000_0) (fun _ => rfl)).view f (Rect.whole S1x768) (ReadAs.same.apply w) [] y
  have e1 : (Rect.whole S1x768).emb y = y := Rect.emb_whole_apply S1x768 y
  rw [e1] at key
  -- read back through the piece's view, the written block is the payload; the prior contents play no part
  generalize ((o0V).slice (Rect.unit (s := S62001x768) ![62000, 0] S1x768.size inb_S62001x768_S1x768_62000_0) (fun _ => rfl)).view.writes (Elt F) f [⟨Rect.whole S1x768, ReadAs.same.apply w⟩] = G at key ⊢
  have hG : G (((o0V).slice (Rect.unit (s := S62001x768) ![62000, 0] S1x768.size inb_S62001x768_S1x768_62000_0) (fun _ => rfl)).view.emb y) = ((o0V).slice (Rect.unit (s := S62001x768) ![62000, 0] S1x768.size inb_S62001x768_S1x768_62000_0) (fun _ => rfl)).view.read (Elt F) G y := rfl
  rw [hG, key, ReadAs.apply_same, hw y]
  unfold pat0
  rw [Cert.Unfold.patchesFlat_eq_xAt]
  have e0 : ((((o0V).slice (Rect.unit (s := S62001x768) ![62000, 0] S1x768.size inb_S62001x768_S1x768_62000_0) (fun _ => rfl)).view.emb y) 0).val = 62000 + (y 0).val := by
    show 62000 + 1 * (y 0).val = _; omega
  have e1' : ((((o0V).slice (Rect.unit (s := S62001x768) ![62000, 0] S1x768.size inb_S62001x768_S1x768_62000_0) (fun _ => rfl)).view.emb y) 1).val = (y 1).val := by
    show 0 + 1 * (y 1).val = _; omega
  rw [e0, e1']

omit [FloatOps F] in
/-- Rows `16 …` of staging buffer 0, read through the 1-row slice, are the patches from row 62000. -/
theorem tailB_pay (x0 : Buf (Elt F) (x0Loc d)) (t : Buf (Elt F) ((b0V).view.loc (VT d L)))
    (ht : RowsDone (α := Elt F .f32) ((b0V).view.read (Elt F) t) x0 61984 17) (y : S1x768.Idx) :
    (((b0V).slice (Rect.unit (s := S32x768) ![16, 0] S1x768.size inb_S32x768_S1x768_16_0) (fun _ => rfl)).view.read (Elt F) t) y = xAt x0 (flatPos (62000 + (y 0).val) (y 1).val) := by
  have h0 : (y 0).val < 1 := (y 0).isLt
  have hr : 16 + (y 0).val < 32 := by omega
  have hrow := ht ⟨16 + (y 0).val, hr⟩ (y 1) (by show 16 + (y 0).val < 17; omega)
  have e : 61984 + (16 + (y 0).val) = 62000 + (y 0).val := by omega
  rw [show (⟨16 + (y 0).val, hr⟩ : Fin 32).val = 16 + (y 0).val from rfl, e] at hrow
  refine Eq.trans ?_ hrow
  have hemb : ((b0V).slice (Rect.unit (s := S32x768) ![16, 0] S1x768.size inb_S32x768_S1x768_16_0) (fun _ => rfl)).view.emb y = (b0V).view.emb (ix2 ⟨16 + (y 0).val, hr⟩ (y 1)) := by
    funext a
    apply Fin.ext
    match a with
    | ⟨0, _⟩ => show 16 + 1 * (y 0).val = 16 + (y 0).val; omega
    | ⟨1, _⟩ => show 0 + 1 * (y 1).val = (y 1).val; omega
  rw [View.read_apply, View.read_apply, hemb]

omit [FloatOps F] in
theorem tailB_landed0 (hw : wid L = 31) (x0 : Buf (Elt F) (x0Loc d)) (f : Buf (Elt F) (o0Loc d))
    (t : Buf (Elt F) ((b0V).view.loc (VT d L))) (ht : RowsDone (α := Elt F .f32) ((b0V).view.read (Elt F) t) x0 61984 17) :
    ((((o0V).slice (Rect.unit (s := S62001x768) ![62000, 0] S1x768.size inb_S62001x768_S1x768_62000_0) (fun _ => rfl)).view.loc (VT d L)
        ↦[((o0V).slice (Rect.unit (s := S62001x768) ![62000, 0] S1x768.size inb_S62001x768_S1x768_62000_0) (fun _ => rfl)).view.set]{fullShare}
        ((o0V).slice (Rect.unit (s := S62001x768) ![62000, 0] S1x768.size inb_S62001x768_S1x768_62000_0) (fun _ => rfl)).view.writes (Elt F) f
          [⟨Rect.whole S1x768, ReadAs.same.apply (((b0V).slice (Rect.unit (s := S32x768) ![16, 0] S1x768.size inb_S32x768_S1x768_16_0) (fun _ => rfl)).view.read (Elt F) t)⟩]) : sProp 𝕄)
      = o0Loc d ↦[tailSetB L]{fullShare} pat0 d x0 := by
  rw [← (set_o0_slice (Rect.unit (s := S62001x768) ![62000, 0] S1x768.size inb_S62001x768_S1x768_62000_0) (fun _ => rfl)).trans (tailB_set L hw)]
  exact pointsTo_congr (tailB_val d x0 f _ (tailB_pay d L x0 t ht))

omit [FloatOps F] in
/-- A tile other than the last has no tail: its (empty) tail pieces hold whatever one likes. -/
theorem tailA_none (hw : ¬ wid L = 31) (f g : Buf (Elt F) (o0Loc d)) :
    (o0Loc d ↦[tailSetA L]{fullShare} f : sProp 𝕄) = o0Loc d ↦[tailSetA L]{fullShare} g :=
  pointsTo_congr fun i hi => by unfold tailSetA at hi; rw [if_neg hw] at hi; exact absurd hi (Finset.notMem_empty i)
omit [FloatOps F] in
theorem tailB_none (hw : ¬ wid L = 31) (f g : Buf (Elt F) (o0Loc d)) :
    (o0Loc d ↦[tailSetB L]{fullShare} f : sProp 𝕄) = o0Loc d ↦[tailSetB L]{fullShare} g :=
  pointsTo_congr fun i hi => by unfold tailSetB at hi; rw [if_neg hw] at hi; exact absurd hi (Finset.notMem_empty i)

/-! ## The second pass -/

omit [FloatOps F] in
/-- A chunk of the second result sliced at an offset vector that is the chunk's, delivered whole from a block whose rows
    hold the patches from the chunk's first row, holds the image's patches. -/
theorem landed_respell1 (off : Fin 2 → Nat) (p j : Nat) (hoff : off = ![chunkRowC L p j, 0])
    (inb : ∀ a, off a + S32x768.size a ≤ S62001x768.size a) (hp : p < 3) (hj : j < nIss L p)
    (x1 : Buf (Elt F) (x1Loc d)) (f : Buf (Elt F) (o1Loc d))
    (w : S32x768.Idx → Elt F .f32) (h : RowsDone (α := Elt F .f32) w x1 (chunkRow L p j) 32) :
    ((((o1V).slice (Rect.unit (s := S62001x768) off S32x768.size inb) (fun _ => rfl)).view.loc (VT d L)
        ↦[((o1V).slice (Rect.unit (s := S62001x768) off S32x768.size inb) (fun _ => rfl)).view.set]{fullShare}
        ((o1V).slice (Rect.unit (s := S62001x768) off S32x768.size inb) (fun _ => rfl)).view.writes (Elt F) f
          [⟨Rect.whole S32x768, ReadAs.same.apply w⟩]) : sProp 𝕄)
      = o1Loc d ↦[chunkSet L p j]{fullShare} pat1 d x1 := by
  subst hoff
  exact landed_pts1 d L p j hp hj x1 f w h

omit [FloatOps F] in
theorem last_landed1 (h16 : k0_cond16 L = 1#1) (x1 : Buf (Elt F) (x1Loc d)) (f : Buf (Elt F) (o1Loc d))
    (w : S32x768.Idx → Elt F .f32) (h : RowsDone (α := Elt F .f32) w x1 (chunkRow L 0 20) 32) :
    ((((o1V).slice (Rect.unit (s := S62001x768) (k0_off458 L) S32x768.size (k0_off458_inb L h16)) (fun _ => rfl)).view.loc (VT d L)
        ↦[((o1V).slice (Rect.unit (s := S62001x768) (k0_off458 L) S32x768.size (k0_off458_inb L h16)) (fun _ => rfl)).view.set]{fullShare}
        ((o1V).slice (Rect.unit (s := S62001x768) (k0_off458 L) S32x768.size (k0_off458_inb L h16)) (fun _ => rfl)).view.writes (Elt F) f
          [⟨Rect.whole S32x768, ReadAs.same.apply w⟩]) : sProp 𝕄)
      = o1Loc d ↦[chunkSet L 0 20]{fullShare} pat1 d x1 :=
  landed_respell1 d L (k0_off458 L) 0 20 (off458_chunk L h16) (k0_off458_inb L h16) (by omega)
    (by have := (cond16_iff L).mp h16; unfold nIss nch; rw [if_neg this]; omega) x1 f w h

omit [FloatOps F] in
/-- Entry `(r, c)` of a block written whole over the last tile's 16-row tail piece lands at row `61984 + r`, column
    `c`; if the block's entries are the patches' features there, the piece holds the image's patches. -/
theorem tailA_val1 (x1 : Buf (Elt F) (x1Loc d)) (f : Buf (Elt F) (o1Loc d)) (w : S16x768.Idx → Elt F .f32)
    (hw : ∀ y : S16x768.Idx, w y = xAt x1 (flatPos (61984 + (y 0).val) (y 1).val)) :
    ∀ i ∈ ((o1V).slice (Rect.unit (s := S62001x768) ![61984, 0] S16x768.size inb_S62001x768_S16x768_61984_0) (fun _ => rfl)).view.set,
      (((o1V).slice (Rect.unit (s := S62001x768) ![61984, 0] S16x768.size inb_S62001x768_S16x768_61984_0) (fun _ => rfl)).view.writes (Elt F) f [⟨Rect.whole S16x768, ReadAs.same.apply w⟩]) i = pat1 d x1 i := by
  intro i hi
  obtain ⟨y, -, rfl⟩ := Finset.mem_map.mp hi
  have key := View.read_writes_cons_emb ((o1V).slice (Rect.unit (s := S62001x768) ![61984, 0] S16x768.size inb_S62001x768_S16x768_61984_0) (fun _ => rfl)).view f (Rect.whole S16x768) (ReadAs.same.apply w) [] y
  have e1 : (Rect.whole S16x768).emb y = y := Rect.emb_whole_apply S16x768 y
  rw [e1] at key
  -- read back through the piece's view, the written block is the payload; the prior contents play no part
  generalize ((o1V).slice (Rect.unit (s := S62001x768) ![61984, 0] S16x768.size inb_S62001x768_S16x768_61984_0) (fun _ => rfl)).view.writes (Elt F) f [⟨Rect.whole S16x768, ReadAs.same.apply w⟩] = G at key ⊢
  have hG : G (((o1V).slice (Rect.unit (s := S62001x768) ![61984, 0] S16x768.size inb_S62001x768_S16x768_61984_0) (fun _ => rfl)).view.emb y) = ((o1V).slice (Rect.unit (s := S62001x768) ![61984, 0] S16x768.size inb_S62001x768_S16x768_61984_0) (fun _ => rfl)).view.read (Elt F) G y := rfl
  rw [hG, key, ReadAs.apply_same, hw y]
  unfold pat1
  rw [Cert.Unfold.patchesFlat_eq_xAt]
  have e0 : ((((o1V).slice (Rect.unit (s := S62001x768) ![61984, 0] S16x768.size inb_S62001x768_S16x768_61984_0) (fun _ => rfl)).view.emb y) 0).val = 61984 + (y 0).val := by
    show 61984 + 1 * (y 0).val = _; omega
  have e1' : ((((o1V).slice (Rect.unit (s := S62001x768) ![61984, 0] S16x768.size inb_S62001x768_S16x768_61984_0) (fun _ => rfl)).view.emb y) 1).val = (y 1).val := by
    show 0 + 1 * (y 1).val = _; omega
  rw [e0, e1']

omit [FloatOps F] in
/-- Rows `0 …` of staging buffer 0, read through the 16-row slice, are the patches from row 61984. -/
theorem tailA_pay1 (x1 : Buf (Elt F) (x1Loc d)) (t : Buf (Elt F) ((b0V).view.loc (VT d L)))
    (ht : RowsDone (α := Elt F .f32) ((b0V).view.read (Elt F) t) x1 61984 17) (y : S16x768.Idx) :
    (((b0V).slice (Rect.unit (s := S32x768) ![0, 0] S16x768.size inb_S32x768_S16x768_0_0) (fun _ => rfl)).view.read (Elt F) t) y = xAt x1 (flatPos (61984 + (y 0).val) (y 1).val) := by
  have h0 : (y 0).val < 16 := (y 0).isLt
  have hr : 0 + (y 0).val < 32 := by omega
  have hrow := ht ⟨0 + (y 0).val, hr⟩ (y 1) (by show 0 + (y 0).val < 17; omega)
  have e : 61984 + (0 + (y 0).val) = 61984 + (y 0).val := by omega
  rw [show (⟨0 + (y 0).val, hr⟩ : Fin 32).val = 0 + (y 0).val from rfl, e] at hrow
  refine Eq.trans ?_ hrow
  have hemb : ((b0V).slice (Rect.unit (s := S32x768) ![0, 0] S16x768.size inb_S32x768_S16x768_0_0) (fun _ => rfl)).view.emb y = (b0V).view.emb (ix2 ⟨0 + (y 0).val, hr⟩ (y 1)) := by
    funext a
    apply Fin.ext
    match a with
    | ⟨0, _⟩ => show 0 + 1 * (y 0).val = 0 + (y 0).val; omega
    | ⟨1, _⟩ => show 0 + 1 * (y 1).val = (y 1).val; omega
  rw [View.read_apply, View.read_apply, hemb]

omit [FloatOps F] in
theorem tailA_landed1 (hw : wid L = 31) (x1 : Buf (Elt F) (x1Loc d)) (f : Buf (Elt F) (o1Loc d))
    (t : Buf (Elt F) ((b0V).view.loc (VT d L))) (ht : RowsDone (α := Elt F .f32) ((b0V).view.read (Elt F) t) x1 61984 17) :
    ((((o1V).slice (Rect.unit (s := S62001x768) ![61984, 0] S16x768.size inb_S62001x768_S16x768_61984_0) (fun _ => rfl)).view.loc (VT d L)
        ↦[((o1V).slice (Rect.unit (s := S62001x768) ![61984, 0] S16x768.size inb_S62001x768_S16x768_61984_0) (fun _ => rfl)).view.set]{fullShare}
        ((o1V).slice (Rect.unit (s := S62001x768) ![61984, 0] S16x768.size inb_S62001x768_S16x768_61984_0) (fun _ => rfl)).view.writes (Elt F) f
          [⟨Rect.whole S16x768, ReadAs.same.apply (((b0V).slice (Rect.unit (s := S32x768) ![0, 0] S16x768.size inb_S32x768_S16x768_0_0) (fun _ => rfl)).view.read (Elt F) t)⟩]) : sProp 𝕄)
      = o1Loc d ↦[tailSetA L]{fullShare} pat1 d x1 := by
  rw [← (set_o1_slice (Rect.unit (s := S62001x768) ![61984, 0] S16x768.size inb_S62001x768_S16x768_61984_0) (fun _ => rfl)).trans (tailA_set L hw)]
  exact pointsTo_congr (tailA_val1 d x1 f _ (tailA_pay1 d L x1 t ht))

omit [FloatOps F] in
/-- Entry `(r, c)` of a block written whole over the last tile's 1-row tail piece lands at row `62000 + r`, column
    `c`; if the block's entries are the patches' features there, the piece holds the image's patches. -/
theorem tailB_val1 (x1 : Buf (Elt F) (x1Loc d)) (f : Buf (Elt F) (o1Loc d)) (w : S1x768.Idx → Elt F .f32)
    (hw : ∀ y : S1x768.Idx, w y = xAt x1 (flatPos (62000 + (y 0).val) (y 1).val)) :
    ∀ i ∈ ((o1V).slice (Rect.unit (s := S62001x768) ![62000, 0] S1x768.size inb_S62001x768_S1x768_62000_0) (fun _ => rfl)).view.set,
      (((o1V).slice (Rect.unit (s := S62001x768) ![62000, 0] S1x768.size inb_S62001x768_S1x768_62000_0) (fun _ => rfl)).view.writes (Elt F) f [⟨Rect.whole S1x768, ReadAs.same.apply w⟩]) i = pat1 d x1 i := by
  intro i hi
  obtain ⟨y, -, rfl⟩ := Finset.mem_map.mp hi
  have key := View.read_writes_cons_emb ((o1V).slice (Rect.unit (s := S62001x768) ![62000, 0] S1x768.size inb_S62001x768_S1x768_62000_0) (fun _ => rfl)).view f (Rect.whole S1x768) (ReadAs.same.apply w) [] y
  have e1 : (Rect.whole S1x768).emb y = y := Rect.emb_whole_apply S1x768 y
  rw [e1] at key
  -- read back through the piece's view, the written block is the payload; the prior contents play no part
  generalize ((o1V).slice (Rect.unit (s := S62001x768) ![62000, 0] S1x768.size inb_S62001x768_S1x768_62000_0) (fun _ => rfl)).view.writes (Elt F) f [⟨Rect.whole S1x768, ReadAs.same.apply w⟩] = G at key ⊢
  have hG : G (((o1V).slice (Rect.unit (s := S62001x768) ![62000, 0] S1x768.size inb_S62001x768_S1x768_62000_0) (fun _ => rfl)).view.emb y) = ((o1V).slice (Rect.unit (s := S62001x768) ![62000, 0] S1x768.size inb_S62001x768_S1x768_62000_0) (fun _ => rfl)).view.read (Elt F) G y := rfl
  rw [hG, key, ReadAs.apply_same, hw y]
  unfold pat1
  rw [Cert.Unfold.patchesFlat_eq_xAt]
  have e0 : ((((o1V).slice (Rect.unit (s := S62001x768) ![62000, 0] S1x768.size inb_S62001x768_S1x768_62000_0) (fun _ => rfl)).view.emb y) 0).val = 62000 + (y 0).val := by
    show 62000 + 1 * (y 0).val = _; omega
  have e1' : ((((o1V).slice (Rect.unit (s := S62001x768) ![62000, 0] S1x768.size inb_S62001x768_S1x768_62000_0) (fun _ => rfl)).view.emb y) 1).val = (y 1).val := by
    show 0 + 1 * (y 1).val = _; omega
  rw [e0, e1']

omit [FloatOps F] in
/-- Rows `16 …` of staging buffer 0, read through the 1-row slice, are the patches from row 62000. -/
theorem tailB_pay1 (x1 : Buf (Elt F) (x1Loc d)) (t : Buf (Elt F) ((b0V).view.loc (VT d L)))
    (ht : RowsDone (α := Elt F .f32) ((b0V).view.read (Elt F) t) x1 61984 17) (y : S1x768.Idx) :
    (((b0V).slice (Rect.unit (s := S32x768) ![16, 0] S1x768.size inb_S32x768_S1x768_16_0) (fun _ => rfl)).view.read (Elt F) t) y = xAt x1 (flatPos (62000 + (y 0).val) (y 1).val) := by
  have h0 : (y 0).val < 1 := (y 0).isLt
  have hr : 16 + (y 0).val < 32 := by omega
  have hrow := ht ⟨16 + (y 0).val, hr⟩ (y 1) (by show 16 + (y 0).val < 17; omega)
  have e : 61984 + (16 + (y 0).val) = 62000 + (y 0).val := by omega
  rw [show (⟨16 + (y 0).val, hr⟩ : Fin 32).val = 16 + (y 0).val from rfl, e] at hrow
  refine Eq.trans ?_ hrow
  have hemb : ((b0V).slice (Rect.unit (s := S32x768) ![16, 0] S1x768.size inb_S32x768_S1x768_16_0) (fun _ => rfl)).view.emb y = (b0V).view.emb (ix2 ⟨16 + (y 0).val, hr⟩ (y 1)) := by
    funext a
    apply Fin.ext
    match a with
    | ⟨0, _⟩ => show 16 + 1 * (y 0).val = 16 + (y 0).val; omega
    | ⟨1, _⟩ => show 0 + 1 * (y 1).val = (y 1).val; omega
  rw [View.read_apply, View.read_apply, hemb]

omit [FloatOps F] in
theorem tailB_landed1 (hw : wid L = 31) (x1 : Buf (Elt F) (x1Loc d)) (f : Buf (Elt F) (o1Loc d))
    (t : Buf (Elt F) ((b0V).view.loc (VT d L))) (ht : RowsDone (α := Elt F .f32) ((b0V).view.read (Elt F) t) x1 61984 17) :
    ((((o1V).slice (Rect.unit (s := S62001x768) ![62000, 0] S1x768.size inb_S62001x768_S1x768_62000_0) (fun _ => rfl)).view.loc (VT d L)
        ↦[((o1V).slice (Rect.unit (s := S62001x768) ![62000, 0] S1x768.size inb_S62001x768_S1x768_62000_0) (fun _ => rfl)).view.set]{fullShare}
        ((o1V).slice (Rect.unit (s := S62001x768) ![62000, 0] S1x768.size inb_S62001x768_S1x768_62000_0) (fun _ => rfl)).view.writes (Elt F) f
          [⟨Rect.whole S1x768, ReadAs.same.apply (((b0V).slice (Rect.unit (s := S32x768) ![16, 0] S1x768.size inb_S32x768_S1x768_16_0) (fun _ => rfl)).view.read (Elt F) t)⟩]) : sProp 𝕄)
      = o1Loc d ↦[tailSetB L]{fullShare} pat1 d x1 := by
  rw [← (set_o1_slice (Rect.unit (s := S62001x768) ![62000, 0] S1x768.size inb_S62001x768_S1x768_62000_0) (fun _ => rfl)).trans (tailB_set L hw)]
  exact pointsTo_congr (tailB_val1 d x1 f _ (tailB_pay1 d L x1 t ht))

omit [FloatOps F] in
/-- A tile other than the last has no tail: its (empty) tail pieces hold whatever one likes. -/
theorem tailA_none1 (hw : ¬ wid L = 31) (f g : Buf (Elt F) (o1Loc d)) :
    (o1Loc d ↦[tailSetA L]{fullShare} f : sProp 𝕄) = o1Loc d ↦[tailSetA L]{fullShare} g :=
  pointsTo_congr fun i hi => by unfold tailSetA at hi; rw [if_neg hw] at hi; exact absurd hi (Finset.notMem_empty i)
omit [FloatOps F] in
theorem tailB_none1 (hw : ¬ wid L = 31) (f g : Buf (Elt F) (o1Loc d)) :
    (o1Loc d ↦[tailSetB L]{fullShare} f : sProp 𝕄) = o1Loc d ↦[tailSetB L]{fullShare} g :=
  pointsTo_congr fun i hi => by unfold tailSetB at hi; rw [if_neg hw] at hi; exact absurd hi (Finset.notMem_empty i)

end Cert.Proof.KB

end
-- ==== Proof.P104Bits.lean ====
/-
  The first pass of a tile's task (after the first two channels of the image's window are in the slab): the third
  channel's copy, the chunk loop, the last chunk, the three final waits and, on the last tile, the tail. It ends with
  every chunk and tail piece of the tile's rows of the first result holding the first image's patches.
-/
import proofs.«212940_g32057635897708_cont_8to1_b_1299_25_alg».proof.Proof.InvBits
import proofs.«212940_g32057635897708_cont_8to1_b_1299_25_alg».proof.Proof.BookBits
import proofs.«212940_g32057635897708_cont_8to1_b_1299_25_alg».proof.Proof.ProgMemBits
import proofs.«212940_g32057635897708_cont_8to1_b_1299_25_alg».proof.Proof.ValMemBits
import proofs.«212940_g32057635897708_cont_8to1_b_1299_25_alg».proof.Proof.InitBits
import proofs.«212940_g32057635897708_cont_8to1_b_1299_25_alg».proof.Proof.ValTailBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)

omit [FloatOps F] in
/-- A transfer in flight into rows of result 0 named through one offset vector is the same assertion named through an equal one. -/
theorem flight_respell0 (sm : SemLoc sig) (off off' : Fin 2 → Nat) (h : off = off')
    (inb : ∀ a, off a + S32x768.size a ≤ S62001x768.size a) (inb' : ∀ a, off' a + S32x768.size a ≤ S62001x768.size a)
    (f : Buf (Elt F) (o0Loc d)) (w : S32x768.Idx → Elt F .f32) (R : sProp 𝕄) :
    (Transfers.Flight (countersEmb (U := UU)) (VT d L) sm (default : HIx 1) 786432
      iprop((((o0V).slice (Rect.unit (s := S62001x768) off S32x768.size inb) (fun _ => rfl)).view.loc (VT d L)
          ↦[((o0V).slice (Rect.unit (s := S62001x768) off S32x768.size inb) (fun _ => rfl)).view.set]{fullShare}
          ((o0V).slice (Rect.unit (s := S62001x768) off S32x768.size inb) (fun _ => rfl)).view.writes (Elt F) f
            [⟨Rect.whole (Rect.unit (s := S62001x768) off S32x768.size inb).shape, w⟩]) ∗ R) : sProp 𝕄)
    = Transfers.Flight (countersEmb (U := UU)) (VT d L) sm (default : HIx 1) 786432
      iprop((((o0V).slice (Rect.unit (s := S62001x768) off' S32x768.size inb') (fun _ => rfl)).view.loc (VT d L)
          ↦[((o0V).slice (Rect.unit (s := S62001x768) off' S32x768.size inb') (fun _ => rfl)).view.set]{fullShare}
          ((o0V).slice (Rect.unit (s := S62001x768) off' S32x768.size inb') (fun _ => rfl)).view.writes (Elt F) f
            [⟨Rect.whole (Rect.unit (s := S62001x768) off' S32x768.size inb').shape, w⟩]) ∗ R) := by
  subst h; rfl

/-- The chunk loop's invariant in the first pass, before trip `k`. -/
def chunkInv0 (O : CellTallies nD τ sig (HIx 1)) (W : Waits sig (HIx 1)) (x0 : Buf (Elt F) (x0Loc d)) (f0 : Buf (Elt F) (o0Loc d))
    (k : Nat) (_ : PUnit) : sProp 𝕄 :=
  iprop(Transfers.MayWaits (VT d L) (default : HIx 1) O
    ∗ slabInv d L x0 49152
    ∗ bufState0_0 d L x0 f0 k ∗ bufState0_1 d L x0 f0 k ∗ bufState0_2 d L x0 f0 k
    ∗ ∃ W', owes (VT d L) O W')

set_option maxHeartbeats 4000000 in
set_option pp.proofs false in
set_option pp.deepTerms false in
set_option pp.maxSteps 3000 in
theorem part104_run (v1 v2 v7 v9 v14 : BitVec 32) (O : CellTallies nD τ sig (HIx 1)) (W : Waits sig (HIx 1))
    (x0 : Buf (Elt F) (x0Loc d)) (f0 : Buf (Elt F) (o0Loc d))
    (t0 : Buf (Elt F) ((b0V).view.loc (VT d L))) (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ slabInv d L x0 32768
        ∗ (bigSep (Finset.range (nIss L 0)) fun j => o0Loc d ↦[chunkSet L 0 j]{fullShare} f0)
        ∗ (bigSep (Finset.range (nIss L 1)) fun j => o0Loc d ↦[chunkSet L 1 j]{fullShare} f0)
        ∗ (bigSep (Finset.range (nIss L 2)) fun j => o0Loc d ↦[chunkSet L 2 j]{fullShare} f0)
        ∗ (o0Loc d ↦[tailSetA L]{fullShare} f0) ∗ (o0Loc d ↦[tailSetB L]{fullShare} f0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ semVal (VT d L, SemLoc.dma (dsem 0)) 0 ∗ semVal (VT d L, SemLoc.dma (dsem 1)) 0 ∗ semVal (VT d L, SemLoc.dma (dsem 2)) 0
        ∗ semVal (VT d L, SemLoc.dma (dsem 5)) 0 ∗ semVal (VT d L, SemLoc.dma (dsem 6)) 0 ∗ semVal (VT d L, SemLoc.dma (dsem 7)) 0
        ∗ owes (VT d L) O W) : sProp 𝕄)
      ⊢ wp frame (wpE (defs₀ (F := F)) 𝒱₀ (VT d L) none) Set.univ
          (k0_part104 L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9 v1 v2 v7 v9 v14)
          fun _ => iprop(((x0V).view.loc (VT d L) ↦{tileShare (L 0).val (L 1).val} x0)
            ∗ (∃ g, (slabV).view.loc (VT d L) ↦[(slabV).view.set]{fullShare} g)
            ∗ (bigSep (Finset.range (nIss L 0)) fun j => o0Loc d ↦[chunkSet L 0 j]{fullShare} pat0 d x0)
            ∗ (bigSep (Finset.range (nIss L 1)) fun j => o0Loc d ↦[chunkSet L 1 j]{fullShare} pat0 d x0)
            ∗ (bigSep (Finset.range (nIss L 2)) fun j => o0Loc d ↦[chunkSet L 2 j]{fullShare} pat0 d x0)
            ∗ (o0Loc d ↦[tailSetA L]{fullShare} pat0 d x0) ∗ (o0Loc d ↦[tailSetB L]{fullShare} pat0 d x0)
            ∗ bufIdle0 d L ∗ bufIdle1 d L ∗ bufIdle2 d L
            ∗ semVal (VT d L, SemLoc.dma (dsem 5)) 0 ∗ semVal (VT d L, SemLoc.dma (dsem 6)) 0 ∗ semVal (VT d L, SemLoc.dma (dsem 7)) 0
            ∗ ∃ W', owes (VT d L) O W') := by
  iintro ⟨#Hmw, HX0, HS, HD0, HD1, HD2, HTA, HTB, HT0, HT1, HT2, Hc0, Hc1, Hc2, Hc5, Hc6, Hc7, HO⟩
  unfold slabInv
  icases HS with ⟨%g, %hg, HG⟩
  sl_unfold [k0_part104]
  sl_exec
  sl_for (chunkInv0 d L O W x0 f0) $$ [HG HD0 HD1 HD2 HT0 HT1 HT2 Hc0 Hc1 Hc2 HO]
  case region =>
    intro k _
    have hk20 : k.val < 20 := by have h := k.isLt; change k.val < k0_t1_loop.trips at h; rw [trips_t1] at h; exact h
    have hn0 : 16 ≤ nIss L 0 ∧ 15 ≤ nIss L 1 ∧ 15 ≤ nIss L 2 := by unfold nIss nch; split <;> omega
    have h32 : Scf.trips k0_t2_loop.lb k0_t2_loop.ub k0_t2_loop.st = 32 := by decide
    rcases Nat.eq_zero_or_pos k.val with hk0 | hkpos
    · -- trip 0: the three buffers are at rest; every block runs, none waits
      have h1 : k0_cond1 L k = 1#1 := (cond1_iff L k).2 (by rw [hk0]; unfold nch; split <;> omega)
      have h3 : k0_cond3 L k = 1#1 := (cond3_iff L k).2 (by rw [hk0]; unfold nch; split <;> omega)
      have h5 : k0_cond5 L k = 1#1 := (cond5_iff L k).2 (by rw [hk0]; unfold nch; split <;> omega)
      have h2 : ¬ k0_cond2 k = 1#1 := fun h => by have := (cond2_iff k).1 h; omega
      have h4 : ¬ k0_cond4 k = 1#1 := fun h => by have := (cond4_iff k).1 h; omega
      have h6 : ¬ k0_cond6 k = 1#1 := fun h => by have := (cond6_iff k).1 h; omega
      have e0 : issued L 0 k.val = k.val := by unfold issued; omega
      have e1 : issued L 1 k.val = k.val := by unfold issued; omega
      have e2 : issued L 2 k.val = k.val := by unfold issued; omega
      have e0' : issued L 0 (k.val + 1) = k.val + 1 := by unfold issued; omega
      have e1' : issued L 1 (k.val + 1) = k.val + 1 := by unfold issued; omega
      have e2' : issued L 2 (k.val + 1) = k.val + 1 := by unfold issued; omega
      show chunkInv0 d L O W x0 f0 k.val _ ⊢ wp _ _ _ _ (fun _ => chunkInv0 d L O W x0 f0 (k.val + 1) ⟨⟩)
      unfold chunkInv0 bufState0_0 bufState0_1 bufState0_2
      rw [e0, e1, e2, e0', e1', e2', if_pos hk0, if_pos hk0, if_pos hk0,
        if_neg (Nat.succ_ne_zero _), if_neg (Nat.succ_ne_zero _), if_neg (Nat.succ_ne_zero _)]
      simp only [Nat.add_sub_cancel]
      have hr0 : Finset.range k.val = ∅ := by rw [hk0, Finset.range_zero]
      rw [hr0, bigSep_empty]
      unfold bufIdle0 bufIdle1 bufIdle2 bufFlying0_0 bufFlying0_1 bufFlying0_2 slabInv
      iintro ⟨#Hmw, ⟨%gS, %hgS, HG⟩, ⟨-, Ht0, ⟨%t0, HT0⟩, Hc0⟩, ⟨-, Ht1, ⟨%t1, HT1⟩, Hc1⟩, ⟨-, Ht2, ⟨%t2, HT2⟩, Hc2⟩, %W', HO⟩
      sl_exec
      -- buffer 0: fill its 32 rows, then send them off as chunk k
      sl_for (rowInv0 d L x0 (chunkRow L 0 k.val)) $$ [HG HT0]
      case region =>
        intro jj _
        unfold rowInv0 slabInv bufRows0
        iintro ⟨⟨%g, %hg, HG⟩, %t, %ht, HT0⟩
        have hjj : jj.val < 32 := by have h := jj.isLt; change jj.val < k0_t2_loop.trips at h; rw [trips_t2] at h; omega
        sl_exec
        sl_step
        isplitl [HG]
        · iexists g; isplitr; · ipureintro; exact hg
          iexact HG
        iexists _; isplitr
        rotate_left
        · iexact HT0
        ipureintro
        have hk3 : 3 * k.val < nch L := (cond1_iff L k).1 h1
        have hnl := nch_le L
        have erow : chunkRow L 0 k.val + jj.val = wbase L + 96 * k.val + jj.val := by unfold chunkRow; omega
        have hr1 : wbase L ≤ wbase L + 96 * k.val + jj.val := by omega
        have hr2 : wbase L + 96 * k.val + jj.val < wbase L + nrows L := by omega
        refine rows_step' (b0V).view x0 (chunkRow L 0 k.val) jj.val hjj t _ ht ?_
        rw [erow]
        have pk := fun (c : Fin 3) (kh : Fin 16) =>
          piece_ok d L x0 g hg (wbase L + 96 * k.val + jj.val) jj.val hjj hr1 hr2 c kh
        apply PiecesOK.cons (pk 2 15 _ (off3_eq L k jj h1 2 15) _ _ (k0_off51_eq jj) _ _ _)
        apply PiecesOK.cons (pk 2 14 _ (off3_eq L k jj h1 2 14) _ _ (k0_off50_eq jj) _ _ _)
        apply PiecesOK.cons (pk 2 13 _ (off3_eq L k jj h1 2 13) _ _ (k0_off49_eq jj) _ _ _)
        apply PiecesOK.cons (pk 2 12 _ (off3_eq L k jj h1 2 12) _ _ (k0_off48_eq jj) _ _ _)
        apply PiecesOK.cons (pk 2 11 _ (off3_eq L k jj h1 2 11) _ _ (k0_off47_eq jj) _ _ _)
        apply PiecesOK.cons (pk 2 10 _ (off3_eq L k jj h1 2 10) _ _ (k0_off46_eq jj) _ _ _)
        apply PiecesOK.cons (pk 2 9 _ (off3_eq L k jj h1 2 9) _ _ (k0_off45_eq jj) _ _ _)
        apply PiecesOK.cons (pk 2 8 _ (off3_eq L k jj h1 2 8) _ _ (k0_off44_eq jj) _ _ _)
        apply PiecesOK.cons (pk 2 7 _ (off3_eq L k jj h1 2 7) _ _ (k0_off43_eq jj) _ _ _)
        apply PiecesOK.cons (pk 2 6 _ (off3_eq L k jj h1 2 6) _ _ (k0_off42_eq jj) _ _ _)
        apply PiecesOK.cons (pk 2 5 _ (off3_eq L k jj h1 2 5) _ _ (k0_off41_eq jj) _ _ _)
        apply PiecesOK.cons (pk 2 4 _ (off3_eq L k jj h1 2 4) _ _ (k0_off40_eq jj) _ _ _)
        apply PiecesOK.cons (pk 2 3 _ (off3_eq L k jj h1 2 3) _ _ (k0_off39_eq jj) _ _ _)
        apply PiecesOK.cons (pk 2 2 _ (off3_eq L k jj h1 2 2) _ _ (k0_off38_eq jj) _ _ _)
        apply PiecesOK.cons (pk 2 1 _ (off3_eq L k jj h1 2 1) _ _ (k0_off37_eq jj) _ _ _)
        apply PiecesOK.cons (pk 2 0 _ (off3_eq L k jj h1 2 0) _ _ (k0_off36_eq jj) _ _ _)
        apply PiecesOK.cons (pk 1 15 _ (off3_eq L k jj h1 1 15) _ _ (k0_off35_eq jj) _ _ _)
        apply PiecesOK.cons (pk 1 14 _ (off3_eq L k jj h1 1 14) _ _ (k0_off34_eq jj) _ _ _)
        apply PiecesOK.cons (pk 1 13 _ (off3_eq L k jj h1 1 13) _ _ (k0_off33_eq jj) _ _ _)
        apply PiecesOK.cons (pk 1 12 _ (off3_eq L k jj h1 1 12) _ _ (k0_off32_eq jj) _ _ _)
        apply PiecesOK.cons (pk 1 11 _ (off3_eq L k jj h1 1 11) _ _ (k0_off31_eq jj) _ _ _)
        apply PiecesOK.cons (pk 1 10 _ (off3_eq L k jj h1 1 10) _ _ (k0_off30_eq jj) _ _ _)
        apply PiecesOK.cons (pk 1 9 _ (off3_eq L k jj h1 1 9) _ _ (k0_off29_eq jj) _ _ _)
        apply PiecesOK.cons (pk 1 8 _ (off3_eq L k jj h1 1 8) _ _ (k0_off28_eq jj) _ _ _)
        apply PiecesOK.cons (pk 1 7 _ (off3_eq L k jj h1 1 7) _ _ (k0_off27_eq jj) _ _ _)
        apply PiecesOK.cons (pk 1 6 _ (off3_eq L k jj h1 1 6) _ _ (k0_off26_eq jj) _ _ _)
        apply PiecesOK.cons (pk 1 5 _ (off3_eq L k jj h1 1 5) _ _ (k0_off25_eq jj) _ _ _)
        apply PiecesOK.cons (pk 1 4 _ (off3_eq L k jj h1 1 4) _ _ (k0_off24_eq jj) _ _ _)
        apply PiecesOK.cons (pk 1 3 _ (off3_eq L k jj h1 1 3) _ _ (k0_off23_eq jj) _ _ _)
        apply PiecesOK.cons (pk 1 2 _ (off3_eq L k jj h1 1 2) _ _ (k0_off22_eq jj) _ _ _)
        apply PiecesOK.cons (pk 1 1 _ (off3_eq L k jj h1 1 1) _ _ (k0_off21_eq jj) _ _ _)
        apply PiecesOK.cons (pk 1 0 _ (off3_eq L k jj h1 1 0) _ _ (k0_off20_eq jj) _ _ _)
        apply PiecesOK.cons (pk 0 15 _ (off3_eq L k jj h1 0 15) _ _ (k0_off19_eq jj) _ _ _)
        apply PiecesOK.cons (pk 0 14 _ (off3_eq L k jj h1 0 14) _ _ (k0_off18_eq jj) _ _ _)
        apply PiecesOK.cons (pk 0 13 _ (off3_eq L k jj h1 0 13) _ _ (k0_off17_eq jj) _ _ _)
        apply PiecesOK.cons (pk 0 12 _ (off3_eq L k jj h1 0 12) _ _ (k0_off16_eq jj) _ _ _)
        apply PiecesOK.cons (pk 0 11 _ (off3_eq L k jj h1 0 11) _ _ (k0_off15_eq jj) _ _ _)
        apply PiecesOK.cons (pk 0 10 _ (off3_eq L k jj h1 0 10) _ _ (k0_off14_eq jj) _ _ _)
        apply PiecesOK.cons (pk 0 9 _ (off3_eq L k jj h1 0 9) _ _ (k0_off13_eq jj) _ _ _)
        apply PiecesOK.cons (pk 0 8 _ (off3_eq L k jj h1 0 8) _ _ (k0_off12_eq jj) _ _ _)
        apply PiecesOK.cons (pk 0 7 _ (off3_eq L k jj h1 0 7) _ _ (k0_off11_eq jj) _ _ _)
        apply PiecesOK.cons (pk 0 6 _ (off3_eq L k jj h1 0 6) _ _ (k0_off10_eq jj) _ _ _)
        apply PiecesOK.cons (pk 0 5 _ (off3_eq L k jj h1 0 5) _ _ (k0_off9_eq jj) _ _ _)
        apply PiecesOK.cons (pk 0 4 _ (off3_eq L k jj h1 0 4) _ _ (k0_off8_eq jj) _ _ _)
        apply PiecesOK.cons (pk 0 3 _ (off3_eq L k jj h1 0 3) _ _ (k0_off7_eq jj) _ _ _)
        apply PiecesOK.cons (pk 0 2 _ (off3_eq L k jj h1 0 2) _ _ (k0_off6_eq jj) _ _ _)
        apply PiecesOK.cons (pk 0 1 _ (off3_eq L k jj h1 0 1) _ _ (k0_off5_eq jj) _ _ _)
        apply PiecesOK.cons (pk 0 0 _ (off3_eq L k jj h1 0 0) _ _ (k0_off4_eq jj) _ _ _)
        exact PiecesOK.nil
      · unfold rowInv0 slabInv bufRows0
        isplitl [HG]
        · iexists _; isplitr; rotate_left; iexact HG; ipureintro; exact hgS
        · iexists _; isplitr; rotate_left; iexact HT0; ipureintro; exact Cert.Unfold.rowsDone_zero _ _ _
      iintro %_ HR
      unfold rowInv0 slabInv bufRows0
      icases HR with ⟨⟨%gS0, %hgS0, HG⟩, %tt0, %htt0, HT0⟩
      rw [h32] at htt0
      have hgS := hgS0
      have hlt0 : k.val < nIss L 0 := by omega
      ihave Hsp := (Entails.of_eq (todo_step (fun j => (o0Loc d ↦[chunkSet L 0 j]{fullShare} f0 : sProp 𝕄)) hlt0)) $$ Ht0
      icases Hsp with ⟨Hck, Ht0⟩
      ihave Hck' := (Entails.of_eq (pts_chunk0_p0 (F := F) d L k h1 f0).symm) $$ Hck
      sl_exec
      -- buffer 1: fill its 32 rows, then send them off as chunk k
      sl_for (rowInv1 d L x0 (chunkRow L 1 k.val)) $$ [HG HT1]
      case region =>
        intro jj _
        unfold rowInv1 slabInv bufRows1
        iintro ⟨⟨%g, %hg, HG⟩, %t, %ht, HT1⟩
        have hjj : jj.val < 32 := by have h := jj.isLt; change jj.val < k0_t3_loop.trips at h; rw [trips_t3] at h; omega
        sl_exec
        sl_step
        isplitl [HG]
        · iexists g; isplitr; · ipureintro; exact hg
          iexact HG
        iexists _; isplitr
        rotate_left
        · iexact HT1
        ipureintro
        have hk3 : 3 * k.val + 1 < nch L := (cond3_iff L k).1 h3
        have hnl := nch_le L
        have erow : chunkRow L 1 k.val + jj.val = wbase L + 96 * k.val + 32 + jj.val := by unfold chunkRow; omega
        have hr1 : wbase L ≤ wbase L + 96 * k.val + 32 + jj.val := by omega
        have hr2 : wbase L + 96 * k.val + 32 + jj.val < wbase L + nrows L := by omega
        refine rows_step' (b1V).view x0 (chunkRow L 1 k.val) jj.val hjj t _ ht ?_
        rw [erow]
        have pk := fun (c : Fin 3) (kh : Fin 16) =>
          piece_ok d L x0 g hg (wbase L + 96 * k.val + 32 + jj.val) jj.val hjj hr1 hr2 c kh
        apply PiecesOK.cons (pk 2 15 _ (off54_eq L k jj h3 2 15) _ _ (k0_off102_eq jj) _ _ _)
        apply PiecesOK.cons (pk 2 14 _ (off54_eq L k jj h3 2 14) _ _ (k0_off101_eq jj) _ _ _)
        apply PiecesOK.cons (pk 2 13 _ (off54_eq L k jj h3 2 13) _ _ (k0_off100_eq jj) _ _ _)
        apply PiecesOK.cons (pk 2 12 _ (off54_eq L k jj h3 2 12) _ _ (k0_off99_eq jj) _ _ _)
        apply PiecesOK.cons (pk 2 11 _ (off54_eq L k jj h3 2 11) _ _ (k0_off98_eq jj) _ _ _)
        apply PiecesOK.cons (pk 2 10 _ (off54_eq L k jj h3 2 10) _ _ (k0_off97_eq jj) _ _ _)
        apply PiecesOK.cons (pk 2 9 _ (off54_eq L k jj h3 2 9) _ _ (k0_off96_eq jj) _ _ _)
        apply PiecesOK.cons (pk 2 8 _ (off54_eq L k jj h3 2 8) _ _ (k0_off95_eq jj) _ _ _)
        apply PiecesOK.cons (pk 2 7 _ (off54_eq L k jj h3 2 7) _ _ (k0_off94_eq jj) _ _ _)
        apply PiecesOK.cons (pk 2 6 _ (off54_eq L k jj h3 2 6) _ _ (k0_off93_eq jj) _ _ _)
        apply PiecesOK.cons (pk 2 5 _ (off54_eq L k jj h3 2 5) _ _ (k0_off92_eq jj) _ _ _)
        apply PiecesOK.cons (pk 2 4 _ (off54_eq L k jj h3 2 4) _ _ (k0_off91_eq jj) _ _ _)
        apply PiecesOK.cons (pk 2 3 _ (off54_eq L k jj h3 2 3) _ _ (k0_off90_eq jj) _ _ _)
        apply PiecesOK.cons (pk 2 2 _ (off54_eq L k jj h3 2 2) _ _ (k0_off89_eq jj) _ _ _)
        apply PiecesOK.cons (pk 2 1 _ (off54_eq L k jj h3 2 1) _ _ (k0_off88_eq jj) _ _ _)
        apply PiecesOK.cons (pk 2 0 _ (off54_eq L k jj h3 2 0) _ _ (k0_off87_eq jj) _ _ _)
        apply PiecesOK.cons (pk 1 15 _ (off54_eq L k jj h3 1 15) _ _ (k0_off86_eq jj) _ _ _)
        apply PiecesOK.cons (pk 1 14 _ (off54_eq L k jj h3 1 14) _ _ (k0_off85_eq jj) _ _ _)
        apply PiecesOK.cons (pk 1 13 _ (off54_eq L k jj h3 1 13) _ _ (k0_off84_eq jj) _ _ _)
        apply PiecesOK.cons (pk 1 12 _ (off54_eq L k jj h3 1 12) _ _ (k0_off83_eq jj) _ _ _)
        apply PiecesOK.cons (pk 1 11 _ (off54_eq L k jj h3 1 11) _ _ (k0_off82_eq jj) _ _ _)
        apply PiecesOK.cons (pk 1 10 _ (off54_eq L k jj h3 1 10) _ _ (k0_off81_eq jj) _ _ _)
        apply PiecesOK.cons (pk 1 9 _ (off54_eq L k jj h3 1 9) _ _ (k0_off80_eq jj) _ _ _)
        apply PiecesOK.cons (pk 1 8 _ (off54_eq L k jj h3 1 8) _ _ (k0_off79_eq jj) _ _ _)
        apply PiecesOK.cons (pk 1 7 _ (off54_eq L k jj h3 1 7) _ _ (k0_off78_eq jj) _ _ _)
        apply PiecesOK.cons (pk 1 6 _ (off54_eq L k jj h3 1 6) _ _ (k0_off77_eq jj) _ _ _)
        apply PiecesOK.cons (pk 1 5 _ (off54_eq L k jj h3 1 5) _ _ (k0_off76_eq jj) _ _ _)
        apply PiecesOK.cons (pk 1 4 _ (off54_eq L k jj h3 1 4) _ _ (k0_off75_eq jj) _ _ _)
        apply PiecesOK.cons (pk 1 3 _ (off54_eq L k jj h3 1 3) _ _ (k0_off74_eq jj) _ _ _)
        apply PiecesOK.cons (pk 1 2 _ (off54_eq L k jj h3 1 2) _ _ (k0_off73_eq jj) _ _ _)
        apply PiecesOK.cons (pk 1 1 _ (off54_eq L k jj h3 1 1) _ _ (k0_off72_eq jj) _ _ _)
        apply PiecesOK.cons (pk 1 0 _ (off54_eq L k jj h3 1 0) _ _ (k0_off71_eq jj) _ _ _)
        apply PiecesOK.cons (pk 0 15 _ (off54_eq L k jj h3 0 15) _ _ (k0_off70_eq jj) _ _ _)
        apply PiecesOK.cons (pk 0 14 _ (off54_eq L k jj h3 0 14) _ _ (k0_off69_eq jj) _ _ _)
        apply PiecesOK.cons (pk 0 13 _ (off54_eq L k jj h3 0 13) _ _ (k0_off68_eq jj) _ _ _)
        apply PiecesOK.cons (pk 0 12 _ (off54_eq L k jj h3 0 12) _ _ (k0_off67_eq jj) _ _ _)
        apply PiecesOK.cons (pk 0 11 _ (off54_eq L k jj h3 0 11) _ _ (k0_off66_eq jj) _ _ _)
        apply PiecesOK.cons (pk 0 10 _ (off54_eq L k jj h3 0 10) _ _ (k0_off65_eq jj) _ _ _)
        apply PiecesOK.cons (pk 0 9 _ (off54_eq L k jj h3 0 9) _ _ (k0_off64_eq jj) _ _ _)
        apply PiecesOK.cons (pk 0 8 _ (off54_eq L k jj h3 0 8) _ _ (k0_off63_eq jj) _ _ _)
        apply PiecesOK.cons (pk 0 7 _ (off54_eq L k jj h3 0 7) _ _ (k0_off62_eq jj) _ _ _)
        apply PiecesOK.cons (pk 0 6 _ (off54_eq L k jj h3 0 6) _ _ (k0_off61_eq jj) _ _ _)
        apply PiecesOK.cons (pk 0 5 _ (off54_eq L k jj h3 0 5) _ _ (k0_off60_eq jj) _ _ _)
        apply PiecesOK.cons (pk 0 4 _ (off54_eq L k jj h3 0 4) _ _ (k0_off59_eq jj) _ _ _)
        apply PiecesOK.cons (pk 0 3 _ (off54_eq L k jj h3 0 3) _ _ (k0_off58_eq jj) _ _ _)
        apply PiecesOK.cons (pk 0 2 _ (off54_eq L k jj h3 0 2) _ _ (k0_off57_eq jj) _ _ _)
        apply PiecesOK.cons (pk 0 1 _ (off54_eq L k jj h3 0 1) _ _ (k0_off56_eq jj) _ _ _)
        apply PiecesOK.cons (pk 0 0 _ (off54_eq L k jj h3 0 0) _ _ (k0_off55_eq jj) _ _ _)
        exact PiecesOK.nil
      · unfold rowInv1 slabInv bufRows1
        isplitl [HG]
        · iexists _; isplitr; rotate_left; iexact HG; ipureintro; exact hgS
        · iexists _; isplitr; rotate_left; iexact HT1; ipureintro; exact Cert.Unfold.rowsDone_zero _ _ _
      iintro %_ HR
      unfold rowInv1 slabInv bufRows1
      icases HR with ⟨⟨%gS1, %hgS1, HG⟩, %tt1, %htt1, HT1⟩
      rw [h32] at htt1
      have hgS := hgS1
      have hlt1 : k.val < nIss L 1 := by omega
      ihave Hsp := (Entails.of_eq (todo_step (fun j => (o0Loc d ↦[chunkSet L 1 j]{fullShare} f0 : sProp 𝕄)) hlt1)) $$ Ht1
      icases Hsp with ⟨Hck, Ht1⟩
      ihave Hck' := (Entails.of_eq (pts_chunk0_p1 (F := F) d L k h3 f0).symm) $$ Hck
      sl_exec
      -- buffer 2: fill its 32 rows, then send them off as chunk k
      sl_for (rowInv2 d L x0 (chunkRow L 2 k.val)) $$ [HG HT2]
      case region =>
        intro jj _
        unfold rowInv2 slabInv bufRows2
        iintro ⟨⟨%g, %hg, HG⟩, %t, %ht, HT2⟩
        have hjj : jj.val < 32 := by have h := jj.isLt; change jj.val < k0_t4_loop.trips at h; rw [trips_t4] at h; omega
        sl_exec
        sl_step
        isplitl [HG]
        · iexists g; isplitr; · ipureintro; exact hg
          iexact HG
        iexists _; isplitr
        rotate_left
        · iexact HT2
        ipureintro
        have hk3 : 3 * k.val + 2 < nch L := (cond5_iff L k).1 h5
        have hnl := nch_le L
        have erow : chunkRow L 2 k.val + jj.val = wbase L + 96 * k.val + 64 + jj.val := by unfold chunkRow; omega
        have hr1 : wbase L ≤ wbase L + 96 * k.val + 64 + jj.val := by omega
        have hr2 : wbase L + 96 * k.val + 64 + jj.val < wbase L + nrows L := by omega
        refine rows_step' (b2V).view x0 (chunkRow L 2 k.val) jj.val hjj t _ ht ?_
        rw [erow]
        have pk := fun (c : Fin 3) (kh : Fin 16) =>
          piece_ok d L x0 g hg (wbase L + 96 * k.val + 64 + jj.val) jj.val hjj hr1 hr2 c kh
        apply PiecesOK.cons (pk 2 15 _ (off105_eq L k jj h5 2 15) _ _ (k0_off153_eq jj) _ _ _)
        apply PiecesOK.cons (pk 2 14 _ (off105_eq L k jj h5 2 14) _ _ (k0_off152_eq jj) _ _ _)
        apply PiecesOK.cons (pk 2 13 _ (off105_eq L k jj h5 2 13) _ _ (k0_off151_eq jj) _ _ _)
        apply PiecesOK.cons (pk 2 12 _ (off105_eq L k jj h5 2 12) _ _ (k0_off150_eq jj) _ _ _)
        apply PiecesOK.cons (pk 2 11 _ (off105_eq L k jj h5 2 11) _ _ (k0_off149_eq jj) _ _ _)
        apply PiecesOK.cons (pk 2 10 _ (off105_eq L k jj h5 2 10) _ _ (k0_off148_eq jj) _ _ _)
        apply PiecesOK.cons (pk 2 9 _ (off105_eq L k jj h5 2 9) _ _ (k0_off147_eq jj) _ _ _)
        apply PiecesOK.cons (pk 2 8 _ (off105_eq L k jj h5 2 8) _ _ (k0_off146_eq jj) _ _ _)
        apply PiecesOK.cons (pk 2 7 _ (off105_eq L k jj h5 2 7) _ _ (k0_off145_eq jj) _ _ _)
        apply PiecesOK.cons (pk 2 6 _ (off105_eq L k jj h5 2 6) _ _ (k0_off144_eq jj) _ _ _)
        apply PiecesOK.cons (pk 2 5 _ (off105_eq L k jj h5 2 5) _ _ (k0_off143_eq jj) _ _ _)
        apply PiecesOK.cons (pk 2 4 _ (off105_eq L k jj h5 2 4) _ _ (k0_off142_eq jj) _ _ _)
        apply PiecesOK.cons (pk 2 3 _ (off105_eq L k jj h5 2 3) _ _ (k0_off141_eq jj) _ _ _)
        apply PiecesOK.cons (pk 2 2 _ (off105_eq L k jj h5 2 2) _ _ (k0_off140_eq jj) _ _ _)
        apply PiecesOK.cons (pk 2 1 _ (off105_eq L k jj h5 2 1) _ _ (k0_off139_eq jj) _ _ _)
        apply PiecesOK.cons (pk 2 0 _ (off105_eq L k jj h5 2 0) _ _ (k0_off138_eq jj) _ _ _)
        apply PiecesOK.cons (pk 1 15 _ (off105_eq L k jj h5 1 15) _ _ (k0_off137_eq jj) _ _ _)
        apply PiecesOK.cons (pk 1 14 _ (off105_eq L k jj h5 1 14) _ _ (k0_off136_eq jj) _ _ _)
        apply PiecesOK.cons (pk 1 13 _ (off105_eq L k jj h5 1 13) _ _ (k0_off135_eq jj) _ _ _)
        apply PiecesOK.cons (pk 1 12 _ (off105_eq L k jj h5 1 12) _ _ (k0_off134_eq jj) _ _ _)
        apply PiecesOK.cons (pk 1 11 _ (off105_eq L k jj h5 1 11) _ _ (k0_off133_eq jj) _ _ _)
        apply PiecesOK.cons (pk 1 10 _ (off105_eq L k jj h5 1 10) _ _ (k0_off132_eq jj) _ _ _)
        apply PiecesOK.cons (pk 1 9 _ (off105_eq L k jj h5 1 9) _ _ (k0_off131_eq jj) _ _ _)
        apply PiecesOK.cons (pk 1 8 _ (off105_eq L k jj h5 1 8) _ _ (k0_off130_eq jj) _ _ _)
        apply PiecesOK.cons (pk 1 7 _ (off105_eq L k jj h5 1 7) _ _ (k0_off129_eq jj) _ _ _)
        apply PiecesOK.cons (pk 1 6 _ (off105_eq L k jj h5 1 6) _ _ (k0_off128_eq jj) _ _ _)
        apply PiecesOK.cons (pk 1 5 _ (off105_eq L k jj h5 1 5) _ _ (k0_off127_eq jj) _ _ _)
        apply PiecesOK.cons (pk 1 4 _ (off105_eq L k jj h5 1 4) _ _ (k0_off126_eq jj) _ _ _)
        apply PiecesOK.cons (pk 1 3 _ (off105_eq L k jj h5 1 3) _ _ (k0_off125_eq jj) _ _ _)
        apply PiecesOK.cons (pk 1 2 _ (off105_eq L k jj h5 1 2) _ _ (k0_off124_eq jj) _ _ _)
        apply PiecesOK.cons (pk 1 1 _ (off105_eq L k jj h5 1 1) _ _ (k0_off123_eq jj) _ _ _)
        apply PiecesOK.cons (pk 1 0 _ (off105_eq L k jj h5 1 0) _ _ (k0_off122_eq jj) _ _ _)
        apply PiecesOK.cons (pk 0 15 _ (off105_eq L k jj h5 0 15) _ _ (k0_off121_eq jj) _ _ _)
        apply PiecesOK.cons (pk 0 14 _ (off105_eq L k jj h5 0 14) _ _ (k0_off120_eq jj) _ _ _)
        apply PiecesOK.cons (pk 0 13 _ (off105_eq L k jj h5 0 13) _ _ (k0_off119_eq jj) _ _ _)
        apply PiecesOK.cons (pk 0 12 _ (off105_eq L k jj h5 0 12) _ _ (k0_off118_eq jj) _ _ _)
        apply PiecesOK.cons (pk 0 11 _ (off105_eq L k jj h5 0 11) _ _ (k0_off117_eq jj) _ _ _)
        apply PiecesOK.cons (pk 0 10 _ (off105_eq L k jj h5 0 10) _ _ (k0_off116_eq jj) _ _ _)
        apply PiecesOK.cons (pk 0 9 _ (off105_eq L k jj h5 0 9) _ _ (k0_off115_eq jj) _ _ _)
        apply PiecesOK.cons (pk 0 8 _ (off105_eq L k jj h5 0 8) _ _ (k0_off114_eq jj) _ _ _)
        apply PiecesOK.cons (pk 0 7 _ (off105_eq L k jj h5 0 7) _ _ (k0_off113_eq jj) _ _ _)
        apply PiecesOK.cons (pk 0 6 _ (off105_eq L k jj h5 0 6) _ _ (k0_off112_eq jj) _ _ _)
        apply PiecesOK.cons (pk 0 5 _ (off105_eq L k jj h5 0 5) _ _ (k0_off111_eq jj) _ _ _)
        apply PiecesOK.cons (pk 0 4 _ (off105_eq L k jj h5 0 4) _ _ (k0_off110_eq jj) _ _ _)
        apply PiecesOK.cons (pk 0 3 _ (off105_eq L k jj h5 0 3) _ _ (k0_off109_eq jj) _ _ _)
        apply PiecesOK.cons (pk 0 2 _ (off105_eq L k jj h5 0 2) _ _ (k0_off108_eq jj) _ _ _)
        apply PiecesOK.cons (pk 0 1 _ (off105_eq L k jj h5 0 1) _ _ (k0_off107_eq jj) _ _ _)
        apply PiecesOK.cons (pk 0 0 _ (off105_eq L k jj h5 0 0) _ _ (k0_off106_eq jj) _ _ _)
        exact PiecesOK.nil
      · unfold rowInv2 slabInv bufRows2
        isplitl [HG]
        · iexists _; isplitr; rotate_left; iexact HG; ipureintro; exact hgS
        · iexists _; isplitr; rotate_left; iexact HT2; ipureintro; exact Cert.Unfold.rowsDone_zero _ _ _
      iintro %_ HR
      unfold rowInv2 slabInv bufRows2
      icases HR with ⟨⟨%gS2, %hgS2, HG⟩, %tt2, %htt2, HT2⟩
      rw [h32] at htt2
      have hgS := hgS2
      have hlt2 : k.val < nIss L 2 := by omega
      ihave Hsp := (Entails.of_eq (todo_step (fun j => (o0Loc d ↦[chunkSet L 2 j]{fullShare} f0 : sProp 𝕄)) hlt2)) $$ Ht2
      icases Hsp with ⟨Hck, Ht2⟩
      ihave Hck' := (Entails.of_eq (pts_chunk0_p2 (F := F) d L k h5 f0).symm) $$ Hck
      sl_exec
      -- the trip's end: every buffer has chunk k in flight
      ihave Hc0 := (Entails.of_eq (flight_respell0 (F := F) d L _ (k0_off52 L k) _ (off52_chunk L k h1) (k0_off52_inb L k h1) (chunkC_inb L 0 k.val) f0 _ _)) $$ Hc0
      ihave Hc1 := (Entails.of_eq (flight_respell0 (F := F) d L _ (k0_off103 L k) _ (off103_chunk L k h3) (k0_off103_inb L k h3) (chunkC_inb L 1 k.val) f0 _ _)) $$ Hc1
      ihave Hc2 := (Entails.of_eq (flight_respell0 (F := F) d L _ (k0_off154 L k) _ (off154_chunk L k h5) (k0_off154_inb L k h5) (chunkC_inb L 2 k.val) f0 _ _)) $$ Hc2
      sl_step
      isplitr; · iexact Hmw
      isplitl [HG]
      · iexists _; isplitr; rotate_left; iexact HG; ipureintro; exact hgS
      isplitl [Ht0 Hc0]
      · isplitl []
        · iempintro
        isplitl [Ht0]; · iexact Ht0
        iexists tt0; isplitr; · ipureintro; exact htt0
        iexact Hc0
      isplitl [Ht1 Hc1]
      · isplitl []
        · iempintro
        isplitl [Ht1]; · iexact Ht1
        iexists tt1; isplitr; · ipureintro; exact htt1
        iexact Hc1
      isplitl [Ht2 Hc2]
      · isplitl []
        · iempintro
        isplitl [Ht2]; · iexact Ht2
        iexists tt2; isplitr; · ipureintro; exact htt2
        iexact Hc2
      iexists _; iexact HO
    · -- a later trip
      by_cases hB : k.val < nIss L 2
      · -- a later trip in which every buffer still has a chunk: each waits for its previous copy first
        have hle : nIss L 2 ≤ nIss L 1 ∧ nIss L 1 ≤ nIss L 0 := by unfold nIss; omega
        have h1 : k0_cond1 L k = 1#1 := (cond1_iff L k).2 (by unfold nIss at hB; omega)
        have h3 : k0_cond3 L k = 1#1 := (cond3_iff L k).2 (by unfold nIss at hB; omega)
        have h5 : k0_cond5 L k = 1#1 := (cond5_iff L k).2 (by unfold nIss at hB; omega)
        have h2 : k0_cond2 k = 1#1 := (cond2_iff k).2 hkpos
        have h4 : k0_cond4 k = 1#1 := (cond4_iff k).2 hkpos
        have h6 : k0_cond6 k = 1#1 := (cond6_iff k).2 hkpos
        have e0 : issued L 0 k.val = k.val := by unfold issued; omega
        have e1 : issued L 1 k.val = k.val := by unfold issued; omega
        have e2 : issued L 2 k.val = k.val := by unfold issued; omega
        have e0' : issued L 0 (k.val + 1) = k.val + 1 := by unfold issued; omega
        have e1' : issued L 1 (k.val + 1) = k.val + 1 := by unfold issued; omega
        have e2' : issued L 2 (k.val + 1) = k.val + 1 := by unfold issued; omega
        have hkne : ¬ k.val = 0 := by omega
        have hdone0 : (iprop((bigSep (Finset.range (k.val - 1)) (fun j => (o0Loc d ↦[chunkSet L 0 j]{fullShare} pat0 d x0 : sProp 𝕄))) ∗ (fun j => (o0Loc d ↦[chunkSet L 0 j]{fullShare} pat0 d x0 : sProp 𝕄)) (k.val - 1)) : sProp 𝕄)
            = bigSep (Finset.range k.val) (fun j => (o0Loc d ↦[chunkSet L 0 j]{fullShare} pat0 d x0 : sProp 𝕄)) := by
          have h := done_step (fun j => (o0Loc d ↦[chunkSet L 0 j]{fullShare} pat0 d x0 : sProp 𝕄)) (k.val - 1)
          rwa [show k.val - 1 + 1 = k.val by omega] at h
        have hdone1 : (iprop((bigSep (Finset.range (k.val - 1)) (fun j => (o0Loc d ↦[chunkSet L 1 j]{fullShare} pat0 d x0 : sProp 𝕄))) ∗ (fun j => (o0Loc d ↦[chunkSet L 1 j]{fullShare} pat0 d x0 : sProp 𝕄)) (k.val - 1)) : sProp 𝕄)
            = bigSep (Finset.range k.val) (fun j => (o0Loc d ↦[chunkSet L 1 j]{fullShare} pat0 d x0 : sProp 𝕄)) := by
          have h := done_step (fun j => (o0Loc d ↦[chunkSet L 1 j]{fullShare} pat0 d x0 : sProp 𝕄)) (k.val - 1)
          rwa [show k.val - 1 + 1 = k.val by omega] at h
        have hdone2 : (iprop((bigSep (Finset.range (k.val - 1)) (fun j => (o0Loc d ↦[chunkSet L 2 j]{fullShare} pat0 d x0 : sProp 𝕄))) ∗ (fun j => (o0Loc d ↦[chunkSet L 2 j]{fullShare} pat0 d x0 : sProp 𝕄)) (k.val - 1)) : sProp 𝕄)
            = bigSep (Finset.range k.val) (fun j => (o0Loc d ↦[chunkSet L 2 j]{fullShare} pat0 d x0 : sProp 𝕄)) := by
          have h := done_step (fun j => (o0Loc d ↦[chunkSet L 2 j]{fullShare} pat0 d x0 : sProp 𝕄)) (k.val - 1)
          rwa [show k.val - 1 + 1 = k.val by omega] at h
        show chunkInv0 d L O W x0 f0 k.val _ ⊢ wp _ _ _ _ (fun _ => chunkInv0 d L O W x0 f0 (k.val + 1) ⟨⟩)
        unfold chunkInv0 bufState0_0 bufState0_1 bufState0_2
        rw [e0, e1, e2, e0', e1', e2', if_neg hkne, if_neg hkne, if_neg hkne,
          if_neg (Nat.succ_ne_zero _), if_neg (Nat.succ_ne_zero _), if_neg (Nat.succ_ne_zero _)]
        simp only [Nat.add_sub_cancel]
        unfold bufFlying0_0 bufFlying0_1 bufFlying0_2 slabInv
        iintro ⟨#Hmw, ⟨%gS, %hgS, HG⟩, ⟨Hd0, Ht0, %tf0, %hfl0, Hc0⟩, ⟨Hd1, Ht1, %tf1, %hfl1, Hc1⟩, ⟨Hd2, Ht2, %tf2, %hfl2, Hc2⟩, %W', HO⟩
        sl_exec
        -- buffer 0: its previous copy has been waited for; chunk k-1 has landed and holds the patches
        ihave Hl0 := (Entails.of_eq (landed_pts0 (F := F) d L 0 (k.val - 1) (by decide) (by omega) x0 _ _ hfl0)) $$ [Hc0_dst]
        · iexact Hc0_dst
        ihave Hd0 := (Entails.of_eq hdone0) $$ [Hd0 Hl0]
        · isplitl [Hd0]; · iexact Hd0
          iexact Hl0
        -- buffer 0: fill its 32 rows, then send them off as chunk k
        sl_for (rowInv0 d L x0 (chunkRow L 0 k.val)) $$ [HG Hc0_src]
        case region =>
          intro jj _
          unfold rowInv0 slabInv bufRows0
          iintro ⟨⟨%g, %hg, HG⟩, %t, %ht, HT0⟩
          have hjj : jj.val < 32 := by have h := jj.isLt; change jj.val < k0_t2_loop.trips at h; rw [trips_t2] at h; omega
          sl_exec
          sl_step
          isplitl [HG]
          · iexists g; isplitr; · ipureintro; exact hg
            iexact HG
          iexists _; isplitr
          rotate_left
          · iexact HT0
          ipureintro
          have hk3 : 3 * k.val < nch L := (cond1_iff L k).1 h1
          have hnl := nch_le L
          have erow : chunkRow L 0 k.val + jj.val = wbase L + 96 * k.val + jj.val := by unfold chunkRow; omega
          have hr1 : wbase L ≤ wbase L + 96 * k.val + jj.val := by omega
          have hr2 : wbase L + 96 * k.val + jj.val < wbase L + nrows L := by omega
          refine rows_step' (b0V).view x0 (chunkRow L 0 k.val) jj.val hjj t _ ht ?_
          rw [erow]
          have pk := fun (c : Fin 3) (kh : Fin 16) =>
            piece_ok d L x0 g hg (wbase L + 96 * k.val + jj.val) jj.val hjj hr1 hr2 c kh
          apply PiecesOK.cons (pk 2 15 _ (off3_eq L k jj h1 2 15) _ _ (k0_off51_eq jj) _ _ _)
          apply PiecesOK.cons (pk 2 14 _ (off3_eq L k jj h1 2 14) _ _ (k0_off50_eq jj) _ _ _)
          apply PiecesOK.cons (pk 2 13 _ (off3_eq L k jj h1 2 13) _ _ (k0_off49_eq jj) _ _ _)
          apply PiecesOK.cons (pk 2 12 _ (off3_eq L k jj h1 2 12) _ _ (k0_off48_eq jj) _ _ _)
          apply PiecesOK.cons (pk 2 11 _ (off3_eq L k jj h1 2 11) _ _ (k0_off47_eq jj) _ _ _)
          apply PiecesOK.cons (pk 2 10 _ (off3_eq L k jj h1 2 10) _ _ (k0_off46_eq jj) _ _ _)
          apply PiecesOK.cons (pk 2 9 _ (off3_eq L k jj h1 2 9) _ _ (k0_off45_eq jj) _ _ _)
          apply PiecesOK.cons (pk 2 8 _ (off3_eq L k jj h1 2 8) _ _ (k0_off44_eq jj) _ _ _)
          apply PiecesOK.cons (pk 2 7 _ (off3_eq L k jj h1 2 7) _ _ (k0_off43_eq jj) _ _ _)
          apply PiecesOK.cons (pk 2 6 _ (off3_eq L k jj h1 2 6) _ _ (k0_off42_eq jj) _ _ _)
          apply PiecesOK.cons (pk 2 5 _ (off3_eq L k jj h1 2 5) _ _ (k0_off41_eq jj) _ _ _)
          apply PiecesOK.cons (pk 2 4 _ (off3_eq L k jj h1 2 4) _ _ (k0_off40_eq jj) _ _ _)
          apply PiecesOK.cons (pk 2 3 _ (off3_eq L k jj h1 2 3) _ _ (k0_off39_eq jj) _ _ _)
          apply PiecesOK.cons (pk 2 2 _ (off3_eq L k jj h1 2 2) _ _ (k0_off38_eq jj) _ _ _)
          apply PiecesOK.cons (pk 2 1 _ (off3_eq L k jj h1 2 1) _ _ (k0_off37_eq jj) _ _ _)
          apply PiecesOK.cons (pk 2 0 _ (off3_eq L k jj h1 2 0) _ _ (k0_off36_eq jj) _ _ _)
          apply PiecesOK.cons (pk 1 15 _ (off3_eq L k jj h1 1 15) _ _ (k0_off35_eq jj) _ _ _)
          apply PiecesOK.cons (pk 1 14 _ (off3_eq L k jj h1 1 14) _ _ (k0_off34_eq jj) _ _ _)
          apply PiecesOK.cons (pk 1 13 _ (off3_eq L k jj h1 1 13) _ _ (k0_off33_eq jj) _ _ _)
          apply PiecesOK.cons (pk 1 12 _ (off3_eq L k jj h1 1 12) _ _ (k0_off32_eq jj) _ _ _)
          apply PiecesOK.cons (pk 1 11 _ (off3_eq L k jj h1 1 11) _ _ (k0_off31_eq jj) _ _ _)
          apply PiecesOK.cons (pk 1 10 _ (off3_eq L k jj h1 1 10) _ _ (k0_off30_eq jj) _ _ _)
          apply PiecesOK.cons (pk 1 9 _ (off3_eq L k jj h1 1 9) _ _ (k0_off29_eq jj) _ _ _)
          apply PiecesOK.cons (pk 1 8 _ (off3_eq L k jj h1 1 8) _ _ (k0_off28_eq jj) _ _ _)
          apply PiecesOK.cons (pk 1 7 _ (off3_eq L k jj h1 1 7) _ _ (k0_off27_eq jj) _ _ _)
          apply PiecesOK.cons (pk 1 6 _ (off3_eq L k jj h1 1 6) _ _ (k0_off26_eq jj) _ _ _)
          apply PiecesOK.cons (pk 1 5 _ (off3_eq L k jj h1 1 5) _ _ (k0_off25_eq jj) _ _ _)
          apply PiecesOK.cons (pk 1 4 _ (off3_eq L k jj h1 1 4) _ _ (k0_off24_eq jj) _ _ _)
          apply PiecesOK.cons (pk 1 3 _ (off3_eq L k jj h1 1 3) _ _ (k0_off23_eq jj) _ _ _)
          apply PiecesOK.cons (pk 1 2 _ (off3_eq L k jj h1 1 2) _ _ (k0_off22_eq jj) _ _ _)
          apply PiecesOK.cons (pk 1 1 _ (off3_eq L k jj h1 1 1) _ _ (k0_off21_eq jj) _ _ _)
          apply PiecesOK.cons (pk 1 0 _ (off3_eq L k jj h1 1 0) _ _ (k0_off20_eq jj) _ _ _)
          apply PiecesOK.cons (pk 0 15 _ (off3_eq L k jj h1 0 15) _ _ (k0_off19_eq jj) _ _ _)
          apply PiecesOK.cons (pk 0 14 _ (off3_eq L k jj h1 0 14) _ _ (k0_off18_eq jj) _ _ _)
          apply PiecesOK.cons (pk 0 13 _ (off3_eq L k jj h1 0 13) _ _ (k0_off17_eq jj) _ _ _)
          apply PiecesOK.cons (pk 0 12 _ (off3_eq L k jj h1 0 12) _ _ (k0_off16_eq jj) _ _ _)
          apply PiecesOK.cons (pk 0 11 _ (off3_eq L k jj h1 0 11) _ _ (k0_off15_eq jj) _ _ _)
          apply PiecesOK.cons (pk 0 10 _ (off3_eq L k jj h1 0 10) _ _ (k0_off14_eq jj) _ _ _)
          apply PiecesOK.cons (pk 0 9 _ (off3_eq L k jj h1 0 9) _ _ (k0_off13_eq jj) _ _ _)
          apply PiecesOK.cons (pk 0 8 _ (off3_eq L k jj h1 0 8) _ _ (k0_off12_eq jj) _ _ _)
          apply PiecesOK.cons (pk 0 7 _ (off3_eq L k jj h1 0 7) _ _ (k0_off11_eq jj) _ _ _)
          apply PiecesOK.cons (pk 0 6 _ (off3_eq L k jj h1 0 6) _ _ (k0_off10_eq jj) _ _ _)
          apply PiecesOK.cons (pk 0 5 _ (off3_eq L k jj h1 0 5) _ _ (k0_off9_eq jj) _ _ _)
          apply PiecesOK.cons (pk 0 4 _ (off3_eq L k jj h1 0 4) _ _ (k0_off8_eq jj) _ _ _)
          apply PiecesOK.cons (pk 0 3 _ (off3_eq L k jj h1 0 3) _ _ (k0_off7_eq jj) _ _ _)
          apply PiecesOK.cons (pk 0 2 _ (off3_eq L k jj h1 0 2) _ _ (k0_off6_eq jj) _ _ _)
          apply PiecesOK.cons (pk 0 1 _ (off3_eq L k jj h1 0 1) _ _ (k0_off5_eq jj) _ _ _)
          apply PiecesOK.cons (pk 0 0 _ (off3_eq L k jj h1 0 0) _ _ (k0_off4_eq jj) _ _ _)
          exact PiecesOK.nil
        · unfold rowInv0 slabInv bufRows0
          isplitl [HG]
          · iexists _; isplitr; rotate_left; iexact HG; ipureintro; exact hgS
          · iexists _; isplitr; rotate_left; iexact Hc0_src; ipureintro; exact Cert.Unfold.rowsDone_zero _ _ _
        iintro %_ HR
        unfold rowInv0 slabInv bufRows0
        icases HR with ⟨⟨%gS0, %hgS0, HG⟩, %tt0, %htt0, HT0⟩
        rw [h32] at htt0
        have hgS := hgS0
        have hlt0 : k.val < nIss L 0 := by omega
        ihave Hsp := (Entails.of_eq (todo_step (fun j => (o0Loc d ↦[chunkSet L 0 j]{fullShare} f0 : sProp 𝕄)) hlt0)) $$ Ht0
        icases Hsp with ⟨Hck, Ht0⟩
        ihave Hck' := (Entails.of_eq (pts_chunk0_p0 (F := F) d L k h1 f0).symm) $$ Hck
        sl_exec
        -- buffer 1: its previous copy has been waited for; chunk k-1 has landed and holds the patches
        ihave Hl1 := (Entails.of_eq (landed_pts0 (F := F) d L 1 (k.val - 1) (by decide) (by omega) x0 _ _ hfl1)) $$ [Hc1_dst]
        · iexact Hc1_dst
        ihave Hd1 := (Entails.of_eq hdone1) $$ [Hd1 Hl1]
        · isplitl [Hd1]; · iexact Hd1
          iexact Hl1
        -- buffer 1: fill its 32 rows, then send them off as chunk k
        sl_for (rowInv1 d L x0 (chunkRow L 1 k.val)) $$ [HG Hc1_src]
        case region =>
          intro jj _
          unfold rowInv1 slabInv bufRows1
          iintro ⟨⟨%g, %hg, HG⟩, %t, %ht, HT1⟩
          have hjj : jj.val < 32 := by have h := jj.isLt; change jj.val < k0_t3_loop.trips at h; rw [trips_t3] at h; omega
          sl_exec
          sl_step
          isplitl [HG]
          · iexists g; isplitr; · ipureintro; exact hg
            iexact HG
          iexists _; isplitr
          rotate_left
          · iexact HT1
          ipureintro
          have hk3 : 3 * k.val + 1 < nch L := (cond3_iff L k).1 h3
          have hnl := nch_le L
          have erow : chunkRow L 1 k.val + jj.val = wbase L + 96 * k.val + 32 + jj.val := by unfold chunkRow; omega
          have hr1 : wbase L ≤ wbase L + 96 * k.val + 32 + jj.val := by omega
          have hr2 : wbase L + 96 * k.val + 32 + jj.val < wbase L + nrows L := by omega
          refine rows_step' (b1V).view x0 (chunkRow L 1 k.val) jj.val hjj t _ ht ?_
          rw [erow]
          have pk := fun (c : Fin 3) (kh : Fin 16) =>
            piece_ok d L x0 g hg (wbase L + 96 * k.val + 32 + jj.val) jj.val hjj hr1 hr2 c kh
          apply PiecesOK.cons (pk 2 15 _ (off54_eq L k jj h3 2 15) _ _ (k0_off102_eq jj) _ _ _)
          apply PiecesOK.cons (pk 2 14 _ (off54_eq L k jj h3 2 14) _ _ (k0_off101_eq jj) _ _ _)
          apply PiecesOK.cons (pk 2 13 _ (off54_eq L k jj h3 2 13) _ _ (k0_off100_eq jj) _ _ _)
          apply PiecesOK.cons (pk 2 12 _ (off54_eq L k jj h3 2 12) _ _ (k0_off99_eq jj) _ _ _)
          apply PiecesOK.cons (pk 2 11 _ (off54_eq L k jj h3 2 11) _ _ (k0_off98_eq jj) _ _ _)
          apply PiecesOK.cons (pk 2 10 _ (off54_eq L k jj h3 2 10) _ _ (k0_off97_eq jj) _ _ _)
          apply PiecesOK.cons (pk 2 9 _ (off54_eq L k jj h3 2 9) _ _ (k0_off96_eq jj) _ _ _)
          apply PiecesOK.cons (pk 2 8 _ (off54_eq L k jj h3 2 8) _ _ (k0_off95_eq jj) _ _ _)
          apply PiecesOK.cons (pk 2 7 _ (off54_eq L k jj h3 2 7) _ _ (k0_off94_eq jj) _ _ _)
          apply PiecesOK.cons (pk 2 6 _ (off54_eq L k jj h3 2 6) _ _ (k0_off93_eq jj) _ _ _)
          apply PiecesOK.cons (pk 2 5 _ (off54_eq L k jj h3 2 5) _ _ (k0_off92_eq jj) _ _ _)
          apply PiecesOK.cons (pk 2 4 _ (off54_eq L k jj h3 2 4) _ _ (k0_off91_eq jj) _ _ _)
          apply PiecesOK.cons (pk 2 3 _ (off54_eq L k jj h3 2 3) _ _ (k0_off90_eq jj) _ _ _)
          apply PiecesOK.cons (pk 2 2 _ (off54_eq L k jj h3 2 2) _ _ (k0_off89_eq jj) _ _ _)
          apply PiecesOK.cons (pk 2 1 _ (off54_eq L k jj h3 2 1) _ _ (k0_off88_eq jj) _ _ _)
          apply PiecesOK.cons (pk 2 0 _ (off54_eq L k jj h3 2 0) _ _ (k0_off87_eq jj) _ _ _)
          apply PiecesOK.cons (pk 1 15 _ (off54_eq L k jj h3 1 15) _ _ (k0_off86_eq jj) _ _ _)
          apply PiecesOK.cons (pk 1 14 _ (off54_eq L k jj h3 1 14) _ _ (k0_off85_eq jj) _ _ _)
          apply PiecesOK.cons (pk 1 13 _ (off54_eq L k jj h3 1 13) _ _ (k0_off84_eq jj) _ _ _)
          apply PiecesOK.cons (pk 1 12 _ (off54_eq L k jj h3 1 12) _ _ (k0_off83_eq jj) _ _ _)
          apply PiecesOK.cons (pk 1 11 _ (off54_eq L k jj h3 1 11) _ _ (k0_off82_eq jj) _ _ _)
          apply PiecesOK.cons (pk 1 10 _ (off54_eq L k jj h3 1 10) _ _ (k0_off81_eq jj) _ _ _)
          apply PiecesOK.cons (pk 1 9 _ (off54_eq L k jj h3 1 9) _ _ (k0_off80_eq jj) _ _ _)
          apply PiecesOK.cons (pk 1 8 _ (off54_eq L k jj h3 1 8) _ _ (k0_off79_eq jj) _ _ _)
          apply PiecesOK.cons (pk 1 7 _ (off54_eq L k jj h3 1 7) _ _ (k0_off78_eq jj) _ _ _)
          apply PiecesOK.cons (pk 1 6 _ (off54_eq L k jj h3 1 6) _ _ (k0_off77_eq jj) _ _ _)
          apply PiecesOK.cons (pk 1 5 _ (off54_eq L k jj h3 1 5) _ _ (k0_off76_eq jj) _ _ _)
          apply PiecesOK.cons (pk 1 4 _ (off54_eq L k jj h3 1 4) _ _ (k0_off75_eq jj) _ _ _)
          apply PiecesOK.cons (pk 1 3 _ (off54_eq L k jj h3 1 3) _ _ (k0_off74_eq jj) _ _ _)
          apply PiecesOK.cons (pk 1 2 _ (off54_eq L k jj h3 1 2) _ _ (k0_off73_eq jj) _ _ _)
          apply PiecesOK.cons (pk 1 1 _ (off54_eq L k jj h3 1 1) _ _ (k0_off72_eq jj) _ _ _)
          apply PiecesOK.cons (pk 1 0 _ (off54_eq L k jj h3 1 0) _ _ (k0_off71_eq jj) _ _ _)
          apply PiecesOK.cons (pk 0 15 _ (off54_eq L k jj h3 0 15) _ _ (k0_off70_eq jj) _ _ _)
          apply PiecesOK.cons (pk 0 14 _ (off54_eq L k jj h3 0 14) _ _ (k0_off69_eq jj) _ _ _)
          apply PiecesOK.cons (pk 0 13 _ (off54_eq L k jj h3 0 13) _ _ (k0_off68_eq jj) _ _ _)
          apply PiecesOK.cons (pk 0 12 _ (off54_eq L k jj h3 0 12) _ _ (k0_off67_eq jj) _ _ _)
          apply PiecesOK.cons (pk 0 11 _ (off54_eq L k jj h3 0 11) _ _ (k0_off66_eq jj) _ _ _)
          apply PiecesOK.cons (pk 0 10 _ (off54_eq L k jj h3 0 10) _ _ (k0_off65_eq jj) _ _ _)
          apply PiecesOK.cons (pk 0 9 _ (off54_eq L k jj h3 0 9) _ _ (k0_off64_eq jj) _ _ _)
          apply PiecesOK.cons (pk 0 8 _ (off54_eq L k jj h3 0 8) _ _ (k0_off63_eq jj) _ _ _)
          apply PiecesOK.cons (pk 0 7 _ (off54_eq L k jj h3 0 7) _ _ (k0_off62_eq jj) _ _ _)
          apply PiecesOK.cons (pk 0 6 _ (off54_eq L k jj h3 0 6) _ _ (k0_off61_eq jj) _ _ _)
          apply PiecesOK.cons (pk 0 5 _ (off54_eq L k jj h3 0 5) _ _ (k0_off60_eq jj) _ _ _)
          apply PiecesOK.cons (pk 0 4 _ (off54_eq L k jj h3 0 4) _ _ (k0_off59_eq jj) _ _ _)
          apply PiecesOK.cons (pk 0 3 _ (off54_eq L k jj h3 0 3) _ _ (k0_off58_eq jj) _ _ _)
          apply PiecesOK.cons (pk 0 2 _ (off54_eq L k jj h3 0 2) _ _ (k0_off57_eq jj) _ _ _)
          apply PiecesOK.cons (pk 0 1 _ (off54_eq L k jj h3 0 1) _ _ (k0_off56_eq jj) _ _ _)
          apply PiecesOK.cons (pk 0 0 _ (off54_eq L k jj h3 0 0) _ _ (k0_off55_eq jj) _ _ _)
          exact PiecesOK.nil
        · unfold rowInv1 slabInv bufRows1
          isplitl [HG]
          · iexists _; isplitr; rotate_left; iexact HG; ipureintro; exact hgS
          · iexists _; isplitr; rotate_left; iexact Hc1_src; ipureintro; exact Cert.Unfold.rowsDone_zero _ _ _
        iintro %_ HR
        unfold rowInv1 slabInv bufRows1
        icases HR with ⟨⟨%gS1, %hgS1, HG⟩, %tt1, %htt1, HT1⟩
        rw [h32] at htt1
        have hgS := hgS1
        have hlt1 : k.val < nIss L 1 := by omega
        ihave Hsp := (Entails.of_eq (todo_step (fun j => (o0Loc d ↦[chunkSet L 1 j]{fullShare} f0 : sProp 𝕄)) hlt1)) $$ Ht1
        icases Hsp with ⟨Hck, Ht1⟩
        ihave Hck' := (Entails.of_eq (pts_chunk0_p1 (F := F) d L k h3 f0).symm) $$ Hck
        sl_exec
        -- buffer 2: its previous copy has been waited for; chunk k-1 has landed and holds the patches
        ihave Hl2 := (Entails.of_eq (landed_pts0 (F := F) d L 2 (k.val - 1) (by decide) (by omega) x0 _ _ hfl2)) $$ [Hc2_dst]
        · iexact Hc2_dst
        ihave Hd2 := (Entails.of_eq hdone2) $$ [Hd2 Hl2]
        · isplitl [Hd2]; · iexact Hd2
          iexact Hl2
        -- buffer 2: fill its 32 rows, then send them off as chunk k
        sl_for (rowInv2 d L x0 (chunkRow L 2 k.val)) $$ [HG Hc2_src]
        case region =>
          intro jj _
          unfold rowInv2 slabInv bufRows2
          iintro ⟨⟨%g, %hg, HG⟩, %t, %ht, HT2⟩
          have hjj : jj.val < 32 := by have h := jj.isLt; change jj.val < k0_t4_loop.trips at h; rw [trips_t4] at h; omega
          sl_exec
          sl_step
          isplitl [HG]
          · iexists g; isplitr; · ipureintro; exact hg
            iexact HG
          iexists _; isplitr
          rotate_left
          · iexact HT2
          ipureintro
          have hk3 : 3 * k.val + 2 < nch L := (cond5_iff L k).1 h5
          have hnl := nch_le L
          have erow : chunkRow L 2 k.val + jj.val = wbase L + 96 * k.val + 64 + jj.val := by unfold chunkRow; omega
          have hr1 : wbase L ≤ wbase L + 96 * k.val + 64 + jj.val := by omega
          have hr2 : wbase L + 96 * k.val + 64 + jj.val < wbase L + nrows L := by omega
          refine rows_step' (b2V).view x0 (chunkRow L 2 k.val) jj.val hjj t _ ht ?_
          rw [erow]
          have pk := fun (c : Fin 3) (kh : Fin 16) =>
            piece_ok d L x0 g hg (wbase L + 96 * k.val + 64 + jj.val) jj.val hjj hr1 hr2 c kh
          apply PiecesOK.cons (pk 2 15 _ (off105_eq L k jj h5 2 15) _ _ (k0_off153_eq jj) _ _ _)
          apply PiecesOK.cons (pk 2 14 _ (off105_eq L k jj h5 2 14) _ _ (k0_off152_eq jj) _ _ _)
          apply PiecesOK.cons (pk 2 13 _ (off105_eq L k jj h5 2 13) _ _ (k0_off151_eq jj) _ _ _)
          apply PiecesOK.cons (pk 2 12 _ (off105_eq L k jj h5 2 12) _ _ (k0_off150_eq jj) _ _ _)
          apply PiecesOK.cons (pk 2 11 _ (off105_eq L k jj h5 2 11) _ _ (k0_off149_eq jj) _ _ _)
          apply PiecesOK.cons (pk 2 10 _ (off105_eq L k jj h5 2 10) _ _ (k0_off148_eq jj) _ _ _)
          apply PiecesOK.cons (pk 2 9 _ (off105_eq L k jj h5 2 9) _ _ (k0_off147_eq jj) _ _ _)
          apply PiecesOK.cons (pk 2 8 _ (off105_eq L k jj h5 2 8) _ _ (k0_off146_eq jj) _ _ _)
          apply PiecesOK.cons (pk 2 7 _ (off105_eq L k jj h5 2 7) _ _ (k0_off145_eq jj) _ _ _)
          apply PiecesOK.cons (pk 2 6 _ (off105_eq L k jj h5 2 6) _ _ (k0_off144_eq jj) _ _ _)
          apply PiecesOK.cons (pk 2 5 _ (off105_eq L k jj h5 2 5) _ _ (k0_off143_eq jj) _ _ _)
          apply PiecesOK.cons (pk 2 4 _ (off105_eq L k jj h5 2 4) _ _ (k0_off142_eq jj) _ _ _)
          apply PiecesOK.cons (pk 2 3 _ (off105_eq L k jj h5 2 3) _ _ (k0_off141_eq jj) _ _ _)
          apply PiecesOK.cons (pk 2 2 _ (off105_eq L k jj h5 2 2) _ _ (k0_off140_eq jj) _ _ _)
          apply PiecesOK.cons (pk 2 1 _ (off105_eq L k jj h5 2 1) _ _ (k0_off139_eq jj) _ _ _)
          apply PiecesOK.cons (pk 2 0 _ (off105_eq L k jj h5 2 0) _ _ (k0_off138_eq jj) _ _ _)
          apply PiecesOK.cons (pk 1 15 _ (off105_eq L k jj h5 1 15) _ _ (k0_off137_eq jj) _ _ _)
          apply PiecesOK.cons (pk 1 14 _ (off105_eq L k jj h5 1 14) _ _ (k0_off136_eq jj) _ _ _)
          apply PiecesOK.cons (pk 1 13 _ (off105_eq L k jj h5 1 13) _ _ (k0_off135_eq jj) _ _ _)
          apply PiecesOK.cons (pk 1 12 _ (off105_eq L k jj h5 1 12) _ _ (k0_off134_eq jj) _ _ _)
          apply PiecesOK.cons (pk 1 11 _ (off105_eq L k jj h5 1 11) _ _ (k0_off133_eq jj) _ _ _)
          apply PiecesOK.cons (pk 1 10 _ (off105_eq L k jj h5 1 10) _ _ (k0_off132_eq jj) _ _ _)
          apply PiecesOK.cons (pk 1 9 _ (off105_eq L k jj h5 1 9) _ _ (k0_off131_eq jj) _ _ _)
          apply PiecesOK.cons (pk 1 8 _ (off105_eq L k jj h5 1 8) _ _ (k0_off130_eq jj) _ _ _)
          apply PiecesOK.cons (pk 1 7 _ (off105_eq L k jj h5 1 7) _ _ (k0_off129_eq jj) _ _ _)
          apply PiecesOK.cons (pk 1 6 _ (off105_eq L k jj h5 1 6) _ _ (k0_off128_eq jj) _ _ _)
          apply PiecesOK.cons (pk 1 5 _ (off105_eq L k jj h5 1 5) _ _ (k0_off127_eq jj) _ _ _)
          apply PiecesOK.cons (pk 1 4 _ (off105_eq L k jj h5 1 4) _ _ (k0_off126_eq jj) _ _ _)
          apply PiecesOK.cons (pk 1 3 _ (off105_eq L k jj h5 1 3) _ _ (k0_off125_eq jj) _ _ _)
          apply PiecesOK.cons (pk 1 2 _ (off105_eq L k jj h5 1 2) _ _ (k0_off124_eq jj) _ _ _)
          apply PiecesOK.cons (pk 1 1 _ (off105_eq L k jj h5 1 1) _ _ (k0_off123_eq jj) _ _ _)
          apply PiecesOK.cons (pk 1 0 _ (off105_eq L k jj h5 1 0) _ _ (k0_off122_eq jj) _ _ _)
          apply PiecesOK.cons (pk 0 15 _ (off105_eq L k jj h5 0 15) _ _ (k0_off121_eq jj) _ _ _)
          apply PiecesOK.cons (pk 0 14 _ (off105_eq L k jj h5 0 14) _ _ (k0_off120_eq jj) _ _ _)
          apply PiecesOK.cons (pk 0 13 _ (off105_eq L k jj h5 0 13) _ _ (k0_off119_eq jj) _ _ _)
          apply PiecesOK.cons (pk 0 12 _ (off105_eq L k jj h5 0 12) _ _ (k0_off118_eq jj) _ _ _)
          apply PiecesOK.cons (pk 0 11 _ (off105_eq L k jj h5 0 11) _ _ (k0_off117_eq jj) _ _ _)
          apply PiecesOK.cons (pk 0 10 _ (off105_eq L k jj h5 0 10) _ _ (k0_off116_eq jj) _ _ _)
          apply PiecesOK.cons (pk 0 9 _ (off105_eq L k jj h5 0 9) _ _ (k0_off115_eq jj) _ _ _)
          apply PiecesOK.cons (pk 0 8 _ (off105_eq L k jj h5 0 8) _ _ (k0_off114_eq jj) _ _ _)
          apply PiecesOK.cons (pk 0 7 _ (off105_eq L k jj h5 0 7) _ _ (k0_off113_eq jj) _ _ _)
          apply PiecesOK.cons (pk 0 6 _ (off105_eq L k jj h5 0 6) _ _ (k0_off112_eq jj) _ _ _)
          apply PiecesOK.cons (pk 0 5 _ (off105_eq L k jj h5 0 5) _ _ (k0_off111_eq jj) _ _ _)
          apply PiecesOK.cons (pk 0 4 _ (off105_eq L k jj h5 0 4) _ _ (k0_off110_eq jj) _ _ _)
          apply PiecesOK.cons (pk 0 3 _ (off105_eq L k jj h5 0 3) _ _ (k0_off109_eq jj) _ _ _)
          apply PiecesOK.cons (pk 0 2 _ (off105_eq L k jj h5 0 2) _ _ (k0_off108_eq jj) _ _ _)
          apply PiecesOK.cons (pk 0 1 _ (off105_eq L k jj h5 0 1) _ _ (k0_off107_eq jj) _ _ _)
          apply PiecesOK.cons (pk 0 0 _ (off105_eq L k jj h5 0 0) _ _ (k0_off106_eq jj) _ _ _)
          exact PiecesOK.nil
        · unfold rowInv2 slabInv bufRows2
          isplitl [HG]
          · iexists _; isplitr; rotate_left; iexact HG; ipureintro; exact hgS
          · iexists _; isplitr; rotate_left; iexact Hc2_src; ipureintro; exact Cert.Unfold.rowsDone_zero _ _ _
        iintro %_ HR
        unfold rowInv2 slabInv bufRows2
        icases HR with ⟨⟨%gS2, %hgS2, HG⟩, %tt2, %htt2, HT2⟩
        rw [h32] at htt2
        have hgS := hgS2
        have hlt2 : k.val < nIss L 2 := by omega
        ihave Hsp := (Entails.of_eq (todo_step (fun j => (o0Loc d ↦[chunkSet L 2 j]{fullShare} f0 : sProp 𝕄)) hlt2)) $$ Ht2
        icases Hsp with ⟨Hck, Ht2⟩
        ihave Hck' := (Entails.of_eq (pts_chunk0_p2 (F := F) d L k h5 f0).symm) $$ Hck
        sl_exec
        -- the trip's end: every buffer has chunk k in flight
        ihave Hc0 := (Entails.of_eq (flight_respell0 (F := F) d L _ (k0_off52 L k) _ (off52_chunk L k h1) (k0_off52_inb L k h1) (chunkC_inb L 0 k.val) f0 _ _)) $$ Hc0
        ihave Hc1 := (Entails.of_eq (flight_respell0 (F := F) d L _ (k0_off103 L k) _ (off103_chunk L k h3) (k0_off103_inb L k h3) (chunkC_inb L 1 k.val) f0 _ _)) $$ Hc1
        ihave Hc2 := (Entails.of_eq (flight_respell0 (F := F) d L _ (k0_off154 L k) _ (off154_chunk L k h5) (k0_off154_inb L k h5) (chunkC_inb L 2 k.val) f0 _ _)) $$ Hc2
        sl_step
        isplitr; · iexact Hmw
        isplitl [HG]
        · iexists _; isplitr; rotate_left; iexact HG; ipureintro; exact hgS
        isplitl [Ht0 Hc0 Hd0]
        · isplitl [Hd0]
          · iexact Hd0
          isplitl [Ht0]; · iexact Ht0
          iexists tt0; isplitr; · ipureintro; exact htt0
          iexact Hc0
        isplitl [Ht1 Hc1 Hd1]
        · isplitl [Hd1]
          · iexact Hd1
          isplitl [Ht1]; · iexact Ht1
          iexists tt1; isplitr; · ipureintro; exact htt1
          iexact Hc1
        isplitl [Ht2 Hc2 Hd2]
        · isplitl [Hd2]
          · iexact Hd2
          isplitl [Ht2]; · iexact Ht2
          iexists tt2; isplitr; · ipureintro; exact htt2
          iexact Hc2
        iexists _; iexact HO
      · by_cases hD : k.val < nIss L 0
        · -- the last tile's trip in which only buffer 0 still has a chunk
          have hge2 : nIss L 2 ≤ k.val := Nat.le_of_not_lt hB
          have hge1 : nIss L 1 ≤ k.val := by
            by_cases hw : wid L = 31 <;> simp only [nIss, nch, hw, ↓reduceIte] at hge2 ⊢ <;> omega
          have h1 : k0_cond1 L k = 1#1 := (cond1_iff L k).2 (by unfold nIss at hD; omega)
          have h3 : ¬ k0_cond3 L k = 1#1 := fun h => by have := (cond3_iff L k).1 h; unfold nIss at hge1; omega
          have h5 : ¬ k0_cond5 L k = 1#1 := fun h => by have := (cond5_iff L k).1 h; unfold nIss at hge2; omega
          have h2 : k0_cond2 k = 1#1 := (cond2_iff k).2 hkpos
          have e0 : issued L 0 k.val = k.val := by unfold issued; omega
          have e0' : issued L 0 (k.val + 1) = k.val + 1 := by unfold issued; omega
          have hkne : ¬ k.val = 0 := by omega
          have eS1 : bufState0_1 d L x0 f0 (k.val + 1) = bufState0_1 d L x0 f0 k.val := by
            unfold bufState0_1 issued
            rw [Nat.min_eq_right (by omega : nIss L 1 ≤ k.val + 1), Nat.min_eq_right hge1]
          have eS2 : bufState0_2 d L x0 f0 (k.val + 1) = bufState0_2 d L x0 f0 k.val := by
            unfold bufState0_2 issued
            rw [Nat.min_eq_right (by omega : nIss L 2 ≤ k.val + 1), Nat.min_eq_right hge2]
          have hdone0 : (iprop((bigSep (Finset.range (k.val - 1)) (fun j => (o0Loc d ↦[chunkSet L 0 j]{fullShare} pat0 d x0 : sProp 𝕄))) ∗ (fun j => (o0Loc d ↦[chunkSet L 0 j]{fullShare} pat0 d x0 : sProp 𝕄)) (k.val - 1)) : sProp 𝕄)
              = bigSep (Finset.range k.val) (fun j => (o0Loc d ↦[chunkSet L 0 j]{fullShare} pat0 d x0 : sProp 𝕄)) := by
            have h := done_step (fun j => (o0Loc d ↦[chunkSet L 0 j]{fullShare} pat0 d x0 : sProp 𝕄)) (k.val - 1)
            rwa [show k.val - 1 + 1 = k.val by omega] at h
          show chunkInv0 d L O W x0 f0 k.val _ ⊢ wp _ _ _ _ (fun _ => chunkInv0 d L O W x0 f0 (k.val + 1) ⟨⟩)
          unfold chunkInv0 bufState0_0
          rw [e0, e0', if_neg hkne, if_neg (Nat.succ_ne_zero _), eS1, eS2]
          simp only [Nat.add_sub_cancel]
          unfold bufFlying0_0 slabInv
          iintro ⟨#Hmw, ⟨%gS, %hgS, HG⟩, ⟨Hd0, Ht0, %tf0, %hfl0, Hc0⟩, HS1, HS2, %W', HO⟩
          sl_exec
          -- buffer 0: its previous copy has been waited for; chunk k-1 has landed and holds the patches
          ihave Hl0 := (Entails.of_eq (landed_pts0 (F := F) d L 0 (k.val - 1) (by decide) (by omega) x0 _ _ hfl0)) $$ [Hc0_dst]
          · iexact Hc0_dst
          ihave Hd0 := (Entails.of_eq hdone0) $$ [Hd0 Hl0]
          · isplitl [Hd0]; · iexact Hd0
            iexact Hl0
          -- buffer 0: fill its 32 rows, then send them off as chunk k
          sl_for (rowInv0 d L x0 (chunkRow L 0 k.val)) $$ [HG Hc0_src]
          case region =>
            intro jj _
            unfold rowInv0 slabInv bufRows0
            iintro ⟨⟨%g, %hg, HG⟩, %t, %ht, HT0⟩
            have hjj : jj.val < 32 := by have h := jj.isLt; change jj.val < k0_t2_loop.trips at h; rw [trips_t2] at h; omega
            sl_exec
            sl_step
            isplitl [HG]
            · iexists g; isplitr; · ipureintro; exact hg
              iexact HG
            iexists _; isplitr
            rotate_left
            · iexact HT0
            ipureintro
            have hk3 : 3 * k.val < nch L := (cond1_iff L k).1 h1
            have hnl := nch_le L
            have erow : chunkRow L 0 k.val + jj.val = wbase L + 96 * k.val + jj.val := by unfold chunkRow; omega
            have hr1 : wbase L ≤ wbase L + 96 * k.val + jj.val := by omega
            have hr2 : wbase L + 96 * k.val + jj.val < wbase L + nrows L := by omega
            refine rows_step' (b0V).view x0 (chunkRow L 0 k.val) jj.val hjj t _ ht ?_
            rw [erow]
            have pk := fun (c : Fin 3) (kh : Fin 16) =>
              piece_ok d L x0 g hg (wbase L + 96 * k.val + jj.val) jj.val hjj hr1 hr2 c kh
            apply PiecesOK.cons (pk 2 15 _ (off3_eq L k jj h1 2 15) _ _ (k0_off51_eq jj) _ _ _)
            apply PiecesOK.cons (pk 2 14 _ (off3_eq L k jj h1 2 14) _ _ (k0_off50_eq jj) _ _ _)
            apply PiecesOK.cons (pk 2 13 _ (off3_eq L k jj h1 2 13) _ _ (k0_off49_eq jj) _ _ _)
            apply PiecesOK.cons (pk 2 12 _ (off3_eq L k jj h1 2 12) _ _ (k0_off48_eq jj) _ _ _)
            apply PiecesOK.cons (pk 2 11 _ (off3_eq L k jj h1 2 11) _ _ (k0_off47_eq jj) _ _ _)
            apply PiecesOK.cons (pk 2 10 _ (off3_eq L k jj h1 2 10) _ _ (k0_off46_eq jj) _ _ _)
            apply PiecesOK.cons (pk 2 9 _ (off3_eq L k jj h1 2 9) _ _ (k0_off45_eq jj) _ _ _)
            apply PiecesOK.cons (pk 2 8 _ (off3_eq L k jj h1 2 8) _ _ (k0_off44_eq jj) _ _ _)
            apply PiecesOK.cons (pk 2 7 _ (off3_eq L k jj h1 2 7) _ _ (k0_off43_eq jj) _ _ _)
            apply PiecesOK.cons (pk 2 6 _ (off3_eq L k jj h1 2 6) _ _ (k0_off42_eq jj) _ _ _)
            apply PiecesOK.cons (pk 2 5 _ (off3_eq L k jj h1 2 5) _ _ (k0_off41_eq jj) _ _ _)
            apply PiecesOK.cons (pk 2 4 _ (off3_eq L k jj h1 2 4) _ _ (k0_off40_eq jj) _ _ _)
            apply PiecesOK.cons (pk 2 3 _ (off3_eq L k jj h1 2 3) _ _ (k0_off39_eq jj) _ _ _)
            apply PiecesOK.cons (pk 2 2 _ (off3_eq L k jj h1 2 2) _ _ (k0_off38_eq jj) _ _ _)
            apply PiecesOK.cons (pk 2 1 _ (off3_eq L k jj h1 2 1) _ _ (k0_off37_eq jj) _ _ _)
            apply PiecesOK.cons (pk 2 0 _ (off3_eq L k jj h1 2 0) _ _ (k0_off36_eq jj) _ _ _)
            apply PiecesOK.cons (pk 1 15 _ (off3_eq L k jj h1 1 15) _ _ (k0_off35_eq jj) _ _ _)
            apply PiecesOK.cons (pk 1 14 _ (off3_eq L k jj h1 1 14) _ _ (k0_off34_eq jj) _ _ _)
            apply PiecesOK.cons (pk 1 13 _ (off3_eq L k jj h1 1 13) _ _ (k0_off33_eq jj) _ _ _)
            apply PiecesOK.cons (pk 1 12 _ (off3_eq L k jj h1 1 12) _ _ (k0_off32_eq jj) _ _ _)
            apply PiecesOK.cons (pk 1 11 _ (off3_eq L k jj h1 1 11) _ _ (k0_off31_eq jj) _ _ _)
            apply PiecesOK.cons (pk 1 10 _ (off3_eq L k jj h1 1 10) _ _ (k0_off30_eq jj) _ _ _)
            apply PiecesOK.cons (pk 1 9 _ (off3_eq L k jj h1 1 9) _ _ (k0_off29_eq jj) _ _ _)
            apply PiecesOK.cons (pk 1 8 _ (off3_eq L k jj h1 1 8) _ _ (k0_off28_eq jj) _ _ _)
            apply PiecesOK.cons (pk 1 7 _ (off3_eq L k jj h1 1 7) _ _ (k0_off27_eq jj) _ _ _)
            apply PiecesOK.cons (pk 1 6 _ (off3_eq L k jj h1 1 6) _ _ (k0_off26_eq jj) _ _ _)
            apply PiecesOK.cons (pk 1 5 _ (off3_eq L k jj h1 1 5) _ _ (k0_off25_eq jj) _ _ _)
            apply PiecesOK.cons (pk 1 4 _ (off3_eq L k jj h1 1 4) _ _ (k0_off24_eq jj) _ _ _)
            apply PiecesOK.cons (pk 1 3 _ (off3_eq L k jj h1 1 3) _ _ (k0_off23_eq jj) _ _ _)
            apply PiecesOK.cons (pk 1 2 _ (off3_eq L k jj h1 1 2) _ _ (k0_off22_eq jj) _ _ _)
            apply PiecesOK.cons (pk 1 1 _ (off3_eq L k jj h1 1 1) _ _ (k0_off21_eq jj) _ _ _)
            apply PiecesOK.cons (pk 1 0 _ (off3_eq L k jj h1 1 0) _ _ (k0_off20_eq jj) _ _ _)
            apply PiecesOK.cons (pk 0 15 _ (off3_eq L k jj h1 0 15) _ _ (k0_off19_eq jj) _ _ _)
            apply PiecesOK.cons (pk 0 14 _ (off3_eq L k jj h1 0 14) _ _ (k0_off18_eq jj) _ _ _)
            apply PiecesOK.cons (pk 0 13 _ (off3_eq L k jj h1 0 13) _ _ (k0_off17_eq jj) _ _ _)
            apply PiecesOK.cons (pk 0 12 _ (off3_eq L k jj h1 0 12) _ _ (k0_off16_eq jj) _ _ _)
            apply PiecesOK.cons (pk 0 11 _ (off3_eq L k jj h1 0 11) _ _ (k0_off15_eq jj) _ _ _)
            apply PiecesOK.cons (pk 0 10 _ (off3_eq L k jj h1 0 10) _ _ (k0_off14_eq jj) _ _ _)
            apply PiecesOK.cons (pk 0 9 _ (off3_eq L k jj h1 0 9) _ _ (k0_off13_eq jj) _ _ _)
            apply PiecesOK.cons (pk 0 8 _ (off3_eq L k jj h1 0 8) _ _ (k0_off12_eq jj) _ _ _)
            apply PiecesOK.cons (pk 0 7 _ (off3_eq L k jj h1 0 7) _ _ (k0_off11_eq jj) _ _ _)
            apply PiecesOK.cons (pk 0 6 _ (off3_eq L k jj h1 0 6) _ _ (k0_off10_eq jj) _ _ _)
            apply PiecesOK.cons (pk 0 5 _ (off3_eq L k jj h1 0 5) _ _ (k0_off9_eq jj) _ _ _)
            apply PiecesOK.cons (pk 0 4 _ (off3_eq L k jj h1 0 4) _ _ (k0_off8_eq jj) _ _ _)
            apply PiecesOK.cons (pk 0 3 _ (off3_eq L k jj h1 0 3) _ _ (k0_off7_eq jj) _ _ _)
            apply PiecesOK.cons (pk 0 2 _ (off3_eq L k jj h1 0 2) _ _ (k0_off6_eq jj) _ _ _)
            apply PiecesOK.cons (pk 0 1 _ (off3_eq L k jj h1 0 1) _ _ (k0_off5_eq jj) _ _ _)
            apply PiecesOK.cons (pk 0 0 _ (off3_eq L k jj h1 0 0) _ _ (k0_off4_eq jj) _ _ _)
            exact PiecesOK.nil
          · unfold rowInv0 slabInv bufRows0
            isplitl [HG]
            · iexists _; isplitr; rotate_left; iexact HG; ipureintro; exact hgS
            · iexists _; isplitr; rotate_left; iexact Hc0_src; ipureintro; exact Cert.Unfold.rowsDone_zero _ _ _
          iintro %_ HR
          unfold rowInv0 slabInv bufRows0
          icases HR with ⟨⟨%gS0, %hgS0, HG⟩, %tt0, %htt0, HT0⟩
          rw [h32] at htt0
          have hgS := hgS0
          have hlt0 : k.val < nIss L 0 := by omega
          ihave Hsp := (Entails.of_eq (todo_step (fun j => (o0Loc d ↦[chunkSet L 0 j]{fullShare} f0 : sProp 𝕄)) hlt0)) $$ Ht0
          icases Hsp with ⟨Hck, Ht0⟩
          ihave Hck' := (Entails.of_eq (pts_chunk0_p0 (F := F) d L k h1 f0).symm) $$ Hck
          sl_exec
          -- the trip's end: buffer 0 has chunk k in flight; the other two are as they were
          ihave Hc0 := (Entails.of_eq (flight_respell0 (F := F) d L _ (k0_off52 L k) _ (off52_chunk L k h1) (k0_off52_inb L k h1) (chunkC_inb L 0 k.val) f0 _ _)) $$ Hc0
          sl_step
          isplitr; · iexact Hmw
          isplitl [HG]
          · iexists _; isplitr; rotate_left; iexact HG; ipureintro; exact hgS
          isplitl [Ht0 Hc0 Hd0]
          · isplitl [Hd0]
            · iexact Hd0
            isplitl [Ht0]; · iexact Ht0
            iexists tt0; isplitr; · ipureintro; exact htt0
            iexact Hc0
          isplitl [HS1]; · iexact HS1
          isplitl [HS2]; · iexact HS2
          iexists _; iexact HO
        · -- nothing is left for any buffer: the trip changes nothing
          have hC : nIss L 0 ≤ k.val := Nat.le_of_not_lt hD
          have hle : nIss L 2 ≤ nIss L 1 ∧ nIss L 1 ≤ nIss L 0 := by unfold nIss; omega
          have h1 : ¬ k0_cond1 L k = 1#1 := fun h => by have := (cond1_iff L k).1 h; unfold nIss at hC; omega
          have h3 : ¬ k0_cond3 L k = 1#1 := fun h => by have := (cond3_iff L k).1 h; unfold nIss at hC; omega
          have h5 : ¬ k0_cond5 L k = 1#1 := fun h => by have := (cond5_iff L k).1 h; unfold nIss at hC; omega
          have eI : chunkInv0 d L O W x0 f0 (k.val + 1) ⟨⟩ = chunkInv0 d L O W x0 f0 k.val ⟨⟩ := by
            unfold chunkInv0 bufState0_0 bufState0_1 bufState0_2 issued
            rw [Nat.min_eq_right (by omega : nIss L 0 ≤ k.val + 1), Nat.min_eq_right (by omega : nIss L 0 ≤ k.val),
              Nat.min_eq_right (by omega : nIss L 1 ≤ k.val + 1), Nat.min_eq_right (by omega : nIss L 1 ≤ k.val),
              Nat.min_eq_right (by omega : nIss L 2 ≤ k.val + 1), Nat.min_eq_right (by omega : nIss L 2 ≤ k.val)]
          show chunkInv0 d L O W x0 f0 k.val _ ⊢ wp _ _ _ _ (fun _ => chunkInv0 d L O W x0 f0 (k.val + 1) ⟨⟩)
          rw [eI]
          iintro H
          sl_exec
          sl_step
          iexact H
  · unfold chunkInv0
    isplitr; · iexact Hmw
    isplitl [HG]
    · unfold slabInv; iexists _; isplitr; rotate_left; iexact HG; ipureintro; exact slab_filled2_x0 d L x0 g hg
    isplitl [HD0 HT0 Hc0]
    · iapply (bufState0_0_init d L x0 f0 t0)
      isplitl [HD0]; · iexact HD0
      isplitl [HT0]; · iexact HT0
      iexact Hc0
    isplitl [HD1 HT1 Hc1]
    · iapply (bufState0_1_init d L x0 f0 t1)
      isplitl [HD1]; · iexact HD1
      isplitl [HT1]; · iexact HT1
      iexact Hc1
    isplitl [HD2 HT2 Hc2]
    · iapply (bufState0_2_init d L x0 f0 t2)
      isplitl [HD2]; · iexact HD2
      isplitl [HT2]; · iexact HT2
      iexact Hc2
    iexists _; iexact HO
  iintro %_ HI
  have e20 : Scf.trips k0_t1_loop.lb k0_t1_loop.ub k0_t1_loop.st = 20 := trips_t1
  rw [e20]
  by_cases hw : wid L = 31
  · -- the last tile: 46 chunks (16, 15, 15), no chunk left to issue; the tail follows the three waits
    have k0_h7 : ¬ k0_cond7 L = 1#1 := fun h => (cond7_iff L).1 h hw
    have k0_h9 : k0_cond9 L = 1#1 := (cond9_iff L).2 hw
    have n0 : nIss L 0 = 16 := by unfold nIss nch; rw [if_pos hw]
    have n1 : nIss L 1 = 15 := by unfold nIss nch; rw [if_pos hw]
    have n2 : nIss L 2 = 15 := by unfold nIss nch; rw [if_pos hw]
    have i0 : issued L 0 20 = 16 := by unfold issued; omega
    have i1 : issued L 1 20 = 15 := by unfold issued; omega
    have i2 : issued L 2 20 = 15 := by unfold issued; omega
    unfold chunkInv0 bufState0_0 bufState0_1 bufState0_2
    rw [i0, i1, i2, n0, n1, n2]
    simp only [Nat.reduceSub, Finset.Ico_self, bigSep_empty, OfNat.ofNat_ne_zero, ↓reduceIte]
    unfold bufFlying0_0 bufFlying0_1 bufFlying0_2 slabInv
    icases HI with ⟨-, ⟨%g, %hg, HG⟩, ⟨HD0, -, ⟨%u0, %hu0, HF0⟩⟩, ⟨HD1, -, ⟨%u1, %hu1, HF1⟩⟩, ⟨HD2, -, ⟨%u2, %hu2, HF2⟩⟩, %W', HO⟩
    -- the tail pieces in the program's spelling
    ihave HTA' := (Entails.of_eq (pts_tailA0 (F := F) d L k0_h9 f0).symm) $$ HTA
    ihave HTB' := (Entails.of_eq (pts_tailB0 (F := F) d L k0_h9 f0).symm) $$ HTB
    sl_unfold [part104_run.sl.prog.cont_1]
    sl_exec
    sl_for (rowInv0 d L x0 61984) $$ [HG HF0_src]
    case region =>
      intro jj _
      unfold rowInv0 slabInv bufRows0
      iintro ⟨⟨%g, %hg, HG⟩, %t, %ht, HT0⟩
      have hjj17 : jj.val < 17 := by have h := jj.isLt; change jj.val < k0_t6_loop.trips at h; rw [trips_t6] at h; exact h
      have hjj : jj.val < 32 := by omega
      sl_exec
      sl_step
      isplitl [HG]
      · iexists g; isplitr; · ipureintro; exact hg
        iexact HG
      iexists _; isplitr
      rotate_left
      · iexact HT0
      ipureintro
      have hwb : wbase L = 60512 := by unfold wbase; rw [hw]
      have hnr : nrows L = 1489 := by unfold nrows; rw [if_pos hw]
      have hr1 : wbase L ≤ 61984 + jj.val := by omega
      have hr2 : 61984 + jj.val < wbase L + nrows L := by omega
      refine rows_step' (b0V).view x0 (61984) jj.val hjj t _ ht ?_
      have pk := fun (c : Fin 3) (kh : Fin 16) =>
        piece_ok d L x0 g hg (61984 + jj.val) jj.val hjj hr1 hr2 c kh
      apply PiecesOK.cons (pk 2 15 _ (off206_eq L jj k0_h9 2 15) _ _ (k0_off254_eq jj) _ _ _)
      apply PiecesOK.cons (pk 2 14 _ (off206_eq L jj k0_h9 2 14) _ _ (k0_off253_eq jj) _ _ _)
      apply PiecesOK.cons (pk 2 13 _ (off206_eq L jj k0_h9 2 13) _ _ (k0_off252_eq jj) _ _ _)
      apply PiecesOK.cons (pk 2 12 _ (off206_eq L jj k0_h9 2 12) _ _ (k0_off251_eq jj) _ _ _)
      apply PiecesOK.cons (pk 2 11 _ (off206_eq L jj k0_h9 2 11) _ _ (k0_off250_eq jj) _ _ _)
      apply PiecesOK.cons (pk 2 10 _ (off206_eq L jj k0_h9 2 10) _ _ (k0_off249_eq jj) _ _ _)
      apply PiecesOK.cons (pk 2 9 _ (off206_eq L jj k0_h9 2 9) _ _ (k0_off248_eq jj) _ _ _)
      apply PiecesOK.cons (pk 2 8 _ (off206_eq L jj k0_h9 2 8) _ _ (k0_off247_eq jj) _ _ _)
      apply PiecesOK.cons (pk 2 7 _ (off206_eq L jj k0_h9 2 7) _ _ (k0_off246_eq jj) _ _ _)
      apply PiecesOK.cons (pk 2 6 _ (off206_eq L jj k0_h9 2 6) _ _ (k0_off245_eq jj) _ _ _)
      apply PiecesOK.cons (pk 2 5 _ (off206_eq L jj k0_h9 2 5) _ _ (k0_off244_eq jj) _ _ _)
      apply PiecesOK.cons (pk 2 4 _ (off206_eq L jj k0_h9 2 4) _ _ (k0_off243_eq jj) _ _ _)
      apply PiecesOK.cons (pk 2 3 _ (off206_eq L jj k0_h9 2 3) _ _ (k0_off242_eq jj) _ _ _)
      apply PiecesOK.cons (pk 2 2 _ (off206_eq L jj k0_h9 2 2) _ _ (k0_off241_eq jj) _ _ _)
      apply PiecesOK.cons (pk 2 1 _ (off206_eq L jj k0_h9 2 1) _ _ (k0_off240_eq jj) _ _ _)
      apply PiecesOK.cons (pk 2 0 _ (off206_eq L jj k0_h9 2 0) _ _ (k0_off239_eq jj) _ _ _)
      apply PiecesOK.cons (pk 1 15 _ (off206_eq L jj k0_h9 1 15) _ _ (k0_off238_eq jj) _ _ _)
      apply PiecesOK.cons (pk 1 14 _ (off206_eq L jj k0_h9 1 14) _ _ (k0_off237_eq jj) _ _ _)
      apply PiecesOK.cons (pk 1 13 _ (off206_eq L jj k0_h9 1 13) _ _ (k0_off236_eq jj) _ _ _)
      apply PiecesOK.cons (pk 1 12 _ (off206_eq L jj k0_h9 1 12) _ _ (k0_off235_eq jj) _ _ _)
      apply PiecesOK.cons (pk 1 11 _ (off206_eq L jj k0_h9 1 11) _ _ (k0_off234_eq jj) _ _ _)
      apply PiecesOK.cons (pk 1 10 _ (off206_eq L jj k0_h9 1 10) _ _ (k0_off233_eq jj) _ _ _)
      apply PiecesOK.cons (pk 1 9 _ (off206_eq L jj k0_h9 1 9) _ _ (k0_off232_eq jj) _ _ _)
      apply PiecesOK.cons (pk 1 8 _ (off206_eq L jj k0_h9 1 8) _ _ (k0_off231_eq jj) _ _ _)
      apply PiecesOK.cons (pk 1 7 _ (off206_eq L jj k0_h9 1 7) _ _ (k0_off230_eq jj) _ _ _)
      apply PiecesOK.cons (pk 1 6 _ (off206_eq L jj k0_h9 1 6) _ _ (k0_off229_eq jj) _ _ _)
      apply PiecesOK.cons (pk 1 5 _ (off206_eq L jj k0_h9 1 5) _ _ (k0_off228_eq jj) _ _ _)
      apply PiecesOK.cons (pk 1 4 _ (off206_eq L jj k0_h9 1 4) _ _ (k0_off227_eq jj) _ _ _)
      apply PiecesOK.cons (pk 1 3 _ (off206_eq L jj k0_h9 1 3) _ _ (k0_off226_eq jj) _ _ _)
      apply PiecesOK.cons (pk 1 2 _ (off206_eq L jj k0_h9 1 2) _ _ (k0_off225_eq jj) _ _ _)
      apply PiecesOK.cons (pk 1 1 _ (off206_eq L jj k0_h9 1 1) _ _ (k0_off224_eq jj) _ _ _)
      apply PiecesOK.cons (pk 1 0 _ (off206_eq L jj k0_h9 1 0) _ _ (k0_off223_eq jj) _ _ _)
      apply PiecesOK.cons (pk 0 15 _ (off206_eq L jj k0_h9 0 15) _ _ (k0_off222_eq jj) _ _ _)
      apply PiecesOK.cons (pk 0 14 _ (off206_eq L jj k0_h9 0 14) _ _ (k0_off221_eq jj) _ _ _)
      apply PiecesOK.cons (pk 0 13 _ (off206_eq L jj k0_h9 0 13) _ _ (k0_off220_eq jj) _ _ _)
      apply PiecesOK.cons (pk 0 12 _ (off206_eq L jj k0_h9 0 12) _ _ (k0_off219_eq jj) _ _ _)
      apply PiecesOK.cons (pk 0 11 _ (off206_eq L jj k0_h9 0 11) _ _ (k0_off218_eq jj) _ _ _)
      apply PiecesOK.cons (pk 0 10 _ (off206_eq L jj k0_h9 0 10) _ _ (k0_off217_eq jj) _ _ _)
      apply PiecesOK.cons (pk 0 9 _ (off206_eq L jj k0_h9 0 9) _ _ (k0_off216_eq jj) _ _ _)
      apply PiecesOK.cons (pk 0 8 _ (off206_eq L jj k0_h9 0 8) _ _ (k0_off215_eq jj) _ _ _)
      apply PiecesOK.cons (pk 0 7 _ (off206_eq L jj k0_h9 0 7) _ _ (k0_off214_eq jj) _ _ _)
      apply PiecesOK.cons (pk 0 6 _ (off206_eq L jj k0_h9 0 6) _ _ (k0_off213_eq jj) _ _ _)
      apply PiecesOK.cons (pk 0 5 _ (off206_eq L jj k0_h9 0 5) _ _ (k0_off212_eq jj) _ _ _)
      apply PiecesOK.cons (pk 0 4 _ (off206_eq L jj k0_h9 0 4) _ _ (k0_off211_eq jj) _ _ _)
      apply PiecesOK.cons (pk 0 3 _ (off206_eq L jj k0_h9 0 3) _ _ (k0_off210_eq jj) _ _ _)
      apply PiecesOK.cons (pk 0 2 _ (off206_eq L jj k0_h9 0 2) _ _ (k0_off209_eq jj) _ _ _)
      apply PiecesOK.cons (pk 0 1 _ (off206_eq L jj k0_h9 0 1) _ _ (k0_off208_eq jj) _ _ _)
      apply PiecesOK.cons (pk 0 0 _ (off206_eq L jj k0_h9 0 0) _ _ (k0_off207_eq jj) _ _ _)
      exact PiecesOK.nil
    · unfold rowInv0 slabInv bufRows0
      isplitl [HG]
      · iexists g; isplitr
        · ipureintro; exact hg
        · iexact HG
      · iexists u0; isplitr
        · ipureintro; exact Cert.Unfold.rowsDone_zero _ _ _
        · iexact HF0_src
    iintro %_ HR
    unfold rowInv0 slabInv bufRows0
    icases HR with ⟨⟨%g', %hg', HG⟩, ⟨%t, %ht, HT0⟩⟩
    sl_exec
    sl_step
    have ht17 : RowsDone (α := Elt F .f32) ((b0V).view.read (Elt F) t) x0 61984 17 := ht
    -- the three delivered chunks join the landed ones
    ihave HL0 := (Entails.of_eq (landed_pts0 (F := F) d L 0 15 (by omega) (by omega) x0 _ _ hu0)) $$ HF0_dst
    ihave HL1 := (Entails.of_eq (landed_pts0 (F := F) d L 1 14 (by omega) (by omega) x0 _ _ hu1)) $$ HF1_dst
    ihave HL2 := (Entails.of_eq (landed_pts0 (F := F) d L 2 14 (by omega) (by omega) x0 _ _ hu2)) $$ HF2_dst
    ihave HD0' := (Entails.of_eq (done_step (fun j => (o0Loc d ↦[chunkSet L 0 j]{fullShare} pat0 d x0 : sProp 𝕄)) 15)) $$ [HD0 HL0]
    · isplitl [HD0]; · iexact HD0
      iexact HL0
    ihave HD1' := (Entails.of_eq (done_step (fun j => (o0Loc d ↦[chunkSet L 1 j]{fullShare} pat0 d x0 : sProp 𝕄)) 14)) $$ [HD1 HL1]
    · isplitl [HD1]; · iexact HD1
      iexact HL1
    ihave HD2' := (Entails.of_eq (done_step (fun j => (o0Loc d ↦[chunkSet L 2 j]{fullShare} pat0 d x0 : sProp 𝕄)) 14)) $$ [HD2 HL2]
    · isplitl [HD2]; · iexact HD2
      iexact HL2
    isplitl [HX0]; · iexact HX0
    isplitl [HG]; · iexists _; iexact HG
    isplitl [HD0']; · iexact HD0'
    isplitl [HD1']; · iexact HD1'
    isplitl [HD2']; · iexact HD2'
    isplitl [HTA']
    · iapply (Entails.of_eq (tailA_landed0 (F := F) d L hw x0 f0 t ht17)); iexact HTA'
    isplitl [HTB']
    · iapply (Entails.of_eq (tailB_landed0 (F := F) d L hw x0 f0 t ht17)); iexact HTB'
    isplitl [HT0 HF0]
    · unfold bufIdle0
      isplitl [HT0]; · iexists _; iexact HT0
      iexact HF0
    isplitl [HF1_src HF1]
    · unfold bufIdle1
      isplitl [HF1_src]; · iexists _; iexact HF1_src
      iexact HF1
    isplitl [HF2_src HF2]
    · unfold bufIdle2
      isplitl [HF2_src]; · iexists _; iexact HF2_src
      iexact HF2
    isplitl [Hc5]; · iexact Hc5
    isplitl [Hc6]; · iexact Hc6
    isplitl [Hc7]; · iexact Hc7
    iexists _; iexact HO
  · -- every other tile: 61 chunks (21, 20, 20); chunk (0, 20) is still to come
    have k0_h7 : k0_cond7 L = 1#1 := (cond7_iff L).2 hw
    have k0_h8 : k0_cond8 = 1#1 := cond8_true
    have k0_h9 : ¬ k0_cond9 L = 1#1 := fun h => hw ((cond9_iff L).1 h)
    have n0 : nIss L 0 = 21 := by unfold nIss nch; rw [if_neg hw]
    have n1 : nIss L 1 = 20 := by unfold nIss nch; rw [if_neg hw]
    have n2 : nIss L 2 = 20 := by unfold nIss nch; rw [if_neg hw]
    have i0 : issued L 0 20 = 20 := by unfold issued; omega
    have i1 : issued L 1 20 = 20 := by unfold issued; omega
    have i2 : issued L 2 20 = 20 := by unfold issued; omega
    unfold chunkInv0 bufState0_0 bufState0_1 bufState0_2
    rw [i0, i1, i2, n0, n1, n2]
    rw [todo_step (fun j => (o0Loc d ↦[chunkSet L 0 j]{fullShare} f0 : sProp 𝕄)) (show 20 < 21 by omega)]
    simp only [Nat.reduceSub, Nat.reduceAdd, Finset.Ico_self, bigSep_empty, OfNat.ofNat_ne_zero, ↓reduceIte]
    unfold bufFlying0_0 bufFlying0_1 bufFlying0_2 slabInv
    icases HI with ⟨-, ⟨%g, %hg, HG⟩, ⟨HD0, ⟨HN0, -⟩, ⟨%u0, %hu0, HF0⟩⟩, ⟨HD1, -, ⟨%u1, %hu1, HF1⟩⟩, ⟨HD2, -, ⟨%u2, %hu2, HF2⟩⟩, %W', HO⟩
    -- the chunk to come in the program's spelling
    ihave HN0' := (Entails.of_eq (pts_last0 (F := F) d L k0_h7 f0).symm) $$ HN0
    sl_unfold [part104_run.sl.prog.cont_1]
    sl_exec
    sl_for (rowInv0 d L x0 (chunkRow L 0 20)) $$ [HG HF0_src]
    case region =>
      intro jj _
      unfold rowInv0 slabInv bufRows0
      iintro ⟨⟨%g, %hg, HG⟩, %t, %ht, HT0⟩
      have hjj : jj.val < 32 := by have h := jj.isLt; change jj.val < k0_t5_loop.trips at h; rw [trips_t5] at h; exact h
      sl_exec
      sl_step
      isplitl [HG]
      · iexists g; isplitr; · ipureintro; exact hg
        iexact HG
      iexists _; isplitr
      rotate_left
      · iexact HT0
      ipureintro
      have hnr : nrows L = 1952 := by unfold nrows; rw [if_neg hw]
      have erow : chunkRow L 0 20 + jj.val = wbase L + 1920 + jj.val := by unfold chunkRow; omega
      have hr1 : wbase L ≤ wbase L + 1920 + jj.val := by omega
      have hr2 : wbase L + 1920 + jj.val < wbase L + nrows L := by omega
      refine rows_step' (b0V).view x0 (chunkRow L 0 20) jj.val hjj t _ ht ?_
      rw [erow]
      have pk := fun (c : Fin 3) (kh : Fin 16) =>
        piece_ok d L x0 g hg (wbase L + 1920 + jj.val) jj.val hjj hr1 hr2 c kh
      apply PiecesOK.cons (pk 2 15 _ (off156_eq L jj k0_h7 2 15) _ _ (k0_off204_eq jj) _ _ _)
      apply PiecesOK.cons (pk 2 14 _ (off156_eq L jj k0_h7 2 14) _ _ (k0_off203_eq jj) _ _ _)
      apply PiecesOK.cons (pk 2 13 _ (off156_eq L jj k0_h7 2 13) _ _ (k0_off202_eq jj) _ _ _)
      apply PiecesOK.cons (pk 2 12 _ (off156_eq L jj k0_h7 2 12) _ _ (k0_off201_eq jj) _ _ _)
      apply PiecesOK.cons (pk 2 11 _ (off156_eq L jj k0_h7 2 11) _ _ (k0_off200_eq jj) _ _ _)
      apply PiecesOK.cons (pk 2 10 _ (off156_eq L jj k0_h7 2 10) _ _ (k0_off199_eq jj) _ _ _)
      apply PiecesOK.cons (pk 2 9 _ (off156_eq L jj k0_h7 2 9) _ _ (k0_off198_eq jj) _ _ _)
      apply PiecesOK.cons (pk 2 8 _ (off156_eq L jj k0_h7 2 8) _ _ (k0_off197_eq jj) _ _ _)
      apply PiecesOK.cons (pk 2 7 _ (off156_eq L jj k0_h7 2 7) _ _ (k0_off196_eq jj) _ _ _)
      apply PiecesOK.cons (pk 2 6 _ (off156_eq L jj k0_h7 2 6) _ _ (k0_off195_eq jj) _ _ _)
      apply PiecesOK.cons (pk 2 5 _ (off156_eq L jj k0_h7 2 5) _ _ (k0_off194_eq jj) _ _ _)
      apply PiecesOK.cons (pk 2 4 _ (off156_eq L jj k0_h7 2 4) _ _ (k0_off193_eq jj) _ _ _)
      apply PiecesOK.cons (pk 2 3 _ (off156_eq L jj k0_h7 2 3) _ _ (k0_off192_eq jj) _ _ _)
      apply PiecesOK.cons (pk 2 2 _ (off156_eq L jj k0_h7 2 2) _ _ (k0_off191_eq jj) _ _ _)
      apply PiecesOK.cons (pk 2 1 _ (off156_eq L jj k0_h7 2 1) _ _ (k0_off190_eq jj) _ _ _)
      apply PiecesOK.cons (pk 2 0 _ (off156_eq L jj k0_h7 2 0) _ _ (k0_off189_eq jj) _ _ _)
      apply PiecesOK.cons (pk 1 15 _ (off156_eq L jj k0_h7 1 15) _ _ (k0_off188_eq jj) _ _ _)
      apply PiecesOK.cons (pk 1 14 _ (off156_eq L jj k0_h7 1 14) _ _ (k0_off187_eq jj) _ _ _)
      apply PiecesOK.cons (pk 1 13 _ (off156_eq L jj k0_h7 1 13) _ _ (k0_off186_eq jj) _ _ _)
      apply PiecesOK.cons (pk 1 12 _ (off156_eq L jj k0_h7 1 12) _ _ (k0_off185_eq jj) _ _ _)
      apply PiecesOK.cons (pk 1 11 _ (off156_eq L jj k0_h7 1 11) _ _ (k0_off184_eq jj) _ _ _)
      apply PiecesOK.cons (pk 1 10 _ (off156_eq L jj k0_h7 1 10) _ _ (k0_off183_eq jj) _ _ _)
      apply PiecesOK.cons (pk 1 9 _ (off156_eq L jj k0_h7 1 9) _ _ (k0_off182_eq jj) _ _ _)
      apply PiecesOK.cons (pk 1 8 _ (off156_eq L jj k0_h7 1 8) _ _ (k0_off181_eq jj) _ _ _)
      apply PiecesOK.cons (pk 1 7 _ (off156_eq L jj k0_h7 1 7) _ _ (k0_off180_eq jj) _ _ _)
      apply PiecesOK.cons (pk 1 6 _ (off156_eq L jj k0_h7 1 6) _ _ (k0_off179_eq jj) _ _ _)
      apply PiecesOK.cons (pk 1 5 _ (off156_eq L jj k0_h7 1 5) _ _ (k0_off178_eq jj) _ _ _)
      apply PiecesOK.cons (pk 1 4 _ (off156_eq L jj k0_h7 1 4) _ _ (k0_off177_eq jj) _ _ _)
      apply PiecesOK.cons (pk 1 3 _ (off156_eq L jj k0_h7 1 3) _ _ (k0_off176_eq jj) _ _ _)
      apply PiecesOK.cons (pk 1 2 _ (off156_eq L jj k0_h7 1 2) _ _ (k0_off175_eq jj) _ _ _)
      apply PiecesOK.cons (pk 1 1 _ (off156_eq L jj k0_h7 1 1) _ _ (k0_off174_eq jj) _ _ _)
      apply PiecesOK.cons (pk 1 0 _ (off156_eq L jj k0_h7 1 0) _ _ (k0_off173_eq jj) _ _ _)
      apply PiecesOK.cons (pk 0 15 _ (off156_eq L jj k0_h7 0 15) _ _ (k0_off172_eq jj) _ _ _)
      apply PiecesOK.cons (pk 0 14 _ (off156_eq L jj k0_h7 0 14) _ _ (k0_off171_eq jj) _ _ _)
      apply PiecesOK.cons (pk 0 13 _ (off156_eq L jj k0_h7 0 13) _ _ (k0_off170_eq jj) _ _ _)
      apply PiecesOK.cons (pk 0 12 _ (off156_eq L jj k0_h7 0 12) _ _ (k0_off169_eq jj) _ _ _)
      apply PiecesOK.cons (pk 0 11 _ (off156_eq L jj k0_h7 0 11) _ _ (k0_off168_eq jj) _ _ _)
      apply PiecesOK.cons (pk 0 10 _ (off156_eq L jj k0_h7 0 10) _ _ (k0_off167_eq jj) _ _ _)
      apply PiecesOK.cons (pk 0 9 _ (off156_eq L jj k0_h7 0 9) _ _ (k0_off166_eq jj) _ _ _)
      apply PiecesOK.cons (pk 0 8 _ (off156_eq L jj k0_h7 0 8) _ _ (k0_off165_eq jj) _ _ _)
      apply PiecesOK.cons (pk 0 7 _ (off156_eq L jj k0_h7 0 7) _ _ (k0_off164_eq jj) _ _ _)
      apply PiecesOK.cons (pk 0 6 _ (off156_eq L jj k0_h7 0 6) _ _ (k0_off163_eq jj) _ _ _)
      apply PiecesOK.cons (pk 0 5 _ (off156_eq L jj k0_h7 0 5) _ _ (k0_off162_eq jj) _ _ _)
      apply PiecesOK.cons (pk 0 4 _ (off156_eq L jj k0_h7 0 4) _ _ (k0_off161_eq jj) _ _ _)
      apply PiecesOK.cons (pk 0 3 _ (off156_eq L jj k0_h7 0 3) _ _ (k0_off160_eq jj) _ _ _)
      apply PiecesOK.cons (pk 0 2 _ (off156_eq L jj k0_h7 0 2) _ _ (k0_off159_eq jj) _ _ _)
      apply PiecesOK.cons (pk 0 1 _ (off156_eq L jj k0_h7 0 1) _ _ (k0_off158_eq jj) _ _ _)
      apply PiecesOK.cons (pk 0 0 _ (off156_eq L jj k0_h7 0 0) _ _ (k0_off157_eq jj) _ _ _)
      exact PiecesOK.nil
    · unfold rowInv0 slabInv bufRows0
      isplitl [HG]
      · iexists g; isplitr
        · ipureintro; exact hg
        · iexact HG
      · iexists u0; isplitr
        · ipureintro; exact Cert.Unfold.rowsDone_zero _ _ _
        · iexact HF0_src
    iintro %_ HR
    unfold rowInv0 slabInv bufRows0
    icases HR with ⟨⟨%g', %hg', HG⟩, ⟨%t, %ht, HT0⟩⟩
    sl_exec
    sl_step
    have ht32 : RowsDone (α := Elt F .f32) ((b0V).view.read (Elt F) t) x0 (chunkRow L 0 20) 32 := ht
    -- the four delivered chunks join the landed ones
    ihave HL0 := (Entails.of_eq (landed_pts0 (F := F) d L 0 19 (by omega) (by omega) x0 _ _ hu0)) $$ HF0_dst
    ihave HL1 := (Entails.of_eq (landed_pts0 (F := F) d L 1 19 (by omega) (by omega) x0 _ _ hu1)) $$ HF1_dst
    ihave HL2 := (Entails.of_eq (landed_pts0 (F := F) d L 2 19 (by omega) (by omega) x0 _ _ hu2)) $$ HF2_dst
    ihave HL0' := (Entails.of_eq (last_landed0 (F := F) d L k0_h7 x0 f0 _ ht32)) $$ [HN0']
    · iexact HN0'
    ihave HD0' := (Entails.of_eq (done_step (fun j => (o0Loc d ↦[chunkSet L 0 j]{fullShare} pat0 d x0 : sProp 𝕄)) 19)) $$ [HD0 HL0]
    · isplitl [HD0]; · iexact HD0
      iexact HL0
    ihave HD0'' := (Entails.of_eq (done_step (fun j => (o0Loc d ↦[chunkSet L 0 j]{fullShare} pat0 d x0 : sProp 𝕄)) 20)) $$ [HD0' HL0']
    · isplitl [HD0']; · iexact HD0'
      iexact HL0'
    ihave HD1' := (Entails.of_eq (done_step (fun j => (o0Loc d ↦[chunkSet L 1 j]{fullShare} pat0 d x0 : sProp 𝕄)) 19)) $$ [HD1 HL1]
    · isplitl [HD1]; · iexact HD1
      iexact HL1
    ihave HD2' := (Entails.of_eq (done_step (fun j => (o0Loc d ↦[chunkSet L 2 j]{fullShare} pat0 d x0 : sProp 𝕄)) 19)) $$ [HD2 HL2]
    · isplitl [HD2]; · iexact HD2
      iexact HL2
    isplitl [HX0]; · iexact HX0
    isplitl [HG]; · iexists _; iexact HG
    isplitl [HD0'']; · iexact HD0''
    isplitl [HD1']; · iexact HD1'
    isplitl [HD2']; · iexact HD2'
    isplitl [HTA]
    · iapply (Entails.of_eq (tailA_none (F := F) d L hw f0 (pat0 d x0))); iexact HTA
    isplitl [HTB]
    · iapply (Entails.of_eq (tailB_none (F := F) d L hw f0 (pat0 d x0))); iexact HTB
    isplitl [HT0 HF0]
    · unfold bufIdle0
      isplitl [HT0]; · iexists _; iexact HT0
      iexact HF0
    isplitl [HF1_src HF1]
    · unfold bufIdle1
      isplitl [HF1_src]; · iexists _; iexact HF1_src
      iexact HF1
    isplitl [HF2_src HF2]
    · unfold bufIdle2
      isplitl [HF2_src]; · iexists _; iexact HF2_src
      iexact HF2
    isplitl [Hc5]; · iexact Hc5
    isplitl [Hc6]; · iexact Hc6
    isplitl [Hc7]; · iexact Hc7
    iexists _; iexact HO

end Cert.Proof.KB

end
-- ==== Proof.RowValBits.lean ====
/-
  One trip of a row loop, read as values. A trip stores the 48 segments of one patch, sixteen lanes each, into one row
  of a staging buffer, left to right; each segment was loaded from the slab where the patch's segment lies. Rows below
  the trip's keep the patches they held; the trip's row holds the patch below the column the stores have reached.
-/
import proofs.«212940_g32057635897708_cont_8to1_b_1299_25_alg».proof.Proof.InvBits
import proofs.«212940_g32057635897708_cont_8to1_b_1299_25_alg».proof.Proof.ArithBits
import Idealize.ShloMosaic.Lib.WritesUnit
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)

/-! ## One row of a staging buffer, sixteen lanes at a time -/

section RowPart
variable {κ : Kind} {sp : Space} (v : View sig κ sp S32x768 .f32)

/-- Rows below `jj` hold the patches from `row0`, and row `jj` holds patch `row0 + jj` below column `n`. -/
def RowPart (g : S32x768.Idx → Elt F .f32) (x : Cert.Unfold.SFlat.Idx → Elt F .f32) (row0 jj n : Nat) : Prop :=
  RowsDone (α := Elt F .f32) g x row0 jj ∧
    ∀ (hjj : jj < 32) (f : Fin 768), f.val < n → g (ix2 ⟨jj, hjj⟩ f) = xAt x (flatPos (row0 + jj) f.val)

theorem rowPart_zero (g : S32x768.Idx → Elt F .f32) (x : Cert.Unfold.SFlat.Idx → Elt F .f32) (row0 jj : Nat)
    (h : RowsDone (α := Elt F .f32) g x row0 jj) : RowPart g x row0 jj 0 :=
  ⟨h, fun _ _ hf => absurd hf (Nat.not_lt_zero _)⟩

theorem rowsDone_of_part (g : S32x768.Idx → Elt F .f32) (x : Cert.Unfold.SFlat.Idx → Elt F .f32) (row0 jj : Nat)
    (h : RowPart g x row0 jj 768) : RowsDone (α := Elt F .f32) g x row0 (jj + 1) := by
  intro r f hr
  by_cases hlt : r.val < jj
  · exact h.1 r f hlt
  · have hrj : r.val = jj := by omega
    subst hrj
    exact h.2 r.isLt f f.isLt

/-- One more store of sixteen lanes into row `jj`, at the column the part done so far ends at. -/
theorem rowPart_step (t : v.ty.Contents (Elt F)) (x : Cert.Unfold.SFlat.Idx → Elt F .f32) (row0 jj N : Nat)
    (Ls : List (View.Piece (Elt F) S32x768 .f32)) (off : Fin 2 → Nat) (inb : ∀ a, off a + S1x16.size a ≤ S32x768.size a)
    (w : (Rect.unit (s := S32x768) off S1x16.size inb).shape.Idx → Elt F .f32)
    (h0 : off 0 = jj) (h1 : off 1 + 16 = N)
    (hw : ∀ z : (Rect.unit (s := S32x768) off S1x16.size inb).shape.Idx, w z = xAt x (flatPos (row0 + jj) (off 1 + (z 1).val)))
    (hprev : RowPart (v.read (Elt F) (v.writes (Elt F) t Ls)) x row0 jj (off 1)) :
    RowPart (v.read (Elt F) (v.writes (Elt F) t (⟨Rect.unit (s := S32x768) off S1x16.size inb, w⟩ :: Ls))) x row0 jj N := by
  refine ⟨fun r f hr => ?_, fun hjj f hf => ?_⟩
  · rw [View.read_writes_cons_unit_of_not_mem v t inb w Ls (ix2 r f) rfl 0 (Or.inl (by show r.val < off 0; omega))]
    exact hprev.1 r f hr
  · by_cases hlt : f.val < off 1
    · rw [View.read_writes_cons_unit_of_not_mem v t inb w Ls (ix2 ⟨jj, hjj⟩ f) rfl 1 (Or.inl (by show f.val < off 1; exact hlt))]
      exact hprev.2 hjj f hlt
    · rw [View.read_writes_cons_unit_of_mem v t inb w Ls (ix2 ⟨jj, hjj⟩ f) (ix2 (0 : Fin 1) (⟨f.val - off 1, by omega⟩ : Fin 16)) rfl
        (Fin.forall_fin_two.mpr ⟨by show jj = off 0 + 0; omega, by show f.val = off 1 + (f.val - off 1); omega⟩), hw]
      show xAt x (flatPos (row0 + jj) (off 1 + (f.val - off 1))) = _
      have e : off 1 + (f.val - off 1) = f.val := by omega
      rw [e]

end RowPart

/-! ## What one store of a row trip writes -/

/-- Sixteen lanes loaded from the slab where segment `(c, kh)` of patch `row` lies are that segment's features. -/
theorem slab_load (x1 : Cert.Unfold.SFlat.Idx → Elt F .f32) (gs : Buf (Elt F) ((slabV).view.loc (VT d L)))
    (hgs : SlabUpTo (α := Elt F .f32) ((slabV).view.read (Elt F) gs) x1 (wstart L) 49152)
    (row : Nat) (hr1 : wbase L ≤ row) (hr2 : row < wbase L + nrows L) (c kh : Nat) (hc : c < 3) (hkh : kh < 16)
    (off : Fin 1 → Nat) (inb : ∀ a, off a + S16.size a ≤ S49152.size a)
    (hoff : off = ![slabOff L row + 16384 * c + 512 * kh]) (l : S16.Idx) :
    (slabV).view.readAt (Elt F) (Rect.unit (s := S49152) off S16.size inb).toLoadRect gs l
      = xAt (α := Elt F .f32) x1 (flatPos row (256 * c + 16 * kh + (l 0).val)) := by
  subst hoff
  obtain ⟨hw1, hw2⟩ := window_ok L row hr1 hr2
  have hl : (l 0).val < 16 := (l 0).isLt
  have hb := slab_inb L row hr1 hr2 ⟨c, hc⟩ ⟨kh, hkh⟩
  have hs : (2 * (row / 249) - wstart L) * 512 + 2 * (row % 249) + 16384 * c + 512 * kh + (l 0).val < 49152 := by
    unfold slabOff at hb
    show _ < 49152
    have : (⟨c, hc⟩ : Fin 3).val = c := rfl
    have : (⟨kh, hkh⟩ : Fin 16).val = kh := rfl
    omega
  rw [← Cert.Unfold.slab_lane _ x1 (wstart L) (Cert.Unfold.slabOK_of_upTo hgs) row c kh (l 0).val hc hkh hl hw1 hw2 hs, View.readAt_apply]
  refine congrArg ((slabV).view.read (Elt F) gs) (funext fun (a : Fin 1) => ?_)
  have ha : a = 0 := Subsingleton.elim _ _
  subst ha
  refine Fin.ext ?_
  show slabOff L row + 16384 * c + 512 * kh + 1 * (l 0).val = (2 * (row / 249) - wstart L) * 512 + 2 * (row % 249) + 16384 * c + 512 * kh + (l 0).val
  unfold slabOff
  omega

/-- The payload of the store of segment `(c, kh)` into a staging row: the sixteen lanes, as a one-row block. -/
theorem piece_val (x1 : Cert.Unfold.SFlat.Idx → Elt F .f32) (gs : Buf (Elt F) ((slabV).view.loc (VT d L)))
    (hgs : SlabUpTo (α := Elt F .f32) ((slabV).view.read (Elt F) gs) x1 (wstart L) 49152)
    (row : Nat) (hr1 : wbase L ≤ row) (hr2 : row < wbase L + nrows L) (c kh : Nat) (hc : c < 3) (hkh : kh < 16)
    (col : Nat) (hcol : col = 256 * c + 16 * kh)
    (off : Fin 1 → Nat) (inb : ∀ a, off a + S16.size a ≤ S49152.size a)
    (hoff : off = ![slabOff L row + 16384 * c + 512 * kh])
    (hs1 : S16.ShapeCasts S16) (hs2 : S16.ShapeCasts S1x16) (z : S1x16.Idx) :
    shapeCast S1x16 (shapeCast S16 ((slabV).view.readAt (Elt F) (Rect.unit (s := S49152) off S16.size inb).toLoadRect gs) hs1) hs2 z
      = xAt (α := Elt F .f32) x1 (flatPos row (col + (z 1).val)) := by
  have hz1 : (z 0).val < 1 := (z 0).isLt
  have hz0 : (z 0).val = 0 := by omega
  rw [shapeCast_apply _ hs2 z (ix1 (z 1)) (by
      rw [Shape.rowMajor_val_one, Shape.rowMajor_val_two]
      show (z 1).val = (z 0).val * 16 + (z 1).val
      omega),
    shapeCast_apply _ hs1 (ix1 (z 1)) (ix1 (z 1)) rfl,
    slab_load d L x1 gs hgs row hr1 hr2 c kh hc hkh off inb hoff, hcol]

/-- The same for a store whose slab offset the program computes from the two words `a = 16384·c` and `b = 512·kh`
    it adds last (`offF a b`): the channel and the patch row are read off the words. -/
theorem piece_val' (x1 : Cert.Unfold.SFlat.Idx → Elt F .f32) (gs : Buf (Elt F) ((slabV).view.loc (VT d L)))
    (hgs : SlabUpTo (α := Elt F .f32) ((slabV).view.read (Elt F) gs) x1 (wstart L) 49152)
    (row : Nat) (hr1 : wbase L ≤ row) (hr2 : row < wbase L + nrows L)
    (offF : BitVec 32 → BitVec 32 → Fin 1 → Nat)
    (hF : ∀ (r₁ : Fin 3) (r₂ : Fin 16), offF (BitVec.ofNat 32 (16384 * r₁.val)) (BitVec.ofNat 32 (512 * r₂.val))
      = ![slabOff L row + 16384 * r₁.val + 512 * r₂.val])
    (a b : BitVec 32) (hA : a = BitVec.ofNat 32 (16384 * (a.toNat / 16384))) (hc : a.toNat / 16384 < 3)
    (hB : b = BitVec.ofNat 32 (512 * (b.toNat / 512))) (hkh : b.toNat / 512 < 16)
    (col : Nat) (hcol : col = 256 * (a.toNat / 16384) + 16 * (b.toNat / 512))
    (inb : ∀ a', (offF a b) a' + S16.size a' ≤ S49152.size a')
    (hs1 : S16.ShapeCasts S16) (hs2 : S16.ShapeCasts S1x16) (z : S1x16.Idx) :
    shapeCast S1x16 (shapeCast S16 ((slabV).view.readAt (Elt F) (Rect.unit (s := S49152) (offF a b) S16.size inb).toLoadRect gs) hs1) hs2 z
      = xAt (α := Elt F .f32) x1 (flatPos row (col + (z 1).val)) := by
  have hoff : offF a b = ![slabOff L row + 16384 * (a.toNat / 16384) + 512 * (b.toNat / 512)] := by
    have h := hF ⟨a.toNat / 16384, hc⟩ ⟨b.toNat / 512, hkh⟩
    rw [show BitVec.ofNat 32 (16384 * (⟨a.toNat / 16384, hc⟩ : Fin 3).val) = a from hA.symm,
      show BitVec.ofNat 32 (512 * (⟨b.toNat / 512, hkh⟩ : Fin 16).val) = b from hB.symm] at h
    exact h
  exact piece_val d L x1 gs hgs row hr1 hr2 _ _ hc hkh col hcol _ inb hoff hs1 hs2 z

end Cert.Proof.KB

end
-- ==== Proof.P105Bits.lean ====
/-
  The second pass of a tile's task: the three channels of the second image's window are copied into the slab, then the
  chunk loop fills each staging buffer from the slab, 32 patches at a time, and sends it to its rows of the second
  result while the other two buffers are being filled. It ends with every chunk the loop has issued either landed at
  the second image's patches or still in flight from a staging buffer that holds them.
-/
import proofs.«212940_g32057635897708_cont_8to1_b_1299_25_alg».proof.Proof.InvBits
import proofs.«212940_g32057635897708_cont_8to1_b_1299_25_alg».proof.Proof.BookBits
import Idealize.ShloMosaic.Lib.WritesUnit
import Idealize.ShloMosaic.Lib.Pipeline.Value
import proofs.«212940_g32057635897708_cont_8to1_b_1299_25_alg».proof.Proof.ProgMemBits
import proofs.«212940_g32057635897708_cont_8to1_b_1299_25_alg».proof.Proof.ValMemBits
import proofs.«212940_g32057635897708_cont_8to1_b_1299_25_alg».proof.Proof.InitBits
import proofs.«212940_g32057635897708_cont_8to1_b_1299_25_alg».proof.Proof.RowValBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)
open Idealize.ShloMosaic.ValueIdx

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

variable (d : Dev nD) (L : grid0.Coords)

/-! ## A staging buffer's state while its chunks last -/

/-- A buffer that still has chunks has issued one per trip; one that has run out has issued them all. -/
theorem issued_of_le (L : grid0.Coords) (p k : Nat) (h : k ≤ nIss L p) : issued L p k = k := by
  unfold issued; exact Nat.min_eq_left h
theorem issued_of_ge (L : grid0.Coords) (p k : Nat) (h : nIss L p ≤ k) : issued L p k = nIss L p := by
  unfold issued; exact Nat.min_eq_right h

/-- Staging buffer 0's state while it still has chunks to issue: it has issued exactly `k` of them. -/
theorem bufState1_0_at (x : Buf (Elt F) (x1Loc d)) (f : Buf (Elt F) (o1Loc d)) (k : Nat) (h : issued L 0 k = k) :
    bufState1_0 d L x f k = iprop((bigSep (Finset.range (k - 1)) fun j => o1Loc d ↦[chunkSet L 0 j]{fullShare} pat1 d x)
      ∗ (bigSep (Finset.Ico k (nIss L 0)) fun j => o1Loc d ↦[chunkSet L 0 j]{fullShare} f)
      ∗ (if k = 0 then bufIdle0 d L else bufFlying1_0 d L x f (k - 1))) := by
  unfold bufState1_0; rw [h]

/-- Staging buffer 1's state while it still has chunks to issue: it has issued exactly `k` of them. -/
theorem bufState1_1_at (x : Buf (Elt F) (x1Loc d)) (f : Buf (Elt F) (o1Loc d)) (k : Nat) (h : issued L 1 k = k) :
    bufState1_1 d L x f k = iprop((bigSep (Finset.range (k - 1)) fun j => o1Loc d ↦[chunkSet L 1 j]{fullShare} pat1 d x)
      ∗ (bigSep (Finset.Ico k (nIss L 1)) fun j => o1Loc d ↦[chunkSet L 1 j]{fullShare} f)
      ∗ (if k = 0 then bufIdle1 d L else bufFlying1_1 d L x f (k - 1))) := by
  unfold bufState1_1; rw [h]

/-- Staging buffer 2's state while it still has chunks to issue: it has issued exactly `k` of them. -/
theorem bufState1_2_at (x : Buf (Elt F) (x1Loc d)) (f : Buf (Elt F) (o1Loc d)) (k : Nat) (h : issued L 2 k = k) :
    bufState1_2 d L x f k = iprop((bigSep (Finset.range (k - 1)) fun j => o1Loc d ↦[chunkSet L 2 j]{fullShare} pat1 d x)
      ∗ (bigSep (Finset.Ico k (nIss L 2)) fun j => o1Loc d ↦[chunkSet L 2 j]{fullShare} f)
      ∗ (if k = 0 then bufIdle2 d L else bufFlying1_2 d L x f (k - 1))) := by
  unfold bufState1_2; rw [h]

/-! ## A staging buffer sent off, and landed -/

/-- What a copy of 32 rows of 768 words counts on a subcore's DMA semaphore. -/
theorem bitCredit_S32x768 : RefSig.bitCredit S32x768 .f32 = 786432 := by
  unfold RefSig.bitCredit Shape.numel
  rw [Fin.prod_univ_two]
  rfl

/-- The count of a copy into 32 rows of the second result, wherever they start. -/
theorem amount_chunk1 (off : Fin 2 → Nat) (inb : ∀ a, off a + S32x768.size a ≤ S62001x768.size a) (sm : DmaSem sig) :
    ((o1V).slice (Rect.unit (s := S62001x768) off S32x768.size inb) (fun _ => rfl)).view.amount (SemLoc.dma (sig := sig) sm) = 786432 :=
  View.dmaCredit_closed _ S32x768 rfl _ rfl 786432 bitCredit_S32x768

/-- The copy the program issues for chunk `(0, j)` of the second result, from staging buffer 0 holding the patches, is
    that buffer in flight. -/
theorem flying1_0_fold (x : Buf (Elt F) (x1Loc d)) (f : Buf (Elt F) (o1Loc d)) (j : Nat)
    (off : Fin 2 → Nat) (inb : ∀ a, off a + S32x768.size a ≤ S62001x768.size a) (hoff : off = ![chunkRowC L 0 j, 0])
    (t : Buf (Elt F) ((b0V).view.loc (VT d L)))
    (ht : RowsDone (α := Elt F .f32) ((b0V).view.read (Elt F) t) x (chunkRow L 0 j) 32) :
    (Transfers.Flight (countersEmb (U := UU)) (VT d L) (.dma (dsem 0)) (default : HIx 1) 786432
        iprop((((o1V).slice (Rect.unit (s := S62001x768) off S32x768.size inb) (fun _ => rfl)).view.loc (VT d L)
                ↦[((o1V).slice (Rect.unit (s := S62001x768) off S32x768.size inb) (fun _ => rfl)).view.set]{fullShare}
                ((o1V).slice (Rect.unit (s := S62001x768) off S32x768.size inb) (fun _ => rfl)).view.writes (Elt F) f
                  [⟨Rect.whole S32x768, ReadAs.same.apply ((b0V).view.read (Elt F) t)⟩])
              ∗ ((b0V).view.loc (VT d L) ↦[(b0V).view.set]{fullShare} t)) : sProp 𝕄)
      ⊢ iprop(∃ t : Buf (Elt F) ((b0V).view.loc (VT d L)), ⌜RowsDone (α := Elt F .f32) ((b0V).view.read (Elt F) t) x (chunkRow L 0 j) 32⌝
          ∗ Transfers.Flight (countersEmb (U := UU)) (VT d L) (.dma (dsem 0)) (none : HIx 1)
              ((chunkMem L o1V 0 j).view.amount (SemLoc.dma (sig := sig) (dsem 0)))
              iprop(((chunkMem L o1V 0 j).view.loc (VT d L) ↦[(chunkMem L o1V 0 j).view.set]{fullShare}
                      (chunkMem L o1V 0 j).view.writes (Elt F) f [⟨Rect.whole S32x768, ReadAs.same.apply ((b0V).view.read (Elt F) t)⟩])
                    ∗ ((b0V).view.loc (VT d L) ↦[(b0V).view.set]{fullShare} t))) := by
  subst hoff
  rw [amount_chunk1]
  iintro H
  iexists t
  isplitr
  · ipureintro; exact ht
  · iexact H

/-- The copy the program issues for chunk `(1, j)` of the second result, from staging buffer 1 holding the patches, is
    that buffer in flight. -/
theorem flying1_1_fold (x : Buf (Elt F) (x1Loc d)) (f : Buf (Elt F) (o1Loc d)) (j : Nat)
    (off : Fin 2 → Nat) (inb : ∀ a, off a + S32x768.size a ≤ S62001x768.size a) (hoff : off = ![chunkRowC L 1 j, 0])
    (t : Buf (Elt F) ((b1V).view.loc (VT d L)))
    (ht : RowsDone (α := Elt F .f32) ((b1V).view.read (Elt F) t) x (chunkRow L 1 j) 32) :
    (Transfers.Flight (countersEmb (U := UU)) (VT d L) (.dma (dsem 1)) (default : HIx 1) 786432
        iprop((((o1V).slice (Rect.unit (s := S62001x768) off S32x768.size inb) (fun _ => rfl)).view.loc (VT d L)
                ↦[((o1V).slice (Rect.unit (s := S62001x768) off S32x768.size inb) (fun _ => rfl)).view.set]{fullShare}
                ((o1V).slice (Rect.unit (s := S62001x768) off S32x768.size inb) (fun _ => rfl)).view.writes (Elt F) f
                  [⟨Rect.whole S32x768, ReadAs.same.apply ((b1V).view.read (Elt F) t)⟩])
              ∗ ((b1V).view.loc (VT d L) ↦[(b1V).view.set]{fullShare} t)) : sProp 𝕄)
      ⊢ iprop(∃ t : Buf (Elt F) ((b1V).view.loc (VT d L)), ⌜RowsDone (α := Elt F .f32) ((b1V).view.read (Elt F) t) x (chunkRow L 1 j) 32⌝
          ∗ Transfers.Flight (countersEmb (U := UU)) (VT d L) (.dma (dsem 1)) (none : HIx 1)
              ((chunkMem L o1V 1 j).view.amount (SemLoc.dma (sig := sig) (dsem 1)))
              iprop(((chunkMem L o1V 1 j).view.loc (VT d L) ↦[(chunkMem L o1V 1 j).view.set]{fullShare}
                      (chunkMem L o1V 1 j).view.writes (Elt F) f [⟨Rect.whole S32x768, ReadAs.same.apply ((b1V).view.read (Elt F) t)⟩])
                    ∗ ((b1V).view.loc (VT d L) ↦[(b1V).view.set]{fullShare} t))) := by
  subst hoff
  rw [amount_chunk1]
  iintro H
  iexists t
  isplitr
  · ipureintro; exact ht
  · iexact H

/-- The copy the program issues for chunk `(2, j)` of the second result, from staging buffer 2 holding the patches, is
    that buffer in flight. -/
theorem flying1_2_fold (x : Buf (Elt F) (x1Loc d)) (f : Buf (Elt F) (o1Loc d)) (j : Nat)
    (off : Fin 2 → Nat) (inb : ∀ a, off a + S32x768.size a ≤ S62001x768.size a) (hoff : off = ![chunkRowC L 2 j, 0])
    (t : Buf (Elt F) ((b2V).view.loc (VT d L)))
    (ht : RowsDone (α := Elt F .f32) ((b2V).view.read (Elt F) t) x (chunkRow L 2 j) 32) :
    (Transfers.Flight (countersEmb (U := UU)) (VT d L) (.dma (dsem 2)) (default : HIx 1) 786432
        iprop((((o1V).slice (Rect.unit (s := S62001x768) off S32x768.size inb) (fun _ => rfl)).view.loc (VT d L)
                ↦[((o1V).slice (Rect.unit (s := S62001x768) off S32x768.size inb) (fun _ => rfl)).view.set]{fullShare}
                ((o1V).slice (Rect.unit (s := S62001x768) off S32x768.size inb) (fun _ => rfl)).view.writes (Elt F) f
                  [⟨Rect.whole S32x768, ReadAs.same.apply ((b2V).view.read (Elt F) t)⟩])
              ∗ ((b2V).view.loc (VT d L) ↦[(b2V).view.set]{fullShare} t)) : sProp 𝕄)
      ⊢ iprop(∃ t : Buf (Elt F) ((b2V).view.loc (VT d L)), ⌜RowsDone (α := Elt F .f32) ((b2V).view.read (Elt F) t) x (chunkRow L 2 j) 32⌝
          ∗ Transfers.Flight (countersEmb (U := UU)) (VT d L) (.dma (dsem 2)) (none : HIx 1)
              ((chunkMem L o1V 2 j).view.amount (SemLoc.dma (sig := sig) (dsem 2)))
              iprop(((chunkMem L o1V 2 j).view.loc (VT d L) ↦[(chunkMem L o1V 2 j).view.set]{fullShare}
                      (chunkMem L o1V 2 j).view.writes (Elt F) f [⟨Rect.whole S32x768, ReadAs.same.apply ((b2V).view.read (Elt F) t)⟩])
                    ∗ ((b2V).view.loc (VT d L) ↦[(b2V).view.set]{fullShare} t))) := by
  subst hoff
  rw [amount_chunk1]
  iintro H
  iexists t
  isplitr
  · ipureintro; exact ht
  · iexact H

/-- The chunk that has just landed joins the landed ones. -/
theorem landed_step (Φ : ℕ → sProp 𝕄) (k : Nat) (hk : 1 ≤ k) :
    (iprop(bigSep (Finset.range (k - 1)) Φ ∗ Φ (k - 1)) : sProp 𝕄) ⊢ bigSep (Finset.range k) Φ := by
  have h := done_step Φ (k - 1)
  rw [Nat.sub_add_cancel hk] at h
  exact Entails.of_eq h

/-- A trip in which staging buffer 0 issues nothing leaves its state as it is. -/
theorem bufState1_0_same (x : Buf (Elt F) (x1Loc d)) (f : Buf (Elt F) (o1Loc d)) (k : Nat) (h : issued L 0 (k + 1) = issued L 0 k) :
    bufState1_0 d L x f (k + 1) = bufState1_0 d L x f k := by
  unfold bufState1_0; rw [h]

/-- A trip in which staging buffer 1 issues nothing leaves its state as it is. -/
theorem bufState1_1_same (x : Buf (Elt F) (x1Loc d)) (f : Buf (Elt F) (o1Loc d)) (k : Nat) (h : issued L 1 (k + 1) = issued L 1 k) :
    bufState1_1 d L x f (k + 1) = bufState1_1 d L x f k := by
  unfold bufState1_1; rw [h]

/-- A trip in which staging buffer 2 issues nothing leaves its state as it is. -/
theorem bufState1_2_same (x : Buf (Elt F) (x1Loc d)) (f : Buf (Elt F) (o1Loc d)) (k : Nat) (h : issued L 2 (k + 1) = issued L 2 k) :
    bufState1_2 d L x f (k + 1) = bufState1_2 d L x f k := by
  unfold bufState1_2; rw [h]

/-- The chunk loop's invariant in the second pass, before trip `k`. -/
def chunkInv1 (O : CellTallies nD τ sig (HIx 1)) (x1 : Buf (Elt F) (x1Loc d)) (f1 : Buf (Elt F) (o1Loc d))
    (k : Nat) (_ : PUnit) : sProp 𝕄 :=
  iprop(Transfers.MayWaits (VT d L) (default : HIx 1) O
    ∗ slabInv d L x1 49152
    ∗ bufState1_0 d L x1 f1 k ∗ bufState1_1 d L x1 f1 k ∗ bufState1_2 d L x1 f1 k
    ∗ ∃ W', owes (VT d L) O W')

set_option maxHeartbeats 4000000 in
set_option pp.proofs false in
set_option pp.deepTerms false in
theorem part105_run (v2 v7 v9 : BitVec 32) (O : CellTallies nD τ sig (HIx 1)) (W : Waits sig (HIx 1))
    (x1 : Buf (Elt F) (x1Loc d)) (f1 : Buf (Elt F) (o1Loc d))
    (t0 : Buf (Elt F) ((b0V).view.loc (VT d L))) (t1 : Buf (Elt F) ((b1V).view.loc (VT d L))) (t2 : Buf (Elt F) ((b2V).view.loc (VT d L))) :
    (iprop(Transfers.MayWaits (VT d L) (default : HIx 1) O
        ∗ ((x1V).view.loc (VT d L) ↦{tileShare (L 0).val (L 1).val} x1)
        ∗ (∃ g : Buf (Elt F) ((slabV).view.loc (VT d L)), (slabV).view.loc (VT d L) ↦[(slabV).view.set]{fullShare} g)
        ∗ (bigSep (Finset.range (nIss L 0)) fun j => o1Loc d ↦[chunkSet L 0 j]{fullShare} f1)
        ∗ (bigSep (Finset.range (nIss L 1)) fun j => o1Loc d ↦[chunkSet L 1 j]{fullShare} f1)
        ∗ (bigSep (Finset.range (nIss L 2)) fun j => o1Loc d ↦[chunkSet L 2 j]{fullShare} f1)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ semVal (VT d L, SemLoc.dma (dsem 0)) 0 ∗ semVal (VT d L, SemLoc.dma (dsem 1)) 0 ∗ semVal (VT d L, SemLoc.dma (dsem 2)) 0
        ∗ semVal (VT d L, SemLoc.dma (dsem 8)) 0 ∗ semVal (VT d L, SemLoc.dma (dsem 9)) 0 ∗ semVal (VT d L, SemLoc.dma (dsem 10)) 0
        ∗ owes (VT d L) O W) : sProp 𝕄)
      ⊢ wp frame (wpE (defs₀ (F := F)) 𝒱₀ (VT d L) none) Set.univ
          (k0_part105 L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9 v2 v7 v9)
          fun _ => iprop(((x1V).view.loc (VT d L) ↦{tileShare (L 0).val (L 1).val} x1)
            ∗ slabInv d L x1 49152
            ∗ bufState1_0 d L x1 f1 20 ∗ bufState1_1 d L x1 f1 20 ∗ bufState1_2 d L x1 f1 20
            ∗ semVal (VT d L, SemLoc.dma (dsem 8)) 0 ∗ semVal (VT d L, SemLoc.dma (dsem 9)) 0 ∗ semVal (VT d L, SemLoc.dma (dsem 10)) 0
            ∗ ∃ W', owes (VT d L) O W') := by
  iintro ⟨#Hmw, HX1, ⟨%g, HG⟩, HD0, HD1, HD2, HT0, HT1, HT2, Hc0, Hc1, Hc2, Hc8, Hc9, Hc10, HO⟩
  sl_unfold [k0_part105]
  sl_exec
  have h20 : Scf.trips k0_t7_loop.lb k0_t7_loop.ub k0_t7_loop.st = 20 := by decide
  sl_for (chunkInv1 d L O x1 f1) $$ [Hmw HG HD0 HD1 HD2 HT0 HT1 HT2 Hc0 Hc1 Hc2 HO]
  case region =>
    intro k _
    have hk : k.val < 20 := Nat.lt_of_lt_of_le k.isLt (Nat.le_of_eq trips_t7)
    have hnch : 46 ≤ nch L := by unfold nch; split <;> omega
    have h32a : Scf.trips k0_t8_loop.lb k0_t8_loop.ub k0_t8_loop.st = 32 := by decide
    have h32b : Scf.trips k0_t9_loop.lb k0_t9_loop.ub k0_t9_loop.st = 32 := by decide
    have h32c : Scf.trips k0_t10_loop.lb k0_t10_loop.ub k0_t10_loop.st = 32 := by decide
    -- four kinds of trip: the first (nothing to wait for); a later trip with all three chunks; the last tile's trip
    -- whose first chunk alone exists; a trip past the tile's last chunk
    by_cases hk0 : k.val = 0
    · -- trip 0: chunks 0, 1, 2 exist, no copy is in flight yet
      have h10 : k0_cond10 L k = 1#1 := (cond10_iff L k).mpr (by omega)
      have h12 : k0_cond12 L k = 1#1 := (cond12_iff L k).mpr (by omega)
      have h14 : k0_cond14 L k = 1#1 := (cond14_iff L k).mpr (by omega)
      have h11 : ¬ k0_cond11 k = 1#1 := fun h => by have := (cond11_iff k).mp h; omega
      have h13 : ¬ k0_cond13 k = 1#1 := fun h => by have := (cond13_iff k).mp h; omega
      have h15 : ¬ k0_cond15 k = 1#1 := fun h => by have := (cond15_iff k).mp h; omega
      have hkn0 : k.val < nIss L 0 := nIss_of_lt L 0 k.val (by omega)
      have hkn1 : k.val < nIss L 1 := nIss_of_lt L 1 k.val (by omega)
      have hkn2 : k.val < nIss L 2 := nIss_of_lt L 2 k.val (by omega)
      unfold chunkInv1
      rw [bufState1_0_at d L x1 f1 (k.val + 1) (issued_of_le L 0 _ (by omega)), bufState1_1_at d L x1 f1 (k.val + 1) (issued_of_le L 1 _ (by omega)),
        bufState1_2_at d L x1 f1 (k.val + 1) (issued_of_le L 2 _ (by omega)),
        if_neg (Nat.succ_ne_zero _), if_neg (Nat.succ_ne_zero _), if_neg (Nat.succ_ne_zero _), Nat.add_sub_cancel,
        bufState1_0_at d L x1 f1 k.val (issued_of_le L 0 _ (by omega)), bufState1_1_at d L x1 f1 k.val (issued_of_le L 1 _ (by omega)),
        bufState1_2_at d L x1 f1 k.val (issued_of_le L 2 _ (by omega)), if_pos hk0, if_pos hk0, if_pos hk0,
        show Finset.range k.val = Finset.range (k.val - 1) from by rw [hk0]]
      unfold bufIdle0 bufIdle1 bufIdle2 bufFlying1_0 bufFlying1_1 bufFlying1_2 slabInv
      iintro ⟨#Hmw, ⟨%g', %hg', HG⟩, ⟨HL0, HD0, ⟨%t0', HT0⟩, Hc0⟩, ⟨HL1, HD1, ⟨%t1', HT1⟩, Hc1⟩, ⟨HL2, HD2, ⟨%t2', HT2⟩, Hc2⟩, %W', HO⟩
      sl_exec
      sl_for (rowInv0 d L x1 (chunkRow L 0 k.val)) $$ [HG HT0]
      case region =>
        intro jj _
        unfold rowInv0 slabInv bufRows0
        iintro ⟨⟨%gs, %hgs, HG⟩, %tb, %htb, HT⟩
        sl_exec
        sl_step
        isplitl [HG]
        · iexists gs; isplitr; · ipureintro; exact hgs
          iexact HG
        iexists _
        isplitr
        rotate_left
        · iexact HT
        ipureintro
        have hjj : jj.val < 32 := Nat.lt_of_lt_of_le jj.isLt (Nat.le_of_eq trips_t8)
        have hcK := (cond10_iff L k).mp h10
        have hn := nch_le L
        have hR : chunkRow L 0 k.val = wbase L + 96 * k.val := by unfold chunkRow; omega
        have hr1 : wbase L ≤ wbase L + 96 * k.val + jj.val := by omega
        have hr2 : wbase L + 96 * k.val + jj.val < wbase L + nrows L := by omega
        have h0 : (k0_off257 jj) 0 = jj.val := congrFun (k0_off257_eq jj) 0
        rw [hR] at htb ⊢
        -- the 48 stores of the trip, last first: each puts segment (c, kh) of the patch at columns [16(16c+kh), +16)
        refine rowsDone_of_part _ x1 _ _ ?_
        iterate 48
          refine rowPart_step (b0V).view tb x1 _ _ _ _ _ _ _ h0 rfl (fun z => ?_) ?_
          · refine piece_val' d L x1 gs hgs _ hr1 hr2 (k0_off256 L k jj) (off256_eq L k jj h10) _ _ ?_ ?_ ?_ ?_ _ rfl _ _ _ z <;> decide
        exact rowPart_zero _ x1 _ _ htb
      · unfold rowInv0 slabInv bufRows0
        isplitl [HG]
        · iexists g'; isplitr; · ipureintro; exact hg'
          iexact HG
        iexists t0'; isplitr; · ipureintro; exact Cert.Unfold.rowsDone_zero _ _ _
        iexact HT0
      iintro %_ HI
      unfold rowInv0 slabInv bufRows0
      icases HI with ⟨⟨%gq0, %hgq0, HG⟩, %tb0, %htb0, HT0⟩
      ihave HD0' := (Entails.of_eq (todo_step (fun j => (o1Loc d ↦[chunkSet L 0 j]{fullShare} f1 : sProp 𝕄)) hkn0)) $$ HD0
      icases HD0' with ⟨HK0, HD0⟩
      ihave HK0' := (Entails.of_eq (pts_chunk1_p0 d L k h10 f1).symm) $$ HK0
      sl_exec
      sl_for (rowInv1 d L x1 (chunkRow L 1 k.val)) $$ [HG HT1]
      case region =>
        intro jj _
        unfold rowInv1 slabInv bufRows1
        iintro ⟨⟨%gs, %hgs, HG⟩, %tb, %htb, HT⟩
        sl_exec
        sl_step
        isplitl [HG]
        · iexists gs; isplitr; · ipureintro; exact hgs
          iexact HG
        iexists _
        isplitr
        rotate_left
        · iexact HT
        ipureintro
        have hjj : jj.val < 32 := Nat.lt_of_lt_of_le jj.isLt (Nat.le_of_eq trips_t9)
        have hcK := (cond12_iff L k).mp h12
        have hn := nch_le L
        have hR : chunkRow L 1 k.val = wbase L + 96 * k.val + 32 := by unfold chunkRow; omega
        have hr1 : wbase L ≤ wbase L + 96 * k.val + 32 + jj.val := by omega
        have hr2 : wbase L + 96 * k.val + 32 + jj.val < wbase L + nrows L := by omega
        have h0 : (k0_off308 jj) 0 = jj.val := congrFun (k0_off308_eq jj) 0
        rw [hR] at htb ⊢
        refine rowsDone_of_part _ x1 _ _ ?_
        iterate 48
          refine rowPart_step (b1V).view tb x1 _ _ _ _ _ _ _ h0 rfl (fun z => ?_) ?_
          · refine piece_val' d L x1 gs hgs _ hr1 hr2 (k0_off307 L k jj) (off307_eq L k jj h12) _ _ ?_ ?_ ?_ ?_ _ rfl _ _ _ z <;> decide
        exact rowPart_zero _ x1 _ _ htb
      · unfold rowInv1 slabInv bufRows1
        isplitl [HG]
        · iexists gq0; isplitr; · ipureintro; exact hgq0
          iexact HG
        iexists t1'; isplitr; · ipureintro; exact Cert.Unfold.rowsDone_zero _ _ _
        iexact HT1
      iintro %_ HI
      unfold rowInv1 slabInv bufRows1
      icases HI with ⟨⟨%gq1, %hgq1, HG⟩, %tb1, %htb1, HT1⟩
      ihave HD1' := (Entails.of_eq (todo_step (fun j => (o1Loc d ↦[chunkSet L 1 j]{fullShare} f1 : sProp 𝕄)) hkn1)) $$ HD1
      icases HD1' with ⟨HK1, HD1⟩
      ihave HK1' := (Entails.of_eq (pts_chunk1_p1 d L k h12 f1).symm) $$ HK1
      sl_exec
      sl_for (rowInv2 d L x1 (chunkRow L 2 k.val)) $$ [HG HT2]
      case region =>
        intro jj _
        unfold rowInv2 slabInv bufRows2
        iintro ⟨⟨%gs, %hgs, HG⟩, %tb, %htb, HT⟩
        sl_exec
        sl_step
        isplitl [HG]
        · iexists gs; isplitr; · ipureintro; exact hgs
          iexact HG
        iexists _
        isplitr
        rotate_left
        · iexact HT
        ipureintro
        have hjj : jj.val < 32 := Nat.lt_of_lt_of_le jj.isLt (Nat.le_of_eq trips_t10)
        have hcK := (cond14_iff L k).mp h14
        have hn := nch_le L
        have hR : chunkRow L 2 k.val = wbase L + 96 * k.val + 64 := by unfold chunkRow; omega
        have hr1 : wbase L ≤ wbase L + 96 * k.val + 64 + jj.val := by omega
        have hr2 : wbase L + 96 * k.val + 64 + jj.val < wbase L + nrows L := by omega
        have h0 : (k0_off359 jj) 0 = jj.val := congrFun (k0_off359_eq jj) 0
        rw [hR] at htb ⊢
        refine rowsDone_of_part _ x1 _ _ ?_
        iterate 48
          refine rowPart_step (b2V).view tb x1 _ _ _ _ _ _ _ h0 rfl (fun z => ?_) ?_
          · refine piece_val' d L x1 gs hgs _ hr1 hr2 (k0_off358 L k jj) (off358_eq L k jj h14) _ _ ?_ ?_ ?_ ?_ _ rfl _ _ _ z <;> decide
        exact rowPart_zero _ x1 _ _ htb
      · unfold rowInv2 slabInv bufRows2
        isplitl [HG]
        · iexists gq1; isplitr; · ipureintro; exact hgq1
          iexact HG
        iexists t2'; isplitr; · ipureintro; exact Cert.Unfold.rowsDone_zero _ _ _
        iexact HT2
      iintro %_ HI
      unfold rowInv2 slabInv bufRows2
      icases HI with ⟨⟨%gq2, %hgq2, HG⟩, %tb2, %htb2, HT2⟩
      ihave HD2' := (Entails.of_eq (todo_step (fun j => (o1Loc d ↦[chunkSet L 2 j]{fullShare} f1 : sProp 𝕄)) hkn2)) $$ HD2
      icases HD2' with ⟨HK2, HD2⟩
      ihave HK2' := (Entails.of_eq (pts_chunk1_p2 d L k h14 f1).symm) $$ HK2
      sl_exec
      rw [h32a] at htb0
      rw [h32b] at htb1
      rw [h32c] at htb2
      sl_step
      isplitl []; · iexact Hmw
      isplitl [HG]
      · iexists gq2; isplitr; · ipureintro; exact hgq2
        iexact HG
      isplitl [HL0 HD0 Hc0]
      · isplitl [HL0]; · iexact HL0
        isplitl [HD0]; · iexact HD0
        iapply (flying1_0_fold d L x1 f1 k.val _ _ (off305_chunk L k h10) tb0 htb0)
        iexact Hc0
      isplitl [HL1 HD1 Hc1]
      · isplitl [HL1]; · iexact HL1
        isplitl [HD1]; · iexact HD1
        iapply (flying1_1_fold d L x1 f1 k.val _ _ (off356_chunk L k h12) tb1 htb1)
        iexact Hc1
      isplitl [HL2 HD2 Hc2]
      · isplitl [HL2]; · iexact HL2
        isplitl [HD2]; · iexact HD2
        iapply (flying1_2_fold d L x1 f1 k.val _ _ (off407_chunk L k h14) tb2 htb2)
        iexact Hc2
      iexists _; iexact HO
    · have hk1 : 1 ≤ k.val := Nat.one_le_iff_ne_zero.mpr hk0
      by_cases hc14 : 3 * k.val + 2 < nch L
      · -- a later trip with chunks 3k, 3k+1, 3k+2: each buffer first sees its previous chunk land
        have h10 : k0_cond10 L k = 1#1 := (cond10_iff L k).mpr (by omega)
        have h12 : k0_cond12 L k = 1#1 := (cond12_iff L k).mpr (by omega)
        have h14 : k0_cond14 L k = 1#1 := (cond14_iff L k).mpr hc14
        have h11 : k0_cond11 k = 1#1 := (cond11_iff k).mpr hk1
        have h13 : k0_cond13 k = 1#1 := (cond13_iff k).mpr hk1
        have h15 : k0_cond15 k = 1#1 := (cond15_iff k).mpr hk1
        have hkn0 : k.val < nIss L 0 := nIss_of_lt L 0 k.val (by omega)
        have hkn1 : k.val < nIss L 1 := nIss_of_lt L 1 k.val (by omega)
        have hkn2 : k.val < nIss L 2 := nIss_of_lt L 2 k.val (by omega)
        unfold chunkInv1
        rw [bufState1_0_at d L x1 f1 (k.val + 1) (issued_of_le L 0 _ (by omega)), bufState1_1_at d L x1 f1 (k.val + 1) (issued_of_le L 1 _ (by omega)),
          bufState1_2_at d L x1 f1 (k.val + 1) (issued_of_le L 2 _ (by omega)),
          if_neg (Nat.succ_ne_zero _), if_neg (Nat.succ_ne_zero _), if_neg (Nat.succ_ne_zero _), Nat.add_sub_cancel,
          bufState1_0_at d L x1 f1 k.val (issued_of_le L 0 _ (by omega)), bufState1_1_at d L x1 f1 k.val (issued_of_le L 1 _ (by omega)),
          bufState1_2_at d L x1 f1 k.val (issued_of_le L 2 _ (by omega)), if_neg hk0, if_neg hk0, if_neg hk0]
        unfold bufFlying1_0 bufFlying1_1 bufFlying1_2 slabInv
        iintro ⟨#Hmw, ⟨%g', %hg', HG⟩, ⟨HL0, HD0, %t0', %ht0', HF0⟩, ⟨HL1, HD1, %t1', %ht1', HF1⟩, ⟨HL2, HD2, %t2', %ht2', HF2⟩, %W', HO⟩
        sl_exec
        sl_for (rowInv0 d L x1 (chunkRow L 0 k.val)) $$ [HG HF0_src]
        case region =>
          intro jj _
          unfold rowInv0 slabInv bufRows0
          iintro ⟨⟨%gs, %hgs, HG⟩, %tb, %htb, HT⟩
          sl_exec
          sl_step
          isplitl [HG]
          · iexists gs; isplitr; · ipureintro; exact hgs
            iexact HG
          iexists _
          isplitr
          rotate_left
          · iexact HT
          ipureintro
          have hjj : jj.val < 32 := Nat.lt_of_lt_of_le jj.isLt (Nat.le_of_eq trips_t8)
          have hcK := (cond10_iff L k).mp h10
          have hn := nch_le L
          have hR : chunkRow L 0 k.val = wbase L + 96 * k.val := by unfold chunkRow; omega
          have hr1 : wbase L ≤ wbase L + 96 * k.val + jj.val := by omega
          have hr2 : wbase L + 96 * k.val + jj.val < wbase L + nrows L := by omega
          have h0 : (k0_off257 jj) 0 = jj.val := congrFun (k0_off257_eq jj) 0
          rw [hR] at htb ⊢
          refine rowsDone_of_part _ x1 _ _ ?_
          iterate 48
            refine rowPart_step (b0V).view tb x1 _ _ _ _ _ _ _ h0 rfl (fun z => ?_) ?_
            · refine piece_val' d L x1 gs hgs _ hr1 hr2 (k0_off256 L k jj) (off256_eq L k jj h10) _ _ ?_ ?_ ?_ ?_ _ rfl _ _ _ z <;> decide
          exact rowPart_zero _ x1 _ _ htb
        · unfold rowInv0 slabInv bufRows0
          isplitl [HG]
          · iexists g'; isplitr; · ipureintro; exact hg'
            iexact HG
          iexists t0'; isplitr; · ipureintro; exact Cert.Unfold.rowsDone_zero _ _ _
          iexact HF0_src
        iintro %_ HI
        unfold rowInv0 slabInv bufRows0
        icases HI with ⟨⟨%gq0, %hgq0, HG⟩, %tb0, %htb0, HF0_src⟩
        ihave HD0' := (Entails.of_eq (todo_step (fun j => (o1Loc d ↦[chunkSet L 0 j]{fullShare} f1 : sProp 𝕄)) hkn0)) $$ HD0
        icases HD0' with ⟨HK0, HD0⟩
        ihave HK0' := (Entails.of_eq (pts_chunk1_p0 d L k h10 f1).symm) $$ HK0
        sl_exec
        sl_for (rowInv1 d L x1 (chunkRow L 1 k.val)) $$ [HG HF1_src]
        case region =>
          intro jj _
          unfold rowInv1 slabInv bufRows1
          iintro ⟨⟨%gs, %hgs, HG⟩, %tb, %htb, HT⟩
          sl_exec
          sl_step
          isplitl [HG]
          · iexists gs; isplitr; · ipureintro; exact hgs
            iexact HG
          iexists _
          isplitr
          rotate_left
          · iexact HT
          ipureintro
          have hjj : jj.val < 32 := Nat.lt_of_lt_of_le jj.isLt (Nat.le_of_eq trips_t9)
          have hcK := (cond12_iff L k).mp h12
          have hn := nch_le L
          have hR : chunkRow L 1 k.val = wbase L + 96 * k.val + 32 := by unfold chunkRow; omega
          have hr1 : wbase L ≤ wbase L + 96 * k.val + 32 + jj.val := by omega
          have hr2 : wbase L + 96 * k.val + 32 + jj.val < wbase L + nrows L := by omega
          have h0 : (k0_off308 jj) 0 = jj.val := congrFun (k0_off308_eq jj) 0
          rw [hR] at htb ⊢
          refine rowsDone_of_part _ x1 _ _ ?_
          iterate 48
            refine rowPart_step (b1V).view tb x1 _ _ _ _ _ _ _ h0 rfl (fun z => ?_) ?_
            · refine piece_val' d L x1 gs hgs _ hr1 hr2 (k0_off307 L k jj) (off307_eq L k jj h12) _ _ ?_ ?_ ?_ ?_ _ rfl _ _ _ z <;> decide
          exact rowPart_zero _ x1 _ _ htb
        · unfold rowInv1 slabInv bufRows1
          isplitl [HG]
          · iexists gq0; isplitr; · ipureintro; exact hgq0
            iexact HG
          iexists t1'; isplitr; · ipureintro; exact Cert.Unfold.rowsDone_zero _ _ _
          iexact HF1_src
        iintro %_ HI
        unfold rowInv1 slabInv bufRows1
        icases HI with ⟨⟨%gq1, %hgq1, HG⟩, %tb1, %htb1, HF1_src⟩
        ihave HD1' := (Entails.of_eq (todo_step (fun j => (o1Loc d ↦[chunkSet L 1 j]{fullShare} f1 : sProp 𝕄)) hkn1)) $$ HD1
        icases HD1' with ⟨HK1, HD1⟩
        ihave HK1' := (Entails.of_eq (pts_chunk1_p1 d L k h12 f1).symm) $$ HK1
        sl_exec
        sl_for (rowInv2 d L x1 (chunkRow L 2 k.val)) $$ [HG HF2_src]
        case region =>
          intro jj _
          unfold rowInv2 slabInv bufRows2
          iintro ⟨⟨%gs, %hgs, HG⟩, %tb, %htb, HT⟩
          sl_exec
          sl_step
          isplitl [HG]
          · iexists gs; isplitr; · ipureintro; exact hgs
            iexact HG
          iexists _
          isplitr
          rotate_left
          · iexact HT
          ipureintro
          have hjj : jj.val < 32 := Nat.lt_of_lt_of_le jj.isLt (Nat.le_of_eq trips_t10)
          have hcK := (cond14_iff L k).mp h14
          have hn := nch_le L
          have hR : chunkRow L 2 k.val = wbase L + 96 * k.val + 64 := by unfold chunkRow; omega
          have hr1 : wbase L ≤ wbase L + 96 * k.val + 64 + jj.val := by omega
          have hr2 : wbase L + 96 * k.val + 64 + jj.val < wbase L + nrows L := by omega
          have h0 : (k0_off359 jj) 0 = jj.val := congrFun (k0_off359_eq jj) 0
          rw [hR] at htb ⊢
          refine rowsDone_of_part _ x1 _ _ ?_
          iterate 48
            refine rowPart_step (b2V).view tb x1 _ _ _ _ _ _ _ h0 rfl (fun z => ?_) ?_
            · refine piece_val' d L x1 gs hgs _ hr1 hr2 (k0_off358 L k jj) (off358_eq L k jj h14) _ _ ?_ ?_ ?_ ?_ _ rfl _ _ _ z <;> decide
          exact rowPart_zero _ x1 _ _ htb
        · unfold rowInv2 slabInv bufRows2
          isplitl [HG]
          · iexists gq1; isplitr; · ipureintro; exact hgq1
            iexact HG
          iexists t2'; isplitr; · ipureintro; exact Cert.Unfold.rowsDone_zero _ _ _
          iexact HF2_src
        iintro %_ HI
        unfold rowInv2 slabInv bufRows2
        icases HI with ⟨⟨%gq2, %hgq2, HG⟩, %tb2, %htb2, HF2_src⟩
        ihave HD2' := (Entails.of_eq (todo_step (fun j => (o1Loc d ↦[chunkSet L 2 j]{fullShare} f1 : sProp 𝕄)) hkn2)) $$ HD2
        icases HD2' with ⟨HK2, HD2⟩
        ihave HK2' := (Entails.of_eq (pts_chunk1_p2 d L k h14 f1).symm) $$ HK2
        sl_exec
        rw [h32a] at htb0
        rw [h32b] at htb1
        rw [h32c] at htb2
        sl_step
        isplitl []; · iexact Hmw
        isplitl [HG]
        · iexists gq2; isplitr; · ipureintro; exact hgq2
          iexact HG
        isplitl [HL0 HF0_dst HD0 HF0]
        · isplitl [HL0 HF0_dst]
          · iapply (landed_step (fun j => (o1Loc d ↦[chunkSet L 0 j]{fullShare} pat1 d x1 : sProp 𝕄)) k.val hk1)
            isplitl [HL0]; · iexact HL0
            iapply (Entails.of_eq (landed_pts1 d L 0 (k.val - 1) (by omega) (by omega) x1 _ _ ht0'))
            iexact HF0_dst
          isplitl [HD0]; · iexact HD0
          iapply (flying1_0_fold d L x1 f1 k.val _ _ (off305_chunk L k h10) tb0 htb0)
          iexact HF0
        isplitl [HL1 HF1_dst HD1 HF1]
        · isplitl [HL1 HF1_dst]
          · iapply (landed_step (fun j => (o1Loc d ↦[chunkSet L 1 j]{fullShare} pat1 d x1 : sProp 𝕄)) k.val hk1)
            isplitl [HL1]; · iexact HL1
            iapply (Entails.of_eq (landed_pts1 d L 1 (k.val - 1) (by omega) (by omega) x1 _ _ ht1'))
            iexact HF1_dst
          isplitl [HD1]; · iexact HD1
          iapply (flying1_1_fold d L x1 f1 k.val _ _ (off356_chunk L k h12) tb1 htb1)
          iexact HF1
        isplitl [HL2 HF2_dst HD2 HF2]
        · isplitl [HL2 HF2_dst]
          · iapply (landed_step (fun j => (o1Loc d ↦[chunkSet L 2 j]{fullShare} pat1 d x1 : sProp 𝕄)) k.val hk1)
            isplitl [HL2]; · iexact HL2
            iapply (Entails.of_eq (landed_pts1 d L 2 (k.val - 1) (by omega) (by omega) x1 _ _ ht2'))
            iexact HF2_dst
          isplitl [HD2]; · iexact HD2
          iapply (flying1_2_fold d L x1 f1 k.val _ _ (off407_chunk L k h14) tb2 htb2)
          iexact HF2
        iexists _; iexact HO
      · have hn2 : nch L = 46 ∨ nch L = 61 := by unfold nch; split <;> simp
        by_cases hc10 : 3 * k.val < nch L
        · -- the last tile's trip 15: chunk 45 exists, chunks 46 and 47 do not; buffers 1 and 2 are left as they are
          have hn46 : nch L = 46 := by omega
          have h10 : k0_cond10 L k = 1#1 := (cond10_iff L k).mpr hc10
          have h12 : ¬ k0_cond12 L k = 1#1 := fun h => by have := (cond12_iff L k).mp h; omega
          have h14 : ¬ k0_cond14 L k = 1#1 := fun h => hc14 ((cond14_iff L k).mp h)
          have h11 : k0_cond11 k = 1#1 := (cond11_iff k).mpr hk1
          have hkn0 : k.val < nIss L 0 := nIss_of_lt L 0 k.val (by omega)
          have e1 : nIss L 1 = 15 := by unfold nIss; rw [hn46]
          have e2 : nIss L 2 = 15 := by unfold nIss; rw [hn46]
          unfold chunkInv1
          rw [bufState1_0_at d L x1 f1 (k.val + 1) (issued_of_le L 0 _ (by omega)), if_neg (Nat.succ_ne_zero _), Nat.add_sub_cancel,
            bufState1_0_at d L x1 f1 k.val (issued_of_le L 0 _ (by omega)), if_neg hk0,
            bufState1_1_same d L x1 f1 k.val (by rw [issued_of_ge L 1 _ (by omega), issued_of_ge L 1 _ (by omega)]),
            bufState1_2_same d L x1 f1 k.val (by rw [issued_of_ge L 2 _ (by omega), issued_of_ge L 2 _ (by omega)])]
          unfold bufFlying1_0 slabInv
          iintro ⟨#Hmw, ⟨%g', %hg', HG⟩, ⟨HL0, HD0, %t0', %ht0', HF0⟩, HB1, HB2, %W', HO⟩
          sl_exec
          sl_for (rowInv0 d L x1 (chunkRow L 0 k.val)) $$ [HG HF0_src]
          case region =>
            intro jj _
            unfold rowInv0 slabInv bufRows0
            iintro ⟨⟨%gs, %hgs, HG⟩, %tb, %htb, HT⟩
            sl_exec
            sl_step
            isplitl [HG]
            · iexists gs; isplitr; · ipureintro; exact hgs
              iexact HG
            iexists _
            isplitr
            rotate_left
            · iexact HT
            ipureintro
            have hjj : jj.val < 32 := Nat.lt_of_lt_of_le jj.isLt (Nat.le_of_eq trips_t8)
            have hcK := (cond10_iff L k).mp h10
            have hn := nch_le L
            have hR : chunkRow L 0 k.val = wbase L + 96 * k.val := by unfold chunkRow; omega
            have hr1 : wbase L ≤ wbase L + 96 * k.val + jj.val := by omega
            have hr2 : wbase L + 96 * k.val + jj.val < wbase L + nrows L := by omega
            have h0 : (k0_off257 jj) 0 = jj.val := congrFun (k0_off257_eq jj) 0
            rw [hR] at htb ⊢
            refine rowsDone_of_part _ x1 _ _ ?_
            iterate 48
              refine rowPart_step (b0V).view tb x1 _ _ _ _ _ _ _ h0 rfl (fun z => ?_) ?_
              · refine piece_val' d L x1 gs hgs _ hr1 hr2 (k0_off256 L k jj) (off256_eq L k jj h10) _ _ ?_ ?_ ?_ ?_ _ rfl _ _ _ z <;> decide
            exact rowPart_zero _ x1 _ _ htb
          · unfold rowInv0 slabInv bufRows0
            isplitl [HG]
            · iexists g'; isplitr; · ipureintro; exact hg'
              iexact HG
            iexists t0'; isplitr; · ipureintro; exact Cert.Unfold.rowsDone_zero _ _ _
            iexact HF0_src
          iintro %_ HI
          unfold rowInv0 slabInv bufRows0
          icases HI with ⟨⟨%gq0, %hgq0, HG⟩, %tb0, %htb0, HF0_src⟩
          ihave HD0' := (Entails.of_eq (todo_step (fun j => (o1Loc d ↦[chunkSet L 0 j]{fullShare} f1 : sProp 𝕄)) hkn0)) $$ HD0
          icases HD0' with ⟨HK0, HD0⟩
          ihave HK0' := (Entails.of_eq (pts_chunk1_p0 d L k h10 f1).symm) $$ HK0
          sl_exec
          rw [h32a] at htb0
          sl_step
          isplitl []; · iexact Hmw
          isplitl [HG]
          · iexists gq0; isplitr; · ipureintro; exact hgq0
            iexact HG
          isplitl [HL0 HF0_dst HD0 HF0]
          · isplitl [HL0 HF0_dst]
            · iapply (landed_step (fun j => (o1Loc d ↦[chunkSet L 0 j]{fullShare} pat1 d x1 : sProp 𝕄)) k.val hk1)
              isplitl [HL0]; · iexact HL0
              iapply (Entails.of_eq (landed_pts1 d L 0 (k.val - 1) (by omega) (by omega) x1 _ _ ht0'))
              iexact HF0_dst
            isplitl [HD0]; · iexact HD0
            iapply (flying1_0_fold d L x1 f1 k.val _ _ (off305_chunk L k h10) tb0 htb0)
            iexact HF0
          isplitl [HB1]; · iexact HB1
          isplitl [HB2]; · iexact HB2
          iexists _; iexact HO
        · -- past the last tile's last chunk: nothing runs, nothing changes
          have hn46 : nch L = 46 := by omega
          have h10 : ¬ k0_cond10 L k = 1#1 := fun h => hc10 ((cond10_iff L k).mp h)
          have h12 : ¬ k0_cond12 L k = 1#1 := fun h => by have := (cond12_iff L k).mp h; omega
          have h14 : ¬ k0_cond14 L k = 1#1 := fun h => hc14 ((cond14_iff L k).mp h)
          have e0 : nIss L 0 = 16 := by unfold nIss; rw [hn46]
          have e1 : nIss L 1 = 15 := by unfold nIss; rw [hn46]
          have e2 : nIss L 2 = 15 := by unfold nIss; rw [hn46]
          unfold chunkInv1
          rw [bufState1_0_same d L x1 f1 k.val (by rw [issued_of_ge L 0 _ (by omega), issued_of_ge L 0 _ (by omega)]),
            bufState1_1_same d L x1 f1 k.val (by rw [issued_of_ge L 1 _ (by omega), issued_of_ge L 1 _ (by omega)]),
            bufState1_2_same d L x1 f1 k.val (by rw [issued_of_ge L 2 _ (by omega), issued_of_ge L 2 _ (by omega)])]
          iintro ⟨#Hmw, HS, HB0, HB1, HB2, %W', HO⟩
          sl_exec
          sl_step
          isplitl []; · iexact Hmw
          isplitl [HS]; · iexact HS
          isplitl [HB0]; · iexact HB0
          isplitl [HB1]; · iexact HB1
          isplitl [HB2]; · iexact HB2
          iexists W'; iexact HO
  · -- before the first trip: the slab holds the window, every chunk holds what it held, the buffers are at rest
    unfold chunkInv1
    isplitl []; · iexact Hmw
    isplitl [HG]
    · unfold slabInv
      iexists _
      isplitr
      rotate_left
      · iexact HG
      · ipureintro; exact slab_filled d L x1 _
    isplitl [HD0 HT0 Hc0]
    · iapply (bufState1_0_init d L x1 f1 t0)
      isplitl [HD0]; · iexact HD0
      isplitl [HT0]; · iexact HT0
      iexact Hc0
    isplitl [HD1 HT1 Hc1]
    · iapply (bufState1_1_init d L x1 f1 t1)
      isplitl [HD1]; · iexact HD1
      isplitl [HT1]; · iexact HT1
      iexact Hc1
    isplitl [HD2 HT2 Hc2]
    · iapply (bufState1_2_init d L x1 f1 t2)
      isplitl [HD2]; · iexact HD2
      isplitl [HT2]; · iexact HT2
      iexact Hc2
    iexists _; iexact HO
  rw [h20]
  iintro %_ HI
  unfold chunkInv1
  icases HI with ⟨-, HS, HB0, HB1, HB2, %W', HO⟩
  sl_exec
  sl_step
  isplitl [HX1]; · iexact HX1
  isplitl [HS]; · iexact HS
  isplitl [HB0]; · iexact HB0
  isplitl [HB1]; · iexact HB1
  isplitl [HB2]; · iexact HB2
  isplitl [Hc8]; · iexact Hc8
  isplitl [Hc9]; · iexact Hc9
  isplitl [Hc10]; · iexact Hc10
  iexists W'; iexact HO

end Cert.Proof.KB

end
-- ==== Proof.TileRunBits.lean ====
/-
  One tile's task run from its pieces, in the kernel function's own spelling of its arguments: the tile's read shares
  of the two flattened images, its rows of the two results, its slab, its three staging buffers and its thirteen DMA
  semaphores at zero. It ends with its rows of each result holding that image's patches.

  The task is: the first two channel copies of the first image's window into the slab; the rest of the first pass (the
  third copy, the chunk loop, the last chunk, the tail); the second pass's three copies and chunk loop; then, inline,
  the second pass's last chunk (on the tiles that have 61 chunks), the three final waits, and on the last tile the
  17-patch tail. The tile's rows of each result are cut into the chunks of the three staging buffers and the two tail
  pieces at the start and joined again at the end; the two passes enter as their own run lemmas.
-/
import proofs.«212940_g32057635897708_cont_8to1_b_1299_25_alg».proof.Proof.P104Bits
import proofs.«212940_g32057635897708_cont_8to1_b_1299_25_alg».proof.Proof.P105Bits
import proofs.«212940_g32057635897708_cont_8to1_b_1299_25_alg».proof.Proof.ValTailBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Unfold (SlabOK SlabUpTo RowsDone xAt flatPos)

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

/-- The tile's DMA semaphores: three for the staging buffers' write-backs, ten scoped ones for its blocking copies. -/
abbrev csem (k : Nat) (hk : k < 13 := by decide) : DmaSem sig := ⟨k, hk⟩

/-- All thirteen at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0
    ∗ semVal (VT d L, SemLoc.dma (csem 12)) 0)

variable (d : Dev nD) (L : grid0.Coords)

/-! ## The slab after the first image's first two channel copies -/

/-- The slab after the first two copies holds the first image's window below position 32768. -/
theorem slab_two (x0 : Buf (Elt F) (x0Loc d)) (f : (slabV).view.ty.Contents (Elt F)) :
    SlabUpTo (α := Elt F .f32) ((slabV).view.read (Elt F) ((slabV).view.writes (Elt F) f
      [⟨Rect.unit (s := S49152) ![16384] S16384.size inb_S49152_S16384_16384,
          ReadAs.same.apply (View.read (Elt F) ((x0V).slice (Rect.unit (s := S786432) (k0_off1 L 262144#32) S16384.size (k0_off1_inb L 1)) (fun _ => rfl)).view x0)⟩,
        ⟨Rect.unit (s := S49152) ![0] S16384.size inb_S49152_S16384_0,
          ReadAs.same.apply (View.read (Elt F) ((x0V).slice (Rect.unit (s := S786432) (k0_off1 L 0#32) S16384.size (k0_off1_inb L 0)) (fun _ => rfl)).view x0)⟩]))
      x0 (wstart L) 32768 :=
  slabUpTo_chan x0 (wstart L) f _ 1 _ _ rfl _ (fun i => chan_payload0 d L x0 1 _ _ (off1_eq L 1) _ i)
    (slabUpTo_chan x0 (wstart L) f [] 0 _ _ rfl _ (fun i => chan_payload0 d L x0 0 _ _ (off1_eq L 0) _ i)
      (Cert.Unfold.slabUpTo_zero _ _ _))

/-- The three buffers' families of chunks, one by one. -/
theorem bigSep_range3 (Φ : ℕ → sProp 𝕄) : bigSep (Finset.range 3) Φ = iprop(Φ 0 ∗ Φ 1 ∗ Φ 2) := by
  rw [show Finset.range 3 = {0, 1, 2} by decide, bigSep_insert (by decide), bigSep_insert (by decide), bigSep_singleton]
  rfl

theorem part104_cut (v1 v2 v7 v9 v14 : BitVec 32) (O : CellTallies nD τ sig (HIx 1)) (W : Waits sig (HIx 1))
    (x0 : Buf (Elt F) (x0Loc d)) (f0 : Buf (Elt F) (o0Loc d))
    (g : Buf (Elt F) ((slabV).view.loc (VT d L))) (hg : SlabUpTo (α := Elt F .f32) ((slabV).view.read (Elt F) g) x0 (wstart L) 32768)
    (t0 : Buf (Elt F) ((b0V).view.loc (VT d L))) (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((slabV).view.loc (VT d L) ↦[(slabV).view.set]{fullShare} g)
        ∗ (bigSep (Finset.range (nIss L 0)) fun j => o0Loc d ↦[chunkSet L 0 j]{fullShare} f0)
        ∗ (bigSep (Finset.range (nIss L 1)) fun j => o0Loc d ↦[chunkSet L 1 j]{fullShare} f0)
        ∗ (bigSep (Finset.range (nIss L 2)) fun j => o0Loc d ↦[chunkSet L 2 j]{fullShare} f0)
        ∗ (o0Loc d ↦[tailSetA L]{fullShare} f0) ∗ (o0Loc d ↦[tailSetB L]{fullShare} f0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ semVal (VT d L, SemLoc.dma (dsem 0)) 0 ∗ semVal (VT d L, SemLoc.dma (dsem 1)) 0 ∗ semVal (VT d L, SemLoc.dma (dsem 2)) 0
        ∗ semVal (VT d L, SemLoc.dma (dsem 5)) 0 ∗ semVal (VT d L, SemLoc.dma (dsem 6)) 0 ∗ semVal (VT d L, SemLoc.dma (dsem 7)) 0
        ∗ owes (VT d L) O W) : sProp 𝕄)
      ⊢ wp frame (wpE (defs₀ (F := F)) 𝒱₀ (VT d L) none) Set.univ
          (k0_part104 L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9 v1 v2 v7 v9 v14)
          fun _ => iprop(((x0V).view.loc (VT d L) ↦{tileShare (L 0).val (L 1).val} x0)
            ∗ (∃ g, (slabV).view.loc (VT d L) ↦[(slabV).view.set]{fullShare} g)
            ∗ (bigSep (Finset.range (nIss L 0)) fun j => o0Loc d ↦[chunkSet L 0 j]{fullShare} pat0 d x0)
            ∗ (bigSep (Finset.range (nIss L 1)) fun j => o0Loc d ↦[chunkSet L 1 j]{fullShare} pat0 d x0)
            ∗ (bigSep (Finset.range (nIss L 2)) fun j => o0Loc d ↦[chunkSet L 2 j]{fullShare} pat0 d x0)
            ∗ (o0Loc d ↦[tailSetA L]{fullShare} pat0 d x0) ∗ (o0Loc d ↦[tailSetB L]{fullShare} pat0 d x0)
            ∗ ((∃ t : Buf (Elt F) ((b0V).view.loc (VT d L)), (b0V).view.loc (VT d L) ↦[(b0V).view.set]{fullShare} t) ∗ semVal (VT d L, SemLoc.dma (dsem 0)) 0)
            ∗ ((∃ t : Buf (Elt F) ((b1V).view.loc (VT d L)), (b1V).view.loc (VT d L) ↦[(b1V).view.set]{fullShare} t) ∗ semVal (VT d L, SemLoc.dma (dsem 1)) 0)
            ∗ ((∃ t : Buf (Elt F) ((b2V).view.loc (VT d L)), (b2V).view.loc (VT d L) ↦[(b2V).view.set]{fullShare} t) ∗ semVal (VT d L, SemLoc.dma (dsem 2)) 0)
            ∗ semVal (VT d L, SemLoc.dma (dsem 5)) 0 ∗ semVal (VT d L, SemLoc.dma (dsem 6)) 0 ∗ semVal (VT d L, SemLoc.dma (dsem 7)) 0
            ∗ ∃ W', owes (VT d L) O W') := by
  have h := part104_run d L v1 v2 v7 v9 v14 O W x0 f0 t0 t1 t2
  unfold slabInv bufIdle0 bufIdle1 bufIdle2 at h
  iintro ⟨Hm, Hx, Hg, Hrest⟩
  iapply h
  isplitl [Hm]; · iexact Hm
  isplitl [Hx]; · iexact Hx
  isplitl [Hg]
  · iexists g; isplitr
    · ipureintro; exact hg
    · iexact Hg
  iexact Hrest

set_option maxHeartbeats 4000000 in
set_option pp.proofs false in
set_option pp.deepTerms false in
set_option pp.maxSteps 3000 in
/-- The task on the last tile (46 chunks and the 17-patch tail). -/
theorem tile_run_last (hw : wid L = 31) (O : CellTallies nD τ sig (HIx 1)) (W : Waits sig (HIx 1))
    (x0 : Buf (Elt F) (x0Loc d)) (x1 : Buf (Elt F) (x1Loc d)) (f0 : Buf (Elt F) (o0Loc d)) (f1 : Buf (Elt F) (o1Loc d))
    (g0 : Buf (Elt F) ((slabV).view.loc (VT d L))) (t0 : Buf (Elt F) ((b0V).view.loc (VT d L)))
    (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((x1V).view.loc (VT d L) ↦{tileShare (L 0).val (L 1).val} x1)
        ∗ ((o0V).view.loc (VT d L) ↦[tileSet L]{fullShare} f0)
        ∗ ((o1V).view.loc (VT d L) ↦[tileSet L]{fullShare} f1)
        ∗ ((slabV).view.loc (VT d L) ↦[(slabV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ cells0 d L
        ∗ owes (VT d L) O W) : sProp 𝕄)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(((x0V).view.loc (VT d L) ↦{tileShare (L 0).val (L 1).val} x0)
            ∗ ((x1V).view.loc (VT d L) ↦{tileShare (L 0).val (L 1).val} x1)
            ∗ ((o0V).view.loc (VT d L) ↦[tileSet L]{fullShare} pat0 d x0)
            ∗ ((o1V).view.loc (VT d L) ↦[tileSet L]{fullShare} pat1 d x1)
            ∗ (∃ g, (slabV).view.loc (VT d L) ↦[(slabV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ cells0 d L
            ∗ ∃ W', owes (VT d L) O W') := by
  have k0_h16 : ¬ k0_cond16 L = 1#1 := fun h => (cond16_iff L).1 h hw
  have k0_h18 : k0_cond18 L = 1#1 := (cond18_iff L).2 hw
  have n0 : nIss L 0 = 16 := by unfold nIss nch; rw [if_pos hw]
  have n1 : nIss L 1 = 15 := by unfold nIss nch; rw [if_pos hw]
  have n2 : nIss L 2 = 15 := by unfold nIss nch; rw [if_pos hw]
  have i0 : issued L 0 20 = 16 := by unfold issued; omega
  have i1 : issued L 1 20 = 15 := by unfold issued; omega
  have i2 : issued L 2 20 = 15 := by unfold issued; omega
  have e0 : Finset.Ico (issued L 0 20) (nIss L 0) = ∅ := by rw [i0, n0, Finset.Ico_self]
  have e1 : Finset.Ico (issued L 1 20) (nIss L 1) = ∅ := by rw [i1, n1, Finset.Ico_self]
  have e2 : Finset.Ico (issued L 2 20) (nIss L 2) = ∅ := by rw [i2, n2, Finset.Ico_self]
  iintro ⟨#Hmw, HX0, HX1, HO0, HO1, HG, HT0, HT1, HT2, Hcells, HO⟩
  icases Hcells with ⟨Hc0, Hc1, Hc2, Hc3, Hc4, Hc5, Hc6, Hc7, Hc8, Hc9, Hc10, Hc11, Hc12⟩
  -- the tile's rows of each result, as its chunks (buffer by buffer) and its tail pieces
  ihave HO0' := (Entails.of_eq ((tile_split0 (F := F) d L f0).trans (congrArg (fun P => iprop(P ∗ (o0Loc d ↦[tailSetA L]{fullShare} f0) ∗ (o0Loc d ↦[tailSetB L]{fullShare} f0))) (bigSep_range3 _)))) $$ HO0
  icases HO0' with ⟨⟨HA0, HA1, HA2⟩, HATA, HATB⟩
  ihave HO1' := (Entails.of_eq ((tile_split1 (F := F) d L f1).trans (congrArg (fun P => iprop(P ∗ (o1Loc d ↦[tailSetA L]{fullShare} f1) ∗ (o1Loc d ↦[tailSetB L]{fullShare} f1))) (bigSep_range3 _)))) $$ HO1
  icases HO1' with ⟨⟨HB0, HB1, HB2⟩, HBTA, HBTB⟩
  -- the two named parts, as the run meets them
  have hs2 := slab_two d L x0 g0
  have h104 := fun (v1 v2 v7 v9 v14 : BitVec 32) (W : Waits sig (HIx 1)) (g : Buf (Elt F) ((slabV).view.loc (VT d L)))
      (hg : SlabUpTo (α := Elt F .f32) ((slabV).view.read (Elt F) g) x0 (wstart L) 32768)
      (t0 : Buf (Elt F) ((b0V).view.loc (VT d L))) (t1 : Buf (Elt F) ((b1V).view.loc (VT d L))) (t2 : Buf (Elt F) ((b2V).view.loc (VT d L))) =>
    part104_cut d L v1 v2 v7 v9 v14 O W x0 f0 g hg t0 t1 t2
  have h105 := fun (v2 v7 v9 : BitVec 32) (W : Waits sig (HIx 1)) (t0 : Buf (Elt F) ((b0V).view.loc (VT d L)))
      (t1 : Buf (Elt F) ((b1V).view.loc (VT d L))) (t2 : Buf (Elt F) ((b2V).view.loc (VT d L))) =>
    part105_run d L v2 v7 v9 O W x1 f1 t0 t1 t2
  unfold bufState1_0 bufState1_1 bufState1_2 at h105
  simp only [e0, e1, e2, bigSep_empty] at h105
  simp only [i0, i1, i2, Nat.reduceSub, OfNat.ofNat_ne_zero, ↓reduceIte] at h105
  unfold bufFlying1_0 bufFlying1_1 bufFlying1_2 slabInv at h105
  -- the tail pieces of the second result in the program's spelling
  ihave HTA' := (Entails.of_eq (pts_tailA1 (F := F) d L k0_h18 f1).symm) $$ HBTA
  ihave HTB' := (Entails.of_eq (pts_tailB1 (F := F) d L k0_h18 f1).symm) $$ HBTB
  sl_unfold [cc0__body]
  sl_exec
  -- the last tile's 17 remaining patches of the second image, into staging buffer 0
  sl_for (rowInv0 d L x1 61984) $$ [Hk0_part105_2 Hk0_part105_6_src]
  case region =>
    intro jj _
    unfold rowInv0 slabInv bufRows0
    iintro ⟨⟨%g, %hg, HG⟩, %t, %ht, HT0⟩
    have hjj17 : jj.val < 17 := by have h := jj.isLt; change jj.val < k0_t12_loop.trips at h; rw [trips_t12] at h; exact h
    have hjj : jj.val < 32 := by omega
    sl_exec
    sl_step
    isplitl [HG]
    · iexists g; isplitr; · ipureintro; exact hg
      iexact HG
    iexists _; isplitr
    rotate_left
    · iexact HT0
    ipureintro
    have hwb : wbase L = 60512 := by unfold wbase; rw [hw]
    have hnr : nrows L = 1489 := by unfold nrows; rw [if_pos hw]
    have hr1 : wbase L ≤ 61984 + jj.val := by omega
    have hr2 : 61984 + jj.val < wbase L + nrows L := by omega
    refine rows_step' (b0V).view x1 (61984) jj.val hjj t _ ht ?_
    have pk := fun (c : Fin 3) (kh : Fin 16) =>
      piece_ok d L x1 g hg (61984 + jj.val) jj.val hjj hr1 hr2 c kh
    apply PiecesOK.cons (pk 2 15 _ (off459_eq L jj k0_h18 2 15) _ _ (k0_off507_eq jj) _ _ _)
    apply PiecesOK.cons (pk 2 14 _ (off459_eq L jj k0_h18 2 14) _ _ (k0_off506_eq jj) _ _ _)
    apply PiecesOK.cons (pk 2 13 _ (off459_eq L jj k0_h18 2 13) _ _ (k0_off505_eq jj) _ _ _)
    apply PiecesOK.cons (pk 2 12 _ (off459_eq L jj k0_h18 2 12) _ _ (k0_off504_eq jj) _ _ _)
    apply PiecesOK.cons (pk 2 11 _ (off459_eq L jj k0_h18 2 11) _ _ (k0_off503_eq jj) _ _ _)
    apply PiecesOK.cons (pk 2 10 _ (off459_eq L jj k0_h18 2 10) _ _ (k0_off502_eq jj) _ _ _)
    apply PiecesOK.cons (pk 2 9 _ (off459_eq L jj k0_h18 2 9) _ _ (k0_off501_eq jj) _ _ _)
    apply PiecesOK.cons (pk 2 8 _ (off459_eq L jj k0_h18 2 8) _ _ (k0_off500_eq jj) _ _ _)
    apply PiecesOK.cons (pk 2 7 _ (off459_eq L jj k0_h18 2 7) _ _ (k0_off499_eq jj) _ _ _)
    apply PiecesOK.cons (pk 2 6 _ (off459_eq L jj k0_h18 2 6) _ _ (k0_off498_eq jj) _ _ _)
    apply PiecesOK.cons (pk 2 5 _ (off459_eq L jj k0_h18 2 5) _ _ (k0_off497_eq jj) _ _ _)
    apply PiecesOK.cons (pk 2 4 _ (off459_eq L jj k0_h18 2 4) _ _ (k0_off496_eq jj) _ _ _)
    apply PiecesOK.cons (pk 2 3 _ (off459_eq L jj k0_h18 2 3) _ _ (k0_off495_eq jj) _ _ _)
    apply PiecesOK.cons (pk 2 2 _ (off459_eq L jj k0_h18 2 2) _ _ (k0_off494_eq jj) _ _ _)
    apply PiecesOK.cons (pk 2 1 _ (off459_eq L jj k0_h18 2 1) _ _ (k0_off493_eq jj) _ _ _)
    apply PiecesOK.cons (pk 2 0 _ (off459_eq L jj k0_h18 2 0) _ _ (k0_off492_eq jj) _ _ _)
    apply PiecesOK.cons (pk 1 15 _ (off459_eq L jj k0_h18 1 15) _ _ (k0_off491_eq jj) _ _ _)
    apply PiecesOK.cons (pk 1 14 _ (off459_eq L jj k0_h18 1 14) _ _ (k0_off490_eq jj) _ _ _)
    apply PiecesOK.cons (pk 1 13 _ (off459_eq L jj k0_h18 1 13) _ _ (k0_off489_eq jj) _ _ _)
    apply PiecesOK.cons (pk 1 12 _ (off459_eq L jj k0_h18 1 12) _ _ (k0_off488_eq jj) _ _ _)
    apply PiecesOK.cons (pk 1 11 _ (off459_eq L jj k0_h18 1 11) _ _ (k0_off487_eq jj) _ _ _)
    apply PiecesOK.cons (pk 1 10 _ (off459_eq L jj k0_h18 1 10) _ _ (k0_off486_eq jj) _ _ _)
    apply PiecesOK.cons (pk 1 9 _ (off459_eq L jj k0_h18 1 9) _ _ (k0_off485_eq jj) _ _ _)
    apply PiecesOK.cons (pk 1 8 _ (off459_eq L jj k0_h18 1 8) _ _ (k0_off484_eq jj) _ _ _)
    apply PiecesOK.cons (pk 1 7 _ (off459_eq L jj k0_h18 1 7) _ _ (k0_off483_eq jj) _ _ _)
    apply PiecesOK.cons (pk 1 6 _ (off459_eq L jj k0_h18 1 6) _ _ (k0_off482_eq jj) _ _ _)
    apply PiecesOK.cons (pk 1 5 _ (off459_eq L jj k0_h18 1 5) _ _ (k0_off481_eq jj) _ _ _)
    apply PiecesOK.cons (pk 1 4 _ (off459_eq L jj k0_h18 1 4) _ _ (k0_off480_eq jj) _ _ _)
    apply PiecesOK.cons (pk 1 3 _ (off459_eq L jj k0_h18 1 3) _ _ (k0_off479_eq jj) _ _ _)
    apply PiecesOK.cons (pk 1 2 _ (off459_eq L jj k0_h18 1 2) _ _ (k0_off478_eq jj) _ _ _)
    apply PiecesOK.cons (pk 1 1 _ (off459_eq L jj k0_h18 1 1) _ _ (k0_off477_eq jj) _ _ _)
    apply PiecesOK.cons (pk 1 0 _ (off459_eq L jj k0_h18 1 0) _ _ (k0_off476_eq jj) _ _ _)
    apply PiecesOK.cons (pk 0 15 _ (off459_eq L jj k0_h18 0 15) _ _ (k0_off475_eq jj) _ _ _)
    apply PiecesOK.cons (pk 0 14 _ (off459_eq L jj k0_h18 0 14) _ _ (k0_off474_eq jj) _ _ _)
    apply PiecesOK.cons (pk 0 13 _ (off459_eq L jj k0_h18 0 13) _ _ (k0_off473_eq jj) _ _ _)
    apply PiecesOK.cons (pk 0 12 _ (off459_eq L jj k0_h18 0 12) _ _ (k0_off472_eq jj) _ _ _)
    apply PiecesOK.cons (pk 0 11 _ (off459_eq L jj k0_h18 0 11) _ _ (k0_off471_eq jj) _ _ _)
    apply PiecesOK.cons (pk 0 10 _ (off459_eq L jj k0_h18 0 10) _ _ (k0_off470_eq jj) _ _ _)
    apply PiecesOK.cons (pk 0 9 _ (off459_eq L jj k0_h18 0 9) _ _ (k0_off469_eq jj) _ _ _)
    apply PiecesOK.cons (pk 0 8 _ (off459_eq L jj k0_h18 0 8) _ _ (k0_off468_eq jj) _ _ _)
    apply PiecesOK.cons (pk 0 7 _ (off459_eq L jj k0_h18 0 7) _ _ (k0_off467_eq jj) _ _ _)
    apply PiecesOK.cons (pk 0 6 _ (off459_eq L jj k0_h18 0 6) _ _ (k0_off466_eq jj) _ _ _)
    apply PiecesOK.cons (pk 0 5 _ (off459_eq L jj k0_h18 0 5) _ _ (k0_off465_eq jj) _ _ _)
    apply PiecesOK.cons (pk 0 4 _ (off459_eq L jj k0_h18 0 4) _ _ (k0_off464_eq jj) _ _ _)
    apply PiecesOK.cons (pk 0 3 _ (off459_eq L jj k0_h18 0 3) _ _ (k0_off463_eq jj) _ _ _)
    apply PiecesOK.cons (pk 0 2 _ (off459_eq L jj k0_h18 0 2) _ _ (k0_off462_eq jj) _ _ _)
    apply PiecesOK.cons (pk 0 1 _ (off459_eq L jj k0_h18 0 1) _ _ (k0_off461_eq jj) _ _ _)
    apply PiecesOK.cons (pk 0 0 _ (off459_eq L jj k0_h18 0 0) _ _ (k0_off460_eq jj) _ _ _)
    exact PiecesOK.nil
  · unfold rowInv0 slabInv bufRows0
    isplitl [Hk0_part105_2]
    · iexists gk0_part105_0; isplitr
      · ipureintro; exact hk0_part105_1
      · iexact Hk0_part105_2
    · iexists tk0_part105_1; isplitr
      · ipureintro; exact Cert.Unfold.rowsDone_zero _ _ _
      · iexact Hk0_part105_6_src
  iintro %_ HR
  unfold rowInv0 slabInv bufRows0
  icases HR with ⟨⟨%g', %hg', HG⟩, ⟨%t, %ht, HT0⟩⟩
  sl_exec
  sl_step
  have ht17 : RowsDone (α := Elt F .f32) ((b0V).view.read (Elt F) t) x1 61984 17 := ht
  -- the three delivered chunks join the landed ones
  ihave HL0 := (Entails.of_eq (landed_pts1 (F := F) d L 0 15 (by omega) (by omega) x1 _ _ hk0_part105_5)) $$ Hk0_part105_6_dst
  ihave HL1 := (Entails.of_eq (landed_pts1 (F := F) d L 1 14 (by omega) (by omega) x1 _ _ hk0_part105_9)) $$ Hk0_part105_10_dst
  ihave HL2 := (Entails.of_eq (landed_pts1 (F := F) d L 2 14 (by omega) (by omega) x1 _ _ hk0_part105_13)) $$ Hk0_part105_14_dst
  ihave HD0 := (Entails.of_eq (done_step (fun j => (o1Loc d ↦[chunkSet L 0 j]{fullShare} pat1 d x1 : sProp 𝕄)) 15)) $$ [Hk0_part105_3 HL0]
  · isplitl [Hk0_part105_3]; · iexact Hk0_part105_3
    iexact HL0
  ihave HD1 := (Entails.of_eq (done_step (fun j => (o1Loc d ↦[chunkSet L 1 j]{fullShare} pat1 d x1 : sProp 𝕄)) 14)) $$ [Hk0_part105_7 HL1]
  · isplitl [Hk0_part105_7]; · iexact Hk0_part105_7
    iexact HL1
  ihave HD2 := (Entails.of_eq (done_step (fun j => (o1Loc d ↦[chunkSet L 2 j]{fullShare} pat1 d x1 : sProp 𝕄)) 14)) $$ [Hk0_part105_11 HL2]
  · isplitl [Hk0_part105_11]; · iexact Hk0_part105_11
    iexact HL2
  isplitl [Hk0_part104_0]; · iexact Hk0_part104_0
  isplitl [Hk0_part105_0]; · iexact Hk0_part105_0
  -- the first result's rows, joined
  isplitl [Hk0_part104_2 Hk0_part104_3 Hk0_part104_4 Hk0_part104_5 Hk0_part104_6]
  · iapply (Entails.of_eq ((tile_split0 (F := F) d L (pat0 d x0)).trans (congrArg (fun P => iprop(P ∗ (o0Loc d ↦[tailSetA L]{fullShare} pat0 d x0) ∗ (o0Loc d ↦[tailSetB L]{fullShare} pat0 d x0))) (bigSep_range3 _))).symm)
    isplitl [Hk0_part104_2 Hk0_part104_3 Hk0_part104_4]
    · isplitl [Hk0_part104_2]; · iexact Hk0_part104_2
      isplitl [Hk0_part104_3]; · iexact Hk0_part104_3
      iexact Hk0_part104_4
    isplitl [Hk0_part104_5]; · iexact Hk0_part104_5
    iexact Hk0_part104_6
  -- the second result's rows, joined
  isplitl [HD0 HD1 HD2 HTA' HTB']
  · iapply (Entails.of_eq ((tile_split1 (F := F) d L (pat1 d x1)).trans (congrArg (fun P => iprop(P ∗ (o1Loc d ↦[tailSetA L]{fullShare} pat1 d x1) ∗ (o1Loc d ↦[tailSetB L]{fullShare} pat1 d x1))) (bigSep_range3 _))).symm)
    rw [n0, n1, n2]
    isplitl [HD0 HD1 HD2]
    · isplitl [HD0]; · iexact HD0
      isplitl [HD1]; · iexact HD1
      iexact HD2
    isplitl [HTA']
    · iapply (Entails.of_eq (tailA_landed1 (F := F) d L hw x1 f1 t ht17)); iexact HTA'
    iapply (Entails.of_eq (tailB_landed1 (F := F) d L hw x1 f1 t ht17)); iexact HTB'
  isplitl [HG]; · iexists _; iexact HG
  isplitl [HT0]; · iexists _; iexact HT0
  isplitl [Hk0_part105_10_src]; · iexists _; iexact Hk0_part105_10_src
  isplitl [Hk0_part105_14_src]; · iexists _; iexact Hk0_part105_14_src
  -- the thirteen semaphores, all at zero again
  isplitl [Hk0_part105_6 Hk0_part105_10 Hk0_part105_14 Hc3 Hc4 Hk0_part104_13 Hk0_part104_14 Hk0_part104_15 Hk0_part105_15 Hk0_part105_16 Hk0_part105_17 Hc11 Hc12]
  · isplitl [Hk0_part105_6]; · iexact Hk0_part105_6
    isplitl [Hk0_part105_10]; · iexact Hk0_part105_10
    isplitl [Hk0_part105_14]; · iexact Hk0_part105_14
    isplitl [Hc3]; · iexact Hc3
    isplitl [Hc4]; · iexact Hc4
    isplitl [Hk0_part104_13]; · iexact Hk0_part104_13
    isplitl [Hk0_part104_14]; · iexact Hk0_part104_14
    isplitl [Hk0_part104_15]; · iexact Hk0_part104_15
    isplitl [Hk0_part105_15]; · iexact Hk0_part105_15
    isplitl [Hk0_part105_16]; · iexact Hk0_part105_16
    isplitl [Hk0_part105_17]; · iexact Hk0_part105_17
    isplitl [Hc11]; · iexact Hc11
    iexact Hc12
  iexists _; iexact Hk0_part105_18

set_option maxHeartbeats 4000000 in
set_option pp.proofs false in
set_option pp.deepTerms false in
set_option pp.maxSteps 3000 in
/-- The task on every other tile (61 chunks). -/
theorem tile_run_other (hw : wid L ≠ 31) (O : CellTallies nD τ sig (HIx 1)) (W : Waits sig (HIx 1))
    (x0 : Buf (Elt F) (x0Loc d)) (x1 : Buf (Elt F) (x1Loc d)) (f0 : Buf (Elt F) (o0Loc d)) (f1 : Buf (Elt F) (o1Loc d))
    (g0 : Buf (Elt F) ((slabV).view.loc (VT d L))) (t0 : Buf (Elt F) ((b0V).view.loc (VT d L)))
    (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((x1V).view.loc (VT d L) ↦{tileShare (L 0).val (L 1).val} x1)
        ∗ ((o0V).view.loc (VT d L) ↦[tileSet L]{fullShare} f0)
        ∗ ((o1V).view.loc (VT d L) ↦[tileSet L]{fullShare} f1)
        ∗ ((slabV).view.loc (VT d L) ↦[(slabV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ cells0 d L
        ∗ owes (VT d L) O W) : sProp 𝕄)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(((x0V).view.loc (VT d L) ↦{tileShare (L 0).val (L 1).val} x0)
            ∗ ((x1V).view.loc (VT d L) ↦{tileShare (L 0).val (L 1).val} x1)
            ∗ ((o0V).view.loc (VT d L) ↦[tileSet L]{fullShare} pat0 d x0)
            ∗ ((o1V).view.loc (VT d L) ↦[tileSet L]{fullShare} pat1 d x1)
            ∗ (∃ g, (slabV).view.loc (VT d L) ↦[(slabV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ cells0 d L
            ∗ ∃ W', owes (VT d L) O W') := by
  have k0_h16 : k0_cond16 L = 1#1 := (cond16_iff L).2 hw
  have k0_h17 : k0_cond17 = 1#1 := cond17_true
  have k0_h18 : ¬ k0_cond18 L = 1#1 := fun h => hw ((cond18_iff L).1 h)
  have n0 : nIss L 0 = 21 := by unfold nIss nch; rw [if_neg hw]
  have n1 : nIss L 1 = 20 := by unfold nIss nch; rw [if_neg hw]
  have n2 : nIss L 2 = 20 := by unfold nIss nch; rw [if_neg hw]
  have i0 : issued L 0 20 = 20 := by unfold issued; omega
  have i1 : issued L 1 20 = 20 := by unfold issued; omega
  have i2 : issued L 2 20 = 20 := by unfold issued; omega
  have e0 : Finset.Ico (issued L 0 20) (nIss L 0) = {20} := by rw [i0, n0]; rfl
  have e1 : Finset.Ico (issued L 1 20) (nIss L 1) = ∅ := by rw [i1, n1, Finset.Ico_self]
  have e2 : Finset.Ico (issued L 2 20) (nIss L 2) = ∅ := by rw [i2, n2, Finset.Ico_self]
  iintro ⟨#Hmw, HX0, HX1, HO0, HO1, HG, HT0, HT1, HT2, Hcells, HO⟩
  icases Hcells with ⟨Hc0, Hc1, Hc2, Hc3, Hc4, Hc5, Hc6, Hc7, Hc8, Hc9, Hc10, Hc11, Hc12⟩
  -- the tile's rows of each result, as its chunks (buffer by buffer) and its tail pieces
  ihave HO0' := (Entails.of_eq ((tile_split0 (F := F) d L f0).trans (congrArg (fun P => iprop(P ∗ (o0Loc d ↦[tailSetA L]{fullShare} f0) ∗ (o0Loc d ↦[tailSetB L]{fullShare} f0))) (bigSep_range3 _)))) $$ HO0
  icases HO0' with ⟨⟨HA0, HA1, HA2⟩, HATA, HATB⟩
  ihave HO1' := (Entails.of_eq ((tile_split1 (F := F) d L f1).trans (congrArg (fun P => iprop(P ∗ (o1Loc d ↦[tailSetA L]{fullShare} f1) ∗ (o1Loc d ↦[tailSetB L]{fullShare} f1))) (bigSep_range3 _)))) $$ HO1
  icases HO1' with ⟨⟨HB0, HB1, HB2⟩, HBTA, HBTB⟩
  -- the two named parts, as the run meets them
  have hs2 := slab_two d L x0 g0
  have h104 := fun (v1 v2 v7 v9 v14 : BitVec 32) (W : Waits sig (HIx 1)) (g : Buf (Elt F) ((slabV).view.loc (VT d L)))
      (hg : SlabUpTo (α := Elt F .f32) ((slabV).view.read (Elt F) g) x0 (wstart L) 32768)
      (t0 : Buf (Elt F) ((b0V).view.loc (VT d L))) (t1 : Buf (Elt F) ((b1V).view.loc (VT d L))) (t2 : Buf (Elt F) ((b2V).view.loc (VT d L))) =>
    part104_cut d L v1 v2 v7 v9 v14 O W x0 f0 g hg t0 t1 t2
  have h105 := fun (v2 v7 v9 : BitVec 32) (W : Waits sig (HIx 1)) (t0 : Buf (Elt F) ((b0V).view.loc (VT d L)))
      (t1 : Buf (Elt F) ((b1V).view.loc (VT d L))) (t2 : Buf (Elt F) ((b2V).view.loc (VT d L))) =>
    part105_run d L v2 v7 v9 O W x1 f1 t0 t1 t2
  unfold bufState1_0 bufState1_1 bufState1_2 at h105
  simp only [e0, e1, e2, bigSep_empty, bigSep_singleton] at h105
  simp only [i0, i1, i2, Nat.reduceSub, OfNat.ofNat_ne_zero, ↓reduceIte] at h105
  unfold bufFlying1_0 bufFlying1_1 bufFlying1_2 slabInv at h105
  sl_unfold [cc0__body]
  sl_exec
  -- chunk 60 (the twenty-first of buffer 0): its 32 patches of the second image, into staging buffer 0
  sl_for (rowInv0 d L x1 (chunkRow L 0 20)) $$ [Hk0_part105_2 Hk0_part105_6_src]
  case region =>
    intro jj _
    unfold rowInv0 slabInv bufRows0
    iintro ⟨⟨%g, %hg, HG⟩, %t, %ht, HT0⟩
    have hjj : jj.val < 32 := by have h := jj.isLt; change jj.val < k0_t11_loop.trips at h; rw [trips_t11] at h; exact h
    sl_exec
    sl_step
    isplitl [HG]
    · iexists g; isplitr; · ipureintro; exact hg
      iexact HG
    iexists _; isplitr
    rotate_left
    · iexact HT0
    ipureintro
    have hnr : nrows L = 1952 := by unfold nrows; rw [if_neg hw]
    have erow : chunkRow L 0 20 + jj.val = wbase L + 1920 + jj.val := by unfold chunkRow; omega
    have hr1 : wbase L ≤ wbase L + 1920 + jj.val := by omega
    have hr2 : wbase L + 1920 + jj.val < wbase L + nrows L := by omega
    refine rows_step' (b0V).view x1 (chunkRow L 0 20) jj.val hjj t _ ht ?_
    rw [erow]
    have pk := fun (c : Fin 3) (kh : Fin 16) =>
      piece_ok d L x1 g hg (wbase L + 1920 + jj.val) jj.val hjj hr1 hr2 c kh
    apply PiecesOK.cons (pk 2 15 _ (off409_eq L jj k0_h16 2 15) _ _ (k0_off457_eq jj) _ _ _)
    apply PiecesOK.cons (pk 2 14 _ (off409_eq L jj k0_h16 2 14) _ _ (k0_off456_eq jj) _ _ _)
    apply PiecesOK.cons (pk 2 13 _ (off409_eq L jj k0_h16 2 13) _ _ (k0_off455_eq jj) _ _ _)
    apply PiecesOK.cons (pk 2 12 _ (off409_eq L jj k0_h16 2 12) _ _ (k0_off454_eq jj) _ _ _)
    apply PiecesOK.cons (pk 2 11 _ (off409_eq L jj k0_h16 2 11) _ _ (k0_off453_eq jj) _ _ _)
    apply PiecesOK.cons (pk 2 10 _ (off409_eq L jj k0_h16 2 10) _ _ (k0_off452_eq jj) _ _ _)
    apply PiecesOK.cons (pk 2 9 _ (off409_eq L jj k0_h16 2 9) _ _ (k0_off451_eq jj) _ _ _)
    apply PiecesOK.cons (pk 2 8 _ (off409_eq L jj k0_h16 2 8) _ _ (k0_off450_eq jj) _ _ _)
    apply PiecesOK.cons (pk 2 7 _ (off409_eq L jj k0_h16 2 7) _ _ (k0_off449_eq jj) _ _ _)
    apply PiecesOK.cons (pk 2 6 _ (off409_eq L jj k0_h16 2 6) _ _ (k0_off448_eq jj) _ _ _)
    apply PiecesOK.cons (pk 2 5 _ (off409_eq L jj k0_h16 2 5) _ _ (k0_off447_eq jj) _ _ _)
    apply PiecesOK.cons (pk 2 4 _ (off409_eq L jj k0_h16 2 4) _ _ (k0_off446_eq jj) _ _ _)
    apply PiecesOK.cons (pk 2 3 _ (off409_eq L jj k0_h16 2 3) _ _ (k0_off445_eq jj) _ _ _)
    apply PiecesOK.cons (pk 2 2 _ (off409_eq L jj k0_h16 2 2) _ _ (k0_off444_eq jj) _ _ _)
    apply PiecesOK.cons (pk 2 1 _ (off409_eq L jj k0_h16 2 1) _ _ (k0_off443_eq jj) _ _ _)
    apply PiecesOK.cons (pk 2 0 _ (off409_eq L jj k0_h16 2 0) _ _ (k0_off442_eq jj) _ _ _)
    apply PiecesOK.cons (pk 1 15 _ (off409_eq L jj k0_h16 1 15) _ _ (k0_off441_eq jj) _ _ _)
    apply PiecesOK.cons (pk 1 14 _ (off409_eq L jj k0_h16 1 14) _ _ (k0_off440_eq jj) _ _ _)
    apply PiecesOK.cons (pk 1 13 _ (off409_eq L jj k0_h16 1 13) _ _ (k0_off439_eq jj) _ _ _)
    apply PiecesOK.cons (pk 1 12 _ (off409_eq L jj k0_h16 1 12) _ _ (k0_off438_eq jj) _ _ _)
    apply PiecesOK.cons (pk 1 11 _ (off409_eq L jj k0_h16 1 11) _ _ (k0_off437_eq jj) _ _ _)
    apply PiecesOK.cons (pk 1 10 _ (off409_eq L jj k0_h16 1 10) _ _ (k0_off436_eq jj) _ _ _)
    apply PiecesOK.cons (pk 1 9 _ (off409_eq L jj k0_h16 1 9) _ _ (k0_off435_eq jj) _ _ _)
    apply PiecesOK.cons (pk 1 8 _ (off409_eq L jj k0_h16 1 8) _ _ (k0_off434_eq jj) _ _ _)
    apply PiecesOK.cons (pk 1 7 _ (off409_eq L jj k0_h16 1 7) _ _ (k0_off433_eq jj) _ _ _)
    apply PiecesOK.cons (pk 1 6 _ (off409_eq L jj k0_h16 1 6) _ _ (k0_off432_eq jj) _ _ _)
    apply PiecesOK.cons (pk 1 5 _ (off409_eq L jj k0_h16 1 5) _ _ (k0_off431_eq jj) _ _ _)
    apply PiecesOK.cons (pk 1 4 _ (off409_eq L jj k0_h16 1 4) _ _ (k0_off430_eq jj) _ _ _)
    apply PiecesOK.cons (pk 1 3 _ (off409_eq L jj k0_h16 1 3) _ _ (k0_off429_eq jj) _ _ _)
    apply PiecesOK.cons (pk 1 2 _ (off409_eq L jj k0_h16 1 2) _ _ (k0_off428_eq jj) _ _ _)
    apply PiecesOK.cons (pk 1 1 _ (off409_eq L jj k0_h16 1 1) _ _ (k0_off427_eq jj) _ _ _)
    apply PiecesOK.cons (pk 1 0 _ (off409_eq L jj k0_h16 1 0) _ _ (k0_off426_eq jj) _ _ _)
    apply PiecesOK.cons (pk 0 15 _ (off409_eq L jj k0_h16 0 15) _ _ (k0_off425_eq jj) _ _ _)
    apply PiecesOK.cons (pk 0 14 _ (off409_eq L jj k0_h16 0 14) _ _ (k0_off424_eq jj) _ _ _)
    apply PiecesOK.cons (pk 0 13 _ (off409_eq L jj k0_h16 0 13) _ _ (k0_off423_eq jj) _ _ _)
    apply PiecesOK.cons (pk 0 12 _ (off409_eq L jj k0_h16 0 12) _ _ (k0_off422_eq jj) _ _ _)
    apply PiecesOK.cons (pk 0 11 _ (off409_eq L jj k0_h16 0 11) _ _ (k0_off421_eq jj) _ _ _)
    apply PiecesOK.cons (pk 0 10 _ (off409_eq L jj k0_h16 0 10) _ _ (k0_off420_eq jj) _ _ _)
    apply PiecesOK.cons (pk 0 9 _ (off409_eq L jj k0_h16 0 9) _ _ (k0_off419_eq jj) _ _ _)
    apply PiecesOK.cons (pk 0 8 _ (off409_eq L jj k0_h16 0 8) _ _ (k0_off418_eq jj) _ _ _)
    apply PiecesOK.cons (pk 0 7 _ (off409_eq L jj k0_h16 0 7) _ _ (k0_off417_eq jj) _ _ _)
    apply PiecesOK.cons (pk 0 6 _ (off409_eq L jj k0_h16 0 6) _ _ (k0_off416_eq jj) _ _ _)
    apply PiecesOK.cons (pk 0 5 _ (off409_eq L jj k0_h16 0 5) _ _ (k0_off415_eq jj) _ _ _)
    apply PiecesOK.cons (pk 0 4 _ (off409_eq L jj k0_h16 0 4) _ _ (k0_off414_eq jj) _ _ _)
    apply PiecesOK.cons (pk 0 3 _ (off409_eq L jj k0_h16 0 3) _ _ (k0_off413_eq jj) _ _ _)
    apply PiecesOK.cons (pk 0 2 _ (off409_eq L jj k0_h16 0 2) _ _ (k0_off412_eq jj) _ _ _)
    apply PiecesOK.cons (pk 0 1 _ (off409_eq L jj k0_h16 0 1) _ _ (k0_off411_eq jj) _ _ _)
    apply PiecesOK.cons (pk 0 0 _ (off409_eq L jj k0_h16 0 0) _ _ (k0_off410_eq jj) _ _ _)
    exact PiecesOK.nil
  · unfold rowInv0 slabInv bufRows0
    isplitl [Hk0_part105_2]
    · iexists gk0_part105_0; isplitr
      · ipureintro; exact hk0_part105_1
      · iexact Hk0_part105_2
    · iexists tk0_part105_1; isplitr
      · ipureintro; exact Cert.Unfold.rowsDone_zero _ _ _
      · iexact Hk0_part105_6_src
  iintro %_ HR
  unfold rowInv0 slabInv bufRows0
  icases HR with ⟨⟨%g', %hg', HG⟩, ⟨%t, %ht, HT0⟩⟩
  ihave HN0' := (Entails.of_eq (pts_last1 (F := F) d L k0_h16 f1).symm) $$ Hk0_part105_4
  sl_exec
  sl_step
  have h32 : Scf.trips k0_t11_loop.lb k0_t11_loop.ub k0_t11_loop.st = 32 := trips_t11
  rw [h32] at ht
  have hA : tailSetA L = ∅ := by unfold tailSetA; rw [if_neg hw]
  have hB : tailSetB L = ∅ := by unfold tailSetB; rw [if_neg hw]
  -- the delivered chunks (the last one through the program's own slice) join the landed ones
  ihave HL0 := (Entails.of_eq (landed_pts1 (F := F) d L 0 19 (by omega) (by omega) x1 _ _ hk0_part105_5)) $$ Hk0_part105_6_dst
  ihave HL1 := (Entails.of_eq (landed_pts1 (F := F) d L 1 19 (by omega) (by omega) x1 _ _ hk0_part105_9)) $$ Hk0_part105_10_dst
  ihave HL2 := (Entails.of_eq (landed_pts1 (F := F) d L 2 19 (by omega) (by omega) x1 _ _ hk0_part105_13)) $$ Hk0_part105_14_dst
  ihave HD0 := (Entails.of_eq (done_step (fun j => (o1Loc d ↦[chunkSet L 0 j]{fullShare} pat1 d x1 : sProp 𝕄)) 19)) $$ [Hk0_part105_3 HL0]
  · isplitl [Hk0_part105_3]; · iexact Hk0_part105_3
    iexact HL0
  ihave HD0' := (Entails.of_eq (done_step (fun j => (o1Loc d ↦[chunkSet L 0 j]{fullShare} pat1 d x1 : sProp 𝕄)) 20)) $$ [HD0 HN0']
  · isplitl [HD0]; · iexact HD0
    iapply (Entails.of_eq (last_landed1 (F := F) d L k0_h16 x1 f1 ((b0V).view.read (Elt F) t) ht)); iexact HN0'
  ihave HD1 := (Entails.of_eq (done_step (fun j => (o1Loc d ↦[chunkSet L 1 j]{fullShare} pat1 d x1 : sProp 𝕄)) 19)) $$ [Hk0_part105_7 HL1]
  · isplitl [Hk0_part105_7]; · iexact Hk0_part105_7
    iexact HL1
  ihave HD2 := (Entails.of_eq (done_step (fun j => (o1Loc d ↦[chunkSet L 2 j]{fullShare} pat1 d x1 : sProp 𝕄)) 19)) $$ [Hk0_part105_11 HL2]
  · isplitl [Hk0_part105_11]; · iexact Hk0_part105_11
    iexact HL2
  -- no tail on this tile: the two tail pieces are empty
  ihave HTA2 := (Entails.of_eq (pointsTo_congr (ℓ := o1Loc d) (I := tailSetA L) (q := fullShare) (f := f1) (g := pat1 d x1)
    (fun i hi => absurd hi (by rw [hA]; exact Finset.notMem_empty i)))) $$ HBTA
  ihave HTB2 := (Entails.of_eq (pointsTo_congr (ℓ := o1Loc d) (I := tailSetB L) (q := fullShare) (f := f1) (g := pat1 d x1)
    (fun i hi => absurd hi (by rw [hB]; exact Finset.notMem_empty i)))) $$ HBTB
  isplitl [Hk0_part104_0]; · iexact Hk0_part104_0
  isplitl [Hk0_part105_0]; · iexact Hk0_part105_0
  -- the first result's rows, joined
  isplitl [Hk0_part104_2 Hk0_part104_3 Hk0_part104_4 Hk0_part104_5 Hk0_part104_6]
  · iapply (Entails.of_eq ((tile_split0 (F := F) d L (pat0 d x0)).trans (congrArg (fun P => iprop(P ∗ (o0Loc d ↦[tailSetA L]{fullShare} pat0 d x0) ∗ (o0Loc d ↦[tailSetB L]{fullShare} pat0 d x0))) (bigSep_range3 _))).symm)
    isplitl [Hk0_part104_2 Hk0_part104_3 Hk0_part104_4]
    · isplitl [Hk0_part104_2]; · iexact Hk0_part104_2
      isplitl [Hk0_part104_3]; · iexact Hk0_part104_3
      iexact Hk0_part104_4
    isplitl [Hk0_part104_5]; · iexact Hk0_part104_5
    iexact Hk0_part104_6
  -- the second result's rows, joined
  isplitl [HD0' HD1 HD2 HTA2 HTB2]
  · iapply (Entails.of_eq ((tile_split1 (F := F) d L (pat1 d x1)).trans (congrArg (fun P => iprop(P ∗ (o1Loc d ↦[tailSetA L]{fullShare} pat1 d x1) ∗ (o1Loc d ↦[tailSetB L]{fullShare} pat1 d x1))) (bigSep_range3 _))).symm)
    rw [n0, n1, n2]
    isplitl [HD0' HD1 HD2]
    · isplitl [HD0']; · iexact HD0'
      isplitl [HD1]; · iexact HD1
      iexact HD2
    isplitl [HTA2]; · iexact HTA2
    iexact HTB2
  isplitl [HG]; · iexists _; iexact HG
  isplitl [HT0]; · iexists _; iexact HT0
  isplitl [Hk0_part105_10_src]; · iexists _; iexact Hk0_part105_10_src
  isplitl [Hk0_part105_14_src]; · iexists _; iexact Hk0_part105_14_src
  -- the thirteen semaphores, all at zero again
  isplitl [Hk0_part105_6 Hk0_part105_10 Hk0_part105_14 Hc3 Hc4 Hk0_part104_13 Hk0_part104_14 Hk0_part104_15 Hk0_part105_15 Hk0_part105_16 Hk0_part105_17 Hc11 Hc12]
  · isplitl [Hk0_part105_6]; · iexact Hk0_part105_6
    isplitl [Hk0_part105_10]; · iexact Hk0_part105_10
    isplitl [Hk0_part105_14]; · iexact Hk0_part105_14
    isplitl [Hc3]; · iexact Hc3
    isplitl [Hc4]; · iexact Hc4
    isplitl [Hk0_part104_13]; · iexact Hk0_part104_13
    isplitl [Hk0_part104_14]; · iexact Hk0_part104_14
    isplitl [Hk0_part104_15]; · iexact Hk0_part104_15
    isplitl [Hk0_part105_15]; · iexact Hk0_part105_15
    isplitl [Hk0_part105_16]; · iexact Hk0_part105_16
    isplitl [Hk0_part105_17]; · iexact Hk0_part105_17
    isplitl [Hc11]; · iexact Hc11
    iexact Hc12
  iexists _; iexact Hk0_part105_18

/-- The task on any tile. -/

theorem tile_run (O : CellTallies nD τ sig (HIx 1)) (W : Waits sig (HIx 1))
    (x0 : Buf (Elt F) (x0Loc d)) (x1 : Buf (Elt F) (x1Loc d)) (f0 : Buf (Elt F) (o0Loc d)) (f1 : Buf (Elt F) (o1Loc d))
    (g0 : Buf (Elt F) ((slabV).view.loc (VT d L))) (t0 : Buf (Elt F) ((b0V).view.loc (VT d L)))
    (t1 : Buf (Elt F) ((b1V).view.loc (VT d L))) (t2 : Buf (Elt F) ((b2V).view.loc (VT d L))) :
    (iprop(Transfers.MayWaits (VT d L) (default : HIx 1) O
        ∗ ((x0V).view.loc (VT d L) ↦{tileShare (L 0).val (L 1).val} x0)
        ∗ ((x1V).view.loc (VT d L) ↦{tileShare (L 0).val (L 1).val} x1)
        ∗ ((o0V).view.loc (VT d L) ↦[tileSet L]{fullShare} f0)
        ∗ ((o1V).view.loc (VT d L) ↦[tileSet L]{fullShare} f1)
        ∗ ((slabV).view.loc (VT d L) ↦[(slabV).view.set]{fullShare} g0)
        ∗ ((b0V).view.loc (VT d L) ↦[(b0V).view.set]{fullShare} t0)
        ∗ ((b1V).view.loc (VT d L) ↦[(b1V).view.set]{fullShare} t1)
        ∗ ((b2V).view.loc (VT d L) ↦[(b2V).view.set]{fullShare} t2)
        ∗ cells0 d L
        ∗ owes (VT d L) O W) : sProp 𝕄)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(((x0V).view.loc (VT d L) ↦{tileShare (L 0).val (L 1).val} x0)
            ∗ ((x1V).view.loc (VT d L) ↦{tileShare (L 0).val (L 1).val} x1)
            ∗ ((o0V).view.loc (VT d L) ↦[tileSet L]{fullShare} pat0 d x0)
            ∗ ((o1V).view.loc (VT d L) ↦[tileSet L]{fullShare} pat1 d x1)
            ∗ (∃ g, (slabV).view.loc (VT d L) ↦[(slabV).view.set]{fullShare} g)
            ∗ (∃ t, (b0V).view.loc (VT d L) ↦[(b0V).view.set]{fullShare} t)
            ∗ (∃ t, (b1V).view.loc (VT d L) ↦[(b1V).view.set]{fullShare} t)
            ∗ (∃ t, (b2V).view.loc (VT d L) ↦[(b2V).view.set]{fullShare} t)
            ∗ cells0 d L
            ∗ ∃ W', owes (VT d L) O W') := by
  by_cases hw : wid L = 31
  · exact tile_run_last d L hw O W x0 x1 f0 f1 g0 t0 t1 t2
  · exact tile_run_other d L hw O W x0 x1 f0 f1 g0 t0 t1 t2

end Cert.Proof.KB

end
-- ==== Proof.BodyBits.lean ====
/-
  One tile's task, at a symbolic tile: from its share of the two images and its rows of the two results, the task
  ends with those rows holding the images' patches.
-/
import proofs.«212940_g32057635897708_cont_8to1_b_1299_25_alg».proof.Proof.TileRunBits

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable [FloatOps F]

/-! ## The tile's semaphores and buffers among the subcore's own -/

section Own

variable (d : Dev nD) (L : grid0.Coords)

/-- DMA semaphore `k` of subcore `i` of core `c`, as a cell of the machine. -/
abbrev dcell (d : Dev nD) (c : Fin τ.nSC) (i : Fin τ.nSub) (k : Fin 13) : GSem nD τ sig := (V d c i, .dma (csem k.val k.isLt))

omit [FloatOps F] in
/-- Every DMA semaphore of a vector subcore is scoped, so each of the thirteen is one of the subcore's own cells. -/
theorem dcell_mem (c : Fin τ.nSC) (i : Fin τ.nSub) (k : Fin 13) : dcell d c i k ∈ ownCells (V d c i) :=
  mem_ownCells.mpr ⟨rfl, (show ∀ s : DmaSem sig, (SemLoc.dma s : SemLoc sig).isScoped .scVector = true by decide) _⟩

omit [FloatOps F] in
theorem dcell_inj (c : Fin τ.nSC) (i : Fin τ.nSub) : Function.Injective (dcell d c i) := by
  intro a b h
  have := congrArg (fun g : GSem nD τ sig => g.2) h
  simp only [SemLoc.dma.injEq, Fin.mk.injEq] at this
  exact Fin.ext this

omit [FloatOps F] in
/-- The subcore's own cells at zero are the thirteen the task names, one by one, and the others. -/
theorem ownSems0_V :
    (ownSems0 (VT d L) : sProp 𝕄)
      = iprop(cells0 (F := F) d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => dcell_inj d (cV L) (jV L) h)]
  rw [show (Finset.univ : Finset (Fin 13)) = {0, 1, 2, 3, 4, 5, 6, 7, 8, 9, 10, 11, 12} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]
  rfl

/-- The subcore as a processor, and its four scratch buffers as buffers of the device. -/
abbrev pV (L : grid0.Coords) : Proc τ := Proc.scVector (cV L) (jV L)
abbrev sref0 (L : grid0.Coords) : DevRef τ sig := (pV L).devRef cc0_scratch0
abbrev sref1 (L : grid0.Coords) : DevRef τ sig := (pV L).devRef cc0_scratch1
abbrev sref2 (L : grid0.Coords) : DevRef τ sig := (pV L).devRef cc0_scratch2
abbrev sref3 (L : grid0.Coords) : DevRef τ sig := (pV L).devRef cc0_scratch3

/-- The subcore's own buffers other than the four. -/
abbrev restRefs (L : grid0.Coords) : Finset (DevRef τ sig) :=
  ((((ownRefs (τ := τ) (sig := sig) (pV L)).erase (sref0 L)).erase (sref1 L)).erase (sref2 L)).erase (sref3 L)

omit [FloatOps F] in
theorem ref_ne {a b : Ref sig .scVector} (h : a ≠ b) : (pV L).devRef a ≠ (pV L).devRef b :=
  fun e => h (Proc.devRef_injective _ e)

omit [FloatOps F] in
/-- The slab and the three staging buffers are among the subcore's own buffers: they are these four, each at some
    contents, and the others. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (restRefs L) fun b => iprop(∃ f, ((d, b) : Loc nD τ sig) ↦{fullShare} f)) := by
  have m0 : sref0 L ∈ ownRefs (τ := τ) (sig := sig) (pV L) := SparseCore.Cfg.mem_ownRefs_of_owner (p := pV L) (b := sref0 L) rfl
  have m1 : sref1 L ∈ ownRefs (τ := τ) (sig := sig) (pV L) := SparseCore.Cfg.mem_ownRefs_of_owner (p := pV L) (b := sref1 L) rfl
  have m2 : sref2 L ∈ ownRefs (τ := τ) (sig := sig) (pV L) := SparseCore.Cfg.mem_ownRefs_of_owner (p := pV L) (b := sref2 L) rfl
  have m3 : sref3 L ∈ ownRefs (τ := τ) (sig := sig) (pV L) := SparseCore.Cfg.mem_ownRefs_of_owner (p := pV L) (b := sref3 L) rfl
  have e1 : sref1 L ∈ (ownRefs (τ := τ) (sig := sig) (pV L)).erase (sref0 L) :=
    Finset.mem_erase.mpr ⟨ref_ne L (by decide), m1⟩
  have e2 : sref2 L ∈ ((ownRefs (τ := τ) (sig := sig) (pV L)).erase (sref0 L)).erase (sref1 L) :=
    Finset.mem_erase.mpr ⟨ref_ne L (by decide), Finset.mem_erase.mpr ⟨ref_ne L (by decide), m2⟩⟩
  have e3 : sref3 L ∈ (((ownRefs (τ := τ) (sig := sig) (pV L)).erase (sref0 L)).erase (sref1 L)).erase (sref2 L) :=
    Finset.mem_erase.mpr ⟨ref_ne L (by decide), Finset.mem_erase.mpr ⟨ref_ne L (by decide), Finset.mem_erase.mpr ⟨ref_ne L (by decide), m3⟩⟩⟩
  unfold SparseCore.Cfg.ownBufs
  refine (SparseCore.bigSep_erase' m0).trans ?_
  rw [SparseCore.bigSep_erase' e1, SparseCore.bigSep_erase' e2, SparseCore.bigSep_erase' e3]

/-! ## The launch's spelling of the pieces against the kernel function's -/

omit [FloatOps F] in
theorem pts_slab (f : Buf (Elt F) ((VT d L).loc cc0_scratch0)) :
    ((slabV).view.loc (VT d L) ↦[(slabV).view.set]{fullShare} f : sProp 𝕄) = (VT d L).loc cc0_scratch0 ↦{fullShare} f := by
  rw [View.set_whole]
omit [FloatOps F] in
theorem pts_b0 (f : Buf (Elt F) ((VT d L).loc cc0_scratch1)) :
    ((b0V).view.loc (VT d L) ↦[(b0V).view.set]{fullShare} f : sProp 𝕄) = (VT d L).loc cc0_scratch1 ↦{fullShare} f := by
  rw [View.set_whole]
omit [FloatOps F] in
theorem pts_b1 (f : Buf (Elt F) ((VT d L).loc cc0_scratch2)) :
    ((b1V).view.loc (VT d L) ↦[(b1V).view.set]{fullShare} f : sProp 𝕄) = (VT d L).loc cc0_scratch2 ↦{fullShare} f := by
  rw [View.set_whole]
omit [FloatOps F] in
theorem pts_b2 (f : Buf (Elt F) ((VT d L).loc cc0_scratch3)) :
    ((b2V).view.loc (VT d L) ↦[(b2V).view.set]{fullShare} f : sProp 𝕄) = (VT d L).loc cc0_scratch3 ↦{fullShare} f := by
  rw [View.set_whole]

omit [FloatOps F] in
/-- An image's share, and a result's rows, read the same in either spelling: the kernel's argument is the whole array. -/
theorem pts_x0 (q : PosShare TreeShare) (f : Buf (Elt F) (x0Loc d)) :
    ((x0V).view.loc (VT d L) ↦{q} f : sProp 𝕄) = x0Loc d ↦{q} f := rfl
omit [FloatOps F] in
theorem pts_x1 (q : PosShare TreeShare) (f : Buf (Elt F) (x1Loc d)) :
    ((x1V).view.loc (VT d L) ↦{q} f : sProp 𝕄) = x1Loc d ↦{q} f := rfl
omit [FloatOps F] in
theorem pts_o0V (f : Buf (Elt F) (o0Loc d)) :
    ((o0V).view.loc (VT d L) ↦[tileSet L]{fullShare} f : sProp 𝕄) = o0Loc d ↦[tileSet L]{fullShare} f := rfl
omit [FloatOps F] in
theorem pts_o1V (f : Buf (Elt F) (o1Loc d)) :
    ((o1V).view.loc (VT d L) ↦[tileSet L]{fullShare} f : sProp 𝕄) = o1Loc d ↦[tileSet L]{fullShare} f := rfl

end Own

/-- The task on the vector subcore at coordinates `L` of device `d`. -/
theorem tile_body (hF : (K (F := F)).Facts) (d : Dev nD) (L : grid0.Coords)
    (x0 : Buf (Elt F) (x0Loc d)) (x1 : Buf (Elt F) (x1Loc d)) (f0 : Buf (Elt F) (o0Loc d)) (f1 : Buf (Elt F) (o1Loc d))
    (O : CellTallies nD τ sig (HIx 1)) (W : Waits sig (HIx 1)) (hO : ∀ g, O g none = 0) :
    iprop(levAts (K (F := F)).L (K (F := F)).lev ∗ emp
        ∗ goRes d L x0 x1 f0 f1
        ∗ scopedBufs (VT d L) ∗ scopedSems0 (VT d L) ∗ owes (VT d L) O W)
      ⊢ wp frame (wpE (defs₀ (F := F)) 𝒱₀ (VT d L) none) Set.univ
          (cc0__body L x0V (Memref.isWhole_whole _) x1V (Memref.isWhole_whole _) o0V (Memref.isWhole_whole _) o1V (Memref.isWhole_whole _)
            slabV (Memref.isWhole_whole _) b0V (Memref.isWhole_whole _) b1V (Memref.isWhole_whole _) b2V (Memref.isWhole_whole _)
            cc0_scratch4 cc0_scratch5 cc0_scratch6 cc0_scoped0 cc0_scoped1 cc0_scoped2 cc0_scoped3 cc0_scoped4 cc0_scoped5 cc0_scoped6 cc0_scoped7 cc0_scoped8 cc0_scoped9)
          fun _ => iprop(tdRes d L x0 x1
            ∗ scopedBufs (VT d L) ∗ scopedSems0 (VT d L)
            ∗ ∃ W', ⌜∀ p ∈ W', p ∈ W ∨ p.2 = none ∨ p.2 = some (0 : Fin 1)⌝ ∗ owes (VT d L) O W') := by
  unfold goRes tdRes
  rw [(K (F := F)).scopedBufs_V hF d (cV L) (jV L), SparseCore.Cfg.scopedSems0_V (Val := Elt F) d (cV L) (jV L),
    ownSems0_V, ownBufs_V]
  iintro ⟨#Hlv, -, ⟨Hx0, Hx1, Ho0, Ho1⟩, ⟨⟨%g0, HG⟩, ⟨%t0, HT0⟩, ⟨%t1, HT1⟩, ⟨%t2, HT2⟩, Hbufs⟩, ⟨HC, Hsems⟩, HO⟩
  -- no wait is owed at the start, so the thread may wait on its transfers
  ihave Hmw := (show levAts (K (F := F)).L (K (F := F)).lev ⊢ Transfers.MayWaits (VT d L) (default : HIx 1) O from
    (K (F := F)).mayWaits_none (thr := VT d L) hO) $$ Hlv
  -- the four scratch buffers held whole, in the kernel function's spelling
  ihave HG' := (Entails.of_eq (pts_slab (F := F) d L _).symm) $$ HG
  ihave HT0' := (Entails.of_eq (pts_b0 (F := F) d L _).symm) $$ HT0
  ihave HT1' := (Entails.of_eq (pts_b1 (F := F) d L _).symm) $$ HT1
  ihave HT2' := (Entails.of_eq (pts_b2 (F := F) d L _).symm) $$ HT2
  iapply (wp_wand_r Idealize.ShloMosaic.frame (wpE (defs₀ (F := F)) 𝒱₀ (VT d L) none) Set.univ)
  isplitl [Hx0 Hx1 Ho0 Ho1 HG' HT0' HT1' HT2' HC HO]
  · iapply (tile_run (F := F) d L O W x0 x1 f0 f1 g0 t0 t1 t2)
    isplitr; · iexact Hmw
    isplitl [Hx0]; · iexact Hx0
    isplitl [Hx1]; · iexact Hx1
    isplitl [Ho0]; · iexact Ho0
    isplitl [Ho1]; · iexact Ho1
    isplitl [HG']; · iexact HG'
    isplitl [HT0']; · iexact HT0'
    isplitl [HT1']; · iexact HT1'
    isplitl [HT2']; · iexact HT2'
    isplitl [HC]; · iexact HC
    iexact HO
  iintro %_ ⟨Hx0, Hx1, Ho0, Ho1, ⟨%g, HG'⟩, ⟨%u0, HT0'⟩, ⟨%u1, HT1'⟩, ⟨%u2, HT2'⟩, HC, ⟨%W', HO⟩⟩
  -- the images' shares and the rows, now at the patches, go back as they are
  isplitl [Hx0 Hx1 Ho0 Ho1]
  · isplitl [Hx0]; · iexact Hx0
    isplitl [Hx1]; · iexact Hx1
    isplitl [Ho0]; · iexact Ho0
    iexact Ho1
  -- the scratch buffers at whatever they hold now, with the subcore's other buffers
  isplitl [HG' HT0' HT1' HT2' Hbufs]
  · isplitl [HG']; · iexists _; iapply (Entails.of_eq (pts_slab (F := F) d L _)); iexact HG'
    isplitl [HT0']; · iexists _; iapply (Entails.of_eq (pts_b0 (F := F) d L _)); iexact HT0'
    isplitl [HT1']; · iexists _; iapply (Entails.of_eq (pts_b1 (F := F) d L _)); iexact HT1'
    isplitl [HT2']; · iexists _; iapply (Entails.of_eq (pts_b2 (F := F) d L _)); iexact HT2'
    iexact Hbufs
  -- the thirteen semaphores back at zero, with the subcore's other cells
  isplitl [HC Hsems]
  · isplitl [HC]; · iexact HC
    iexact Hsems
  -- the index type has one element, so a wait's index is none or 0
  iexists W'; isplitr
  · ipureintro; intro p _
    rcases p.2 with _ | q
    · exact .inr (.inl rfl)
    · exact .inr (.inr (congrArg some (Subsingleton.elim q 0)))
  · iexact HO

end Cert.Proof.KB

end
-- ==== Proof.LaunchBits.lean ====
/-
  The launch: what the one SparseCore call hands its two cores and their thirty-two tiles, how the two results split
  into the tiles' runs of rows and join again, @main on the TensorCore (two reshapes, then the call), and the
  program's run: both results end as the patches matrices of the two images, the images unchanged.
-/
import proofs.«212940_g32057635897708_cont_8to1_b_1299_25_alg».proof.Proof.BodyBits
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "x0V" => (Memref.whole Cert.Kernel.main_v0_scv : Memref Cert.Kernel.sig Kind.scVector Space.hbm Cert.Kernel.S786432 EltTy.f32)
local notation "x1V" => (Memref.whole Cert.Kernel.main_v1_scv : Memref Cert.Kernel.sig Kind.scVector Space.hbm Cert.Kernel.S786432 EltTy.f32)
local notation "o0V" => (Memref.whole Cert.Kernel.main_v2_0_scv : Memref Cert.Kernel.sig Kind.scVector Space.hbm Cert.Kernel.S62001x768 EltTy.f32)
local notation "o1V" => (Memref.whole Cert.Kernel.main_v2_1_scv : Memref Cert.Kernel.sig Kind.scVector Space.hbm Cert.Kernel.S62001x768 EltTy.f32)
local notation "slabV" => (Memref.whole Cert.Kernel.cc0_scratch0 : Memref Cert.Kernel.sig Kind.scVector Space.vmem Cert.Kernel.S49152 EltTy.f32)
local notation "b0V" => (Memref.whole Cert.Kernel.cc0_scratch1 : Memref Cert.Kernel.sig Kind.scVector Space.vmem Cert.Kernel.S32x768 EltTy.f32)
local notation "b1V" => (Memref.whole Cert.Kernel.cc0_scratch2 : Memref Cert.Kernel.sig Kind.scVector Space.vmem Cert.Kernel.S32x768 EltTy.f32)
local notation "b2V" => (Memref.whole Cert.Kernel.cc0_scratch3 : Memref Cert.Kernel.sig Kind.scVector Space.vmem Cert.Kernel.S32x768 EltTy.f32)

variable (m : (ℓ : Loc nD τ sig) → Buf (Elt F) ℓ) (ρ : Dev nD → PrngReg)

/-! ## The flattened images -/

/-- The contents of the two flattenings after @main's reshapes: the images read row-major. -/
def X0 (d : Dev nD) : Buf (Elt F) (x0Loc d) :=
  shapeCast S786432 (m (a0Loc d) : S1x3x512x512.Idx → Elt F .f32) shapeCasts_S1x3x512x512_S786432
def X1 (d : Dev nD) : Buf (Elt F) (x1Loc d) :=
  shapeCast S786432 (m (a1Loc d) : S1x3x512x512.Idx → Elt F .f32) shapeCasts_S1x3x512x512_S786432

/-- A reshape of the image to one axis reads it row-major: position `262144·c + 512·row + col`. -/
theorem rowMajor_flat {α : Type} (x : S1x3x512x512.Idx → α) (hc : S1x3x512x512.ShapeCasts S786432)
    (k : Cert.Unfold.SFlat.Idx) (i : Cert.Unfold.SImg.Idx)
    (h : (k 0).val = 262144 * (i 1).val + 512 * (i 2).val + (i 3).val) :
    shapeCast S786432 x hc k = x i := by
  refine shapeCast_apply x hc k i ?_
  rw [Shape.rowMajor_val_four, Shape.rowMajor_val_one]
  have h0 : (i 0).val = 0 := by have := (i 0).isLt; change (i 0).val < 1 at this; omega
  show (((i 0).val * 3 + (i 1).val) * 512 + (i 2).val) * 512 + (i 3).val = (k 0).val
  omega

theorem X0_rowMajor (d : Dev nD) (k : Cert.Unfold.SFlat.Idx) (i : Cert.Unfold.SImg.Idx)
    (h : (k 0).val = 262144 * (i 1).val + 512 * (i 2).val + (i 3).val) :
    (X0 m d : Cert.Unfold.SFlat.Idx → Elt F .f32) k = (m (a0Loc d) : Cert.Unfold.SImg.Idx → Elt F .f32) i :=
  rowMajor_flat (m (a0Loc d) : S1x3x512x512.Idx → Elt F .f32) shapeCasts_S1x3x512x512_S786432 k i h

theorem X1_rowMajor (d : Dev nD) (k : Cert.Unfold.SFlat.Idx) (i : Cert.Unfold.SImg.Idx)
    (h : (k 0).val = 262144 * (i 1).val + 512 * (i 2).val + (i 3).val) :
    (X1 m d : Cert.Unfold.SFlat.Idx → Elt F .f32) k = (m (a1Loc d) : Cert.Unfold.SImg.Idx → Elt F .f32) i :=
  rowMajor_flat (m (a1Loc d) : S1x3x512x512.Idx → Elt F .f32) shapeCasts_S1x3x512x512_S786432 k i h

theorem pat0_X0 (d : Dev nD) : pat0 d (X0 m d) = Cert.Unfold.patches (α := Elt F .f32) (m (a0Loc d)) :=
  Cert.Unfold.patchesFlat_of_rowMajor (α := Elt F .f32) (m (a0Loc d)) (X0 m d) fun k i h => X0_rowMajor m d k i h
theorem pat1_X1 (d : Dev nD) : pat1 d (X1 m d) = Cert.Unfold.patches (α := Elt F .f32) (m (a1Loc d)) :=
  Cert.Unfold.patchesFlat_of_rowMajor (α := Elt F .f32) (m (a1Loc d)) (X1 m d) fun k i h => X1_rowMajor m d k i h

/-! ## The tiles' rows: pairwise disjoint, together the whole matrix -/

theorem wid_coordsV (c : Fin (grid0.bound 0)) (s : Fin (grid0.bound 1)) : wid (coordsV c s) = 2 * s.val + c.val := rfl

/-- Distinct tiles own disjoint runs of rows. -/
theorem tiles_disjoint : ∀ p ∈ (Finset.univ : Finset (Fin (grid0.bound 0) × Fin (grid0.bound 1))), ∀ p' ∈ (Finset.univ : Finset (Fin (grid0.bound 0) × Fin (grid0.bound 1))),
    p ≠ p' → Disjoint (tileSet (coordsV p.1 p.2)) (tileSet (coordsV p'.1 p'.2)) := by
  intro p _ p' _ hne
  have hc : p.1.val < 2 := p.1.isLt
  have hc' : p'.1.val < 2 := p'.1.isLt
  have hs : p.2.val < 16 := p.2.isLt
  have hs' : p'.2.val < 16 := p'.2.isLt
  have hw : wid (coordsV p.1 p.2) ≠ wid (coordsV p'.1 p'.2) := by
    rw [wid_coordsV, wid_coordsV]
    intro e
    apply hne
    have h1 : p.1.val = p'.1.val := by omega
    have h2 : p.2.val = p'.2.val := by omega
    exact Prod.ext (Fin.ext h1) (Fin.ext h2)
  refine Rect.unit_disjoint (s := S62001x768) (0 : Fin 2) ?_
  show wbase (coordsV p.1 p.2) + nrows (coordsV p.1 p.2) ≤ wbase (coordsV p'.1 p'.2) ∨ wbase (coordsV p'.1 p'.2) + nrows (coordsV p'.1 p'.2) ≤ wbase (coordsV p.1 p.2)
  have hn : ∀ L : grid0.Coords, nrows L ≤ 1952 := fun L => by unfold nrows; split <;> omega
  have := hn (coordsV p.1 p.2); have := hn (coordsV p'.1 p'.2)
  unfold wbase
  omega

/-- Every row of the matrix lies in the run of the tile numbered by its quotient by 1952. -/
theorem tiles_cover : (Finset.univ : Finset (Fin (grid0.bound 0) × Fin (grid0.bound 1))).biUnion (fun p => tileSet (coordsV p.1 p.2)) = Finset.univ := by
  refine Finset.eq_univ_of_forall fun x => Finset.mem_biUnion.mpr ?_
  have h0 : (x 0).val < 62001 := (x 0).isLt
  have h1 : (x 1).val < 768 := (x 1).isLt
  have hw : (x 0).val / 1952 < 32 := by omega
  refine ⟨(⟨((x 0).val / 1952) % 2, Nat.mod_lt _ (by decide)⟩, ⟨((x 0).val / 1952) / 2, by show _ < 16; omega⟩), Finset.mem_univ _, ?_⟩
  rw [Rect.mem_set_unit]
  have hwid : wid (coordsV (⟨((x 0).val / 1952) % 2, Nat.mod_lt _ (by decide)⟩ : Fin (grid0.bound 0)) (⟨((x 0).val / 1952) / 2, by show _ < 16; omega⟩ : Fin (grid0.bound 1))) = (x 0).val / 1952 := by
    rw [wid_coordsV]; show 2 * (((x 0).val / 1952) / 2) + ((x 0).val / 1952) % 2 = _; omega
  intro a
  match a with
  | ⟨0, _⟩ =>
    show wbase _ ≤ (x 0).val ∧ (x 0).val < wbase _ + nrows _
    unfold wbase nrows
    rw [hwid]
    split <;> omega
  | ⟨1, _⟩ =>
    show 0 ≤ (x 1).val ∧ (x 1).val < 0 + 768
    omega

/-! ## Sums over the first naturals; a read share as its tokens -/

theorem bigSep_range_fin (n : ℕ) (Φ : ℕ → sProp 𝕄) :
    bigSep (Finset.range n) Φ = bigSep (Finset.univ : Finset (Fin n)) fun i => Φ i.val := by
  have e : Finset.range n = (Finset.univ : Finset (Fin n)).map Fin.valEmbedding := by
    ext k
    simp only [Finset.mem_range, Finset.mem_map, Finset.mem_univ, true_and, Fin.valEmbedding_apply]
    exact ⟨fun h => ⟨⟨k, h⟩, rfl⟩, fun ⟨i, hi⟩ => hi ▸ i.isLt⟩
  rw [e, BI.bigSep_map]; rfl

/-- A points-to at a share is what remains after `n` read tokens, and the tokens. -/
theorem share_split {ℓ : Loc nD τ sig} (q : PosShare TreeShare) (n : ℕ) (f : Buf (Elt F) ℓ) :
    (ℓ ↦{q} f : sProp 𝕄) ⊣⊢ iprop((ℓ ↦{Transfers.shareDrop q n} f) ∗ bigSep (Finset.univ : Finset (Fin n)) fun i => ℓ ↦{Transfers.shareTokN q i.val} f) := by
  have h : (ℓ ↦{q} f : sProp 𝕄) ⊣⊢ iprop((ℓ ↦{Transfers.shareDrop q n} f) ∗ bigSep (Finset.range n) fun i => ℓ ↦{Transfers.shareTokN q i} f) :=
    Transfers.pointsTo_toks_range (ℓ := ℓ) (S := Finset.univ) (f := f) q n
  rw [bigSep_range_fin] at h
  exact h

/-- A result array whole is its thirty-two tiles' runs of rows, grouped by core. -/
theorem o0_tiles (d : Dev nD) (f : Buf (Elt F) (o0Loc d)) :
    (o0Loc d ↦{fullShare} f : sProp 𝕄)
      = bigSep Finset.univ fun c : Fin (grid0.bound 0) => bigSep Finset.univ fun s : Fin (grid0.bound 1) => o0Loc d ↦[tileSet (coordsV c s)]{fullShare} f := by
  rw [show (o0Loc d ↦{fullShare} f : sProp 𝕄)
      = bigSep Finset.univ fun p : Fin (grid0.bound 0) × Fin (grid0.bound 1) => o0Loc d ↦[tileSet (coordsV p.1 p.2)]{fullShare} f from by
    rw [← pointsTo_biUnion Finset.univ (ℓ := o0Loc d) (fun p : Fin (grid0.bound 0) × Fin (grid0.bound 1) => tileSet (coordsV p.1 p.2)) tiles_disjoint, tiles_cover]
    try rfl,
    BI.bigSep_univ_prod]
  try rfl
theorem o1_tiles (d : Dev nD) (f : Buf (Elt F) (o1Loc d)) :
    (o1Loc d ↦{fullShare} f : sProp 𝕄)
      = bigSep Finset.univ fun c : Fin (grid0.bound 0) => bigSep Finset.univ fun s : Fin (grid0.bound 1) => o1Loc d ↦[tileSet (coordsV c s)]{fullShare} f := by
  rw [show (o1Loc d ↦{fullShare} f : sProp 𝕄)
      = bigSep Finset.univ fun p : Fin (grid0.bound 0) × Fin (grid0.bound 1) => o1Loc d ↦[tileSet (coordsV p.1 p.2)]{fullShare} f from by
    rw [← pointsTo_biUnion Finset.univ (ℓ := o1Loc d) (fun p : Fin (grid0.bound 0) × Fin (grid0.bound 1) => tileSet (coordsV p.1 p.2)) tiles_disjoint, tiles_cover]
    try rfl,
    BI.bigSep_univ_prod]
  try rfl

variable [FloatOps F]

/-! ## What the handshakes carry -/

/-- A core's part: its read share of the two flattened images, and its sixteen tiles' rows of the two results. -/
def coreRes (d : Dev nD) (c : Fin (grid0.bound 0)) (x0 : Buf (Elt F) (x0Loc d)) (x1 : Buf (Elt F) (x1Loc d))
    (f0 : Buf (Elt F) (o0Loc d)) (f1 : Buf (Elt F) (o1Loc d)) : sProp 𝕄 :=
  iprop((x0Loc d ↦{coreShare c.val} x0) ∗ (x1Loc d ↦{coreShare c.val} x1)
    ∗ (bigSep Finset.univ fun s : Fin (grid0.bound 1) => o0Loc d ↦[tileSet (coordsV c s)]{fullShare} f0)
    ∗ (bigSep Finset.univ fun s : Fin (grid0.bound 1) => o1Loc d ↦[tileSet (coordsV c s)]{fullShare} f1))

/-- The one call hands each core its share of the flattened images and its tiles' rows of the results (at the launch
    contents) and takes them back with the rows at the patches; each tile the same of its own rows. -/
def P : (K (F := F)).Pay (nD := nD) (Val := Elt F) (Name := ℕ) (U := UU) where
  st := fun q d c => match q with | 0 => coreRes d ⟨c.val, c.isLt⟩ (X0 m d) (X1 m d) (m (o0Loc d)) (m (o1Loc d))
  dn := fun q d c => match q with | 0 => coreRes d ⟨c.val, c.isLt⟩ (X0 m d) (X1 m d) (pat0 d (X0 m d)) (pat1 d (X1 m d))
  go := fun q d c i => match q with
    | 0 => goRes d (coordsV ⟨c.val, c.isLt⟩ ⟨i.val, i.isLt⟩) (X0 m d) (X1 m d) (m (o0Loc d)) (m (o1Loc d))
  td := fun q d c i => match q with
    | 0 => tdRes d (coordsV ⟨c.val, c.isLt⟩ ⟨i.val, i.isLt⟩) (X0 m d) (X1 m d)
  x := fun _ _ => iprop(emp)

instance coreRes_storable (d : Dev nD) (c : Fin (grid0.bound 0)) (x0 : Buf (Elt F) (x0Loc d)) (x1 : Buf (Elt F) (x1Loc d))
    (f0 : Buf (Elt F) (o0Loc d)) (f1 : Buf (Elt F) (o1Loc d)) : BI.Storable (upEmb : UEmb _ 𝕄) (coreRes d c x0 x1 f0 f1) := by
  unfold coreRes; infer_instance
instance goRes_storable (d : Dev nD) (L : grid0.Coords) (x0 : Buf (Elt F) (x0Loc d)) (x1 : Buf (Elt F) (x1Loc d))
    (f0 : Buf (Elt F) (o0Loc d)) (f1 : Buf (Elt F) (o1Loc d)) : BI.Storable (upEmb : UEmb _ 𝕄) (goRes d L x0 x1 f0 f1) := by
  unfold goRes; infer_instance
instance tdRes_storable (d : Dev nD) (L : grid0.Coords) (x0 : Buf (Elt F) (x0Loc d)) (x1 : Buf (Elt F) (x1Loc d)) :
    BI.Storable (upEmb : UEmb _ 𝕄) (tdRes d L x0 x1) := by
  unfold tdRes; infer_instance

instance P_storable : (P (F := F) m).IsStorable where
  st q d c := match q with
    | 0 => (inferInstance : BI.Storable (upEmb : UEmb _ 𝕄) (coreRes d ⟨c.val, c.isLt⟩ (X0 m d) (X1 m d) (m (o0Loc d)) (m (o1Loc d))))
  dn q d c := match q with
    | 0 => (inferInstance : BI.Storable (upEmb : UEmb _ 𝕄) (coreRes d ⟨c.val, c.isLt⟩ (X0 m d) (X1 m d) (pat0 d (X0 m d)) (pat1 d (X1 m d))))
  go q d c i := match q with
    | 0 => (inferInstance : BI.Storable (upEmb : UEmb _ 𝕄) (goRes d (coordsV ⟨c.val, c.isLt⟩ ⟨i.val, i.isLt⟩) (X0 m d) (X1 m d) (m (o0Loc d)) (m (o1Loc d))))
  td q d c i := match q with
    | 0 => (inferInstance : BI.Storable (upEmb : UEmb _ 𝕄) (tdRes d (coordsV ⟨c.val, c.isLt⟩ ⟨i.val, i.isLt⟩) (X0 m d) (X1 m d)))

/-! ## The obligation -/

theorem defs₀_vector (c : Fin τ.nSC) (s : Fin τ.nSub) :
    defs₀ (F := F) (.scVector c s) 0 ()
      = SparseCore.onTile hcore0 hsub0 (fun c s => cc0__body (coordsV c s)
          x0V (Memref.isWhole_whole _) x1V (Memref.isWhole_whole _) o0V (Memref.isWhole_whole _) o1V (Memref.isWhole_whole _)
          slabV (Memref.isWhole_whole _) b0V (Memref.isWhole_whole _) b1V (Memref.isWhole_whole _) b2V (Memref.isWhole_whole _)
          cc0_scratch4 cc0_scratch5 cc0_scratch6 cc0_scoped0 cc0_scoped1 cc0_scoped2 cc0_scoped3 cc0_scoped4 cc0_scoped5 cc0_scoped6 cc0_scoped7 cc0_scoped8 cc0_scoped9) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body hF d (coordsV ⟨_, hci.1⟩ ⟨_, hci.2⟩) (X0 m d) (X1 m d) (m (o0Loc d)) (m (o1Loc d)) O W hO

/-! ## The split among a core's tiles -/

/-- What a core's tiles are handed, and what they hand back, grouped by array. -/
theorem go_eq (d : Dev nD) (c : Fin (grid0.bound 0)) (x0 : Buf (Elt F) (x0Loc d)) (x1 : Buf (Elt F) (x1Loc d))
    (f0 : Buf (Elt F) (o0Loc d)) (f1 : Buf (Elt F) (o1Loc d)) :
    (bigSep Finset.univ fun s : Fin (grid0.bound 1) => goRes d (coordsV c s) x0 x1 f0 f1)
      = (iprop((bigSep Finset.univ fun s : Fin (grid0.bound 1) => x0Loc d ↦{Transfers.shareTokN (coreShare c.val) s.val} x0)
        ∗ (bigSep Finset.univ fun s : Fin (grid0.bound 1) => x1Loc d ↦{Transfers.shareTokN (coreShare c.val) s.val} x1)
        ∗ (bigSep Finset.univ fun s : Fin (grid0.bound 1) => o0Loc d ↦[tileSet (coordsV c s)]{fullShare} f0)
        ∗ (bigSep Finset.univ fun s : Fin (grid0.bound 1) => o1Loc d ↦[tileSet (coordsV c s)]{fullShare} f1)) : sProp 𝕄) := by
  unfold goRes
  rw [bigSep_sep', bigSep_sep', bigSep_sep']
  rfl
theorem td_eq (d : Dev nD) (c : Fin (grid0.bound 0)) (x0 : Buf (Elt F) (x0Loc d)) (x1 : Buf (Elt F) (x1Loc d)) :
    (bigSep Finset.univ fun s : Fin (grid0.bound 1) => tdRes d (coordsV c s) x0 x1)
      = (iprop((bigSep Finset.univ fun s : Fin (grid0.bound 1) => x0Loc d ↦{Transfers.shareTokN (coreShare c.val) s.val} x0)
        ∗ (bigSep Finset.univ fun s : Fin (grid0.bound 1) => x1Loc d ↦{Transfers.shareTokN (coreShare c.val) s.val} x1)
        ∗ (bigSep Finset.univ fun s : Fin (grid0.bound 1) => o0Loc d ↦[tileSet (coordsV c s)]{fullShare} pat0 d x0)
        ∗ (bigSep Finset.univ fun s : Fin (grid0.bound 1) => o1Loc d ↦[tileSet (coordsV c s)]{fullShare} pat1 d x1)) : sProp 𝕄) := by
  unfold tdRes
  rw [bigSep_sep', bigSep_sep', bigSep_sep']
  rfl

/-- A core's part splits into its sixteen tiles' (its share of each image into their tokens, what remains kept aside),
    and what they hand back joins to the core's. -/
theorem core_split (d : Dev nD) (c : Fin (grid0.bound 0)) (x0 : Buf (Elt F) (x0Loc d)) (x1 : Buf (Elt F) (x1Loc d))
    (f0 : Buf (Elt F) (o0Loc d)) (f1 : Buf (Elt F) (o1Loc d)) :
    coreRes d c x0 x1 f0 f1 ⊢ |={Set.univ}=> iprop(
      (bigSep Finset.univ fun s : Fin (grid0.bound 1) => goRes d (coordsV c s) x0 x1 f0 f1)
      ∗ ((bigSep Finset.univ fun s : Fin (grid0.bound 1) => tdRes d (coordsV c s) x0 x1) -∗ coreRes d c x0 x1 (pat0 d x0) (pat1 d x1))) := by
  rw [go_eq, td_eq]
  unfold coreRes
  iintro ⟨Hx0, Hx1, Ho0, Ho1⟩
  ihave Hx0' := (share_split (ℓ := x0Loc d) (coreShare c.val) (grid0.bound 1) x0).1 $$ Hx0
  icases Hx0' with ⟨Hr0, Hx0⟩
  ihave Hx1' := (share_split (ℓ := x1Loc d) (coreShare c.val) (grid0.bound 1) x1).1 $$ Hx1
  icases Hx1' with ⟨Hr1, Hx1⟩
  imodintro
  isplitl [Hx0 Hx1 Ho0 Ho1]
  · isplitl [Hx0]; · iexact Hx0
    isplitl [Hx1]; · iexact Hx1
    isplitl [Ho0]; · iexact Ho0
    iexact Ho1
  iintro ⟨Hx0, Hx1, Ho0, Ho1⟩
  isplitl [Hr0 Hx0]
  · iapply (share_split (ℓ := x0Loc d) (coreShare c.val) (grid0.bound 1) x0).2
    isplitl [Hr0]; · iexact Hr0
    iexact Hx0
  isplitl [Hr1 Hx1]
  · iapply (share_split (ℓ := x1Loc d) (coreShare c.val) (grid0.bound 1) x1).2
    isplitl [Hr1]; · iexact Hr1
    iexact Hx1
  isplitl [Ho0]; · iexact Ho0
  iexact Ho1

theorem vecSplit : (K (F := F)).VecSplit' (P m) 0 := by
  intro d c
  exact core_split d ⟨c.val, c.isLt⟩ (X0 m d) (X1 m d) (m (o0Loc d)) (m (o1Loc d))

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev x0' : DevRef τ sig := Proc.devRef .tc (main_v0 : Ref sig .tc)
abbrev x1' : DevRef τ sig := Proc.devRef .tc (main_v1 : Ref sig .tc)
abbrev o0' : DevRef τ sig := Proc.devRef .tc (main_v2_0 : Ref sig .tc)
abbrev o1' : DevRef τ sig := Proc.devRef .tc (main_v2_1 : Ref sig .tc)

/-- The two reshapes. -/
abbrev opR0 : HloOp τ sig (Elt F) := StableHlo.reshape main_arg0 main_v0 rfl shapeCasts_S1x3x512x512_S786432
abbrev opR1 : HloOp τ sig (Elt F) := StableHlo.reshape main_arg1 main_v1 rfl shapeCasts_S1x3x512x512_S786432

/-- The TensorCore's arrays, all unscoped. -/
abbrev S6 : Finset (DevRef τ sig) := {a0', a1', x0', x1', o0', o1'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (x0Loc d ↦{fullShare} W x0')
      ∗ (x1Loc d ↦{fullShare} W x1') ∗ (o0Loc d ↦{fullShare} W o0') ∗ (o1Loc d ↦{fullShare} W o1')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (x0Loc d ↦{fullShare} W main_v0)
      ∗ (x1Loc d ↦{fullShare} W main_v1) ∗ (o0Loc d ↦{fullShare} W main_v2_0) ∗ (o1Loc d ↦{fullShare} W main_v2_1)) := by
  unfold unscopedBufs
  rw [show (Finset.univ.filter fun b : Ref sig .tc => ¬ b.isScoped) = {main_arg0, main_arg1, main_v0, main_v1, main_v2_0, main_v2_1} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the first and the second reshape. -/
def V0 (d : Dev nD) : Valuation τ sig (Elt F) := fun b => m (d, b)
def V1 (d : Dev nD) : Valuation τ sig (Elt F) := (opR0 (F := F)).result (V0 m d)
def V2 (d : Dev nD) : Valuation τ sig (Elt F) := (opR1 (F := F)).result (V1 m d)

omit [FloatOps F] in
theorem unscoped_held (d : Dev nD) : (unscopedBufs d (fun b => m ((SparseCore.T d).loc b)) : sProp 𝕄) = held (T d) S6 (V0 m d) := by
  rw [unscopedBufs_eq, held_S6]; rfl

omit [FloatOps F] in
theorem V1_of_ne (d : Dev nD) (b : DevRef τ sig) (h : b ≠ x0') : V1 m d b = V0 m d b :=
  (opR0 (F := F)).result_of_not_mem (V0 m d) (b := b) (fun hw => h (Finset.mem_singleton.mp hw))
omit [FloatOps F] in
theorem V2_of_ne (d : Dev nD) (b : DevRef τ sig) (h : b ≠ x1') : V2 m d b = V1 m d b :=
  (opR1 (F := F)).result_of_not_mem (V1 m d) (b := b) (fun hw => h (Finset.mem_singleton.mp hw))

omit [FloatOps F] in
theorem V2_a0 (d : Dev nD) : V2 m d a0' = m (a0Loc d) := (V2_of_ne m d a0' (by decide)).trans (V1_of_ne m d a0' (by decide))
omit [FloatOps F] in
theorem V2_a1 (d : Dev nD) : V2 m d a1' = m (a1Loc d) := (V2_of_ne m d a1' (by decide)).trans (V1_of_ne m d a1' (by decide))
omit [FloatOps F] in
theorem V2_o0 (d : Dev nD) : V2 m d o0' = m (o0Loc d) := (V2_of_ne m d o0' (by decide)).trans (V1_of_ne m d o0' (by decide))
omit [FloatOps F] in
theorem V2_o1 (d : Dev nD) : V2 m d o1' = m (o1Loc d) := (V2_of_ne m d o1' (by decide)).trans (V1_of_ne m d o1' (by decide))
omit [FloatOps F] in
theorem V2_x0 (d : Dev nD) : V2 m d x0' = X0 m d := by
  refine (V2_of_ne m d x0' (by decide)).trans ?_
  refine (StableHlo.reshape_result (τ := τ) (Val := Elt F) main_arg0 main_v0 rfl shapeCasts_S1x3x512x512_S786432 ⟨by decide, rfl⟩ ⟨by decide, rfl⟩ (V0 m d)).trans ?_
  rfl
omit [FloatOps F] in
theorem V2_x1 (d : Dev nD) : V2 m d x1' = X1 m d := by
  refine (StableHlo.reshape_result (τ := τ) (Val := Elt F) main_arg1 main_v1 rfl shapeCasts_S1x3x512x512_S786432 ⟨by decide, rfl⟩ ⟨by decide, rfl⟩ (V1 m d)).trans ?_
  show (shapeCast S786432 (V1 m d a1' : S1x3x512x512.Idx → Elt F .f32) shapeCasts_S1x3x512x512_S786432) = X1 m d
  rw [V1_of_ne m d a1' (by decide)]
  rfl

omit [FloatOps F] in
theorem held_V2 (d : Dev nD) :
    (held (T d) S6 (V2 m d) : sProp 𝕄) = iprop((a0Loc d ↦{fullShare} m (a0Loc d)) ∗ (a1Loc d ↦{fullShare} m (a1Loc d)) ∗ (x0Loc d ↦{fullShare} X0 m d)
      ∗ (x1Loc d ↦{fullShare} X1 m d) ∗ (o0Loc d ↦{fullShare} m (o0Loc d)) ∗ (o1Loc d ↦{fullShare} m (o1Loc d))) := by
  rw [held_S6, V2_a0, V2_a1, V2_x0, V2_x1, V2_o0, V2_o1]

omit [FloatOps F] in
theorem hR0 : (opR0 (F := F)).bufs ⊆ S6 := show ({a0', x0'} : Finset (DevRef τ sig)) ⊆ S6 by decide
omit [FloatOps F] in
theorem hR1 : (opR1 (F := F)).bufs ⊆ S6 := show ({a1', x1'} : Finset (DevRef τ sig)) ⊆ S6 by decide

/-- What the call takes for the two cores, and what it hands back: a read token of each flattened image per core, the
    two results whole. -/
theorem st0_eq (d : Dev nD) : (bigSep Finset.univ fun c : Fin ((K (F := F)).nCore 0) => (P m).st 0 d c)
    = iprop((bigSep Finset.univ fun c : Fin (grid0.bound 0) => x0Loc d ↦{Transfers.shareTokN fullShare c.val} X0 m d)
      ∗ (bigSep Finset.univ fun c : Fin (grid0.bound 0) => x1Loc d ↦{Transfers.shareTokN fullShare c.val} X1 m d)
      ∗ (o0Loc d ↦{fullShare} m (o0Loc d)) ∗ (o1Loc d ↦{fullShare} m (o1Loc d))) := by
  show (bigSep Finset.univ fun c : Fin (grid0.bound 0) => coreRes d c (X0 m d) (X1 m d) (m (o0Loc d)) (m (o1Loc d))) = _
  unfold coreRes
  rw [bigSep_sep', bigSep_sep', bigSep_sep', ← o0_tiles, ← o1_tiles]
theorem dn0_eq (d : Dev nD) : (bigSep Finset.univ fun c : Fin ((K (F := F)).nCore 0) => (P m).dn 0 d c)
    = iprop((bigSep Finset.univ fun c : Fin (grid0.bound 0) => x0Loc d ↦{Transfers.shareTokN fullShare c.val} X0 m d)
      ∗ (bigSep Finset.univ fun c : Fin (grid0.bound 0) => x1Loc d ↦{Transfers.shareTokN fullShare c.val} X1 m d)
      ∗ (o0Loc d ↦{fullShare} pat0 d (X0 m d)) ∗ (o1Loc d ↦{fullShare} pat1 d (X1 m d))) := by
  show (bigSep Finset.univ fun c : Fin (grid0.bound 0) => coreRes d c (X0 m d) (X1 m d) (pat0 d (X0 m d)) (pat1 d (X1 m d))) = _
  unfold coreRes
  rw [bigSep_sep', bigSep_sep', bigSep_sep', ← o0_tiles, ← o1_tiles]

/-- What @main leaves the claim: the two images at their launch contents, the two results at the patches. -/
abbrev FIN (d : Dev nD) : sProp 𝕄 :=
  iprop((a0Loc d ↦{fullShare} m (a0Loc d)) ∗ (a1Loc d ↦{fullShare} m (a1Loc d))
    ∗ (o0Loc d ↦{fullShare} pat0 d (X0 m d)) ∗ (o1Loc d ↦{fullShare} pat1 d (X1 m d)))

/-- @main on device `d`'s TensorCore: the two reshapes, then the one call from a read token of each flattening per core
    and the two results whole; the images kept aside throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := opR0) (S := S6) hR0 (V := V0 m d)) $$ [Hb Hheld]
  · isplitl [Hb]; · iexact Hb
    iexact Hheld
  iintro ⟨Hb, Hheld⟩
  rw [wp_ret]; imodintro
  -- the second
  iapply (wp_hlo_within 𝒱 (SparseCore.T d) none Set.univ (op := opR1) (S := S6) hR1 (V := V1 m d)) $$ [Hb Hheld]
  · isplitl [Hb]; · iexact Hb
    iexact Hheld
  iintro ⟨Hb, Hheld⟩
  rw [wp_ret]; imodintro
  ihave Hh := (Entails.of_eq (show (held (SparseCore.T d) S6 ((opR1 (F := F)).result (V1 m d)) : sProp 𝕄) = _ from held_V2 (F := F) m d)) $$ Hheld
  icases Hh with ⟨Ha0, Ha1, Hx0, Hx1, Ho0, Ho1⟩
  ihave Hx0' := (share_split (ℓ := x0Loc d) fullShare (grid0.bound 0) (X0 m d)).1 $$ Hx0
  icases Hx0' with ⟨-, Hx0⟩
  ihave Hx1' := (share_split (ℓ := x1Loc d) fullShare (grid0.bound 0) (X1 m d)).1 $$ Hx1
  icases Hx1' with ⟨-, Hx1⟩
  -- the call
  iapply ((K (F := F)).wp_run (D (F := F)) 𝒱 (EH := EH) (P := P m) κ d 0) $$ [Hst Hx0 Hx1 Ho0 Ho1 Ha0 Ha1]
  isplitr; · iexact Hctx
  isplitl [Hst]; · iexact Hst
  isplitl [Hx0 Hx1 Ho0 Ho1]
  · rw [st0_eq]
    isplitl [Hx0]; · iexact Hx0
    isplitl [Hx1]; · iexact Hx1
    isplitl [Ho0]; · iexact Ho0
    iexact Ho1
  iintro ⟨Hst, Hdn⟩
  ihave Hdn' := (Entails.of_eq (dn0_eq m d)) $$ Hdn
  icases Hdn' with ⟨-, -, Ho0, Ho1⟩
  imodintro
  isplitl [Hst]; · iexact Hst
  isplitl [Ha0]; · iexact Ha0
  isplitl [Ha1]; · iexact Ha1
  isplitl [Ho0]; · iexact Ho0
  iexact Ho1

def fq (d : Dev nD) (s' : Phys nD τ sig (Elt F)) : Prop :=
  s'.mem.mem (o0Loc d) = pat0 d (X0 m d) ∧ s'.mem.mem (o1Loc d) = pat1 d (X1 m d)
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho0, Ho1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (persistent_entails_right (SI_pointsTo_agree (st := s') (ℓ := o0Loc d) (I := Finset.univ) (q := fullShare) (f := pat0 d (X0 m d)))) $$ [HSI Ho0]
  · isplitl [HSI] <;> iassumption
  icases H with ⟨%h3, HSI, -⟩
  ihave H := (SI_pointsTo_agree (st := s') (ℓ := o1Loc d) (I := Finset.univ) (q := fullShare) (f := pat1 d (X1 m d))) $$ [HSI Ho1]
  · isplitl [HSI] <;> iassumption
  icases H with %h4
  ipureintro
  exact ⟨funext fun (i : Idx (o0Loc d)) => h3 i (Finset.mem_univ i), funext fun (i : Idx (o1Loc d)) => h4 i (Finset.mem_univ i),
    funext fun (i : Idx (a0Loc d)) => h1 i (Finset.mem_univ i), funext fun (i : Idx (a1Loc d)) => h2 i (Finset.mem_univ i)⟩

/-! ## The program's run -/

def QC : PUnit × MemSt nD τ sig (Elt F) → Prop := fun r => ∀ c : Dev nD,
  r.2.mem (o0Loc c) = Cert.Unfold.patches (α := Elt F .f32) (m (a0Loc c)) ∧ r.2.mem (o1Loc c) = Cert.Unfold.patches (α := Elt F .f32) (m (a1Loc c))
    ∧ r.2.mem (a0Loc c) = m (a0Loc c) ∧ r.2.mem (a1Loc c) = m (a1Loc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h => by
      intro c
      obtain ⟨h0, h1, h2, h3⟩ := h c
      exact ⟨h0.trans (pat0_X0 m c), h1.trans (pat1_X1 m c), h2, h3⟩)

end Cert.Proof.KB

end
-- ==== Proof.RefValue.lean ====
/-
  The reference computes the patches matrix: each of its two results is `Cert.Unfold.patches` of the matching argument.
  Read at an index `(r, f)`, the final reshape reads the five-axis array at `(r / 249, r % 249, f / 256, f % 256 / 16, f % 16)`,
  the transpose puts the channel in front again, the second gather reads column `2 (r % 249) + f % 16`, the first gather reads
  row `2 (r / 249) + f % 256 / 16` (both start indices are in range, so neither the wrap-around select nor the clamp acts),
  and the first reshape drops the image's unit axis.
-/
import proofs.«212940_g32057635897708_cont_8to1_b_1299_25_alg».proof.Proof.Spec
import proofs.«212940_g32057635897708_cont_8to1_b_1299_25_alg».proof.Proof.Gen.ReferenceIdeal.Run
import proofs.«212940_g32057635897708_cont_8to1_b_1299_25_alg».proof.Proof.Gen.ReferenceIdeal.Read
import Idealize.ShloMosaic.Lib.ValueIdx
import Idealize.ShloMosaic.Lib.Pipeline.Value
import Idealize.ShloMosaic.Lib.StableHlo.Predicate

noncomputable section

namespace Cert.ReferenceIdeal.RefValue

open Idealize.ShloMosaic Idealize.ShloMosaic.ValueIdx Idealize.SL.Sem Cert.ReferenceIdeal
open Facts₀

section Chain

variable [Facts₀] {α : Type}

/-- The first gather's dimension numbers: rows of a `[3, 512, 512]` array at `[249, 16, 1]` start indices. -/
abbrev g1 : GatherDims S3x512x512 S249x16x1 S3x249x16x512 := gather_S3x512x512_S249x16x1_S3x249x16x512_03_1_n_n_1_2_31512
/-- The second gather's dimension numbers: columns of a `[3, 249, 16, 512]` array at `[249, 16, 1]` start indices. -/
abbrev g2 : GatherDims S3x249x16x512 S249x16x1 S3x249x16x249x16 := gather_S3x249x16x512_S249x16x1_S3x249x16x249x16_012_3_n_n_3_2_3249161

theorem fin3_cases (a : Fin 3) : a = 0 ∨ a = 1 ∨ a = 2 := by decide +revert
theorem fin4_cases (a : Fin 4) : a = 0 ∨ a = 1 ∨ a = 2 ∨ a = 3 := by decide +revert

/-- The first gather at `(c, t, j, w)`: the operand at `(c, s, w)` with `s` the start index at `(t, j, 0)`, read signed and
    clamped into `[0, 511]`. -/
theorem gather1_apply (x : S3x512x512.Idx → α) (idx : IVec S249x16x1 32) (j : S3x249x16x512.Idx) :
    Host.gather g1 x idx j = x (ix3 (j 0) ⟨min (idx (ix3 (j 1) (j 2) 0)).toInt.toNat 511, by omega⟩ (j 3)) := by
  unfold Host.gather
  congr 1
  funext a
  refine Fin.ext ?_
  show g1.start j idx a + g1.batchCoord j a + g1.offCoord j a = _
  rw [GatherDims.batchCoord_eq_zero _ _ _ List.not_mem_nil, Nat.add_zero]
  rcases fin3_cases a with rfl | rfl | rfl
  · have hs : g1.start j idx 0 = 0 := by
      unfold GatherDims.start; exact dif_neg (show (0 : Fin 3) ∉ ([1] : List (Fin 3)) by decide)
    rw [hs, Nat.zero_add]; unfold GatherDims.offCoord
    rw [dif_pos (show (0 : Fin 3) ∈ g1.sKept from (show (0 : Fin 3) ∈ ([0, 2] : List (Fin 3)) by decide))]; rfl
  · rw [GatherDims.offCoord_eq_zero _ _ _ (show (1 : Fin 3) ∉ ([0, 2] : List (Fin 3)) by decide), Nat.add_zero]
    unfold GatherDims.start
    rw [dif_pos (show (1 : Fin 3) ∈ g1.startIndexMap from (show (1 : Fin 3) ∈ ([1] : List (Fin 3)) by decide))]
    have hsi : g1.siIdx j ⟨List.idxOf (1 : Fin S3x512x512.rank) g1.startIndexMap, Nat.zero_lt_one⟩ = ix3 (j 1) (j 2) 0 := by
      funext b; refine Fin.ext ?_
      rcases fin3_cases b with rfl | rfl | rfl <;> rfl
    rw [hsi]; rfl
  · have hs : g1.start j idx 2 = 0 := by
      unfold GatherDims.start; exact dif_neg (show (2 : Fin 3) ∉ ([1] : List (Fin 3)) by decide)
    rw [hs, Nat.zero_add]; unfold GatherDims.offCoord
    rw [dif_pos (show (2 : Fin 3) ∈ g1.sKept from (show (2 : Fin 3) ∈ ([0, 2] : List (Fin 3)) by decide))]; rfl

/-- The second gather at `(c, t, j, t', j')`: the operand at `(c, t, j, s)` with `s` the start index at `(t', j', 0)`, read
    signed and clamped into `[0, 511]`. -/
theorem gather2_apply (x : S3x249x16x512.Idx → α) (idx : IVec S249x16x1 32) (j : S3x249x16x249x16.Idx) :
    Host.gather g2 x idx j = x (ix4 (j 0) (j 1) (j 2) ⟨min (idx (ix3 (j 3) (j 4) 0)).toInt.toNat 511, by omega⟩) := by
  unfold Host.gather
  congr 1
  funext a
  refine Fin.ext ?_
  show g2.start j idx a + g2.batchCoord j a + g2.offCoord j a = _
  rw [GatherDims.batchCoord_eq_zero _ _ _ List.not_mem_nil, Nat.add_zero]
  rcases fin4_cases a with rfl | rfl | rfl | rfl
  · have hs : g2.start j idx 0 = 0 := by
      unfold GatherDims.start; exact dif_neg (show (0 : Fin 4) ∉ ([3] : List (Fin 4)) by decide)
    rw [hs, Nat.zero_add]; unfold GatherDims.offCoord
    rw [dif_pos (show (0 : Fin 4) ∈ g2.sKept from (show (0 : Fin 4) ∈ ([0, 1, 2] : List (Fin 4)) by decide))]; rfl
  · have hs : g2.start j idx 1 = 0 := by
      unfold GatherDims.start; exact dif_neg (show (1 : Fin 4) ∉ ([3] : List (Fin 4)) by decide)
    rw [hs, Nat.zero_add]; unfold GatherDims.offCoord
    rw [dif_pos (show (1 : Fin 4) ∈ g2.sKept from (show (1 : Fin 4) ∈ ([0, 1, 2] : List (Fin 4)) by decide))]; rfl
  · have hs : g2.start j idx 2 = 0 := by
      unfold GatherDims.start; exact dif_neg (show (2 : Fin 4) ∉ ([3] : List (Fin 4)) by decide)
    rw [hs, Nat.zero_add]; unfold GatherDims.offCoord
    rw [dif_pos (show (2 : Fin 4) ∈ g2.sKept from (show (2 : Fin 4) ∈ ([0, 1, 2] : List (Fin 4)) by decide))]; rfl
  · rw [GatherDims.offCoord_eq_zero _ _ _ (show (3 : Fin 4) ∉ ([0, 1, 2] : List (Fin 4)) by decide), Nat.add_zero]
    unfold GatherDims.start
    rw [dif_pos (show (3 : Fin 4) ∈ g2.startIndexMap from (show (3 : Fin 4) ∈ ([3] : List (Fin 4)) by decide))]
    have hsi : g2.siIdx j ⟨List.idxOf (3 : Fin S3x249x16x512.rank) g2.startIndexMap, Nat.zero_lt_one⟩ = ix3 (j 3) (j 4) 0 := by
      funext b; refine Fin.ext ?_
      rcases fin3_cases b with rfl | rfl | rfl <;> rfl
    rw [hsi]; rfl

/-- The word `2 t + j`, as the program computes it. -/
def rowWord (t j : Nat) : BitVec 32 := IntOp.addi (IntOp.muli (BitVec.ofNat 32 t) 2#32) (BitVec.ofNat 32 j)

theorem rowWord_toNat {t j : Nat} (ht : t < 249) (hj : j < 16) : (rowWord t j).toNat = 2 * t + j := by
  unfold rowWord IntOp.addi IntOp.muli
  simp only [BitVec.toNat_add, BitVec.toNat_mul, BitVec.toNat_ofNat]
  omega

/-- The start indices of both gathers: entry `(t, j, 0)` is `2 t + j`, wrapped into range if negative. -/
def startIdx : IVec S249x16x1 32 :=
  broadcastInDim S249x16x1 ![0, 1] bcast_S249x16_S249x16x1_0_1
    (select
      (cmpi .slt
        (addi (broadcastInDim S249x16 ![0, 1] bcast_S249x1_S249x16_0_1 (broadcastInDim S249x1 ![0] bcast_S249_S249x1_0 (muli (iotaInDim S249 32 0) (broadcastInDim S249 ![] bcast_S_S249 (constantI S_ 32 2#32)))))
          (broadcastInDim S249x16 ![0, 1] bcast_S1x16_S249x16_0_1 (broadcastInDim S1x16 ![1] bcast_S16_S1x16_1 (iotaInDim S16 32 0))))
        (broadcastInDim S249x16 ![] bcast_S_S249x16 (constantI S_ 32 0#32)))
      (addi
        (addi (broadcastInDim S249x16 ![0, 1] bcast_S249x1_S249x16_0_1 (broadcastInDim S249x1 ![0] bcast_S249_S249x1_0 (muli (iotaInDim S249 32 0) (broadcastInDim S249 ![] bcast_S_S249 (constantI S_ 32 2#32)))))
          (broadcastInDim S249x16 ![0, 1] bcast_S1x16_S249x16_0_1 (broadcastInDim S1x16 ![1] bcast_S16_S1x16_1 (iotaInDim S16 32 0))))
        (broadcastInDim S249x16 ![] bcast_S_S249x16 (constantI S_ 32 512#32)))
      (addi (broadcastInDim S249x16 ![0, 1] bcast_S249x1_S249x16_0_1 (broadcastInDim S249x1 ![0] bcast_S249_S249x1_0 (muli (iotaInDim S249 32 0) (broadcastInDim S249 ![] bcast_S_S249 (constantI S_ 32 2#32)))))
          (broadcastInDim S249x16 ![0, 1] bcast_S1x16_S249x16_0_1 (broadcastInDim S1x16 ![1] bcast_S16_S1x16_1 (iotaInDim S16 32 0)))))

theorem startIdx_apply (t : Fin 249) (j : Fin 16) (z : Fin 1) :
    startIdx (ix3 t j z) = Scalar.select (IntOp.cmpi .slt (rowWord t.val j.val) 0#32) (IntOp.addi (rowWord t.val j.val) 512#32) (rowWord t.val j.val) := rfl

theorem startIdx_clamped (t : Fin 249) (j : Fin 16) (z : Fin 1) :
    min (startIdx (ix3 t j z)).toInt.toNat 511 = 2 * t.val + j.val := by
  have hw := rowWord_toNat t.isLt j.isLt
  have hlt : (rowWord t.val j.val).toNat < 2 ^ 31 := by rw [hw]; omega
  have hc : IntOp.cmpi .slt (rowWord t.val j.val) 0#32 ≠ 1#1 := by
    intro h
    have := (StableHlo.Predicate.slt_iff_toNat hlt (by decide)).1 h
    simp at this
  rw [startIdx_apply, eq_zero_of_ne_one hc, select_zero, StableHlo.Predicate.toInt_eq_toNat_of_lt hlt, hw]
  omega

/-- One result of the program as a function of one image: drop the unit axis, gather the rows `2 i + kh`, gather the
    columns `2 i' + kw`, bring the patch position in front, and flatten. -/
def unfoldChain (x : S1x3x512x512.Idx → α) : S62001x768.Idx → α :=
  shapeCast S62001x768
    (transpose S249x249x3x16x16 [1, 3, 0, 2, 4]
      (Host.gather g2 (Host.gather g1 (shapeCast S3x512x512 x shapeCasts_S1x3x512x512_S3x512x512) startIdx) startIdx)
      transposes_S3x249x16x249x16_S249x249x3x16x16_1_3_0_2_4)
    shapeCasts_S249x249x3x16x16_S62001x768

theorem fin5_cases (a : Fin 5) : a = 0 ∨ a = 1 ∨ a = 2 ∨ a = 3 ∨ a = 4 := by decide +revert

/-- The chain is the patches matrix: entry `(r, f)` is the pixel of channel `f / 256` at row `2 (r / 249) + (f % 256) / 16`
    and column `2 (r % 249) + f % 16`. -/
theorem unfoldChain_eq (x : S1x3x512x512.Idx → α) : unfoldChain x = Cert.Unfold.patches x := by
  funext y
  have h0 : (y 0).val < 62001 := idx2_lt0 y
  have h1 : (y 1).val < 768 := idx2_lt1 y
  -- the coordinates of the five-axis index with the row-major position of `y`
  let i : Fin 249 := ⟨(y 0).val / 249, by omega⟩
  let i' : Fin 249 := ⟨(y 0).val % 249, by omega⟩
  let c : Fin 3 := ⟨(y 1).val / 256, by omega⟩
  let kh : Fin 16 := ⟨(y 1).val % 256 / 16, by omega⟩
  let kw : Fin 16 := ⟨(y 1).val % 16, by omega⟩
  unfold unfoldChain
  refine (shapeCast_apply _ _ y (ix5 i i' c kh kw) ?_).trans ?_
  · rw [Shape.rowMajor_val_five, Shape.rowMajor_val_two]
    show ((((y 0).val / 249 * 249 + (y 0).val % 249) * 3 + (y 1).val / 256) * 16 + (y 1).val % 256 / 16) * 16 + (y 1).val % 16
      = (y 0).val * 768 + (y 1).val
    omega
  refine (transpose_apply _ _ _ (ix5 i i' c kh kw) (ix5 c i kh i' kw) ?_).trans ?_
  · intro b
    rcases fin5_cases b with rfl | rfl | rfl | rfl | rfl <;> rfl
  rw [gather2_apply, gather1_apply]
  refine (shapeCast_apply _ _ _ (ix4 (0 : Fin 1) c ⟨2 * i.val + kh.val, by omega⟩ ⟨2 * i'.val + kw.val, by omega⟩) ?_).trans ?_
  · rw [Shape.rowMajor_val_four, Shape.rowMajor_val_three]
    show ((0 * 3 + c.val) * 512 + (2 * i.val + kh.val)) * 512 + (2 * i'.val + kw.val)
      = (c.val * 512 + min (startIdx (ix3 i kh 0)).toInt.toNat 511) * 512 + min (startIdx (ix3 i' kw 0)).toInt.toNat 511
    rw [startIdx_clamped, startIdx_clamped]
    omega
  rw [Cert.Unfold.patches_apply]
  refine congrArg x (funext fun a => Fin.ext ?_)
  rcases fin4_cases a with rfl | rfl | rfl | rfl <;> rfl

end Chain

/-! ## The run -/

/-- The stage that writes the first result, as a function of the first image, is the chain above: the same operations,
    the start indices spelt once. -/
theorem val_main_v34_eq_chain (x : (⟨S1x3x512x512, .f32⟩ : BufTy).Contents (Elt Ideal)) :
    Cert.ReferenceIdeal.Read.val_main_v34 (F := Ideal) x = unfoldChain x := rfl
/-- The same for the second result and the second image. -/
theorem val_main_v69_eq_chain (x : (⟨S1x3x512x512, .f32⟩ : BufTy).Contents (Elt Ideal)) :
    Cert.ReferenceIdeal.Read.val_main_v69 (F := Ideal) x = unfoldChain x := rfl

/-- Every weakly fair execution of the reference ends with both results at the patches matrices of the two images, the
    images unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
      r.2.mem ((c.tc : Thread Cert.ReferenceIdeal.nD Cert.ReferenceIdeal.τ).loc Cert.ReferenceIdeal.main_v34)
          = Cert.Unfold.patches (m' ((c.tc : Thread _ _).loc Cert.ReferenceIdeal.main_arg0))
      ∧ r.2.mem ((c.tc : Thread _ _).loc Cert.ReferenceIdeal.main_v69)
          = Cert.Unfold.patches (m' ((c.tc : Thread _ _).loc Cert.ReferenceIdeal.main_arg1))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)) :=
  (θ_run (Cert.ReferenceIdeal.defs (F := Ideal)) _ _).mono
    (fun _ h c => ⟨(h c).1.trans ((Cert.ReferenceIdeal.Read.val_main_v34_eq (F := Ideal) _).trans
        ((val_main_v34_eq_chain _).trans (unfoldChain_eq _))),
      (h c).2.1.trans ((Cert.ReferenceIdeal.Read.val_main_v69_eq (F := Ideal) _).trans
        ((val_main_v69_eq_chain _).trans (unfoldChain_eq _))),
      (h c).2.2⟩)
    (Cert.ReferenceIdeal.Value.run (F := Ideal) m' g')

end Cert.ReferenceIdeal.RefValue

end
-- ==== Proof.lean ====
/-
  The five conjuncts of the claim. Each kernel program, run on all its threads (the TensorCore, the two sequencers,
  the thirty-two tiles), ends with each result array holding the patches matrix of the corresponding image
  (`Cert.Unfold.patches`: entry (249·i + j, 256·c + 16·kh + kw) is the pixel of channel c at row 2i + kh, column
  2j + kw) and with the two images unchanged; this is the launch's run, at either float instance. The reference
  computes the same two matrices. The three frames keep, of those runs, only that the images end unchanged; the
  idealization rewrote no operation; and the value claim pairs the kernel's run with the reference's at the one
  function `Cert.Unfold.patches`, the reference's images rewritten to the kernel's by the agreement of the arguments.
-/
import proofs.«212940_g32057635897708_cont_8to1_b_1299_25_alg».proof.Defs
import proofs.«212940_g32057635897708_cont_8to1_b_1299_25_alg».proof.Proof.Launch
import proofs.«212940_g32057635897708_cont_8to1_b_1299_25_alg».proof.Proof.LaunchBits
import proofs.«212940_g32057635897708_cont_8to1_b_1299_25_alg».proof.Proof.RefValue
import proofs.«212940_g32057635897708_cont_8to1_b_1299_25_alg».proof.Proof.Gen.ReferenceIdeal
import proofs.«212940_g32057635897708_cont_8to1_b_1299_25_alg».proof.Proof.Gen.Pre_finite_inputs

noncomputable section

namespace Cert.Proof

open Idealize.ShloMosaic Idealize.SL.Sem

/-- The kernel at the bit-level instance runs and leaves the images unchanged. -/
theorem frame_k : Cert.frame_Kernel := fun m ρ _ =>
  (θ_run Cert.Kernel.defs _ _).mono (fun _ h c => ⟨(h c).2.2.1, (h c).2.2.2⟩) (Cert.Proof.KB.run_main (F := Bits) m ρ)

/-- The kernel at the ideal instance runs and leaves the images unchanged. -/
theorem frame_ki : Cert.frame_KernelIdeal := fun m ρ _ =>
  (θ_run Cert.KernelIdeal.defs _ _).mono (fun _ h c => ⟨(h c).2.2.1, (h c).2.2.2⟩) (Cert.Proof.KI.run_main (F := Ideal) m ρ)

/-- The reference runs and leaves the images unchanged. -/
theorem frame_ri : Cert.frame_ReferenceIdeal := fun m ρ _ =>
  (θ_run Cert.ReferenceIdeal.defs _ _).mono (fun _ h c => ⟨(h c).2.2.1, (h c).2.2.2⟩) (Cert.ReferenceIdeal.RefValue.run m ρ)

/-- The idealization rewrote no operation. -/
theorem preserves : Cert.preserves_Kernel_KernelIdeal := trivial

/-- Kernel and reference, from memories that agree on the two images, both end with the images' patches matrices. -/
theorem algebraic : Cert.algebraic_KernelIdeal_ReferenceIdeal := by
  intro m ρ m' ρ' _ hagree
  refine ⟨fun c => Cert.Unfold.patches (α := Elt Ideal .f32) (m (Cert.Proof.KI.a0Loc c)),
    fun c => Cert.Unfold.patches (α := Elt Ideal .f32) (m (Cert.Proof.KI.a1Loc c)), ?_, ?_⟩
  · exact (θ_run Cert.KernelIdeal.defs _ _).mono (fun _ h c => h c) (Cert.Proof.KI.run_main (F := Ideal) m ρ)
  · refine (θ_run Cert.ReferenceIdeal.defs _ _).mono (fun _ h c => ?_) (Cert.ReferenceIdeal.RefValue.run m' ρ')
    obtain ⟨h0, h1, h2, h3⟩ := h c
    exact ⟨h0.trans (congrArg (Cert.Unfold.patches (α := Elt Ideal .f32)) (hagree c).1),
      h1.trans (congrArg (Cert.Unfold.patches (α := Elt Ideal .f32)) (hagree c).2), h2, h3⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
